-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v215) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S3x256x256 : Shape := ⟨3, ![3, 256, 256]⟩
abbrev S4x256x256 : Shape := ⟨3, ![4, 256, 256]⟩
abbrev S4x256 : Shape := ⟨2, ![4, 256]⟩
abbrev S128x64 : Shape := ⟨2, ![128, 64]⟩
abbrev S64 : Shape := ⟨1, ![64]⟩
abbrev S4x256x64 : Shape := ⟨3, ![4, 256, 64]⟩
abbrev S4x64 : Shape := ⟨2, ![4, 64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x256x64 : S_.BroadcastsInDim S4x256x64 (![] : Fin 0 → Fin S4x256x64.rank)
  reducesTo_S4x256x64_S_d0_1_2 : S4x256x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part3 {F : FTy → Type} [FloatOps F] (main_arg11 : FVec F S4x64 .f32) (main_v48 : IVec S_ 1) (main_v49 : FVec F S4x256x64 .f32) (main_v50 : FVec F S4x256x64 .f32) : IVec S_ 1 :=
  let main_v51 : IVec S4x256x64 1 := cmpf .olt main_v49 main_v50
  let main_c_19 : IVec S_ 1 := constantI S_ 1 1#1
  let main_v52 : IVec S_ 1 := (fun x v => Host.reduce IntOp.andi x v reducesTo_S4x256x64_S_d0_1_2 h_S_) main_v51 main_c_19
  let main_v53 : IVec S_ 1 := andi main_v48 main_v52
  let main_v54 : FVec F S4x64 .f32 := Host.absf main_arg11
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  main_v58

def fn_part2 {F : FTy → Type} [FloatOps F] (main_arg7 : FVec F S4x256 .f32) (main_arg8 : FVec F S128x64 .f32) (main_arg9 : FVec F S64 .f32) (main_arg10 : FVec F S4x256x64 .f32) (main_arg11 : FVec F S4x64 .f32) (main_v33 : IVec S_ 1) : IVec S_ 1 :=
  let main_v34 : FVec F S4x256 .f32 := Host.absf main_arg7
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S4x256x64 .f32 := Host.absf main_arg10
  let main_cst_18 : FVec F S_ .f32 := constant S_ .f32 0x7F800000#32
  let main_v50 : FVec F S4x256x64 .f32 := broadcastInDim S4x256x64 ![] bcast_S_S4x256x64 main_cst_18
  fn_part3 (F := F) main_arg11 main_v48 main_v49 main_v50

def fn_part1 {F : FTy → Type} [FloatOps F] (main_arg4 : FVec F S4x256 .f32) (main_arg5 : FVec F S4x256 .f32) (main_arg6 : FVec F S4x256 .f32) (main_arg7 : FVec F S4x256 .f32) (main_arg8 : FVec F S128x64 .f32) (main_arg9 : FVec F S64 .f32) (main_arg10 : FVec F S4x256x64 .f32) (main_arg11 : FVec F S4x64 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg4
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg5
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S128x256 .f32) (main_arg2 : FVec F S3x256x256 .f32) (main_arg3 : FVec F S4x256x256 .f32) (main_arg4 : FVec F S4x256 .f32) (main_arg5 : FVec F S4x256 .f32) (main_arg6 : FVec F S4x256 .f32) (main_arg7 : FVec F S4x256 .f32) (main_arg8 : FVec F S128x64 .f32) (main_arg9 : FVec F S64 .f32) (main_arg10 : FVec F S4x256x64 .f32) (main_arg11 : FVec F S4x64 .f32) (main_arg12 : IVec S800000 32) (main_arg13 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S3x256x256 .f32 := Host.absf main_arg2
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S128x256 : Shape := ⟨2, ![128, 256]⟩
abbrev S3x256x256 : Shape := ⟨3, ![3, 256, 256]⟩
abbrev S4x256x256 : Shape := ⟨3, ![4, 256, 256]⟩
abbrev S4x256 : Shape := ⟨2, ![4, 256]⟩
abbrev S128x64 : Shape := ⟨2, ![128, 64]⟩
abbrev S64 : Shape := ⟨1, ![64]⟩
abbrev S4x256x64 : Shape := ⟨3, ![4, 256, 64]⟩
abbrev S4x64 : Shape := ⟨2, ![4, 64]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256x256 : Shape := ⟨3, ![1, 256, 256]⟩
abbrev S256x256 : Shape := ⟨2, ![256, 256]⟩
abbrev S50000x256 : Shape := ⟨2, ![50000, 256]⟩
abbrev S2x256 : Shape := ⟨2, ![2, 256]⟩
abbrev S2000x128 : Shape := ⟨2, ![2000, 128]⟩
abbrev S2000x256 : Shape := ⟨2, ![2000, 256]⟩
abbrev S1x256 : Shape := ⟨2, ![1, 256]⟩
abbrev S256 : Shape := ⟨1, ![256]⟩
abbrev S800000x256 : Shape := ⟨2, ![800000, 256]⟩
abbrev S1x64 : Shape := ⟨2, ![1, 64]⟩
abbrev S50000x64 : Shape := ⟨2, ![50000, 64]⟩
abbrev S2000x64 : Shape := ⟨2, ![2000, 64]⟩
abbrev S1x256x64 : Shape := ⟨3, ![1, 256, 64]⟩
abbrev S256x64 : Shape := ⟨2, ![256, 64]⟩

abbrev nBuf : Space → Nat
  | .hbm => 266
  | .vmem => 120
  | .smem => 0
  | _ => 0

abbrev hbmTy0_0 (i : Nat) : BufTy := match i % 128 with
  | 0 => ⟨S50000x128, .f32⟩
  | 1 => ⟨S128x256, .f32⟩
  | 2 => ⟨S3x256x256, .f32⟩
  | 3 => ⟨S4x256x256, .f32⟩
  | 4 => ⟨S4x256, .f32⟩
  | 5 => ⟨S4x256, .f32⟩
  | 6 => ⟨S4x256, .f32⟩
  | 7 => ⟨S4x256, .f32⟩
  | 8 => ⟨S128x64, .f32⟩
  | 9 => ⟨S64, .f32⟩
  | 10 => ⟨S4x256x64, .f32⟩
  | 11 => ⟨S4x64, .f32⟩
  | 12 => ⟨S800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000x128, .f32⟩
  | 28 => ⟨S1x256x256, .f32⟩
  | 29 => ⟨S256x256, .f32⟩
  | 30 => ⟨S50000x256, .f32⟩
  | 31 => ⟨S2x256, .f32⟩
  | 32 => ⟨S1x256, .f32⟩
  | 33 => ⟨S256, .f32⟩
  | 34 => ⟨S_, .f32⟩
  | 35 => ⟨S256, .f32⟩
  | 36 => ⟨S256, .f32⟩
  | 37 => ⟨S1x256, .f32⟩
  | 38 => ⟨S256, .f32⟩
  | 39 => ⟨S_, .f32⟩
  | 40 => ⟨S256, .f32⟩
  | 41 => ⟨S256, .f32⟩
  | 42 => ⟨S256, .f32⟩
  | 43 => ⟨S256, .f32⟩
  | 44 => ⟨S1x256, .f32⟩
  | 45 => ⟨S1x256, .f32⟩
  | 46 => ⟨S1x256, .f32⟩
  | 47 => ⟨S256, .f32⟩
  | 48 => ⟨S1x256, .f32⟩
  | 49 => ⟨S1x256, .f32⟩
  | 50 => ⟨S256, .f32⟩
  | 51 => ⟨S1x256, .f32⟩
  | 52 => ⟨S50000x256, .f32⟩
  | 53 => ⟨S2x256, .f32⟩
  | 54 => ⟨S1x256, .f32⟩
  | 55 => ⟨S256, .f32⟩
  | 56 => ⟨S_, .f32⟩
  | 57 => ⟨S256, .f32⟩
  | 58 => ⟨S256, .f32⟩
  | 59 => ⟨S1x256, .f32⟩
  | 60 => ⟨S256, .f32⟩
  | 61 => ⟨S_, .f32⟩
  | 62 => ⟨S256, .f32⟩
  | 63 => ⟨S256, .f32⟩
  | 64 => ⟨S256, .f32⟩
  | 65 => ⟨S256, .f32⟩
  | 66 => ⟨S1x256, .f32⟩
  | 67 => ⟨S1x256, .f32⟩
  | 68 => ⟨S1x256, .f32⟩
  | 69 => ⟨S256, .f32⟩
  | 70 => ⟨S1x256, .f32⟩
  | 71 => ⟨S1x256, .f32⟩
  | 72 => ⟨S256, .f32⟩
  | 73 => ⟨S1x256, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S50000x256, .f32⟩
  | 89 => ⟨S1x256x256, .f32⟩
  | 90 => ⟨S256x256, .f32⟩
  | 91 => ⟨S1x256x256, .f32⟩
  | 92 => ⟨S256x256, .f32⟩
  | 93 => ⟨S50000x256, .f32⟩
  | 94 => ⟨S2x256, .f32⟩
  | 95 => ⟨S1x256, .f32⟩
  | 96 => ⟨S256, .f32⟩
  | 97 => ⟨S_, .f32⟩
  | 98 => ⟨S256, .f32⟩
  | 99 => ⟨S256, .f32⟩
  | 100 => ⟨S1x256, .f32⟩
  | 101 => ⟨S256, .f32⟩
  | 102 => ⟨S_, .f32⟩
  | 103 => ⟨S256, .f32⟩
  | 104 => ⟨S256, .f32⟩
  | 105 => ⟨S256, .f32⟩
  | 106 => ⟨S256, .f32⟩
  | 107 => ⟨S1x256, .f32⟩
  | 108 => ⟨S1x256, .f32⟩
  | 109 => ⟨S1x256, .f32⟩
  | 110 => ⟨S256, .f32⟩
  | 111 => ⟨S1x256, .f32⟩
  | 112 => ⟨S1x256, .f32⟩
  | 113 => ⟨S256, .f32⟩
  | 114 => ⟨S1x256, .f32⟩
  | 115 => ⟨S50000x256, .f32⟩
  | 116 => ⟨S2x256, .f32⟩
  | 117 => ⟨S1x256, .f32⟩
  | 118 => ⟨S256, .f32⟩
  | 119 => ⟨S_, .f32⟩
  | 120 => ⟨S256, .f32⟩
  | 121 => ⟨S256, .f32⟩
  | 122 => ⟨S1x256, .f32⟩
  | 123 => ⟨S256, .f32⟩
  | 124 => ⟨S_, .f32⟩
  | 125 => ⟨S256, .f32⟩
  | 126 => ⟨S256, .f32⟩
  | 127 => ⟨S256, .f32⟩
  | _ => ⟨S50000x128, .f32⟩

abbrev hbmTy0_1 (i : Nat) : BufTy := match i % 128 with
  | 0 => ⟨S256, .f32⟩
  | 1 => ⟨S1x256, .f32⟩
  | 2 => ⟨S1x256, .f32⟩
  | 3 => ⟨S1x256, .f32⟩
  | 4 => ⟨S256, .f32⟩
  | 5 => ⟨S1x256, .f32⟩
  | 6 => ⟨S1x256, .f32⟩
  | 7 => ⟨S256, .f32⟩
  | 8 => ⟨S1x256, .f32⟩
  | 9 => ⟨S50000x256, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x256, .f32⟩
  | 19 => ⟨S_, .f32⟩
  | 20 => ⟨S50000x256, .f32⟩
  | 21 => ⟨S800000x1, .i32⟩
  | 22 => ⟨S50000x256, .f32⟩
  | 23 => ⟨S50000x256, .f32⟩
  | 24 => ⟨S1x256x256, .f32⟩
  | 25 => ⟨S256x256, .f32⟩
  | 26 => ⟨S1x256x256, .f32⟩
  | 27 => ⟨S256x256, .f32⟩
  | 28 => ⟨S50000x256, .f32⟩
  | 29 => ⟨S2x256, .f32⟩
  | 30 => ⟨S1x256, .f32⟩
  | 31 => ⟨S256, .f32⟩
  | 32 => ⟨S_, .f32⟩
  | 33 => ⟨S256, .f32⟩
  | 34 => ⟨S256, .f32⟩
  | 35 => ⟨S1x256, .f32⟩
  | 36 => ⟨S256, .f32⟩
  | 37 => ⟨S_, .f32⟩
  | 38 => ⟨S256, .f32⟩
  | 39 => ⟨S256, .f32⟩
  | 40 => ⟨S256, .f32⟩
  | 41 => ⟨S256, .f32⟩
  | 42 => ⟨S1x256, .f32⟩
  | 43 => ⟨S1x256, .f32⟩
  | 44 => ⟨S1x256, .f32⟩
  | 45 => ⟨S256, .f32⟩
  | 46 => ⟨S1x256, .f32⟩
  | 47 => ⟨S1x256, .f32⟩
  | 48 => ⟨S256, .f32⟩
  | 49 => ⟨S1x256, .f32⟩
  | 50 => ⟨S50000x256, .f32⟩
  | 51 => ⟨S2x256, .f32⟩
  | 52 => ⟨S1x256, .f32⟩
  | 53 => ⟨S256, .f32⟩
  | 54 => ⟨S_, .f32⟩
  | 55 => ⟨S256, .f32⟩
  | 56 => ⟨S256, .f32⟩
  | 57 => ⟨S1x256, .f32⟩
  | 58 => ⟨S256, .f32⟩
  | 59 => ⟨S_, .f32⟩
  | 60 => ⟨S256, .f32⟩
  | 61 => ⟨S256, .f32⟩
  | 62 => ⟨S256, .f32⟩
  | 63 => ⟨S256, .f32⟩
  | 64 => ⟨S1x256, .f32⟩
  | 65 => ⟨S1x256, .f32⟩
  | 66 => ⟨S1x256, .f32⟩
  | 67 => ⟨S256, .f32⟩
  | 68 => ⟨S1x256, .f32⟩
  | 69 => ⟨S1x256, .f32⟩
  | 70 => ⟨S256, .f32⟩
  | 71 => ⟨S1x256, .f32⟩
  | 72 => ⟨S50000x256, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x256, .f32⟩
  | 82 => ⟨S_, .f32⟩
  | 83 => ⟨S50000x256, .f32⟩
  | 84 => ⟨S800000x1, .i32⟩
  | 85 => ⟨S50000x256, .f32⟩
  | 86 => ⟨S50000x256, .f32⟩
  | 87 => ⟨S1x256x256, .f32⟩
  | 88 => ⟨S256x256, .f32⟩
  | 89 => ⟨S1x256x256, .f32⟩
  | 90 => ⟨S256x256, .f32⟩
  | 91 => ⟨S50000x256, .f32⟩
  | 92 => ⟨S2x256, .f32⟩
  | 93 => ⟨S1x256, .f32⟩
  | 94 => ⟨S256, .f32⟩
  | 95 => ⟨S_, .f32⟩
  | 96 => ⟨S256, .f32⟩
  | 97 => ⟨S256, .f32⟩
  | 98 => ⟨S1x256, .f32⟩
  | 99 => ⟨S256, .f32⟩
  | 100 => ⟨S_, .f32⟩
  | 101 => ⟨S256, .f32⟩
  | 102 => ⟨S256, .f32⟩
  | 103 => ⟨S256, .f32⟩
  | 104 => ⟨S256, .f32⟩
  | 105 => ⟨S1x256, .f32⟩
  | 106 => ⟨S1x256, .f32⟩
  | 107 => ⟨S1x256, .f32⟩
  | 108 => ⟨S256, .f32⟩
  | 109 => ⟨S1x256, .f32⟩
  | 110 => ⟨S1x256, .f32⟩
  | 111 => ⟨S256, .f32⟩
  | 112 => ⟨S1x256, .f32⟩
  | 113 => ⟨S50000x256, .f32⟩
  | 114 => ⟨S2x256, .f32⟩
  | 115 => ⟨S1x256, .f32⟩
  | 116 => ⟨S256, .f32⟩
  | 117 => ⟨S_, .f32⟩
  | 118 => ⟨S256, .f32⟩
  | 119 => ⟨S256, .f32⟩
  | 120 => ⟨S1x256, .f32⟩
  | 121 => ⟨S256, .f32⟩
  | 122 => ⟨S_, .f32⟩
  | 123 => ⟨S256, .f32⟩
  | 124 => ⟨S256, .f32⟩
  | 125 => ⟨S256, .f32⟩
  | 126 => ⟨S256, .f32⟩
  | 127 => ⟨S1x256, .f32⟩
  | _ => ⟨S50000x128, .f32⟩

abbrev hbmTy0_2 (i : Nat) : BufTy := match i % 128 with
  | 0 => ⟨S1x256, .f32⟩
  | 1 => ⟨S1x256, .f32⟩
  | 2 => ⟨S256, .f32⟩
  | 3 => ⟨S1x256, .f32⟩
  | 4 => ⟨S1x256, .f32⟩
  | 5 => ⟨S256, .f32⟩
  | 6 => ⟨S1x256, .f32⟩
  | 7 => ⟨S50000x256, .f32⟩
  | 8 => ⟨S1x64, .f32⟩
  | 9 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2x256, .f32⟩
  | .local _ .vmem, ⟨6, _⟩ => ⟨S2x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x256, .f32⟩
  | .local _ .vmem, ⟨14, _⟩ => ⟨S2000x256, .f32⟩
  | .local _ .vmem, ⟨15, _⟩ => ⟨S2000x256, .f32⟩
  | .local _ .vmem, ⟨16, _⟩ => ⟨S2x256, .f32⟩
  | .local _ .vmem, ⟨17, _⟩ => ⟨S2x256, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S2000x256, .f32⟩
  | .local _ .vmem, ⟨30, _⟩ => ⟨S2000x256, .f32⟩
  | .local _ .vmem, ⟨31, _⟩ => ⟨S2x256, .f32⟩
  | .local _ .vmem, ⟨32, _⟩ => ⟨S2x256, .f32⟩
  | .local _ .vmem, ⟨33, _⟩ => ⟨S2000x256, .f32⟩
  | .local _ .vmem, ⟨34, _⟩ => ⟨S2000x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S256x256, .f32⟩
  | .local _ .vmem, ⟨40, _⟩ => ⟨S2000x256, .f32⟩
  | .local _ .vmem, ⟨41, _⟩ => ⟨S2000x256, .f32⟩
  | .local _ .vmem, ⟨42, _⟩ => ⟨S2x256, .f32⟩
  | .local _ .vmem, ⟨43, _⟩ => ⟨S2x256, .f32⟩
  | .local _ .vmem, ⟨44, _⟩ => ⟨S2000x256, .f32⟩
  | .local _ .vmem, ⟨45, _⟩ => ⟨S2000x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S256x256, .f32⟩
  | .local _ .vmem, ⟨55, _⟩ => ⟨S2000x256, .f32⟩
  | .local _ .vmem, ⟨56, _⟩ => ⟨S2000x256, .f32⟩
  | .local _ .vmem, ⟨57, _⟩ => ⟨S2x256, .f32⟩
  | .local _ .vmem, ⟨58, _⟩ => ⟨S2x256, .f32⟩
  | .local _ .vmem, ⟨59, _⟩ => ⟨S2000x256, .f32⟩
  | .local _ .vmem, ⟨60, _⟩ => ⟨S2000x256, .f32⟩
  | .local _ .vmem, ⟨61, _⟩ => ⟨S1x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S256x256, .f32⟩
  | .local _ .vmem, ⟨66, _⟩ => ⟨S2000x256, .f32⟩
  | .local _ .vmem, ⟨67, _⟩ => ⟨S2000x256, .f32⟩
  | .local _ .vmem, ⟨68, _⟩ => ⟨S2x256, .f32⟩
  | .local _ .vmem, ⟨69, _⟩ => ⟨S2x256, .f32⟩
  | .local _ .vmem, ⟨70, _⟩ => ⟨S2000x256, .f32⟩
  | .local _ .vmem, ⟨71, _⟩ => ⟨S2000x256, .f32⟩
  | .local _ .vmem, ⟨72, _⟩ => ⟨S1x256, .f32⟩
  | .local _ .vmem, ⟨73, _⟩ => ⟨S1x256, .f32⟩
  | .local _ .vmem, ⟨74, _⟩ => ⟨S1x256, .f32⟩
  | .local _ .vmem, ⟨75, _⟩ => ⟨S1x256, .f32⟩
  | .local _ .vmem, ⟨76, _⟩ => ⟨S2000x256, .f32⟩
  | .local _ .vmem, ⟨77, _⟩ => ⟨S2000x256, .f32⟩
  | .local _ .vmem, ⟨78, _⟩ => ⟨S2000x256, .f32⟩
  | .local _ .vmem, ⟨79, _⟩ => ⟨S2000x256, .f32⟩
  | .local _ .vmem, ⟨80, _⟩ => ⟨S256x256, .f32⟩
  | .local _ .vmem, ⟨81, _⟩ => ⟨S2000x256, .f32⟩
  | .local _ .vmem, ⟨82, _⟩ => ⟨S2000x256, .f32⟩
  | .local _ .vmem, ⟨83, _⟩ => ⟨S2x256, .f32⟩
  | .local _ .vmem, ⟨84, _⟩ => ⟨S2x256, .f32⟩
  | .local _ .vmem, ⟨85, _⟩ => ⟨S2000x256, .f32⟩
  | .local _ .vmem, ⟨86, _⟩ => ⟨S2000x256, .f32⟩
  | .local _ .vmem, ⟨87, _⟩ => ⟨S1x256, .f32⟩
  | .local _ .vmem, ⟨88, _⟩ => ⟨S1x256, .f32⟩
  | .local _ .vmem, ⟨89, _⟩ => ⟨S1x256, .f32⟩
  | .local _ .vmem, ⟨90, _⟩ => ⟨S1x256, .f32⟩
  | .local _ .vmem, ⟨91, _⟩ => ⟨S256x256, .f32⟩
  | .local _ .vmem, ⟨92, _⟩ => ⟨S2000x256, .f32⟩
  | .local _ .vmem, ⟨93, _⟩ => ⟨S2000x256, .f32⟩
  | .local _ .vmem, ⟨94, _⟩ => ⟨S2x256, .f32⟩
  | .local _ .vmem, ⟨95, _⟩ => ⟨S2x256, .f32⟩
  | .local _ .vmem, ⟨96, _⟩ => ⟨S2000x256, .f32⟩
  | .local _ .vmem, ⟨97, _⟩ => ⟨S2000x256, .f32⟩
  | .local _ .vmem, ⟨98, _⟩ => ⟨S1x256, .f32⟩
  | .local _ .vmem, ⟨99, _⟩ => ⟨S1x256, .f32⟩
  | .local _ .vmem, ⟨100, _⟩ => ⟨S1x256, .f32⟩
  | .local _ .vmem, ⟨101, _⟩ => ⟨S1x256, .f32⟩
  | .local _ .vmem, ⟨102, _⟩ => ⟨S2000x256, .f32⟩
  | .local _ .vmem, ⟨103, _⟩ => ⟨S2000x256, .f32⟩
  | .local _ .vmem, ⟨104, _⟩ => ⟨S2000x128, .f32⟩
  | .local _ .vmem, ⟨105, _⟩ => ⟨S2000x128, .f32⟩
  | .local _ .vmem, ⟨106, _⟩ => ⟨S2000x256, .f32⟩
  | .local _ .vmem, ⟨107, _⟩ => ⟨S2000x256, .f32⟩
  | .local _ .vmem, ⟨108, _⟩ => ⟨S2000x256, .f32⟩
  | .local _ .vmem, ⟨109, _⟩ => ⟨S2000x256, .f32⟩
  | .local _ .vmem, ⟨110, _⟩ => ⟨S2000x256, .f32⟩
  | .local _ .vmem, ⟨111, _⟩ => ⟨S2000x256, .f32⟩
  | .local _ .vmem, ⟨112, _⟩ => ⟨S2000x256, .f32⟩
  | .local _ .vmem, ⟨113, _⟩ => ⟨S2000x256, .f32⟩
  | .local _ .vmem, ⟨114, _⟩ => ⟨S128x64, .f32⟩
  | .local _ .vmem, ⟨115, _⟩ => ⟨S1x64, .f32⟩
  | .local _ .vmem, ⟨116, _⟩ => ⟨S4x256x64, .f32⟩
  | .local _ .vmem, ⟨117, _⟩ => ⟨S4x64, .f32⟩
  | .local _ .vmem, ⟨118, _⟩ => ⟨S2000x64, .f32⟩
  | .local _ .vmem, ⟨119, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67_0 : Ref sig .tc := ⟨.hbm, 93, rfl⟩
abbrev main_v67_1 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86_0 : Ref sig .tc := ⟨.hbm, 115, rfl⟩
abbrev main_v86_1 : Ref sig .tc := ⟨.hbm, 116, rfl⟩
abbrev main_v87 : Ref sig .tc := ⟨.hbm, 117, rfl⟩
abbrev main_v88 : Ref sig .tc := ⟨.hbm, 118, rfl⟩
abbrev main_cst_10 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_11 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_c_12 : Ref sig .tc := ⟨.hbm, 138, rfl⟩
abbrev main_v106 : Ref sig .tc := ⟨.hbm, 139, rfl⟩
abbrev main_v107 : Ref sig .tc := ⟨.hbm, 140, rfl⟩
abbrev main_c_13 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_14 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121_0 : Ref sig .tc := ⟨.hbm, 156, rfl⟩
abbrev main_v121_1 : Ref sig .tc := ⟨.hbm, 157, rfl⟩
abbrev main_v122 : Ref sig .tc := ⟨.hbm, 158, rfl⟩
abbrev main_v123 : Ref sig .tc := ⟨.hbm, 159, rfl⟩
abbrev main_cst_15 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_16 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140_0 : Ref sig .tc := ⟨.hbm, 178, rfl⟩
abbrev main_v140_1 : Ref sig .tc := ⟨.hbm, 179, rfl⟩
abbrev main_v141 : Ref sig .tc := ⟨.hbm, 180, rfl⟩
abbrev main_v142 : Ref sig .tc := ⟨.hbm, 181, rfl⟩
abbrev main_cst_17 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_18 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_c_19 : Ref sig .tc := ⟨.hbm, 201, rfl⟩
abbrev main_v160 : Ref sig .tc := ⟨.hbm, 202, rfl⟩
abbrev main_v161 : Ref sig .tc := ⟨.hbm, 203, rfl⟩
abbrev main_c_20 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_21 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175_0 : Ref sig .tc := ⟨.hbm, 219, rfl⟩
abbrev main_v175_1 : Ref sig .tc := ⟨.hbm, 220, rfl⟩
abbrev main_v176 : Ref sig .tc := ⟨.hbm, 221, rfl⟩
abbrev main_v177 : Ref sig .tc := ⟨.hbm, 222, rfl⟩
abbrev main_cst_22 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_23 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194_0 : Ref sig .tc := ⟨.hbm, 241, rfl⟩
abbrev main_v194_1 : Ref sig .tc := ⟨.hbm, 242, rfl⟩
abbrev main_v195 : Ref sig .tc := ⟨.hbm, 243, rfl⟩
abbrev main_v196 : Ref sig .tc := ⟨.hbm, 244, rfl⟩
abbrev main_cst_24 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_cst_25 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc4_scratch0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_scratch0 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg6_1 : Ref sig .tc := ⟨.vmem, 67, rfl⟩
abbrev cc7_stg7_0 : Ref sig .tc := ⟨.vmem, 68, rfl⟩
abbrev cc7_scratch0 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg2_1 : Ref sig .tc := ⟨.vmem, 82, rfl⟩
abbrev cc9_stg3_0 : Ref sig .tc := ⟨.vmem, 83, rfl⟩
abbrev cc9_scratch0 : Ref sig .tc := ⟨.vmem, 84, rfl⟩
abbrev cc10_stg0_0 : Ref sig .tc := ⟨.vmem, 85, rfl⟩
abbrev cc10_stg0_1 : Ref sig .tc := ⟨.vmem, 86, rfl⟩
abbrev cc10_stg1_0 : Ref sig .tc := ⟨.vmem, 87, rfl⟩
abbrev cc10_stg2_0 : Ref sig .tc := ⟨.vmem, 88, rfl⟩
abbrev cc10_stg3_0 : Ref sig .tc := ⟨.vmem, 89, rfl⟩
abbrev cc10_stg4_0 : Ref sig .tc := ⟨.vmem, 90, rfl⟩
abbrev cc10_stg5_0 : Ref sig .tc := ⟨.vmem, 91, rfl⟩
abbrev cc10_stg6_0 : Ref sig .tc := ⟨.vmem, 92, rfl⟩
abbrev cc10_stg6_1 : Ref sig .tc := ⟨.vmem, 93, rfl⟩
abbrev cc10_stg7_0 : Ref sig .tc := ⟨.vmem, 94, rfl⟩
abbrev cc10_scratch0 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg2_0 : Ref sig .tc := ⟨.vmem, 99, rfl⟩
abbrev cc11_stg3_0 : Ref sig .tc := ⟨.vmem, 100, rfl⟩
abbrev cc11_stg4_0 : Ref sig .tc := ⟨.vmem, 101, rfl⟩
abbrev cc11_stg5_0 : Ref sig .tc := ⟨.vmem, 102, rfl⟩
abbrev cc11_stg5_1 : Ref sig .tc := ⟨.vmem, 103, rfl⟩
abbrev cc12_stg0_0 : Ref sig .tc := ⟨.vmem, 104, rfl⟩
abbrev cc12_stg0_1 : Ref sig .tc := ⟨.vmem, 105, rfl⟩
abbrev cc12_stg1_0 : Ref sig .tc := ⟨.vmem, 106, rfl⟩
abbrev cc12_stg1_1 : Ref sig .tc := ⟨.vmem, 107, rfl⟩
abbrev cc12_stg2_0 : Ref sig .tc := ⟨.vmem, 108, rfl⟩
abbrev cc12_stg2_1 : Ref sig .tc := ⟨.vmem, 109, rfl⟩
abbrev cc12_stg3_0 : Ref sig .tc := ⟨.vmem, 110, rfl⟩
abbrev cc12_stg3_1 : Ref sig .tc := ⟨.vmem, 111, rfl⟩
abbrev cc12_stg4_0 : Ref sig .tc := ⟨.vmem, 112, rfl⟩
abbrev cc12_stg4_1 : Ref sig .tc := ⟨.vmem, 113, rfl⟩
abbrev cc12_stg5_0 : Ref sig .tc := ⟨.vmem, 114, rfl⟩
abbrev cc12_stg6_0 : Ref sig .tc := ⟨.vmem, 115, rfl⟩
abbrev cc12_stg7_0 : Ref sig .tc := ⟨.vmem, 116, rfl⟩
abbrev cc12_stg8_0 : Ref sig .tc := ⟨.vmem, 117, rfl⟩
abbrev cc12_stg9_0 : Ref sig .tc := ⟨.vmem, 118, rfl⟩
abbrev cc12_stg9_1 : Ref sig .tc := ⟨.vmem, 119, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem6_1 : DmaSem sig := 38
abbrev cc4_sem7_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem6_0 : DmaSem sig := 61
abbrev cc7_sem6_1 : DmaSem sig := 62
abbrev cc7_sem7_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem2_1 : DmaSem sig := 76
abbrev cc9_sem3_0 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem6_0 : DmaSem sig := 85
abbrev cc10_sem6_1 : DmaSem sig := 86
abbrev cc10_sem7_0 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100
abbrev cc12_sem2_1 : DmaSem sig := 101
abbrev cc12_sem3_0 : DmaSem sig := 102
abbrev cc12_sem3_1 : DmaSem sig := 103
abbrev cc12_sem4_0 : DmaSem sig := 104
abbrev cc12_sem4_1 : DmaSem sig := 105
abbrev cc12_sem5_0 : DmaSem sig := 106
abbrev cc12_sem6_0 : DmaSem sig := 107
abbrev cc12_sem7_0 : DmaSem sig := 108
abbrev cc12_sem8_0 : DmaSem sig := 109
abbrev cc12_sem9_0 : DmaSem sig := 110
abbrev cc12_sem9_1 : DmaSem sig := 111

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S2x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S2x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S2x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S2x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S2000x256 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S2x256 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S2000x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S2000x256 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S2000x256 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S128x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x64 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S4x256x64 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S4x64 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 2 → Memref sig .tc .vmem S2000x64 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x256x256_S1x256x256_0_0_0 : S4x256x256.Slices ![0, 0, 0] S1x256x256
  shapeCasts_S1x256x256_S256x256 : S1x256x256.ShapeCasts S256x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  inb_S2x256_S1x256_0_0 : ∀ a, (![0, 0] : Fin 2 → Nat) a + S1x256.size a ≤ S2x256.size a
  h_S1x256 : 0 < S1x256.numel
  reduces_S2000x256_S256 : S2000x256.Reduces [0] S256
  shapeCasts_S256_S1x256 : S256.ShapeCasts S1x256
  shapeCasts_S1x256_S1x256 : S1x256.ShapeCasts S1x256
  inb_S2x256_S1x256_1_0 : ∀ a, (![1, 0] : Fin 2 → Nat) a + S1x256.size a ≤ S2x256.size a
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  slices_S4x256_S1x256_0_0 : S4x256.Slices ![0, 0] S1x256
  shapeCasts_S2000x256_S2000x256 : S2000x256.ShapeCasts S2000x256
  inb_S1x256_S1x256_0_0 : ∀ a, (![0, 0] : Fin 2 → Nat) a + S1x256.size a ≤ S1x256.size a
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S50000x256 : S_.BroadcastsInDim S50000x256 (![] : Fin 0 → Fin S50000x256.rank)
  slices_S3x256x256_S1x256x256_0_0_0 : S3x256x256.Slices ![0, 0, 0] S1x256x256
  slices_S4x256x256_S1x256x256_1_0_0 : S4x256x256.Slices ![1, 0, 0] S1x256x256
  slices_S4x256_S1x256_1_0 : S4x256.Slices ![1, 0] S1x256
  slices_S3x256x256_S1x256x256_1_0_0 : S3x256x256.Slices ![1, 0, 0] S1x256x256
  slices_S4x256x256_S1x256x256_2_0_0 : S4x256x256.Slices ![2, 0, 0] S1x256x256
  slices_S4x256_S1x256_2_0 : S4x256.Slices ![2, 0] S1x256
  slices_S3x256x256_S1x256x256_2_0_0 : S3x256x256.Slices ![2, 0, 0] S1x256x256
  slices_S4x256x256_S1x256x256_3_0_0 : S4x256x256.Slices ![3, 0, 0] S1x256x256
  slices_S4x256_S1x256_3_0 : S4x256.Slices ![3, 0] S1x256
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S4x256x64_S1x256x64_0_0_0 : ∀ a, (![0, 0, 0] : Fin 3 → Nat) a + S1x256x64.size a ≤ S4x256x64.size a
  h_S1x256x64 : 0 < S1x256x64.numel
  shapeCasts_S1x256x64_S256x64 : S1x256x64.ShapeCasts S256x64
  inb_S4x64_S1x64_0_0 : ∀ a, (![0, 0] : Fin 2 → Nat) a + S1x64.size a ≤ S4x64.size a
  inb_S4x256x64_S1x256x64_1_0_0 : ∀ a, (![1, 0, 0] : Fin 3 → Nat) a + S1x256x64.size a ≤ S4x256x64.size a
  inb_S4x64_S1x64_1_0 : ∀ a, (![1, 0] : Fin 2 → Nat) a + S1x64.size a ≤ S4x64.size a
  inb_S4x256x64_S1x256x64_2_0_0 : ∀ a, (![2, 0, 0] : Fin 3 → Nat) a + S1x256x64.size a ≤ S4x256x64.size a
  inb_S4x64_S1x64_2_0 : ∀ a, (![2, 0] : Fin 2 → Nat) a + S1x64.size a ≤ S4x64.size a
  inb_S4x256x64_S1x256x64_3_0_0 : ∀ a, (![3, 0, 0] : Fin 3 → Nat) a + S1x256x64.size a ≤ S4x256x64.size a
  inb_S4x64_S1x64_3_0 : ∀ a, (![3, 0] : Fin 2 → Nat) a + S1x64.size a ≤ S4x64.size a
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x128_S128x64_S2000x64_1_0_0_1_n_n_wf : DotDims.WF S2000x128 S128x64 S2000x64 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256.size a ≤ S2x256.size a
  hwx0_3 : ∀ i : grid0.Coords, EltTy.bits .f32 = 32 ∨ (Rect.block (s := S2x256) S2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x256.size a ≤ S2x256.size a
  hwx1_7 : ∀ i : grid1.Coords, EltTy.bits .f32 = 32 ∨ (Rect.block (s := S2x256) S2x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x256.size a ≤ S2x256.size a
  hwx3_3 : ∀ i : grid3.Coords, EltTy.bits .f32 = 32 ∨ (Rect.block (s := S2x256) S2x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .f32 = 32 ∨ (Rect.block (s := S50000x256) S2000x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S2x256.size a ≤ S2x256.size a
  hwx4_7 : ∀ i : grid4.Coords, EltTy.bits .f32 = 32 ∨ (Rect.block (s := S2x256) S2x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S50000x256.size a
  hwx6_2 : ∀ i : grid6.Coords, EltTy.bits .f32 = 32 ∨ (Rect.block (s := S50000x256) S2000x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S2x256.size a ≤ S2x256.size a
  hwx6_3 : ∀ i : grid6.Coords, EltTy.bits .f32 = 32 ∨ (Rect.block (s := S2x256) S2x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x256.size a ≤ S256x256.size a
  hwx7_5 : ∀ i : grid7.Coords, EltTy.bits .f32 = 32 ∨ (Rect.block (s := S256x256) S256x256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x256.size a ≤ S50000x256.size a
  hwx7_6 : ∀ i : grid7.Coords, EltTy.bits .f32 = 32 ∨ (Rect.block (s := S50000x256) S2000x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S2x256.size a ≤ S2x256.size a
  hwx7_7 : ∀ i : grid7.Coords, EltTy.bits .f32 = 32 ∨ (Rect.block (s := S2x256) S2x256.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x256.size a ≤ S1x256.size a
  hwx8_1 : ∀ i : grid8.Coords, EltTy.bits .f32 = 32 ∨ (Rect.block (s := S1x256) S1x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x256.size a ≤ S50000x256.size a
  hwx8_5 : ∀ i : grid8.Coords, EltTy.bits .f32 = 32 ∨ (Rect.block (s := S50000x256) S2000x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S50000x256.size a
  hwx9_0 : ∀ i : grid9.Coords, EltTy.bits .f32 = 32 ∨ (Rect.block (s := S50000x256) S2000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .f32 = 32 ∨ (Rect.block (s := S256x256) S256x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x256.size a ≤ S50000x256.size a
  hwx9_2 : ∀ i : grid9.Coords, EltTy.bits .f32 = 32 ∨ (Rect.block (s := S50000x256) S2000x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S2x256.size a ≤ S2x256.size a
  hwx9_3 : ∀ i : grid9.Coords, EltTy.bits .f32 = 32 ∨ (Rect.block (s := S2x256) S2x256.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S50000x256.size a
  hwx10_0 : ∀ i : grid10.Coords, EltTy.bits .f32 = 32 ∨ (Rect.block (s := S50000x256) S2000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x256.size a ≤ S256x256.size a
  hwx10_5 : ∀ i : grid10.Coords, EltTy.bits .f32 = 32 ∨ (Rect.block (s := S256x256) S256x256.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S2000x256.size a ≤ S50000x256.size a
  hwx10_6 : ∀ i : grid10.Coords, EltTy.bits .f32 = 32 ∨ (Rect.block (s := S50000x256) S2000x256.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S2x256.size a ≤ S2x256.size a
  hwx10_7 : ∀ i : grid10.Coords, EltTy.bits .f32 = 32 ∨ (Rect.block (s := S2x256) S2x256.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x256.size a ≤ S50000x256.size a
  hwx11_0 : ∀ i : grid11.Coords, EltTy.bits .f32 = 32 ∨ (Rect.block (s := S50000x256) S2000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x256.size a ≤ S50000x256.size a
  hwx11_5 : ∀ i : grid11.Coords, EltTy.bits .f32 = 32 ∨ (Rect.block (s := S50000x256) S2000x256.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x256.size a ≤ S50000x256.size a
  hwx12_1 : ∀ i : grid12.Coords, EltTy.bits .f32 = 32 ∨ (Rect.block (s := S50000x256) S2000x256.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x256.size a ≤ S50000x256.size a
  hwx12_2 : ∀ i : grid12.Coords, EltTy.bits .f32 = 32 ∨ (Rect.block (s := S50000x256) S2000x256.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x256.size a ≤ S50000x256.size a
  hwx12_3 : ∀ i : grid12.Coords, EltTy.bits .f32 = 32 ∨ (Rect.block (s := S50000x256) S2000x256.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x256.size a ≤ S50000x256.size a
  hwx12_4 : ∀ i : grid12.Coords, EltTy.bits .f32 = 32 ∨ (Rect.block (s := S50000x256) S2000x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S128x64.size a ≤ S128x64.size a
  hwx12_5 : ∀ i : grid12.Coords, EltTy.bits .f32 = 32 ∨ (Rect.block (s := S128x64) S128x64.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x64.size a ≤ S1x64.size a
  hwx12_6 : ∀ i : grid12.Coords, EltTy.bits .f32 = 32 ∨ (Rect.block (s := S1x64) S1x64.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S4x256x64.size a ≤ S4x256x64.size a
  hwx12_7 : ∀ i : grid12.Coords, EltTy.bits .f32 = 32 ∨ (Rect.block (s := S4x256x64) S4x256x64.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S4x64.size a ≤ S4x64.size a
  hwx12_8 : ∀ i : grid12.Coords, EltTy.bits .f32 = 32 ∨ (Rect.block (s := S4x64) S4x64.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S2000x64.size a ≤ S50000x64.size a
  hwx12_9 : ∀ i : grid12.Coords, EltTy.bits .f32 = 32 ∨ (Rect.block (s := S50000x64) S2000x64.size (cc12_transform_9 i) (hinb12_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S2x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32_0) S2000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32_1) S2x256.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v32_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67_0) S2000x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67_1) S2x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v86_0) S2000x256.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v86_1) S2x256.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v86_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v116) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v118) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v121_0) S2000x256.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v121_1) S2x256.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v121_0) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v132) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v133) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v139) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v120) S256x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v140_0) S2000x256.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v140_1) S2x256.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v140_0) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v151) S1x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v152) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v155) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v158) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v159) S2000x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v170) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v172) S256x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v175_0) S2000x256.size cc9_transform_2 reads9_2 true false 2 stage9_2 sem9_2
    hrank9 hreads9_2 hinb9_2 nbuf9_2 (Memref.isWhole_whole _) hwx9_2 hstage9_2

abbrev win9_3 : Pipeline.Window sig grid9 :=
  Pipeline.Window.ofSpec (Memref.whole main_v175_1) S2x256.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v175_0) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v186) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v187) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v190) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v193) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v174) S256x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v194_0) S2000x256.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v194_1) S2x256.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v194_0) S2000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v205) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v206) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v209) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v212) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v213) S2000x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_arg0) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v51) S2000x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v105) S2000x256.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v159) S2000x256.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v213) S2000x256.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_arg8) S128x64.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v214) S1x64.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_arg10) S4x256x64.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_arg11) S4x64.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v215) S2000x64.size cc12_transform_9 reads12_9 true false 2 stage12_9 sem12_9
    hrank12 hreads12_9 hinb12_9 nbuf12_9 (Memref.isWhole_whole _) hwx12_9 hstage12_9

abbrev win12 : Fin 10 → Pipeline.Window sig grid12 := fun | 0 => win12_0 | 1 => win12_1 | 2 => win12_2 | 3 => win12_3 | 4 => win12_4 | 5 => win12_5 | 6 => win12_6 | 7 => win12_7 | 8 => win12_8 | 9 => win12_9 | ⟨_ + 10, h⟩ => absurd h (Nat.not_lt.2 (Nat.le_add_left _ _))
abbrev spec12 : Fin 10 → Pipeline.WinSpec sig grid12.rank := fun w => (win12 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S3x256x256 : Shape := ⟨3, ![3, 256, 256]⟩
abbrev S4x256x256 : Shape := ⟨3, ![4, 256, 256]⟩
abbrev S4x256 : Shape := ⟨2, ![4, 256]⟩
abbrev S128x64 : Shape := ⟨2, ![128, 64]⟩
abbrev S64 : Shape := ⟨1, ![64]⟩
abbrev S4x256x64 : Shape := ⟨3, ![4, 256, 64]⟩
abbrev S4x64 : Shape := ⟨2, ![4, 64]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩
abbrev S800000x256 : Shape := ⟨2, ![800000, 256]⟩
abbrev S50000x64 : Shape := ⟨2, ![50000, 64]⟩
abbrev S1x64 : Shape := ⟨2, ![1, 64]⟩
abbrev S1x256x64 : Shape := ⟨3, ![1, 256, 64]⟩
abbrev S256x64 : Shape := ⟨2, ![256, 64]⟩

abbrev nBuf : Space → Nat
  | .hbm => 540
  | .vmem => 0
  | .smem => 0
  | _ => 0

abbrev hbmTy0_0 (i : Nat) : BufTy := match i % 128 with
  | 0 => ⟨S50000x128, .f32⟩
  | 1 => ⟨S128x256, .f32⟩
  | 2 => ⟨S3x256x256, .f32⟩
  | 3 => ⟨S4x256x256, .f32⟩
  | 4 => ⟨S4x256, .f32⟩
  | 5 => ⟨S4x256, .f32⟩
  | 6 => ⟨S4x256, .f32⟩
  | 7 => ⟨S4x256, .f32⟩
  | 8 => ⟨S128x64, .f32⟩
  | 9 => ⟨S64, .f32⟩
  | 10 => ⟨S4x256x64, .f32⟩
  | 11 => ⟨S4x64, .f32⟩
  | 12 => ⟨S800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000x128, .f32⟩
  | 28 => ⟨S50000x256, .f32⟩
  | 29 => ⟨S1x256, .f32⟩
  | 30 => ⟨S256, .f32⟩
  | 31 => ⟨S1x256, .f32⟩
  | 32 => ⟨S256, .f32⟩
  | 33 => ⟨S_, .f32⟩
  | 34 => ⟨S256, .f32⟩
  | 35 => ⟨S_, .f32⟩
  | 36 => ⟨S256, .f32⟩
  | 37 => ⟨S256, .f32⟩
  | 38 => ⟨S_, .i32⟩
  | 39 => ⟨S_, .f32⟩
  | 40 => ⟨S256, .f32⟩
  | 41 => ⟨S1x256, .f32⟩
  | 42 => ⟨S_, .f32⟩
  | 43 => ⟨S1x256, .f32⟩
  | 44 => ⟨S1x256, .f32⟩
  | 45 => ⟨S50000x256, .f32⟩
  | 46 => ⟨S50000x256, .f32⟩
  | 47 => ⟨S50000x256, .f32⟩
  | 48 => ⟨S_, .f32⟩
  | 49 => ⟨S_, .f32⟩
  | 50 => ⟨S_, .f32⟩
  | 51 => ⟨S_, .f32⟩
  | 52 => ⟨S256, .f32⟩
  | 53 => ⟨S256, .f32⟩
  | 54 => ⟨S256, .f32⟩
  | 55 => ⟨S_, .f32⟩
  | 56 => ⟨S_, .i1⟩
  | 57 => ⟨S_, .f32⟩
  | 58 => ⟨S_, .f32⟩
  | 59 => ⟨S256, .f32⟩
  | 60 => ⟨S256, .f32⟩
  | 61 => ⟨S1x256, .f32⟩
  | 62 => ⟨S50000x256, .f32⟩
  | 63 => ⟨S50000x256, .f32⟩
  | 64 => ⟨S_, .f32⟩
  | 65 => ⟨S256, .f32⟩
  | 66 => ⟨S256, .f32⟩
  | 67 => ⟨S256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S1x256x256, .f32⟩
  | 81 => ⟨S256x256, .f32⟩
  | 82 => ⟨S50000x256, .f32⟩
  | 83 => ⟨S1x256, .f32⟩
  | 84 => ⟨S256, .f32⟩
  | 85 => ⟨S1x256, .f32⟩
  | 86 => ⟨S256, .f32⟩
  | 87 => ⟨S_, .f32⟩
  | 88 => ⟨S256, .f32⟩
  | 89 => ⟨S_, .f32⟩
  | 90 => ⟨S256, .f32⟩
  | 91 => ⟨S256, .f32⟩
  | 92 => ⟨S_, .i32⟩
  | 93 => ⟨S_, .f32⟩
  | 94 => ⟨S256, .f32⟩
  | 95 => ⟨S1x256, .f32⟩
  | 96 => ⟨S_, .f32⟩
  | 97 => ⟨S1x256, .f32⟩
  | 98 => ⟨S1x256, .f32⟩
  | 99 => ⟨S50000x256, .f32⟩
  | 100 => ⟨S50000x256, .f32⟩
  | 101 => ⟨S50000x256, .f32⟩
  | 102 => ⟨S_, .f32⟩
  | 103 => ⟨S_, .f32⟩
  | 104 => ⟨S_, .f32⟩
  | 105 => ⟨S_, .f32⟩
  | 106 => ⟨S256, .f32⟩
  | 107 => ⟨S256, .f32⟩
  | 108 => ⟨S256, .f32⟩
  | 109 => ⟨S_, .f32⟩
  | 110 => ⟨S_, .i1⟩
  | 111 => ⟨S_, .f32⟩
  | 112 => ⟨S_, .f32⟩
  | 113 => ⟨S256, .f32⟩
  | 114 => ⟨S256, .f32⟩
  | 115 => ⟨S1x256, .f32⟩
  | 116 => ⟨S50000x256, .f32⟩
  | 117 => ⟨S50000x256, .f32⟩
  | 118 => ⟨S_, .f32⟩
  | 119 => ⟨S256, .f32⟩
  | 120 => ⟨S256, .f32⟩
  | 121 => ⟨S256, .f32⟩
  | 122 => ⟨S1x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S1x256, .f32⟩
  | 1 => ⟨S50000x256, .f32⟩
  | 2 => ⟨S50000x256, .f32⟩
  | 3 => ⟨S_, .f32⟩
  | 4 => ⟨S50000x256, .f32⟩
  | 5 => ⟨S50000x256, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x256, .f32⟩
  | 15 => ⟨S_, .f32⟩
  | 16 => ⟨S50000x256, .f32⟩
  | 17 => ⟨S800000x1, .i32⟩
  | 18 => ⟨S50000x256, .f32⟩
  | 19 => ⟨S50000x256, .f32⟩
  | 20 => ⟨S1x256x256, .f32⟩
  | 21 => ⟨S256x256, .f32⟩
  | 22 => ⟨S50000x256, .f32⟩
  | 23 => ⟨S1x256, .f32⟩
  | 24 => ⟨S256, .f32⟩
  | 25 => ⟨S1x256, .f32⟩
  | 26 => ⟨S256, .f32⟩
  | 27 => ⟨S_, .f32⟩
  | 28 => ⟨S256, .f32⟩
  | 29 => ⟨S_, .f32⟩
  | 30 => ⟨S256, .f32⟩
  | 31 => ⟨S256, .f32⟩
  | 32 => ⟨S_, .i32⟩
  | 33 => ⟨S_, .f32⟩
  | 34 => ⟨S256, .f32⟩
  | 35 => ⟨S1x256, .f32⟩
  | 36 => ⟨S_, .f32⟩
  | 37 => ⟨S1x256, .f32⟩
  | 38 => ⟨S1x256, .f32⟩
  | 39 => ⟨S50000x256, .f32⟩
  | 40 => ⟨S50000x256, .f32⟩
  | 41 => ⟨S50000x256, .f32⟩
  | 42 => ⟨S_, .f32⟩
  | 43 => ⟨S_, .f32⟩
  | 44 => ⟨S_, .f32⟩
  | 45 => ⟨S_, .f32⟩
  | 46 => ⟨S256, .f32⟩
  | 47 => ⟨S256, .f32⟩
  | 48 => ⟨S256, .f32⟩
  | 49 => ⟨S_, .f32⟩
  | 50 => ⟨S_, .i1⟩
  | 51 => ⟨S_, .f32⟩
  | 52 => ⟨S_, .f32⟩
  | 53 => ⟨S256, .f32⟩
  | 54 => ⟨S256, .f32⟩
  | 55 => ⟨S1x256, .f32⟩
  | 56 => ⟨S50000x256, .f32⟩
  | 57 => ⟨S50000x256, .f32⟩
  | 58 => ⟨S_, .f32⟩
  | 59 => ⟨S256, .f32⟩
  | 60 => ⟨S256, .f32⟩
  | 61 => ⟨S256, .f32⟩
  | 62 => ⟨S1x256, .f32⟩
  | 63 => ⟨S50000x256, .f32⟩
  | 64 => ⟨S50000x256, .f32⟩
  | 65 => ⟨S1x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S1x256x256, .f32⟩
  | 75 => ⟨S256x256, .f32⟩
  | 76 => ⟨S50000x256, .f32⟩
  | 77 => ⟨S1x256, .f32⟩
  | 78 => ⟨S256, .f32⟩
  | 79 => ⟨S1x256, .f32⟩
  | 80 => ⟨S256, .f32⟩
  | 81 => ⟨S_, .f32⟩
  | 82 => ⟨S256, .f32⟩
  | 83 => ⟨S_, .f32⟩
  | 84 => ⟨S256, .f32⟩
  | 85 => ⟨S256, .f32⟩
  | 86 => ⟨S_, .i32⟩
  | 87 => ⟨S_, .f32⟩
  | 88 => ⟨S256, .f32⟩
  | 89 => ⟨S1x256, .f32⟩
  | 90 => ⟨S_, .f32⟩
  | 91 => ⟨S1x256, .f32⟩
  | 92 => ⟨S1x256, .f32⟩
  | 93 => ⟨S50000x256, .f32⟩
  | 94 => ⟨S50000x256, .f32⟩
  | 95 => ⟨S50000x256, .f32⟩
  | 96 => ⟨S_, .f32⟩
  | 97 => ⟨S_, .f32⟩
  | 98 => ⟨S_, .f32⟩
  | 99 => ⟨S_, .f32⟩
  | 100 => ⟨S256, .f32⟩
  | 101 => ⟨S256, .f32⟩
  | 102 => ⟨S256, .f32⟩
  | 103 => ⟨S_, .f32⟩
  | 104 => ⟨S_, .i1⟩
  | 105 => ⟨S_, .f32⟩
  | 106 => ⟨S_, .f32⟩
  | 107 => ⟨S256, .f32⟩
  | 108 => ⟨S256, .f32⟩
  | 109 => ⟨S1x256, .f32⟩
  | 110 => ⟨S50000x256, .f32⟩
  | 111 => ⟨S50000x256, .f32⟩
  | 112 => ⟨S_, .f32⟩
  | 113 => ⟨S256, .f32⟩
  | 114 => ⟨S256, .f32⟩
  | 115 => ⟨S256, .f32⟩
  | 116 => ⟨S1x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_2 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x256, .f32⟩
  | 9 => ⟨S_, .f32⟩
  | 10 => ⟨S50000x256, .f32⟩
  | 11 => ⟨S800000x1, .i32⟩
  | 12 => ⟨S50000x256, .f32⟩
  | 13 => ⟨S50000x256, .f32⟩
  | 14 => ⟨S1x256x256, .f32⟩
  | 15 => ⟨S256x256, .f32⟩
  | 16 => ⟨S50000x256, .f32⟩
  | 17 => ⟨S1x256, .f32⟩
  | 18 => ⟨S256, .f32⟩
  | 19 => ⟨S1x256, .f32⟩
  | 20 => ⟨S256, .f32⟩
  | 21 => ⟨S_, .f32⟩
  | 22 => ⟨S256, .f32⟩
  | 23 => ⟨S_, .f32⟩
  | 24 => ⟨S256, .f32⟩
  | 25 => ⟨S256, .f32⟩
  | 26 => ⟨S_, .i32⟩
  | 27 => ⟨S_, .f32⟩
  | 28 => ⟨S256, .f32⟩
  | 29 => ⟨S1x256, .f32⟩
  | 30 => ⟨S_, .f32⟩
  | 31 => ⟨S1x256, .f32⟩
  | 32 => ⟨S1x256, .f32⟩
  | 33 => ⟨S50000x256, .f32⟩
  | 34 => ⟨S50000x256, .f32⟩
  | 35 => ⟨S50000x256, .f32⟩
  | 36 => ⟨S_, .f32⟩
  | 37 => ⟨S_, .f32⟩
  | 38 => ⟨S_, .f32⟩
  | 39 => ⟨S_, .f32⟩
  | 40 => ⟨S256, .f32⟩
  | 41 => ⟨S256, .f32⟩
  | 42 => ⟨S256, .f32⟩
  | 43 => ⟨S_, .f32⟩
  | 44 => ⟨S_, .i1⟩
  | 45 => ⟨S_, .f32⟩
  | 46 => ⟨S_, .f32⟩
  | 47 => ⟨S256, .f32⟩
  | 48 => ⟨S256, .f32⟩
  | 49 => ⟨S1x256, .f32⟩
  | 50 => ⟨S50000x256, .f32⟩
  | 51 => ⟨S50000x256, .f32⟩
  | 52 => ⟨S_, .f32⟩
  | 53 => ⟨S256, .f32⟩
  | 54 => ⟨S256, .f32⟩
  | 55 => ⟨S256, .f32⟩
  | 56 => ⟨S1x256, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S50000x256, .f32⟩
  | 67 => ⟨S50000x256, .f32⟩
  | 68 => ⟨S1x256x256, .f32⟩
  | 69 => ⟨S256x256, .f32⟩
  | 70 => ⟨S50000x256, .f32⟩
  | 71 => ⟨S1x256, .f32⟩
  | 72 => ⟨S256, .f32⟩
  | 73 => ⟨S1x256, .f32⟩
  | 74 => ⟨S256, .f32⟩
  | 75 => ⟨S_, .f32⟩
  | 76 => ⟨S256, .f32⟩
  | 77 => ⟨S_, .f32⟩
  | 78 => ⟨S256, .f32⟩
  | 79 => ⟨S256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S50000x256, .f32⟩
  | 88 => ⟨S50000x256, .f32⟩
  | 89 => ⟨S50000x256, .f32⟩
  | 90 => ⟨S_, .f32⟩
  | 91 => ⟨S_, .f32⟩
  | 92 => ⟨S_, .f32⟩
  | 93 => ⟨S_, .f32⟩
  | 94 => ⟨S256, .f32⟩
  | 95 => ⟨S256, .f32⟩
  | 96 => ⟨S256, .f32⟩
  | 97 => ⟨S_, .f32⟩
  | 98 => ⟨S_, .i1⟩
  | 99 => ⟨S_, .f32⟩
  | 100 => ⟨S_, .f32⟩
  | 101 => ⟨S256, .f32⟩
  | 102 => ⟨S256, .f32⟩
  | 103 => ⟨S1x256, .f32⟩
  | 104 => ⟨S50000x256, .f32⟩
  | 105 => ⟨S50000x256, .f32⟩
  | 106 => ⟨S_, .f32⟩
  | 107 => ⟨S256, .f32⟩
  | 108 => ⟨S256, .f32⟩
  | 109 => ⟨S256, .f32⟩
  | 110 => ⟨S1x256, .f32⟩
  | 111 => ⟨S50000x256, .f32⟩
  | 112 => ⟨S50000x256, .f32⟩
  | 113 => ⟨S1x256, .f32⟩
  | 114 => ⟨S50000x256, .f32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_3 (i : Nat) : BufTy := match i % 128 with
  | 0 => ⟨S800000, .i32⟩
  | 1 => ⟨S800000x1, .i32⟩
  | 2 => ⟨S800000x256, .f32⟩
  | 3 => ⟨S_, .f32⟩
  | 4 => ⟨S50000x256, .f32⟩
  | 5 => ⟨S800000x1, .i32⟩
  | 6 => ⟨S50000x256, .f32⟩
  | 7 => ⟨S50000x256, .f32⟩
  | 8 => ⟨S1x256x256, .f32⟩
  | 9 => ⟨S256x256, .f32⟩
  | 10 => ⟨S50000x256, .f32⟩
  | 11 => ⟨S1x256, .f32⟩
  | 12 => ⟨S256, .f32⟩
  | 13 => ⟨S1x256, .f32⟩
  | 14 => ⟨S256, .f32⟩
  | 15 => ⟨S_, .f32⟩
  | 16 => ⟨S256, .f32⟩
  | 17 => ⟨S_, .f32⟩
  | 18 => ⟨S256, .f32⟩
  | 19 => ⟨S256, .f32⟩
  | 20 => ⟨S_, .i32⟩
  | 21 => ⟨S_, .f32⟩
  | 22 => ⟨S256, .f32⟩
  | 23 => ⟨S1x256, .f32⟩
  | 24 => ⟨S_, .f32⟩
  | 25 => ⟨S1x256, .f32⟩
  | 26 => ⟨S1x256, .f32⟩
  | 27 => ⟨S50000x256, .f32⟩
  | 28 => ⟨S50000x256, .f32⟩
  | 29 => ⟨S50000x256, .f32⟩
  | 30 => ⟨S_, .f32⟩
  | 31 => ⟨S_, .f32⟩
  | 32 => ⟨S_, .f32⟩
  | 33 => ⟨S_, .f32⟩
  | 34 => ⟨S256, .f32⟩
  | 35 => ⟨S256, .f32⟩
  | 36 => ⟨S256, .f32⟩
  | 37 => ⟨S_, .f32⟩
  | 38 => ⟨S_, .i1⟩
  | 39 => ⟨S_, .f32⟩
  | 40 => ⟨S_, .f32⟩
  | 41 => ⟨S256, .f32⟩
  | 42 => ⟨S256, .f32⟩
  | 43 => ⟨S1x256, .f32⟩
  | 44 => ⟨S50000x256, .f32⟩
  | 45 => ⟨S50000x256, .f32⟩
  | 46 => ⟨S_, .f32⟩
  | 47 => ⟨S256, .f32⟩
  | 48 => ⟨S256, .f32⟩
  | 49 => ⟨S256, .f32⟩
  | 50 => ⟨S1x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S1x256x256, .f32⟩
  | 63 => ⟨S256x256, .f32⟩
  | 64 => ⟨S50000x256, .f32⟩
  | 65 => ⟨S1x256, .f32⟩
  | 66 => ⟨S256, .f32⟩
  | 67 => ⟨S1x256, .f32⟩
  | 68 => ⟨S256, .f32⟩
  | 69 => ⟨S_, .f32⟩
  | 70 => ⟨S256, .f32⟩
  | 71 => ⟨S_, .f32⟩
  | 72 => ⟨S256, .f32⟩
  | 73 => ⟨S256, .f32⟩
  | 74 => ⟨S_, .i32⟩
  | 75 => ⟨S_, .f32⟩
  | 76 => ⟨S256, .f32⟩
  | 77 => ⟨S1x256, .f32⟩
  | 78 => ⟨S_, .f32⟩
  | 79 => ⟨S1x256, .f32⟩
  | 80 => ⟨S1x256, .f32⟩
  | 81 => ⟨S50000x256, .f32⟩
  | 82 => ⟨S50000x256, .f32⟩
  | 83 => ⟨S50000x256, .f32⟩
  | 84 => ⟨S_, .f32⟩
  | 85 => ⟨S_, .f32⟩
  | 86 => ⟨S_, .f32⟩
  | 87 => ⟨S_, .f32⟩
  | 88 => ⟨S256, .f32⟩
  | 89 => ⟨S256, .f32⟩
  | 90 => ⟨S256, .f32⟩
  | 91 => ⟨S_, .f32⟩
  | 92 => ⟨S_, .i1⟩
  | 93 => ⟨S_, .f32⟩
  | 94 => ⟨S_, .f32⟩
  | 95 => ⟨S256, .f32⟩
  | 96 => ⟨S256, .f32⟩
  | 97 => ⟨S1x256, .f32⟩
  | 98 => ⟨S50000x256, .f32⟩
  | 99 => ⟨S50000x256, .f32⟩
  | 100 => ⟨S_, .f32⟩
  | 101 => ⟨S256, .f32⟩
  | 102 => ⟨S256, .f32⟩
  | 103 => ⟨S256, .f32⟩
  | 104 => ⟨S1x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S1x256, .f32⟩
  | 111 => ⟨S50000x256, .f32⟩
  | 112 => ⟨S50000x256, .f32⟩
  | 113 => ⟨S_, .f32⟩
  | 114 => ⟨S50000x256, .f32⟩
  | 115 => ⟨S50000x256, .f32⟩
  | 116 => ⟨S50000x64, .f32⟩
  | 117 => ⟨S1x64, .f32⟩
  | 118 => ⟨S50000x64, .f32⟩
  | 119 => ⟨S50000x64, .f32⟩
  | 120 => ⟨S1x256x64, .f32⟩
  | 121 => ⟨S256x64, .f32⟩
  | 122 => ⟨S50000x64, .f32⟩
  | 123 => ⟨S50000x64, .f32⟩
  | 124 => ⟨S1x64, .f32⟩
  | 125 => ⟨S64, .f32⟩
  | 126 => ⟨S1x64, .f32⟩
  | 127 => ⟨S50000x64, .f32⟩
  | _ => ⟨S50000x128, .f32⟩

abbrev hbmTy0_4 (i : Nat) : BufTy := match i % 128 with
  | 0 => ⟨S50000x64, .f32⟩
  | 1 => ⟨S1x256x64, .f32⟩
  | 2 => ⟨S256x64, .f32⟩
  | 3 => ⟨S50000x64, .f32⟩
  | 4 => ⟨S50000x64, .f32⟩
  | 5 => ⟨S1x64, .f32⟩
  | 6 => ⟨S64, .f32⟩
  | 7 => ⟨S1x64, .f32⟩
  | 8 => ⟨S50000x64, .f32⟩
  | 9 => ⟨S50000x64, .f32⟩
  | 10 => ⟨S1x256x64, .f32⟩
  | 11 => ⟨S256x64, .f32⟩
  | 12 => ⟨S50000x64, .f32⟩
  | 13 => ⟨S50000x64, .f32⟩
  | 14 => ⟨S1x64, .f32⟩
  | 15 => ⟨S64, .f32⟩
  | 16 => ⟨S1x64, .f32⟩
  | 17 => ⟨S50000x64, .f32⟩
  | 18 => ⟨S50000x64, .f32⟩
  | 19 => ⟨S1x256x64, .f32⟩
  | 20 => ⟨S256x64, .f32⟩
  | 21 => ⟨S50000x64, .f32⟩
  | 22 => ⟨S50000x64, .f32⟩
  | 23 => ⟨S1x64, .f32⟩
  | 24 => ⟨S64, .f32⟩
  | 25 => ⟨S1x64, .f32⟩
  | 26 => ⟨S50000x64, .f32⟩
  | 27 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_4 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_call1_cst : Ref sig .tc := ⟨.hbm, 77, rfl⟩
abbrev main_call1_v0 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_5 : Ref sig .tc := ⟨.hbm, 87, rfl⟩
abbrev main_v43 : Ref sig .tc := ⟨.hbm, 88, rfl⟩
abbrev main_cst_6 : Ref sig .tc := ⟨.hbm, 89, rfl⟩
abbrev main_v44 : Ref sig .tc := ⟨.hbm, 90, rfl⟩
abbrev main_v45 : Ref sig .tc := ⟨.hbm, 91, rfl⟩
abbrev main_c_7 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst_3 : Ref sig .tc := ⟨.hbm, 109, rfl⟩
abbrev main_call2_v12 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_8 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_call3_cst : Ref sig .tc := ⟨.hbm, 131, rfl⟩
abbrev main_call3_v0 : Ref sig .tc := ⟨.hbm, 132, rfl⟩
abbrev main_v62 : Ref sig .tc := ⟨.hbm, 133, rfl⟩
abbrev main_c_9 : Ref sig .tc := ⟨.hbm, 134, rfl⟩
abbrev main_v63 : Ref sig .tc := ⟨.hbm, 135, rfl⟩
abbrev main_v64 : Ref sig .tc := ⟨.hbm, 136, rfl⟩
abbrev main_c_10 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_11 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_cst_12 : Ref sig .tc := ⟨.hbm, 155, rfl⟩
abbrev main_v81 : Ref sig .tc := ⟨.hbm, 156, rfl⟩
abbrev main_cst_13 : Ref sig .tc := ⟨.hbm, 157, rfl⟩
abbrev main_v82 : Ref sig .tc := ⟨.hbm, 158, rfl⟩
abbrev main_v83 : Ref sig .tc := ⟨.hbm, 159, rfl⟩
abbrev main_c_14 : Ref sig .tc := ⟨.hbm, 160, rfl⟩
abbrev main_call4_cst : Ref sig .tc := ⟨.hbm, 161, rfl⟩
abbrev main_call4_v0 : Ref sig .tc := ⟨.hbm, 162, rfl⟩
abbrev main_call4_v1 : Ref sig .tc := ⟨.hbm, 163, rfl⟩
abbrev main_call4_cst_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_v6 : Ref sig .tc := ⟨.hbm, 169, rfl⟩
abbrev main_call4_v7 : Ref sig .tc := ⟨.hbm, 170, rfl⟩
abbrev main_call4_cst_1 : Ref sig .tc := ⟨.hbm, 171, rfl⟩
abbrev main_call4_v8 : Ref sig .tc := ⟨.hbm, 172, rfl⟩
abbrev main_call4_cst_2 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_cst_3 : Ref sig .tc := ⟨.hbm, 177, rfl⟩
abbrev main_call4_v12 : Ref sig .tc := ⟨.hbm, 178, rfl⟩
abbrev main_call4_cst_4 : Ref sig .tc := ⟨.hbm, 179, rfl⟩
abbrev main_call4_call0_v0 : Ref sig .tc := ⟨.hbm, 180, rfl⟩
abbrev main_call4_call0_v1 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_cst_15 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_call5_cst : Ref sig .tc := ⟨.hbm, 199, rfl⟩
abbrev main_call5_v0 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_cst_16 : Ref sig .tc := ⟨.hbm, 209, rfl⟩
abbrev main_v108 : Ref sig .tc := ⟨.hbm, 210, rfl⟩
abbrev main_cst_17 : Ref sig .tc := ⟨.hbm, 211, rfl⟩
abbrev main_v109 : Ref sig .tc := ⟨.hbm, 212, rfl⟩
abbrev main_v110 : Ref sig .tc := ⟨.hbm, 213, rfl⟩
abbrev main_c_18 : Ref sig .tc := ⟨.hbm, 214, rfl⟩
abbrev main_call6_cst : Ref sig .tc := ⟨.hbm, 215, rfl⟩
abbrev main_call6_v0 : Ref sig .tc := ⟨.hbm, 216, rfl⟩
abbrev main_call6_v1 : Ref sig .tc := ⟨.hbm, 217, rfl⟩
abbrev main_call6_cst_0 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_v6 : Ref sig .tc := ⟨.hbm, 223, rfl⟩
abbrev main_call6_v7 : Ref sig .tc := ⟨.hbm, 224, rfl⟩
abbrev main_call6_cst_1 : Ref sig .tc := ⟨.hbm, 225, rfl⟩
abbrev main_call6_v8 : Ref sig .tc := ⟨.hbm, 226, rfl⟩
abbrev main_call6_cst_2 : Ref sig .tc := ⟨.hbm, 227, rfl⟩
abbrev main_call6_v9 : Ref sig .tc := ⟨.hbm, 228, rfl⟩
abbrev main_call6_v10 : Ref sig .tc := ⟨.hbm, 229, rfl⟩
abbrev main_call6_v11 : Ref sig .tc := ⟨.hbm, 230, rfl⟩
abbrev main_call6_cst_3 : Ref sig .tc := ⟨.hbm, 231, rfl⟩
abbrev main_call6_v12 : Ref sig .tc := ⟨.hbm, 232, rfl⟩
abbrev main_call6_cst_4 : Ref sig .tc := ⟨.hbm, 233, rfl⟩
abbrev main_call6_call0_v0 : Ref sig .tc := ⟨.hbm, 234, rfl⟩
abbrev main_call6_call0_v1 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_cst_19 : Ref sig .tc := ⟨.hbm, 240, rfl⟩
abbrev main_v115 : Ref sig .tc := ⟨.hbm, 241, rfl⟩
abbrev main_v116 : Ref sig .tc := ⟨.hbm, 242, rfl⟩
abbrev main_v117 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_v121 : Ref sig .tc := ⟨.hbm, 247, rfl⟩
abbrev main_v122 : Ref sig .tc := ⟨.hbm, 248, rfl⟩
abbrev main_v123 : Ref sig .tc := ⟨.hbm, 249, rfl⟩
abbrev main_v124 : Ref sig .tc := ⟨.hbm, 250, rfl⟩
abbrev main_v125 : Ref sig .tc := ⟨.hbm, 251, rfl⟩
abbrev main_v126 : Ref sig .tc := ⟨.hbm, 252, rfl⟩
abbrev main_call7_cst : Ref sig .tc := ⟨.hbm, 253, rfl⟩
abbrev main_call7_v0 : Ref sig .tc := ⟨.hbm, 254, rfl⟩
abbrev main_v127 : Ref sig .tc := ⟨.hbm, 255, rfl⟩
abbrev main_c_20 : Ref sig .tc := ⟨.hbm, 256, rfl⟩
abbrev main_v128 : Ref sig .tc := ⟨.hbm, 257, rfl⟩
abbrev main_v129 : Ref sig .tc := ⟨.hbm, 258, rfl⟩
abbrev main_c_21 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩
abbrev main_v134 : Ref sig .tc := ⟨.hbm, 264, rfl⟩
abbrev main_cst_22 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_cst_23 : Ref sig .tc := ⟨.hbm, 277, rfl⟩
abbrev main_v146 : Ref sig .tc := ⟨.hbm, 278, rfl⟩
abbrev main_cst_24 : Ref sig .tc := ⟨.hbm, 279, rfl⟩
abbrev main_v147 : Ref sig .tc := ⟨.hbm, 280, rfl⟩
abbrev main_v148 : Ref sig .tc := ⟨.hbm, 281, rfl⟩
abbrev main_c_25 : Ref sig .tc := ⟨.hbm, 282, rfl⟩
abbrev main_call8_cst : Ref sig .tc := ⟨.hbm, 283, rfl⟩
abbrev main_call8_v0 : Ref sig .tc := ⟨.hbm, 284, rfl⟩
abbrev main_call8_v1 : Ref sig .tc := ⟨.hbm, 285, rfl⟩
abbrev main_call8_cst_0 : Ref sig .tc := ⟨.hbm, 286, rfl⟩
abbrev main_call8_v2 : Ref sig .tc := ⟨.hbm, 287, rfl⟩
abbrev main_call8_v3 : Ref sig .tc := ⟨.hbm, 288, rfl⟩
abbrev main_call8_v4 : Ref sig .tc := ⟨.hbm, 289, rfl⟩
abbrev main_call8_v5 : Ref sig .tc := ⟨.hbm, 290, rfl⟩
abbrev main_call8_v6 : Ref sig .tc := ⟨.hbm, 291, rfl⟩
abbrev main_call8_v7 : Ref sig .tc := ⟨.hbm, 292, rfl⟩
abbrev main_call8_cst_1 : Ref sig .tc := ⟨.hbm, 293, rfl⟩
abbrev main_call8_v8 : Ref sig .tc := ⟨.hbm, 294, rfl⟩
abbrev main_call8_cst_2 : Ref sig .tc := ⟨.hbm, 295, rfl⟩
abbrev main_call8_v9 : Ref sig .tc := ⟨.hbm, 296, rfl⟩
abbrev main_call8_v10 : Ref sig .tc := ⟨.hbm, 297, rfl⟩
abbrev main_call8_v11 : Ref sig .tc := ⟨.hbm, 298, rfl⟩
abbrev main_call8_cst_3 : Ref sig .tc := ⟨.hbm, 299, rfl⟩
abbrev main_call8_v12 : Ref sig .tc := ⟨.hbm, 300, rfl⟩
abbrev main_call8_cst_4 : Ref sig .tc := ⟨.hbm, 301, rfl⟩
abbrev main_call8_call0_v0 : Ref sig .tc := ⟨.hbm, 302, rfl⟩
abbrev main_call8_call0_v1 : Ref sig .tc := ⟨.hbm, 303, rfl⟩
abbrev main_v149 : Ref sig .tc := ⟨.hbm, 304, rfl⟩
abbrev main_v150 : Ref sig .tc := ⟨.hbm, 305, rfl⟩
abbrev main_v151 : Ref sig .tc := ⟨.hbm, 306, rfl⟩
abbrev main_v152 : Ref sig .tc := ⟨.hbm, 307, rfl⟩
abbrev main_cst_26 : Ref sig .tc := ⟨.hbm, 308, rfl⟩
abbrev main_v153 : Ref sig .tc := ⟨.hbm, 309, rfl⟩
abbrev main_v154 : Ref sig .tc := ⟨.hbm, 310, rfl⟩
abbrev main_v155 : Ref sig .tc := ⟨.hbm, 311, rfl⟩
abbrev main_v156 : Ref sig .tc := ⟨.hbm, 312, rfl⟩
abbrev main_v157 : Ref sig .tc := ⟨.hbm, 313, rfl⟩
abbrev main_v158 : Ref sig .tc := ⟨.hbm, 314, rfl⟩
abbrev main_v159 : Ref sig .tc := ⟨.hbm, 315, rfl⟩
abbrev main_v160 : Ref sig .tc := ⟨.hbm, 316, rfl⟩
abbrev main_v161 : Ref sig .tc := ⟨.hbm, 317, rfl⟩
abbrev main_v162 : Ref sig .tc := ⟨.hbm, 318, rfl⟩
abbrev main_v163 : Ref sig .tc := ⟨.hbm, 319, rfl⟩
abbrev main_v164 : Ref sig .tc := ⟨.hbm, 320, rfl⟩
abbrev main_call9_cst : Ref sig .tc := ⟨.hbm, 321, rfl⟩
abbrev main_call9_v0 : Ref sig .tc := ⟨.hbm, 322, rfl⟩
abbrev main_v165 : Ref sig .tc := ⟨.hbm, 323, rfl⟩
abbrev main_v166 : Ref sig .tc := ⟨.hbm, 324, rfl⟩
abbrev main_v167 : Ref sig .tc := ⟨.hbm, 325, rfl⟩
abbrev main_v168 : Ref sig .tc := ⟨.hbm, 326, rfl⟩
abbrev main_v169 : Ref sig .tc := ⟨.hbm, 327, rfl⟩
abbrev main_v170 : Ref sig .tc := ⟨.hbm, 328, rfl⟩
abbrev main_v171 : Ref sig .tc := ⟨.hbm, 329, rfl⟩
abbrev main_v172 : Ref sig .tc := ⟨.hbm, 330, rfl⟩
abbrev main_cst_27 : Ref sig .tc := ⟨.hbm, 331, rfl⟩
abbrev main_v173 : Ref sig .tc := ⟨.hbm, 332, rfl⟩
abbrev main_cst_28 : Ref sig .tc := ⟨.hbm, 333, rfl⟩
abbrev main_v174 : Ref sig .tc := ⟨.hbm, 334, rfl⟩
abbrev main_v175 : Ref sig .tc := ⟨.hbm, 335, rfl⟩
abbrev main_c_29 : Ref sig .tc := ⟨.hbm, 336, rfl⟩
abbrev main_call10_cst : Ref sig .tc := ⟨.hbm, 337, rfl⟩
abbrev main_call10_v0 : Ref sig .tc := ⟨.hbm, 338, rfl⟩
abbrev main_call10_v1 : Ref sig .tc := ⟨.hbm, 339, rfl⟩
abbrev main_call10_cst_0 : Ref sig .tc := ⟨.hbm, 340, rfl⟩
abbrev main_call10_v2 : Ref sig .tc := ⟨.hbm, 341, rfl⟩
abbrev main_call10_v3 : Ref sig .tc := ⟨.hbm, 342, rfl⟩
abbrev main_call10_v4 : Ref sig .tc := ⟨.hbm, 343, rfl⟩
abbrev main_call10_v5 : Ref sig .tc := ⟨.hbm, 344, rfl⟩
abbrev main_call10_v6 : Ref sig .tc := ⟨.hbm, 345, rfl⟩
abbrev main_call10_v7 : Ref sig .tc := ⟨.hbm, 346, rfl⟩
abbrev main_call10_cst_1 : Ref sig .tc := ⟨.hbm, 347, rfl⟩
abbrev main_call10_v8 : Ref sig .tc := ⟨.hbm, 348, rfl⟩
abbrev main_call10_cst_2 : Ref sig .tc := ⟨.hbm, 349, rfl⟩
abbrev main_call10_v9 : Ref sig .tc := ⟨.hbm, 350, rfl⟩
abbrev main_call10_v10 : Ref sig .tc := ⟨.hbm, 351, rfl⟩
abbrev main_call10_v11 : Ref sig .tc := ⟨.hbm, 352, rfl⟩
abbrev main_call10_cst_3 : Ref sig .tc := ⟨.hbm, 353, rfl⟩
abbrev main_call10_v12 : Ref sig .tc := ⟨.hbm, 354, rfl⟩
abbrev main_call10_cst_4 : Ref sig .tc := ⟨.hbm, 355, rfl⟩
abbrev main_call10_call0_v0 : Ref sig .tc := ⟨.hbm, 356, rfl⟩
abbrev main_call10_call0_v1 : Ref sig .tc := ⟨.hbm, 357, rfl⟩
abbrev main_v176 : Ref sig .tc := ⟨.hbm, 358, rfl⟩
abbrev main_v177 : Ref sig .tc := ⟨.hbm, 359, rfl⟩
abbrev main_v178 : Ref sig .tc := ⟨.hbm, 360, rfl⟩
abbrev main_v179 : Ref sig .tc := ⟨.hbm, 361, rfl⟩
abbrev main_cst_30 : Ref sig .tc := ⟨.hbm, 362, rfl⟩
abbrev main_v180 : Ref sig .tc := ⟨.hbm, 363, rfl⟩
abbrev main_v181 : Ref sig .tc := ⟨.hbm, 364, rfl⟩
abbrev main_v182 : Ref sig .tc := ⟨.hbm, 365, rfl⟩
abbrev main_v183 : Ref sig .tc := ⟨.hbm, 366, rfl⟩
abbrev main_v184 : Ref sig .tc := ⟨.hbm, 367, rfl⟩
abbrev main_v185 : Ref sig .tc := ⟨.hbm, 368, rfl⟩
abbrev main_v186 : Ref sig .tc := ⟨.hbm, 369, rfl⟩
abbrev main_v187 : Ref sig .tc := ⟨.hbm, 370, rfl⟩
abbrev main_v188 : Ref sig .tc := ⟨.hbm, 371, rfl⟩
abbrev main_v189 : Ref sig .tc := ⟨.hbm, 372, rfl⟩
abbrev main_v190 : Ref sig .tc := ⟨.hbm, 373, rfl⟩
abbrev main_v191 : Ref sig .tc := ⟨.hbm, 374, rfl⟩
abbrev main_call11_cst : Ref sig .tc := ⟨.hbm, 375, rfl⟩
abbrev main_call11_v0 : Ref sig .tc := ⟨.hbm, 376, rfl⟩
abbrev main_v192 : Ref sig .tc := ⟨.hbm, 377, rfl⟩
abbrev main_c_31 : Ref sig .tc := ⟨.hbm, 378, rfl⟩
abbrev main_v193 : Ref sig .tc := ⟨.hbm, 379, rfl⟩
abbrev main_v194 : Ref sig .tc := ⟨.hbm, 380, rfl⟩
abbrev main_c_32 : Ref sig .tc := ⟨.hbm, 381, rfl⟩
abbrev main_v195 : Ref sig .tc := ⟨.hbm, 382, rfl⟩
abbrev main_v196 : Ref sig .tc := ⟨.hbm, 383, rfl⟩
abbrev main_v197 : Ref sig .tc := ⟨.hbm, 384, rfl⟩
abbrev main_v198 : Ref sig .tc := ⟨.hbm, 385, rfl⟩
abbrev main_v199 : Ref sig .tc := ⟨.hbm, 386, rfl⟩
abbrev main_cst_33 : Ref sig .tc := ⟨.hbm, 387, rfl⟩
abbrev main_v200 : Ref sig .tc := ⟨.hbm, 388, rfl⟩
abbrev main_v201 : Ref sig .tc := ⟨.hbm, 389, rfl⟩
abbrev main_v202 : Ref sig .tc := ⟨.hbm, 390, rfl⟩
abbrev main_v203 : Ref sig .tc := ⟨.hbm, 391, rfl⟩
abbrev main_v204 : Ref sig .tc := ⟨.hbm, 392, rfl⟩
abbrev main_v205 : Ref sig .tc := ⟨.hbm, 393, rfl⟩
abbrev main_v206 : Ref sig .tc := ⟨.hbm, 394, rfl⟩
abbrev main_v207 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_cst_34 : Ref sig .tc := ⟨.hbm, 399, rfl⟩
abbrev main_v211 : Ref sig .tc := ⟨.hbm, 400, rfl⟩
abbrev main_cst_35 : Ref sig .tc := ⟨.hbm, 401, rfl⟩
abbrev main_v212 : Ref sig .tc := ⟨.hbm, 402, rfl⟩
abbrev main_v213 : Ref sig .tc := ⟨.hbm, 403, rfl⟩
abbrev main_c_36 : Ref sig .tc := ⟨.hbm, 404, rfl⟩
abbrev main_call12_cst : Ref sig .tc := ⟨.hbm, 405, rfl⟩
abbrev main_call12_v0 : Ref sig .tc := ⟨.hbm, 406, rfl⟩
abbrev main_call12_v1 : Ref sig .tc := ⟨.hbm, 407, rfl⟩
abbrev main_call12_cst_0 : Ref sig .tc := ⟨.hbm, 408, rfl⟩
abbrev main_call12_v2 : Ref sig .tc := ⟨.hbm, 409, rfl⟩
abbrev main_call12_v3 : Ref sig .tc := ⟨.hbm, 410, rfl⟩
abbrev main_call12_v4 : Ref sig .tc := ⟨.hbm, 411, rfl⟩
abbrev main_call12_v5 : Ref sig .tc := ⟨.hbm, 412, rfl⟩
abbrev main_call12_v6 : Ref sig .tc := ⟨.hbm, 413, rfl⟩
abbrev main_call12_v7 : Ref sig .tc := ⟨.hbm, 414, rfl⟩
abbrev main_call12_cst_1 : Ref sig .tc := ⟨.hbm, 415, rfl⟩
abbrev main_call12_v8 : Ref sig .tc := ⟨.hbm, 416, rfl⟩
abbrev main_call12_cst_2 : Ref sig .tc := ⟨.hbm, 417, rfl⟩
abbrev main_call12_v9 : Ref sig .tc := ⟨.hbm, 418, rfl⟩
abbrev main_call12_v10 : Ref sig .tc := ⟨.hbm, 419, rfl⟩
abbrev main_call12_v11 : Ref sig .tc := ⟨.hbm, 420, rfl⟩
abbrev main_call12_cst_3 : Ref sig .tc := ⟨.hbm, 421, rfl⟩
abbrev main_call12_v12 : Ref sig .tc := ⟨.hbm, 422, rfl⟩
abbrev main_call12_cst_4 : Ref sig .tc := ⟨.hbm, 423, rfl⟩
abbrev main_call12_call0_v0 : Ref sig .tc := ⟨.hbm, 424, rfl⟩
abbrev main_call12_call0_v1 : Ref sig .tc := ⟨.hbm, 425, rfl⟩
abbrev main_v214 : Ref sig .tc := ⟨.hbm, 426, rfl⟩
abbrev main_v215 : Ref sig .tc := ⟨.hbm, 427, rfl⟩
abbrev main_v216 : Ref sig .tc := ⟨.hbm, 428, rfl⟩
abbrev main_v217 : Ref sig .tc := ⟨.hbm, 429, rfl⟩
abbrev main_cst_37 : Ref sig .tc := ⟨.hbm, 430, rfl⟩
abbrev main_v218 : Ref sig .tc := ⟨.hbm, 431, rfl⟩
abbrev main_v219 : Ref sig .tc := ⟨.hbm, 432, rfl⟩
abbrev main_v220 : Ref sig .tc := ⟨.hbm, 433, rfl⟩
abbrev main_v221 : Ref sig .tc := ⟨.hbm, 434, rfl⟩
abbrev main_v222 : Ref sig .tc := ⟨.hbm, 435, rfl⟩
abbrev main_v223 : Ref sig .tc := ⟨.hbm, 436, rfl⟩
abbrev main_v224 : Ref sig .tc := ⟨.hbm, 437, rfl⟩
abbrev main_v225 : Ref sig .tc := ⟨.hbm, 438, rfl⟩
abbrev main_v226 : Ref sig .tc := ⟨.hbm, 439, rfl⟩
abbrev main_v227 : Ref sig .tc := ⟨.hbm, 440, rfl⟩
abbrev main_v228 : Ref sig .tc := ⟨.hbm, 441, rfl⟩
abbrev main_v229 : Ref sig .tc := ⟨.hbm, 442, rfl⟩
abbrev main_call13_cst : Ref sig .tc := ⟨.hbm, 443, rfl⟩
abbrev main_call13_v0 : Ref sig .tc := ⟨.hbm, 444, rfl⟩
abbrev main_v230 : Ref sig .tc := ⟨.hbm, 445, rfl⟩
abbrev main_v231 : Ref sig .tc := ⟨.hbm, 446, rfl⟩
abbrev main_v232 : Ref sig .tc := ⟨.hbm, 447, rfl⟩
abbrev main_v233 : Ref sig .tc := ⟨.hbm, 448, rfl⟩
abbrev main_v234 : Ref sig .tc := ⟨.hbm, 449, rfl⟩
abbrev main_v235 : Ref sig .tc := ⟨.hbm, 450, rfl⟩
abbrev main_v236 : Ref sig .tc := ⟨.hbm, 451, rfl⟩
abbrev main_v237 : Ref sig .tc := ⟨.hbm, 452, rfl⟩
abbrev main_cst_38 : Ref sig .tc := ⟨.hbm, 453, rfl⟩
abbrev main_v238 : Ref sig .tc := ⟨.hbm, 454, rfl⟩
abbrev main_cst_39 : Ref sig .tc := ⟨.hbm, 455, rfl⟩
abbrev main_v239 : Ref sig .tc := ⟨.hbm, 456, rfl⟩
abbrev main_v240 : Ref sig .tc := ⟨.hbm, 457, rfl⟩
abbrev main_c_40 : Ref sig .tc := ⟨.hbm, 458, rfl⟩
abbrev main_call14_cst : Ref sig .tc := ⟨.hbm, 459, rfl⟩
abbrev main_call14_v0 : Ref sig .tc := ⟨.hbm, 460, rfl⟩
abbrev main_call14_v1 : Ref sig .tc := ⟨.hbm, 461, rfl⟩
abbrev main_call14_cst_0 : Ref sig .tc := ⟨.hbm, 462, rfl⟩
abbrev main_call14_v2 : Ref sig .tc := ⟨.hbm, 463, rfl⟩
abbrev main_call14_v3 : Ref sig .tc := ⟨.hbm, 464, rfl⟩
abbrev main_call14_v4 : Ref sig .tc := ⟨.hbm, 465, rfl⟩
abbrev main_call14_v5 : Ref sig .tc := ⟨.hbm, 466, rfl⟩
abbrev main_call14_v6 : Ref sig .tc := ⟨.hbm, 467, rfl⟩
abbrev main_call14_v7 : Ref sig .tc := ⟨.hbm, 468, rfl⟩
abbrev main_call14_cst_1 : Ref sig .tc := ⟨.hbm, 469, rfl⟩
abbrev main_call14_v8 : Ref sig .tc := ⟨.hbm, 470, rfl⟩
abbrev main_call14_cst_2 : Ref sig .tc := ⟨.hbm, 471, rfl⟩
abbrev main_call14_v9 : Ref sig .tc := ⟨.hbm, 472, rfl⟩
abbrev main_call14_v10 : Ref sig .tc := ⟨.hbm, 473, rfl⟩
abbrev main_call14_v11 : Ref sig .tc := ⟨.hbm, 474, rfl⟩
abbrev main_call14_cst_3 : Ref sig .tc := ⟨.hbm, 475, rfl⟩
abbrev main_call14_v12 : Ref sig .tc := ⟨.hbm, 476, rfl⟩
abbrev main_call14_cst_4 : Ref sig .tc := ⟨.hbm, 477, rfl⟩
abbrev main_call14_call0_v0 : Ref sig .tc := ⟨.hbm, 478, rfl⟩
abbrev main_call14_call0_v1 : Ref sig .tc := ⟨.hbm, 479, rfl⟩
abbrev main_v241 : Ref sig .tc := ⟨.hbm, 480, rfl⟩
abbrev main_v242 : Ref sig .tc := ⟨.hbm, 481, rfl⟩
abbrev main_v243 : Ref sig .tc := ⟨.hbm, 482, rfl⟩
abbrev main_v244 : Ref sig .tc := ⟨.hbm, 483, rfl⟩
abbrev main_cst_41 : Ref sig .tc := ⟨.hbm, 484, rfl⟩
abbrev main_v245 : Ref sig .tc := ⟨.hbm, 485, rfl⟩
abbrev main_v246 : Ref sig .tc := ⟨.hbm, 486, rfl⟩
abbrev main_v247 : Ref sig .tc := ⟨.hbm, 487, rfl⟩
abbrev main_v248 : Ref sig .tc := ⟨.hbm, 488, rfl⟩
abbrev main_v249 : Ref sig .tc := ⟨.hbm, 489, rfl⟩
abbrev main_v250 : Ref sig .tc := ⟨.hbm, 490, rfl⟩
abbrev main_v251 : Ref sig .tc := ⟨.hbm, 491, rfl⟩
abbrev main_v252 : Ref sig .tc := ⟨.hbm, 492, rfl⟩
abbrev main_v253 : Ref sig .tc := ⟨.hbm, 493, rfl⟩
abbrev main_v254 : Ref sig .tc := ⟨.hbm, 494, rfl⟩
abbrev main_v255 : Ref sig .tc := ⟨.hbm, 495, rfl⟩
abbrev main_v256 : Ref sig .tc := ⟨.hbm, 496, rfl⟩
abbrev main_call15_cst : Ref sig .tc := ⟨.hbm, 497, rfl⟩
abbrev main_call15_v0 : Ref sig .tc := ⟨.hbm, 498, rfl⟩
abbrev main_v257 : Ref sig .tc := ⟨.hbm, 499, rfl⟩
abbrev main_v258 : Ref sig .tc := ⟨.hbm, 500, rfl⟩
abbrev main_v259 : Ref sig .tc := ⟨.hbm, 501, rfl⟩
abbrev main_v260 : Ref sig .tc := ⟨.hbm, 502, rfl⟩
abbrev main_v261 : Ref sig .tc := ⟨.hbm, 503, rfl⟩
abbrev main_v262 : Ref sig .tc := ⟨.hbm, 504, rfl⟩
abbrev main_v263 : Ref sig .tc := ⟨.hbm, 505, rfl⟩
abbrev main_v264 : Ref sig .tc := ⟨.hbm, 506, rfl⟩
abbrev main_v265 : Ref sig .tc := ⟨.hbm, 507, rfl⟩
abbrev main_v266 : Ref sig .tc := ⟨.hbm, 508, rfl⟩
abbrev main_v267 : Ref sig .tc := ⟨.hbm, 509, rfl⟩
abbrev main_v268 : Ref sig .tc := ⟨.hbm, 510, rfl⟩
abbrev main_v269 : Ref sig .tc := ⟨.hbm, 511, rfl⟩
abbrev main_v270 : Ref sig .tc := ⟨.hbm, 512, rfl⟩
abbrev main_v271 : Ref sig .tc := ⟨.hbm, 513, rfl⟩
abbrev main_v272 : Ref sig .tc := ⟨.hbm, 514, rfl⟩
abbrev main_v273 : Ref sig .tc := ⟨.hbm, 515, rfl⟩
abbrev main_v274 : Ref sig .tc := ⟨.hbm, 516, rfl⟩
abbrev main_v275 : Ref sig .tc := ⟨.hbm, 517, rfl⟩
abbrev main_v276 : Ref sig .tc := ⟨.hbm, 518, rfl⟩
abbrev main_v277 : Ref sig .tc := ⟨.hbm, 519, rfl⟩
abbrev main_v278 : Ref sig .tc := ⟨.hbm, 520, rfl⟩
abbrev main_v279 : Ref sig .tc := ⟨.hbm, 521, rfl⟩
abbrev main_v280 : Ref sig .tc := ⟨.hbm, 522, rfl⟩
abbrev main_v281 : Ref sig .tc := ⟨.hbm, 523, rfl⟩
abbrev main_v282 : Ref sig .tc := ⟨.hbm, 524, rfl⟩
abbrev main_v283 : Ref sig .tc := ⟨.hbm, 525, rfl⟩
abbrev main_v284 : Ref sig .tc := ⟨.hbm, 526, rfl⟩
abbrev main_v285 : Ref sig .tc := ⟨.hbm, 527, rfl⟩
abbrev main_v286 : Ref sig .tc := ⟨.hbm, 528, rfl⟩
abbrev main_v287 : Ref sig .tc := ⟨.hbm, 529, rfl⟩
abbrev main_v288 : Ref sig .tc := ⟨.hbm, 530, rfl⟩
abbrev main_v289 : Ref sig .tc := ⟨.hbm, 531, rfl⟩
abbrev main_v290 : Ref sig .tc := ⟨.hbm, 532, rfl⟩
abbrev main_v291 : Ref sig .tc := ⟨.hbm, 533, rfl⟩
abbrev main_v292 : Ref sig .tc := ⟨.hbm, 534, rfl⟩
abbrev main_v293 : Ref sig .tc := ⟨.hbm, 535, rfl⟩
abbrev main_v294 : Ref sig .tc := ⟨.hbm, 536, rfl⟩
abbrev main_v295 : Ref sig .tc := ⟨.hbm, 537, rfl⟩
abbrev main_v296 : Ref sig .tc := ⟨.hbm, 538, rfl⟩
abbrev main_v297 : Ref sig .tc := ⟨.hbm, 539, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x256_S1x256_0_0 : S4x256.Slices ![0, 0] S1x256
  shapeCasts_S1x256_S256 : S1x256.ShapeCasts S256
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S3x256x256_S1x256x256_0_0_0 : S3x256x256.Slices ![0, 0, 0] S1x256x256
  slices_S4x256_S1x256_1_0 : S4x256.Slices ![1, 0] S1x256
  slices_S4x256x256_S1x256x256_1_0_0 : S4x256x256.Slices ![1, 0, 0] S1x256x256
  slices_S3x256x256_S1x256x256_1_0_0 : S3x256x256.Slices ![1, 0, 0] S1x256x256
  slices_S4x256_S1x256_2_0 : S4x256.Slices ![2, 0] S1x256
  slices_S4x256x256_S1x256x256_2_0_0 : S4x256x256.Slices ![2, 0, 0] S1x256x256
  slices_S3x256x256_S1x256x256_2_0_0 : S3x256x256.Slices ![2, 0, 0] S1x256x256
  slices_S4x256_S1x256_3_0 : S4x256.Slices ![3, 0] S1x256
  slices_S4x256x256_S1x256x256_3_0_0 : S4x256x256.Slices ![3, 0, 0] S1x256x256
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S4x256x64_S1x256x64_0_0_0 : S4x256x64.Slices ![0, 0, 0] S1x256x64
  shapeCasts_S1x256x64_S256x64 : S1x256x64.ShapeCasts S256x64
  slices_S4x64_S1x64_0_0 : S4x64.Slices ![0, 0] S1x64
  shapeCasts_S1x64_S64 : S1x64.ShapeCasts S64
  slices_S4x256x64_S1x256x64_1_0_0 : S4x256x64.Slices ![1, 0, 0] S1x256x64
  slices_S4x64_S1x64_1_0 : S4x64.Slices ![1, 0] S1x64
  slices_S4x256x64_S1x256x64_2_0_0 : S4x256x64.Slices ![2, 0, 0] S1x256x64
  slices_S4x64_S1x64_2_0 : S4x64.Slices ![2, 0] S1x64
  slices_S4x256x64_S1x256x64_3_0_0 : S4x256x64.Slices ![3, 0, 0] S1x256x64
  slices_S4x64_S1x64_3_0 : S4x64.Slices ![3, 0] S1x64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x128_S128x64_S50000x64_1_0_0_1_n_n_wf : DotDims.WF S50000x128 S128x64 S50000x64 [1] [0] [0] [1] [] []
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.K.R0.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the branch condition, the staging memrefs, the scratch -/

/-- The condition of the body's one conditional (the grid coordinate is zero), from the grid coordinates. -/
abbrev cond0 (i : grid0.Coords) : Prop :=
  (Scalar.cmpi .ne (Scalar.extui (Scalar.cmpi .eq (BitVec.ofNat 32 (i 0).val) 0#32)) 0#32) = 1#1

/-- It holds at the first point only: decided over the grid. -/
theorem hcond0 : ∀ t : Fin cfg0.N, cond0 (grid0.coords t) ↔ t.val = 0 :=
  (by decide +kernel : ∀ t : Fin grid0.N, cond0 (grid0.coords t) ↔ t.val = 0)

/-- No window of region 0 is ever idle. -/
theorem live0 (w : Fin cfg0.W) (i : grid0.Coords) : cfg0.idle w i = false := rfl

/-- Each window's current staging memref at point `t`, as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256 .f32 := win0_3.stage (cfg0.slots t 3)
abbrev hs0_3 (t : Fin cfg0.N) : (ms0_3 t).IsWhole := hstage0_3 ((cfg0.slots t 3).cast nbuf0_3)
/-- The scratch operand: a whole scoped buffer of the kernel's own, passed beside the windows. -/
abbrev scM0 : Memref sig .tc .vmem S2x256 .f32 := Memref.whole cc0_scratch0
/-- The scratch as a view: what it holds is stated through it. -/
abbrev VS0 : View sig .tc .vmem S2x256 .f32 := scM0.view
/-- One staging buffer of each output window, through which its contents are stated. -/
abbrev VO0_2 : View sig .tc .vmem S2000x256 .f32 := (Memref.whole cc0_stg2_0 : Memref sig .tc .vmem S2000x256 .f32).view
abbrev VO0_3 : View sig .tc .vmem S2x256 .f32 := (Memref.whole cc0_stg3_0 : Memref sig .tc .vmem S2x256 .f32).view

/-- The class invariant with the scratch as a memref owned at some contents, beside the rest of the scoped
    buffers and the generator register. -/
theorem PhiA0_eq (c : Dev nD) :
    (Pipeline.ΦA spec0 c : sProp 𝕄)
      = iprop(iprop(iprop((∃ d, owns (c : Thread nD τ) scM0 fullShare d)) ∗ Pipeline.scopedRestBut spec0 c [cc0_scratch0]) ∗ (∃ r, prngReg c r)) := by
  unfold Pipeline.ΦA; rw [scopedRest0_split]; simp only [scM0, owns_whole]; try rfl

set_option maxHeartbeats 1000000 in
/-- The body at the first point (the conditional taken): on whole staging memrefs, the inputs' at their contents, the
    outputs' and the scratch at anything, it runs to the continuation holding the inputs' as they were and each
    output and the scratch with its pieces written. The pieces are the witness the run finds. -/
noncomputable def kernelRun0_A (c : Dev nD) (i : grid0.Coords)
    (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_stats_kernel i arg1 harg1 arg2 harg2 arg3 harg3 arg4 harg4 arg5 harg5) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

set_option maxHeartbeats 1000000 in
/-- The body at a later point (the conditional not taken): the same, the scratch entering at the contents `xs0`
    the point before left. -/
noncomputable def kernelRun0_B (c : Dev nD) (i : grid0.Coords)
    (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_stats_kernel i arg1 harg1 arg2 harg2 arg3 harg3 arg4 harg4 arg5 harg5) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The pieces case A leaves in the product window tile its block, so they cover it. -/
theorem cover0_A_2 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) (y : S2000x256.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S2000x256.size (by sl_kernel_rfl) y

/-- What case A leaves in the product window's staging buffer: its pieces read back over junk. -/
def out0_A_2 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) : Vec F S2000x256 .f32 :=
  VO0_2.read (Elt F) (VO0_2.writes (Elt F) VO0_2.junk (kernelRun0_A c i arg1 harg1 arg2 harg2 arg3 harg3 arg4 harg4 arg5 harg5 hc0 x0 x1).1)

/-- The pieces case A leaves in the statistics window cover it (one whole store). -/
theorem cover0_A_3 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) (y : S2x256.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S2x256.size (by sl_kernel_rfl) y

/-- What case A leaves in the statistics window's staging buffer. -/
def out0_A_3 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) : Vec F S2x256 .f32 :=
  VO0_3.read (Elt F) (VO0_3.writes (Elt F) VO0_3.junk (kernelRun0_A c i arg1 harg1 arg2 harg2 arg3 harg3 arg4 harg4 arg5 harg5 hc0 x0 x1).2.1)

/-- The pieces case A leaves in the scratch cover it: its two rows, each stored whole. -/
theorem scover0_A (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) (y : S2x256.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 ![1, 256] (by sl_kernel_rfl) y

/-- What case A leaves in the scratch. -/
def sout0_A (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) : Vec F S2x256 .f32 :=
  VS0.read (Elt F) (VS0.writes (Elt F) VS0.junk (kernelRun0_A c i arg1 harg1 arg2 harg2 arg3 harg3 arg4 harg4 arg5 harg5 hc0 x0 x1).2.2.1)

/-- The pieces case B leaves in the product window tile its block, so they cover it. -/
theorem cover0_B_2 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) (y : S2000x256.Idx) :
    ∃ pc ∈ (kernelRun0_B c i arg1 harg1 arg2 harg2 arg3 harg3 arg4 harg4 arg5 harg5 hc0 x0 x1 xs0).1, y ∈ pc.1.set :=
  View.cover_of_tiledL (kernelRun0_B c i arg1 harg1 arg2 harg2 arg3 harg3 arg4 harg4 arg5 harg5 hc0 x0 x1 xs0).1 S2000x256.size (by sl_kernel_rfl) y

/-- What case B leaves in the product window's staging buffer: its pieces read back over junk. -/
def out0_B_2 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) : Vec F S2000x256 .f32 :=
  VO0_2.read (Elt F) (VO0_2.writes (Elt F) VO0_2.junk (kernelRun0_B c i arg1 harg1 arg2 harg2 arg3 harg3 arg4 harg4 arg5 harg5 hc0 x0 x1 xs0).1)

/-- The pieces case B leaves in the statistics window cover it (one whole store). -/
theorem cover0_B_3 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) (y : S2x256.Idx) :
    ∃ pc ∈ (kernelRun0_B c i arg1 harg1 arg2 harg2 arg3 harg3 arg4 harg4 arg5 harg5 hc0 x0 x1 xs0).2.1, y ∈ pc.1.set :=
  View.cover_of_tiledL (kernelRun0_B c i arg1 harg1 arg2 harg2 arg3 harg3 arg4 harg4 arg5 harg5 hc0 x0 x1 xs0).2.1 S2x256.size (by sl_kernel_rfl) y

/-- What case B leaves in the statistics window's staging buffer. -/
def out0_B_3 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) : Vec F S2x256 .f32 :=
  VO0_3.read (Elt F) (VO0_3.writes (Elt F) VO0_3.junk (kernelRun0_B c i arg1 harg1 arg2 harg2 arg3 harg3 arg4 harg4 arg5 harg5 hc0 x0 x1 xs0).2.1)

/-- The pieces case B leaves in the scratch cover it: its two rows, each stored whole. -/
theorem scover0_B (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) (y : S2x256.Idx) :
    ∃ pc ∈ (kernelRun0_B c i arg1 harg1 arg2 harg2 arg3 harg3 arg4 harg4 arg5 harg5 hc0 x0 x1 xs0).2.2.1, y ∈ pc.1.set :=
  View.cover_of_tiledL (kernelRun0_B c i arg1 harg1 arg2 harg2 arg3 harg3 arg4 harg4 arg5 harg5 hc0 x0 x1 xs0).2.2.1 ![1, 256] (by sl_kernel_rfl) y

/-- What case B leaves in the scratch. -/
def sout0_B (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) : Vec F S2x256 .f32 :=
  VS0.read (Elt F) (VS0.writes (Elt F) VS0.junk (kernelRun0_B c i arg1 harg1 arg2 harg2 arg3 harg3 arg4 harg4 arg5 harg5 hc0 x0 x1 xs0).2.2.1)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the scratch hold after each point -/

/-- THE ACCUMULATION. What the two outputs' staging buffers and the scratch hold after the body at position `n` (the
    product window, the statistics window, the scratch): at the first point the first case run at the point's memrefs
    and input blocks; at a later point the second case, the scratch entering at what the point before left. -/
def outsAt0 (c : Dev nD) : (n : ℕ) → n < cfg0.N → Vec F S2000x256 .f32 × Vec F S2x256 .f32 × Vec F S2x256 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩))
  | n + 1, hn =>
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (outsAt0 c n (Nat.lt_of_succ_lt hn)).2.2,
     out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (outsAt0 c n (Nat.lt_of_succ_lt hn)).2.2,
     sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (outsAt0 c n (Nat.lt_of_succ_lt hn)).2.2)

/-- `outsAt0` at the first point. -/
theorem outsAt0_A (c : Dev nD) (t : Fin cfg0.N) (h0 : t.val = 0) :
    outsAt0 V c t.val t.isLt =
      (out0_A_2 c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t),
       out0_A_3 c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t),
       sout0_A c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t)) := by
  obtain ⟨n, hn⟩ := t
  cases n with
  | zero => exact rfl
  | succ n => exact absurd h0 (Nat.succ_ne_zero n)

/-- `outsAt0` at a later point: over what the point before left in the scratch. -/
theorem outsAt0_B (c : Dev nD) (t : Fin cfg0.N) (h0 : ¬t.val = 0) :
    outsAt0 V c t.val t.isLt =
      (out0_B_2 c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2,
       sout0_B c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact absurd rfl h0
  | succ n => exact rfl

/-- The region invariant before position `n`: before the first point the class's; afterwards the scratch owned whole at
    what the point before left in it, beside the other scoped buffers and the generator register, both untouched. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ Pipeline.scopedRestBut spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2.2) ∗ Pipeline.scopedRestBut spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ Pipeline.scopedRestBut spec0 c [cc0_scratch0]) ∗ (∃ r, prngReg c r)) := by
  cases n with
  | zero => exact absurd rfl hz
  | succ n => rfl

/-! ## The pipeline's proof data -/

/-- Region 0's proof data from the contents `V` the region is entered at. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed form says which case the point is in, so that
    case's run applies; the invariant hands the body the scratch (at anything at the first point, at what the point before
    left afterwards) and takes it back at this point's contents; the other scoped buffers, the generator register and the
    core's tallies ride through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [show (dat0 V c).leavesExact 2 t = owns (c : Thread nD τ) (ms0_2 t) fullShare ((dat0 V c).after 2 t) from rfl, after0_2]
  rw [show (dat0 V c).leavesExact 3 t = owns (c : Thread nD τ) (ms0_3 t) fullShare ((dat0 V c).after 3 t) from rfl, after0_3]
  by_cases h0 : t.val = 0
  · rw [outsAt0_A V c t h0]
    unfold out0_A_2 out0_A_3 sout0_A; (try dsimp only)
    rw [PhiS0_castSucc V c t, PhiS0_zero V c _ _ h0, PhiA0_eq]
    iintro ⟨⟨⟨HS0, Hr⟩, Hg⟩, Ho, ⟨%d0, H0⟩, ⟨%d1, H1⟩, ⟨%d2, H2⟩, ⟨%d3, H3⟩⟩
    iapply ((kernelRun0_A c (grid0.coords t) _ _ _ _ _ _ _ _ _ _ ((hcond0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A c _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    unfold owns; iexists _; isplitr
    swap; · iexact H3
    ipureintro; exact View.read_writes_of_cover _ _ _ _ _ (cover0_A_3 c _ _ _ _ _ _ _ _ _ _ _ _ _ _)
  · rw [outsAt0_B V c t h0]
    unfold out0_B_2 out0_B_3 sout0_B; (try dsimp only)
    rw [PhiS0_castSucc V c t, PhiS0_pos V c _ _ h0]
    iintro ⟨⟨⟨HS0, Hr⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0 t).mp h)) (iblk0 V c 0 t) (iblk0 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 25 := N_0; omega)

/-- The bound on the recorded pairs is left at everything. -/
theorem recorded_eq0 (c : Dev nD) (t : Fin (cfg0.N + 1)) : (dat0 V c).recorded t = Set.univ := rfl

end Cert.Kernel.Hand

end
-- ==== Proof.K.R1.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: the blocks, the branch, the memrefs -/

/-- Window `w`'s block at point `t`, read off its array as the region is entered (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's one branch: "this is the first row block" (the grid coordinate is zero). -/
abbrev cond1_0 (i : grid1.Coords) : Prop := (Scalar.cmpi .ne (Scalar.extui (Scalar.cmpi .eq (BitVec.ofNat 32 (i 0).val) 0#32)) 0#32) = 1#1
/-- It holds at the first point only — decided over the 25 points. -/
theorem hcond1_0 : ∀ t : Fin cfg1.N, cond1_0 (grid1.coords t) ↔ t.val % 25 = 0 :=
  (by decide +kernel : ∀ t : Fin grid1.N, cond1_0 (grid1.coords t) ↔ t.val % 25 = 0)

/-- Each window's current staging memref at point `t`, and its wholeness. -/
abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x256 .f32 := win1_7.stage (cfg1.slots t 7)
abbrev hs1_7 (t : Fin cfg1.N) : (ms1_7 t).IsWhole := hstage1_7 ((cfg1.slots t 7).cast nbuf1_7)
/-- The accumulator of the column sums: a whole scoped buffer of the kernel's own, carried from point to point. -/
abbrev scM1_0 : Memref sig .tc .vmem S2x256 .f32 := Memref.whole cc1_scratch0
/-- The views through which the outputs' and the accumulator's contents are stated. -/
abbrev VS1_0 : View sig .tc .vmem S2x256 .f32 := scM1_0.view
abbrev VO1_6 : View sig .tc .vmem S2000x256 .f32 := (Memref.whole cc1_stg6_0 : Memref sig .tc .vmem S2000x256 .f32).view
abbrev VO1_7 : View sig .tc .vmem S2x256 .f32 := (Memref.whole cc1_stg7_0 : Memref sig .tc .vmem S2x256 .f32).view

/-- Every other scoped buffer of the core (the other regions' staging buffers and accumulators), at some contents
    each: it rides through the region untouched. -/
abbrev rest1 (c : Dev nD) : sProp 𝕄 :=
  Pipeline.scopedRestBut (Ix := Unit) (Name := ℕ) (U := UR sig nD τ) (Lvl := ℕ) (Val := Elt F) spec1 c [cc1_scratch0]

/-- What the region is entered with and gives back: the accumulator owned whole at some contents, the other
    scoped buffers, the generator register. -/
theorem PhiA1_eq (c : Dev nD) :
    (Pipeline.ΦA spec1 c : sProp 𝕄)
      = iprop(iprop(iprop(∃ d, owns (c : Thread nD τ) scM1_0 fullShare d) ∗ rest1 (F := F) c) ∗ (∃ r, prngReg c r)) := by
  unfold Pipeline.ΦA; rw [scopedRest1_split]; simp only [scM1_0, owns_whole]; try rfl

/-! ## The body's run, one per control case -/

set_option maxHeartbeats 4000000 in
/-- THE FIRST ROW BLOCK (the branch taken). On whole memrefs — the six inputs' at their contents, the two outputs'
    and the accumulator at anything — the body runs to the continuation holding the inputs' as they were and each of
    the two outputs and the accumulator with its stores written, as pieces (last store first): the accumulator is
    zeroed, then its two rows are added to; the product block is stored whole; the statistics window receives a copy
    of the accumulator. The pieces are the witness the run finds. -/
noncomputable def kernelRun1_A (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__affine_matmul_stats_kernel_eq_skeleton]; unfold cc1__affine_matmul_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

set_option maxHeartbeats 4000000 in
/-- A LATER ROW BLOCK (the branch not taken): as the first, but the accumulator is entered at the contents `xs0`
    the row block before left and is only added to. -/
noncomputable def kernelRun1_B (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__affine_matmul_stats_kernel_eq_skeleton]; unfold cc1__affine_matmul_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the covers, and the pieces read back -/

/-- The first row block's one store into the product window is of its whole block. -/
theorem cover1_A_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) (y : S2000x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).1 S2000x256.size (by sl_kernel_rfl) y
/-- What the first row block leaves in the product window's staging buffer: its pieces read back. -/
def out1_A_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) : Vec F S2000x256 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 x0 x1 x2 x3 x4 x5).1)
/-- Its one store into the statistics window is of the whole window. -/
theorem cover1_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) (y : S2x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).2.1 S2x256.size (by sl_kernel_rfl) y
def out1_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) : Vec F S2x256 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 x0 x1 x2 x3 x4 x5).2.1)
/-- Its stores into the accumulator cover it (the zeroing store alone does). -/
theorem scover1_A_0 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) (y : S2x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).2.2.1 S2x256.size (by sl_kernel_rfl) y
/-- What the first row block leaves in the accumulator. -/
def sout1_A_0 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) : Vec F S2x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 x0 x1 x2 x3 x4 x5).2.2.1)

/-- A later row block: the same three, the accumulator entered at `xs0`. -/
theorem cover1_B_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) (y : S2000x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).1 S2000x256.size (by sl_kernel_rfl) y
def out1_B_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) : Vec F S2000x256 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 x0 x1 x2 x3 x4 x5 xs0).1)
theorem cover1_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) (y : S2x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).2.1 S2x256.size (by sl_kernel_rfl) y
def out1_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) : Vec F S2x256 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 x0 x1 x2 x3 x4 x5 xs0).2.1)
/-- The two row stores tile the accumulator. -/
theorem scover1_B_0 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) (y : S2x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).2.2.1 S1x256.size (by sl_kernel_rfl) y
def sout1_B_0 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) : Vec F S2x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 x0 x1 x2 x3 x4 x5 xs0).2.2.1)

/-! ## What the outputs and the accumulator hold after each row block -/

/-- THE ACCUMULATION. After the body at row block `n`: the product window's staging buffer, the statistics window's,
    and the accumulator — the first row block from nothing, each later one over the accumulator the one before left. -/
def outsAt1 (c : Dev nD) : (n : ℕ) → n < cfg1.N → Vec F S2000x256 .f32 × Vec F S2x256 .f32 × Vec F S2x256 .f32
  | 0, hn =>
    (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
     out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    have hc : ¬cond1_0 (grid1.coords ⟨n + 1, hn⟩) := fun h => by
      have h1 := (hcond1_0 ⟨n + 1, hn⟩).mp h
      have hN : n + 1 < 25 := lt_of_lt_of_eq hn (show cfg1.N = 25 from N_1)
      (try dsimp only at h1); omega
    (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) hc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
     out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) hc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
     sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) hc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

/-- `outsAt1` at the first row block. -/
theorem outsAt1_A (c : Dev nD) (t : Fin cfg1.N) (h0 : t.val % 25 = 0) :
    outsAt1 V c t.val t.isLt =
      (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t),
       out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t),
       sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n =>
    exfalso
    have hN : n + 1 < 25 := lt_of_lt_of_eq hn (show cfg1.N = 25 from N_1)
    (try dsimp only at h0); omega

/-- `outsAt1` at a later row block: over what the row block before left in the accumulator. -/
theorem outsAt1_B (c : Dev nD) (t : Fin cfg1.N) (h0 : ¬t.val % 25 = 0) :
    outsAt1 V c t.val t.isLt =
      (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact rfl

/-- The region's invariant before row block `n`: at the start what the region is entered with; afterwards the
    accumulator at what the row block before left in it, the other scoped buffers and the generator register as
    they were. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ rest1 (F := F) c) ∗ (∃ r, prngReg c r)) := by
  cases n with
  | zero => exact absurd rfl hz
  | succ n => rfl

/-! ## The proof data -/

/-- Region 1's proof data from the contents `V` the region is entered at. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

/-- Each input's current staging buffer holds its block at every row block, fetched there or not (the five
    parameter windows and the weights are fetched once: their block index never moves). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The body obligation, at a generic row block -/

/-- What the body is called with at row block `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any row block: the inputs' memrefs hold their blocks; the first row block is the branch taken, every
    later one the branch not taken, entered with the accumulator at what the row block before left; the invariant
    takes the accumulator back at this row block's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [show (dat1 V c).leavesExact 5 t = owns (c : Thread nD τ) (ms1_5 t) fullShare ((dat1 V c).after 5 t) from rfl, after1_5]
  rw [show (dat1 V c).leavesExact 6 t = owns (c : Thread nD τ) (ms1_6 t) fullShare ((dat1 V c).after 6 t) from rfl, after1_6]
  rw [show (dat1 V c).leavesExact 7 t = owns (c : Thread nD τ) (ms1_7 t) fullShare ((dat1 V c).after 7 t) from rfl, after1_7]
  by_cases h0 : t.val % 25 = 0
  ·
    rw [outsAt1_A V c t h0]
    unfold out1_A_6 out1_A_7 sout1_A_0; (try dsimp only)
    have hz : t.val = 0 := by omega
    rw [PhiS1_castSucc V c t, PhiS1_zero V c _ _ hz, PhiA1_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 _ _ _ _ _ _ _ _ _ _ _ _ _ _ _ _ _ _ _ _ _ _ _ _ _ _ _)
    unfold owns; iexists _; isplitr
    swap; · iexact H7
    ipureintro; exact View.read_writes_of_cover _ _ _ _ _ (cover1_A_7 _ _ _ _ _ _ _ _ _ _ _ _ _ _ _ _ _ _ _ _ _ _ _ _ _ _ _)
  ·
    rw [outsAt1_B V c t h0]
    unfold out1_B_6 out1_B_7 sout1_B_0; (try dsimp only)
    have hz : t.val ≠ 0 := by omega
    rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_B_0 _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 _ _ _ _ _ _ _ _ _ _ _ _ _ _ _ _ _ _ _ _ _ _ _ _ _ _ _ _)
    unfold owns; iexists _; isplitr
    swap; · iexact H7
    ipureintro; exact View.read_writes_of_cover _ _ _ _ _ (cover1_B_7 _ _ _ _ _ _ _ _ _ _ _ _ _ _ _ _ _ _ _ _ _ _ _ _ _ _ _ _)

/-- The library's body obligation, at every row block. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first row block. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any row block the invariant gives back what the region was entered with: the accumulator's named contents
    are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 25 := N_1; omega)

theorem recorded_eq1 (c : Dev nD) (t : Fin (cfg1.N + 1)) : (dat1 V c).recorded t = Set.univ := rfl

end Cert.Kernel.Hand

end
-- ==== Proof.K.R2.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: custom_call 2, `cc2__affine_relu_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched
    the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched
    the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched
    the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched
    the block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched
    the block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole (2000,256) block and the whole (1,256) row, as the rectangles the body loads and stores through. -/
abbrev r2_0 : Rect S2000x256 := Rect.unit (s := S2000x256) ![0, 0] S2000x256.size inb_S2000x256_S2000x256_0_0
abbrev r2_1 : Rect S1x256 := Rect.unit (s := S1x256) ![0, 0] S1x256.size inb_S1x256_S1x256_0_0

/-- The result window's staging buffer after the body, from the five input blocks: the one store, of the
    normalised, scaled, shifted and clamped block. -/
def out2_5 (x0 : Vec F S2000x256 .f32) (x1 x2 x3 x4 : Vec F S1x256 .f32) : Vec F S2000x256 .f32 :=
  View.canon [⟨r2_0, k2_pay1 (View.ld x0 r2_0) (View.ld x1 r2_1) (View.ld x2 r2_1) (View.ld x3 r2_1) (View.ld x4 r2_1)⟩]

/-- The one store is of the whole block, so it covers it. -/
theorem cover2_5 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

set_option maxHeartbeats 1000000 in
/-- The body on whole staging memrefs, the inputs' at contents `x0 … x4` and the result's at anything, runs to the
    continuation holding the inputs' as they were and the result's at `out2_5` of them. -/
theorem sound_kernel2 (c : Dev nD) (E : Set ℕ) (i : grid2.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__affine_relu_kernel i arg1 harg1 arg2 harg2 arg3 harg3 arg4 harg4 arg5 harg5 arg6 harg6) K := by
  simp only [cc2__affine_relu_kernel_eq_skeleton]; unfold cc2__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- Region 2's proof data from the contents `V` the region is entered at: the arrays as found; after the body at a
    point each input's buffer at its block and the result's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and what
    is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  dsimp only [dat2]; exact BIBase.Entails.rfl
theorem hout2 (c : Dev nD) : (dat2 V c).Φ (Fin.last cfg2.N) ⊢ (Pipeline.ΦA spec2 c : sProp 𝕄) := by
  dsimp only [dat2]; exact BIBase.Entails.rfl

theorem recorded_eq2 (c : Dev nD) (t : Fin (cfg2.N + 1)) : (dat2 V c).recorded t = Set.univ := rfl

end Cert.Kernel.Hand

end
-- ==== Proof.K.R3.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: the branch condition, the staging memrefs, the scratch -/

/-- The condition of the body's one conditional (the grid coordinate is zero), from the grid coordinates. -/
abbrev cond3 (i : grid3.Coords) : Prop :=
  (Scalar.cmpi .ne (Scalar.extui (Scalar.cmpi .eq (BitVec.ofNat 32 (i 0).val) 0#32)) 0#32) = 1#1

/-- It holds at the first point only: decided over the grid. -/
theorem hcond3 : ∀ t : Fin cfg3.N, cond3 (grid3.coords t) ↔ t.val = 0 :=
  (by decide +kernel : ∀ t : Fin grid3.N, cond3 (grid3.coords t) ↔ t.val = 0)

/-- No window of region 3 is ever idle. -/
theorem live3 (w : Fin cfg3.W) (i : grid3.Coords) : cfg3.idle w i = false := rfl

/-- Each window's current staging memref at point `t`, as the pipeline passes it, and its wholeness. -/
abbrev ms3_0 (t : Fin cfg3.N) : Memref sig .tc .vmem S2000x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2x256 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3 : Memref sig .tc .vmem S2x256 .f32 := Memref.whole cc3_scratch0
/-- The scratch as a view: what it holds is stated through it. -/
abbrev VS3 : View sig .tc .vmem S2x256 .f32 := scM3.view
/-- One staging buffer of each output window, through which its contents are stated. -/
abbrev VO3_2 : View sig .tc .vmem S2000x256 .f32 := (Memref.whole cc3_stg2_0 : Memref sig .tc .vmem S2000x256 .f32).view
abbrev VO3_3 : View sig .tc .vmem S2x256 .f32 := (Memref.whole cc3_stg3_0 : Memref sig .tc .vmem S2x256 .f32).view

/-- The class invariant with the scratch as a memref owned at some contents, beside the rest of the scoped
    buffers and the generator register. -/
theorem PhiA3_eq (c : Dev nD) :
    (Pipeline.ΦA spec3 c : sProp 𝕄)
      = iprop(iprop(iprop((∃ d, owns (c : Thread nD τ) scM3 fullShare d)) ∗ Pipeline.scopedRestBut spec3 c [cc3_scratch0]) ∗ (∃ r, prngReg c r)) := by
  unfold Pipeline.ΦA; rw [scopedRest3_split]; simp only [scM3, owns_whole]; try rfl

set_option maxHeartbeats 1000000 in
/-- The body at the first point (the conditional taken): on whole staging memrefs, the inputs' at their contents, the
    outputs' and the scratch at anything, it runs to the continuation holding the inputs' as they were and each
    output and the scratch with its pieces written. The pieces are the witness the run finds. -/
noncomputable def kernelRun3_A (c : Dev nD) (i : grid3.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc3__matmul_stats_kernel i arg1 harg1 arg2 harg2 arg3 harg3 arg4 harg4 arg5 harg5) K } := by
  refine ⟨?_, ?_, ?_, fun E K => ?run⟩
  case run =>
    simp only [cc3__matmul_stats_kernel_eq_skeleton]; unfold cc3__matmul_stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

set_option maxHeartbeats 1000000 in
/-- The body at a later point (the conditional not taken): the same, the scratch entering at the contents `xs0`
    the point before left. -/
noncomputable def kernelRun3_B (c : Dev nD) (i : grid3.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc3__matmul_stats_kernel i arg1 harg1 arg2 harg2 arg3 harg3 arg4 harg4 arg5 harg5) K } := by
  refine ⟨?_, ?_, ?_, fun E K => ?run⟩
  case run =>
    simp only [cc3__matmul_stats_kernel_eq_skeleton]; unfold cc3__matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The pieces case A leaves in the product window tile its block, so they cover it. -/
theorem cover3_A_2 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) (y : S2000x256.Idx) :
    ∃ pc ∈ (kernelRun3_A c i arg1 harg1 arg2 harg2 arg3 harg3 arg4 harg4 arg5 harg5 hc0 x0 x1).1, y ∈ pc.1.set :=
  View.cover_of_tiledL (kernelRun3_A c i arg1 harg1 arg2 harg2 arg3 harg3 arg4 harg4 arg5 harg5 hc0 x0 x1).1 S2000x256.size (by sl_kernel_rfl) y

/-- What case A leaves in the product window's staging buffer: its pieces read back over junk. -/
def out3_A_2 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) : Vec F S2000x256 .f32 :=
  VO3_2.read (Elt F) (VO3_2.writes (Elt F) VO3_2.junk (kernelRun3_A c i arg1 harg1 arg2 harg2 arg3 harg3 arg4 harg4 arg5 harg5 hc0 x0 x1).1)

/-- The pieces case A leaves in the statistics window cover it (one whole store). -/
theorem cover3_A_3 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) (y : S2x256.Idx) :
    ∃ pc ∈ (kernelRun3_A c i arg1 harg1 arg2 harg2 arg3 harg3 arg4 harg4 arg5 harg5 hc0 x0 x1).2.1, y ∈ pc.1.set :=
  View.cover_of_tiledL (kernelRun3_A c i arg1 harg1 arg2 harg2 arg3 harg3 arg4 harg4 arg5 harg5 hc0 x0 x1).2.1 S2x256.size (by sl_kernel_rfl) y

/-- What case A leaves in the statistics window's staging buffer. -/
def out3_A_3 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) : Vec F S2x256 .f32 :=
  VO3_3.read (Elt F) (VO3_3.writes (Elt F) VO3_3.junk (kernelRun3_A c i arg1 harg1 arg2 harg2 arg3 harg3 arg4 harg4 arg5 harg5 hc0 x0 x1).2.1)

/-- The pieces case A leaves in the scratch cover it: its two rows, each stored whole. -/
theorem scover3_A (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) (y : S2x256.Idx) :
    ∃ pc ∈ (kernelRun3_A c i arg1 harg1 arg2 harg2 arg3 harg3 arg4 harg4 arg5 harg5 hc0 x0 x1).2.2.1, y ∈ pc.1.set :=
  View.cover_of_tiledL (kernelRun3_A c i arg1 harg1 arg2 harg2 arg3 harg3 arg4 harg4 arg5 harg5 hc0 x0 x1).2.2.1 ![1, 256] (by sl_kernel_rfl) y

/-- What case A leaves in the scratch. -/
def sout3_A (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) : Vec F S2x256 .f32 :=
  VS3.read (Elt F) (VS3.writes (Elt F) VS3.junk (kernelRun3_A c i arg1 harg1 arg2 harg2 arg3 harg3 arg4 harg4 arg5 harg5 hc0 x0 x1).2.2.1)

/-- The pieces case B leaves in the product window tile its block, so they cover it. -/
theorem cover3_B_2 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) (y : S2000x256.Idx) :
    ∃ pc ∈ (kernelRun3_B c i arg1 harg1 arg2 harg2 arg3 harg3 arg4 harg4 arg5 harg5 hc0 x0 x1 xs0).1, y ∈ pc.1.set :=
  View.cover_of_tiledL (kernelRun3_B c i arg1 harg1 arg2 harg2 arg3 harg3 arg4 harg4 arg5 harg5 hc0 x0 x1 xs0).1 S2000x256.size (by sl_kernel_rfl) y

/-- What case B leaves in the product window's staging buffer: its pieces read back over junk. -/
def out3_B_2 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) : Vec F S2000x256 .f32 :=
  VO3_2.read (Elt F) (VO3_2.writes (Elt F) VO3_2.junk (kernelRun3_B c i arg1 harg1 arg2 harg2 arg3 harg3 arg4 harg4 arg5 harg5 hc0 x0 x1 xs0).1)

/-- The pieces case B leaves in the statistics window cover it (one whole store). -/
theorem cover3_B_3 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) (y : S2x256.Idx) :
    ∃ pc ∈ (kernelRun3_B c i arg1 harg1 arg2 harg2 arg3 harg3 arg4 harg4 arg5 harg5 hc0 x0 x1 xs0).2.1, y ∈ pc.1.set :=
  View.cover_of_tiledL (kernelRun3_B c i arg1 harg1 arg2 harg2 arg3 harg3 arg4 harg4 arg5 harg5 hc0 x0 x1 xs0).2.1 S2x256.size (by sl_kernel_rfl) y

/-- What case B leaves in the statistics window's staging buffer. -/
def out3_B_3 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) : Vec F S2x256 .f32 :=
  VO3_3.read (Elt F) (VO3_3.writes (Elt F) VO3_3.junk (kernelRun3_B c i arg1 harg1 arg2 harg2 arg3 harg3 arg4 harg4 arg5 harg5 hc0 x0 x1 xs0).2.1)

/-- The pieces case B leaves in the scratch cover it: its two rows, each stored whole. -/
theorem scover3_B (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) (y : S2x256.Idx) :
    ∃ pc ∈ (kernelRun3_B c i arg1 harg1 arg2 harg2 arg3 harg3 arg4 harg4 arg5 harg5 hc0 x0 x1 xs0).2.2.1, y ∈ pc.1.set :=
  View.cover_of_tiledL (kernelRun3_B c i arg1 harg1 arg2 harg2 arg3 harg3 arg4 harg4 arg5 harg5 hc0 x0 x1 xs0).2.2.1 ![1, 256] (by sl_kernel_rfl) y

/-- What case B leaves in the scratch. -/
def sout3_B (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) : Vec F S2x256 .f32 :=
  VS3.read (Elt F) (VS3.writes (Elt F) VS3.junk (kernelRun3_B c i arg1 harg1 arg2 harg2 arg3 harg3 arg4 harg4 arg5 harg5 hc0 x0 x1 xs0).2.2.1)

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the outputs and the scratch hold after each point -/

/-- THE ACCUMULATION. What the two outputs' staging buffers and the scratch hold after the body at position `n` (the
    product window, the statistics window, the scratch): at the first point the first case run at the point's memrefs
    and input blocks; at a later point the second case, the scratch entering at what the point before left. -/
def outsAt3 (c : Dev nD) : (n : ℕ) → n < cfg3.N → Vec F S2000x256 .f32 × Vec F S2x256 .f32 × Vec F S2x256 .f32
  | 0, hn =>
    (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3 ⟨0, hn⟩).mpr rfl) (iblk3 V c 0 ⟨0, hn⟩) (iblk3 V c 1 ⟨0, hn⟩),
     out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3 ⟨0, hn⟩).mpr rfl) (iblk3 V c 0 ⟨0, hn⟩) (iblk3 V c 1 ⟨0, hn⟩),
     sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3 ⟨0, hn⟩).mpr rfl) (iblk3 V c 0 ⟨0, hn⟩) (iblk3 V c 1 ⟨0, hn⟩))
  | n + 1, hn =>
    (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => Nat.succ_ne_zero n ((hcond3 ⟨n + 1, hn⟩).mp h)) (iblk3 V c 0 ⟨n + 1, hn⟩) (iblk3 V c 1 ⟨n + 1, hn⟩) (outsAt3 c n (Nat.lt_of_succ_lt hn)).2.2,
     out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => Nat.succ_ne_zero n ((hcond3 ⟨n + 1, hn⟩).mp h)) (iblk3 V c 0 ⟨n + 1, hn⟩) (iblk3 V c 1 ⟨n + 1, hn⟩) (outsAt3 c n (Nat.lt_of_succ_lt hn)).2.2,
     sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => Nat.succ_ne_zero n ((hcond3 ⟨n + 1, hn⟩).mp h)) (iblk3 V c 0 ⟨n + 1, hn⟩) (iblk3 V c 1 ⟨n + 1, hn⟩) (outsAt3 c n (Nat.lt_of_succ_lt hn)).2.2)

/-- `outsAt3` at the first point. -/
theorem outsAt3_A (c : Dev nD) (t : Fin cfg3.N) (h0 : t.val = 0) :
    outsAt3 V c t.val t.isLt =
      (out3_A_2 c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t),
       out3_A_3 c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t),
       sout3_A c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t)) := by
  obtain ⟨n, hn⟩ := t
  cases n with
  | zero => exact rfl
  | succ n => exact absurd h0 (Nat.succ_ne_zero n)

/-- `outsAt3` at a later point: over what the point before left in the scratch. -/
theorem outsAt3_B (c : Dev nD) (t : Fin cfg3.N) (h0 : ¬t.val = 0) :
    outsAt3 V c t.val t.isLt =
      (out3_B_2 c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2,
       out3_B_3 c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2,
       sout3_B c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2) := by
  obtain ⟨n, hn⟩ := t
  cases n with
  | zero => exact absurd rfl h0
  | succ n => exact rfl

/-- The region invariant before position `n`: before the first point the class's; afterwards the scratch owned whole at
    what the point before left in it, beside the other scoped buffers and the generator register, both untouched. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2.2) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2.2) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2.2) ∗ Pipeline.scopedRestBut spec3 c [cc3_scratch0]) ∗ (∃ r, prngReg c r)) := by
  cases n with
  | zero => exact absurd rfl hz
  | succ n => rfl

/-! ## The pipeline's proof data -/

/-- Region 3's proof data from the contents `V` the region is entered at. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed form says which case the point is in, so that
    case's run applies; the invariant hands the body the scratch (at anything at the first point, at what the point before
    left afterwards) and takes it back at this point's contents; the other scoped buffers, the generator register and the
    core's tallies ride through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from rfl, after3_0]
  rw [show (dat3 V c).leavesExact 1 t = owns (c : Thread nD τ) (ms3_1 t) fullShare ((dat3 V c).after 1 t) from rfl, after3_1]
  rw [show (dat3 V c).leavesExact 2 t = owns (c : Thread nD τ) (ms3_2 t) fullShare ((dat3 V c).after 2 t) from rfl, after3_2]
  rw [show (dat3 V c).leavesExact 3 t = owns (c : Thread nD τ) (ms3_3 t) fullShare ((dat3 V c).after 3 t) from rfl, after3_3]
  by_cases h0 : t.val = 0
  · rw [outsAt3_A V c t h0]
    unfold out3_A_2 out3_A_3 sout3_A; (try dsimp only)
    rw [PhiS3_castSucc V c t, PhiS3_zero V c _ _ h0, PhiA3_eq]
    iintro ⟨⟨⟨HS0, Hr⟩, Hg⟩, Ho, ⟨%d0, H0⟩, ⟨%d1, H1⟩, ⟨%d2, H2⟩, ⟨%d3, H3⟩⟩
    iapply ((kernelRun3_A c (grid3.coords t) _ _ _ _ _ _ _ _ _ _ ((hcond3 t).mpr h0) (iblk3 V c 0 t) (iblk3 V c 1 t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A c _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover3_A_2 c _ _ _ _ _ _ _ _ _ _ _ _ _ _)
    unfold owns; iexists _; isplitr
    swap; · iexact H3
    ipureintro; exact View.read_writes_of_cover _ _ _ _ _ (cover3_A_3 c _ _ _ _ _ _ _ _ _ _ _ _ _ _)
  · rw [outsAt3_B V c t h0]
    unfold out3_B_2 out3_B_3 sout3_B; (try dsimp only)
    rw [PhiS3_castSucc V c t, PhiS3_pos V c _ _ h0]
    iintro ⟨⟨⟨HS0, Hr⟩, Hg⟩, Ho, ⟨%d0, H0⟩, ⟨%d1, H1⟩, ⟨%d2, H2⟩, ⟨%d3, H3⟩⟩
    iapply ((kernelRun3_B c (grid3.coords t) _ _ _ _ _ _ _ _ _ _ (fun h => h0 ((hcond3 t).mp h)) (iblk3 V c 0 t) (iblk3 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_B c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover3_B_2 c _ _ _ _ _ _ _ _ _ _ _ _ _ _ _)
    unfold owns; iexists _; isplitr
    swap; · iexact H3
    ipureintro; exact View.read_writes_of_cover _ _ _ _ _ (cover3_B_3 c _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 25 := N_3; omega)

/-- The bound on the recorded pairs is left at everything. -/
theorem recorded_eq3 (c : Dev nD) (t : Fin (cfg3.N + 1)) : (dat3 V c).recorded t = Set.univ := rfl

end Cert.Kernel.Hand

end
-- ==== Proof.K.R4.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 4: the blocks, the branch, the memrefs -/

/-- Window `w`'s block at point `t`, read off its array as the region is entered (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The body's one branch: "this is the first row block" (the grid coordinate is zero). -/
abbrev cond4_0 (i : grid4.Coords) : Prop := (Scalar.cmpi .ne (Scalar.extui (Scalar.cmpi .eq (BitVec.ofNat 32 (i 0).val) 0#32)) 0#32) = 1#1
/-- It holds at the first point only — decided over the 25 points. -/
theorem hcond4_0 : ∀ t : Fin cfg4.N, cond4_0 (grid4.coords t) ↔ t.val % 25 = 0 :=
  (by decide +kernel : ∀ t : Fin grid4.N, cond4_0 (grid4.coords t) ↔ t.val % 25 = 0)

/-- Each window's current staging memref at point `t`, and its wholeness. -/
abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S256x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S2x256 .f32 := win4_7.stage (cfg4.slots t 7)
abbrev hs4_7 (t : Fin cfg4.N) : (ms4_7 t).IsWhole := hstage4_7 ((cfg4.slots t 7).cast nbuf4_7)
/-- The accumulator of the column sums: a whole scoped buffer of the kernel's own, carried from point to point. -/
abbrev scM4_0 : Memref sig .tc .vmem S2x256 .f32 := Memref.whole cc4_scratch0
/-- The views through which the outputs' and the accumulator's contents are stated. -/
abbrev VS4_0 : View sig .tc .vmem S2x256 .f32 := scM4_0.view
abbrev VO4_6 : View sig .tc .vmem S2000x256 .f32 := (Memref.whole cc4_stg6_0 : Memref sig .tc .vmem S2000x256 .f32).view
abbrev VO4_7 : View sig .tc .vmem S2x256 .f32 := (Memref.whole cc4_stg7_0 : Memref sig .tc .vmem S2x256 .f32).view

/-- Every other scoped buffer of the core (the other regions' staging buffers and accumulators), at some contents
    each: it rides through the region untouched. -/
abbrev rest4 (c : Dev nD) : sProp 𝕄 :=
  Pipeline.scopedRestBut (Ix := Unit) (Name := ℕ) (U := UR sig nD τ) (Lvl := ℕ) (Val := Elt F) spec4 c [cc4_scratch0]

/-- What the region is entered with and gives back: the accumulator owned whole at some contents, the other
    scoped buffers, the generator register. -/
theorem PhiA4_eq (c : Dev nD) :
    (Pipeline.ΦA spec4 c : sProp 𝕄)
      = iprop(iprop(iprop(∃ d, owns (c : Thread nD τ) scM4_0 fullShare d) ∗ rest4 (F := F) c) ∗ (∃ r, prngReg c r)) := by
  unfold Pipeline.ΦA; rw [scopedRest4_split]; simp only [scM4_0, owns_whole]; try rfl

/-! ## The body's run, one per control case -/

set_option maxHeartbeats 4000000 in
/-- THE FIRST ROW BLOCK (the branch taken). On whole memrefs — the six inputs' at their contents, the two outputs'
    and the accumulator at anything — the body runs to the continuation holding the inputs' as they were and each of
    the two outputs and the accumulator with its stores written, as pieces (last store first): the accumulator is
    zeroed, then its two rows are added to; the product block is stored whole; the statistics window receives a copy
    of the accumulator. The pieces are the witness the run finds. -/
noncomputable def kernelRun4_A (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc4__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__affine_matmul_stats_kernel_eq_skeleton]; unfold cc4__affine_matmul_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

set_option maxHeartbeats 4000000 in
/-- A LATER ROW BLOCK (the branch not taken): as the first, but the accumulator is entered at the contents `xs0`
    the row block before left and is only added to. -/
noncomputable def kernelRun4_B (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc4__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__affine_matmul_stats_kernel_eq_skeleton]; unfold cc4__affine_matmul_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the covers, and the pieces read back -/

/-- The first row block's one store into the product window is of its whole block. -/
theorem cover4_A_6 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) (y : S2000x256.Idx) :
    ∃ pc ∈ (kernelRun4_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).1 S2000x256.size (by sl_kernel_rfl) y
/-- What the first row block leaves in the product window's staging buffer: its pieces read back. -/
def out4_A_6 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) : Vec F S2000x256 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 x0 x1 x2 x3 x4 x5).1)
/-- Its one store into the statistics window is of the whole window. -/
theorem cover4_A_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) (y : S2x256.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.1 S2x256.size (by sl_kernel_rfl) y
def out4_A_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) : Vec F S2x256 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 x0 x1 x2 x3 x4 x5).2.1)
/-- Its stores into the accumulator cover it (the zeroing store alone does). -/
theorem scover4_A_0 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) (y : S2x256.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.2.1 S2x256.size (by sl_kernel_rfl) y
/-- What the first row block leaves in the accumulator. -/
def sout4_A_0 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) : Vec F S2x256 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3 x4 x5).2.2.1)

/-- A later row block: the same three, the accumulator entered at `xs0`. -/
theorem cover4_B_6 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) (y : S2000x256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xs0).1 S2000x256.size (by sl_kernel_rfl) y
def out4_B_6 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) : Vec F S2000x256 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 x0 x1 x2 x3 x4 x5 xs0).1)
theorem cover4_B_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) (y : S2x256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xs0).2.1 S2x256.size (by sl_kernel_rfl) y
def out4_B_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) : Vec F S2x256 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 x0 x1 x2 x3 x4 x5 xs0).2.1)
/-- The two row stores tile the accumulator. -/
theorem scover4_B_0 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) (y : S2x256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xs0).2.2.1 S1x256.size (by sl_kernel_rfl) y
def sout4_B_0 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) : Vec F S2x256 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 x4 x5 xs0).2.2.1)

/-! ## What the outputs and the accumulator hold after each row block -/

/-- THE ACCUMULATION. After the body at row block `n`: the product window's staging buffer, the statistics window's,
    and the accumulator — the first row block from nothing, each later one over the accumulator the one before left. -/
def outsAt4 (c : Dev nD) : (n : ℕ) → n < cfg4.N → Vec F S2000x256 .f32 × Vec F S2x256 .f32 × Vec F S2x256 .f32
  | 0, hn =>
    (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
     out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
     sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    have hc : ¬cond4_0 (grid4.coords ⟨n + 1, hn⟩) := fun h => by
      have h1 := (hcond4_0 ⟨n + 1, hn⟩).mp h
      have hN : n + 1 < 25 := lt_of_lt_of_eq hn (show cfg4.N = 25 from N_4)
      (try dsimp only at h1); omega
    (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) hc (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2,
     out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) hc (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2,
     sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) hc (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2)

/-- `outsAt4` at the first row block. -/
theorem outsAt4_A (c : Dev nD) (t : Fin cfg4.N) (h0 : t.val % 25 = 0) :
    outsAt4 V c t.val t.isLt =
      (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t),
       out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t),
       sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t)) := by
  obtain ⟨n, hn⟩ := t
  cases n with
  | zero => exact rfl
  | succ n =>
    exfalso
    have hN : n + 1 < 25 := lt_of_lt_of_eq hn (show cfg4.N = 25 from N_4)
    (try dsimp only at h0); omega

/-- `outsAt4` at a later row block: over what the row block before left in the accumulator. -/
theorem outsAt4_B (c : Dev nD) (t : Fin cfg4.N) (h0 : ¬t.val % 25 = 0) :
    outsAt4 V c t.val t.isLt =
      (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2,
       out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2,
       sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact rfl

/-- The region's invariant before row block `n`: at the start what the region is entered with; afterwards the
    accumulator at what the row block before left in it, the other scoped buffers and the generator register as
    they were. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2.2) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2) ∗ rest4 (F := F) c) ∗ (∃ r, prngReg c r)) := by
  cases n with
  | zero => exact absurd rfl hz
  | succ n => rfl

/-! ## The proof data -/

/-- Region 4's proof data from the contents `V` the region is entered at. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by dsimp only [dat4]
theorem q_eq4 (c : Dev nD) (w : Fin cfg4.W) : (dat4 V c).q w = fullShare := by dsimp only [dat4]
theorem owed_eq4 (c : Dev nD) (t : Fin (cfg4.N + 1)) : (dat4 V c).owed t = 0 := by dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]

/-- Each input's current staging buffer holds its block at every row block, fetched there or not (the five
    parameter windows and the weights are fetched once: their block index never moves). -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-! ## The body obligation, at a generic row block -/

/-- What the body is called with at row block `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any row block: the inputs' memrefs hold their blocks; the first row block is the branch taken, every
    later one the branch not taken, entered with the accumulator at what the row block before left; the invariant
    takes the accumulator back at this row block's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from rfl, after4_0]
  rw [show (dat4 V c).leavesExact 1 t = owns (c : Thread nD τ) (ms4_1 t) fullShare ((dat4 V c).after 1 t) from rfl, after4_1]
  rw [show (dat4 V c).leavesExact 2 t = owns (c : Thread nD τ) (ms4_2 t) fullShare ((dat4 V c).after 2 t) from rfl, after4_2]
  rw [show (dat4 V c).leavesExact 3 t = owns (c : Thread nD τ) (ms4_3 t) fullShare ((dat4 V c).after 3 t) from rfl, after4_3]
  rw [show (dat4 V c).leavesExact 4 t = owns (c : Thread nD τ) (ms4_4 t) fullShare ((dat4 V c).after 4 t) from rfl, after4_4]
  rw [show (dat4 V c).leavesExact 5 t = owns (c : Thread nD τ) (ms4_5 t) fullShare ((dat4 V c).after 5 t) from rfl, after4_5]
  rw [show (dat4 V c).leavesExact 6 t = owns (c : Thread nD τ) (ms4_6 t) fullShare ((dat4 V c).after 6 t) from rfl, after4_6]
  rw [show (dat4 V c).leavesExact 7 t = owns (c : Thread nD τ) (ms4_7 t) fullShare ((dat4 V c).after 7 t) from rfl, after4_7]
  by_cases h0 : t.val % 25 = 0
  ·
    rw [outsAt4_A V c t h0]
    unfold out4_A_6 out4_A_7 sout4_A_0; (try dsimp only)
    have hz : t.val = 0 := by omega
    rw [PhiS4_castSucc V c t, PhiS4_zero V c _ _ hz, PhiA4_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_A_0 _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 _ _ _ _ _ _ _ _ _ _ _ _ _ _ _ _ _ _ _ _ _ _ _ _ _ _ _)
    unfold owns; iexists _; isplitr
    swap; · iexact H7
    ipureintro; exact View.read_writes_of_cover _ _ _ _ _ (cover4_A_7 _ _ _ _ _ _ _ _ _ _ _ _ _ _ _ _ _ _ _ _ _ _ _ _ _ _ _)
  ·
    rw [outsAt4_B V c t h0]
    unfold out4_B_6 out4_B_7 sout4_B_0; (try dsimp only)
    have hz : t.val ≠ 0 := by omega
    rw [PhiS4_castSucc V c t, PhiS4_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_B_0 _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 _ _ _ _ _ _ _ _ _ _ _ _ _ _ _ _ _ _ _ _ _ _ _ _ _ _ _ _)
    unfold owns; iexists _; isplitr
    swap; · iexact H7
    ipureintro; exact View.read_writes_of_cover _ _ _ _ _ (cover4_B_7 _ _ _ _ _ _ _ _ _ _ _ _ _ _ _ _ _ _ _ _ _ _ _ _ _ _ _ _)

/-- The library's body obligation, at every row block. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first row block. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any row block the invariant gives back what the region was entered with: the accumulator's named contents
    are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ (Pipeline.ΦA spec4 c : sProp 𝕄) :=
  Phi_out4 V c _ (by rw [Fin.val_last]; have : cfg4.N = 25 := N_4; omega)

theorem recorded_eq4 (c : Dev nD) (t : Fin (cfg4.N + 1)) : (dat4 V c).recorded t = Set.univ := rfl

end Cert.Kernel.Hand

end
-- ==== Proof.K.R5.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: custom_call 5, `cc5__affine_relu_kernel`, at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched
    the block index has not moved, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: where it is not fetched
    the block index has not moved, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not: where it is not fetched
    the block index has not moved, and the body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not: where it is not fetched
    the block index has not moved, and the body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not: where it is not fetched
    the block index has not moved, and the body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole (2000,256) block and the whole (1,256) row, as the rectangles the body loads and stores through. -/
abbrev r5_0 : Rect S2000x256 := Rect.unit (s := S2000x256) ![0, 0] S2000x256.size inb_S2000x256_S2000x256_0_0
abbrev r5_1 : Rect S1x256 := Rect.unit (s := S1x256) ![0, 0] S1x256.size inb_S1x256_S1x256_0_0

/-- The result window's staging buffer after the body, from the five input blocks: the one store, of the
    normalised, scaled, shifted and clamped block. -/
def out5_5 (x0 : Vec F S2000x256 .f32) (x1 x2 x3 x4 : Vec F S1x256 .f32) : Vec F S2000x256 .f32 :=
  View.canon [⟨r5_0, k5_pay1 (View.ld x0 r5_0) (View.ld x1 r5_1) (View.ld x2 r5_1) (View.ld x3 r5_1) (View.ld x4 r5_1)⟩]

/-- The one store is of the whole block, so it covers it. -/
theorem cover5_5 (p0 : Vec F S2000x256 .f32) (y : S2000x256.Idx) :
    ∃ pc ∈ ([⟨r5_0, p0⟩] : List (View.Piece (Elt F) S2000x256 .f32)), y ∈ pc.1.set :=
  View.cover_of_tiled [⟨r5_0, p0⟩] S2000x256.size (by rfl) y

set_option maxHeartbeats 1000000 in
/-- The body on whole staging memrefs, the inputs' at contents `x0 … x4` and the result's at anything, runs to the
    continuation holding the inputs' as they were and the result's at `out5_5` of them. -/
theorem sound_kernel5 (c : Dev nD) (E : Set ℕ) (i : grid5.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__affine_relu_kernel i arg1 harg1 arg2 harg2 arg3 harg3 arg4 harg4 arg5 harg5 arg6 harg6) K := by
  simp only [cc5__affine_relu_kernel_eq_skeleton]; unfold cc5__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- Region 5's proof data from the contents `V` the region is entered at: the arrays as found; after the body at a
    point each input's buffer at its block and the result's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) (t : Fin (cfg5.N + 1)) : (dat5 V c).owed t = 0 := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so `sound_kernel5` applies; the invariant and what
    is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  dsimp only [dat5]; exact BIBase.Entails.rfl
theorem hout5 (c : Dev nD) : (dat5 V c).Φ (Fin.last cfg5.N) ⊢ (Pipeline.ΦA spec5 c : sProp 𝕄) := by
  dsimp only [dat5]; exact BIBase.Entails.rfl

theorem recorded_eq5 (c : Dev nD) (t : Fin (cfg5.N + 1)) : (dat5 V c).recorded t = Set.univ := rfl

end Cert.Kernel.Hand

end
-- ==== Proof.K.R6.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 6: the branch condition, the staging memrefs, the scratch -/

/-- The condition of the body's one conditional (the grid coordinate is zero), from the grid coordinates. -/
abbrev cond6 (i : grid6.Coords) : Prop :=
  (Scalar.cmpi .ne (Scalar.extui (Scalar.cmpi .eq (BitVec.ofNat 32 (i 0).val) 0#32)) 0#32) = 1#1

/-- It holds at the first point only: decided over the grid. -/
theorem hcond6 : ∀ t : Fin cfg6.N, cond6 (grid6.coords t) ↔ t.val = 0 :=
  (by decide +kernel : ∀ t : Fin grid6.N, cond6 (grid6.coords t) ↔ t.val = 0)

/-- No window of region 6 is ever idle. -/
theorem live6 (w : Fin cfg6.W) (i : grid6.Coords) : cfg6.idle w i = false := rfl

/-- Each window's current staging memref at point `t`, as the pipeline passes it, and its wholeness. -/
abbrev ms6_0 (t : Fin cfg6.N) : Memref sig .tc .vmem S2000x256 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S256x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2000x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2x256 .f32 := win6_3.stage (cfg6.slots t 3)
abbrev hs6_3 (t : Fin cfg6.N) : (ms6_3 t).IsWhole := hstage6_3 ((cfg6.slots t 3).cast nbuf6_3)
/-- The scratch operand: a whole scoped buffer of the kernel's own, passed beside the windows. -/
abbrev scM6 : Memref sig .tc .vmem S2x256 .f32 := Memref.whole cc6_scratch0
/-- The scratch as a view: what it holds is stated through it. -/
abbrev VS6 : View sig .tc .vmem S2x256 .f32 := scM6.view
/-- One staging buffer of each output window, through which its contents are stated. -/
abbrev VO6_2 : View sig .tc .vmem S2000x256 .f32 := (Memref.whole cc6_stg2_0 : Memref sig .tc .vmem S2000x256 .f32).view
abbrev VO6_3 : View sig .tc .vmem S2x256 .f32 := (Memref.whole cc6_stg3_0 : Memref sig .tc .vmem S2x256 .f32).view

/-- The class invariant with the scratch as a memref owned at some contents, beside the rest of the scoped
    buffers and the generator register. -/
theorem PhiA6_eq (c : Dev nD) :
    (Pipeline.ΦA spec6 c : sProp 𝕄)
      = iprop(iprop(iprop((∃ d, owns (c : Thread nD τ) scM6 fullShare d)) ∗ Pipeline.scopedRestBut spec6 c [cc6_scratch0]) ∗ (∃ r, prngReg c r)) := by
  unfold Pipeline.ΦA; rw [scopedRest6_split]; simp only [scM6, owns_whole]; try rfl

set_option maxHeartbeats 1000000 in
/-- The body at the first point (the conditional taken): on whole staging memrefs, the inputs' at their contents, the
    outputs' and the scratch at anything, it runs to the continuation holding the inputs' as they were and each
    output and the scratch with its pieces written. The pieces are the witness the run finds. -/
noncomputable def kernelRun6_A (c : Dev nD) (i : grid6.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc6__matmul_stats_kernel i arg1 harg1 arg2 harg2 arg3 harg3 arg4 harg4 arg5 harg5) K } := by
  refine ⟨?_, ?_, ?_, fun E K => ?run⟩
  case run =>
    simp only [cc6__matmul_stats_kernel_eq_skeleton]; unfold cc6__matmul_stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

set_option maxHeartbeats 1000000 in
/-- The body at a later point (the conditional not taken): the same, the scratch entering at the contents `xs0`
    the point before left. -/
noncomputable def kernelRun6_B (c : Dev nD) (i : grid6.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc6__matmul_stats_kernel i arg1 harg1 arg2 harg2 arg3 harg3 arg4 harg4 arg5 harg5) K } := by
  refine ⟨?_, ?_, ?_, fun E K => ?run⟩
  case run =>
    simp only [cc6__matmul_stats_kernel_eq_skeleton]; unfold cc6__matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The pieces case A leaves in the product window tile its block, so they cover it. -/
theorem cover6_A_2 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) (y : S2000x256.Idx) :
    ∃ pc ∈ (kernelRun6_A c i arg1 harg1 arg2 harg2 arg3 harg3 arg4 harg4 arg5 harg5 hc0 x0 x1).1, y ∈ pc.1.set :=
  View.cover_of_tiledL (kernelRun6_A c i arg1 harg1 arg2 harg2 arg3 harg3 arg4 harg4 arg5 harg5 hc0 x0 x1).1 S2000x256.size (by sl_kernel_rfl) y

/-- What case A leaves in the product window's staging buffer: its pieces read back over junk. -/
def out6_A_2 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) : Vec F S2000x256 .f32 :=
  VO6_2.read (Elt F) (VO6_2.writes (Elt F) VO6_2.junk (kernelRun6_A c i arg1 harg1 arg2 harg2 arg3 harg3 arg4 harg4 arg5 harg5 hc0 x0 x1).1)

/-- The pieces case A leaves in the statistics window cover it (one whole store). -/
theorem cover6_A_3 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) (y : S2x256.Idx) :
    ∃ pc ∈ (kernelRun6_A c i arg1 harg1 arg2 harg2 arg3 harg3 arg4 harg4 arg5 harg5 hc0 x0 x1).2.1, y ∈ pc.1.set :=
  View.cover_of_tiledL (kernelRun6_A c i arg1 harg1 arg2 harg2 arg3 harg3 arg4 harg4 arg5 harg5 hc0 x0 x1).2.1 S2x256.size (by sl_kernel_rfl) y

/-- What case A leaves in the statistics window's staging buffer. -/
def out6_A_3 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) : Vec F S2x256 .f32 :=
  VO6_3.read (Elt F) (VO6_3.writes (Elt F) VO6_3.junk (kernelRun6_A c i arg1 harg1 arg2 harg2 arg3 harg3 arg4 harg4 arg5 harg5 hc0 x0 x1).2.1)

/-- The pieces case A leaves in the scratch cover it: its two rows, each stored whole. -/
theorem scover6_A (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) (y : S2x256.Idx) :
    ∃ pc ∈ (kernelRun6_A c i arg1 harg1 arg2 harg2 arg3 harg3 arg4 harg4 arg5 harg5 hc0 x0 x1).2.2.1, y ∈ pc.1.set :=
  View.cover_of_tiledL (kernelRun6_A c i arg1 harg1 arg2 harg2 arg3 harg3 arg4 harg4 arg5 harg5 hc0 x0 x1).2.2.1 ![1, 256] (by sl_kernel_rfl) y

/-- What case A leaves in the scratch. -/
def sout6_A (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) : Vec F S2x256 .f32 :=
  VS6.read (Elt F) (VS6.writes (Elt F) VS6.junk (kernelRun6_A c i arg1 harg1 arg2 harg2 arg3 harg3 arg4 harg4 arg5 harg5 hc0 x0 x1).2.2.1)

/-- The pieces case B leaves in the product window tile its block, so they cover it. -/
theorem cover6_B_2 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) (y : S2000x256.Idx) :
    ∃ pc ∈ (kernelRun6_B c i arg1 harg1 arg2 harg2 arg3 harg3 arg4 harg4 arg5 harg5 hc0 x0 x1 xs0).1, y ∈ pc.1.set :=
  View.cover_of_tiledL (kernelRun6_B c i arg1 harg1 arg2 harg2 arg3 harg3 arg4 harg4 arg5 harg5 hc0 x0 x1 xs0).1 S2000x256.size (by sl_kernel_rfl) y

/-- What case B leaves in the product window's staging buffer: its pieces read back over junk. -/
def out6_B_2 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) : Vec F S2000x256 .f32 :=
  VO6_2.read (Elt F) (VO6_2.writes (Elt F) VO6_2.junk (kernelRun6_B c i arg1 harg1 arg2 harg2 arg3 harg3 arg4 harg4 arg5 harg5 hc0 x0 x1 xs0).1)

/-- The pieces case B leaves in the statistics window cover it (one whole store). -/
theorem cover6_B_3 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) (y : S2x256.Idx) :
    ∃ pc ∈ (kernelRun6_B c i arg1 harg1 arg2 harg2 arg3 harg3 arg4 harg4 arg5 harg5 hc0 x0 x1 xs0).2.1, y ∈ pc.1.set :=
  View.cover_of_tiledL (kernelRun6_B c i arg1 harg1 arg2 harg2 arg3 harg3 arg4 harg4 arg5 harg5 hc0 x0 x1 xs0).2.1 S2x256.size (by sl_kernel_rfl) y

/-- What case B leaves in the statistics window's staging buffer. -/
def out6_B_3 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) : Vec F S2x256 .f32 :=
  VO6_3.read (Elt F) (VO6_3.writes (Elt F) VO6_3.junk (kernelRun6_B c i arg1 harg1 arg2 harg2 arg3 harg3 arg4 harg4 arg5 harg5 hc0 x0 x1 xs0).2.1)

/-- The pieces case B leaves in the scratch cover it: its two rows, each stored whole. -/
theorem scover6_B (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) (y : S2x256.Idx) :
    ∃ pc ∈ (kernelRun6_B c i arg1 harg1 arg2 harg2 arg3 harg3 arg4 harg4 arg5 harg5 hc0 x0 x1 xs0).2.2.1, y ∈ pc.1.set :=
  View.cover_of_tiledL (kernelRun6_B c i arg1 harg1 arg2 harg2 arg3 harg3 arg4 harg4 arg5 harg5 hc0 x0 x1 xs0).2.2.1 ![1, 256] (by sl_kernel_rfl) y

/-- What case B leaves in the scratch. -/
def sout6_B (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) : Vec F S2x256 .f32 :=
  VS6.read (Elt F) (VS6.writes (Elt F) VS6.junk (kernelRun6_B c i arg1 harg1 arg2 harg2 arg3 harg3 arg4 harg4 arg5 harg5 hc0 x0 x1 xs0).2.2.1)

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the outputs and the scratch hold after each point -/

/-- THE ACCUMULATION. What the two outputs' staging buffers and the scratch hold after the body at position `n` (the
    product window, the statistics window, the scratch): at the first point the first case run at the point's memrefs
    and input blocks; at a later point the second case, the scratch entering at what the point before left. -/
def outsAt6 (c : Dev nD) : (n : ℕ) → n < cfg6.N → Vec F S2000x256 .f32 × Vec F S2x256 .f32 × Vec F S2x256 .f32
  | 0, hn =>
    (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6 (Memref.isWhole_whole _) ((hcond6 ⟨0, hn⟩).mpr rfl) (iblk6 V c 0 ⟨0, hn⟩) (iblk6 V c 1 ⟨0, hn⟩),
     out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6 (Memref.isWhole_whole _) ((hcond6 ⟨0, hn⟩).mpr rfl) (iblk6 V c 0 ⟨0, hn⟩) (iblk6 V c 1 ⟨0, hn⟩),
     sout6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6 (Memref.isWhole_whole _) ((hcond6 ⟨0, hn⟩).mpr rfl) (iblk6 V c 0 ⟨0, hn⟩) (iblk6 V c 1 ⟨0, hn⟩))
  | n + 1, hn =>
    (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6 (Memref.isWhole_whole _) (fun h => Nat.succ_ne_zero n ((hcond6 ⟨n + 1, hn⟩).mp h)) (iblk6 V c 0 ⟨n + 1, hn⟩) (iblk6 V c 1 ⟨n + 1, hn⟩) (outsAt6 c n (Nat.lt_of_succ_lt hn)).2.2,
     out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6 (Memref.isWhole_whole _) (fun h => Nat.succ_ne_zero n ((hcond6 ⟨n + 1, hn⟩).mp h)) (iblk6 V c 0 ⟨n + 1, hn⟩) (iblk6 V c 1 ⟨n + 1, hn⟩) (outsAt6 c n (Nat.lt_of_succ_lt hn)).2.2,
     sout6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6 (Memref.isWhole_whole _) (fun h => Nat.succ_ne_zero n ((hcond6 ⟨n + 1, hn⟩).mp h)) (iblk6 V c 0 ⟨n + 1, hn⟩) (iblk6 V c 1 ⟨n + 1, hn⟩) (outsAt6 c n (Nat.lt_of_succ_lt hn)).2.2)

/-- `outsAt6` at the first point. -/
theorem outsAt6_A (c : Dev nD) (t : Fin cfg6.N) (h0 : t.val = 0) :
    outsAt6 V c t.val t.isLt =
      (out6_A_2 c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t),
       out6_A_3 c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t),
       sout6_A c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t)) := by
  obtain ⟨n, hn⟩ := t
  cases n with
  | zero => exact rfl
  | succ n => exact absurd h0 (Nat.succ_ne_zero n)

/-- `outsAt6` at a later point: over what the point before left in the scratch. -/
theorem outsAt6_B (c : Dev nD) (t : Fin cfg6.N) (h0 : ¬t.val = 0) :
    outsAt6 V c t.val t.isLt =
      (out6_B_2 c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2,
       out6_B_3 c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2,
       sout6_B c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2) := by
  obtain ⟨n, hn⟩ := t
  cases n with
  | zero => exact absurd rfl h0
  | succ n => exact rfl

/-- The region invariant before position `n`: before the first point the class's; afterwards the scratch owned whole at
    what the point before left in it, beside the other scoped buffers and the generator register, both untouched. -/
def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2.2) ∗ Pipeline.scopedRestBut spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare ((outsAt6 V c n hn).2.2) ∗ Pipeline.scopedRestBut spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare ((outsAt6 V c (n - 1) (by omega)).2.2) ∗ Pipeline.scopedRestBut spec6 c [cc6_scratch0]) ∗ (∃ r, prngReg c r)) := by
  cases n with
  | zero => exact absurd rfl hz
  | succ n => rfl

/-! ## The pipeline's proof data -/

/-- Region 6's proof data from the contents `V` the region is entered at. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by
  dsimp only [dat6]
theorem owed_eq6 (c : Dev nD) (t : Fin (cfg6.N + 1)) : (dat6 V c).owed t = 0 := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; the closed form says which case the point is in, so that
    case's run applies; the invariant hands the body the scratch (at anything at the first point, at what the point before
    left afterwards) and takes it back at this point's contents; the other scoped buffers, the generator register and the
    core's tallies ride through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from rfl, after6_0]
  rw [show (dat6 V c).leavesExact 1 t = owns (c : Thread nD τ) (ms6_1 t) fullShare ((dat6 V c).after 1 t) from rfl, after6_1]
  rw [show (dat6 V c).leavesExact 2 t = owns (c : Thread nD τ) (ms6_2 t) fullShare ((dat6 V c).after 2 t) from rfl, after6_2]
  rw [show (dat6 V c).leavesExact 3 t = owns (c : Thread nD τ) (ms6_3 t) fullShare ((dat6 V c).after 3 t) from rfl, after6_3]
  by_cases h0 : t.val = 0
  · rw [outsAt6_A V c t h0]
    unfold out6_A_2 out6_A_3 sout6_A; (try dsimp only)
    rw [PhiS6_castSucc V c t, PhiS6_zero V c _ _ h0, PhiA6_eq]
    iintro ⟨⟨⟨HS0, Hr⟩, Hg⟩, Ho, ⟨%d0, H0⟩, ⟨%d1, H1⟩, ⟨%d2, H2⟩, ⟨%d3, H3⟩⟩
    iapply ((kernelRun6_A c (grid6.coords t) _ _ _ _ _ _ _ _ _ _ ((hcond6 t).mpr h0) (iblk6 V c 0 t) (iblk6 V c 1 t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover6_A c _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_A_2 c _ _ _ _ _ _ _ _ _ _ _ _ _ _)
    unfold owns; iexists _; isplitr
    swap; · iexact H3
    ipureintro; exact View.read_writes_of_cover _ _ _ _ _ (cover6_A_3 c _ _ _ _ _ _ _ _ _ _ _ _ _ _)
  · rw [outsAt6_B V c t h0]
    unfold out6_B_2 out6_B_3 sout6_B; (try dsimp only)
    rw [PhiS6_castSucc V c t, PhiS6_pos V c _ _ h0]
    iintro ⟨⟨⟨HS0, Hr⟩, Hg⟩, Ho, ⟨%d0, H0⟩, ⟨%d1, H1⟩, ⟨%d2, H2⟩, ⟨%d3, H3⟩⟩
    iapply ((kernelRun6_B c (grid6.coords t) _ _ _ _ _ _ _ _ _ _ (fun h => h0 ((hcond6 t).mp h)) (iblk6 V c 0 t) (iblk6 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover6_B c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_B_2 c _ _ _ _ _ _ _ _ _ _ _ _ _ _ _)
    unfold owns; iexists _; isplitr
    swap; · iexact H3
    ipureintro; exact View.read_writes_of_cover _ _ _ _ _ (cover6_B_3 c _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the scratch's named contents are forgotten. -/
theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

/-- The same after the last point. -/
theorem hout6 (c : Dev nD) : (dat6 V c).Φ (Fin.last cfg6.N) ⊢ (Pipeline.ΦA spec6 c : sProp 𝕄) :=
  Phi_out6 V c _ (by rw [Fin.val_last]; have : cfg6.N = 25 := N_6; omega)

/-- The bound on the recorded pairs is left at everything. -/
theorem recorded_eq6 (c : Dev nD) (t : Fin (cfg6.N + 1)) : (dat6 V c).recorded t = Set.univ := rfl

end Cert.Kernel.Hand

end
-- ==== Proof.K.R7.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 7: the blocks, the branch, the memrefs -/

/-- Window `w`'s block at point `t`, read off its array as the region is entered (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The body's one branch: "this is the first row block" (the grid coordinate is zero). -/
abbrev cond7_0 (i : grid7.Coords) : Prop := (Scalar.cmpi .ne (Scalar.extui (Scalar.cmpi .eq (BitVec.ofNat 32 (i 0).val) 0#32)) 0#32) = 1#1
/-- It holds at the first point only — decided over the 25 points. -/
theorem hcond7_0 : ∀ t : Fin cfg7.N, cond7_0 (grid7.coords t) ↔ t.val % 25 = 0 :=
  (by decide +kernel : ∀ t : Fin grid7.N, cond7_0 (grid7.coords t) ↔ t.val % 25 = 0)

/-- Each window's current staging memref at point `t`, and its wholeness. -/
abbrev ms7_0 (t : Fin cfg7.N) : Memref sig .tc .vmem S2000x256 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x256 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x256 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x256 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S256x256 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S2000x256 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S2x256 .f32 := win7_7.stage (cfg7.slots t 7)
abbrev hs7_7 (t : Fin cfg7.N) : (ms7_7 t).IsWhole := hstage7_7 ((cfg7.slots t 7).cast nbuf7_7)
/-- The accumulator of the column sums: a whole scoped buffer of the kernel's own, carried from point to point. -/
abbrev scM7_0 : Memref sig .tc .vmem S2x256 .f32 := Memref.whole cc7_scratch0
/-- The views through which the outputs' and the accumulator's contents are stated. -/
abbrev VS7_0 : View sig .tc .vmem S2x256 .f32 := scM7_0.view
abbrev VO7_6 : View sig .tc .vmem S2000x256 .f32 := (Memref.whole cc7_stg6_0 : Memref sig .tc .vmem S2000x256 .f32).view
abbrev VO7_7 : View sig .tc .vmem S2x256 .f32 := (Memref.whole cc7_stg7_0 : Memref sig .tc .vmem S2x256 .f32).view

/-- Every other scoped buffer of the core (the other regions' staging buffers and accumulators), at some contents
    each: it rides through the region untouched. -/
abbrev rest7 (c : Dev nD) : sProp 𝕄 :=
  Pipeline.scopedRestBut (Ix := Unit) (Name := ℕ) (U := UR sig nD τ) (Lvl := ℕ) (Val := Elt F) spec7 c [cc7_scratch0]

/-- What the region is entered with and gives back: the accumulator owned whole at some contents, the other
    scoped buffers, the generator register. -/
theorem PhiA7_eq (c : Dev nD) :
    (Pipeline.ΦA spec7 c : sProp 𝕄)
      = iprop(iprop(iprop(∃ d, owns (c : Thread nD τ) scM7_0 fullShare d) ∗ rest7 (F := F) c) ∗ (∃ r, prngReg c r)) := by
  unfold Pipeline.ΦA; rw [scopedRest7_split]; simp only [scM7_0, owns_whole]; try rfl

/-! ## The body's run, one per control case -/

set_option maxHeartbeats 4000000 in
/-- THE FIRST ROW BLOCK (the branch taken). On whole memrefs — the six inputs' at their contents, the two outputs'
    and the accumulator at anything — the body runs to the continuation holding the inputs' as they were and each of
    the two outputs and the accumulator with its stores written, as pieces (last store first): the accumulator is
    zeroed, then its two rows are added to; the product block is stored whole; the statistics window receives a copy
    of the accumulator. The pieces are the witness the run finds. -/
noncomputable def kernelRun7_A (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc7__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc7__affine_matmul_stats_kernel_eq_skeleton]; unfold cc7__affine_matmul_stats_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

set_option maxHeartbeats 4000000 in
/-- A LATER ROW BLOCK (the branch not taken): as the first, but the accumulator is entered at the contents `xs0`
    the row block before left and is only added to. -/
noncomputable def kernelRun7_B (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc7__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc7__affine_matmul_stats_kernel_eq_skeleton]; unfold cc7__affine_matmul_stats_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the covers, and the pieces read back -/

/-- The first row block's one store into the product window is of its whole block. -/
theorem cover7_A_6 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) (y : S2000x256.Idx) :
    ∃ pc ∈ (kernelRun7_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3 x4 x5).1 S2000x256.size (by sl_kernel_rfl) y
/-- What the first row block leaves in the product window's staging buffer: its pieces read back. -/
def out7_A_6 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) : Vec F S2000x256 .f32 :=
  VO7_6.read (Elt F) (VO7_6.writes (Elt F) VO7_6.junk (kernelRun7_A c i arg1 harg1 arg2 harg2 arg3 harg3 arg4 harg4 arg5 harg5 arg6 harg6 arg7 harg7 arg8 harg8 arg9 harg9 hc0 x0 x1 x2 x3 x4 x5).1)
/-- Its one store into the statistics window is of the whole window. -/
theorem cover7_A_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) (y : S2x256.Idx) :
    ∃ pc ∈ (kernelRun7_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3 x4 x5).2.1 S2x256.size (by sl_kernel_rfl) y
def out7_A_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) : Vec F S2x256 .f32 :=
  VO7_7.read (Elt F) (VO7_7.writes (Elt F) VO7_7.junk (kernelRun7_A c i arg1 harg1 arg2 harg2 arg3 harg3 arg4 harg4 arg5 harg5 arg6 harg6 arg7 harg7 arg8 harg8 arg9 harg9 hc0 x0 x1 x2 x3 x4 x5).2.1)
/-- Its stores into the accumulator cover it (the zeroing store alone does). -/
theorem scover7_A_0 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) (y : S2x256.Idx) :
    ∃ pc ∈ (kernelRun7_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3 x4 x5).2.2.1 S2x256.size (by sl_kernel_rfl) y
/-- What the first row block leaves in the accumulator. -/
def sout7_A_0 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) : Vec F S2x256 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3 x4 x5).2.2.1)

/-- A later row block: the same three, the accumulator entered at `xs0`. -/
theorem cover7_B_6 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) (y : S2000x256.Idx) :
    ∃ pc ∈ (kernelRun7_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 x4 x5 xs0).1 S2000x256.size (by sl_kernel_rfl) y
def out7_B_6 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) : Vec F S2000x256 .f32 :=
  VO7_6.read (Elt F) (VO7_6.writes (Elt F) VO7_6.junk (kernelRun7_B c i arg1 harg1 arg2 harg2 arg3 harg3 arg4 harg4 arg5 harg5 arg6 harg6 arg7 harg7 arg8 harg8 arg9 harg9 hc0 x0 x1 x2 x3 x4 x5 xs0).1)
theorem cover7_B_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) (y : S2x256.Idx) :
    ∃ pc ∈ (kernelRun7_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 x4 x5 xs0).2.1 S2x256.size (by sl_kernel_rfl) y
def out7_B_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) : Vec F S2x256 .f32 :=
  VO7_7.read (Elt F) (VO7_7.writes (Elt F) VO7_7.junk (kernelRun7_B c i arg1 harg1 arg2 harg2 arg3 harg3 arg4 harg4 arg5 harg5 arg6 harg6 arg7 harg7 arg8 harg8 arg9 harg9 hc0 x0 x1 x2 x3 x4 x5 xs0).2.1)
/-- The two row stores tile the accumulator. -/
theorem scover7_B_0 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) (y : S2x256.Idx) :
    ∃ pc ∈ (kernelRun7_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 x4 x5 xs0).2.2.1 S1x256.size (by sl_kernel_rfl) y
def sout7_B_0 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) : Vec F S2x256 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 x4 x5 xs0).2.2.1)

/-! ## What the outputs and the accumulator hold after each row block -/

/-- THE ACCUMULATION. After the body at row block `n`: the product window's staging buffer, the statistics window's,
    and the accumulator — the first row block from nothing, each later one over the accumulator the one before left. -/
def outsAt7 (c : Dev nD) : (n : ℕ) → n < cfg7.N → Vec F S2000x256 .f32 × Vec F S2x256 .f32 × Vec F S2x256 .f32
  | 0, hn =>
    (out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) scM7_0 (Memref.isWhole_whole _) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩),
     out7_A_7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) scM7_0 (Memref.isWhole_whole _) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩),
     sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) scM7_0 (Memref.isWhole_whole _) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩))
  | n + 1, hn =>
    have hc : ¬cond7_0 (grid7.coords ⟨n + 1, hn⟩) := fun h => by
      have h1 := (hcond7_0 ⟨n + 1, hn⟩).mp h
      have hN : n + 1 < 25 := lt_of_lt_of_eq hn (show cfg7.N = 25 from N_7)
      (try dsimp only at h1); omega
    (out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7_0 (Memref.isWhole_whole _) hc (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2.2,
     out7_B_7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7_0 (Memref.isWhole_whole _) hc (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2.2,
     sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7_0 (Memref.isWhole_whole _) hc (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2.2)

/-- `outsAt7` at the first row block. -/
theorem outsAt7_A (c : Dev nD) (t : Fin cfg7.N) (h0 : t.val % 25 = 0) :
    outsAt7 V c t.val t.isLt =
      (out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t),
       out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t),
       sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t)) := by
  obtain ⟨n, hn⟩ := t
  cases n with
  | zero => exact rfl
  | succ n =>
    exfalso
    have hN : n + 1 < 25 := lt_of_lt_of_eq hn (show cfg7.N = 25 from N_7)
    (try dsimp only at h0); omega

/-- `outsAt7` at a later row block: over what the row block before left in the accumulator. -/
theorem outsAt7_B (c : Dev nD) (t : Fin cfg7.N) (h0 : ¬t.val % 25 = 0) :
    outsAt7 V c t.val t.isLt =
      (out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2,
       out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2,
       sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact rfl

/-- The region's invariant before row block `n`: at the start what the region is entered with; afterwards the
    accumulator at what the row block before left in it, the other scoped buffers and the generator register as
    they were. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2.2) ∗ rest7 (F := F) c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2.2) ∗ rest7 (F := F) c) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2.2) ∗ rest7 (F := F) c) ∗ (∃ r, prngReg c r)) := by
  cases n with
  | zero => exact absurd rfl hz
  | succ n => rfl

/-! ## The proof data -/

/-- Region 7's proof data from the contents `V` the region is entered at. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
    | ⟨7, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by dsimp only [dat7]
theorem q_eq7 (c : Dev nD) (w : Fin cfg7.W) : (dat7 V c).q w = fullShare := by dsimp only [dat7]
theorem owed_eq7 (c : Dev nD) (t : Fin (cfg7.N + 1)) : (dat7 V c).owed t = 0 := by dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = (outsAt7 V c t.val t.isLt).1 := by dsimp only [dat7]
theorem after7_7 (c : Dev nD) (t : Fin cfg7.N) : (dat7 V c).after 7 t = (outsAt7 V c t.val t.isLt).2.1 := by dsimp only [dat7]

/-- Each input's current staging buffer holds its block at every row block, fetched there or not (the five
    parameter windows and the weights are fetched once: their block index never moves). -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl) (fun t => by rw [after7_5]; unfold Dat.blockOf iblk7; rw [A_eq7]; try rfl) t d).trans
    (by unfold Dat.fetched Dat.blockOf iblk7; rw [A_eq7]; try rfl)

/-! ## The body obligation, at a generic row block -/

/-- What the body is called with at row block `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4800000 in
/-- The body at any row block: the inputs' memrefs hold their blocks; the first row block is the branch taken, every
    later one the branch not taken, entered with the accumulator at what the row block before left; the invariant
    takes the accumulator back at this row block's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  rw [show (dat7 V c).leavesExact 0 t = owns (c : Thread nD τ) (ms7_0 t) fullShare ((dat7 V c).after 0 t) from rfl, after7_0]
  rw [show (dat7 V c).leavesExact 1 t = owns (c : Thread nD τ) (ms7_1 t) fullShare ((dat7 V c).after 1 t) from rfl, after7_1]
  rw [show (dat7 V c).leavesExact 2 t = owns (c : Thread nD τ) (ms7_2 t) fullShare ((dat7 V c).after 2 t) from rfl, after7_2]
  rw [show (dat7 V c).leavesExact 3 t = owns (c : Thread nD τ) (ms7_3 t) fullShare ((dat7 V c).after 3 t) from rfl, after7_3]
  rw [show (dat7 V c).leavesExact 4 t = owns (c : Thread nD τ) (ms7_4 t) fullShare ((dat7 V c).after 4 t) from rfl, after7_4]
  rw [show (dat7 V c).leavesExact 5 t = owns (c : Thread nD τ) (ms7_5 t) fullShare ((dat7 V c).after 5 t) from rfl, after7_5]
  rw [show (dat7 V c).leavesExact 6 t = owns (c : Thread nD τ) (ms7_6 t) fullShare ((dat7 V c).after 6 t) from rfl, after7_6]
  rw [show (dat7 V c).leavesExact 7 t = owns (c : Thread nD τ) (ms7_7 t) fullShare ((dat7 V c).after 7 t) from rfl, after7_7]
  by_cases h0 : t.val % 25 = 0
  ·
    rw [outsAt7_A V c t h0]
    unfold out7_A_6 out7_A_7 sout7_A_0; (try dsimp only)
    have hz : t.val = 0 := by omega
    rw [PhiS7_castSucc V c t, PhiS7_zero V c _ _ hz, PhiA7_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c (grid7.coords t) _ _ _ _ _ _ _ _ _ _ _ _ _ _ _ _ _ _ ((hcond7_0 t).mpr h0) (iblk7 V c 0 t) (iblk7 V c 1 t) (iblk7 V c 2 t) (iblk7 V c 3 t) (iblk7 V c 4 t) (iblk7 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover7_A_0 _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_A_6 _ _ _ _ _ _ _ _ _ _ _ _ _ _ _ _ _ _ _ _ _ _ _ _ _ _ _)
    unfold owns; iexists _; isplitr
    swap; · iexact H7
    ipureintro; exact View.read_writes_of_cover _ _ _ _ _ (cover7_A_7 _ _ _ _ _ _ _ _ _ _ _ _ _ _ _ _ _ _ _ _ _ _ _ _ _ _ _)
  ·
    rw [outsAt7_B V c t h0]
    unfold out7_B_6 out7_B_7 sout7_B_0; (try dsimp only)
    have hz : t.val ≠ 0 := by omega
    rw [PhiS7_castSucc V c t, PhiS7_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_B c (grid7.coords t) _ _ _ _ _ _ _ _ _ _ _ _ _ _ _ _ _ _ (fun h => h0 ((hcond7_0 t).mp h)) (iblk7 V c 0 t) (iblk7 V c 1 t) (iblk7 V c 2 t) (iblk7 V c 3 t) (iblk7 V c 4 t) (iblk7 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover7_B_0 _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_B_6 _ _ _ _ _ _ _ _ _ _ _ _ _ _ _ _ _ _ _ _ _ _ _ _ _ _ _ _)
    unfold owns; iexists _; isplitr
    swap; · iexact H7
    ipureintro; exact View.read_writes_of_cover _ _ _ _ _ (cover7_B_7 _ _ _ _ _ _ _ _ _ _ _ _ _ _ _ _ _ _ _ _ _ _ _ _ _ _ _ _)

/-- The library's body obligation, at every row block. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first row block. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any row block the invariant gives back what the region was entered with: the accumulator's named contents
    are forgotten. -/
theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

theorem hout7 (c : Dev nD) : (dat7 V c).Φ (Fin.last cfg7.N) ⊢ (Pipeline.ΦA spec7 c : sProp 𝕄) :=
  Phi_out7 V c _ (by rw [Fin.val_last]; have : cfg7.N = 25 := N_7; omega)

theorem recorded_eq7 (c : Dev nD) (t : Fin (cfg7.N + 1)) : (dat7 V c).recorded t = Set.univ := rfl

end Cert.Kernel.Hand

end
-- ==== Proof.K.R8.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: custom_call 8, `cc8__affine_relu_kernel`, at the entry contents `V` -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not: where it is not fetched
    the block index has not moved, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not: where it is not fetched
    the block index has not moved, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not: where it is not fetched
    the block index has not moved, and the body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not: where it is not fetched
    the block index has not moved, and the body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not: where it is not fetched
    the block index has not moved, and the body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The whole (2000,256) block and the whole (1,256) row, as the rectangles the body loads and stores through. -/
abbrev r8_0 : Rect S2000x256 := Rect.unit (s := S2000x256) ![0, 0] S2000x256.size inb_S2000x256_S2000x256_0_0
abbrev r8_1 : Rect S1x256 := Rect.unit (s := S1x256) ![0, 0] S1x256.size inb_S1x256_S1x256_0_0

/-- The result window's staging buffer after the body, from the five input blocks: the one store, of the
    normalised, scaled, shifted and clamped block. -/
def out8_5 (x0 : Vec F S2000x256 .f32) (x1 x2 x3 x4 : Vec F S1x256 .f32) : Vec F S2000x256 .f32 :=
  View.canon [⟨r8_0, k8_pay1 (View.ld x0 r8_0) (View.ld x1 r8_1) (View.ld x2 r8_1) (View.ld x3 r8_1) (View.ld x4 r8_1)⟩]

/-- The one store is of the whole block, so it covers it. -/
theorem cover8_5 (p0 : Vec F S2000x256 .f32) (y : S2000x256.Idx) :
    ∃ pc ∈ ([⟨r8_0, p0⟩] : List (View.Piece (Elt F) S2000x256 .f32)), y ∈ pc.1.set :=
  View.cover_of_tiled [⟨r8_0, p0⟩] S2000x256.size (by rfl) y

set_option maxHeartbeats 1000000 in
/-- The body on whole staging memrefs, the inputs' at contents `x0 … x4` and the result's at anything, runs to the
    continuation holding the inputs' as they were and the result's at `out8_5` of them. -/
theorem sound_kernel8 (c : Dev nD) (E : Set ℕ) (i : grid8.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__affine_relu_kernel i arg1 harg1 arg2 harg2 arg3 harg3 arg4 harg4 arg5 harg5 arg6 harg6) K := by
  simp only [cc8__affine_relu_kernel_eq_skeleton]; unfold cc8__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- Region 8's proof data from the contents `V` the region is entered at: the arrays as found; after the body at a
    point each input's buffer at its block and the result's at `out8_5` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem q_eq8 (c : Dev nD) (w : Fin cfg8.W) : (dat8 V c).q w = fullShare := by
  dsimp only [dat8]
theorem owed_eq8 (c : Dev nD) (t : Fin (cfg8.N + 1)) : (dat8 V c).owed t = 0 := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so `sound_kernel8` applies; the invariant and what
    is owed pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := by
  dsimp only [dat8]; exact BIBase.Entails.rfl
theorem hout8 (c : Dev nD) : (dat8 V c).Φ (Fin.last cfg8.N) ⊢ (Pipeline.ΦA spec8 c : sProp 𝕄) := by
  dsimp only [dat8]; exact BIBase.Entails.rfl

theorem recorded_eq8 (c : Dev nD) (t : Fin (cfg8.N + 1)) : (dat8 V c).recorded t = Set.univ := rfl

end Cert.Kernel.Hand

end
-- ==== Proof.K.R9.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 9: the branch condition, the staging memrefs, the scratch -/

/-- The condition of the body's one conditional (the grid coordinate is zero), from the grid coordinates. -/
abbrev cond9 (i : grid9.Coords) : Prop :=
  (Scalar.cmpi .ne (Scalar.extui (Scalar.cmpi .eq (BitVec.ofNat 32 (i 0).val) 0#32)) 0#32) = 1#1

/-- It holds at the first point only: decided over the grid. -/
theorem hcond9 : ∀ t : Fin cfg9.N, cond9 (grid9.coords t) ↔ t.val = 0 :=
  (by decide +kernel : ∀ t : Fin grid9.N, cond9 (grid9.coords t) ↔ t.val = 0)

/-- No window of region 9 is ever idle. -/
theorem live9 (w : Fin cfg9.W) (i : grid9.Coords) : cfg9.idle w i = false := rfl

/-- Each window's current staging memref at point `t`, as the pipeline passes it, and its wholeness. -/
abbrev ms9_0 (t : Fin cfg9.N) : Memref sig .tc .vmem S2000x256 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S256x256 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2000x256 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2x256 .f32 := win9_3.stage (cfg9.slots t 3)
abbrev hs9_3 (t : Fin cfg9.N) : (ms9_3 t).IsWhole := hstage9_3 ((cfg9.slots t 3).cast nbuf9_3)
/-- The scratch operand: a whole scoped buffer of the kernel's own, passed beside the windows. -/
abbrev scM9 : Memref sig .tc .vmem S2x256 .f32 := Memref.whole cc9_scratch0
/-- The scratch as a view: what it holds is stated through it. -/
abbrev VS9 : View sig .tc .vmem S2x256 .f32 := scM9.view
/-- One staging buffer of each output window, through which its contents are stated. -/
abbrev VO9_2 : View sig .tc .vmem S2000x256 .f32 := (Memref.whole cc9_stg2_0 : Memref sig .tc .vmem S2000x256 .f32).view
abbrev VO9_3 : View sig .tc .vmem S2x256 .f32 := (Memref.whole cc9_stg3_0 : Memref sig .tc .vmem S2x256 .f32).view

/-- The class invariant with the scratch as a memref owned at some contents, beside the rest of the scoped
    buffers and the generator register. -/
theorem PhiA9_eq (c : Dev nD) :
    (Pipeline.ΦA spec9 c : sProp 𝕄)
      = iprop(iprop(iprop((∃ d, owns (c : Thread nD τ) scM9 fullShare d)) ∗ Pipeline.scopedRestBut spec9 c [cc9_scratch0]) ∗ (∃ r, prngReg c r)) := by
  unfold Pipeline.ΦA; rw [scopedRest9_split]; simp only [scM9, owns_whole]; try rfl

set_option maxHeartbeats 1000000 in
/-- The body at the first point (the conditional taken): on whole staging memrefs, the inputs' at their contents, the
    outputs' and the scratch at anything, it runs to the continuation holding the inputs' as they were and each
    output and the scratch with its pieces written. The pieces are the witness the run finds. -/
noncomputable def kernelRun9_A (c : Dev nD) (i : grid9.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_stats_kernel i arg1 harg1 arg2 harg2 arg3 harg3 arg4 harg4 arg5 harg5) K } := by
  refine ⟨?_, ?_, ?_, fun E K => ?run⟩
  case run =>
    simp only [cc9__matmul_stats_kernel_eq_skeleton]; unfold cc9__matmul_stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

set_option maxHeartbeats 1000000 in
/-- The body at a later point (the conditional not taken): the same, the scratch entering at the contents `xs0`
    the point before left. -/
noncomputable def kernelRun9_B (c : Dev nD) (i : grid9.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_stats_kernel i arg1 harg1 arg2 harg2 arg3 harg3 arg4 harg4 arg5 harg5) K } := by
  refine ⟨?_, ?_, ?_, fun E K => ?run⟩
  case run =>
    simp only [cc9__matmul_stats_kernel_eq_skeleton]; unfold cc9__matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The pieces case A leaves in the product window tile its block, so they cover it. -/
theorem cover9_A_2 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) (y : S2000x256.Idx) :
    ∃ pc ∈ (kernelRun9_A c i arg1 harg1 arg2 harg2 arg3 harg3 arg4 harg4 arg5 harg5 hc0 x0 x1).1, y ∈ pc.1.set :=
  View.cover_of_tiledL (kernelRun9_A c i arg1 harg1 arg2 harg2 arg3 harg3 arg4 harg4 arg5 harg5 hc0 x0 x1).1 S2000x256.size (by sl_kernel_rfl) y

/-- What case A leaves in the product window's staging buffer: its pieces read back over junk. -/
def out9_A_2 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) : Vec F S2000x256 .f32 :=
  VO9_2.read (Elt F) (VO9_2.writes (Elt F) VO9_2.junk (kernelRun9_A c i arg1 harg1 arg2 harg2 arg3 harg3 arg4 harg4 arg5 harg5 hc0 x0 x1).1)

/-- The pieces case A leaves in the statistics window cover it (one whole store). -/
theorem cover9_A_3 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) (y : S2x256.Idx) :
    ∃ pc ∈ (kernelRun9_A c i arg1 harg1 arg2 harg2 arg3 harg3 arg4 harg4 arg5 harg5 hc0 x0 x1).2.1, y ∈ pc.1.set :=
  View.cover_of_tiledL (kernelRun9_A c i arg1 harg1 arg2 harg2 arg3 harg3 arg4 harg4 arg5 harg5 hc0 x0 x1).2.1 S2x256.size (by sl_kernel_rfl) y

/-- What case A leaves in the statistics window's staging buffer. -/
def out9_A_3 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) : Vec F S2x256 .f32 :=
  VO9_3.read (Elt F) (VO9_3.writes (Elt F) VO9_3.junk (kernelRun9_A c i arg1 harg1 arg2 harg2 arg3 harg3 arg4 harg4 arg5 harg5 hc0 x0 x1).2.1)

/-- The pieces case A leaves in the scratch cover it: its two rows, each stored whole. -/
theorem scover9_A (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) (y : S2x256.Idx) :
    ∃ pc ∈ (kernelRun9_A c i arg1 harg1 arg2 harg2 arg3 harg3 arg4 harg4 arg5 harg5 hc0 x0 x1).2.2.1, y ∈ pc.1.set :=
  View.cover_of_tiledL (kernelRun9_A c i arg1 harg1 arg2 harg2 arg3 harg3 arg4 harg4 arg5 harg5 hc0 x0 x1).2.2.1 ![1, 256] (by sl_kernel_rfl) y

/-- What case A leaves in the scratch. -/
def sout9_A (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) : Vec F S2x256 .f32 :=
  VS9.read (Elt F) (VS9.writes (Elt F) VS9.junk (kernelRun9_A c i arg1 harg1 arg2 harg2 arg3 harg3 arg4 harg4 arg5 harg5 hc0 x0 x1).2.2.1)

/-- The pieces case B leaves in the product window tile its block, so they cover it. -/
theorem cover9_B_2 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) (y : S2000x256.Idx) :
    ∃ pc ∈ (kernelRun9_B c i arg1 harg1 arg2 harg2 arg3 harg3 arg4 harg4 arg5 harg5 hc0 x0 x1 xs0).1, y ∈ pc.1.set :=
  View.cover_of_tiledL (kernelRun9_B c i arg1 harg1 arg2 harg2 arg3 harg3 arg4 harg4 arg5 harg5 hc0 x0 x1 xs0).1 S2000x256.size (by sl_kernel_rfl) y

/-- What case B leaves in the product window's staging buffer: its pieces read back over junk. -/
def out9_B_2 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) : Vec F S2000x256 .f32 :=
  VO9_2.read (Elt F) (VO9_2.writes (Elt F) VO9_2.junk (kernelRun9_B c i arg1 harg1 arg2 harg2 arg3 harg3 arg4 harg4 arg5 harg5 hc0 x0 x1 xs0).1)

/-- The pieces case B leaves in the statistics window cover it (one whole store). -/
theorem cover9_B_3 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) (y : S2x256.Idx) :
    ∃ pc ∈ (kernelRun9_B c i arg1 harg1 arg2 harg2 arg3 harg3 arg4 harg4 arg5 harg5 hc0 x0 x1 xs0).2.1, y ∈ pc.1.set :=
  View.cover_of_tiledL (kernelRun9_B c i arg1 harg1 arg2 harg2 arg3 harg3 arg4 harg4 arg5 harg5 hc0 x0 x1 xs0).2.1 S2x256.size (by sl_kernel_rfl) y

/-- What case B leaves in the statistics window's staging buffer. -/
def out9_B_3 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) : Vec F S2x256 .f32 :=
  VO9_3.read (Elt F) (VO9_3.writes (Elt F) VO9_3.junk (kernelRun9_B c i arg1 harg1 arg2 harg2 arg3 harg3 arg4 harg4 arg5 harg5 hc0 x0 x1 xs0).2.1)

/-- The pieces case B leaves in the scratch cover it: its two rows, each stored whole. -/
theorem scover9_B (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) (y : S2x256.Idx) :
    ∃ pc ∈ (kernelRun9_B c i arg1 harg1 arg2 harg2 arg3 harg3 arg4 harg4 arg5 harg5 hc0 x0 x1 xs0).2.2.1, y ∈ pc.1.set :=
  View.cover_of_tiledL (kernelRun9_B c i arg1 harg1 arg2 harg2 arg3 harg3 arg4 harg4 arg5 harg5 hc0 x0 x1 xs0).2.2.1 ![1, 256] (by sl_kernel_rfl) y

/-- What case B leaves in the scratch. -/
def sout9_B (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) : Vec F S2x256 .f32 :=
  VS9.read (Elt F) (VS9.writes (Elt F) VS9.junk (kernelRun9_B c i arg1 harg1 arg2 harg2 arg3 harg3 arg4 harg4 arg5 harg5 hc0 x0 x1 xs0).2.2.1)

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## What the outputs and the scratch hold after each point -/

/-- THE ACCUMULATION. What the two outputs' staging buffers and the scratch hold after the body at position `n` (the
    product window, the statistics window, the scratch): at the first point the first case run at the point's memrefs
    and input blocks; at a later point the second case, the scratch entering at what the point before left. -/
def outsAt9 (c : Dev nD) : (n : ℕ) → n < cfg9.N → Vec F S2000x256 .f32 × Vec F S2x256 .f32 × Vec F S2x256 .f32
  | 0, hn =>
    (out9_A_2 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9 (Memref.isWhole_whole _) ((hcond9 ⟨0, hn⟩).mpr rfl) (iblk9 V c 0 ⟨0, hn⟩) (iblk9 V c 1 ⟨0, hn⟩),
     out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9 (Memref.isWhole_whole _) ((hcond9 ⟨0, hn⟩).mpr rfl) (iblk9 V c 0 ⟨0, hn⟩) (iblk9 V c 1 ⟨0, hn⟩),
     sout9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9 (Memref.isWhole_whole _) ((hcond9 ⟨0, hn⟩).mpr rfl) (iblk9 V c 0 ⟨0, hn⟩) (iblk9 V c 1 ⟨0, hn⟩))
  | n + 1, hn =>
    (out9_B_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _) (fun h => Nat.succ_ne_zero n ((hcond9 ⟨n + 1, hn⟩).mp h)) (iblk9 V c 0 ⟨n + 1, hn⟩) (iblk9 V c 1 ⟨n + 1, hn⟩) (outsAt9 c n (Nat.lt_of_succ_lt hn)).2.2,
     out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _) (fun h => Nat.succ_ne_zero n ((hcond9 ⟨n + 1, hn⟩).mp h)) (iblk9 V c 0 ⟨n + 1, hn⟩) (iblk9 V c 1 ⟨n + 1, hn⟩) (outsAt9 c n (Nat.lt_of_succ_lt hn)).2.2,
     sout9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _) (fun h => Nat.succ_ne_zero n ((hcond9 ⟨n + 1, hn⟩).mp h)) (iblk9 V c 0 ⟨n + 1, hn⟩) (iblk9 V c 1 ⟨n + 1, hn⟩) (outsAt9 c n (Nat.lt_of_succ_lt hn)).2.2)

/-- `outsAt9` at the first point. -/
theorem outsAt9_A (c : Dev nD) (t : Fin cfg9.N) (h0 : t.val = 0) :
    outsAt9 V c t.val t.isLt =
      (out9_A_2 c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t),
       out9_A_3 c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t),
       sout9_A c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t)) := by
  obtain ⟨n, hn⟩ := t
  cases n with
  | zero => exact rfl
  | succ n => exact absurd h0 (Nat.succ_ne_zero n)

/-- `outsAt9` at a later point: over what the point before left in the scratch. -/
theorem outsAt9_B (c : Dev nD) (t : Fin cfg9.N) (h0 : ¬t.val = 0) :
    outsAt9 V c t.val t.isLt =
      (out9_B_2 c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2,
       out9_B_3 c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2,
       sout9_B c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2) := by
  obtain ⟨n, hn⟩ := t
  cases n with
  | zero => exact absurd rfl h0
  | succ n => exact rfl

/-- The region invariant before position `n`: before the first point the class's; afterwards the scratch owned whole at
    what the point before left in it, beside the other scoped buffers and the generator register, both untouched. -/
def PhiS9 (c : Dev nD) : (n : ℕ) → n ≤ cfg9.N → sProp 𝕄
  | 0, _ => Pipeline.ΦA spec9 c
  | n + 1, hn => iprop(iprop(owns (c : Thread nD τ) scM9 fullShare ((outsAt9 V c n hn).2.2) ∗ Pipeline.scopedRestBut spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9 fullShare ((outsAt9 V c n hn).2.2) ∗ Pipeline.scopedRestBut spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9 fullShare ((outsAt9 V c (n - 1) (by omega)).2.2) ∗ Pipeline.scopedRestBut spec9 c [cc9_scratch0]) ∗ (∃ r, prngReg c r)) := by
  cases n with
  | zero => exact absurd rfl hz
  | succ n => rfl

/-! ## The pipeline's proof data -/

/-- Region 9's proof data from the contents `V` the region is entered at. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
    | ⟨3, _⟩ => (outsAt9 V c t.val t.isLt).2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem q_eq9 (c : Dev nD) (w : Fin cfg9.W) : (dat9 V c).q w = fullShare := by
  dsimp only [dat9]
theorem owed_eq9 (c : Dev nD) (t : Fin (cfg9.N + 1)) : (dat9 V c).owed t = 0 := by
  dsimp only [dat9]

/-- The invariant at a point's start, restated at `t.val`. -/
theorem PhiS9_castSucc (c : Dev nD) (t : Fin cfg9.N) :
    (dat9 V c).Φ t.castSucc = PhiS9 V c t.val (Nat.le_of_lt t.isLt) := by
  dsimp only [dat9]; simp only [Fin.coe_castSucc]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem after9_3 (c : Dev nD) (t : Fin cfg9.N) : (dat9 V c).after 3 t = (outsAt9 V c t.val t.isLt).2.1 := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' memrefs hold their blocks; the closed form says which case the point is in, so that
    case's run applies; the invariant hands the body the scratch (at anything at the first point, at what the point before
    left afterwards) and takes it back at this point's contents; the other scoped buffers, the generator register and the
    core's tallies ride through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from rfl, after9_0]
  rw [show (dat9 V c).leavesExact 1 t = owns (c : Thread nD τ) (ms9_1 t) fullShare ((dat9 V c).after 1 t) from rfl, after9_1]
  rw [show (dat9 V c).leavesExact 2 t = owns (c : Thread nD τ) (ms9_2 t) fullShare ((dat9 V c).after 2 t) from rfl, after9_2]
  rw [show (dat9 V c).leavesExact 3 t = owns (c : Thread nD τ) (ms9_3 t) fullShare ((dat9 V c).after 3 t) from rfl, after9_3]
  by_cases h0 : t.val = 0
  · rw [outsAt9_A V c t h0]
    unfold out9_A_2 out9_A_3 sout9_A; (try dsimp only)
    rw [PhiS9_castSucc V c t, PhiS9_zero V c _ _ h0, PhiA9_eq]
    iintro ⟨⟨⟨HS0, Hr⟩, Hg⟩, Ho, ⟨%d0, H0⟩, ⟨%d1, H1⟩, ⟨%d2, H2⟩, ⟨%d3, H3⟩⟩
    iapply ((kernelRun9_A c (grid9.coords t) _ _ _ _ _ _ _ _ _ _ ((hcond9 t).mpr h0) (iblk9 V c 0 t) (iblk9 V c 1 t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover9_A c _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover9_A_2 c _ _ _ _ _ _ _ _ _ _ _ _ _ _)
    unfold owns; iexists _; isplitr
    swap; · iexact H3
    ipureintro; exact View.read_writes_of_cover _ _ _ _ _ (cover9_A_3 c _ _ _ _ _ _ _ _ _ _ _ _ _ _)
  · rw [outsAt9_B V c t h0]
    unfold out9_B_2 out9_B_3 sout9_B; (try dsimp only)
    rw [PhiS9_castSucc V c t, PhiS9_pos V c _ _ h0]
    iintro ⟨⟨⟨HS0, Hr⟩, Hg⟩, Ho, ⟨%d0, H0⟩, ⟨%d1, H1⟩, ⟨%d2, H2⟩, ⟨%d3, H3⟩⟩
    iapply ((kernelRun9_B c (grid9.coords t) _ _ _ _ _ _ _ _ _ _ (fun h => h0 ((hcond9 t).mp h)) (iblk9 V c 0 t) (iblk9 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover9_B c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover9_B_2 c _ _ _ _ _ _ _ _ _ _ _ _ _ _ _)
    unfold owns; iexists _; isplitr
    swap; · iexact H3
    ipureintro; exact View.read_writes_of_cover _ _ _ _ _ (cover9_B_3 c _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : (Pipeline.ΦA spec9 c : sProp 𝕄) ⊢ (dat9 V c).Φ 0 := by
  rw [show (dat9 V c).Φ 0 = PhiS9 V c 0 (Nat.zero_le _) from rfl, PhiS9_zero V c 0 _ rfl]
  try exact Idealize.SL.BI.Entails.refl _

/-- After any point but the first the invariant gives the class's back: the scratch's named contents are forgotten. -/
theorem Phi_out9 (c : Dev nD) (t : Fin (cfg9.N + 1)) (ht : t.val ≠ 0) : (dat9 V c).Φ t ⊢ (Pipeline.ΦA spec9 c : sProp 𝕄) := by
  rw [show (dat9 V c).Φ t = PhiS9 V c t.val (Nat.le_of_lt_succ t.isLt) from rfl, PhiS9_pos V c _ _ ht, PhiA9_eq]
  iintro ⟨⟨HS0, Hr⟩, Hg⟩
  isplitl [HS0 Hr]
  · isplitl [HS0]
    · iexists _; iexact HS0
    iexact Hr
  iexact Hg

/-- The same after the last point. -/
theorem hout9 (c : Dev nD) : (dat9 V c).Φ (Fin.last cfg9.N) ⊢ (Pipeline.ΦA spec9 c : sProp 𝕄) :=
  Phi_out9 V c _ (by rw [Fin.val_last]; have : cfg9.N = 25 := N_9; omega)

/-- The bound on the recorded pairs is left at everything. -/
theorem recorded_eq9 (c : Dev nD) (t : Fin (cfg9.N + 1)) : (dat9 V c).recorded t = Set.univ := rfl

end Cert.Kernel.Hand

end
-- ==== Proof.K.R10.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 10: the blocks, the branch, the memrefs -/

/-- Window `w`'s block at point `t`, read off its array as the region is entered (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The body's one branch: "this is the first row block" (the grid coordinate is zero). -/
abbrev cond10_0 (i : grid10.Coords) : Prop := (Scalar.cmpi .ne (Scalar.extui (Scalar.cmpi .eq (BitVec.ofNat 32 (i 0).val) 0#32)) 0#32) = 1#1
/-- It holds at the first point only — decided over the 25 points. -/
theorem hcond10_0 : ∀ t : Fin cfg10.N, cond10_0 (grid10.coords t) ↔ t.val % 25 = 0 :=
  (by decide +kernel : ∀ t : Fin grid10.N, cond10_0 (grid10.coords t) ↔ t.val % 25 = 0)

/-- Each window's current staging memref at point `t`, and its wholeness. -/
abbrev ms10_0 (t : Fin cfg10.N) : Memref sig .tc .vmem S2000x256 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x256 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x256 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x256 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x256 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S256x256 .f32 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S2000x256 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S2x256 .f32 := win10_7.stage (cfg10.slots t 7)
abbrev hs10_7 (t : Fin cfg10.N) : (ms10_7 t).IsWhole := hstage10_7 ((cfg10.slots t 7).cast nbuf10_7)
/-- The accumulator of the column sums: a whole scoped buffer of the kernel's own, carried from point to point. -/
abbrev scM10_0 : Memref sig .tc .vmem S2x256 .f32 := Memref.whole cc10_scratch0
/-- The views through which the outputs' and the accumulator's contents are stated. -/
abbrev VS10_0 : View sig .tc .vmem S2x256 .f32 := scM10_0.view
abbrev VO10_6 : View sig .tc .vmem S2000x256 .f32 := (Memref.whole cc10_stg6_0 : Memref sig .tc .vmem S2000x256 .f32).view
abbrev VO10_7 : View sig .tc .vmem S2x256 .f32 := (Memref.whole cc10_stg7_0 : Memref sig .tc .vmem S2x256 .f32).view

/-- Every other scoped buffer of the core (the other regions' staging buffers and accumulators), at some contents
    each: it rides through the region untouched. -/
abbrev rest10 (c : Dev nD) : sProp 𝕄 :=
  Pipeline.scopedRestBut (Ix := Unit) (Name := ℕ) (U := UR sig nD τ) (Lvl := ℕ) (Val := Elt F) spec10 c [cc10_scratch0]

/-- What the region is entered with and gives back: the accumulator owned whole at some contents, the other
    scoped buffers, the generator register. -/
theorem PhiA10_eq (c : Dev nD) :
    (Pipeline.ΦA spec10 c : sProp 𝕄)
      = iprop(iprop(iprop(∃ d, owns (c : Thread nD τ) scM10_0 fullShare d) ∗ rest10 (F := F) c) ∗ (∃ r, prngReg c r)) := by
  unfold Pipeline.ΦA; rw [scopedRest10_split]; simp only [scM10_0, owns_whole]; try rfl

/-! ## The body's run, one per control case -/

set_option maxHeartbeats 4000000 in
/-- THE FIRST ROW BLOCK (the branch taken). On whole memrefs — the six inputs' at their contents, the two outputs'
    and the accumulator at anything — the body runs to the continuation holding the inputs' as they were and each of
    the two outputs and the accumulator with its stores written, as pieces (last store first): the accumulator is
    zeroed, then its two rows are added to; the product block is stored whole; the statistics window receives a copy
    of the accumulator. The pieces are the witness the run finds. -/
noncomputable def kernelRun10_A (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc10__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc10__affine_matmul_stats_kernel_eq_skeleton]; unfold cc10__affine_matmul_stats_kernel_skel
    simp only [k10_part1_eq_skeleton]; unfold k10_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

set_option maxHeartbeats 4000000 in
/-- A LATER ROW BLOCK (the branch not taken): as the first, but the accumulator is entered at the contents `xs0`
    the row block before left and is only added to. -/
noncomputable def kernelRun10_B (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc10__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc10__affine_matmul_stats_kernel_eq_skeleton]; unfold cc10__affine_matmul_stats_kernel_skel
    simp only [k10_part1_eq_skeleton]; unfold k10_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the covers, and the pieces read back -/

/-- The first row block's one store into the product window is of its whole block. -/
theorem cover10_A_6 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) (y : S2000x256.Idx) :
    ∃ pc ∈ (kernelRun10_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun10_A c i arg1 harg1 arg2 harg2 arg3 harg3 arg4 harg4 arg5 harg5 arg6 harg6 arg7 harg7 arg8 harg8 arg9 harg9 hc0 x0 x1 x2 x3 x4 x5).1 S2000x256.size (by sl_kernel_rfl) y
/-- What the first row block leaves in the product window's staging buffer: its pieces read back. -/
def out10_A_6 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) : Vec F S2000x256 .f32 :=
  VO10_6.read (Elt F) (VO10_6.writes (Elt F) VO10_6.junk (kernelRun10_A c i arg1 harg1 arg2 harg2 arg3 harg3 arg4 harg4 arg5 harg5 arg6 harg6 arg7 harg7 arg8 harg8 arg9 harg9 hc0 x0 x1 x2 x3 x4 x5).1)
/-- Its one store into the statistics window is of the whole window. -/
theorem cover10_A_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) (y : S2x256.Idx) :
    ∃ pc ∈ (kernelRun10_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun10_A c i arg1 harg1 arg2 harg2 arg3 harg3 arg4 harg4 arg5 harg5 arg6 harg6 arg7 harg7 arg8 harg8 arg9 harg9 hc0 x0 x1 x2 x3 x4 x5).2.1 S2x256.size (by sl_kernel_rfl) y
def out10_A_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) : Vec F S2x256 .f32 :=
  VO10_7.read (Elt F) (VO10_7.writes (Elt F) VO10_7.junk (kernelRun10_A c i arg1 harg1 arg2 harg2 arg3 harg3 arg4 harg4 arg5 harg5 arg6 harg6 arg7 harg7 arg8 harg8 arg9 harg9 hc0 x0 x1 x2 x3 x4 x5).2.1)
/-- Its stores into the accumulator cover it (the zeroing store alone does). -/
theorem scover10_A_0 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) (y : S2x256.Idx) :
    ∃ pc ∈ (kernelRun10_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun10_A c i arg1 harg1 arg2 harg2 arg3 harg3 arg4 harg4 arg5 harg5 arg6 harg6 arg7 harg7 arg8 harg8 arg9 harg9 hc0 x0 x1 x2 x3 x4 x5).2.2.1 S2x256.size (by sl_kernel_rfl) y
/-- What the first row block leaves in the accumulator. -/
def sout10_A_0 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) : Vec F S2x256 .f32 :=
  VS10_0.read (Elt F) (VS10_0.writes (Elt F) VS10_0.junk (kernelRun10_A c i arg1 harg1 arg2 harg2 arg3 harg3 arg4 harg4 arg5 harg5 arg6 harg6 arg7 harg7 arg8 harg8 arg9 harg9 hc0 x0 x1 x2 x3 x4 x5).2.2.1)

/-- A later row block: the same three, the accumulator entered at `xs0`. -/
theorem cover10_B_6 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) (y : S2000x256.Idx) :
    ∃ pc ∈ (kernelRun10_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun10_B c i arg1 harg1 arg2 harg2 arg3 harg3 arg4 harg4 arg5 harg5 arg6 harg6 arg7 harg7 arg8 harg8 arg9 harg9 hc0 x0 x1 x2 x3 x4 x5 xs0).1 S2000x256.size (by sl_kernel_rfl) y
def out10_B_6 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) : Vec F S2000x256 .f32 :=
  VO10_6.read (Elt F) (VO10_6.writes (Elt F) VO10_6.junk (kernelRun10_B c i arg1 harg1 arg2 harg2 arg3 harg3 arg4 harg4 arg5 harg5 arg6 harg6 arg7 harg7 arg8 harg8 arg9 harg9 hc0 x0 x1 x2 x3 x4 x5 xs0).1)
theorem cover10_B_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) (y : S2x256.Idx) :
    ∃ pc ∈ (kernelRun10_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun10_B c i arg1 harg1 arg2 harg2 arg3 harg3 arg4 harg4 arg5 harg5 arg6 harg6 arg7 harg7 arg8 harg8 arg9 harg9 hc0 x0 x1 x2 x3 x4 x5 xs0).2.1 S2x256.size (by sl_kernel_rfl) y
def out10_B_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) : Vec F S2x256 .f32 :=
  VO10_7.read (Elt F) (VO10_7.writes (Elt F) VO10_7.junk (kernelRun10_B c i arg1 harg1 arg2 harg2 arg3 harg3 arg4 harg4 arg5 harg5 arg6 harg6 arg7 harg7 arg8 harg8 arg9 harg9 hc0 x0 x1 x2 x3 x4 x5 xs0).2.1)
/-- The two row stores tile the accumulator. -/
theorem scover10_B_0 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) (y : S2x256.Idx) :
    ∃ pc ∈ (kernelRun10_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun10_B c i arg1 harg1 arg2 harg2 arg3 harg3 arg4 harg4 arg5 harg5 arg6 harg6 arg7 harg7 arg8 harg8 arg9 harg9 hc0 x0 x1 x2 x3 x4 x5 xs0).2.2.1 S1x256.size (by sl_kernel_rfl) y
def sout10_B_0 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) : Vec F S2x256 .f32 :=
  VS10_0.read (Elt F) (VS10_0.writes (Elt F) VS10_0.junk (kernelRun10_B c i arg1 harg1 arg2 harg2 arg3 harg3 arg4 harg4 arg5 harg5 arg6 harg6 arg7 harg7 arg8 harg8 arg9 harg9 hc0 x0 x1 x2 x3 x4 x5 xs0).2.2.1)

/-! ## What the outputs and the accumulator hold after each row block -/

/-- THE ACCUMULATION. After the body at row block `n`: the product window's staging buffer, the statistics window's,
    and the accumulator — the first row block from nothing, each later one over the accumulator the one before left. -/
def outsAt10 (c : Dev nD) : (n : ℕ) → n < cfg10.N → Vec F S2000x256 .f32 × Vec F S2x256 .f32 × Vec F S2x256 .f32
  | 0, hn =>
    (out10_A_6 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) scM10_0 (Memref.isWhole_whole _) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩),
     out10_A_7 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) scM10_0 (Memref.isWhole_whole _) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩),
     sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) scM10_0 (Memref.isWhole_whole _) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩))
  | n + 1, hn =>
    have hc : ¬cond10_0 (grid10.coords ⟨n + 1, hn⟩) := fun h => by
      have h1 := (hcond10_0 ⟨n + 1, hn⟩).mp h
      have hN : n + 1 < 25 := lt_of_lt_of_eq hn (show cfg10.N = 25 from N_10)
      (try dsimp only at h1); omega
    (out10_B_6 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) scM10_0 (Memref.isWhole_whole _) hc (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (outsAt10 c n (Nat.lt_of_succ_lt hn)).2.2,
     out10_B_7 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) scM10_0 (Memref.isWhole_whole _) hc (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (outsAt10 c n (Nat.lt_of_succ_lt hn)).2.2,
     sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) scM10_0 (Memref.isWhole_whole _) hc (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (outsAt10 c n (Nat.lt_of_succ_lt hn)).2.2)

/-- `outsAt10` at the first row block. -/
theorem outsAt10_A (c : Dev nD) (t : Fin cfg10.N) (h0 : t.val % 25 = 0) :
    outsAt10 V c t.val t.isLt =
      (out10_A_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t),
       out10_A_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t),
       sout10_A_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t)) := by
  obtain ⟨n, hn⟩ := t
  cases n with
  | zero => exact rfl
  | succ n =>
    exfalso
    have hN : n + 1 < 25 := lt_of_lt_of_eq hn (show cfg10.N = 25 from N_10)
    (try dsimp only at h0); omega

/-- `outsAt10` at a later row block: over what the row block before left in the accumulator. -/
theorem outsAt10_B (c : Dev nD) (t : Fin cfg10.N) (h0 : ¬t.val % 25 = 0) :
    outsAt10 V c t.val t.isLt =
      (out10_B_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2,
       out10_B_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2,
       sout10_B_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact rfl

/-- The region's invariant before row block `n`: at the start what the region is entered with; afterwards the
    accumulator at what the row block before left in it, the other scoped buffers and the generator register as
    they were. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2.2) ∗ rest10 (F := F) c) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((outsAt10 V c n hn).2.2) ∗ rest10 (F := F) c) ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((outsAt10 V c (n - 1) (by omega)).2.2) ∗ rest10 (F := F) c) ∗ (∃ r, prngReg c r)) := by
  cases n with
  | zero => exact absurd rfl hz
  | succ n => rfl

/-! ## The proof data -/

/-- Region 10's proof data from the contents `V` the region is entered at. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => (outsAt10 V c t.val t.isLt).1
    | ⟨7, _⟩ => (outsAt10 V c t.val t.isLt).2.1
  Φ t := PhiS10 V c t.val (Nat.le_of_lt_succ t.isLt)
  q _ := fullShare
  owed _ := 0

theorem A_eq10 (c : Dev nD) (w : Fin cfg10.W) : (dat10 V c).A w = V c (Pipeline.arrRef spec10 w) := by dsimp only [dat10]
theorem q_eq10 (c : Dev nD) (w : Fin cfg10.W) : (dat10 V c).q w = fullShare := by dsimp only [dat10]
theorem owed_eq10 (c : Dev nD) (t : Fin (cfg10.N + 1)) : (dat10 V c).owed t = 0 := by dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = (outsAt10 V c t.val t.isLt).1 := by dsimp only [dat10]
theorem after10_7 (c : Dev nD) (t : Fin cfg10.N) : (dat10 V c).after 7 t = (outsAt10 V c t.val t.isLt).2.1 := by dsimp only [dat10]

/-- Each input's current staging buffer holds its block at every row block, fetched there or not (the five
    parameter windows and the weights are fetched once: their block index never moves). -/
theorem before10_0 (c : Dev nD) (t : Fin cfg10.N) (d) : (dat10 V c).before 0 t d = iblk10 V c 0 t :=
  ((dat10 V c).before_in_eq_fetched 0 rfl (fun _ => rfl) (fun _ _ _ => rfl) (fun t => by rw [after10_0]; unfold Dat.blockOf iblk10; rw [A_eq10]; try rfl) t d).trans
    (by unfold Dat.fetched Dat.blockOf iblk10; rw [A_eq10]; try rfl)
theorem before10_1 (c : Dev nD) (t : Fin cfg10.N) (d) : (dat10 V c).before 1 t d = iblk10 V c 1 t :=
  ((dat10 V c).before_in_eq_fetched 1 rfl (fun _ => rfl) (fun _ _ _ => rfl) (fun t => by rw [after10_1]; unfold Dat.blockOf iblk10; rw [A_eq10]; try rfl) t d).trans
    (by unfold Dat.fetched Dat.blockOf iblk10; rw [A_eq10]; try rfl)
theorem before10_2 (c : Dev nD) (t : Fin cfg10.N) (d) : (dat10 V c).before 2 t d = iblk10 V c 2 t :=
  ((dat10 V c).before_in_eq_fetched 2 rfl (fun _ => rfl) (fun _ _ _ => rfl) (fun t => by rw [after10_2]; unfold Dat.blockOf iblk10; rw [A_eq10]; try rfl) t d).trans
    (by unfold Dat.fetched Dat.blockOf iblk10; rw [A_eq10]; try rfl)
theorem before10_3 (c : Dev nD) (t : Fin cfg10.N) (d) : (dat10 V c).before 3 t d = iblk10 V c 3 t :=
  ((dat10 V c).before_in_eq_fetched 3 rfl (fun _ => rfl) (fun _ _ _ => rfl) (fun t => by rw [after10_3]; unfold Dat.blockOf iblk10; rw [A_eq10]; try rfl) t d).trans
    (by unfold Dat.fetched Dat.blockOf iblk10; rw [A_eq10]; try rfl)
theorem before10_4 (c : Dev nD) (t : Fin cfg10.N) (d) : (dat10 V c).before 4 t d = iblk10 V c 4 t :=
  ((dat10 V c).before_in_eq_fetched 4 rfl (fun _ => rfl) (fun _ _ _ => rfl) (fun t => by rw [after10_4]; unfold Dat.blockOf iblk10; rw [A_eq10]; try rfl) t d).trans
    (by unfold Dat.fetched Dat.blockOf iblk10; rw [A_eq10]; try rfl)
theorem before10_5 (c : Dev nD) (t : Fin cfg10.N) (d) : (dat10 V c).before 5 t d = iblk10 V c 5 t :=
  ((dat10 V c).before_in_eq_fetched 5 rfl (fun _ => rfl) (fun _ _ _ => rfl) (fun t => by rw [after10_5]; unfold Dat.blockOf iblk10; rw [A_eq10]; try rfl) t d).trans
    (by unfold Dat.fetched Dat.blockOf iblk10; rw [A_eq10]; try rfl)

/-! ## The body obligation, at a generic row block -/

/-- What the body is called with at row block `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t)

set_option maxHeartbeats 4800000 in
/-- The body at any row block: the inputs' memrefs hold their blocks; the first row block is the branch taken, every
    later one the branch not taken, entered with the accumulator at what the row block before left; the invariant
    takes the accumulator back at this row block's contents; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).owesAt () t.succ = (dat10 V c).owesAt () t.castSucc from rfl]
  rw [show (dat10 V c).Φ t.succ = PhiS10 V c (t.val + 1) t.isLt from rfl, PhiS10_succ]
  have hN : t.val < 25 := lt_of_lt_of_eq t.isLt (show cfg10.N = 25 from N_10)
  rw [show (dat10 V c).leavesExact 0 t = owns (c : Thread nD τ) (ms10_0 t) fullShare ((dat10 V c).after 0 t) from rfl, after10_0]
  rw [show (dat10 V c).leavesExact 1 t = owns (c : Thread nD τ) (ms10_1 t) fullShare ((dat10 V c).after 1 t) from rfl, after10_1]
  rw [show (dat10 V c).leavesExact 2 t = owns (c : Thread nD τ) (ms10_2 t) fullShare ((dat10 V c).after 2 t) from rfl, after10_2]
  rw [show (dat10 V c).leavesExact 3 t = owns (c : Thread nD τ) (ms10_3 t) fullShare ((dat10 V c).after 3 t) from rfl, after10_3]
  rw [show (dat10 V c).leavesExact 4 t = owns (c : Thread nD τ) (ms10_4 t) fullShare ((dat10 V c).after 4 t) from rfl, after10_4]
  rw [show (dat10 V c).leavesExact 5 t = owns (c : Thread nD τ) (ms10_5 t) fullShare ((dat10 V c).after 5 t) from rfl, after10_5]
  rw [show (dat10 V c).leavesExact 6 t = owns (c : Thread nD τ) (ms10_6 t) fullShare ((dat10 V c).after 6 t) from rfl, after10_6]
  rw [show (dat10 V c).leavesExact 7 t = owns (c : Thread nD τ) (ms10_7 t) fullShare ((dat10 V c).after 7 t) from rfl, after10_7]
  by_cases h0 : t.val % 25 = 0
  ·
    rw [outsAt10_A V c t h0]
    unfold out10_A_6 out10_A_7 sout10_A_0; (try dsimp only)
    have hz : t.val = 0 := by omega
    rw [PhiS10_castSucc V c t, PhiS10_zero V c _ _ hz, PhiA10_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun10_A c (grid10.coords t) _ _ _ _ _ _ _ _ _ _ _ _ _ _ _ _ _ _ ((hcond10_0 t).mpr h0) (iblk10 V c 0 t) (iblk10 V c 1 t) (iblk10 V c 2 t) (iblk10 V c 3 t) (iblk10 V c 4 t) (iblk10 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover10_A_0 _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover10_A_6 _ _ _ _ _ _ _ _ _ _ _ _ _ _ _ _ _ _ _ _ _ _ _ _ _ _ _)
    unfold owns; iexists _; isplitr
    swap; · iexact H7
    ipureintro; exact View.read_writes_of_cover _ _ _ _ _ (cover10_A_7 _ _ _ _ _ _ _ _ _ _ _ _ _ _ _ _ _ _ _ _ _ _ _ _ _ _ _)
  ·
    rw [outsAt10_B V c t h0]
    unfold out10_B_6 out10_B_7 sout10_B_0; (try dsimp only)
    have hz : t.val ≠ 0 := by omega
    rw [PhiS10_castSucc V c t, PhiS10_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun10_B c (grid10.coords t) _ _ _ _ _ _ _ _ _ _ _ _ _ _ _ _ _ _ (fun h => h0 ((hcond10_0 t).mp h)) (iblk10 V c 0 t) (iblk10 V c 1 t) (iblk10 V c 2 t) (iblk10 V c 3 t) (iblk10 V c 4 t) (iblk10 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover10_B_0 _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover10_B_6 _ _ _ _ _ _ _ _ _ _ _ _ _ _ _ _ _ _ _ _ _ _ _ _ _ _ _ _)
    unfold owns; iexists _; isplitr
    swap; · iexact H7
    ipureintro; exact View.read_writes_of_cover _ _ _ _ _ (cover10_B_7 _ _ _ _ _ _ _ _ _ _ _ _ _ _ _ _ _ _ _ _ _ _ _ _ _ _ _ _)

/-- The library's body obligation, at every row block. -/
theorem body_obligation10 (c : Dev nD) : BodyObligation (dat10 (F := F) V c) (defs₀ (F := F)) Variants.none () Set.univ := fun t => by
  rw [bigSep_W10, bigSep_W10]
  exact sound_body10 V c t

/-- What the region is entered with is the invariant before the first row block. -/
theorem hin10 (c : Dev nD) : (Pipeline.ΦA spec10 c : sProp 𝕄) ⊢ (dat10 V c).Φ 0 := by
  rw [show (dat10 V c).Φ 0 = PhiS10 V c 0 (Nat.zero_le _) from rfl, PhiS10_zero V c 0 _ rfl]
  try exact Idealize.SL.BI.Entails.refl _

/-- After any row block the invariant gives back what the region was entered with: the accumulator's named contents
    are forgotten. -/
theorem Phi_out10 (c : Dev nD) (t : Fin (cfg10.N + 1)) (ht : t.val ≠ 0) : (dat10 V c).Φ t ⊢ (Pipeline.ΦA spec10 c : sProp 𝕄) := by
  rw [show (dat10 V c).Φ t = PhiS10 V c t.val (Nat.le_of_lt_succ t.isLt) from rfl, PhiS10_pos V c _ _ ht, PhiA10_eq]
  iintro ⟨⟨HS0, Hr⟩, Hg⟩
  isplitl [HS0 Hr]
  · isplitl [HS0]
    · iexists _; iexact HS0
    iexact Hr
  iexact Hg

theorem hout10 (c : Dev nD) : (dat10 V c).Φ (Fin.last cfg10.N) ⊢ (Pipeline.ΦA spec10 c : sProp 𝕄) :=
  Phi_out10 V c _ (by rw [Fin.val_last]; have : cfg10.N = 25 := N_10; omega)

theorem recorded_eq10 (c : Dev nD) (t : Fin (cfg10.N + 1)) : (dat10 V c).recorded t = Set.univ := rfl

end Cert.Kernel.Hand

end
-- ==== Proof.K.R11.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: custom_call 11, `cc11__affine_relu_kernel`, at the entry contents `V` -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not: where it is not fetched
    the block index has not moved, and the body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds its block at every point, fetched there or not: where it is not fetched
    the block index has not moved, and the body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds its block at every point, fetched there or not: where it is not fetched
    the block index has not moved, and the body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's staging buffer holds its block at every point, fetched there or not: where it is not fetched
    the block index has not moved, and the body leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's staging buffer holds its block at every point, fetched there or not: where it is not fetched
    the block index has not moved, and the body leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The whole (2000,256) block and the whole (1,256) row, as the rectangles the body loads and stores through. -/
abbrev r11_0 : Rect S2000x256 := Rect.unit (s := S2000x256) ![0, 0] S2000x256.size inb_S2000x256_S2000x256_0_0
abbrev r11_1 : Rect S1x256 := Rect.unit (s := S1x256) ![0, 0] S1x256.size inb_S1x256_S1x256_0_0

/-- The result window's staging buffer after the body, from the five input blocks: the one store, of the
    normalised, scaled, shifted and clamped block. -/
def out11_5 (x0 : Vec F S2000x256 .f32) (x1 x2 x3 x4 : Vec F S1x256 .f32) : Vec F S2000x256 .f32 :=
  View.canon [⟨r11_0, k11_pay1 (View.ld x0 r11_0) (View.ld x1 r11_1) (View.ld x2 r11_1) (View.ld x3 r11_1) (View.ld x4 r11_1)⟩]

/-- The one store is of the whole block, so it covers it. -/
theorem cover11_5 (p0 : Vec F S2000x256 .f32) (y : S2000x256.Idx) :
    ∃ pc ∈ ([⟨r11_0, p0⟩] : List (View.Piece (Elt F) S2000x256 .f32)), y ∈ pc.1.set :=
  View.cover_of_tiled [⟨r11_0, p0⟩] S2000x256.size (by rfl) y

set_option maxHeartbeats 1000000 in
/-- The body on whole staging memrefs, the inputs' at contents `x0 … x4` and the result's at anything, runs to the
    continuation holding the inputs' as they were and the result's at `out11_5` of them. -/
theorem sound_kernel11 (c : Dev nD) (E : Set ℕ) (i : grid11.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__affine_relu_kernel i arg1 harg1 arg2 harg2 arg3 harg3 arg4 harg4 arg5 harg5 arg6 harg6) K := by
  simp only [cc11__affine_relu_kernel_eq_skeleton]; unfold cc11__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- Region 11's proof data from the contents `V` the region is entered at: the arrays as found; after the body at a
    point each input's buffer at its block and the result's at `out11_5` of the input blocks; the invariant the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem q_eq11 (c : Dev nD) (w : Fin cfg11.W) : (dat11 V c).q w = fullShare := by
  dsimp only [dat11]
theorem owed_eq11 (c : Dev nD) (t : Fin (cfg11.N + 1)) : (dat11 V c).owed t = 0 := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so `sound_kernel11` applies; the invariant and what
    is owed pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation11 (c : Dev nD) : BodyObligation (dat11 (F := F) V c) (defs₀ (F := F)) Variants.none () Set.univ := fun t => by
  rw [bigSep_W11, bigSep_W11]
  exact sound_body11 V c t

theorem hin11 (c : Dev nD) : (Pipeline.ΦA spec11 c : sProp 𝕄) ⊢ (dat11 V c).Φ 0 := by
  dsimp only [dat11]; exact BIBase.Entails.rfl
theorem hout11 (c : Dev nD) : (dat11 V c).Φ (Fin.last cfg11.N) ⊢ (Pipeline.ΦA spec11 c : sProp 𝕄) := by
  dsimp only [dat11]; exact BIBase.Entails.rfl

theorem recorded_eq11 (c : Dev nD) (t : Fin (cfg11.N + 1)) : (dat11 V c).recorded t = Set.univ := rfl

end Cert.Kernel.Hand

end
-- ==== Proof.K.R12.lean ====
import proofs.«148047_j37898791420018_1_alg».proof.Proof.Gen.Kernel.Launch
import proofs.«148047_j37898791420018_1_alg».proof.Proof.Gen.Kernel.Skeleton
import proofs.«148047_j37898791420018_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 12: the five-matmul head, at the entry contents `V` -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not (unfetched, the
    block index has not moved), for any proof data over `V`'s arrays whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's current staging buffer holds its block at every point, fetched there or not (unfetched, the
    block index has not moved), for any proof data over `V`'s arrays whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's current staging buffer holds its block at every point, fetched there or not (unfetched, the
    block index has not moved), for any proof data over `V`'s arrays whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
/-- Input window 3's current staging buffer holds its block at every point, fetched there or not (unfetched, the
    block index has not moved), for any proof data over `V`'s arrays whose body leaves the block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
/-- Input window 4's current staging buffer holds its block at every point, fetched there or not (unfetched, the
    block index has not moved), for any proof data over `V`'s arrays whose body leaves the block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
/-- Input window 5's current staging buffer holds its block at every point, fetched there or not (unfetched, the
    block index has not moved), for any proof data over `V`'s arrays whose body leaves the block in place. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
/-- Input window 6's current staging buffer holds its block at every point, fetched there or not (unfetched, the
    block index has not moved), for any proof data over `V`'s arrays whose body leaves the block in place. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
/-- Input window 7's current staging buffer holds its block at every point, fetched there or not (unfetched, the
    block index has not moved), for any proof data over `V`'s arrays whose body leaves the block in place. -/
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)
/-- Input window 8's current staging buffer holds its block at every point, fetched there or not (unfetched, the
    block index has not moved), for any proof data over `V`'s arrays whose body leaves the block in place. -/
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_h : Rect S2000x128 := Rect.unit (s := S2000x128) ![0, 0] S2000x128.size inb_S2000x128_S2000x128_0_0
abbrev r12_x : Rect S2000x256 := Rect.unit (s := S2000x256) ![0, 0] S2000x256.size inb_S2000x256_S2000x256_0_0
abbrev r12_w : Rect S128x64 := Rect.unit (s := S128x64) ![0, 0] S128x64.size inb_S128x64_S128x64_0_0
abbrev r12_b : Rect S1x64 := Rect.unit (s := S1x64) ![0, 0] S1x64.size inb_S1x64_S1x64_0_0
abbrev r12_pw0 : Rect S4x256x64 := Rect.unit (s := S4x256x64) ![0, 0, 0] S1x256x64.size inb_S4x256x64_S1x256x64_0_0_0
abbrev r12_pw1 : Rect S4x256x64 := Rect.unit (s := S4x256x64) ![1, 0, 0] S1x256x64.size inb_S4x256x64_S1x256x64_1_0_0
abbrev r12_pw2 : Rect S4x256x64 := Rect.unit (s := S4x256x64) ![2, 0, 0] S1x256x64.size inb_S4x256x64_S1x256x64_2_0_0
abbrev r12_pw3 : Rect S4x256x64 := Rect.unit (s := S4x256x64) ![3, 0, 0] S1x256x64.size inb_S4x256x64_S1x256x64_3_0_0
abbrev r12_pb0 : Rect S4x64 := Rect.unit (s := S4x64) ![0, 0] S1x64.size inb_S4x64_S1x64_0_0
abbrev r12_pb1 : Rect S4x64 := Rect.unit (s := S4x64) ![1, 0] S1x64.size inb_S4x64_S1x64_1_0
abbrev r12_pb2 : Rect S4x64 := Rect.unit (s := S4x64) ![2, 0] S1x64.size inb_S4x64_S1x64_2_0
abbrev r12_pb3 : Rect S4x64 := Rect.unit (s := S4x64) ![3, 0] S1x64.size inb_S4x64_S1x64_3_0
abbrev r12_o : Rect S2000x64 := Rect.unit (s := S2000x64) ![0, 0] S2000x64.size inb_S2000x64_S2000x64_0_0

/-! ## What the body leaves in the output window's buffer -/

/-- Window 9's staging buffer after the body, from the input windows' blocks: its one store, whose payload is the
    head's running sum over the loads the body makes, in the body's order. -/
def out12_9 (x0 : Vec F S2000x128 .f32) (x1 x2 x3 x4 : Vec F S2000x256 .f32) (x5 : Vec F S128x64 .f32) (x6 : Vec F S1x64 .f32)
    (x7 : Vec F S4x256x64 .f32) (x8 : Vec F S4x64 .f32) : Vec F S2000x64 .f32 :=
  View.canon [⟨r12_o, k12_pay1
    (k12_pay2 (View.ld x0 r12_h) (View.ld x5 r12_w) (View.ld x6 r12_b) (View.ld x1 r12_x) (View.ld x7 r12_pw0) (View.ld x8 r12_pb0)
      (View.ld x2 r12_x) (View.ld x7 r12_pw1) (View.ld x8 r12_pb1))
    (k12_pay3 (View.ld x3 r12_x)) (View.ld x7 r12_pw2) (View.ld x8 r12_pb2) (View.ld x4 r12_x) (View.ld x7 r12_pw3) (View.ld x8 r12_pb3)⟩]

/-- The one store fills the buffer. -/
theorem cover12_9 (p0 : Vec F S2000x64 .f32) (y : S2000x64.Idx) :
    ∃ pc ∈ ([⟨r12_o, p0⟩] : List (View.Piece (Elt F) S2000x64 .f32)), y ∈ pc.1.set :=
  View.cover_of_tiled [⟨r12_o, p0⟩] S2000x64.size (by rfl) y

/-! ## The body's triple -/

set_option maxHeartbeats 4000000 in
/-- The kernel body on whole staging memrefs, the inputs' at read contents `xW` and the output's at anything, runs to
    the continuation holding the inputs' as they were and the output's at `out12_9` of the inputs'. -/
theorem sound_kernel12 (c : Dev nD) (E : Set ℕ) (i : grid12.Coords)
    (arg1 : Memref sig .tc .vmem S2000x128 .f32) (harg1 : arg1.IsWhole) (arg2 : Memref sig .tc .vmem S2000x256 .f32) (harg2 : arg2.IsWhole)
    (arg3 : Memref sig .tc .vmem S2000x256 .f32) (harg3 : arg3.IsWhole) (arg4 : Memref sig .tc .vmem S2000x256 .f32) (harg4 : arg4.IsWhole)
    (arg5 : Memref sig .tc .vmem S2000x256 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S4x256x64 .f32) (harg8 : arg8.IsWhole)
    (arg9 : Memref sig .tc .vmem S4x64 .f32) (harg9 : arg9.IsWhole) (arg10 : Memref sig .tc .vmem S2000x64 .f32) (harg10 : arg10.IsWhole)
    (x0 : Vec F S2000x128 .f32) (x1 x2 x3 x4 : Vec F S2000x256 .f32) (x5 : Vec F S128x64 .f32) (x6 : Vec F S1x64 .f32)
    (x7 : Vec F S4x256x64 .f32) (x8 : Vec F S4x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out12_9 x0 x1 x2 x3 x4 x5 x6 x7 x8)) -∗ K ⟨⟩))
      ⊢ wp frame (wpE (defs₀ (F := F)) Variants.none c none) E
          (cc12__jk_kernel i arg1 harg1 arg2 harg2 arg3 harg3 arg4 harg4 arg5 harg5 arg6 harg6 arg7 harg7 arg8 harg8 arg9 harg9 arg10 harg10) K := by
  simp only [cc12__jk_kernel_eq_skeleton]; unfold cc12__jk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover12_9 _)

/-! ## The pipeline's proof data -/

/-- Region 12's proof data from the contents `V` the region is entered at: the arrays as the region finds them; after the
    body at point `t` each input's buffer at its block and the output's at `out12_9` of the input blocks; the invariant
    the scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out12_9 (iblk12 V c 0 t) (iblk12 V c 1 t) (iblk12 V c 2 t) (iblk12 V c 3 t) (iblk12 V c 4 t) (iblk12 V c 5 t)
        (iblk12 V c 6 t) (iblk12 V c 7 t) (iblk12 V c 8 t)
  Φ _ := Pipeline.ΦA spec12 c
  q _ := fullShare
  owed _ := 0

theorem A_eq12 (c : Dev nD) (w : Fin cfg12.W) : (dat12 V c).A w = V c (Pipeline.arrRef spec12 w) := by
  dsimp only [dat12]
theorem q_eq12 (c : Dev nD) (w : Fin cfg12.W) : (dat12 V c).q w = fullShare := by
  dsimp only [dat12]
theorem owed_eq12 (c : Dev nD) (t : Fin (cfg12.N + 1)) : (dat12 V c).owed t = 0 := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = out12_9 (iblk12 V c 0 t) (iblk12 V c 1 t) (iblk12 V c 2 t)
    (iblk12 V c 3 t) (iblk12 V c 4 t) (iblk12 V c 5 t) (iblk12 V c 6 t) (iblk12 V c 7 t) (iblk12 V c 8 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel12 c Set.univ _ _ _ _ _ _ _ _ _ _ _ _ _ _ _ _ _ _ _ _ _
    (iblk12 V c 0 t) (iblk12 V c 1 t) (iblk12 V c 2 t) (iblk12 V c 3 t) (iblk12 V c 4 t) (iblk12 V c 5 t) (iblk12 V c 6 t) (iblk12 V c 7 t) (iblk12 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- The invariant is the class's at every point: entering, -/
theorem hin12 (c : Dev nD) : (Pipeline.ΦA spec12 c : sProp 𝕄) ⊢ (dat12 V c).Φ 0 := by
  dsimp only [dat12]; exact BI.Entails.refl _
/-- and leaving. -/
theorem hout12 (c : Dev nD) : (dat12 V c).Φ (Fin.last cfg12.N) ⊢ (Pipeline.ΦA spec12 c : sProp 𝕄) := by
  dsimp only [dat12]; exact BI.Entails.refl _

theorem recorded_eq12 (c : Dev nD) (t : Fin (cfg12.N + 1)) : (dat12 V c).recorded t = Set.univ := rfl

end Cert.Kernel.Hand

end
-- ==== Proof.K.Chain.lean ====
import proofs.«148047_j37898791420018_1_alg».proof.Proof.Gen.Kernel.Launch
import proofs.«148047_j37898791420018_1_alg».proof.Proof.Gen.Kernel.Regions
import proofs.«148047_j37898791420018_1_alg».proof.Proof.K.R0
import proofs.«148047_j37898791420018_1_alg».proof.Proof.K.R1
import proofs.«148047_j37898791420018_1_alg».proof.Proof.K.R2
import proofs.«148047_j37898791420018_1_alg».proof.Proof.K.R3
import proofs.«148047_j37898791420018_1_alg».proof.Proof.K.R4
import proofs.«148047_j37898791420018_1_alg».proof.Proof.K.R5
import proofs.«148047_j37898791420018_1_alg».proof.Proof.K.R6
import proofs.«148047_j37898791420018_1_alg».proof.Proof.K.R7
import proofs.«148047_j37898791420018_1_alg».proof.Proof.K.R8
import proofs.«148047_j37898791420018_1_alg».proof.Proof.K.R9
import proofs.«148047_j37898791420018_1_alg».proof.Proof.K.R10
import proofs.«148047_j37898791420018_1_alg».proof.Proof.K.R11
import proofs.«148047_j37898791420018_1_alg».proof.Proof.K.R12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary of @main: a fold from the launch memory

W0 is the launch memory; W(2K+1) is what host stretch K makes of W(2K); W(2K+2) is W(2K+1) with region K's
arrays at what its write-backs leave. -/

/-- Core c's buffers at launch. -/
abbrev W0 : Dev nD → Valuation τ sig (Elt F) := fun c b => m (c, b)

/-- After host stretch 0 (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W_odd_0 (c : Dev nD) : W1 m c = StableHlo.after hostOps0 (W0 m c) := rfl
theorem W_even_0 (c : Dev nD) : W2 m c = Pipeline.withArrays spec0 c (W1 m c) fun w => (dat0 (fun c b => W1 m c b) c).arrAt w cfg0.N := rfl
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After host stretch 1 (region 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W_odd_1 (c : Dev nD) : W3 m c = StableHlo.after hostOps1 (W2 m c) := rfl
theorem W_even_1 (c : Dev nD) : W4 m c = Pipeline.withArrays spec1 c (W3 m c) fun w => (dat1 (fun c b => W3 m c b) c).arrAt w cfg1.N := rfl
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After host stretch 2 (region 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W_odd_2 (c : Dev nD) : W5 m c = StableHlo.after hostOps2 (W4 m c) := rfl
theorem W_even_2 (c : Dev nD) : W6 m c = Pipeline.withArrays spec2 c (W5 m c) fun w => (dat2 (fun c b => W5 m c b) c).arrAt w cfg2.N := rfl
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After host stretch 3 (region 3's entry). -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W_odd_3 (c : Dev nD) : W7 m c = StableHlo.after hostOps3 (W6 m c) := rfl
theorem W_even_3 (c : Dev nD) : W8 m c = Pipeline.withArrays spec3 c (W7 m c) fun w => (dat3 (fun c b => W7 m c b) c).arrAt w cfg3.N := rfl
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After host stretch 4 (region 4's entry). -/
abbrev W9 : Dev nD → Valuation τ sig (Elt F) := fun c => StableHlo.after hostOps4 (W8 m c)
/-- The same read at the TensorCore's references. -/
abbrev V9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (V9 m) c).arrAt w cfg4.N
theorem W_odd_4 (c : Dev nD) : W9 m c = StableHlo.after hostOps4 (W8 m c) := rfl
theorem W_even_4 (c : Dev nD) : W10 m c = Pipeline.withArrays spec4 c (W9 m c) fun w => (dat4 (fun c b => W9 m c b) c).arrAt w cfg4.N := rfl
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

/-- After host stretch 5 (region 5's entry). -/
abbrev W11 : Dev nD → Valuation τ sig (Elt F) := fun c => StableHlo.after hostOps5 (W10 m c)
/-- The same read at the TensorCore's references. -/
abbrev V11 : (c : Dev nD) → (b : Ref sig .tc) → Buf (Elt F) ((c : Thread nD τ).loc b) := fun c b => W11 m c b
/-- At region 5's exit: its arrays at what the pipeline leaves, every other buffer as entered. -/
def W12 (c : Dev nD) : Valuation τ sig (Elt F) :=
  Pipeline.withArrays spec5 c (W11 m c) fun w => (dat5 (V11 m) c).arrAt w cfg5.N
theorem W_odd_5 (c : Dev nD) : W11 m c = StableHlo.after hostOps5 (W10 m c) := rfl
theorem W_even_5 (c : Dev nD) : W12 m c = Pipeline.withArrays spec5 c (W11 m c) fun w => (dat5 (fun c b => W11 m c b) c).arrAt w cfg5.N := rfl
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)

/-- After host stretch 6 (region 6's entry). -/
abbrev W13 : Dev nD → Valuation τ sig (Elt F) := fun c => StableHlo.after hostOps6 (W12 m c)
/-- The same read at the TensorCore's references. -/
abbrev V13 : (c : Dev nD) → (b : Ref sig .tc) → Buf (Elt F) ((c : Thread nD τ).loc b) := fun c b => W13 m c b
/-- At region 6's exit: its arrays at what the pipeline leaves, every other buffer as entered. -/
def W14 (c : Dev nD) : Valuation τ sig (Elt F) :=
  Pipeline.withArrays spec6 c (W13 m c) fun w => (dat6 (V13 m) c).arrAt w cfg6.N
theorem W_odd_6 (c : Dev nD) : W13 m c = StableHlo.after hostOps6 (W12 m c) := rfl
theorem W_even_6 (c : Dev nD) : W14 m c = Pipeline.withArrays spec6 c (W13 m c) fun w => (dat6 (fun c b => W13 m c b) c).arrAt w cfg6.N := rfl
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m c b
theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b hb => W14_of_ne m c b fun w e => hb (Finset.mem_image.mpr ⟨w, Finset.mem_univ _, e⟩)

/-- After host stretch 7 (region 7's entry). -/
abbrev W15 : Dev nD → Valuation τ sig (Elt F) := fun c => StableHlo.after hostOps7 (W14 m c)
/-- The same read at the TensorCore's references. -/
abbrev V15 : (c : Dev nD) → (b : Ref sig .tc) → Buf (Elt F) ((c : Thread nD τ).loc b) := fun c b => W15 m c b
/-- At region 7's exit: its arrays at what the pipeline leaves, every other buffer as entered. -/
def W16 (c : Dev nD) : Valuation τ sig (Elt F) :=
  Pipeline.withArrays spec7 c (W15 m c) fun w => (dat7 (V15 m) c).arrAt w cfg7.N
theorem W_odd_7 (c : Dev nD) : W15 m c = StableHlo.after hostOps7 (W14 m c) := rfl
theorem W_even_7 (c : Dev nD) : W16 m c = Pipeline.withArrays spec7 c (W15 m c) fun w => (dat7 (fun c b => W15 m c b) c).arrAt w cfg7.N := rfl
theorem W16_arr (c : Dev nD) (w : Fin cfg7.W) :
    W16 m c (Proc.devRef .tc (Pipeline.arrRef spec7 w)) = (dat7 (V15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m c b
theorem hF7 (c : Dev nD) (w : Fin cfg7.W) : (dat7 (V15 m) c).arrAt w cfg7.N = V16 m c (Pipeline.arrRef spec7 w) :=
  (W16_arr m c w).symm
theorem hrest7 (c : Dev nD) : ∀ b, b ∉ Finset.univ.image (Pipeline.arrRef spec7) → V16 m c b = V15 m c b :=
  fun b hb => W16_of_ne m c b fun w e => hb (Finset.mem_image.mpr ⟨w, Finset.mem_univ _, e⟩)

/-- After host stretch 8 (region 8's entry). -/
abbrev W17 : Dev nD → Valuation τ sig (Elt F) := fun c => StableHlo.after hostOps8 (W16 m c)
/-- The same read at the TensorCore's references. -/
abbrev V17 : (c : Dev nD) → (b : Ref sig .tc) → Buf (Elt F) ((c : Thread nD τ).loc b) := fun c b => W17 m c b
/-- At region 8's exit: its arrays at what the pipeline leaves, every other buffer as entered. -/
def W18 (c : Dev nD) : Valuation τ sig (Elt F) :=
  Pipeline.withArrays spec8 c (W17 m c) fun w => (dat8 (V17 m) c).arrAt w cfg8.N
theorem W_odd_8 (c : Dev nD) : W17 m c = StableHlo.after hostOps8 (W16 m c) := rfl
theorem W_even_8 (c : Dev nD) : W18 m c = Pipeline.withArrays spec8 c (W17 m c) fun w => (dat8 (fun c b => W17 m c b) c).arrAt w cfg8.N := rfl
theorem W18_arr (c : Dev nD) (w : Fin cfg8.W) :
    W18 m c (Proc.devRef .tc (Pipeline.arrRef spec8 w)) = (dat8 (V17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m c b
theorem hF8 (c : Dev nD) (w : Fin cfg8.W) : (dat8 (V17 m) c).arrAt w cfg8.N = V18 m c (Pipeline.arrRef spec8 w) :=
  (W18_arr m c w).symm
theorem hrest8 (c : Dev nD) : ∀ b, b ∉ Finset.univ.image (Pipeline.arrRef spec8) → V18 m c b = V17 m c b :=
  fun b hb => W18_of_ne m c b fun w e => hb (Finset.mem_image.mpr ⟨w, Finset.mem_univ _, e⟩)

/-- After host stretch 9 (region 9's entry). -/
abbrev W19 : Dev nD → Valuation τ sig (Elt F) := fun c => StableHlo.after hostOps9 (W18 m c)
/-- The same read at the TensorCore's references. -/
abbrev V19 : (c : Dev nD) → (b : Ref sig .tc) → Buf (Elt F) ((c : Thread nD τ).loc b) := fun c b => W19 m c b
/-- At region 9's exit: its arrays at what the pipeline leaves, every other buffer as entered. -/
def W20 (c : Dev nD) : Valuation τ sig (Elt F) :=
  Pipeline.withArrays spec9 c (W19 m c) fun w => (dat9 (V19 m) c).arrAt w cfg9.N
theorem W_odd_9 (c : Dev nD) : W19 m c = StableHlo.after hostOps9 (W18 m c) := rfl
theorem W_even_9 (c : Dev nD) : W20 m c = Pipeline.withArrays spec9 c (W19 m c) fun w => (dat9 (fun c b => W19 m c b) c).arrAt w cfg9.N := rfl
theorem W20_arr (c : Dev nD) (w : Fin cfg9.W) :
    W20 m c (Proc.devRef .tc (Pipeline.arrRef spec9 w)) = (dat9 (V19 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m c b
theorem hF9 (c : Dev nD) (w : Fin cfg9.W) : (dat9 (V19 m) c).arrAt w cfg9.N = V20 m c (Pipeline.arrRef spec9 w) :=
  (W20_arr m c w).symm
theorem hrest9 (c : Dev nD) : ∀ b, b ∉ Finset.univ.image (Pipeline.arrRef spec9) → V20 m c b = V19 m c b :=
  fun b hb => W20_of_ne m c b fun w e => hb (Finset.mem_image.mpr ⟨w, Finset.mem_univ _, e⟩)

/-- After host stretch 10 (region 10's entry). -/
abbrev W21 : Dev nD → Valuation τ sig (Elt F) := fun c => StableHlo.after hostOps10 (W20 m c)
/-- The same read at the TensorCore's references. -/
abbrev V21 : (c : Dev nD) → (b : Ref sig .tc) → Buf (Elt F) ((c : Thread nD τ).loc b) := fun c b => W21 m c b
/-- At region 10's exit: its arrays at what the pipeline leaves, every other buffer as entered. -/
def W22 (c : Dev nD) : Valuation τ sig (Elt F) :=
  Pipeline.withArrays spec10 c (W21 m c) fun w => (dat10 (V21 m) c).arrAt w cfg10.N
theorem W_odd_10 (c : Dev nD) : W21 m c = StableHlo.after hostOps10 (W20 m c) := rfl
theorem W_even_10 (c : Dev nD) : W22 m c = Pipeline.withArrays spec10 c (W21 m c) fun w => (dat10 (fun c b => W21 m c b) c).arrAt w cfg10.N := rfl
theorem W22_arr (c : Dev nD) (w : Fin cfg10.W) :
    W22 m c (Proc.devRef .tc (Pipeline.arrRef spec10 w)) = (dat10 (V21 m) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m c (Proc.devRef .tc b) = W21 m c (Proc.devRef .tc b) := by
  unfold W22; exact Pipeline.withArrays_of_ne spec10 c _ _ b hb
/-- The same read at the TensorCore's references (region 10's exit contents). -/
abbrev V22 : (c : Dev nD) → (b : Ref sig .tc) → Buf (Elt F) ((c : Thread nD τ).loc b) := fun c b => W22 m c b
theorem hF10 (c : Dev nD) (w : Fin cfg10.W) : (dat10 (V21 m) c).arrAt w cfg10.N = V22 m c (Pipeline.arrRef spec10 w) :=
  (W22_arr m c w).symm
theorem hrest10 (c : Dev nD) : ∀ b, b ∉ Finset.univ.image (Pipeline.arrRef spec10) → V22 m c b = V21 m c b :=
  fun b hb => W22_of_ne m c b fun w e => hb (Finset.mem_image.mpr ⟨w, Finset.mem_univ _, e⟩)

/-- After host stretch 11 (region 11's entry). -/
abbrev W23 : Dev nD → Valuation τ sig (Elt F) := fun c => StableHlo.after hostOps11 (W22 m c)
/-- The same read at the TensorCore's references. -/
abbrev V23 : (c : Dev nD) → (b : Ref sig .tc) → Buf (Elt F) ((c : Thread nD τ).loc b) := fun c b => W23 m c b
/-- At region 11's exit: its arrays at what the pipeline leaves, every other buffer as entered. -/
def W24 (c : Dev nD) : Valuation τ sig (Elt F) :=
  Pipeline.withArrays spec11 c (W23 m c) fun w => (dat11 (V23 m) c).arrAt w cfg11.N
theorem W_odd_11 (c : Dev nD) : W23 m c = StableHlo.after hostOps11 (W22 m c) := rfl
theorem W_even_11 (c : Dev nD) : W24 m c = Pipeline.withArrays spec11 c (W23 m c) fun w => (dat11 (fun c b => W23 m c b) c).arrAt w cfg11.N := rfl
theorem W24_arr (c : Dev nD) (w : Fin cfg11.W) :
    W24 m c (Proc.devRef .tc (Pipeline.arrRef spec11 w)) = (dat11 (V23 m) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m c (Proc.devRef .tc b) = W23 m c (Proc.devRef .tc b) := by
  unfold W24; exact Pipeline.withArrays_of_ne spec11 c _ _ b hb
/-- The same read at the TensorCore's references (region 11's exit contents). -/
abbrev V24 : (c : Dev nD) → (b : Ref sig .tc) → Buf (Elt F) ((c : Thread nD τ).loc b) := fun c b => W24 m c b
theorem hF11 (c : Dev nD) (w : Fin cfg11.W) : (dat11 (V23 m) c).arrAt w cfg11.N = V24 m c (Pipeline.arrRef spec11 w) :=
  (W24_arr m c w).symm
theorem hrest11 (c : Dev nD) : ∀ b, b ∉ Finset.univ.image (Pipeline.arrRef spec11) → V24 m c b = V23 m c b :=
  fun b hb => W24_of_ne m c b fun w e => hb (Finset.mem_image.mpr ⟨w, Finset.mem_univ _, e⟩)

/-- After host stretch 12 (region 12's entry). -/
abbrev W25 : Dev nD → Valuation τ sig (Elt F) := fun c => StableHlo.after hostOps12 (W24 m c)
/-- The same read at the TensorCore's references. -/
abbrev V25 : (c : Dev nD) → (b : Ref sig .tc) → Buf (Elt F) ((c : Thread nD τ).loc b) := fun c b => W25 m c b
/-- At region 12's exit: its arrays at what the pipeline leaves, every other buffer as entered. -/
def W26 (c : Dev nD) : Valuation τ sig (Elt F) :=
  Pipeline.withArrays spec12 c (W25 m c) fun w => (dat12 (V25 m) c).arrAt w cfg12.N
theorem W_odd_12 (c : Dev nD) : W25 m c = StableHlo.after hostOps12 (W24 m c) := rfl
theorem W_even_12 (c : Dev nD) : W26 m c = Pipeline.withArrays spec12 c (W25 m c) fun w => (dat12 (fun c b => W25 m c b) c).arrAt w cfg12.N := rfl
theorem W26_arr (c : Dev nD) (w : Fin cfg12.W) :
    W26 m c (Proc.devRef .tc (Pipeline.arrRef spec12 w)) = (dat12 (V25 m) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m c (Proc.devRef .tc b) = W25 m c (Proc.devRef .tc b) := by
  unfold W26; exact Pipeline.withArrays_of_ne spec12 c _ _ b hb
/-- The same read at the TensorCore's references (region 12's exit contents). -/
abbrev V26 : (c : Dev nD) → (b : Ref sig .tc) → Buf (Elt F) ((c : Thread nD τ).loc b) := fun c b => W26 m c b
theorem hF12 (c : Dev nD) (w : Fin cfg12.W) : (dat12 (V25 m) c).arrAt w cfg12.N = V26 m c (Pipeline.arrRef spec12 w) :=
  (W26_arr m c w).symm
theorem hrest12 (c : Dev nD) : ∀ b, b ∉ Finset.univ.image (Pipeline.arrRef spec12) → V26 m c b = V25 m c b :=
  fun b hb => W26_of_ne m c b fun w e => hb (Finset.mem_image.mpr ⟨w, Finset.mem_univ _, e⟩)

/-! ## The arguments end as launched: no host stretch writes one; a region reads it through an input window or bypasses it -/

theorem W26_main_arg0 (c : Dev nD) : W26 m c (Proc.devRef .tc main_arg0) = m ((c : Thread nD τ).loc main_arg0) :=
  calc W26 m c (Proc.devRef .tc main_arg0)
    _ = W25 m c (Proc.devRef .tc main_arg0) := (W26_arr m c 0).trans (((dat12 (V25 m) c).arrAt_in 0 rfl _).trans (A_eq12 (V25 m) c 0))
    _ = W24 m c (Proc.devRef .tc main_arg0) := StableHlo.after_of_writes_sub hostOps12 _ hostOps12_writes (by decide)
    _ = W23 m c (Proc.devRef .tc main_arg0) := W24_of_ne m c main_arg0 (by decide)
    _ = W22 m c (Proc.devRef .tc main_arg0) := StableHlo.after_of_writes_sub hostOps11 _ hostOps11_writes (by decide)
    _ = W21 m c (Proc.devRef .tc main_arg0) := W22_of_ne m c main_arg0 (by decide)
    _ = W20 m c (Proc.devRef .tc main_arg0) := StableHlo.after_of_writes_sub hostOps10 _ hostOps10_writes (by decide)
    _ = W19 m c (Proc.devRef .tc main_arg0) := W20_of_ne m c main_arg0 (by decide)
    _ = W18 m c (Proc.devRef .tc main_arg0) := StableHlo.after_of_writes_sub hostOps9 _ hostOps9_writes (by decide)
    _ = W17 m c (Proc.devRef .tc main_arg0) := W18_of_ne m c main_arg0 (by decide)
    _ = W16 m c (Proc.devRef .tc main_arg0) := StableHlo.after_of_writes_sub hostOps8 _ hostOps8_writes (by decide)
    _ = W15 m c (Proc.devRef .tc main_arg0) := W16_of_ne m c main_arg0 (by decide)
    _ = W14 m c (Proc.devRef .tc main_arg0) := StableHlo.after_of_writes_sub hostOps7 _ hostOps7_writes (by decide)
    _ = W13 m c (Proc.devRef .tc main_arg0) := W14_of_ne m c main_arg0 (by decide)
    _ = W12 m c (Proc.devRef .tc main_arg0) := StableHlo.after_of_writes_sub hostOps6 _ hostOps6_writes (by decide)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W26_main_arg1 (c : Dev nD) : W26 m c (Proc.devRef .tc main_arg1) = m ((c : Thread nD τ).loc main_arg1) :=
  calc W26 m c (Proc.devRef .tc main_arg1)
    _ = W25 m c (Proc.devRef .tc main_arg1) := W26_of_ne m c main_arg1 (by decide)
    _ = W24 m c (Proc.devRef .tc main_arg1) := StableHlo.after_of_writes_sub hostOps12 _ hostOps12_writes (by decide)
    _ = W23 m c (Proc.devRef .tc main_arg1) := W24_of_ne m c main_arg1 (by decide)
    _ = W22 m c (Proc.devRef .tc main_arg1) := StableHlo.after_of_writes_sub hostOps11 _ hostOps11_writes (by decide)
    _ = W21 m c (Proc.devRef .tc main_arg1) := W22_of_ne m c main_arg1 (by decide)
    _ = W20 m c (Proc.devRef .tc main_arg1) := StableHlo.after_of_writes_sub hostOps10 _ hostOps10_writes (by decide)
    _ = W19 m c (Proc.devRef .tc main_arg1) := W20_of_ne m c main_arg1 (by decide)
    _ = W18 m c (Proc.devRef .tc main_arg1) := StableHlo.after_of_writes_sub hostOps9 _ hostOps9_writes (by decide)
    _ = W17 m c (Proc.devRef .tc main_arg1) := W18_of_ne m c main_arg1 (by decide)
    _ = W16 m c (Proc.devRef .tc main_arg1) := StableHlo.after_of_writes_sub hostOps8 _ hostOps8_writes (by decide)
    _ = W15 m c (Proc.devRef .tc main_arg1) := W16_of_ne m c main_arg1 (by decide)
    _ = W14 m c (Proc.devRef .tc main_arg1) := StableHlo.after_of_writes_sub hostOps7 _ hostOps7_writes (by decide)
    _ = W13 m c (Proc.devRef .tc main_arg1) := W14_of_ne m c main_arg1 (by decide)
    _ = W12 m c (Proc.devRef .tc main_arg1) := StableHlo.after_of_writes_sub hostOps6 _ hostOps6_writes (by decide)
    _ = W11 m c (Proc.devRef .tc main_arg1) := W12_of_ne m c main_arg1 (by decide)
    _ = W10 m c (Proc.devRef .tc main_arg1) := StableHlo.after_of_writes_sub hostOps5 _ hostOps5_writes (by decide)
    _ = W9 m c (Proc.devRef .tc main_arg1) := W10_of_ne m c main_arg1 (by decide)
    _ = W8 m c (Proc.devRef .tc main_arg1) := StableHlo.after_of_writes_sub hostOps4 _ hostOps4_writes (by decide)
    _ = W7 m c (Proc.devRef .tc main_arg1) := W8_of_ne m c main_arg1 (by decide)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide)
    _ = m ((c : Thread nD τ).loc main_arg1) := rfl

theorem W26_main_arg2 (c : Dev nD) : W26 m c (Proc.devRef .tc main_arg2) = m ((c : Thread nD τ).loc main_arg2) :=
  calc W26 m c (Proc.devRef .tc main_arg2)
    _ = W25 m c (Proc.devRef .tc main_arg2) := W26_of_ne m c main_arg2 (by decide)
    _ = W24 m c (Proc.devRef .tc main_arg2) := StableHlo.after_of_writes_sub hostOps12 _ hostOps12_writes (by decide)
    _ = W23 m c (Proc.devRef .tc main_arg2) := W24_of_ne m c main_arg2 (by decide)
    _ = W22 m c (Proc.devRef .tc main_arg2) := StableHlo.after_of_writes_sub hostOps11 _ hostOps11_writes (by decide)
    _ = W21 m c (Proc.devRef .tc main_arg2) := W22_of_ne m c main_arg2 (by decide)
    _ = W20 m c (Proc.devRef .tc main_arg2) := StableHlo.after_of_writes_sub hostOps10 _ hostOps10_writes (by decide)
    _ = W19 m c (Proc.devRef .tc main_arg2) := W20_of_ne m c main_arg2 (by decide)
    _ = W18 m c (Proc.devRef .tc main_arg2) := StableHlo.after_of_writes_sub hostOps9 _ hostOps9_writes (by decide)
    _ = W17 m c (Proc.devRef .tc main_arg2) := W18_of_ne m c main_arg2 (by decide)
    _ = W16 m c (Proc.devRef .tc main_arg2) := StableHlo.after_of_writes_sub hostOps8 _ hostOps8_writes (by decide)
    _ = W15 m c (Proc.devRef .tc main_arg2) := W16_of_ne m c main_arg2 (by decide)
    _ = W14 m c (Proc.devRef .tc main_arg2) := StableHlo.after_of_writes_sub hostOps7 _ hostOps7_writes (by decide)
    _ = W13 m c (Proc.devRef .tc main_arg2) := W14_of_ne m c main_arg2 (by decide)
    _ = W12 m c (Proc.devRef .tc main_arg2) := StableHlo.after_of_writes_sub hostOps6 _ hostOps6_writes (by decide)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := W10_of_ne m c main_arg2 (by decide)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W26_main_arg3 (c : Dev nD) : W26 m c (Proc.devRef .tc main_arg3) = m ((c : Thread nD τ).loc main_arg3) :=
  calc W26 m c (Proc.devRef .tc main_arg3)
    _ = W25 m c (Proc.devRef .tc main_arg3) := W26_of_ne m c main_arg3 (by decide)
    _ = W24 m c (Proc.devRef .tc main_arg3) := StableHlo.after_of_writes_sub hostOps12 _ hostOps12_writes (by decide)
    _ = W23 m c (Proc.devRef .tc main_arg3) := W24_of_ne m c main_arg3 (by decide)
    _ = W22 m c (Proc.devRef .tc main_arg3) := StableHlo.after_of_writes_sub hostOps11 _ hostOps11_writes (by decide)
    _ = W21 m c (Proc.devRef .tc main_arg3) := W22_of_ne m c main_arg3 (by decide)
    _ = W20 m c (Proc.devRef .tc main_arg3) := StableHlo.after_of_writes_sub hostOps10 _ hostOps10_writes (by decide)
    _ = W19 m c (Proc.devRef .tc main_arg3) := W20_of_ne m c main_arg3 (by decide)
    _ = W18 m c (Proc.devRef .tc main_arg3) := StableHlo.after_of_writes_sub hostOps9 _ hostOps9_writes (by decide)
    _ = W17 m c (Proc.devRef .tc main_arg3) := W18_of_ne m c main_arg3 (by decide)
    _ = W16 m c (Proc.devRef .tc main_arg3) := StableHlo.after_of_writes_sub hostOps8 _ hostOps8_writes (by decide)
    _ = W15 m c (Proc.devRef .tc main_arg3) := W16_of_ne m c main_arg3 (by decide)
    _ = W14 m c (Proc.devRef .tc main_arg3) := StableHlo.after_of_writes_sub hostOps7 _ hostOps7_writes (by decide)
    _ = W13 m c (Proc.devRef .tc main_arg3) := W14_of_ne m c main_arg3 (by decide)
    _ = W12 m c (Proc.devRef .tc main_arg3) := StableHlo.after_of_writes_sub hostOps6 _ hostOps6_writes (by decide)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W26_main_arg4 (c : Dev nD) : W26 m c (Proc.devRef .tc main_arg4) = m ((c : Thread nD τ).loc main_arg4) :=
  calc W26 m c (Proc.devRef .tc main_arg4)
    _ = W25 m c (Proc.devRef .tc main_arg4) := W26_of_ne m c main_arg4 (by decide)
    _ = W24 m c (Proc.devRef .tc main_arg4) := StableHlo.after_of_writes_sub hostOps12 _ hostOps12_writes (by decide)
    _ = W23 m c (Proc.devRef .tc main_arg4) := W24_of_ne m c main_arg4 (by decide)
    _ = W22 m c (Proc.devRef .tc main_arg4) := StableHlo.after_of_writes_sub hostOps11 _ hostOps11_writes (by decide)
    _ = W21 m c (Proc.devRef .tc main_arg4) := W22_of_ne m c main_arg4 (by decide)
    _ = W20 m c (Proc.devRef .tc main_arg4) := StableHlo.after_of_writes_sub hostOps10 _ hostOps10_writes (by decide)
    _ = W19 m c (Proc.devRef .tc main_arg4) := W20_of_ne m c main_arg4 (by decide)
    _ = W18 m c (Proc.devRef .tc main_arg4) := StableHlo.after_of_writes_sub hostOps9 _ hostOps9_writes (by decide)
    _ = W17 m c (Proc.devRef .tc main_arg4) := W18_of_ne m c main_arg4 (by decide)
    _ = W16 m c (Proc.devRef .tc main_arg4) := StableHlo.after_of_writes_sub hostOps8 _ hostOps8_writes (by decide)
    _ = W15 m c (Proc.devRef .tc main_arg4) := W16_of_ne m c main_arg4 (by decide)
    _ = W14 m c (Proc.devRef .tc main_arg4) := StableHlo.after_of_writes_sub hostOps7 _ hostOps7_writes (by decide)
    _ = W13 m c (Proc.devRef .tc main_arg4) := W14_of_ne m c main_arg4 (by decide)
    _ = W12 m c (Proc.devRef .tc main_arg4) := StableHlo.after_of_writes_sub hostOps6 _ hostOps6_writes (by decide)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W26_main_arg5 (c : Dev nD) : W26 m c (Proc.devRef .tc main_arg5) = m ((c : Thread nD τ).loc main_arg5) :=
  calc W26 m c (Proc.devRef .tc main_arg5)
    _ = W25 m c (Proc.devRef .tc main_arg5) := W26_of_ne m c main_arg5 (by decide)
    _ = W24 m c (Proc.devRef .tc main_arg5) := StableHlo.after_of_writes_sub hostOps12 _ hostOps12_writes (by decide)
    _ = W23 m c (Proc.devRef .tc main_arg5) := W24_of_ne m c main_arg5 (by decide)
    _ = W22 m c (Proc.devRef .tc main_arg5) := StableHlo.after_of_writes_sub hostOps11 _ hostOps11_writes (by decide)
    _ = W21 m c (Proc.devRef .tc main_arg5) := W22_of_ne m c main_arg5 (by decide)
    _ = W20 m c (Proc.devRef .tc main_arg5) := StableHlo.after_of_writes_sub hostOps10 _ hostOps10_writes (by decide)
    _ = W19 m c (Proc.devRef .tc main_arg5) := W20_of_ne m c main_arg5 (by decide)
    _ = W18 m c (Proc.devRef .tc main_arg5) := StableHlo.after_of_writes_sub hostOps9 _ hostOps9_writes (by decide)
    _ = W17 m c (Proc.devRef .tc main_arg5) := W18_of_ne m c main_arg5 (by decide)
    _ = W16 m c (Proc.devRef .tc main_arg5) := StableHlo.after_of_writes_sub hostOps8 _ hostOps8_writes (by decide)
    _ = W15 m c (Proc.devRef .tc main_arg5) := W16_of_ne m c main_arg5 (by decide)
    _ = W14 m c (Proc.devRef .tc main_arg5) := StableHlo.after_of_writes_sub hostOps7 _ hostOps7_writes (by decide)
    _ = W13 m c (Proc.devRef .tc main_arg5) := W14_of_ne m c main_arg5 (by decide)
    _ = W12 m c (Proc.devRef .tc main_arg5) := StableHlo.after_of_writes_sub hostOps6 _ hostOps6_writes (by decide)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W26_main_arg6 (c : Dev nD) : W26 m c (Proc.devRef .tc main_arg6) = m ((c : Thread nD τ).loc main_arg6) :=
  calc W26 m c (Proc.devRef .tc main_arg6)
    _ = W25 m c (Proc.devRef .tc main_arg6) := W26_of_ne m c main_arg6 (by decide)
    _ = W24 m c (Proc.devRef .tc main_arg6) := StableHlo.after_of_writes_sub hostOps12 _ hostOps12_writes (by decide)
    _ = W23 m c (Proc.devRef .tc main_arg6) := W24_of_ne m c main_arg6 (by decide)
    _ = W22 m c (Proc.devRef .tc main_arg6) := StableHlo.after_of_writes_sub hostOps11 _ hostOps11_writes (by decide)
    _ = W21 m c (Proc.devRef .tc main_arg6) := W22_of_ne m c main_arg6 (by decide)
    _ = W20 m c (Proc.devRef .tc main_arg6) := StableHlo.after_of_writes_sub hostOps10 _ hostOps10_writes (by decide)
    _ = W19 m c (Proc.devRef .tc main_arg6) := W20_of_ne m c main_arg6 (by decide)
    _ = W18 m c (Proc.devRef .tc main_arg6) := StableHlo.after_of_writes_sub hostOps9 _ hostOps9_writes (by decide)
    _ = W17 m c (Proc.devRef .tc main_arg6) := W18_of_ne m c main_arg6 (by decide)
    _ = W16 m c (Proc.devRef .tc main_arg6) := StableHlo.after_of_writes_sub hostOps8 _ hostOps8_writes (by decide)
    _ = W15 m c (Proc.devRef .tc main_arg6) := W16_of_ne m c main_arg6 (by decide)
    _ = W14 m c (Proc.devRef .tc main_arg6) := StableHlo.after_of_writes_sub hostOps7 _ hostOps7_writes (by decide)
    _ = W13 m c (Proc.devRef .tc main_arg6) := W14_of_ne m c main_arg6 (by decide)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W26_main_arg7 (c : Dev nD) : W26 m c (Proc.devRef .tc main_arg7) = m ((c : Thread nD τ).loc main_arg7) :=
  calc W26 m c (Proc.devRef .tc main_arg7)
    _ = W25 m c (Proc.devRef .tc main_arg7) := W26_of_ne m c main_arg7 (by decide)
    _ = W24 m c (Proc.devRef .tc main_arg7) := StableHlo.after_of_writes_sub hostOps12 _ hostOps12_writes (by decide)
    _ = W23 m c (Proc.devRef .tc main_arg7) := W24_of_ne m c main_arg7 (by decide)
    _ = W22 m c (Proc.devRef .tc main_arg7) := StableHlo.after_of_writes_sub hostOps11 _ hostOps11_writes (by decide)
    _ = W21 m c (Proc.devRef .tc main_arg7) := W22_of_ne m c main_arg7 (by decide)
    _ = W20 m c (Proc.devRef .tc main_arg7) := StableHlo.after_of_writes_sub hostOps10 _ hostOps10_writes (by decide)
    _ = W19 m c (Proc.devRef .tc main_arg7) := W20_of_ne m c main_arg7 (by decide)
    _ = W18 m c (Proc.devRef .tc main_arg7) := StableHlo.after_of_writes_sub hostOps9 _ hostOps9_writes (by decide)
    _ = W17 m c (Proc.devRef .tc main_arg7) := W18_of_ne m c main_arg7 (by decide)
    _ = W16 m c (Proc.devRef .tc main_arg7) := StableHlo.after_of_writes_sub hostOps8 _ hostOps8_writes (by decide)
    _ = W15 m c (Proc.devRef .tc main_arg7) := W16_of_ne m c main_arg7 (by decide)
    _ = W14 m c (Proc.devRef .tc main_arg7) := StableHlo.after_of_writes_sub hostOps7 _ hostOps7_writes (by decide)
    _ = W13 m c (Proc.devRef .tc main_arg7) := W14_of_ne m c main_arg7 (by decide)
    _ = W12 m c (Proc.devRef .tc main_arg7) := StableHlo.after_of_writes_sub hostOps6 _ hostOps6_writes (by decide)
    _ = W11 m c (Proc.devRef .tc main_arg7) := W12_of_ne m c main_arg7 (by decide)
    _ = W10 m c (Proc.devRef .tc main_arg7) := StableHlo.after_of_writes_sub hostOps5 _ hostOps5_writes (by decide)
    _ = W9 m c (Proc.devRef .tc main_arg7) := W10_of_ne m c main_arg7 (by decide)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W26_main_arg8 (c : Dev nD) : W26 m c (Proc.devRef .tc main_arg8) = m ((c : Thread nD τ).loc main_arg8) :=
  calc W26 m c (Proc.devRef .tc main_arg8)
    _ = W25 m c (Proc.devRef .tc main_arg8) := (W26_arr m c 5).trans (((dat12 (V25 m) c).arrAt_in 5 rfl _).trans (A_eq12 (V25 m) c 5))
    _ = W24 m c (Proc.devRef .tc main_arg8) := StableHlo.after_of_writes_sub hostOps12 _ hostOps12_writes (by decide)
    _ = W23 m c (Proc.devRef .tc main_arg8) := W24_of_ne m c main_arg8 (by decide)
    _ = W22 m c (Proc.devRef .tc main_arg8) := StableHlo.after_of_writes_sub hostOps11 _ hostOps11_writes (by decide)
    _ = W21 m c (Proc.devRef .tc main_arg8) := W22_of_ne m c main_arg8 (by decide)
    _ = W20 m c (Proc.devRef .tc main_arg8) := StableHlo.after_of_writes_sub hostOps10 _ hostOps10_writes (by decide)
    _ = W19 m c (Proc.devRef .tc main_arg8) := W20_of_ne m c main_arg8 (by decide)
    _ = W18 m c (Proc.devRef .tc main_arg8) := StableHlo.after_of_writes_sub hostOps9 _ hostOps9_writes (by decide)
    _ = W17 m c (Proc.devRef .tc main_arg8) := W18_of_ne m c main_arg8 (by decide)
    _ = W16 m c (Proc.devRef .tc main_arg8) := StableHlo.after_of_writes_sub hostOps8 _ hostOps8_writes (by decide)
    _ = W15 m c (Proc.devRef .tc main_arg8) := W16_of_ne m c main_arg8 (by decide)
    _ = W14 m c (Proc.devRef .tc main_arg8) := StableHlo.after_of_writes_sub hostOps7 _ hostOps7_writes (by decide)
    _ = W13 m c (Proc.devRef .tc main_arg8) := W14_of_ne m c main_arg8 (by decide)
    _ = W12 m c (Proc.devRef .tc main_arg8) := StableHlo.after_of_writes_sub hostOps6 _ hostOps6_writes (by decide)
    _ = W11 m c (Proc.devRef .tc main_arg8) := W12_of_ne m c main_arg8 (by decide)
    _ = W10 m c (Proc.devRef .tc main_arg8) := StableHlo.after_of_writes_sub hostOps5 _ hostOps5_writes (by decide)
    _ = W9 m c (Proc.devRef .tc main_arg8) := W10_of_ne m c main_arg8 (by decide)
    _ = W8 m c (Proc.devRef .tc main_arg8) := StableHlo.after_of_writes_sub hostOps4 _ hostOps4_writes (by decide)
    _ = W7 m c (Proc.devRef .tc main_arg8) := W8_of_ne m c main_arg8 (by decide)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W26_main_arg9 (c : Dev nD) : W26 m c (Proc.devRef .tc main_arg9) = m ((c : Thread nD τ).loc main_arg9) :=
  calc W26 m c (Proc.devRef .tc main_arg9)
    _ = W25 m c (Proc.devRef .tc main_arg9) := W26_of_ne m c main_arg9 (by decide)
    _ = W24 m c (Proc.devRef .tc main_arg9) := StableHlo.after_of_writes_sub hostOps12 _ hostOps12_writes (by decide)
    _ = W23 m c (Proc.devRef .tc main_arg9) := W24_of_ne m c main_arg9 (by decide)
    _ = W22 m c (Proc.devRef .tc main_arg9) := StableHlo.after_of_writes_sub hostOps11 _ hostOps11_writes (by decide)
    _ = W21 m c (Proc.devRef .tc main_arg9) := W22_of_ne m c main_arg9 (by decide)
    _ = W20 m c (Proc.devRef .tc main_arg9) := StableHlo.after_of_writes_sub hostOps10 _ hostOps10_writes (by decide)
    _ = W19 m c (Proc.devRef .tc main_arg9) := W20_of_ne m c main_arg9 (by decide)
    _ = W18 m c (Proc.devRef .tc main_arg9) := StableHlo.after_of_writes_sub hostOps9 _ hostOps9_writes (by decide)
    _ = W17 m c (Proc.devRef .tc main_arg9) := W18_of_ne m c main_arg9 (by decide)
    _ = W16 m c (Proc.devRef .tc main_arg9) := StableHlo.after_of_writes_sub hostOps8 _ hostOps8_writes (by decide)
    _ = W15 m c (Proc.devRef .tc main_arg9) := W16_of_ne m c main_arg9 (by decide)
    _ = W14 m c (Proc.devRef .tc main_arg9) := StableHlo.after_of_writes_sub hostOps7 _ hostOps7_writes (by decide)
    _ = W13 m c (Proc.devRef .tc main_arg9) := W14_of_ne m c main_arg9 (by decide)
    _ = W12 m c (Proc.devRef .tc main_arg9) := StableHlo.after_of_writes_sub hostOps6 _ hostOps6_writes (by decide)
    _ = W11 m c (Proc.devRef .tc main_arg9) := W12_of_ne m c main_arg9 (by decide)
    _ = W10 m c (Proc.devRef .tc main_arg9) := StableHlo.after_of_writes_sub hostOps5 _ hostOps5_writes (by decide)
    _ = W9 m c (Proc.devRef .tc main_arg9) := W10_of_ne m c main_arg9 (by decide)
    _ = W8 m c (Proc.devRef .tc main_arg9) := StableHlo.after_of_writes_sub hostOps4 _ hostOps4_writes (by decide)
    _ = W7 m c (Proc.devRef .tc main_arg9) := W8_of_ne m c main_arg9 (by decide)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W26_main_arg10 (c : Dev nD) : W26 m c (Proc.devRef .tc main_arg10) = m ((c : Thread nD τ).loc main_arg10) :=
  calc W26 m c (Proc.devRef .tc main_arg10)
    _ = W25 m c (Proc.devRef .tc main_arg10) := (W26_arr m c 7).trans (((dat12 (V25 m) c).arrAt_in 7 rfl _).trans (A_eq12 (V25 m) c 7))
    _ = W24 m c (Proc.devRef .tc main_arg10) := StableHlo.after_of_writes_sub hostOps12 _ hostOps12_writes (by decide)
    _ = W23 m c (Proc.devRef .tc main_arg10) := W24_of_ne m c main_arg10 (by decide)
    _ = W22 m c (Proc.devRef .tc main_arg10) := StableHlo.after_of_writes_sub hostOps11 _ hostOps11_writes (by decide)
    _ = W21 m c (Proc.devRef .tc main_arg10) := W22_of_ne m c main_arg10 (by decide)
    _ = W20 m c (Proc.devRef .tc main_arg10) := StableHlo.after_of_writes_sub hostOps10 _ hostOps10_writes (by decide)
    _ = W19 m c (Proc.devRef .tc main_arg10) := W20_of_ne m c main_arg10 (by decide)
    _ = W18 m c (Proc.devRef .tc main_arg10) := StableHlo.after_of_writes_sub hostOps9 _ hostOps9_writes (by decide)
    _ = W17 m c (Proc.devRef .tc main_arg10) := W18_of_ne m c main_arg10 (by decide)
    _ = W16 m c (Proc.devRef .tc main_arg10) := StableHlo.after_of_writes_sub hostOps8 _ hostOps8_writes (by decide)
    _ = W15 m c (Proc.devRef .tc main_arg10) := W16_of_ne m c main_arg10 (by decide)
    _ = W14 m c (Proc.devRef .tc main_arg10) := StableHlo.after_of_writes_sub hostOps7 _ hostOps7_writes (by decide)
    _ = W13 m c (Proc.devRef .tc main_arg10) := W14_of_ne m c main_arg10 (by decide)
    _ = W12 m c (Proc.devRef .tc main_arg10) := StableHlo.after_of_writes_sub hostOps6 _ hostOps6_writes (by decide)
    _ = W11 m c (Proc.devRef .tc main_arg10) := W12_of_ne m c main_arg10 (by decide)
    _ = W10 m c (Proc.devRef .tc main_arg10) := StableHlo.after_of_writes_sub hostOps5 _ hostOps5_writes (by decide)
    _ = W9 m c (Proc.devRef .tc main_arg10) := W10_of_ne m c main_arg10 (by decide)
    _ = W8 m c (Proc.devRef .tc main_arg10) := StableHlo.after_of_writes_sub hostOps4 _ hostOps4_writes (by decide)
    _ = W7 m c (Proc.devRef .tc main_arg10) := W8_of_ne m c main_arg10 (by decide)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W26_main_arg11 (c : Dev nD) : W26 m c (Proc.devRef .tc main_arg11) = m ((c : Thread nD τ).loc main_arg11) :=
  calc W26 m c (Proc.devRef .tc main_arg11)
    _ = W25 m c (Proc.devRef .tc main_arg11) := (W26_arr m c 8).trans (((dat12 (V25 m) c).arrAt_in 8 rfl _).trans (A_eq12 (V25 m) c 8))
    _ = W24 m c (Proc.devRef .tc main_arg11) := StableHlo.after_of_writes_sub hostOps12 _ hostOps12_writes (by decide)
    _ = W23 m c (Proc.devRef .tc main_arg11) := W24_of_ne m c main_arg11 (by decide)
    _ = W22 m c (Proc.devRef .tc main_arg11) := StableHlo.after_of_writes_sub hostOps11 _ hostOps11_writes (by decide)
    _ = W21 m c (Proc.devRef .tc main_arg11) := W22_of_ne m c main_arg11 (by decide)
    _ = W20 m c (Proc.devRef .tc main_arg11) := StableHlo.after_of_writes_sub hostOps10 _ hostOps10_writes (by decide)
    _ = W19 m c (Proc.devRef .tc main_arg11) := W20_of_ne m c main_arg11 (by decide)
    _ = W18 m c (Proc.devRef .tc main_arg11) := StableHlo.after_of_writes_sub hostOps9 _ hostOps9_writes (by decide)
    _ = W17 m c (Proc.devRef .tc main_arg11) := W18_of_ne m c main_arg11 (by decide)
    _ = W16 m c (Proc.devRef .tc main_arg11) := StableHlo.after_of_writes_sub hostOps8 _ hostOps8_writes (by decide)
    _ = W15 m c (Proc.devRef .tc main_arg11) := W16_of_ne m c main_arg11 (by decide)
    _ = W14 m c (Proc.devRef .tc main_arg11) := StableHlo.after_of_writes_sub hostOps7 _ hostOps7_writes (by decide)
    _ = W13 m c (Proc.devRef .tc main_arg11) := W14_of_ne m c main_arg11 (by decide)
    _ = W12 m c (Proc.devRef .tc main_arg11) := StableHlo.after_of_writes_sub hostOps6 _ hostOps6_writes (by decide)
    _ = W11 m c (Proc.devRef .tc main_arg11) := W12_of_ne m c main_arg11 (by decide)
    _ = W10 m c (Proc.devRef .tc main_arg11) := StableHlo.after_of_writes_sub hostOps5 _ hostOps5_writes (by decide)
    _ = W9 m c (Proc.devRef .tc main_arg11) := W10_of_ne m c main_arg11 (by decide)
    _ = W8 m c (Proc.devRef .tc main_arg11) := StableHlo.after_of_writes_sub hostOps4 _ hostOps4_writes (by decide)
    _ = W7 m c (Proc.devRef .tc main_arg11) := W8_of_ne m c main_arg11 (by decide)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

theorem W26_main_arg12 (c : Dev nD) : W26 m c (Proc.devRef .tc main_arg12) = m ((c : Thread nD τ).loc main_arg12) :=
  calc W26 m c (Proc.devRef .tc main_arg12)
    _ = W25 m c (Proc.devRef .tc main_arg12) := W26_of_ne m c main_arg12 (by decide)
    _ = W24 m c (Proc.devRef .tc main_arg12) := StableHlo.after_of_writes_sub hostOps12 _ hostOps12_writes (by decide)
    _ = W23 m c (Proc.devRef .tc main_arg12) := W24_of_ne m c main_arg12 (by decide)
    _ = W22 m c (Proc.devRef .tc main_arg12) := StableHlo.after_of_writes_sub hostOps11 _ hostOps11_writes (by decide)
    _ = W21 m c (Proc.devRef .tc main_arg12) := W22_of_ne m c main_arg12 (by decide)
    _ = W20 m c (Proc.devRef .tc main_arg12) := StableHlo.after_of_writes_sub hostOps10 _ hostOps10_writes (by decide)
    _ = W19 m c (Proc.devRef .tc main_arg12) := W20_of_ne m c main_arg12 (by decide)
    _ = W18 m c (Proc.devRef .tc main_arg12) := StableHlo.after_of_writes_sub hostOps9 _ hostOps9_writes (by decide)
    _ = W17 m c (Proc.devRef .tc main_arg12) := W18_of_ne m c main_arg12 (by decide)
    _ = W16 m c (Proc.devRef .tc main_arg12) := StableHlo.after_of_writes_sub hostOps8 _ hostOps8_writes (by decide)
    _ = W15 m c (Proc.devRef .tc main_arg12) := W16_of_ne m c main_arg12 (by decide)
    _ = W14 m c (Proc.devRef .tc main_arg12) := StableHlo.after_of_writes_sub hostOps7 _ hostOps7_writes (by decide)
    _ = W13 m c (Proc.devRef .tc main_arg12) := W14_of_ne m c main_arg12 (by decide)
    _ = W12 m c (Proc.devRef .tc main_arg12) := StableHlo.after_of_writes_sub hostOps6 _ hostOps6_writes (by decide)
    _ = W11 m c (Proc.devRef .tc main_arg12) := W12_of_ne m c main_arg12 (by decide)
    _ = W10 m c (Proc.devRef .tc main_arg12) := StableHlo.after_of_writes_sub hostOps5 _ hostOps5_writes (by decide)
    _ = W9 m c (Proc.devRef .tc main_arg12) := W10_of_ne m c main_arg12 (by decide)
    _ = W8 m c (Proc.devRef .tc main_arg12) := StableHlo.after_of_writes_sub hostOps4 _ hostOps4_writes (by decide)
    _ = W7 m c (Proc.devRef .tc main_arg12) := W8_of_ne m c main_arg12 (by decide)
    _ = W6 m c (Proc.devRef .tc main_arg12) := StableHlo.after_of_writes_sub hostOps3 _ hostOps3_writes (by decide)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

theorem W26_main_arg13 (c : Dev nD) : W26 m c (Proc.devRef .tc main_arg13) = m ((c : Thread nD τ).loc main_arg13) :=
  calc W26 m c (Proc.devRef .tc main_arg13)
    _ = W25 m c (Proc.devRef .tc main_arg13) := W26_of_ne m c main_arg13 (by decide)
    _ = W24 m c (Proc.devRef .tc main_arg13) := StableHlo.after_of_writes_sub hostOps12 _ hostOps12_writes (by decide)
    _ = W23 m c (Proc.devRef .tc main_arg13) := W24_of_ne m c main_arg13 (by decide)
    _ = W22 m c (Proc.devRef .tc main_arg13) := StableHlo.after_of_writes_sub hostOps11 _ hostOps11_writes (by decide)
    _ = W21 m c (Proc.devRef .tc main_arg13) := W22_of_ne m c main_arg13 (by decide)
    _ = W20 m c (Proc.devRef .tc main_arg13) := StableHlo.after_of_writes_sub hostOps10 _ hostOps10_writes (by decide)
    _ = W19 m c (Proc.devRef .tc main_arg13) := W20_of_ne m c main_arg13 (by decide)
    _ = W18 m c (Proc.devRef .tc main_arg13) := StableHlo.after_of_writes_sub hostOps9 _ hostOps9_writes (by decide)
    _ = W17 m c (Proc.devRef .tc main_arg13) := W18_of_ne m c main_arg13 (by decide)
    _ = W16 m c (Proc.devRef .tc main_arg13) := StableHlo.after_of_writes_sub hostOps8 _ hostOps8_writes (by decide)
    _ = W15 m c (Proc.devRef .tc main_arg13) := W16_of_ne m c main_arg13 (by decide)
    _ = W14 m c (Proc.devRef .tc main_arg13) := StableHlo.after_of_writes_sub hostOps7 _ hostOps7_writes (by decide)
    _ = W13 m c (Proc.devRef .tc main_arg13) := W14_of_ne m c main_arg13 (by decide)
    _ = W12 m c (Proc.devRef .tc main_arg13) := StableHlo.after_of_writes_sub hostOps6 _ hostOps6_writes (by decide)
    _ = W11 m c (Proc.devRef .tc main_arg13) := W12_of_ne m c main_arg13 (by decide)
    _ = W10 m c (Proc.devRef .tc main_arg13) := StableHlo.after_of_writes_sub hostOps5 _ hostOps5_writes (by decide)
    _ = W9 m c (Proc.devRef .tc main_arg13) := W10_of_ne m c main_arg13 (by decide)
    _ = W8 m c (Proc.devRef .tc main_arg13) := StableHlo.after_of_writes_sub hostOps4 _ hostOps4_writes (by decide)
    _ = W7 m c (Proc.devRef .tc main_arg13) := W8_of_ne m c main_arg13 (by decide)
    _ = W6 m c (Proc.devRef .tc main_arg13) := StableHlo.after_of_writes_sub hostOps3 _ hostOps3_writes (by decide)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl

/-! ## The proof data family and the thread state -/

/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
  | ⟨7, _⟩ => fun c => dat7 (V15 m) c
  | ⟨8, _⟩ => fun c => dat8 (V17 m) c
  | ⟨9, _⟩ => fun c => dat9 (V19 m) c
  | ⟨10, _⟩ => fun c => dat10 (V21 m) c
  | ⟨11, _⟩ => fun c => dat11 (V23 m) c
  | ⟨12, _⟩ => fun c => dat12 (V25 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W26 m c) ∗ ∃ r, prngReg c r)

end Cert.Kernel.Hand

end
-- ==== Proof.K.Seg0.lean ====
-- Region 0 of @main as one segment of the run: entered holding every unscoped buffer at the contents after host stretch 0, left holding them with the region's arrays at what its write-backs leave.
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 0 (custom_call 0) over the thread state: entered from every unscoped buffer at W1, left at W2.
    Its arrays are split out of the unscoped buffers and put back at the exit contents; the generator register goes
    into the class invariant and comes out (the region's own invariant is entered from it and gives it back);
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 0 c).owed 0 = 0 := owed_eq0 (V1 m) c 0
      have er : (pdats m 0 c).recorded 0 = Set.univ := recorded_eq0 (V1 m) c 0
      unfold Pipeline.Dat.owesAt Pipeline.owesWithin
      rw [e0]
      icases HO with ⟨%W, HO⟩; iexists W; isplitr
      · ipureintro; intro x _
        have hx : x ∈ (pdats m 0 c).recorded 0 := by rw [er]; exact Set.mem_univ x
        exact Or.inl hx
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    have eN : (pdats m 0 c).owed (Fin.last (Pipeline.pin (pcfgs (F := F)) adm 0).N) = 0 := owed_eq0 (V1 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg1.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 1 (custom_call 1) over the thread state: entered from every unscoped buffer at W3, left at W4.
    Its arrays are split out of the unscoped buffers and put back at the exit contents; the generator register goes
    into the class invariant and comes out (the region's own invariant is entered from it and gives it back);
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 1 c).owed 0 = 0 := owed_eq1 (V3 m) c 0
      have er : (pdats m 1 c).recorded 0 = Set.univ := recorded_eq1 (V3 m) c 0
      unfold Pipeline.Dat.owesAt Pipeline.owesWithin
      rw [e0]
      icases HO with ⟨%W, HO⟩; iexists W; isplitr
      · ipureintro; intro x _
        have hx : x ∈ (pdats m 1 c).recorded 0 := by rw [er]; exact Set.mem_univ x
        exact Or.inl hx
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V3 m) c w)
      (V3 m c) (V4 m c) ((pdats m 1 c).arrAt · cfg1.N) (hF1 m c) (hrest1 m c)
    rw [Pipeline.unscopedBufs_held] at hjoin
    have eN : (pdats m 1 c).owed (Fin.last (Pipeline.pin (pcfgs (F := F)) adm 1).N) = 0 := owed_eq1 (V3 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg2.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 2 (custom_call 2) over the thread state: entered from every unscoped buffer at W5, left at W6.
    Its arrays are split out of the unscoped buffers and put back at the exit contents; the generator register goes
    into the class invariant and comes out (the region's own invariant is entered from it and gives it back);
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun c t => owed_eq2 (V5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (V5 m) c w) (V5 m c) fun w => A_eq2 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 2 c).owed 0 = 0 := owed_eq2 (V5 m) c 0
      have er : (pdats m 2 c).recorded 0 = Set.univ := recorded_eq2 (V5 m) c 0
      unfold Pipeline.Dat.owesAt Pipeline.owesWithin
      rw [e0]
      icases HO with ⟨%W, HO⟩; iexists W; isplitr
      · ipureintro; intro x _
        have hx : x ∈ (pdats m 2 c).recorded 0 := by rw [er]; exact Set.mem_univ x
        exact Or.inl hx
      iexact HO
    isplitl [Hp]; · iexact Hp
    iexact Hrest
  hin c := by
    refine .trans ?_ (hin2 (V5 m) c)
    unfold Pipeline.ΦA
    iintro ⟨Hp, -, Hr⟩
    isplitl [Hr]; · iexact Hr
    iexact Hp
  hout c := by
    rw [Pipeline.ownSems0_none]
    refine (hout2 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (V5 m) c w)
      (V5 m c) (V6 m c) ((pdats m 2 c).arrAt · cfg2.N) (hF2 m c) (hrest2 m c)
    rw [Pipeline.unscopedBufs_held] at hjoin
    have eN : (pdats m 2 c).owed (Fin.last (Pipeline.pin (pcfgs (F := F)) adm 2).N) = 0 := owed_eq2 (V5 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg3.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 3 (custom_call 3) over the thread state: entered from every unscoped buffer at W7, left at W8.
    Its arrays are split out of the unscoped buffers and put back at the exit contents; the generator register goes
    into the class invariant and comes out (the region's own invariant is entered from it and gives it back);
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun c t => owed_eq3 (V7 m) c t
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (V7 m) c w) (V7 m c) fun w => A_eq3 (V7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 3 c).owed 0 = 0 := owed_eq3 (V7 m) c 0
      have er : (pdats m 3 c).recorded 0 = Set.univ := recorded_eq3 (V7 m) c 0
      unfold Pipeline.Dat.owesAt Pipeline.owesWithin
      rw [e0]
      icases HO with ⟨%W, HO⟩; iexists W; isplitr
      · ipureintro; intro x _
        have hx : x ∈ (pdats m 3 c).recorded 0 := by rw [er]; exact Set.mem_univ x
        exact Or.inl hx
      iexact HO
    isplitl [Hp]; · iexact Hp
    iexact Hrest
  hin c := by
    refine .trans ?_ (hin3 (V7 m) c)
    unfold Pipeline.ΦA
    iintro ⟨Hp, -, Hr⟩
    isplitl [Hr]; · iexact Hr
    iexact Hp
  hout c := by
    rw [Pipeline.ownSems0_none]
    refine (hout3 (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (V7 m) c w)
      (V7 m c) (V8 m c) ((pdats m 3 c).arrAt · cfg3.N) (hF3 m c) (hrest3 m c)
    rw [Pipeline.unscopedBufs_held] at hjoin
    have eN : (pdats m 3 c).owed (Fin.last (Pipeline.pin (pcfgs (F := F)) adm 3).N) = 0 := owed_eq3 (V7 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg4.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 4 (custom_call 4) over the thread state: entered from every unscoped buffer at W9, left at W10.
    Its arrays are split out of the unscoped buffers and put back at the exit contents; the generator register goes
    into the class invariant and comes out (the region's own invariant is entered from it and gives it back);
    nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun c t => owed_eq4 (V9 m) c t
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (V9 m) c w) (V9 m c) fun w => A_eq4 (V9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 4 c).owed 0 = 0 := owed_eq4 (V9 m) c 0
      have er : (pdats m 4 c).recorded 0 = Set.univ := recorded_eq4 (V9 m) c 0
      unfold Pipeline.Dat.owesAt Pipeline.owesWithin
      rw [e0]
      icases HO with ⟨%W, HO⟩; iexists W; isplitr
      · ipureintro; intro x _
        have hx : x ∈ (pdats m 4 c).recorded 0 := by rw [er]; exact Set.mem_univ x
        exact Or.inl hx
      iexact HO
    isplitl [Hp]; · iexact Hp
    iexact Hrest
  hin c := by
    refine .trans ?_ (hin4 (V9 m) c)
    unfold Pipeline.ΦA
    iintro ⟨Hp, -, Hr⟩
    isplitl [Hr]; · iexact Hr
    iexact Hp
  hout c := by
    rw [Pipeline.ownSems0_none]
    refine (hout4 (V9 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (V9 m) c w)
      (V9 m c) (V10 m c) ((pdats m 4 c).arrAt · cfg4.N) (hF4 m c) (hrest4 m c)
    rw [Pipeline.unscopedBufs_held] at hjoin
    have eN : (pdats m 4 c).owed (Fin.last (Pipeline.pin (pcfgs (F := F)) adm 4).N) = 0 := owed_eq4 (V9 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg5.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 5 (custom_call 5) over the thread state: entered from every unscoped buffer at W11, left at W12.
    Its arrays are split out of the unscoped buffers and put back at the exit contents; the generator register goes
    into the class invariant and comes out (the region's own invariant is entered from it and gives it back);
    nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun c t => owed_eq5 (V11 m) c t
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun w => q_eq5 (V11 m) c w) (V11 m c) fun w => A_eq5 (V11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 5 c).owed 0 = 0 := owed_eq5 (V11 m) c 0
      have er : (pdats m 5 c).recorded 0 = Set.univ := recorded_eq5 (V11 m) c 0
      unfold Pipeline.Dat.owesAt Pipeline.owesWithin
      rw [e0]
      icases HO with ⟨%W, HO⟩; iexists W; isplitr
      · ipureintro; intro x _
        have hx : x ∈ (pdats m 5 c).recorded 0 := by rw [er]; exact Set.mem_univ x
        exact Or.inl hx
      iexact HO
    isplitl [Hp]; · iexact Hp
    iexact Hrest
  hin c := by
    refine .trans ?_ (hin5 (V11 m) c)
    unfold Pipeline.ΦA
    iintro ⟨Hp, -, Hr⟩
    isplitl [Hr]; · iexact Hr
    iexact Hp
  hout c := by
    rw [Pipeline.ownSems0_none]
    refine (hout5 (V11 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun w => q_eq5 (V11 m) c w)
      (V11 m c) (V12 m c) ((pdats m 5 c).arrAt · cfg5.N) (hF5 m c) (hrest5 m c)
    rw [Pipeline.unscopedBufs_held] at hjoin
    have eN : (pdats m 5 c).owed (Fin.last (Pipeline.pin (pcfgs (F := F)) adm 5).N) = 0 := owed_eq5 (V11 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg6.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 6 (custom_call 6) over the thread state: entered from every unscoped buffer at W13, left at W14.
    Its arrays are split out of the unscoped buffers and put back at the exit contents; the generator register goes
    into the class invariant and comes out (the region's own invariant is entered from it and gives it back);
    nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun c t => owed_eq6 (V13 m) c t
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun w => q_eq6 (V13 m) c w) (V13 m c) fun w => A_eq6 (V13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 6 c).owed 0 = 0 := owed_eq6 (V13 m) c 0
      have er : (pdats m 6 c).recorded 0 = Set.univ := recorded_eq6 (V13 m) c 0
      unfold Pipeline.Dat.owesAt Pipeline.owesWithin
      rw [e0]
      icases HO with ⟨%W, HO⟩; iexists W; isplitr
      · ipureintro; intro x _
        have hx : x ∈ (pdats m 6 c).recorded 0 := by rw [er]; exact Set.mem_univ x
        exact Or.inl hx
      iexact HO
    isplitl [Hp]; · iexact Hp
    iexact Hrest
  hin c := by
    refine .trans ?_ (hin6 (V13 m) c)
    unfold Pipeline.ΦA
    iintro ⟨Hp, -, Hr⟩
    isplitl [Hr]; · iexact Hr
    iexact Hp
  hout c := by
    rw [Pipeline.ownSems0_none]
    refine (hout6 (V13 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun w => q_eq6 (V13 m) c w)
      (V13 m c) (V14 m c) ((pdats m 6 c).arrAt · cfg6.N) (hF6 m c) (hrest6 m c)
    rw [Pipeline.unscopedBufs_held] at hjoin
    have eN : (pdats m 6 c).owed (Fin.last (Pipeline.pin (pcfgs (F := F)) adm 6).N) = 0 := owed_eq6 (V13 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg7.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 7 (custom_call 7) over the thread state: entered from every unscoped buffer at W15, left at W16.
    Its arrays are split out of the unscoped buffers and put back at the exit contents; the generator register goes
    into the class invariant and comes out (the region's own invariant is entered from it and gives it back);
    nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m) c).loose
  hwaits := Pipeline.hwaits_of_owed_zero _ _ _ _ L lv 7 fun c t => owed_eq7 (V15 m) c t
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (V15 m c)
  hentry c := by
    rw [Pipeline.ownSems0_none]
    have hsplit := Pipeline.arrays_of_unscopedBufs (p := 7) (pcfgs (F := F)) adm (pdats m) launch7.win launch7.arr_whole c
      ((pdats m 7 c).share_full fun w => q_eq7 (V15 m) c w) (V15 m c) fun w => A_eq7 (V15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 7 c).owed 0 = 0 := owed_eq7 (V15 m) c 0
      have er : (pdats m 7 c).recorded 0 = Set.univ := recorded_eq7 (V15 m) c 0
      unfold Pipeline.Dat.owesAt Pipeline.owesWithin
      rw [e0]
      icases HO with ⟨%W, HO⟩; iexists W; isplitr
      · ipureintro; intro x _
        have hx : x ∈ (pdats m 7 c).recorded 0 := by rw [er]; exact Set.mem_univ x
        exact Or.inl hx
      iexact HO
    isplitl [Hp]; · iexact Hp
    iexact Hrest
  hin c := by
    refine .trans ?_ (hin7 (V15 m) c)
    unfold Pipeline.ΦA
    iintro ⟨Hp, -, Hr⟩
    isplitl [Hr]; · iexact Hr
    iexact Hp
  hout c := by
    rw [Pipeline.ownSems0_none]
    refine (hout7 (V15 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun w => q_eq7 (V15 m) c w)
      (V15 m c) (V16 m c) ((pdats m 7 c).arrAt · cfg7.N) (hF7 m c) (hrest7 m c)
    rw [Pipeline.unscopedBufs_held] at hjoin
    have eN : (pdats m 7 c).owed (Fin.last (Pipeline.pin (pcfgs (F := F)) adm 7).N) = 0 := owed_eq7 (V15 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg8.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 8 (custom_call 8) over the thread state: entered from every unscoped buffer at W17, left at W18.
    Its arrays are split out of the unscoped buffers and put back at the exit contents; the generator register goes
    into the class invariant and comes out (the region's own invariant is entered from it and gives it back);
    nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m) c).loose
  hwaits := Pipeline.hwaits_of_owed_zero _ _ _ _ L lv 8 fun c t => owed_eq8 (V17 m) c t
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (V17 m c)
  hentry c := by
    rw [Pipeline.ownSems0_none]
    have hsplit := Pipeline.arrays_of_unscopedBufs (p := 8) (pcfgs (F := F)) adm (pdats m) launch8.win launch8.arr_whole c
      ((pdats m 8 c).share_full fun w => q_eq8 (V17 m) c w) (V17 m c) fun w => A_eq8 (V17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 8 c).owed 0 = 0 := owed_eq8 (V17 m) c 0
      have er : (pdats m 8 c).recorded 0 = Set.univ := recorded_eq8 (V17 m) c 0
      unfold Pipeline.Dat.owesAt Pipeline.owesWithin
      rw [e0]
      icases HO with ⟨%W, HO⟩; iexists W; isplitr
      · ipureintro; intro x _
        have hx : x ∈ (pdats m 8 c).recorded 0 := by rw [er]; exact Set.mem_univ x
        exact Or.inl hx
      iexact HO
    isplitl [Hp]; · iexact Hp
    iexact Hrest
  hin c := by
    refine .trans ?_ (hin8 (V17 m) c)
    unfold Pipeline.ΦA
    iintro ⟨Hp, -, Hr⟩
    isplitl [Hr]; · iexact Hr
    iexact Hp
  hout c := by
    rw [Pipeline.ownSems0_none]
    refine (hout8 (V17 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun w => q_eq8 (V17 m) c w)
      (V17 m c) (V18 m c) ((pdats m 8 c).arrAt · cfg8.N) (hF8 m c) (hrest8 m c)
    rw [Pipeline.unscopedBufs_held] at hjoin
    have eN : (pdats m 8 c).owed (Fin.last (Pipeline.pin (pcfgs (F := F)) adm 8).N) = 0 := owed_eq8 (V17 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg9.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 9 (custom_call 9) over the thread state: entered from every unscoped buffer at W19, left at W20.
    Its arrays are split out of the unscoped buffers and put back at the exit contents; the generator register goes
    into the class invariant and comes out (the region's own invariant is entered from it and gives it back);
    nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m) c).loose
  hwaits := Pipeline.hwaits_of_owed_zero _ _ _ _ L lv 9 fun c t => owed_eq9 (V19 m) c t
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (V19 m c)
  hentry c := by
    rw [Pipeline.ownSems0_none]
    have hsplit := Pipeline.arrays_of_unscopedBufs (p := 9) (pcfgs (F := F)) adm (pdats m) launch9.win launch9.arr_whole c
      ((pdats m 9 c).share_full fun w => q_eq9 (V19 m) c w) (V19 m c) fun w => A_eq9 (V19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 9 c).owed 0 = 0 := owed_eq9 (V19 m) c 0
      have er : (pdats m 9 c).recorded 0 = Set.univ := recorded_eq9 (V19 m) c 0
      unfold Pipeline.Dat.owesAt Pipeline.owesWithin
      rw [e0]
      icases HO with ⟨%W, HO⟩; iexists W; isplitr
      · ipureintro; intro x _
        have hx : x ∈ (pdats m 9 c).recorded 0 := by rw [er]; exact Set.mem_univ x
        exact Or.inl hx
      iexact HO
    isplitl [Hp]; · iexact Hp
    iexact Hrest
  hin c := by
    refine .trans ?_ (hin9 (V19 m) c)
    unfold Pipeline.ΦA
    iintro ⟨Hp, -, Hr⟩
    isplitl [Hr]; · iexact Hr
    iexact Hp
  hout c := by
    rw [Pipeline.ownSems0_none]
    refine (hout9 (V19 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun w => q_eq9 (V19 m) c w)
      (V19 m c) (V20 m c) ((pdats m 9 c).arrAt · cfg9.N) (hF9 m c) (hrest9 m c)
    rw [Pipeline.unscopedBufs_held] at hjoin
    have eN : (pdats m 9 c).owed (Fin.last (Pipeline.pin (pcfgs (F := F)) adm 9).N) = 0 := owed_eq9 (V19 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg10.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 10 (custom_call 10) over the thread state: entered from every unscoped buffer at W21, left at W22.
    Its arrays are split out of the unscoped buffers and put back at the exit contents; the generator register goes
    into the class invariant and comes out (the region's own invariant is entered from it and gives it back);
    nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m) c).loose
  hwaits := Pipeline.hwaits_of_owed_zero _ _ _ _ L lv 10 fun c t => owed_eq10 (V21 m) c t
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (V21 m c)
  hentry c := by
    rw [Pipeline.ownSems0_none]
    have hsplit := Pipeline.arrays_of_unscopedBufs (p := 10) (pcfgs (F := F)) adm (pdats m) launch10.win launch10.arr_whole c
      ((pdats m 10 c).share_full fun w => q_eq10 (V21 m) c w) (V21 m c) fun w => A_eq10 (V21 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 10 c).owed 0 = 0 := owed_eq10 (V21 m) c 0
      have er : (pdats m 10 c).recorded 0 = Set.univ := recorded_eq10 (V21 m) c 0
      unfold Pipeline.Dat.owesAt Pipeline.owesWithin
      rw [e0]
      icases HO with ⟨%W, HO⟩; iexists W; isplitr
      · ipureintro; intro x _
        have hx : x ∈ (pdats m 10 c).recorded 0 := by rw [er]; exact Set.mem_univ x
        exact Or.inl hx
      iexact HO
    isplitl [Hp]; · iexact Hp
    iexact Hrest
  hin c := by
    refine .trans ?_ (hin10 (V21 m) c)
    unfold Pipeline.ΦA
    iintro ⟨Hp, -, Hr⟩
    isplitl [Hr]; · iexact Hr
    iexact Hp
  hout c := by
    rw [Pipeline.ownSems0_none]
    refine (hout10 (V21 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun w => q_eq10 (V21 m) c w)
      (V21 m c) (V22 m c) ((pdats m 10 c).arrAt · cfg10.N) (hF10 m c) (hrest10 m c)
    rw [Pipeline.unscopedBufs_held] at hjoin
    have eN : (pdats m 10 c).owed (Fin.last (Pipeline.pin (pcfgs (F := F)) adm 10).N) = 0 := owed_eq10 (V21 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg11.lean ====
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 11 (custom_call 11) over the thread state: entered from every unscoped buffer at W23, left at W24.
    Its arrays are split out of the unscoped buffers and put back at the exit contents; the generator register goes
    into the class invariant and comes out (the region's own invariant is entered from it and gives it back);
    nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m) c).loose
  hwaits := Pipeline.hwaits_of_owed_zero _ _ _ _ L lv 11 fun c t => owed_eq11 (V23 m) c t
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec11 c (V23 m c)
  hentry c := by
    rw [Pipeline.ownSems0_none]
    have hsplit := Pipeline.arrays_of_unscopedBufs (p := 11) (pcfgs (F := F)) adm (pdats m) launch11.win launch11.arr_whole c
      ((pdats m 11 c).share_full fun w => q_eq11 (V23 m) c w) (V23 m c) fun w => A_eq11 (V23 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 11 c).owed 0 = 0 := owed_eq11 (V23 m) c 0
      have er : (pdats m 11 c).recorded 0 = Set.univ := recorded_eq11 (V23 m) c 0
      unfold Pipeline.Dat.owesAt Pipeline.owesWithin
      rw [e0]
      icases HO with ⟨%W, HO⟩; iexists W; isplitr
      · ipureintro; intro x _
        have hx : x ∈ (pdats m 11 c).recorded 0 := by rw [er]; exact Set.mem_univ x
        exact Or.inl hx
      iexact HO
    isplitl [Hp]; · iexact Hp
    iexact Hrest
  hin c := by
    refine .trans ?_ (hin11 (V23 m) c)
    unfold Pipeline.ΦA
    iintro ⟨Hp, -, Hr⟩
    isplitl [Hr]; · iexact Hr
    iexact Hp
  hout c := by
    rw [Pipeline.ownSems0_none]
    refine (hout11 (V23 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun w => q_eq11 (V23 m) c w)
      (V23 m c) (V24 m c) ((pdats m 11 c).arrAt · cfg11.N) (hF11 m c) (hrest11 m c)
    rw [Pipeline.unscopedBufs_held] at hjoin
    have eN : (pdats m 11 c).owed (Fin.last (Pipeline.pin (pcfgs (F := F)) adm 11).N) = 0 := owed_eq11 (V23 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.Kernel.Hand

end
-- ==== Proof.K.Seg12.lean ====
-- Region 12 of @main, the last segment of the run: entered holding every unscoped buffer at the contents after host stretch 12, left at the final contents beside the core owing nothing.
import proofs.«148047_j37898791420018_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 12 (custom_call 12) over the thread state: entered from every unscoped buffer at W25, left at W26.
    Its arrays are split out of the unscoped buffers and put back at the exit contents; the generator register goes
    into the class invariant and comes out (the region's own invariant is entered from it and gives it back);
    nothing is owed; the kernel has no semaphore of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m) c).loose
  hwaits := Pipeline.hwaits_of_owed_zero _ _ _ _ L lv 12 fun c t => owed_eq12 (V25 m) c t
  pre c := iprop(StableHlo.held (c : Thread nD τ) (Pipeline.ucRefs τ sig) (W25 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec12 c (V25 m c)
  hentry c := by
    rw [Pipeline.ownSems0_none]
    have hsplit := Pipeline.arrays_of_unscopedBufs (p := 12) (pcfgs (F := F)) adm (pdats m) launch12.win launch12.arr_whole c
      ((pdats m 12 c).share_full fun w => q_eq12 (V25 m) c w) (V25 m c) fun w => A_eq12 (V25 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 12 c).owed 0 = 0 := owed_eq12 (V25 m) c 0
      have er : (pdats m 12 c).recorded 0 = Set.univ := recorded_eq12 (V25 m) c 0
      unfold Pipeline.Dat.owesAt Pipeline.owesWithin
      rw [e0]
      icases HO with ⟨%W, HO⟩; iexists W; isplitr
      · ipureintro; intro x _
        have hx : x ∈ (pdats m 12 c).recorded 0 := by rw [er]; exact Set.mem_univ x
        exact Or.inl hx
      iexact HO
    isplitl [Hp]; · iexact Hp
    iexact Hrest
  hin c := by
    refine .trans ?_ (hin12 (V25 m) c)
    unfold Pipeline.ΦA
    iintro ⟨Hp, -, Hr⟩
    isplitl [Hr]; · iexact Hr
    iexact Hp
  hout c := by
    rw [Pipeline.ownSems0_none]
    refine (hout12 (V25 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun w => q_eq12 (V25 m) c w)
      (V25 m c) (V26 m c) ((pdats m 12 c).arrAt · cfg12.N) (hF12 m c) (hrest12 m c)
    rw [Pipeline.unscopedBufs_held] at hjoin
    have eN : (pdats m 12 c).owed (Fin.last (Pipeline.pin (pcfgs (F := F)) adm 12).N) = 0 := owed_eq12 (V25 m) c (Fin.last _)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [eN]
    icases HO with ⟨%W, -, HO⟩; iexists W; iexact HO

end Cert.Kernel.Hand

end
-- ==== Proof.K.Run.lean ====
-- The launch of @main over its 26 segments: every weakly fair execution terminates and every final memory holds each unscoped buffer at the last boundary's contents; the arguments end as launched.
import proofs.«148047_j37898791420018_1_alg».proof.Proof.K.Seg0
import proofs.«148047_j37898791420018_1_alg».proof.Proof.K.Seg1
import proofs.«148047_j37898791420018_1_alg».proof.Proof.K.Seg2
import proofs.«148047_j37898791420018_1_alg».proof.Proof.K.Seg3
import proofs.«148047_j37898791420018_1_alg».proof.Proof.K.Seg4
import proofs.«148047_j37898791420018_1_alg».proof.Proof.K.Seg5
import proofs.«148047_j37898791420018_1_alg».proof.Proof.K.Seg6
import proofs.«148047_j37898791420018_1_alg».proof.Proof.K.Seg7
import proofs.«148047_j37898791420018_1_alg».proof.Proof.K.Seg8
import proofs.«148047_j37898791420018_1_alg».proof.Proof.K.Seg9
import proofs.«148047_j37898791420018_1_alg».proof.Proof.K.Seg10
import proofs.«148047_j37898791420018_1_alg».proof.Proof.K.Seg11
import proofs.«148047_j37898791420018_1_alg».proof.Proof.K.Seg12

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! # @main as segments, and the launch -/

/-- @main's 26 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m),
    .host (hseg hostOps10 hostOps10_sub hostOps10_fresh (W20 m)),
    .region (reg10 m),
    .host (hseg hostOps11 hostOps11_sub hostOps11_fresh (W22 m)),
    .region (reg11 m),
    .host (hseg hostOps12 hostOps12_sub hostOps12_fresh (W24 m)),
    .region (reg12 m) ]

/-- The segments' fragments of @main are the items of its chain. -/
theorem segs_prog : (segs m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10,
      Prog.lift (.customCall (Pipeline.entry 10) ()),
      StableHlo.seq hostOps11,
      Prog.lift (.customCall (Pipeline.entry 11) ()),
      StableHlo.seq hostOps12,
      Prog.lift (.customCall (Pipeline.entry 12) ()) ] := rfl

/-- @main IS the run of the segments: the chain of its items is the chain of the segments' fragments. -/
theorem main_run (c : Dev nD) : main (F := F) c = Pipeline.Seg.run (segs m) := by
  rw [main_chain c, Pipeline.Seg.run_eq_chain, segs_prog]

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final state holds each unscoped buffer at the last boundary's contents W26: the launch
    over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m c b)
    (hfin := fun c s' => by
      iintro ⟨⟨Hh, -⟩, HSI⟩
      unfold StableHlo.held
      imodintro
      iapply (pointsTo_read_all (Pipeline.ucRefs τ sig) (fun b => (((c : Thread nD τ)).1, b)) (W26 m c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (W26_main_arg0 m c),
    (h c _ (mem_uc main_arg1 (by decide))).trans (W26_main_arg1 m c),
    (h c _ (mem_uc main_arg2 (by decide))).trans (W26_main_arg2 m c),
    (h c _ (mem_uc main_arg3 (by decide))).trans (W26_main_arg3 m c),
    (h c _ (mem_uc main_arg4 (by decide))).trans (W26_main_arg4 m c),
    (h c _ (mem_uc main_arg5 (by decide))).trans (W26_main_arg5 m c),
    (h c _ (mem_uc main_arg6 (by decide))).trans (W26_main_arg6 m c),
    (h c _ (mem_uc main_arg7 (by decide))).trans (W26_main_arg7 m c),
    (h c _ (mem_uc main_arg8 (by decide))).trans (W26_main_arg8 m c),
    (h c _ (mem_uc main_arg9 (by decide))).trans (W26_main_arg9 m c),
    (h c _ (mem_uc main_arg10 (by decide))).trans (W26_main_arg10 m c),
    (h c _ (mem_uc main_arg11 (by decide))).trans (W26_main_arg11 m c),
    (h c _ (mem_uc main_arg12 (by decide))).trans (W26_main_arg12 m c),
    (h c _ (mem_uc main_arg13 (by decide))).trans (W26_main_arg13 m c)⟩) (run_all m ρ)

/-- The same run, naming the result buffer's final contents beside the arguments'. -/
theorem run_result : θ_run defs (onTc (τ := τ) (main (F := F))) ⟨m, fun _ => 0, ρ⟩ (fun r => ∀ c : Dev nD,
      r.2.mem ((c.tc : Thread nD τ).loc main_v215) = W26 m c (Proc.devRef .tc main_v215)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c _ (mem_uc main_v215 (by decide)),
    (h c _ (mem_uc main_arg0 (by decide))).trans (W26_main_arg0 m c),
    (h c _ (mem_uc main_arg1 (by decide))).trans (W26_main_arg1 m c),
    (h c _ (mem_uc main_arg2 (by decide))).trans (W26_main_arg2 m c),
    (h c _ (mem_uc main_arg3 (by decide))).trans (W26_main_arg3 m c),
    (h c _ (mem_uc main_arg4 (by decide))).trans (W26_main_arg4 m c),
    (h c _ (mem_uc main_arg5 (by decide))).trans (W26_main_arg5 m c),
    (h c _ (mem_uc main_arg6 (by decide))).trans (W26_main_arg6 m c),
    (h c _ (mem_uc main_arg7 (by decide))).trans (W26_main_arg7 m c),
    (h c _ (mem_uc main_arg8 (by decide))).trans (W26_main_arg8 m c),
    (h c _ (mem_uc main_arg9 (by decide))).trans (W26_main_arg9 m c),
    (h c _ (mem_uc main_arg10 (by decide))).trans (W26_main_arg10 m c),
    (h c _ (mem_uc main_arg11 (by decide))).trans (W26_main_arg11 m c),
    (h c _ (mem_uc main_arg12 (by decide))).trans (W26_main_arg12 m c),
    (h c _ (mem_uc main_arg13 (by decide))).trans (W26_main_arg13 m c)⟩) (run_all m ρ)

end Cert.Kernel.Hand

end
-- ==== Proof.KI.R0.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the branch condition, the staging memrefs, the scratch -/

/-- The condition of the body's one conditional (the grid coordinate is zero), from the grid coordinates. -/
abbrev cond0 (i : grid0.Coords) : Prop :=
  (Scalar.cmpi .ne (Scalar.extui (Scalar.cmpi .eq (BitVec.ofNat 32 (i 0).val) 0#32)) 0#32) = 1#1

/-- It holds at the first point only: decided over the grid. -/
theorem hcond0 : ∀ t : Fin cfg0.N, cond0 (grid0.coords t) ↔ t.val = 0 :=
  (by decide +kernel : ∀ t : Fin grid0.N, cond0 (grid0.coords t) ↔ t.val = 0)

/-- No window of region 0 is ever idle. -/
theorem live0 (w : Fin cfg0.W) (i : grid0.Coords) : cfg0.idle w i = false := rfl

/-- Each window's current staging memref at point `t`, as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256 .f32 := win0_3.stage (cfg0.slots t 3)
abbrev hs0_3 (t : Fin cfg0.N) : (ms0_3 t).IsWhole := hstage0_3 ((cfg0.slots t 3).cast nbuf0_3)
/-- The scratch operand: a whole scoped buffer of the kernel's own, passed beside the windows. -/
abbrev scM0 : Memref sig .tc .vmem S2x256 .f32 := Memref.whole cc0_scratch0
/-- The scratch as a view: what it holds is stated through it. -/
abbrev VS0 : View sig .tc .vmem S2x256 .f32 := scM0.view
/-- One staging buffer of each output window, through which its contents are stated. -/
abbrev VO0_2 : View sig .tc .vmem S2000x256 .f32 := (Memref.whole cc0_stg2_0 : Memref sig .tc .vmem S2000x256 .f32).view
abbrev VO0_3 : View sig .tc .vmem S2x256 .f32 := (Memref.whole cc0_stg3_0 : Memref sig .tc .vmem S2x256 .f32).view

/-- The class invariant with the scratch as a memref owned at some contents, beside the rest of the scoped
    buffers and the generator register. -/
theorem PhiA0_eq (c : Dev nD) :
    (Pipeline.ΦA spec0 c : sProp 𝕄)
      = iprop(iprop(iprop((∃ d, owns (c : Thread nD τ) scM0 fullShare d)) ∗ Pipeline.scopedRestBut spec0 c [cc0_scratch0]) ∗ (∃ r, prngReg c r)) := by
  unfold Pipeline.ΦA; rw [scopedRest0_split]; simp only [scM0, owns_whole]; try rfl

set_option maxHeartbeats 1000000 in
/-- The body at the first point (the conditional taken): on whole staging memrefs, the inputs' at their contents, the
    outputs' and the scratch at anything, it runs to the continuation holding the inputs' as they were and each
    output and the scratch with its pieces written. The pieces are the witness the run finds. -/
noncomputable def kernelRun0_A (c : Dev nD) (i : grid0.Coords)
    (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_stats_kernel i arg1 harg1 arg2 harg2 arg3 harg3 arg4 harg4 arg5 harg5) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

set_option maxHeartbeats 1000000 in
/-- The body at a later point (the conditional not taken): the same, the scratch entering at the contents `xs0`
    the point before left. -/
noncomputable def kernelRun0_B (c : Dev nD) (i : grid0.Coords)
    (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_stats_kernel i arg1 harg1 arg2 harg2 arg3 harg3 arg4 harg4 arg5 harg5) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The pieces case A leaves in the product window tile its block, so they cover it. -/
theorem cover0_A_2 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) (y : S2000x256.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S2000x256.size (by sl_kernel_rfl) y

/-- What case A leaves in the product window's staging buffer: its pieces read back over junk. -/
def out0_A_2 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) : Vec F S2000x256 .f32 :=
  VO0_2.read (Elt F) (VO0_2.writes (Elt F) VO0_2.junk (kernelRun0_A c i arg1 harg1 arg2 harg2 arg3 harg3 arg4 harg4 arg5 harg5 hc0 x0 x1).1)

/-- The pieces case A leaves in the statistics window cover it (one whole store). -/
theorem cover0_A_3 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) (y : S2x256.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S2x256.size (by sl_kernel_rfl) y

/-- What case A leaves in the statistics window's staging buffer. -/
def out0_A_3 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) : Vec F S2x256 .f32 :=
  VO0_3.read (Elt F) (VO0_3.writes (Elt F) VO0_3.junk (kernelRun0_A c i arg1 harg1 arg2 harg2 arg3 harg3 arg4 harg4 arg5 harg5 hc0 x0 x1).2.1)

/-- The pieces case A leaves in the scratch cover it: its two rows, each stored whole. -/
theorem scover0_A (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) (y : S2x256.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 ![1, 256] (by sl_kernel_rfl) y

/-- What case A leaves in the scratch. -/
def sout0_A (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond0 i)
    (x0 : Vec F S2000x128 .f32) (x1 : Vec F S128x256 .f32) : Vec F S2x256 .f32 :=
  VS0.read (Elt F) (VS0.writes (Elt F) VS0.junk (kernelRun0_A c i arg1 harg1 arg2 harg2 arg3 harg3 arg4 harg4 arg5 harg5 hc0 x0 x1).2.2.1)

/-- The pieces case B leaves in the product window tile its block, so they cover it. -/
theorem cover0_B_2 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) (y : S2000x256.Idx) :
    ∃ pc ∈ (kernelRun0_B c i arg1 harg1 arg2 harg2 arg3 harg3 arg4 harg4 arg5 harg5 hc0 x0 x1 xs0).1, y ∈ pc.1.set :=
  View.cover_of_tiledL (kernelRun0_B c i arg1 harg1 arg2 harg2 arg3 harg3 arg4 harg4 arg5 harg5 hc0 x0 x1 xs0).1 S2000x256.size (by sl_kernel_rfl) y

/-- What case B leaves in the product window's staging buffer: its pieces read back over junk. -/
def out0_B_2 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) : Vec F S2000x256 .f32 :=
  VO0_2.read (Elt F) (VO0_2.writes (Elt F) VO0_2.junk (kernelRun0_B c i arg1 harg1 arg2 harg2 arg3 harg3 arg4 harg4 arg5 harg5 hc0 x0 x1 xs0).1)

/-- The pieces case B leaves in the statistics window cover it (one whole store). -/
theorem cover0_B_3 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) (y : S2x256.Idx) :
    ∃ pc ∈ (kernelRun0_B c i arg1 harg1 arg2 harg2 arg3 harg3 arg4 harg4 arg5 harg5 hc0 x0 x1 xs0).2.1, y ∈ pc.1.set :=
  View.cover_of_tiledL (kernelRun0_B c i arg1 harg1 arg2 harg2 arg3 harg3 arg4 harg4 arg5 harg5 hc0 x0 x1 xs0).2.1 S2x256.size (by sl_kernel_rfl) y

/-- What case B leaves in the statistics window's staging buffer. -/
def out0_B_3 (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) : Vec F S2x256 .f32 :=
  VO0_3.read (Elt F) (VO0_3.writes (Elt F) VO0_3.junk (kernelRun0_B c i arg1 harg1 arg2 harg2 arg3 harg3 arg4 harg4 arg5 harg5 hc0 x0 x1 xs0).2.1)

/-- The pieces case B leaves in the scratch cover it: its two rows, each stored whole. -/
theorem scover0_B (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) (y : S2x256.Idx) :
    ∃ pc ∈ (kernelRun0_B c i arg1 harg1 arg2 harg2 arg3 harg3 arg4 harg4 arg5 harg5 hc0 x0 x1 xs0).2.2.1, y ∈ pc.1.set :=
  View.cover_of_tiledL (kernelRun0_B c i arg1 harg1 arg2 harg2 arg3 harg3 arg4 harg4 arg5 harg5 hc0 x0 x1 xs0).2.2.1 ![1, 256] (by sl_kernel_rfl) y

/-- What case B leaves in the scratch. -/
def sout0_B (c : Dev nD) (i : grid0.Coords) (arg1 : Memref sig .tc .vmem S2000x128 .f32) (harg1 : arg1.IsWhole) (arg2 : Memref sig .tc .vmem S128x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond0 i)
    (x0 : Vec F S2000x128 .f32) (x1 : Vec F S128x256 .f32) (xs0 : Vec F S2x256 .f32) : Vec F S2x256 .f32 :=
  VS0.read (Elt F) (VS0.writes (Elt F) VS0.junk (kernelRun0_B c i arg1 harg1 arg2 harg2 arg3 harg3 arg4 harg4 arg5 harg5 hc0 x0 x1 xs0).2.2.1)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the scratch hold after each point -/

/-- THE ACCUMULATION. What the two outputs' staging buffers and the scratch hold after the body at position `n` (the
    product window, the statistics window, the scratch): at the first point the first case run at the point's memrefs
    and input blocks; at a later point the second case, the scratch entering at what the point before left. -/
def outsAt0 (c : Dev nD) : (n : ℕ) → n < cfg0.N → Vec F S2000x256 .f32 × Vec F S2x256 .f32 × Vec F S2x256 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩))
  | n + 1, hn =>
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (outsAt0 c n (Nat.lt_of_succ_lt hn)).2.2,
     out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (outsAt0 c n (Nat.lt_of_succ_lt hn)).2.2,
     sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (outsAt0 c n (Nat.lt_of_succ_lt hn)).2.2)

/-- `outsAt0` at the first point. -/
theorem outsAt0_A (c : Dev nD) (t : Fin cfg0.N) (h0 : t.val = 0) :
    outsAt0 V c t.val t.isLt =
      (out0_A_2 c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t),
       out0_A_3 c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t),
       sout0_A c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t)) := by
  obtain ⟨n, hn⟩ := t
  cases n with
  | zero => exact rfl
  | succ n => exact absurd h0 (Nat.succ_ne_zero n)

/-- `outsAt0` at a later point: over what the point before left in the scratch. -/
theorem outsAt0_B (c : Dev nD) (t : Fin cfg0.N) (h0 : ¬t.val = 0) :
    outsAt0 V c t.val t.isLt =
      (out0_B_2 c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2,
       sout0_B c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact absurd rfl h0
  | succ n => exact rfl

/-- The region invariant before position `n`: before the first point the class's; afterwards the scratch owned whole at
    what the point before left in it, beside the other scoped buffers and the generator register, both untouched. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ Pipeline.scopedRestBut spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2.2) ∗ Pipeline.scopedRestBut spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ Pipeline.scopedRestBut spec0 c [cc0_scratch0]) ∗ (∃ r, prngReg c r)) := by
  cases n with
  | zero => exact absurd rfl hz
  | succ n => rfl

/-! ## The pipeline's proof data -/

/-- Region 0's proof data from the contents `V` the region is entered at. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed form says which case the point is in, so that
    case's run applies; the invariant hands the body the scratch (at anything at the first point, at what the point before
    left afterwards) and takes it back at this point's contents; the other scoped buffers, the generator register and the
    core's tallies ride through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [show (dat0 V c).leavesExact 2 t = owns (c : Thread nD τ) (ms0_2 t) fullShare ((dat0 V c).after 2 t) from rfl, after0_2]
  rw [show (dat0 V c).leavesExact 3 t = owns (c : Thread nD τ) (ms0_3 t) fullShare ((dat0 V c).after 3 t) from rfl, after0_3]
  by_cases h0 : t.val = 0
  · rw [outsAt0_A V c t h0]
    unfold out0_A_2 out0_A_3 sout0_A; (try dsimp only)
    rw [PhiS0_castSucc V c t, PhiS0_zero V c _ _ h0, PhiA0_eq]
    iintro ⟨⟨⟨HS0, Hr⟩, Hg⟩, Ho, ⟨%d0, H0⟩, ⟨%d1, H1⟩, ⟨%d2, H2⟩, ⟨%d3, H3⟩⟩
    iapply ((kernelRun0_A c (grid0.coords t) _ _ _ _ _ _ _ _ _ _ ((hcond0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A c _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    unfold owns; iexists _; isplitr
    swap; · iexact H3
    ipureintro; exact View.read_writes_of_cover _ _ _ _ _ (cover0_A_3 c _ _ _ _ _ _ _ _ _ _ _ _ _ _)
  · rw [outsAt0_B V c t h0]
    unfold out0_B_2 out0_B_3 sout0_B; (try dsimp only)
    rw [PhiS0_castSucc V c t, PhiS0_pos V c _ _ h0]
    iintro ⟨⟨⟨HS0, Hr⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0 t).mp h)) (iblk0 V c 0 t) (iblk0 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 25 := N_0; omega)

/-- The bound on the recorded pairs is left at everything. -/
theorem recorded_eq0 (c : Dev nD) (t : Fin (cfg0.N + 1)) : (dat0 V c).recorded t = Set.univ := rfl

end Cert.KernelIdeal.Hand

end
-- ==== Proof.KI.R1.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: the blocks, the branch, the memrefs -/

/-- Window `w`'s block at point `t`, read off its array as the region is entered (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's one branch: "this is the first row block" (the grid coordinate is zero). -/
abbrev cond1_0 (i : grid1.Coords) : Prop := (Scalar.cmpi .ne (Scalar.extui (Scalar.cmpi .eq (BitVec.ofNat 32 (i 0).val) 0#32)) 0#32) = 1#1
/-- It holds at the first point only — decided over the 25 points. -/
theorem hcond1_0 : ∀ t : Fin cfg1.N, cond1_0 (grid1.coords t) ↔ t.val % 25 = 0 :=
  (by decide +kernel : ∀ t : Fin grid1.N, cond1_0 (grid1.coords t) ↔ t.val % 25 = 0)

/-- Each window's current staging memref at point `t`, and its wholeness. -/
abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x256 .f32 := win1_7.stage (cfg1.slots t 7)
abbrev hs1_7 (t : Fin cfg1.N) : (ms1_7 t).IsWhole := hstage1_7 ((cfg1.slots t 7).cast nbuf1_7)
/-- The accumulator of the column sums: a whole scoped buffer of the kernel's own, carried from point to point. -/
abbrev scM1_0 : Memref sig .tc .vmem S2x256 .f32 := Memref.whole cc1_scratch0
/-- The views through which the outputs' and the accumulator's contents are stated. -/
abbrev VS1_0 : View sig .tc .vmem S2x256 .f32 := scM1_0.view
abbrev VO1_6 : View sig .tc .vmem S2000x256 .f32 := (Memref.whole cc1_stg6_0 : Memref sig .tc .vmem S2000x256 .f32).view
abbrev VO1_7 : View sig .tc .vmem S2x256 .f32 := (Memref.whole cc1_stg7_0 : Memref sig .tc .vmem S2x256 .f32).view

/-- Every other scoped buffer of the core (the other regions' staging buffers and accumulators), at some contents
    each: it rides through the region untouched. -/
abbrev rest1 (c : Dev nD) : sProp 𝕄 :=
  Pipeline.scopedRestBut (Ix := Unit) (Name := ℕ) (U := UR sig nD τ) (Lvl := ℕ) (Val := Elt F) spec1 c [cc1_scratch0]

/-- What the region is entered with and gives back: the accumulator owned whole at some contents, the other
    scoped buffers, the generator register. -/
theorem PhiA1_eq (c : Dev nD) :
    (Pipeline.ΦA spec1 c : sProp 𝕄)
      = iprop(iprop(iprop(∃ d, owns (c : Thread nD τ) scM1_0 fullShare d) ∗ rest1 (F := F) c) ∗ (∃ r, prngReg c r)) := by
  unfold Pipeline.ΦA; rw [scopedRest1_split]; simp only [scM1_0, owns_whole]; try rfl

/-! ## The body's run, one per control case -/

set_option maxHeartbeats 4000000 in
/-- THE FIRST ROW BLOCK (the branch taken). On whole memrefs — the six inputs' at their contents, the two outputs'
    and the accumulator at anything — the body runs to the continuation holding the inputs' as they were and each of
    the two outputs and the accumulator with its stores written, as pieces (last store first): the accumulator is
    zeroed, then its two rows are added to; the product block is stored whole; the statistics window receives a copy
    of the accumulator. The pieces are the witness the run finds. -/
noncomputable def kernelRun1_A (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__affine_matmul_stats_kernel_eq_skeleton]; unfold cc1__affine_matmul_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

set_option maxHeartbeats 4000000 in
/-- A LATER ROW BLOCK (the branch not taken): as the first, but the accumulator is entered at the contents `xs0`
    the row block before left and is only added to. -/
noncomputable def kernelRun1_B (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__affine_matmul_stats_kernel_eq_skeleton]; unfold cc1__affine_matmul_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the covers, and the pieces read back -/

/-- The first row block's one store into the product window is of its whole block. -/
theorem cover1_A_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) (y : S2000x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).1 S2000x256.size (by sl_kernel_rfl) y
/-- What the first row block leaves in the product window's staging buffer: its pieces read back. -/
def out1_A_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) : Vec F S2000x256 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 x0 x1 x2 x3 x4 x5).1)
/-- Its one store into the statistics window is of the whole window. -/
theorem cover1_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) (y : S2x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).2.1 S2x256.size (by sl_kernel_rfl) y
def out1_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) : Vec F S2x256 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 x0 x1 x2 x3 x4 x5).2.1)
/-- Its stores into the accumulator cover it (the zeroing store alone does). -/
theorem scover1_A_0 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) (y : S2x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).2.2.1 S2x256.size (by sl_kernel_rfl) y
/-- What the first row block leaves in the accumulator. -/
def sout1_A_0 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) : Vec F S2x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 x0 x1 x2 x3 x4 x5).2.2.1)

/-- A later row block: the same three, the accumulator entered at `xs0`. -/
theorem cover1_B_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) (y : S2000x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).1 S2000x256.size (by sl_kernel_rfl) y
def out1_B_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) : Vec F S2000x256 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 x0 x1 x2 x3 x4 x5 xs0).1)
theorem cover1_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) (y : S2x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).2.1 S2x256.size (by sl_kernel_rfl) y
def out1_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) : Vec F S2x256 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 x0 x1 x2 x3 x4 x5 xs0).2.1)
/-- The two row stores tile the accumulator. -/
theorem scover1_B_0 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) (y : S2x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).2.2.1 S1x256.size (by sl_kernel_rfl) y
def sout1_B_0 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) : Vec F S2x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 x0 x1 x2 x3 x4 x5 xs0).2.2.1)

/-! ## What the outputs and the accumulator hold after each row block -/

/-- THE ACCUMULATION. After the body at row block `n`: the product window's staging buffer, the statistics window's,
    and the accumulator — the first row block from nothing, each later one over the accumulator the one before left. -/
def outsAt1 (c : Dev nD) : (n : ℕ) → n < cfg1.N → Vec F S2000x256 .f32 × Vec F S2x256 .f32 × Vec F S2x256 .f32
  | 0, hn =>
    (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
     out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    have hc : ¬cond1_0 (grid1.coords ⟨n + 1, hn⟩) := fun h => by
      have h1 := (hcond1_0 ⟨n + 1, hn⟩).mp h
      have hN : n + 1 < 25 := lt_of_lt_of_eq hn (show cfg1.N = 25 from N_1)
      (try dsimp only at h1); omega
    (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) hc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
     out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) hc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
     sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) hc (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

/-- `outsAt1` at the first row block. -/
theorem outsAt1_A (c : Dev nD) (t : Fin cfg1.N) (h0 : t.val % 25 = 0) :
    outsAt1 V c t.val t.isLt =
      (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t),
       out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t),
       sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n =>
    exfalso
    have hN : n + 1 < 25 := lt_of_lt_of_eq hn (show cfg1.N = 25 from N_1)
    (try dsimp only at h0); omega

/-- `outsAt1` at a later row block: over what the row block before left in the accumulator. -/
theorem outsAt1_B (c : Dev nD) (t : Fin cfg1.N) (h0 : ¬t.val % 25 = 0) :
    outsAt1 V c t.val t.isLt =
      (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact rfl

/-- The region's invariant before row block `n`: at the start what the region is entered with; afterwards the
    accumulator at what the row block before left in it, the other scoped buffers and the generator register as
    they were. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ rest1 (F := F) c) ∗ (∃ r, prngReg c r)) := by
  cases n with
  | zero => exact absurd rfl hz
  | succ n => rfl

/-! ## The proof data -/

/-- Region 1's proof data from the contents `V` the region is entered at. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

/-- Each input's current staging buffer holds its block at every row block, fetched there or not (the five
    parameter windows and the weights are fetched once: their block index never moves). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The body obligation, at a generic row block -/

/-- What the body is called with at row block `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any row block: the inputs' memrefs hold their blocks; the first row block is the branch taken, every
    later one the branch not taken, entered with the accumulator at what the row block before left; the invariant
    takes the accumulator back at this row block's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [show (dat1 V c).leavesExact 5 t = owns (c : Thread nD τ) (ms1_5 t) fullShare ((dat1 V c).after 5 t) from rfl, after1_5]
  rw [show (dat1 V c).leavesExact 6 t = owns (c : Thread nD τ) (ms1_6 t) fullShare ((dat1 V c).after 6 t) from rfl, after1_6]
  rw [show (dat1 V c).leavesExact 7 t = owns (c : Thread nD τ) (ms1_7 t) fullShare ((dat1 V c).after 7 t) from rfl, after1_7]
  by_cases h0 : t.val % 25 = 0
  ·
    rw [outsAt1_A V c t h0]
    unfold out1_A_6 out1_A_7 sout1_A_0; (try dsimp only)
    have hz : t.val = 0 := by omega
    rw [PhiS1_castSucc V c t, PhiS1_zero V c _ _ hz, PhiA1_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 _ _ _ _ _ _ _ _ _ _ _ _ _ _ _ _ _ _ _ _ _ _ _ _ _ _ _)
    unfold owns; iexists _; isplitr
    swap; · iexact H7
    ipureintro; exact View.read_writes_of_cover _ _ _ _ _ (cover1_A_7 _ _ _ _ _ _ _ _ _ _ _ _ _ _ _ _ _ _ _ _ _ _ _ _ _ _ _)
  ·
    rw [outsAt1_B V c t h0]
    unfold out1_B_6 out1_B_7 sout1_B_0; (try dsimp only)
    have hz : t.val ≠ 0 := by omega
    rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_B_0 _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 _ _ _ _ _ _ _ _ _ _ _ _ _ _ _ _ _ _ _ _ _ _ _ _ _ _ _ _)
    unfold owns; iexists _; isplitr
    swap; · iexact H7
    ipureintro; exact View.read_writes_of_cover _ _ _ _ _ (cover1_B_7 _ _ _ _ _ _ _ _ _ _ _ _ _ _ _ _ _ _ _ _ _ _ _ _ _ _ _ _)

/-- The library's body obligation, at every row block. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first row block. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any row block the invariant gives back what the region was entered with: the accumulator's named contents
    are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 25 := N_1; omega)

theorem recorded_eq1 (c : Dev nD) (t : Fin (cfg1.N + 1)) : (dat1 V c).recorded t = Set.univ := rfl

end Cert.KernelIdeal.Hand

end
-- ==== Proof.KI.R2.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: custom_call 2, `cc2__affine_relu_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched
    the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched
    the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched
    the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched
    the block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched
    the block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole (2000,256) block and the whole (1,256) row, as the rectangles the body loads and stores through. -/
abbrev r2_0 : Rect S2000x256 := Rect.unit (s := S2000x256) ![0, 0] S2000x256.size inb_S2000x256_S2000x256_0_0
abbrev r2_1 : Rect S1x256 := Rect.unit (s := S1x256) ![0, 0] S1x256.size inb_S1x256_S1x256_0_0

/-- The result window's staging buffer after the body, from the five input blocks: the one store, of the
    normalised, scaled, shifted and clamped block. -/
def out2_5 (x0 : Vec F S2000x256 .f32) (x1 x2 x3 x4 : Vec F S1x256 .f32) : Vec F S2000x256 .f32 :=
  View.canon [⟨r2_0, k2_pay1 (View.ld x0 r2_0) (View.ld x1 r2_1) (View.ld x2 r2_1) (View.ld x3 r2_1) (View.ld x4 r2_1)⟩]

/-- The one store is of the whole block, so it covers it. -/
theorem cover2_5 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

set_option maxHeartbeats 1000000 in
/-- The body on whole staging memrefs, the inputs' at contents `x0 … x4` and the result's at anything, runs to the
    continuation holding the inputs' as they were and the result's at `out2_5` of them. -/
theorem sound_kernel2 (c : Dev nD) (E : Set ℕ) (i : grid2.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__affine_relu_kernel i arg1 harg1 arg2 harg2 arg3 harg3 arg4 harg4 arg5 harg5 arg6 harg6) K := by
  simp only [cc2__affine_relu_kernel_eq_skeleton]; unfold cc2__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- Region 2's proof data from the contents `V` the region is entered at: the arrays as found; after the body at a
    point each input's buffer at its block and the result's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and what
    is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  dsimp only [dat2]; exact BIBase.Entails.rfl
theorem hout2 (c : Dev nD) : (dat2 V c).Φ (Fin.last cfg2.N) ⊢ (Pipeline.ΦA spec2 c : sProp 𝕄) := by
  dsimp only [dat2]; exact BIBase.Entails.rfl

theorem recorded_eq2 (c : Dev nD) (t : Fin (cfg2.N + 1)) : (dat2 V c).recorded t = Set.univ := rfl

end Cert.KernelIdeal.Hand

end
-- ==== Proof.KI.R3.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: the branch condition, the staging memrefs, the scratch -/

/-- The condition of the body's one conditional (the grid coordinate is zero), from the grid coordinates. -/
abbrev cond3 (i : grid3.Coords) : Prop :=
  (Scalar.cmpi .ne (Scalar.extui (Scalar.cmpi .eq (BitVec.ofNat 32 (i 0).val) 0#32)) 0#32) = 1#1

/-- It holds at the first point only: decided over the grid. -/
theorem hcond3 : ∀ t : Fin cfg3.N, cond3 (grid3.coords t) ↔ t.val = 0 :=
  (by decide +kernel : ∀ t : Fin grid3.N, cond3 (grid3.coords t) ↔ t.val = 0)

/-- No window of region 3 is ever idle. -/
theorem live3 (w : Fin cfg3.W) (i : grid3.Coords) : cfg3.idle w i = false := rfl

/-- Each window's current staging memref at point `t`, as the pipeline passes it, and its wholeness. -/
abbrev ms3_0 (t : Fin cfg3.N) : Memref sig .tc .vmem S2000x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2x256 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3 : Memref sig .tc .vmem S2x256 .f32 := Memref.whole cc3_scratch0
/-- The scratch as a view: what it holds is stated through it. -/
abbrev VS3 : View sig .tc .vmem S2x256 .f32 := scM3.view
/-- One staging buffer of each output window, through which its contents are stated. -/
abbrev VO3_2 : View sig .tc .vmem S2000x256 .f32 := (Memref.whole cc3_stg2_0 : Memref sig .tc .vmem S2000x256 .f32).view
abbrev VO3_3 : View sig .tc .vmem S2x256 .f32 := (Memref.whole cc3_stg3_0 : Memref sig .tc .vmem S2x256 .f32).view

/-- The class invariant with the scratch as a memref owned at some contents, beside the rest of the scoped
    buffers and the generator register. -/
theorem PhiA3_eq (c : Dev nD) :
    (Pipeline.ΦA spec3 c : sProp 𝕄)
      = iprop(iprop(iprop((∃ d, owns (c : Thread nD τ) scM3 fullShare d)) ∗ Pipeline.scopedRestBut spec3 c [cc3_scratch0]) ∗ (∃ r, prngReg c r)) := by
  unfold Pipeline.ΦA; rw [scopedRest3_split]; simp only [scM3, owns_whole]; try rfl

set_option maxHeartbeats 1000000 in
/-- The body at the first point (the conditional taken): on whole staging memrefs, the inputs' at their contents, the
    outputs' and the scratch at anything, it runs to the continuation holding the inputs' as they were and each
    output and the scratch with its pieces written. The pieces are the witness the run finds. -/
noncomputable def kernelRun3_A (c : Dev nD) (i : grid3.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc3__matmul_stats_kernel i arg1 harg1 arg2 harg2 arg3 harg3 arg4 harg4 arg5 harg5) K } := by
  refine ⟨?_, ?_, ?_, fun E K => ?run⟩
  case run =>
    simp only [cc3__matmul_stats_kernel_eq_skeleton]; unfold cc3__matmul_stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

set_option maxHeartbeats 1000000 in
/-- The body at a later point (the conditional not taken): the same, the scratch entering at the contents `xs0`
    the point before left. -/
noncomputable def kernelRun3_B (c : Dev nD) (i : grid3.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc3__matmul_stats_kernel i arg1 harg1 arg2 harg2 arg3 harg3 arg4 harg4 arg5 harg5) K } := by
  refine ⟨?_, ?_, ?_, fun E K => ?run⟩
  case run =>
    simp only [cc3__matmul_stats_kernel_eq_skeleton]; unfold cc3__matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The pieces case A leaves in the product window tile its block, so they cover it. -/
theorem cover3_A_2 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) (y : S2000x256.Idx) :
    ∃ pc ∈ (kernelRun3_A c i arg1 harg1 arg2 harg2 arg3 harg3 arg4 harg4 arg5 harg5 hc0 x0 x1).1, y ∈ pc.1.set :=
  View.cover_of_tiledL (kernelRun3_A c i arg1 harg1 arg2 harg2 arg3 harg3 arg4 harg4 arg5 harg5 hc0 x0 x1).1 S2000x256.size (by sl_kernel_rfl) y

/-- What case A leaves in the product window's staging buffer: its pieces read back over junk. -/
def out3_A_2 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) : Vec F S2000x256 .f32 :=
  VO3_2.read (Elt F) (VO3_2.writes (Elt F) VO3_2.junk (kernelRun3_A c i arg1 harg1 arg2 harg2 arg3 harg3 arg4 harg4 arg5 harg5 hc0 x0 x1).1)

/-- The pieces case A leaves in the statistics window cover it (one whole store). -/
theorem cover3_A_3 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) (y : S2x256.Idx) :
    ∃ pc ∈ (kernelRun3_A c i arg1 harg1 arg2 harg2 arg3 harg3 arg4 harg4 arg5 harg5 hc0 x0 x1).2.1, y ∈ pc.1.set :=
  View.cover_of_tiledL (kernelRun3_A c i arg1 harg1 arg2 harg2 arg3 harg3 arg4 harg4 arg5 harg5 hc0 x0 x1).2.1 S2x256.size (by sl_kernel_rfl) y

/-- What case A leaves in the statistics window's staging buffer. -/
def out3_A_3 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) : Vec F S2x256 .f32 :=
  VO3_3.read (Elt F) (VO3_3.writes (Elt F) VO3_3.junk (kernelRun3_A c i arg1 harg1 arg2 harg2 arg3 harg3 arg4 harg4 arg5 harg5 hc0 x0 x1).2.1)

/-- The pieces case A leaves in the scratch cover it: its two rows, each stored whole. -/
theorem scover3_A (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) (y : S2x256.Idx) :
    ∃ pc ∈ (kernelRun3_A c i arg1 harg1 arg2 harg2 arg3 harg3 arg4 harg4 arg5 harg5 hc0 x0 x1).2.2.1, y ∈ pc.1.set :=
  View.cover_of_tiledL (kernelRun3_A c i arg1 harg1 arg2 harg2 arg3 harg3 arg4 harg4 arg5 harg5 hc0 x0 x1).2.2.1 ![1, 256] (by sl_kernel_rfl) y

/-- What case A leaves in the scratch. -/
def sout3_A (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond3 i)
    (x0 : Vec F S2000x256 .f32) (x1 : Vec F S256x256 .f32) : Vec F S2x256 .f32 :=
  VS3.read (Elt F) (VS3.writes (Elt F) VS3.junk (kernelRun3_A c i arg1 harg1 arg2 harg2 arg3 harg3 arg4 harg4 arg5 harg5 hc0 x0 x1).2.2.1)

/-- The pieces case B leaves in the product window tile its block, so they cover it. -/
theorem cover3_B_2 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) (y : S2000x256.Idx) :
    ∃ pc ∈ (kernelRun3_B c i arg1 harg1 arg2 harg2 arg3 harg3 arg4 harg4 arg5 harg5 hc0 x0 x1 xs0).1, y ∈ pc.1.set :=
  View.cover_of_tiledL (kernelRun3_B c i arg1 harg1 arg2 harg2 arg3 harg3 arg4 harg4 arg5 harg5 hc0 x0 x1 xs0).1 S2000x256.size (by sl_kernel_rfl) y

/-- What case B leaves in the product window's staging buffer: its pieces read back over junk. -/
def out3_B_2 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) : Vec F S2000x256 .f32 :=
  VO3_2.read (Elt F) (VO3_2.writes (Elt F) VO3_2.junk (kernelRun3_B c i arg1 harg1 arg2 harg2 arg3 harg3 arg4 harg4 arg5 harg5 hc0 x0 x1 xs0).1)

/-- The pieces case B leaves in the statistics window cover it (one whole store). -/
theorem cover3_B_3 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) (y : S2x256.Idx) :
    ∃ pc ∈ (kernelRun3_B c i arg1 harg1 arg2 harg2 arg3 harg3 arg4 harg4 arg5 harg5 hc0 x0 x1 xs0).2.1, y ∈ pc.1.set :=
  View.cover_of_tiledL (kernelRun3_B c i arg1 harg1 arg2 harg2 arg3 harg3 arg4 harg4 arg5 harg5 hc0 x0 x1 xs0).2.1 S2x256.size (by sl_kernel_rfl) y

/-- What case B leaves in the statistics window's staging buffer. -/
def out3_B_3 (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) : Vec F S2x256 .f32 :=
  VO3_3.read (Elt F) (VO3_3.writes (Elt F) VO3_3.junk (kernelRun3_B c i arg1 harg1 arg2 harg2 arg3 harg3 arg4 harg4 arg5 harg5 hc0 x0 x1 xs0).2.1)

/-- The pieces case B leaves in the scratch cover it: its two rows, each stored whole. -/
theorem scover3_B (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) (y : S2x256.Idx) :
    ∃ pc ∈ (kernelRun3_B c i arg1 harg1 arg2 harg2 arg3 harg3 arg4 harg4 arg5 harg5 hc0 x0 x1 xs0).2.2.1, y ∈ pc.1.set :=
  View.cover_of_tiledL (kernelRun3_B c i arg1 harg1 arg2 harg2 arg3 harg3 arg4 harg4 arg5 harg5 hc0 x0 x1 xs0).2.2.1 ![1, 256] (by sl_kernel_rfl) y

/-- What case B leaves in the scratch. -/
def sout3_B (c : Dev nD) (i : grid3.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond3 i)
    (x0 : Vec F S2000x256 .f32) (x1 : Vec F S256x256 .f32) (xs0 : Vec F S2x256 .f32) : Vec F S2x256 .f32 :=
  VS3.read (Elt F) (VS3.writes (Elt F) VS3.junk (kernelRun3_B c i arg1 harg1 arg2 harg2 arg3 harg3 arg4 harg4 arg5 harg5 hc0 x0 x1 xs0).2.2.1)

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the outputs and the scratch hold after each point -/

/-- THE ACCUMULATION. What the two outputs' staging buffers and the scratch hold after the body at position `n` (the
    product window, the statistics window, the scratch): at the first point the first case run at the point's memrefs
    and input blocks; at a later point the second case, the scratch entering at what the point before left. -/
def outsAt3 (c : Dev nD) : (n : ℕ) → n < cfg3.N → Vec F S2000x256 .f32 × Vec F S2x256 .f32 × Vec F S2x256 .f32
  | 0, hn =>
    (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3 ⟨0, hn⟩).mpr rfl) (iblk3 V c 0 ⟨0, hn⟩) (iblk3 V c 1 ⟨0, hn⟩),
     out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3 ⟨0, hn⟩).mpr rfl) (iblk3 V c 0 ⟨0, hn⟩) (iblk3 V c 1 ⟨0, hn⟩),
     sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3 ⟨0, hn⟩).mpr rfl) (iblk3 V c 0 ⟨0, hn⟩) (iblk3 V c 1 ⟨0, hn⟩))
  | n + 1, hn =>
    (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => Nat.succ_ne_zero n ((hcond3 ⟨n + 1, hn⟩).mp h)) (iblk3 V c 0 ⟨n + 1, hn⟩) (iblk3 V c 1 ⟨n + 1, hn⟩) (outsAt3 c n (Nat.lt_of_succ_lt hn)).2.2,
     out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => Nat.succ_ne_zero n ((hcond3 ⟨n + 1, hn⟩).mp h)) (iblk3 V c 0 ⟨n + 1, hn⟩) (iblk3 V c 1 ⟨n + 1, hn⟩) (outsAt3 c n (Nat.lt_of_succ_lt hn)).2.2,
     sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => Nat.succ_ne_zero n ((hcond3 ⟨n + 1, hn⟩).mp h)) (iblk3 V c 0 ⟨n + 1, hn⟩) (iblk3 V c 1 ⟨n + 1, hn⟩) (outsAt3 c n (Nat.lt_of_succ_lt hn)).2.2)

/-- `outsAt3` at the first point. -/
theorem outsAt3_A (c : Dev nD) (t : Fin cfg3.N) (h0 : t.val = 0) :
    outsAt3 V c t.val t.isLt =
      (out3_A_2 c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t),
       out3_A_3 c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t),
       sout3_A c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t)) := by
  obtain ⟨n, hn⟩ := t
  cases n with
  | zero => exact rfl
  | succ n => exact absurd h0 (Nat.succ_ne_zero n)

/-- `outsAt3` at a later point: over what the point before left in the scratch. -/
theorem outsAt3_B (c : Dev nD) (t : Fin cfg3.N) (h0 : ¬t.val = 0) :
    outsAt3 V c t.val t.isLt =
      (out3_B_2 c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2,
       out3_B_3 c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2,
       sout3_B c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2) := by
  obtain ⟨n, hn⟩ := t
  cases n with
  | zero => exact absurd rfl h0
  | succ n => exact rfl

/-- The region invariant before position `n`: before the first point the class's; afterwards the scratch owned whole at
    what the point before left in it, beside the other scoped buffers and the generator register, both untouched. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2.2) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2.2) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2.2) ∗ Pipeline.scopedRestBut spec3 c [cc3_scratch0]) ∗ (∃ r, prngReg c r)) := by
  cases n with
  | zero => exact absurd rfl hz
  | succ n => rfl

/-! ## The pipeline's proof data -/

/-- Region 3's proof data from the contents `V` the region is entered at. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed form says which case the point is in, so that
    case's run applies; the invariant hands the body the scratch (at anything at the first point, at what the point before
    left afterwards) and takes it back at this point's contents; the other scoped buffers, the generator register and the
    core's tallies ride through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from rfl, after3_0]
  rw [show (dat3 V c).leavesExact 1 t = owns (c : Thread nD τ) (ms3_1 t) fullShare ((dat3 V c).after 1 t) from rfl, after3_1]
  rw [show (dat3 V c).leavesExact 2 t = owns (c : Thread nD τ) (ms3_2 t) fullShare ((dat3 V c).after 2 t) from rfl, after3_2]
  rw [show (dat3 V c).leavesExact 3 t = owns (c : Thread nD τ) (ms3_3 t) fullShare ((dat3 V c).after 3 t) from rfl, after3_3]
  by_cases h0 : t.val = 0
  · rw [outsAt3_A V c t h0]
    unfold out3_A_2 out3_A_3 sout3_A; (try dsimp only)
    rw [PhiS3_castSucc V c t, PhiS3_zero V c _ _ h0, PhiA3_eq]
    iintro ⟨⟨⟨HS0, Hr⟩, Hg⟩, Ho, ⟨%d0, H0⟩, ⟨%d1, H1⟩, ⟨%d2, H2⟩, ⟨%d3, H3⟩⟩
    iapply ((kernelRun3_A c (grid3.coords t) _ _ _ _ _ _ _ _ _ _ ((hcond3 t).mpr h0) (iblk3 V c 0 t) (iblk3 V c 1 t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A c _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover3_A_2 c _ _ _ _ _ _ _ _ _ _ _ _ _ _)
    unfold owns; iexists _; isplitr
    swap; · iexact H3
    ipureintro; exact View.read_writes_of_cover _ _ _ _ _ (cover3_A_3 c _ _ _ _ _ _ _ _ _ _ _ _ _ _)
  · rw [outsAt3_B V c t h0]
    unfold out3_B_2 out3_B_3 sout3_B; (try dsimp only)
    rw [PhiS3_castSucc V c t, PhiS3_pos V c _ _ h0]
    iintro ⟨⟨⟨HS0, Hr⟩, Hg⟩, Ho, ⟨%d0, H0⟩, ⟨%d1, H1⟩, ⟨%d2, H2⟩, ⟨%d3, H3⟩⟩
    iapply ((kernelRun3_B c (grid3.coords t) _ _ _ _ _ _ _ _ _ _ (fun h => h0 ((hcond3 t).mp h)) (iblk3 V c 0 t) (iblk3 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_B c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover3_B_2 c _ _ _ _ _ _ _ _ _ _ _ _ _ _ _)
    unfold owns; iexists _; isplitr
    swap; · iexact H3
    ipureintro; exact View.read_writes_of_cover _ _ _ _ _ (cover3_B_3 c _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 25 := N_3; omega)

/-- The bound on the recorded pairs is left at everything. -/
theorem recorded_eq3 (c : Dev nD) (t : Fin (cfg3.N + 1)) : (dat3 V c).recorded t = Set.univ := rfl

end Cert.KernelIdeal.Hand

end
-- ==== Proof.KI.R4.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 4: the blocks, the branch, the memrefs -/

/-- Window `w`'s block at point `t`, read off its array as the region is entered (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The body's one branch: "this is the first row block" (the grid coordinate is zero). -/
abbrev cond4_0 (i : grid4.Coords) : Prop := (Scalar.cmpi .ne (Scalar.extui (Scalar.cmpi .eq (BitVec.ofNat 32 (i 0).val) 0#32)) 0#32) = 1#1
/-- It holds at the first point only — decided over the 25 points. -/
theorem hcond4_0 : ∀ t : Fin cfg4.N, cond4_0 (grid4.coords t) ↔ t.val % 25 = 0 :=
  (by decide +kernel : ∀ t : Fin grid4.N, cond4_0 (grid4.coords t) ↔ t.val % 25 = 0)

/-- Each window's current staging memref at point `t`, and its wholeness. -/
abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S256x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S2x256 .f32 := win4_7.stage (cfg4.slots t 7)
abbrev hs4_7 (t : Fin cfg4.N) : (ms4_7 t).IsWhole := hstage4_7 ((cfg4.slots t 7).cast nbuf4_7)
/-- The accumulator of the column sums: a whole scoped buffer of the kernel's own, carried from point to point. -/
abbrev scM4_0 : Memref sig .tc .vmem S2x256 .f32 := Memref.whole cc4_scratch0
/-- The views through which the outputs' and the accumulator's contents are stated. -/
abbrev VS4_0 : View sig .tc .vmem S2x256 .f32 := scM4_0.view
abbrev VO4_6 : View sig .tc .vmem S2000x256 .f32 := (Memref.whole cc4_stg6_0 : Memref sig .tc .vmem S2000x256 .f32).view
abbrev VO4_7 : View sig .tc .vmem S2x256 .f32 := (Memref.whole cc4_stg7_0 : Memref sig .tc .vmem S2x256 .f32).view

/-- Every other scoped buffer of the core (the other regions' staging buffers and accumulators), at some contents
    each: it rides through the region untouched. -/
abbrev rest4 (c : Dev nD) : sProp 𝕄 :=
  Pipeline.scopedRestBut (Ix := Unit) (Name := ℕ) (U := UR sig nD τ) (Lvl := ℕ) (Val := Elt F) spec4 c [cc4_scratch0]

/-- What the region is entered with and gives back: the accumulator owned whole at some contents, the other
    scoped buffers, the generator register. -/
theorem PhiA4_eq (c : Dev nD) :
    (Pipeline.ΦA spec4 c : sProp 𝕄)
      = iprop(iprop(iprop(∃ d, owns (c : Thread nD τ) scM4_0 fullShare d) ∗ rest4 (F := F) c) ∗ (∃ r, prngReg c r)) := by
  unfold Pipeline.ΦA; rw [scopedRest4_split]; simp only [scM4_0, owns_whole]; try rfl

/-! ## The body's run, one per control case -/

set_option maxHeartbeats 4000000 in
/-- THE FIRST ROW BLOCK (the branch taken). On whole memrefs — the six inputs' at their contents, the two outputs'
    and the accumulator at anything — the body runs to the continuation holding the inputs' as they were and each of
    the two outputs and the accumulator with its stores written, as pieces (last store first): the accumulator is
    zeroed, then its two rows are added to; the product block is stored whole; the statistics window receives a copy
    of the accumulator. The pieces are the witness the run finds. -/
noncomputable def kernelRun4_A (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc4__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__affine_matmul_stats_kernel_eq_skeleton]; unfold cc4__affine_matmul_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

set_option maxHeartbeats 4000000 in
/-- A LATER ROW BLOCK (the branch not taken): as the first, but the accumulator is entered at the contents `xs0`
    the row block before left and is only added to. -/
noncomputable def kernelRun4_B (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc4__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__affine_matmul_stats_kernel_eq_skeleton]; unfold cc4__affine_matmul_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the covers, and the pieces read back -/

/-- The first row block's one store into the product window is of its whole block. -/
theorem cover4_A_6 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) (y : S2000x256.Idx) :
    ∃ pc ∈ (kernelRun4_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).1 S2000x256.size (by sl_kernel_rfl) y
/-- What the first row block leaves in the product window's staging buffer: its pieces read back. -/
def out4_A_6 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) : Vec F S2000x256 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 x0 x1 x2 x3 x4 x5).1)
/-- Its one store into the statistics window is of the whole window. -/
theorem cover4_A_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) (y : S2x256.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.1 S2x256.size (by sl_kernel_rfl) y
def out4_A_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) : Vec F S2x256 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 x0 x1 x2 x3 x4 x5).2.1)
/-- Its stores into the accumulator cover it (the zeroing store alone does). -/
theorem scover4_A_0 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) (y : S2x256.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.2.1 S2x256.size (by sl_kernel_rfl) y
/-- What the first row block leaves in the accumulator. -/
def sout4_A_0 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) : Vec F S2x256 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 x0 x1 x2 x3 x4 x5).2.2.1)

/-- A later row block: the same three, the accumulator entered at `xs0`. -/
theorem cover4_B_6 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) (y : S2000x256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xs0).1 S2000x256.size (by sl_kernel_rfl) y
def out4_B_6 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) : Vec F S2000x256 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 x0 x1 x2 x3 x4 x5 xs0).1)
theorem cover4_B_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) (y : S2x256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xs0).2.1 S2x256.size (by sl_kernel_rfl) y
def out4_B_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) : Vec F S2x256 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 x0 x1 x2 x3 x4 x5 xs0).2.1)
/-- The two row stores tile the accumulator. -/
theorem scover4_B_0 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) (y : S2x256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xs0).2.2.1 S1x256.size (by sl_kernel_rfl) y
def sout4_B_0 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) : Vec F S2x256 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 x0 x1 x2 x3 x4 x5 xs0).2.2.1)

/-! ## What the outputs and the accumulator hold after each row block -/

/-- THE ACCUMULATION. After the body at row block `n`: the product window's staging buffer, the statistics window's,
    and the accumulator — the first row block from nothing, each later one over the accumulator the one before left. -/
def outsAt4 (c : Dev nD) : (n : ℕ) → n < cfg4.N → Vec F S2000x256 .f32 × Vec F S2x256 .f32 × Vec F S2x256 .f32
  | 0, hn =>
    (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
     out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
     sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    have hc : ¬cond4_0 (grid4.coords ⟨n + 1, hn⟩) := fun h => by
      have h1 := (hcond4_0 ⟨n + 1, hn⟩).mp h
      have hN : n + 1 < 25 := lt_of_lt_of_eq hn (show cfg4.N = 25 from N_4)
      (try dsimp only at h1); omega
    (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) hc (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2,
     out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) hc (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2,
     sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) hc (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2)

/-- `outsAt4` at the first row block. -/
theorem outsAt4_A (c : Dev nD) (t : Fin cfg4.N) (h0 : t.val % 25 = 0) :
    outsAt4 V c t.val t.isLt =
      (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t),
       out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t),
       sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t)) := by
  obtain ⟨n, hn⟩ := t
  cases n with
  | zero => exact rfl
  | succ n =>
    exfalso
    have hN : n + 1 < 25 := lt_of_lt_of_eq hn (show cfg4.N = 25 from N_4)
    (try dsimp only at h0); omega

/-- `outsAt4` at a later row block: over what the row block before left in the accumulator. -/
theorem outsAt4_B (c : Dev nD) (t : Fin cfg4.N) (h0 : ¬t.val % 25 = 0) :
    outsAt4 V c t.val t.isLt =
      (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2,
       out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2,
       sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact rfl

/-- The region's invariant before row block `n`: at the start what the region is entered with; afterwards the
    accumulator at what the row block before left in it, the other scoped buffers and the generator register as
    they were. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2.2) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2) ∗ rest4 (F := F) c) ∗ (∃ r, prngReg c r)) := by
  cases n with
  | zero => exact absurd rfl hz
  | succ n => rfl

/-! ## The proof data -/

/-- Region 4's proof data from the contents `V` the region is entered at. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by dsimp only [dat4]
theorem q_eq4 (c : Dev nD) (w : Fin cfg4.W) : (dat4 V c).q w = fullShare := by dsimp only [dat4]
theorem owed_eq4 (c : Dev nD) (t : Fin (cfg4.N + 1)) : (dat4 V c).owed t = 0 := by dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]

/-- Each input's current staging buffer holds its block at every row block, fetched there or not (the five
    parameter windows and the weights are fetched once: their block index never moves). -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-! ## The body obligation, at a generic row block -/

/-- What the body is called with at row block `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any row block: the inputs' memrefs hold their blocks; the first row block is the branch taken, every
    later one the branch not taken, entered with the accumulator at what the row block before left; the invariant
    takes the accumulator back at this row block's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from rfl, after4_0]
  rw [show (dat4 V c).leavesExact 1 t = owns (c : Thread nD τ) (ms4_1 t) fullShare ((dat4 V c).after 1 t) from rfl, after4_1]
  rw [show (dat4 V c).leavesExact 2 t = owns (c : Thread nD τ) (ms4_2 t) fullShare ((dat4 V c).after 2 t) from rfl, after4_2]
  rw [show (dat4 V c).leavesExact 3 t = owns (c : Thread nD τ) (ms4_3 t) fullShare ((dat4 V c).after 3 t) from rfl, after4_3]
  rw [show (dat4 V c).leavesExact 4 t = owns (c : Thread nD τ) (ms4_4 t) fullShare ((dat4 V c).after 4 t) from rfl, after4_4]
  rw [show (dat4 V c).leavesExact 5 t = owns (c : Thread nD τ) (ms4_5 t) fullShare ((dat4 V c).after 5 t) from rfl, after4_5]
  rw [show (dat4 V c).leavesExact 6 t = owns (c : Thread nD τ) (ms4_6 t) fullShare ((dat4 V c).after 6 t) from rfl, after4_6]
  rw [show (dat4 V c).leavesExact 7 t = owns (c : Thread nD τ) (ms4_7 t) fullShare ((dat4 V c).after 7 t) from rfl, after4_7]
  by_cases h0 : t.val % 25 = 0
  ·
    rw [outsAt4_A V c t h0]
    unfold out4_A_6 out4_A_7 sout4_A_0; (try dsimp only)
    have hz : t.val = 0 := by omega
    rw [PhiS4_castSucc V c t, PhiS4_zero V c _ _ hz, PhiA4_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_A_0 _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 _ _ _ _ _ _ _ _ _ _ _ _ _ _ _ _ _ _ _ _ _ _ _ _ _ _ _)
    unfold owns; iexists _; isplitr
    swap; · iexact H7
    ipureintro; exact View.read_writes_of_cover _ _ _ _ _ (cover4_A_7 _ _ _ _ _ _ _ _ _ _ _ _ _ _ _ _ _ _ _ _ _ _ _ _ _ _ _)
  ·
    rw [outsAt4_B V c t h0]
    unfold out4_B_6 out4_B_7 sout4_B_0; (try dsimp only)
    have hz : t.val ≠ 0 := by omega
    rw [PhiS4_castSucc V c t, PhiS4_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_B_0 _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 _ _ _ _ _ _ _ _ _ _ _ _ _ _ _ _ _ _ _ _ _ _ _ _ _ _ _ _)
    unfold owns; iexists _; isplitr
    swap; · iexact H7
    ipureintro; exact View.read_writes_of_cover _ _ _ _ _ (cover4_B_7 _ _ _ _ _ _ _ _ _ _ _ _ _ _ _ _ _ _ _ _ _ _ _ _ _ _ _ _)

/-- The library's body obligation, at every row block. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first row block. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any row block the invariant gives back what the region was entered with: the accumulator's named contents
    are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ (Pipeline.ΦA spec4 c : sProp 𝕄) :=
  Phi_out4 V c _ (by rw [Fin.val_last]; have : cfg4.N = 25 := N_4; omega)

theorem recorded_eq4 (c : Dev nD) (t : Fin (cfg4.N + 1)) : (dat4 V c).recorded t = Set.univ := rfl

end Cert.KernelIdeal.Hand

end
-- ==== Proof.KI.R5.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: custom_call 5, `cc5__affine_relu_kernel`, at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched
    the block index has not moved, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: where it is not fetched
    the block index has not moved, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not: where it is not fetched
    the block index has not moved, and the body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not: where it is not fetched
    the block index has not moved, and the body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not: where it is not fetched
    the block index has not moved, and the body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole (2000,256) block and the whole (1,256) row, as the rectangles the body loads and stores through. -/
abbrev r5_0 : Rect S2000x256 := Rect.unit (s := S2000x256) ![0, 0] S2000x256.size inb_S2000x256_S2000x256_0_0
abbrev r5_1 : Rect S1x256 := Rect.unit (s := S1x256) ![0, 0] S1x256.size inb_S1x256_S1x256_0_0

/-- The result window's staging buffer after the body, from the five input blocks: the one store, of the
    normalised, scaled, shifted and clamped block. -/
def out5_5 (x0 : Vec F S2000x256 .f32) (x1 x2 x3 x4 : Vec F S1x256 .f32) : Vec F S2000x256 .f32 :=
  View.canon [⟨r5_0, k5_pay1 (View.ld x0 r5_0) (View.ld x1 r5_1) (View.ld x2 r5_1) (View.ld x3 r5_1) (View.ld x4 r5_1)⟩]

/-- The one store is of the whole block, so it covers it. -/
theorem cover5_5 (p0 : Vec F S2000x256 .f32) (y : S2000x256.Idx) :
    ∃ pc ∈ ([⟨r5_0, p0⟩] : List (View.Piece (Elt F) S2000x256 .f32)), y ∈ pc.1.set :=
  View.cover_of_tiled [⟨r5_0, p0⟩] S2000x256.size (by rfl) y

set_option maxHeartbeats 1000000 in
/-- The body on whole staging memrefs, the inputs' at contents `x0 … x4` and the result's at anything, runs to the
    continuation holding the inputs' as they were and the result's at `out5_5` of them. -/
theorem sound_kernel5 (c : Dev nD) (E : Set ℕ) (i : grid5.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__affine_relu_kernel i arg1 harg1 arg2 harg2 arg3 harg3 arg4 harg4 arg5 harg5 arg6 harg6) K := by
  simp only [cc5__affine_relu_kernel_eq_skeleton]; unfold cc5__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- Region 5's proof data from the contents `V` the region is entered at: the arrays as found; after the body at a
    point each input's buffer at its block and the result's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) (t : Fin (cfg5.N + 1)) : (dat5 V c).owed t = 0 := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so `sound_kernel5` applies; the invariant and what
    is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  dsimp only [dat5]; exact BIBase.Entails.rfl
theorem hout5 (c : Dev nD) : (dat5 V c).Φ (Fin.last cfg5.N) ⊢ (Pipeline.ΦA spec5 c : sProp 𝕄) := by
  dsimp only [dat5]; exact BIBase.Entails.rfl

theorem recorded_eq5 (c : Dev nD) (t : Fin (cfg5.N + 1)) : (dat5 V c).recorded t = Set.univ := rfl

end Cert.KernelIdeal.Hand

end
-- ==== Proof.KI.R6.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 6: the branch condition, the staging memrefs, the scratch -/

/-- The condition of the body's one conditional (the grid coordinate is zero), from the grid coordinates. -/
abbrev cond6 (i : grid6.Coords) : Prop :=
  (Scalar.cmpi .ne (Scalar.extui (Scalar.cmpi .eq (BitVec.ofNat 32 (i 0).val) 0#32)) 0#32) = 1#1

/-- It holds at the first point only: decided over the grid. -/
theorem hcond6 : ∀ t : Fin cfg6.N, cond6 (grid6.coords t) ↔ t.val = 0 :=
  (by decide +kernel : ∀ t : Fin grid6.N, cond6 (grid6.coords t) ↔ t.val = 0)

/-- No window of region 6 is ever idle. -/
theorem live6 (w : Fin cfg6.W) (i : grid6.Coords) : cfg6.idle w i = false := rfl

/-- Each window's current staging memref at point `t`, as the pipeline passes it, and its wholeness. -/
abbrev ms6_0 (t : Fin cfg6.N) : Memref sig .tc .vmem S2000x256 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S256x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2000x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2x256 .f32 := win6_3.stage (cfg6.slots t 3)
abbrev hs6_3 (t : Fin cfg6.N) : (ms6_3 t).IsWhole := hstage6_3 ((cfg6.slots t 3).cast nbuf6_3)
/-- The scratch operand: a whole scoped buffer of the kernel's own, passed beside the windows. -/
abbrev scM6 : Memref sig .tc .vmem S2x256 .f32 := Memref.whole cc6_scratch0
/-- The scratch as a view: what it holds is stated through it. -/
abbrev VS6 : View sig .tc .vmem S2x256 .f32 := scM6.view
/-- One staging buffer of each output window, through which its contents are stated. -/
abbrev VO6_2 : View sig .tc .vmem S2000x256 .f32 := (Memref.whole cc6_stg2_0 : Memref sig .tc .vmem S2000x256 .f32).view
abbrev VO6_3 : View sig .tc .vmem S2x256 .f32 := (Memref.whole cc6_stg3_0 : Memref sig .tc .vmem S2x256 .f32).view

/-- The class invariant with the scratch as a memref owned at some contents, beside the rest of the scoped
    buffers and the generator register. -/
theorem PhiA6_eq (c : Dev nD) :
    (Pipeline.ΦA spec6 c : sProp 𝕄)
      = iprop(iprop(iprop((∃ d, owns (c : Thread nD τ) scM6 fullShare d)) ∗ Pipeline.scopedRestBut spec6 c [cc6_scratch0]) ∗ (∃ r, prngReg c r)) := by
  unfold Pipeline.ΦA; rw [scopedRest6_split]; simp only [scM6, owns_whole]; try rfl

set_option maxHeartbeats 1000000 in
/-- The body at the first point (the conditional taken): on whole staging memrefs, the inputs' at their contents, the
    outputs' and the scratch at anything, it runs to the continuation holding the inputs' as they were and each
    output and the scratch with its pieces written. The pieces are the witness the run finds. -/
noncomputable def kernelRun6_A (c : Dev nD) (i : grid6.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc6__matmul_stats_kernel i arg1 harg1 arg2 harg2 arg3 harg3 arg4 harg4 arg5 harg5) K } := by
  refine ⟨?_, ?_, ?_, fun E K => ?run⟩
  case run =>
    simp only [cc6__matmul_stats_kernel_eq_skeleton]; unfold cc6__matmul_stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

set_option maxHeartbeats 1000000 in
/-- The body at a later point (the conditional not taken): the same, the scratch entering at the contents `xs0`
    the point before left. -/
noncomputable def kernelRun6_B (c : Dev nD) (i : grid6.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc6__matmul_stats_kernel i arg1 harg1 arg2 harg2 arg3 harg3 arg4 harg4 arg5 harg5) K } := by
  refine ⟨?_, ?_, ?_, fun E K => ?run⟩
  case run =>
    simp only [cc6__matmul_stats_kernel_eq_skeleton]; unfold cc6__matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The pieces case A leaves in the product window tile its block, so they cover it. -/
theorem cover6_A_2 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) (y : S2000x256.Idx) :
    ∃ pc ∈ (kernelRun6_A c i arg1 harg1 arg2 harg2 arg3 harg3 arg4 harg4 arg5 harg5 hc0 x0 x1).1, y ∈ pc.1.set :=
  View.cover_of_tiledL (kernelRun6_A c i arg1 harg1 arg2 harg2 arg3 harg3 arg4 harg4 arg5 harg5 hc0 x0 x1).1 S2000x256.size (by sl_kernel_rfl) y

/-- What case A leaves in the product window's staging buffer: its pieces read back over junk. -/
def out6_A_2 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) : Vec F S2000x256 .f32 :=
  VO6_2.read (Elt F) (VO6_2.writes (Elt F) VO6_2.junk (kernelRun6_A c i arg1 harg1 arg2 harg2 arg3 harg3 arg4 harg4 arg5 harg5 hc0 x0 x1).1)

/-- The pieces case A leaves in the statistics window cover it (one whole store). -/
theorem cover6_A_3 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) (y : S2x256.Idx) :
    ∃ pc ∈ (kernelRun6_A c i arg1 harg1 arg2 harg2 arg3 harg3 arg4 harg4 arg5 harg5 hc0 x0 x1).2.1, y ∈ pc.1.set :=
  View.cover_of_tiledL (kernelRun6_A c i arg1 harg1 arg2 harg2 arg3 harg3 arg4 harg4 arg5 harg5 hc0 x0 x1).2.1 S2x256.size (by sl_kernel_rfl) y

/-- What case A leaves in the statistics window's staging buffer. -/
def out6_A_3 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) : Vec F S2x256 .f32 :=
  VO6_3.read (Elt F) (VO6_3.writes (Elt F) VO6_3.junk (kernelRun6_A c i arg1 harg1 arg2 harg2 arg3 harg3 arg4 harg4 arg5 harg5 hc0 x0 x1).2.1)

/-- The pieces case A leaves in the scratch cover it: its two rows, each stored whole. -/
theorem scover6_A (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) (y : S2x256.Idx) :
    ∃ pc ∈ (kernelRun6_A c i arg1 harg1 arg2 harg2 arg3 harg3 arg4 harg4 arg5 harg5 hc0 x0 x1).2.2.1, y ∈ pc.1.set :=
  View.cover_of_tiledL (kernelRun6_A c i arg1 harg1 arg2 harg2 arg3 harg3 arg4 harg4 arg5 harg5 hc0 x0 x1).2.2.1 ![1, 256] (by sl_kernel_rfl) y

/-- What case A leaves in the scratch. -/
def sout6_A (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond6 i)
    (x0 : Vec F S2000x256 .f32) (x1 : Vec F S256x256 .f32) : Vec F S2x256 .f32 :=
  VS6.read (Elt F) (VS6.writes (Elt F) VS6.junk (kernelRun6_A c i arg1 harg1 arg2 harg2 arg3 harg3 arg4 harg4 arg5 harg5 hc0 x0 x1).2.2.1)

/-- The pieces case B leaves in the product window tile its block, so they cover it. -/
theorem cover6_B_2 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) (y : S2000x256.Idx) :
    ∃ pc ∈ (kernelRun6_B c i arg1 harg1 arg2 harg2 arg3 harg3 arg4 harg4 arg5 harg5 hc0 x0 x1 xs0).1, y ∈ pc.1.set :=
  View.cover_of_tiledL (kernelRun6_B c i arg1 harg1 arg2 harg2 arg3 harg3 arg4 harg4 arg5 harg5 hc0 x0 x1 xs0).1 S2000x256.size (by sl_kernel_rfl) y

/-- What case B leaves in the product window's staging buffer: its pieces read back over junk. -/
def out6_B_2 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) : Vec F S2000x256 .f32 :=
  VO6_2.read (Elt F) (VO6_2.writes (Elt F) VO6_2.junk (kernelRun6_B c i arg1 harg1 arg2 harg2 arg3 harg3 arg4 harg4 arg5 harg5 hc0 x0 x1 xs0).1)

/-- The pieces case B leaves in the statistics window cover it (one whole store). -/
theorem cover6_B_3 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) (y : S2x256.Idx) :
    ∃ pc ∈ (kernelRun6_B c i arg1 harg1 arg2 harg2 arg3 harg3 arg4 harg4 arg5 harg5 hc0 x0 x1 xs0).2.1, y ∈ pc.1.set :=
  View.cover_of_tiledL (kernelRun6_B c i arg1 harg1 arg2 harg2 arg3 harg3 arg4 harg4 arg5 harg5 hc0 x0 x1 xs0).2.1 S2x256.size (by sl_kernel_rfl) y

/-- What case B leaves in the statistics window's staging buffer. -/
def out6_B_3 (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) : Vec F S2x256 .f32 :=
  VO6_3.read (Elt F) (VO6_3.writes (Elt F) VO6_3.junk (kernelRun6_B c i arg1 harg1 arg2 harg2 arg3 harg3 arg4 harg4 arg5 harg5 hc0 x0 x1 xs0).2.1)

/-- The pieces case B leaves in the scratch cover it: its two rows, each stored whole. -/
theorem scover6_B (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) (y : S2x256.Idx) :
    ∃ pc ∈ (kernelRun6_B c i arg1 harg1 arg2 harg2 arg3 harg3 arg4 harg4 arg5 harg5 hc0 x0 x1 xs0).2.2.1, y ∈ pc.1.set :=
  View.cover_of_tiledL (kernelRun6_B c i arg1 harg1 arg2 harg2 arg3 harg3 arg4 harg4 arg5 harg5 hc0 x0 x1 xs0).2.2.1 ![1, 256] (by sl_kernel_rfl) y

/-- What case B leaves in the scratch. -/
def sout6_B (c : Dev nD) (i : grid6.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond6 i)
    (x0 : Vec F S2000x256 .f32) (x1 : Vec F S256x256 .f32) (xs0 : Vec F S2x256 .f32) : Vec F S2x256 .f32 :=
  VS6.read (Elt F) (VS6.writes (Elt F) VS6.junk (kernelRun6_B c i arg1 harg1 arg2 harg2 arg3 harg3 arg4 harg4 arg5 harg5 hc0 x0 x1 xs0).2.2.1)

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the outputs and the scratch hold after each point -/

/-- THE ACCUMULATION. What the two outputs' staging buffers and the scratch hold after the body at position `n` (the
    product window, the statistics window, the scratch): at the first point the first case run at the point's memrefs
    and input blocks; at a later point the second case, the scratch entering at what the point before left. -/
def outsAt6 (c : Dev nD) : (n : ℕ) → n < cfg6.N → Vec F S2000x256 .f32 × Vec F S2x256 .f32 × Vec F S2x256 .f32
  | 0, hn =>
    (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6 (Memref.isWhole_whole _) ((hcond6 ⟨0, hn⟩).mpr rfl) (iblk6 V c 0 ⟨0, hn⟩) (iblk6 V c 1 ⟨0, hn⟩),
     out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6 (Memref.isWhole_whole _) ((hcond6 ⟨0, hn⟩).mpr rfl) (iblk6 V c 0 ⟨0, hn⟩) (iblk6 V c 1 ⟨0, hn⟩),
     sout6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6 (Memref.isWhole_whole _) ((hcond6 ⟨0, hn⟩).mpr rfl) (iblk6 V c 0 ⟨0, hn⟩) (iblk6 V c 1 ⟨0, hn⟩))
  | n + 1, hn =>
    (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6 (Memref.isWhole_whole _) (fun h => Nat.succ_ne_zero n ((hcond6 ⟨n + 1, hn⟩).mp h)) (iblk6 V c 0 ⟨n + 1, hn⟩) (iblk6 V c 1 ⟨n + 1, hn⟩) (outsAt6 c n (Nat.lt_of_succ_lt hn)).2.2,
     out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6 (Memref.isWhole_whole _) (fun h => Nat.succ_ne_zero n ((hcond6 ⟨n + 1, hn⟩).mp h)) (iblk6 V c 0 ⟨n + 1, hn⟩) (iblk6 V c 1 ⟨n + 1, hn⟩) (outsAt6 c n (Nat.lt_of_succ_lt hn)).2.2,
     sout6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6 (Memref.isWhole_whole _) (fun h => Nat.succ_ne_zero n ((hcond6 ⟨n + 1, hn⟩).mp h)) (iblk6 V c 0 ⟨n + 1, hn⟩) (iblk6 V c 1 ⟨n + 1, hn⟩) (outsAt6 c n (Nat.lt_of_succ_lt hn)).2.2)

/-- `outsAt6` at the first point. -/
theorem outsAt6_A (c : Dev nD) (t : Fin cfg6.N) (h0 : t.val = 0) :
    outsAt6 V c t.val t.isLt =
      (out6_A_2 c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t),
       out6_A_3 c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t),
       sout6_A c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t)) := by
  obtain ⟨n, hn⟩ := t
  cases n with
  | zero => exact rfl
  | succ n => exact absurd h0 (Nat.succ_ne_zero n)

/-- `outsAt6` at a later point: over what the point before left in the scratch. -/
theorem outsAt6_B (c : Dev nD) (t : Fin cfg6.N) (h0 : ¬t.val = 0) :
    outsAt6 V c t.val t.isLt =
      (out6_B_2 c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2,
       out6_B_3 c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2,
       sout6_B c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2) := by
  obtain ⟨n, hn⟩ := t
  cases n with
  | zero => exact absurd rfl h0
  | succ n => exact rfl

/-- The region invariant before position `n`: before the first point the class's; afterwards the scratch owned whole at
    what the point before left in it, beside the other scoped buffers and the generator register, both untouched. -/
def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2.2) ∗ Pipeline.scopedRestBut spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare ((outsAt6 V c n hn).2.2) ∗ Pipeline.scopedRestBut spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare ((outsAt6 V c (n - 1) (by omega)).2.2) ∗ Pipeline.scopedRestBut spec6 c [cc6_scratch0]) ∗ (∃ r, prngReg c r)) := by
  cases n with
  | zero => exact absurd rfl hz
  | succ n => rfl

/-! ## The pipeline's proof data -/

/-- Region 6's proof data from the contents `V` the region is entered at. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by
  dsimp only [dat6]
theorem owed_eq6 (c : Dev nD) (t : Fin (cfg6.N + 1)) : (dat6 V c).owed t = 0 := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; the closed form says which case the point is in, so that
    case's run applies; the invariant hands the body the scratch (at anything at the first point, at what the point before
    left afterwards) and takes it back at this point's contents; the other scoped buffers, the generator register and the
    core's tallies ride through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from rfl, after6_0]
  rw [show (dat6 V c).leavesExact 1 t = owns (c : Thread nD τ) (ms6_1 t) fullShare ((dat6 V c).after 1 t) from rfl, after6_1]
  rw [show (dat6 V c).leavesExact 2 t = owns (c : Thread nD τ) (ms6_2 t) fullShare ((dat6 V c).after 2 t) from rfl, after6_2]
  rw [show (dat6 V c).leavesExact 3 t = owns (c : Thread nD τ) (ms6_3 t) fullShare ((dat6 V c).after 3 t) from rfl, after6_3]
  by_cases h0 : t.val = 0
  · rw [outsAt6_A V c t h0]
    unfold out6_A_2 out6_A_3 sout6_A; (try dsimp only)
    rw [PhiS6_castSucc V c t, PhiS6_zero V c _ _ h0, PhiA6_eq]
    iintro ⟨⟨⟨HS0, Hr⟩, Hg⟩, Ho, ⟨%d0, H0⟩, ⟨%d1, H1⟩, ⟨%d2, H2⟩, ⟨%d3, H3⟩⟩
    iapply ((kernelRun6_A c (grid6.coords t) _ _ _ _ _ _ _ _ _ _ ((hcond6 t).mpr h0) (iblk6 V c 0 t) (iblk6 V c 1 t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover6_A c _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_A_2 c _ _ _ _ _ _ _ _ _ _ _ _ _ _)
    unfold owns; iexists _; isplitr
    swap; · iexact H3
    ipureintro; exact View.read_writes_of_cover _ _ _ _ _ (cover6_A_3 c _ _ _ _ _ _ _ _ _ _ _ _ _ _)
  · rw [outsAt6_B V c t h0]
    unfold out6_B_2 out6_B_3 sout6_B; (try dsimp only)
    rw [PhiS6_castSucc V c t, PhiS6_pos V c _ _ h0]
    iintro ⟨⟨⟨HS0, Hr⟩, Hg⟩, Ho, ⟨%d0, H0⟩, ⟨%d1, H1⟩, ⟨%d2, H2⟩, ⟨%d3, H3⟩⟩
    iapply ((kernelRun6_B c (grid6.coords t) _ _ _ _ _ _ _ _ _ _ (fun h => h0 ((hcond6 t).mp h)) (iblk6 V c 0 t) (iblk6 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover6_B c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_B_2 c _ _ _ _ _ _ _ _ _ _ _ _ _ _ _)
    unfold owns; iexists _; isplitr
    swap; · iexact H3
    ipureintro; exact View.read_writes_of_cover _ _ _ _ _ (cover6_B_3 c _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the scratch's named contents are forgotten. -/
theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

/-- The same after the last point. -/
theorem hout6 (c : Dev nD) : (dat6 V c).Φ (Fin.last cfg6.N) ⊢ (Pipeline.ΦA spec6 c : sProp 𝕄) :=
  Phi_out6 V c _ (by rw [Fin.val_last]; have : cfg6.N = 25 := N_6; omega)

/-- The bound on the recorded pairs is left at everything. -/
theorem recorded_eq6 (c : Dev nD) (t : Fin (cfg6.N + 1)) : (dat6 V c).recorded t = Set.univ := rfl

end Cert.KernelIdeal.Hand

end
-- ==== Proof.KI.R7.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 7: the blocks, the branch, the memrefs -/

/-- Window `w`'s block at point `t`, read off its array as the region is entered (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The body's one branch: "this is the first row block" (the grid coordinate is zero). -/
abbrev cond7_0 (i : grid7.Coords) : Prop := (Scalar.cmpi .ne (Scalar.extui (Scalar.cmpi .eq (BitVec.ofNat 32 (i 0).val) 0#32)) 0#32) = 1#1
/-- It holds at the first point only — decided over the 25 points. -/
theorem hcond7_0 : ∀ t : Fin cfg7.N, cond7_0 (grid7.coords t) ↔ t.val % 25 = 0 :=
  (by decide +kernel : ∀ t : Fin grid7.N, cond7_0 (grid7.coords t) ↔ t.val % 25 = 0)

/-- Each window's current staging memref at point `t`, and its wholeness. -/
abbrev ms7_0 (t : Fin cfg7.N) : Memref sig .tc .vmem S2000x256 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x256 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x256 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x256 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S256x256 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S2000x256 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S2x256 .f32 := win7_7.stage (cfg7.slots t 7)
abbrev hs7_7 (t : Fin cfg7.N) : (ms7_7 t).IsWhole := hstage7_7 ((cfg7.slots t 7).cast nbuf7_7)
/-- The accumulator of the column sums: a whole scoped buffer of the kernel's own, carried from point to point. -/
abbrev scM7_0 : Memref sig .tc .vmem S2x256 .f32 := Memref.whole cc7_scratch0
/-- The views through which the outputs' and the accumulator's contents are stated. -/
abbrev VS7_0 : View sig .tc .vmem S2x256 .f32 := scM7_0.view
abbrev VO7_6 : View sig .tc .vmem S2000x256 .f32 := (Memref.whole cc7_stg6_0 : Memref sig .tc .vmem S2000x256 .f32).view
abbrev VO7_7 : View sig .tc .vmem S2x256 .f32 := (Memref.whole cc7_stg7_0 : Memref sig .tc .vmem S2x256 .f32).view

/-- Every other scoped buffer of the core (the other regions' staging buffers and accumulators), at some contents
    each: it rides through the region untouched. -/
abbrev rest7 (c : Dev nD) : sProp 𝕄 :=
  Pipeline.scopedRestBut (Ix := Unit) (Name := ℕ) (U := UR sig nD τ) (Lvl := ℕ) (Val := Elt F) spec7 c [cc7_scratch0]

/-- What the region is entered with and gives back: the accumulator owned whole at some contents, the other
    scoped buffers, the generator register. -/
theorem PhiA7_eq (c : Dev nD) :
    (Pipeline.ΦA spec7 c : sProp 𝕄)
      = iprop(iprop(iprop(∃ d, owns (c : Thread nD τ) scM7_0 fullShare d) ∗ rest7 (F := F) c) ∗ (∃ r, prngReg c r)) := by
  unfold Pipeline.ΦA; rw [scopedRest7_split]; simp only [scM7_0, owns_whole]; try rfl

/-! ## The body's run, one per control case -/

set_option maxHeartbeats 4000000 in
/-- THE FIRST ROW BLOCK (the branch taken). On whole memrefs — the six inputs' at their contents, the two outputs'
    and the accumulator at anything — the body runs to the continuation holding the inputs' as they were and each of
    the two outputs and the accumulator with its stores written, as pieces (last store first): the accumulator is
    zeroed, then its two rows are added to; the product block is stored whole; the statistics window receives a copy
    of the accumulator. The pieces are the witness the run finds. -/
noncomputable def kernelRun7_A (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc7__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc7__affine_matmul_stats_kernel_eq_skeleton]; unfold cc7__affine_matmul_stats_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

set_option maxHeartbeats 4000000 in
/-- A LATER ROW BLOCK (the branch not taken): as the first, but the accumulator is entered at the contents `xs0`
    the row block before left and is only added to. -/
noncomputable def kernelRun7_B (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc7__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc7__affine_matmul_stats_kernel_eq_skeleton]; unfold cc7__affine_matmul_stats_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the covers, and the pieces read back -/

/-- The first row block's one store into the product window is of its whole block. -/
theorem cover7_A_6 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) (y : S2000x256.Idx) :
    ∃ pc ∈ (kernelRun7_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3 x4 x5).1 S2000x256.size (by sl_kernel_rfl) y
/-- What the first row block leaves in the product window's staging buffer: its pieces read back. -/
def out7_A_6 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) : Vec F S2000x256 .f32 :=
  VO7_6.read (Elt F) (VO7_6.writes (Elt F) VO7_6.junk (kernelRun7_A c i arg1 harg1 arg2 harg2 arg3 harg3 arg4 harg4 arg5 harg5 arg6 harg6 arg7 harg7 arg8 harg8 arg9 harg9 hc0 x0 x1 x2 x3 x4 x5).1)
/-- Its one store into the statistics window is of the whole window. -/
theorem cover7_A_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) (y : S2x256.Idx) :
    ∃ pc ∈ (kernelRun7_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3 x4 x5).2.1 S2x256.size (by sl_kernel_rfl) y
def out7_A_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) : Vec F S2x256 .f32 :=
  VO7_7.read (Elt F) (VO7_7.writes (Elt F) VO7_7.junk (kernelRun7_A c i arg1 harg1 arg2 harg2 arg3 harg3 arg4 harg4 arg5 harg5 arg6 harg6 arg7 harg7 arg8 harg8 arg9 harg9 hc0 x0 x1 x2 x3 x4 x5).2.1)
/-- Its stores into the accumulator cover it (the zeroing store alone does). -/
theorem scover7_A_0 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) (y : S2x256.Idx) :
    ∃ pc ∈ (kernelRun7_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3 x4 x5).2.2.1 S2x256.size (by sl_kernel_rfl) y
/-- What the first row block leaves in the accumulator. -/
def sout7_A_0 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) : Vec F S2x256 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 x0 x1 x2 x3 x4 x5).2.2.1)

/-- A later row block: the same three, the accumulator entered at `xs0`. -/
theorem cover7_B_6 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) (y : S2000x256.Idx) :
    ∃ pc ∈ (kernelRun7_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 x4 x5 xs0).1 S2000x256.size (by sl_kernel_rfl) y
def out7_B_6 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) : Vec F S2000x256 .f32 :=
  VO7_6.read (Elt F) (VO7_6.writes (Elt F) VO7_6.junk (kernelRun7_B c i arg1 harg1 arg2 harg2 arg3 harg3 arg4 harg4 arg5 harg5 arg6 harg6 arg7 harg7 arg8 harg8 arg9 harg9 hc0 x0 x1 x2 x3 x4 x5 xs0).1)
theorem cover7_B_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) (y : S2x256.Idx) :
    ∃ pc ∈ (kernelRun7_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 x4 x5 xs0).2.1 S2x256.size (by sl_kernel_rfl) y
def out7_B_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) : Vec F S2x256 .f32 :=
  VO7_7.read (Elt F) (VO7_7.writes (Elt F) VO7_7.junk (kernelRun7_B c i arg1 harg1 arg2 harg2 arg3 harg3 arg4 harg4 arg5 harg5 arg6 harg6 arg7 harg7 arg8 harg8 arg9 harg9 hc0 x0 x1 x2 x3 x4 x5 xs0).2.1)
/-- The two row stores tile the accumulator. -/
theorem scover7_B_0 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) (y : S2x256.Idx) :
    ∃ pc ∈ (kernelRun7_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 x4 x5 xs0).2.2.1 S1x256.size (by sl_kernel_rfl) y
def sout7_B_0 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) : Vec F S2x256 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 x0 x1 x2 x3 x4 x5 xs0).2.2.1)

/-! ## What the outputs and the accumulator hold after each row block -/

/-- THE ACCUMULATION. After the body at row block `n`: the product window's staging buffer, the statistics window's,
    and the accumulator — the first row block from nothing, each later one over the accumulator the one before left. -/
def outsAt7 (c : Dev nD) : (n : ℕ) → n < cfg7.N → Vec F S2000x256 .f32 × Vec F S2x256 .f32 × Vec F S2x256 .f32
  | 0, hn =>
    (out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) scM7_0 (Memref.isWhole_whole _) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩),
     out7_A_7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) scM7_0 (Memref.isWhole_whole _) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩),
     sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) scM7_0 (Memref.isWhole_whole _) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩))
  | n + 1, hn =>
    have hc : ¬cond7_0 (grid7.coords ⟨n + 1, hn⟩) := fun h => by
      have h1 := (hcond7_0 ⟨n + 1, hn⟩).mp h
      have hN : n + 1 < 25 := lt_of_lt_of_eq hn (show cfg7.N = 25 from N_7)
      (try dsimp only at h1); omega
    (out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7_0 (Memref.isWhole_whole _) hc (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2.2,
     out7_B_7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7_0 (Memref.isWhole_whole _) hc (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2.2,
     sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7_0 (Memref.isWhole_whole _) hc (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2.2)

/-- `outsAt7` at the first row block. -/
theorem outsAt7_A (c : Dev nD) (t : Fin cfg7.N) (h0 : t.val % 25 = 0) :
    outsAt7 V c t.val t.isLt =
      (out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t),
       out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t),
       sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t)) := by
  obtain ⟨n, hn⟩ := t
  cases n with
  | zero => exact rfl
  | succ n =>
    exfalso
    have hN : n + 1 < 25 := lt_of_lt_of_eq hn (show cfg7.N = 25 from N_7)
    (try dsimp only at h0); omega

/-- `outsAt7` at a later row block: over what the row block before left in the accumulator. -/
theorem outsAt7_B (c : Dev nD) (t : Fin cfg7.N) (h0 : ¬t.val % 25 = 0) :
    outsAt7 V c t.val t.isLt =
      (out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2,
       out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2,
       sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact rfl

/-- The region's invariant before row block `n`: at the start what the region is entered with; afterwards the
    accumulator at what the row block before left in it, the other scoped buffers and the generator register as
    they were. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2.2) ∗ rest7 (F := F) c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2.2) ∗ rest7 (F := F) c) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2.2) ∗ rest7 (F := F) c) ∗ (∃ r, prngReg c r)) := by
  cases n with
  | zero => exact absurd rfl hz
  | succ n => rfl

/-! ## The proof data -/

/-- Region 7's proof data from the contents `V` the region is entered at. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
    | ⟨7, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by dsimp only [dat7]
theorem q_eq7 (c : Dev nD) (w : Fin cfg7.W) : (dat7 V c).q w = fullShare := by dsimp only [dat7]
theorem owed_eq7 (c : Dev nD) (t : Fin (cfg7.N + 1)) : (dat7 V c).owed t = 0 := by dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = (outsAt7 V c t.val t.isLt).1 := by dsimp only [dat7]
theorem after7_7 (c : Dev nD) (t : Fin cfg7.N) : (dat7 V c).after 7 t = (outsAt7 V c t.val t.isLt).2.1 := by dsimp only [dat7]

/-- Each input's current staging buffer holds its block at every row block, fetched there or not (the five
    parameter windows and the weights are fetched once: their block index never moves). -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl) (fun t => by rw [after7_5]; unfold Dat.blockOf iblk7; rw [A_eq7]; try rfl) t d).trans
    (by unfold Dat.fetched Dat.blockOf iblk7; rw [A_eq7]; try rfl)

/-! ## The body obligation, at a generic row block -/

/-- What the body is called with at row block `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4800000 in
/-- The body at any row block: the inputs' memrefs hold their blocks; the first row block is the branch taken, every
    later one the branch not taken, entered with the accumulator at what the row block before left; the invariant
    takes the accumulator back at this row block's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  rw [show (dat7 V c).leavesExact 0 t = owns (c : Thread nD τ) (ms7_0 t) fullShare ((dat7 V c).after 0 t) from rfl, after7_0]
  rw [show (dat7 V c).leavesExact 1 t = owns (c : Thread nD τ) (ms7_1 t) fullShare ((dat7 V c).after 1 t) from rfl, after7_1]
  rw [show (dat7 V c).leavesExact 2 t = owns (c : Thread nD τ) (ms7_2 t) fullShare ((dat7 V c).after 2 t) from rfl, after7_2]
  rw [show (dat7 V c).leavesExact 3 t = owns (c : Thread nD τ) (ms7_3 t) fullShare ((dat7 V c).after 3 t) from rfl, after7_3]
  rw [show (dat7 V c).leavesExact 4 t = owns (c : Thread nD τ) (ms7_4 t) fullShare ((dat7 V c).after 4 t) from rfl, after7_4]
  rw [show (dat7 V c).leavesExact 5 t = owns (c : Thread nD τ) (ms7_5 t) fullShare ((dat7 V c).after 5 t) from rfl, after7_5]
  rw [show (dat7 V c).leavesExact 6 t = owns (c : Thread nD τ) (ms7_6 t) fullShare ((dat7 V c).after 6 t) from rfl, after7_6]
  rw [show (dat7 V c).leavesExact 7 t = owns (c : Thread nD τ) (ms7_7 t) fullShare ((dat7 V c).after 7 t) from rfl, after7_7]
  by_cases h0 : t.val % 25 = 0
  ·
    rw [outsAt7_A V c t h0]
    unfold out7_A_6 out7_A_7 sout7_A_0; (try dsimp only)
    have hz : t.val = 0 := by omega
    rw [PhiS7_castSucc V c t, PhiS7_zero V c _ _ hz, PhiA7_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c (grid7.coords t) _ _ _ _ _ _ _ _ _ _ _ _ _ _ _ _ _ _ ((hcond7_0 t).mpr h0) (iblk7 V c 0 t) (iblk7 V c 1 t) (iblk7 V c 2 t) (iblk7 V c 3 t) (iblk7 V c 4 t) (iblk7 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover7_A_0 _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_A_6 _ _ _ _ _ _ _ _ _ _ _ _ _ _ _ _ _ _ _ _ _ _ _ _ _ _ _)
    unfold owns; iexists _; isplitr
    swap; · iexact H7
    ipureintro; exact View.read_writes_of_cover _ _ _ _ _ (cover7_A_7 _ _ _ _ _ _ _ _ _ _ _ _ _ _ _ _ _ _ _ _ _ _ _ _ _ _ _)
  ·
    rw [outsAt7_B V c t h0]
    unfold out7_B_6 out7_B_7 sout7_B_0; (try dsimp only)
    have hz : t.val ≠ 0 := by omega
    rw [PhiS7_castSucc V c t, PhiS7_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_B c (grid7.coords t) _ _ _ _ _ _ _ _ _ _ _ _ _ _ _ _ _ _ (fun h => h0 ((hcond7_0 t).mp h)) (iblk7 V c 0 t) (iblk7 V c 1 t) (iblk7 V c 2 t) (iblk7 V c 3 t) (iblk7 V c 4 t) (iblk7 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover7_B_0 _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_B_6 _ _ _ _ _ _ _ _ _ _ _ _ _ _ _ _ _ _ _ _ _ _ _ _ _ _ _ _)
    unfold owns; iexists _; isplitr
    swap; · iexact H7
    ipureintro; exact View.read_writes_of_cover _ _ _ _ _ (cover7_B_7 _ _ _ _ _ _ _ _ _ _ _ _ _ _ _ _ _ _ _ _ _ _ _ _ _ _ _ _)

/-- The library's body obligation, at every row block. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first row block. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any row block the invariant gives back what the region was entered with: the accumulator's named contents
    are forgotten. -/
theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

theorem hout7 (c : Dev nD) : (dat7 V c).Φ (Fin.last cfg7.N) ⊢ (Pipeline.ΦA spec7 c : sProp 𝕄) :=
  Phi_out7 V c _ (by rw [Fin.val_last]; have : cfg7.N = 25 := N_7; omega)

theorem recorded_eq7 (c : Dev nD) (t : Fin (cfg7.N + 1)) : (dat7 V c).recorded t = Set.univ := rfl

end Cert.KernelIdeal.Hand

end
-- ==== Proof.KI.R8.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: custom_call 8, `cc8__affine_relu_kernel`, at the entry contents `V` -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not: where it is not fetched
    the block index has not moved, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not: where it is not fetched
    the block index has not moved, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not: where it is not fetched
    the block index has not moved, and the body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not: where it is not fetched
    the block index has not moved, and the body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not: where it is not fetched
    the block index has not moved, and the body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The whole (2000,256) block and the whole (1,256) row, as the rectangles the body loads and stores through. -/
abbrev r8_0 : Rect S2000x256 := Rect.unit (s := S2000x256) ![0, 0] S2000x256.size inb_S2000x256_S2000x256_0_0
abbrev r8_1 : Rect S1x256 := Rect.unit (s := S1x256) ![0, 0] S1x256.size inb_S1x256_S1x256_0_0

/-- The result window's staging buffer after the body, from the five input blocks: the one store, of the
    normalised, scaled, shifted and clamped block. -/
def out8_5 (x0 : Vec F S2000x256 .f32) (x1 x2 x3 x4 : Vec F S1x256 .f32) : Vec F S2000x256 .f32 :=
  View.canon [⟨r8_0, k8_pay1 (View.ld x0 r8_0) (View.ld x1 r8_1) (View.ld x2 r8_1) (View.ld x3 r8_1) (View.ld x4 r8_1)⟩]

/-- The one store is of the whole block, so it covers it. -/
theorem cover8_5 (p0 : Vec F S2000x256 .f32) (y : S2000x256.Idx) :
    ∃ pc ∈ ([⟨r8_0, p0⟩] : List (View.Piece (Elt F) S2000x256 .f32)), y ∈ pc.1.set :=
  View.cover_of_tiled [⟨r8_0, p0⟩] S2000x256.size (by rfl) y

set_option maxHeartbeats 1000000 in
/-- The body on whole staging memrefs, the inputs' at contents `x0 … x4` and the result's at anything, runs to the
    continuation holding the inputs' as they were and the result's at `out8_5` of them. -/
theorem sound_kernel8 (c : Dev nD) (E : Set ℕ) (i : grid8.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__affine_relu_kernel i arg1 harg1 arg2 harg2 arg3 harg3 arg4 harg4 arg5 harg5 arg6 harg6) K := by
  simp only [cc8__affine_relu_kernel_eq_skeleton]; unfold cc8__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- Region 8's proof data from the contents `V` the region is entered at: the arrays as found; after the body at a
    point each input's buffer at its block and the result's at `out8_5` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem q_eq8 (c : Dev nD) (w : Fin cfg8.W) : (dat8 V c).q w = fullShare := by
  dsimp only [dat8]
theorem owed_eq8 (c : Dev nD) (t : Fin (cfg8.N + 1)) : (dat8 V c).owed t = 0 := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so `sound_kernel8` applies; the invariant and what
    is owed pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := by
  dsimp only [dat8]; exact BIBase.Entails.rfl
theorem hout8 (c : Dev nD) : (dat8 V c).Φ (Fin.last cfg8.N) ⊢ (Pipeline.ΦA spec8 c : sProp 𝕄) := by
  dsimp only [dat8]; exact BIBase.Entails.rfl

theorem recorded_eq8 (c : Dev nD) (t : Fin (cfg8.N + 1)) : (dat8 V c).recorded t = Set.univ := rfl

end Cert.KernelIdeal.Hand

end
-- ==== Proof.KI.R9.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 9: the branch condition, the staging memrefs, the scratch -/

/-- The condition of the body's one conditional (the grid coordinate is zero), from the grid coordinates. -/
abbrev cond9 (i : grid9.Coords) : Prop :=
  (Scalar.cmpi .ne (Scalar.extui (Scalar.cmpi .eq (BitVec.ofNat 32 (i 0).val) 0#32)) 0#32) = 1#1

/-- It holds at the first point only: decided over the grid. -/
theorem hcond9 : ∀ t : Fin cfg9.N, cond9 (grid9.coords t) ↔ t.val = 0 :=
  (by decide +kernel : ∀ t : Fin grid9.N, cond9 (grid9.coords t) ↔ t.val = 0)

/-- No window of region 9 is ever idle. -/
theorem live9 (w : Fin cfg9.W) (i : grid9.Coords) : cfg9.idle w i = false := rfl

/-- Each window's current staging memref at point `t`, as the pipeline passes it, and its wholeness. -/
abbrev ms9_0 (t : Fin cfg9.N) : Memref sig .tc .vmem S2000x256 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S256x256 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2000x256 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2x256 .f32 := win9_3.stage (cfg9.slots t 3)
abbrev hs9_3 (t : Fin cfg9.N) : (ms9_3 t).IsWhole := hstage9_3 ((cfg9.slots t 3).cast nbuf9_3)
/-- The scratch operand: a whole scoped buffer of the kernel's own, passed beside the windows. -/
abbrev scM9 : Memref sig .tc .vmem S2x256 .f32 := Memref.whole cc9_scratch0
/-- The scratch as a view: what it holds is stated through it. -/
abbrev VS9 : View sig .tc .vmem S2x256 .f32 := scM9.view
/-- One staging buffer of each output window, through which its contents are stated. -/
abbrev VO9_2 : View sig .tc .vmem S2000x256 .f32 := (Memref.whole cc9_stg2_0 : Memref sig .tc .vmem S2000x256 .f32).view
abbrev VO9_3 : View sig .tc .vmem S2x256 .f32 := (Memref.whole cc9_stg3_0 : Memref sig .tc .vmem S2x256 .f32).view

/-- The class invariant with the scratch as a memref owned at some contents, beside the rest of the scoped
    buffers and the generator register. -/
theorem PhiA9_eq (c : Dev nD) :
    (Pipeline.ΦA spec9 c : sProp 𝕄)
      = iprop(iprop(iprop((∃ d, owns (c : Thread nD τ) scM9 fullShare d)) ∗ Pipeline.scopedRestBut spec9 c [cc9_scratch0]) ∗ (∃ r, prngReg c r)) := by
  unfold Pipeline.ΦA; rw [scopedRest9_split]; simp only [scM9, owns_whole]; try rfl

set_option maxHeartbeats 1000000 in
/-- The body at the first point (the conditional taken): on whole staging memrefs, the inputs' at their contents, the
    outputs' and the scratch at anything, it runs to the continuation holding the inputs' as they were and each
    output and the scratch with its pieces written. The pieces are the witness the run finds. -/
noncomputable def kernelRun9_A (c : Dev nD) (i : grid9.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_stats_kernel i arg1 harg1 arg2 harg2 arg3 harg3 arg4 harg4 arg5 harg5) K } := by
  refine ⟨?_, ?_, ?_, fun E K => ?run⟩
  case run =>
    simp only [cc9__matmul_stats_kernel_eq_skeleton]; unfold cc9__matmul_stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

set_option maxHeartbeats 1000000 in
/-- The body at a later point (the conditional not taken): the same, the scratch entering at the contents `xs0`
    the point before left. -/
noncomputable def kernelRun9_B (c : Dev nD) (i : grid9.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) :
    Σ' (L2 : List (View.Piece (Elt F) S2000x256 .f32)) (L3 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_stats_kernel i arg1 harg1 arg2 harg2 arg3 harg3 arg4 harg4 arg5 harg5) K } := by
  refine ⟨?_, ?_, ?_, fun E K => ?run⟩
  case run =>
    simp only [cc9__matmul_stats_kernel_eq_skeleton]; unfold cc9__matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The pieces case A leaves in the product window tile its block, so they cover it. -/
theorem cover9_A_2 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) (y : S2000x256.Idx) :
    ∃ pc ∈ (kernelRun9_A c i arg1 harg1 arg2 harg2 arg3 harg3 arg4 harg4 arg5 harg5 hc0 x0 x1).1, y ∈ pc.1.set :=
  View.cover_of_tiledL (kernelRun9_A c i arg1 harg1 arg2 harg2 arg3 harg3 arg4 harg4 arg5 harg5 hc0 x0 x1).1 S2000x256.size (by sl_kernel_rfl) y

/-- What case A leaves in the product window's staging buffer: its pieces read back over junk. -/
def out9_A_2 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) : Vec F S2000x256 .f32 :=
  VO9_2.read (Elt F) (VO9_2.writes (Elt F) VO9_2.junk (kernelRun9_A c i arg1 harg1 arg2 harg2 arg3 harg3 arg4 harg4 arg5 harg5 hc0 x0 x1).1)

/-- The pieces case A leaves in the statistics window cover it (one whole store). -/
theorem cover9_A_3 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) (y : S2x256.Idx) :
    ∃ pc ∈ (kernelRun9_A c i arg1 harg1 arg2 harg2 arg3 harg3 arg4 harg4 arg5 harg5 hc0 x0 x1).2.1, y ∈ pc.1.set :=
  View.cover_of_tiledL (kernelRun9_A c i arg1 harg1 arg2 harg2 arg3 harg3 arg4 harg4 arg5 harg5 hc0 x0 x1).2.1 S2x256.size (by sl_kernel_rfl) y

/-- What case A leaves in the statistics window's staging buffer. -/
def out9_A_3 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) : Vec F S2x256 .f32 :=
  VO9_3.read (Elt F) (VO9_3.writes (Elt F) VO9_3.junk (kernelRun9_A c i arg1 harg1 arg2 harg2 arg3 harg3 arg4 harg4 arg5 harg5 hc0 x0 x1).2.1)

/-- The pieces case A leaves in the scratch cover it: its two rows, each stored whole. -/
theorem scover9_A (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) (y : S2x256.Idx) :
    ∃ pc ∈ (kernelRun9_A c i arg1 harg1 arg2 harg2 arg3 harg3 arg4 harg4 arg5 harg5 hc0 x0 x1).2.2.1, y ∈ pc.1.set :=
  View.cover_of_tiledL (kernelRun9_A c i arg1 harg1 arg2 harg2 arg3 harg3 arg4 harg4 arg5 harg5 hc0 x0 x1).2.2.1 ![1, 256] (by sl_kernel_rfl) y

/-- What case A leaves in the scratch. -/
def sout9_A (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : cond9 i)
    (x0 : Vec F S2000x256 .f32) (x1 : Vec F S256x256 .f32) : Vec F S2x256 .f32 :=
  VS9.read (Elt F) (VS9.writes (Elt F) VS9.junk (kernelRun9_A c i arg1 harg1 arg2 harg2 arg3 harg3 arg4 harg4 arg5 harg5 hc0 x0 x1).2.2.1)

/-- The pieces case B leaves in the product window tile its block, so they cover it. -/
theorem cover9_B_2 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) (y : S2000x256.Idx) :
    ∃ pc ∈ (kernelRun9_B c i arg1 harg1 arg2 harg2 arg3 harg3 arg4 harg4 arg5 harg5 hc0 x0 x1 xs0).1, y ∈ pc.1.set :=
  View.cover_of_tiledL (kernelRun9_B c i arg1 harg1 arg2 harg2 arg3 harg3 arg4 harg4 arg5 harg5 hc0 x0 x1 xs0).1 S2000x256.size (by sl_kernel_rfl) y

/-- What case B leaves in the product window's staging buffer: its pieces read back over junk. -/
def out9_B_2 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) : Vec F S2000x256 .f32 :=
  VO9_2.read (Elt F) (VO9_2.writes (Elt F) VO9_2.junk (kernelRun9_B c i arg1 harg1 arg2 harg2 arg3 harg3 arg4 harg4 arg5 harg5 hc0 x0 x1 xs0).1)

/-- The pieces case B leaves in the statistics window cover it (one whole store). -/
theorem cover9_B_3 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) (y : S2x256.Idx) :
    ∃ pc ∈ (kernelRun9_B c i arg1 harg1 arg2 harg2 arg3 harg3 arg4 harg4 arg5 harg5 hc0 x0 x1 xs0).2.1, y ∈ pc.1.set :=
  View.cover_of_tiledL (kernelRun9_B c i arg1 harg1 arg2 harg2 arg3 harg3 arg4 harg4 arg5 harg5 hc0 x0 x1 xs0).2.1 S2x256.size (by sl_kernel_rfl) y

/-- What case B leaves in the statistics window's staging buffer. -/
def out9_B_3 (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) : Vec F S2x256 .f32 :=
  VO9_3.read (Elt F) (VO9_3.writes (Elt F) VO9_3.junk (kernelRun9_B c i arg1 harg1 arg2 harg2 arg3 harg3 arg4 harg4 arg5 harg5 hc0 x0 x1 xs0).2.1)

/-- The pieces case B leaves in the scratch cover it: its two rows, each stored whole. -/
theorem scover9_B (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) (y : S2x256.Idx) :
    ∃ pc ∈ (kernelRun9_B c i arg1 harg1 arg2 harg2 arg3 harg3 arg4 harg4 arg5 harg5 hc0 x0 x1 xs0).2.2.1, y ∈ pc.1.set :=
  View.cover_of_tiledL (kernelRun9_B c i arg1 harg1 arg2 harg2 arg3 harg3 arg4 harg4 arg5 harg5 hc0 x0 x1 xs0).2.2.1 ![1, 256] (by sl_kernel_rfl) y

/-- What case B leaves in the scratch. -/
def sout9_B (c : Dev nD) (i : grid9.Coords) (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole) (arg4 : Memref sig .tc .vmem S2x256 .f32) (harg4 : arg4.IsWhole)
    (arg5 : Memref sig .tc .vmem S2x256 .f32) (harg5 : arg5.IsWhole) (hc0 : ¬cond9 i)
    (x0 : Vec F S2000x256 .f32) (x1 : Vec F S256x256 .f32) (xs0 : Vec F S2x256 .f32) : Vec F S2x256 .f32 :=
  VS9.read (Elt F) (VS9.writes (Elt F) VS9.junk (kernelRun9_B c i arg1 harg1 arg2 harg2 arg3 harg3 arg4 harg4 arg5 harg5 hc0 x0 x1 xs0).2.2.1)

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## What the outputs and the scratch hold after each point -/

/-- THE ACCUMULATION. What the two outputs' staging buffers and the scratch hold after the body at position `n` (the
    product window, the statistics window, the scratch): at the first point the first case run at the point's memrefs
    and input blocks; at a later point the second case, the scratch entering at what the point before left. -/
def outsAt9 (c : Dev nD) : (n : ℕ) → n < cfg9.N → Vec F S2000x256 .f32 × Vec F S2x256 .f32 × Vec F S2x256 .f32
  | 0, hn =>
    (out9_A_2 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9 (Memref.isWhole_whole _) ((hcond9 ⟨0, hn⟩).mpr rfl) (iblk9 V c 0 ⟨0, hn⟩) (iblk9 V c 1 ⟨0, hn⟩),
     out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9 (Memref.isWhole_whole _) ((hcond9 ⟨0, hn⟩).mpr rfl) (iblk9 V c 0 ⟨0, hn⟩) (iblk9 V c 1 ⟨0, hn⟩),
     sout9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9 (Memref.isWhole_whole _) ((hcond9 ⟨0, hn⟩).mpr rfl) (iblk9 V c 0 ⟨0, hn⟩) (iblk9 V c 1 ⟨0, hn⟩))
  | n + 1, hn =>
    (out9_B_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _) (fun h => Nat.succ_ne_zero n ((hcond9 ⟨n + 1, hn⟩).mp h)) (iblk9 V c 0 ⟨n + 1, hn⟩) (iblk9 V c 1 ⟨n + 1, hn⟩) (outsAt9 c n (Nat.lt_of_succ_lt hn)).2.2,
     out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _) (fun h => Nat.succ_ne_zero n ((hcond9 ⟨n + 1, hn⟩).mp h)) (iblk9 V c 0 ⟨n + 1, hn⟩) (iblk9 V c 1 ⟨n + 1, hn⟩) (outsAt9 c n (Nat.lt_of_succ_lt hn)).2.2,
     sout9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _) (fun h => Nat.succ_ne_zero n ((hcond9 ⟨n + 1, hn⟩).mp h)) (iblk9 V c 0 ⟨n + 1, hn⟩) (iblk9 V c 1 ⟨n + 1, hn⟩) (outsAt9 c n (Nat.lt_of_succ_lt hn)).2.2)

/-- `outsAt9` at the first point. -/
theorem outsAt9_A (c : Dev nD) (t : Fin cfg9.N) (h0 : t.val = 0) :
    outsAt9 V c t.val t.isLt =
      (out9_A_2 c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t),
       out9_A_3 c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t),
       sout9_A c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t)) := by
  obtain ⟨n, hn⟩ := t
  cases n with
  | zero => exact rfl
  | succ n => exact absurd h0 (Nat.succ_ne_zero n)

/-- `outsAt9` at a later point: over what the point before left in the scratch. -/
theorem outsAt9_B (c : Dev nD) (t : Fin cfg9.N) (h0 : ¬t.val = 0) :
    outsAt9 V c t.val t.isLt =
      (out9_B_2 c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2,
       out9_B_3 c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2,
       sout9_B c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2) := by
  obtain ⟨n, hn⟩ := t
  cases n with
  | zero => exact absurd rfl h0
  | succ n => exact rfl

/-- The region invariant before position `n`: before the first point the class's; afterwards the scratch owned whole at
    what the point before left in it, beside the other scoped buffers and the generator register, both untouched. -/
def PhiS9 (c : Dev nD) : (n : ℕ) → n ≤ cfg9.N → sProp 𝕄
  | 0, _ => Pipeline.ΦA spec9 c
  | n + 1, hn => iprop(iprop(owns (c : Thread nD τ) scM9 fullShare ((outsAt9 V c n hn).2.2) ∗ Pipeline.scopedRestBut spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9 fullShare ((outsAt9 V c n hn).2.2) ∗ Pipeline.scopedRestBut spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9 fullShare ((outsAt9 V c (n - 1) (by omega)).2.2) ∗ Pipeline.scopedRestBut spec9 c [cc9_scratch0]) ∗ (∃ r, prngReg c r)) := by
  cases n with
  | zero => exact absurd rfl hz
  | succ n => rfl

/-! ## The pipeline's proof data -/

/-- Region 9's proof data from the contents `V` the region is entered at. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
    | ⟨3, _⟩ => (outsAt9 V c t.val t.isLt).2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem q_eq9 (c : Dev nD) (w : Fin cfg9.W) : (dat9 V c).q w = fullShare := by
  dsimp only [dat9]
theorem owed_eq9 (c : Dev nD) (t : Fin (cfg9.N + 1)) : (dat9 V c).owed t = 0 := by
  dsimp only [dat9]

/-- The invariant at a point's start, restated at `t.val`. -/
theorem PhiS9_castSucc (c : Dev nD) (t : Fin cfg9.N) :
    (dat9 V c).Φ t.castSucc = PhiS9 V c t.val (Nat.le_of_lt t.isLt) := by
  dsimp only [dat9]; simp only [Fin.coe_castSucc]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem after9_3 (c : Dev nD) (t : Fin cfg9.N) : (dat9 V c).after 3 t = (outsAt9 V c t.val t.isLt).2.1 := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' memrefs hold their blocks; the closed form says which case the point is in, so that
    case's run applies; the invariant hands the body the scratch (at anything at the first point, at what the point before
    left afterwards) and takes it back at this point's contents; the other scoped buffers, the generator register and the
    core's tallies ride through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from rfl, after9_0]
  rw [show (dat9 V c).leavesExact 1 t = owns (c : Thread nD τ) (ms9_1 t) fullShare ((dat9 V c).after 1 t) from rfl, after9_1]
  rw [show (dat9 V c).leavesExact 2 t = owns (c : Thread nD τ) (ms9_2 t) fullShare ((dat9 V c).after 2 t) from rfl, after9_2]
  rw [show (dat9 V c).leavesExact 3 t = owns (c : Thread nD τ) (ms9_3 t) fullShare ((dat9 V c).after 3 t) from rfl, after9_3]
  by_cases h0 : t.val = 0
  · rw [outsAt9_A V c t h0]
    unfold out9_A_2 out9_A_3 sout9_A; (try dsimp only)
    rw [PhiS9_castSucc V c t, PhiS9_zero V c _ _ h0, PhiA9_eq]
    iintro ⟨⟨⟨HS0, Hr⟩, Hg⟩, Ho, ⟨%d0, H0⟩, ⟨%d1, H1⟩, ⟨%d2, H2⟩, ⟨%d3, H3⟩⟩
    iapply ((kernelRun9_A c (grid9.coords t) _ _ _ _ _ _ _ _ _ _ ((hcond9 t).mpr h0) (iblk9 V c 0 t) (iblk9 V c 1 t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover9_A c _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover9_A_2 c _ _ _ _ _ _ _ _ _ _ _ _ _ _)
    unfold owns; iexists _; isplitr
    swap; · iexact H3
    ipureintro; exact View.read_writes_of_cover _ _ _ _ _ (cover9_A_3 c _ _ _ _ _ _ _ _ _ _ _ _ _ _)
  · rw [outsAt9_B V c t h0]
    unfold out9_B_2 out9_B_3 sout9_B; (try dsimp only)
    rw [PhiS9_castSucc V c t, PhiS9_pos V c _ _ h0]
    iintro ⟨⟨⟨HS0, Hr⟩, Hg⟩, Ho, ⟨%d0, H0⟩, ⟨%d1, H1⟩, ⟨%d2, H2⟩, ⟨%d3, H3⟩⟩
    iapply ((kernelRun9_B c (grid9.coords t) _ _ _ _ _ _ _ _ _ _ (fun h => h0 ((hcond9 t).mp h)) (iblk9 V c 0 t) (iblk9 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover9_B c _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover9_B_2 c _ _ _ _ _ _ _ _ _ _ _ _ _ _ _)
    unfold owns; iexists _; isplitr
    swap; · iexact H3
    ipureintro; exact View.read_writes_of_cover _ _ _ _ _ (cover9_B_3 c _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : (Pipeline.ΦA spec9 c : sProp 𝕄) ⊢ (dat9 V c).Φ 0 := by
  rw [show (dat9 V c).Φ 0 = PhiS9 V c 0 (Nat.zero_le _) from rfl, PhiS9_zero V c 0 _ rfl]
  try exact Idealize.SL.BI.Entails.refl _

/-- After any point but the first the invariant gives the class's back: the scratch's named contents are forgotten. -/
theorem Phi_out9 (c : Dev nD) (t : Fin (cfg9.N + 1)) (ht : t.val ≠ 0) : (dat9 V c).Φ t ⊢ (Pipeline.ΦA spec9 c : sProp 𝕄) := by
  rw [show (dat9 V c).Φ t = PhiS9 V c t.val (Nat.le_of_lt_succ t.isLt) from rfl, PhiS9_pos V c _ _ ht, PhiA9_eq]
  iintro ⟨⟨HS0, Hr⟩, Hg⟩
  isplitl [HS0 Hr]
  · isplitl [HS0]
    · iexists _; iexact HS0
    iexact Hr
  iexact Hg

/-- The same after the last point. -/
theorem hout9 (c : Dev nD) : (dat9 V c).Φ (Fin.last cfg9.N) ⊢ (Pipeline.ΦA spec9 c : sProp 𝕄) :=
  Phi_out9 V c _ (by rw [Fin.val_last]; have : cfg9.N = 25 := N_9; omega)

/-- The bound on the recorded pairs is left at everything. -/
theorem recorded_eq9 (c : Dev nD) (t : Fin (cfg9.N + 1)) : (dat9 V c).recorded t = Set.univ := rfl

end Cert.KernelIdeal.Hand

end
-- ==== Proof.KI.R10.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 10: the blocks, the branch, the memrefs -/

/-- Window `w`'s block at point `t`, read off its array as the region is entered (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The body's one branch: "this is the first row block" (the grid coordinate is zero). -/
abbrev cond10_0 (i : grid10.Coords) : Prop := (Scalar.cmpi .ne (Scalar.extui (Scalar.cmpi .eq (BitVec.ofNat 32 (i 0).val) 0#32)) 0#32) = 1#1
/-- It holds at the first point only — decided over the 25 points. -/
theorem hcond10_0 : ∀ t : Fin cfg10.N, cond10_0 (grid10.coords t) ↔ t.val % 25 = 0 :=
  (by decide +kernel : ∀ t : Fin grid10.N, cond10_0 (grid10.coords t) ↔ t.val % 25 = 0)

/-- Each window's current staging memref at point `t`, and its wholeness. -/
abbrev ms10_0 (t : Fin cfg10.N) : Memref sig .tc .vmem S2000x256 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x256 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x256 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x256 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x256 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S256x256 .f32 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S2000x256 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S2x256 .f32 := win10_7.stage (cfg10.slots t 7)
abbrev hs10_7 (t : Fin cfg10.N) : (ms10_7 t).IsWhole := hstage10_7 ((cfg10.slots t 7).cast nbuf10_7)
/-- The accumulator of the column sums: a whole scoped buffer of the kernel's own, carried from point to point. -/
abbrev scM10_0 : Memref sig .tc .vmem S2x256 .f32 := Memref.whole cc10_scratch0
/-- The views through which the outputs' and the accumulator's contents are stated. -/
abbrev VS10_0 : View sig .tc .vmem S2x256 .f32 := scM10_0.view
abbrev VO10_6 : View sig .tc .vmem S2000x256 .f32 := (Memref.whole cc10_stg6_0 : Memref sig .tc .vmem S2000x256 .f32).view
abbrev VO10_7 : View sig .tc .vmem S2x256 .f32 := (Memref.whole cc10_stg7_0 : Memref sig .tc .vmem S2x256 .f32).view

/-- Every other scoped buffer of the core (the other regions' staging buffers and accumulators), at some contents
    each: it rides through the region untouched. -/
abbrev rest10 (c : Dev nD) : sProp 𝕄 :=
  Pipeline.scopedRestBut (Ix := Unit) (Name := ℕ) (U := UR sig nD τ) (Lvl := ℕ) (Val := Elt F) spec10 c [cc10_scratch0]

/-- What the region is entered with and gives back: the accumulator owned whole at some contents, the other
    scoped buffers, the generator register. -/
theorem PhiA10_eq (c : Dev nD) :
    (Pipeline.ΦA spec10 c : sProp 𝕄)
      = iprop(iprop(iprop(∃ d, owns (c : Thread nD τ) scM10_0 fullShare d) ∗ rest10 (F := F) c) ∗ (∃ r, prngReg c r)) := by
  unfold Pipeline.ΦA; rw [scopedRest10_split]; simp only [scM10_0, owns_whole]; try rfl

/-! ## The body's run, one per control case -/

set_option maxHeartbeats 4000000 in
/-- THE FIRST ROW BLOCK (the branch taken). On whole memrefs — the six inputs' at their contents, the two outputs'
    and the accumulator at anything — the body runs to the continuation holding the inputs' as they were and each of
    the two outputs and the accumulator with its stores written, as pieces (last store first): the accumulator is
    zeroed, then its two rows are added to; the product block is stored whole; the statistics window receives a copy
    of the accumulator. The pieces are the witness the run finds. -/
noncomputable def kernelRun10_A (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc10__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc10__affine_matmul_stats_kernel_eq_skeleton]; unfold cc10__affine_matmul_stats_kernel_skel
    simp only [k10_part1_eq_skeleton]; unfold k10_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

set_option maxHeartbeats 4000000 in
/-- A LATER ROW BLOCK (the branch not taken): as the first, but the accumulator is entered at the contents `xs0`
    the row block before left and is only added to. -/
noncomputable def kernelRun10_B (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) :
    Σ' (L6 : List (View.Piece (Elt F) S2000x256 .f32)) (L7 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc10__affine_matmul_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc10__affine_matmul_stats_kernel_eq_skeleton]; unfold cc10__affine_matmul_stats_kernel_skel
    simp only [k10_part1_eq_skeleton]; unfold k10_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the covers, and the pieces read back -/

/-- The first row block's one store into the product window is of its whole block. -/
theorem cover10_A_6 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) (y : S2000x256.Idx) :
    ∃ pc ∈ (kernelRun10_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun10_A c i arg1 harg1 arg2 harg2 arg3 harg3 arg4 harg4 arg5 harg5 arg6 harg6 arg7 harg7 arg8 harg8 arg9 harg9 hc0 x0 x1 x2 x3 x4 x5).1 S2000x256.size (by sl_kernel_rfl) y
/-- What the first row block leaves in the product window's staging buffer: its pieces read back. -/
def out10_A_6 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) : Vec F S2000x256 .f32 :=
  VO10_6.read (Elt F) (VO10_6.writes (Elt F) VO10_6.junk (kernelRun10_A c i arg1 harg1 arg2 harg2 arg3 harg3 arg4 harg4 arg5 harg5 arg6 harg6 arg7 harg7 arg8 harg8 arg9 harg9 hc0 x0 x1 x2 x3 x4 x5).1)
/-- Its one store into the statistics window is of the whole window. -/
theorem cover10_A_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) (y : S2x256.Idx) :
    ∃ pc ∈ (kernelRun10_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun10_A c i arg1 harg1 arg2 harg2 arg3 harg3 arg4 harg4 arg5 harg5 arg6 harg6 arg7 harg7 arg8 harg8 arg9 harg9 hc0 x0 x1 x2 x3 x4 x5).2.1 S2x256.size (by sl_kernel_rfl) y
def out10_A_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) : Vec F S2x256 .f32 :=
  VO10_7.read (Elt F) (VO10_7.writes (Elt F) VO10_7.junk (kernelRun10_A c i arg1 harg1 arg2 harg2 arg3 harg3 arg4 harg4 arg5 harg5 arg6 harg6 arg7 harg7 arg8 harg8 arg9 harg9 hc0 x0 x1 x2 x3 x4 x5).2.1)
/-- Its stores into the accumulator cover it (the zeroing store alone does). -/
theorem scover10_A_0 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) (y : S2x256.Idx) :
    ∃ pc ∈ (kernelRun10_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun10_A c i arg1 harg1 arg2 harg2 arg3 harg3 arg4 harg4 arg5 harg5 arg6 harg6 arg7 harg7 arg8 harg8 arg9 harg9 hc0 x0 x1 x2 x3 x4 x5).2.2.1 S2x256.size (by sl_kernel_rfl) y
/-- What the first row block leaves in the accumulator. -/
def sout10_A_0 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) : Vec F S2x256 .f32 :=
  VS10_0.read (Elt F) (VS10_0.writes (Elt F) VS10_0.junk (kernelRun10_A c i arg1 harg1 arg2 harg2 arg3 harg3 arg4 harg4 arg5 harg5 arg6 harg6 arg7 harg7 arg8 harg8 arg9 harg9 hc0 x0 x1 x2 x3 x4 x5).2.2.1)

/-- A later row block: the same three, the accumulator entered at `xs0`. -/
theorem cover10_B_6 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) (y : S2000x256.Idx) :
    ∃ pc ∈ (kernelRun10_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun10_B c i arg1 harg1 arg2 harg2 arg3 harg3 arg4 harg4 arg5 harg5 arg6 harg6 arg7 harg7 arg8 harg8 arg9 harg9 hc0 x0 x1 x2 x3 x4 x5 xs0).1 S2000x256.size (by sl_kernel_rfl) y
def out10_B_6 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) : Vec F S2000x256 .f32 :=
  VO10_6.read (Elt F) (VO10_6.writes (Elt F) VO10_6.junk (kernelRun10_B c i arg1 harg1 arg2 harg2 arg3 harg3 arg4 harg4 arg5 harg5 arg6 harg6 arg7 harg7 arg8 harg8 arg9 harg9 hc0 x0 x1 x2 x3 x4 x5 xs0).1)
theorem cover10_B_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) (y : S2x256.Idx) :
    ∃ pc ∈ (kernelRun10_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun10_B c i arg1 harg1 arg2 harg2 arg3 harg3 arg4 harg4 arg5 harg5 arg6 harg6 arg7 harg7 arg8 harg8 arg9 harg9 hc0 x0 x1 x2 x3 x4 x5 xs0).2.1 S2x256.size (by sl_kernel_rfl) y
def out10_B_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) : Vec F S2x256 .f32 :=
  VO10_7.read (Elt F) (VO10_7.writes (Elt F) VO10_7.junk (kernelRun10_B c i arg1 harg1 arg2 harg2 arg3 harg3 arg4 harg4 arg5 harg5 arg6 harg6 arg7 harg7 arg8 harg8 arg9 harg9 hc0 x0 x1 x2 x3 x4 x5 xs0).2.1)
/-- The two row stores tile the accumulator. -/
theorem scover10_B_0 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) (y : S2x256.Idx) :
    ∃ pc ∈ (kernelRun10_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun10_B c i arg1 harg1 arg2 harg2 arg3 harg3 arg4 harg4 arg5 harg5 arg6 harg6 arg7 harg7 arg8 harg8 arg9 harg9 hc0 x0 x1 x2 x3 x4 x5 xs0).2.2.1 S1x256.size (by sl_kernel_rfl) y
def sout10_B_0 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) : Vec F S2x256 .f32 :=
  VS10_0.read (Elt F) (VS10_0.writes (Elt F) VS10_0.junk (kernelRun10_B c i arg1 harg1 arg2 harg2 arg3 harg3 arg4 harg4 arg5 harg5 arg6 harg6 arg7 harg7 arg8 harg8 arg9 harg9 hc0 x0 x1 x2 x3 x4 x5 xs0).2.2.1)

/-! ## What the outputs and the accumulator hold after each row block -/

/-- THE ACCUMULATION. After the body at row block `n`: the product window's staging buffer, the statistics window's,
    and the accumulator — the first row block from nothing, each later one over the accumulator the one before left. -/
def outsAt10 (c : Dev nD) : (n : ℕ) → n < cfg10.N → Vec F S2000x256 .f32 × Vec F S2x256 .f32 × Vec F S2x256 .f32
  | 0, hn =>
    (out10_A_6 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) scM10_0 (Memref.isWhole_whole _) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩),
     out10_A_7 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) scM10_0 (Memref.isWhole_whole _) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩),
     sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) scM10_0 (Memref.isWhole_whole _) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩))
  | n + 1, hn =>
    have hc : ¬cond10_0 (grid10.coords ⟨n + 1, hn⟩) := fun h => by
      have h1 := (hcond10_0 ⟨n + 1, hn⟩).mp h
      have hN : n + 1 < 25 := lt_of_lt_of_eq hn (show cfg10.N = 25 from N_10)
      (try dsimp only at h1); omega
    (out10_B_6 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) scM10_0 (Memref.isWhole_whole _) hc (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (outsAt10 c n (Nat.lt_of_succ_lt hn)).2.2,
     out10_B_7 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) scM10_0 (Memref.isWhole_whole _) hc (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (outsAt10 c n (Nat.lt_of_succ_lt hn)).2.2,
     sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) scM10_0 (Memref.isWhole_whole _) hc (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (outsAt10 c n (Nat.lt_of_succ_lt hn)).2.2)

/-- `outsAt10` at the first row block. -/
theorem outsAt10_A (c : Dev nD) (t : Fin cfg10.N) (h0 : t.val % 25 = 0) :
    outsAt10 V c t.val t.isLt =
      (out10_A_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t),
       out10_A_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t),
       sout10_A_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t)) := by
  obtain ⟨n, hn⟩ := t
  cases n with
  | zero => exact rfl
  | succ n =>
    exfalso
    have hN : n + 1 < 25 := lt_of_lt_of_eq hn (show cfg10.N = 25 from N_10)
    (try dsimp only at h0); omega

/-- `outsAt10` at a later row block: over what the row block before left in the accumulator. -/
theorem outsAt10_B (c : Dev nD) (t : Fin cfg10.N) (h0 : ¬t.val % 25 = 0) :
    outsAt10 V c t.val t.isLt =
      (out10_B_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2,
       out10_B_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2,
       sout10_B_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact rfl

/-- The region's invariant before row block `n`: at the start what the region is entered with; afterwards the
    accumulator at what the row block before left in it, the other scoped buffers and the generator register as
    they were. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2.2) ∗ rest10 (F := F) c) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((outsAt10 V c n hn).2.2) ∗ rest10 (F := F) c) ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((outsAt10 V c (n - 1) (by omega)).2.2) ∗ rest10 (F := F) c) ∗ (∃ r, prngReg c r)) := by
  cases n with
  | zero => exact absurd rfl hz
  | succ n => rfl

/-! ## The proof data -/

/-- Region 10's proof data from the contents `V` the region is entered at. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => (outsAt10 V c t.val t.isLt).1
    | ⟨7, _⟩ => (outsAt10 V c t.val t.isLt).2.1
  Φ t := PhiS10 V c t.val (Nat.le_of_lt_succ t.isLt)
  q _ := fullShare
  owed _ := 0

theorem A_eq10 (c : Dev nD) (w : Fin cfg10.W) : (dat10 V c).A w = V c (Pipeline.arrRef spec10 w) := by dsimp only [dat10]
theorem q_eq10 (c : Dev nD) (w : Fin cfg10.W) : (dat10 V c).q w = fullShare := by dsimp only [dat10]
theorem owed_eq10 (c : Dev nD) (t : Fin (cfg10.N + 1)) : (dat10 V c).owed t = 0 := by dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = (outsAt10 V c t.val t.isLt).1 := by dsimp only [dat10]
theorem after10_7 (c : Dev nD) (t : Fin cfg10.N) : (dat10 V c).after 7 t = (outsAt10 V c t.val t.isLt).2.1 := by dsimp only [dat10]

/-- Each input's current staging buffer holds its block at every row block, fetched there or not (the five
    parameter windows and the weights are fetched once: their block index never moves). -/
theorem before10_0 (c : Dev nD) (t : Fin cfg10.N) (d) : (dat10 V c).before 0 t d = iblk10 V c 0 t :=
  ((dat10 V c).before_in_eq_fetched 0 rfl (fun _ => rfl) (fun _ _ _ => rfl) (fun t => by rw [after10_0]; unfold Dat.blockOf iblk10; rw [A_eq10]; try rfl) t d).trans
    (by unfold Dat.fetched Dat.blockOf iblk10; rw [A_eq10]; try rfl)
theorem before10_1 (c : Dev nD) (t : Fin cfg10.N) (d) : (dat10 V c).before 1 t d = iblk10 V c 1 t :=
  ((dat10 V c).before_in_eq_fetched 1 rfl (fun _ => rfl) (fun _ _ _ => rfl) (fun t => by rw [after10_1]; unfold Dat.blockOf iblk10; rw [A_eq10]; try rfl) t d).trans
    (by unfold Dat.fetched Dat.blockOf iblk10; rw [A_eq10]; try rfl)
theorem before10_2 (c : Dev nD) (t : Fin cfg10.N) (d) : (dat10 V c).before 2 t d = iblk10 V c 2 t :=
  ((dat10 V c).before_in_eq_fetched 2 rfl (fun _ => rfl) (fun _ _ _ => rfl) (fun t => by rw [after10_2]; unfold Dat.blockOf iblk10; rw [A_eq10]; try rfl) t d).trans
    (by unfold Dat.fetched Dat.blockOf iblk10; rw [A_eq10]; try rfl)
theorem before10_3 (c : Dev nD) (t : Fin cfg10.N) (d) : (dat10 V c).before 3 t d = iblk10 V c 3 t :=
  ((dat10 V c).before_in_eq_fetched 3 rfl (fun _ => rfl) (fun _ _ _ => rfl) (fun t => by rw [after10_3]; unfold Dat.blockOf iblk10; rw [A_eq10]; try rfl) t d).trans
    (by unfold Dat.fetched Dat.blockOf iblk10; rw [A_eq10]; try rfl)
theorem before10_4 (c : Dev nD) (t : Fin cfg10.N) (d) : (dat10 V c).before 4 t d = iblk10 V c 4 t :=
  ((dat10 V c).before_in_eq_fetched 4 rfl (fun _ => rfl) (fun _ _ _ => rfl) (fun t => by rw [after10_4]; unfold Dat.blockOf iblk10; rw [A_eq10]; try rfl) t d).trans
    (by unfold Dat.fetched Dat.blockOf iblk10; rw [A_eq10]; try rfl)
theorem before10_5 (c : Dev nD) (t : Fin cfg10.N) (d) : (dat10 V c).before 5 t d = iblk10 V c 5 t :=
  ((dat10 V c).before_in_eq_fetched 5 rfl (fun _ => rfl) (fun _ _ _ => rfl) (fun t => by rw [after10_5]; unfold Dat.blockOf iblk10; rw [A_eq10]; try rfl) t d).trans
    (by unfold Dat.fetched Dat.blockOf iblk10; rw [A_eq10]; try rfl)

/-! ## The body obligation, at a generic row block -/

/-- What the body is called with at row block `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t)

set_option maxHeartbeats 4800000 in
/-- The body at any row block: the inputs' memrefs hold their blocks; the first row block is the branch taken, every
    later one the branch not taken, entered with the accumulator at what the row block before left; the invariant
    takes the accumulator back at this row block's contents; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).owesAt () t.succ = (dat10 V c).owesAt () t.castSucc from rfl]
  rw [show (dat10 V c).Φ t.succ = PhiS10 V c (t.val + 1) t.isLt from rfl, PhiS10_succ]
  have hN : t.val < 25 := lt_of_lt_of_eq t.isLt (show cfg10.N = 25 from N_10)
  rw [show (dat10 V c).leavesExact 0 t = owns (c : Thread nD τ) (ms10_0 t) fullShare ((dat10 V c).after 0 t) from rfl, after10_0]
  rw [show (dat10 V c).leavesExact 1 t = owns (c : Thread nD τ) (ms10_1 t) fullShare ((dat10 V c).after 1 t) from rfl, after10_1]
  rw [show (dat10 V c).leavesExact 2 t = owns (c : Thread nD τ) (ms10_2 t) fullShare ((dat10 V c).after 2 t) from rfl, after10_2]
  rw [show (dat10 V c).leavesExact 3 t = owns (c : Thread nD τ) (ms10_3 t) fullShare ((dat10 V c).after 3 t) from rfl, after10_3]
  rw [show (dat10 V c).leavesExact 4 t = owns (c : Thread nD τ) (ms10_4 t) fullShare ((dat10 V c).after 4 t) from rfl, after10_4]
  rw [show (dat10 V c).leavesExact 5 t = owns (c : Thread nD τ) (ms10_5 t) fullShare ((dat10 V c).after 5 t) from rfl, after10_5]
  rw [show (dat10 V c).leavesExact 6 t = owns (c : Thread nD τ) (ms10_6 t) fullShare ((dat10 V c).after 6 t) from rfl, after10_6]
  rw [show (dat10 V c).leavesExact 7 t = owns (c : Thread nD τ) (ms10_7 t) fullShare ((dat10 V c).after 7 t) from rfl, after10_7]
  by_cases h0 : t.val % 25 = 0
  ·
    rw [outsAt10_A V c t h0]
    unfold out10_A_6 out10_A_7 sout10_A_0; (try dsimp only)
    have hz : t.val = 0 := by omega
    rw [PhiS10_castSucc V c t, PhiS10_zero V c _ _ hz, PhiA10_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun10_A c (grid10.coords t) _ _ _ _ _ _ _ _ _ _ _ _ _ _ _ _ _ _ ((hcond10_0 t).mpr h0) (iblk10 V c 0 t) (iblk10 V c 1 t) (iblk10 V c 2 t) (iblk10 V c 3 t) (iblk10 V c 4 t) (iblk10 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover10_A_0 _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover10_A_6 _ _ _ _ _ _ _ _ _ _ _ _ _ _ _ _ _ _ _ _ _ _ _ _ _ _ _)
    unfold owns; iexists _; isplitr
    swap; · iexact H7
    ipureintro; exact View.read_writes_of_cover _ _ _ _ _ (cover10_A_7 _ _ _ _ _ _ _ _ _ _ _ _ _ _ _ _ _ _ _ _ _ _ _ _ _ _ _)
  ·
    rw [outsAt10_B V c t h0]
    unfold out10_B_6 out10_B_7 sout10_B_0; (try dsimp only)
    have hz : t.val ≠ 0 := by omega
    rw [PhiS10_castSucc V c t, PhiS10_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun10_B c (grid10.coords t) _ _ _ _ _ _ _ _ _ _ _ _ _ _ _ _ _ _ (fun h => h0 ((hcond10_0 t).mp h)) (iblk10 V c 0 t) (iblk10 V c 1 t) (iblk10 V c 2 t) (iblk10 V c 3 t) (iblk10 V c 4 t) (iblk10 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover10_B_0 _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover10_B_6 _ _ _ _ _ _ _ _ _ _ _ _ _ _ _ _ _ _ _ _ _ _ _ _ _ _ _ _)
    unfold owns; iexists _; isplitr
    swap; · iexact H7
    ipureintro; exact View.read_writes_of_cover _ _ _ _ _ (cover10_B_7 _ _ _ _ _ _ _ _ _ _ _ _ _ _ _ _ _ _ _ _ _ _ _ _ _ _ _ _)

/-- The library's body obligation, at every row block. -/
theorem body_obligation10 (c : Dev nD) : BodyObligation (dat10 (F := F) V c) (defs₀ (F := F)) Variants.none () Set.univ := fun t => by
  rw [bigSep_W10, bigSep_W10]
  exact sound_body10 V c t

/-- What the region is entered with is the invariant before the first row block. -/
theorem hin10 (c : Dev nD) : (Pipeline.ΦA spec10 c : sProp 𝕄) ⊢ (dat10 V c).Φ 0 := by
  rw [show (dat10 V c).Φ 0 = PhiS10 V c 0 (Nat.zero_le _) from rfl, PhiS10_zero V c 0 _ rfl]
  try exact Idealize.SL.BI.Entails.refl _

/-- After any row block the invariant gives back what the region was entered with: the accumulator's named contents
    are forgotten. -/
theorem Phi_out10 (c : Dev nD) (t : Fin (cfg10.N + 1)) (ht : t.val ≠ 0) : (dat10 V c).Φ t ⊢ (Pipeline.ΦA spec10 c : sProp 𝕄) := by
  rw [show (dat10 V c).Φ t = PhiS10 V c t.val (Nat.le_of_lt_succ t.isLt) from rfl, PhiS10_pos V c _ _ ht, PhiA10_eq]
  iintro ⟨⟨HS0, Hr⟩, Hg⟩
  isplitl [HS0 Hr]
  · isplitl [HS0]
    · iexists _; iexact HS0
    iexact Hr
  iexact Hg

theorem hout10 (c : Dev nD) : (dat10 V c).Φ (Fin.last cfg10.N) ⊢ (Pipeline.ΦA spec10 c : sProp 𝕄) :=
  Phi_out10 V c _ (by rw [Fin.val_last]; have : cfg10.N = 25 := N_10; omega)

theorem recorded_eq10 (c : Dev nD) (t : Fin (cfg10.N + 1)) : (dat10 V c).recorded t = Set.univ := rfl

end Cert.KernelIdeal.Hand

end
-- ==== Proof.KI.R11.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: custom_call 11, `cc11__affine_relu_kernel`, at the entry contents `V` -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not: where it is not fetched
    the block index has not moved, and the body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds its block at every point, fetched there or not: where it is not fetched
    the block index has not moved, and the body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds its block at every point, fetched there or not: where it is not fetched
    the block index has not moved, and the body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's staging buffer holds its block at every point, fetched there or not: where it is not fetched
    the block index has not moved, and the body leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's staging buffer holds its block at every point, fetched there or not: where it is not fetched
    the block index has not moved, and the body leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The whole (2000,256) block and the whole (1,256) row, as the rectangles the body loads and stores through. -/
abbrev r11_0 : Rect S2000x256 := Rect.unit (s := S2000x256) ![0, 0] S2000x256.size inb_S2000x256_S2000x256_0_0
abbrev r11_1 : Rect S1x256 := Rect.unit (s := S1x256) ![0, 0] S1x256.size inb_S1x256_S1x256_0_0

/-- The result window's staging buffer after the body, from the five input blocks: the one store, of the
    normalised, scaled, shifted and clamped block. -/
def out11_5 (x0 : Vec F S2000x256 .f32) (x1 x2 x3 x4 : Vec F S1x256 .f32) : Vec F S2000x256 .f32 :=
  View.canon [⟨r11_0, k11_pay1 (View.ld x0 r11_0) (View.ld x1 r11_1) (View.ld x2 r11_1) (View.ld x3 r11_1) (View.ld x4 r11_1)⟩]

/-- The one store is of the whole block, so it covers it. -/
theorem cover11_5 (p0 : Vec F S2000x256 .f32) (y : S2000x256.Idx) :
    ∃ pc ∈ ([⟨r11_0, p0⟩] : List (View.Piece (Elt F) S2000x256 .f32)), y ∈ pc.1.set :=
  View.cover_of_tiled [⟨r11_0, p0⟩] S2000x256.size (by rfl) y

set_option maxHeartbeats 1000000 in
/-- The body on whole staging memrefs, the inputs' at contents `x0 … x4` and the result's at anything, runs to the
    continuation holding the inputs' as they were and the result's at `out11_5` of them. -/
theorem sound_kernel11 (c : Dev nD) (E : Set ℕ) (i : grid11.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__affine_relu_kernel i arg1 harg1 arg2 harg2 arg3 harg3 arg4 harg4 arg5 harg5 arg6 harg6) K := by
  simp only [cc11__affine_relu_kernel_eq_skeleton]; unfold cc11__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- Region 11's proof data from the contents `V` the region is entered at: the arrays as found; after the body at a
    point each input's buffer at its block and the result's at `out11_5` of the input blocks; the invariant the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem q_eq11 (c : Dev nD) (w : Fin cfg11.W) : (dat11 V c).q w = fullShare := by
  dsimp only [dat11]
theorem owed_eq11 (c : Dev nD) (t : Fin (cfg11.N + 1)) : (dat11 V c).owed t = 0 := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so `sound_kernel11` applies; the invariant and what
    is owed pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation11 (c : Dev nD) : BodyObligation (dat11 (F := F) V c) (defs₀ (F := F)) Variants.none () Set.univ := fun t => by
  rw [bigSep_W11, bigSep_W11]
  exact sound_body11 V c t

theorem hin11 (c : Dev nD) : (Pipeline.ΦA spec11 c : sProp 𝕄) ⊢ (dat11 V c).Φ 0 := by
  dsimp only [dat11]; exact BIBase.Entails.rfl
theorem hout11 (c : Dev nD) : (dat11 V c).Φ (Fin.last cfg11.N) ⊢ (Pipeline.ΦA spec11 c : sProp 𝕄) := by
  dsimp only [dat11]; exact BIBase.Entails.rfl

theorem recorded_eq11 (c : Dev nD) (t : Fin (cfg11.N + 1)) : (dat11 V c).recorded t = Set.univ := rfl

end Cert.KernelIdeal.Hand

end
-- ==== Proof.KI.R12.lean ====
import proofs.«148047_j37898791420018_1_alg».proof.Proof.Gen.KernelIdeal.Launch
import proofs.«148047_j37898791420018_1_alg».proof.Proof.Gen.KernelIdeal.Skeleton
import proofs.«148047_j37898791420018_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 12: the five-matmul head, at the entry contents `V` -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not (unfetched, the
    block index has not moved), for any proof data over `V`'s arrays whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's current staging buffer holds its block at every point, fetched there or not (unfetched, the
    block index has not moved), for any proof data over `V`'s arrays whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's current staging buffer holds its block at every point, fetched there or not (unfetched, the
    block index has not moved), for any proof data over `V`'s arrays whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
/-- Input window 3's current staging buffer holds its block at every point, fetched there or not (unfetched, the
    block index has not moved), for any proof data over `V`'s arrays whose body leaves the block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
/-- Input window 4's current staging buffer holds its block at every point, fetched there or not (unfetched, the
    block index has not moved), for any proof data over `V`'s arrays whose body leaves the block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
/-- Input window 5's current staging buffer holds its block at every point, fetched there or not (unfetched, the
    block index has not moved), for any proof data over `V`'s arrays whose body leaves the block in place. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
/-- Input window 6's current staging buffer holds its block at every point, fetched there or not (unfetched, the
    block index has not moved), for any proof data over `V`'s arrays whose body leaves the block in place. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
/-- Input window 7's current staging buffer holds its block at every point, fetched there or not (unfetched, the
    block index has not moved), for any proof data over `V`'s arrays whose body leaves the block in place. -/
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)
/-- Input window 8's current staging buffer holds its block at every point, fetched there or not (unfetched, the
    block index has not moved), for any proof data over `V`'s arrays whose body leaves the block in place. -/
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_h : Rect S2000x128 := Rect.unit (s := S2000x128) ![0, 0] S2000x128.size inb_S2000x128_S2000x128_0_0
abbrev r12_x : Rect S2000x256 := Rect.unit (s := S2000x256) ![0, 0] S2000x256.size inb_S2000x256_S2000x256_0_0
abbrev r12_w : Rect S128x64 := Rect.unit (s := S128x64) ![0, 0] S128x64.size inb_S128x64_S128x64_0_0
abbrev r12_b : Rect S1x64 := Rect.unit (s := S1x64) ![0, 0] S1x64.size inb_S1x64_S1x64_0_0
abbrev r12_pw0 : Rect S4x256x64 := Rect.unit (s := S4x256x64) ![0, 0, 0] S1x256x64.size inb_S4x256x64_S1x256x64_0_0_0
abbrev r12_pw1 : Rect S4x256x64 := Rect.unit (s := S4x256x64) ![1, 0, 0] S1x256x64.size inb_S4x256x64_S1x256x64_1_0_0
abbrev r12_pw2 : Rect S4x256x64 := Rect.unit (s := S4x256x64) ![2, 0, 0] S1x256x64.size inb_S4x256x64_S1x256x64_2_0_0
abbrev r12_pw3 : Rect S4x256x64 := Rect.unit (s := S4x256x64) ![3, 0, 0] S1x256x64.size inb_S4x256x64_S1x256x64_3_0_0
abbrev r12_pb0 : Rect S4x64 := Rect.unit (s := S4x64) ![0, 0] S1x64.size inb_S4x64_S1x64_0_0
abbrev r12_pb1 : Rect S4x64 := Rect.unit (s := S4x64) ![1, 0] S1x64.size inb_S4x64_S1x64_1_0
abbrev r12_pb2 : Rect S4x64 := Rect.unit (s := S4x64) ![2, 0] S1x64.size inb_S4x64_S1x64_2_0
abbrev r12_pb3 : Rect S4x64 := Rect.unit (s := S4x64) ![3, 0] S1x64.size inb_S4x64_S1x64_3_0
abbrev r12_o : Rect S2000x64 := Rect.unit (s := S2000x64) ![0, 0] S2000x64.size inb_S2000x64_S2000x64_0_0

/-! ## What the body leaves in the output window's buffer -/

/-- Window 9's staging buffer after the body, from the input windows' blocks: its one store, whose payload is the
    head's running sum over the loads the body makes, in the body's order. -/
def out12_9 (x0 : Vec F S2000x128 .f32) (x1 x2 x3 x4 : Vec F S2000x256 .f32) (x5 : Vec F S128x64 .f32) (x6 : Vec F S1x64 .f32)
    (x7 : Vec F S4x256x64 .f32) (x8 : Vec F S4x64 .f32) : Vec F S2000x64 .f32 :=
  View.canon [⟨r12_o, k12_pay1
    (k12_pay2 (View.ld x0 r12_h) (View.ld x5 r12_w) (View.ld x6 r12_b) (View.ld x1 r12_x) (View.ld x7 r12_pw0) (View.ld x8 r12_pb0)
      (View.ld x2 r12_x) (View.ld x7 r12_pw1) (View.ld x8 r12_pb1))
    (k12_pay3 (View.ld x3 r12_x)) (View.ld x7 r12_pw2) (View.ld x8 r12_pb2) (View.ld x4 r12_x) (View.ld x7 r12_pw3) (View.ld x8 r12_pb3)⟩]

/-- The one store fills the buffer. -/
theorem cover12_9 (p0 : Vec F S2000x64 .f32) (y : S2000x64.Idx) :
    ∃ pc ∈ ([⟨r12_o, p0⟩] : List (View.Piece (Elt F) S2000x64 .f32)), y ∈ pc.1.set :=
  View.cover_of_tiled [⟨r12_o, p0⟩] S2000x64.size (by rfl) y

/-! ## The body's triple -/

set_option maxHeartbeats 4000000 in
/-- The kernel body on whole staging memrefs, the inputs' at read contents `xW` and the output's at anything, runs to
    the continuation holding the inputs' as they were and the output's at `out12_9` of the inputs'. -/
theorem sound_kernel12 (c : Dev nD) (E : Set ℕ) (i : grid12.Coords)
    (arg1 : Memref sig .tc .vmem S2000x128 .f32) (harg1 : arg1.IsWhole) (arg2 : Memref sig .tc .vmem S2000x256 .f32) (harg2 : arg2.IsWhole)
    (arg3 : Memref sig .tc .vmem S2000x256 .f32) (harg3 : arg3.IsWhole) (arg4 : Memref sig .tc .vmem S2000x256 .f32) (harg4 : arg4.IsWhole)
    (arg5 : Memref sig .tc .vmem S2000x256 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S4x256x64 .f32) (harg8 : arg8.IsWhole)
    (arg9 : Memref sig .tc .vmem S4x64 .f32) (harg9 : arg9.IsWhole) (arg10 : Memref sig .tc .vmem S2000x64 .f32) (harg10 : arg10.IsWhole)
    (x0 : Vec F S2000x128 .f32) (x1 x2 x3 x4 : Vec F S2000x256 .f32) (x5 : Vec F S128x64 .f32) (x6 : Vec F S1x64 .f32)
    (x7 : Vec F S4x256x64 .f32) (x8 : Vec F S4x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out12_9 x0 x1 x2 x3 x4 x5 x6 x7 x8)) -∗ K ⟨⟩))
      ⊢ wp frame (wpE (defs₀ (F := F)) Variants.none c none) E
          (cc12__jk_kernel i arg1 harg1 arg2 harg2 arg3 harg3 arg4 harg4 arg5 harg5 arg6 harg6 arg7 harg7 arg8 harg8 arg9 harg9 arg10 harg10) K := by
  simp only [cc12__jk_kernel_eq_skeleton]; unfold cc12__jk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover12_9 _)

/-! ## The pipeline's proof data -/

/-- Region 12's proof data from the contents `V` the region is entered at: the arrays as the region finds them; after the
    body at point `t` each input's buffer at its block and the output's at `out12_9` of the input blocks; the invariant
    the scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out12_9 (iblk12 V c 0 t) (iblk12 V c 1 t) (iblk12 V c 2 t) (iblk12 V c 3 t) (iblk12 V c 4 t) (iblk12 V c 5 t)
        (iblk12 V c 6 t) (iblk12 V c 7 t) (iblk12 V c 8 t)
  Φ _ := Pipeline.ΦA spec12 c
  q _ := fullShare
  owed _ := 0

theorem A_eq12 (c : Dev nD) (w : Fin cfg12.W) : (dat12 V c).A w = V c (Pipeline.arrRef spec12 w) := by
  dsimp only [dat12]
theorem q_eq12 (c : Dev nD) (w : Fin cfg12.W) : (dat12 V c).q w = fullShare := by
  dsimp only [dat12]
theorem owed_eq12 (c : Dev nD) (t : Fin (cfg12.N + 1)) : (dat12 V c).owed t = 0 := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = out12_9 (iblk12 V c 0 t) (iblk12 V c 1 t) (iblk12 V c 2 t)
    (iblk12 V c 3 t) (iblk12 V c 4 t) (iblk12 V c 5 t) (iblk12 V c 6 t) (iblk12 V c 7 t) (iblk12 V c 8 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel12 c Set.univ _ _ _ _ _ _ _ _ _ _ _ _ _ _ _ _ _ _ _ _ _
    (iblk12 V c 0 t) (iblk12 V c 1 t) (iblk12 V c 2 t) (iblk12 V c 3 t) (iblk12 V c 4 t) (iblk12 V c 5 t) (iblk12 V c 6 t) (iblk12 V c 7 t) (iblk12 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- The invariant is the class's at every point: entering, -/
theorem hin12 (c : Dev nD) : (Pipeline.ΦA spec12 c : sProp 𝕄) ⊢ (dat12 V c).Φ 0 := by
  dsimp only [dat12]; exact BI.Entails.refl _
/-- and leaving. -/
theorem hout12 (c : Dev nD) : (dat12 V c).Φ (Fin.last cfg12.N) ⊢ (Pipeline.ΦA spec12 c : sProp 𝕄) := by
  dsimp only [dat12]; exact BI.Entails.refl _

theorem recorded_eq12 (c : Dev nD) (t : Fin (cfg12.N + 1)) : (dat12 V c).recorded t = Set.univ := rfl

end Cert.KernelIdeal.Hand

end
-- ==== Proof.KI.Chain.lean ====
import proofs.«148047_j37898791420018_1_alg».proof.Proof.Gen.KernelIdeal.Launch
import proofs.«148047_j37898791420018_1_alg».proof.Proof.Gen.KernelIdeal.Regions
import proofs.«148047_j37898791420018_1_alg».proof.Proof.KI.R0
import proofs.«148047_j37898791420018_1_alg».proof.Proof.KI.R1
import proofs.«148047_j37898791420018_1_alg».proof.Proof.KI.R2
import proofs.«148047_j37898791420018_1_alg».proof.Proof.KI.R3
import proofs.«148047_j37898791420018_1_alg».proof.Proof.KI.R4
import proofs.«148047_j37898791420018_1_alg».proof.Proof.KI.R5
import proofs.«148047_j37898791420018_1_alg».proof.Proof.KI.R6
import proofs.«148047_j37898791420018_1_alg».proof.Proof.KI.R7
import proofs.«148047_j37898791420018_1_alg».proof.Proof.KI.R8
import proofs.«148047_j37898791420018_1_alg».proof.Proof.KI.R9
import proofs.«148047_j37898791420018_1_alg».proof.Proof.KI.R10
import proofs.«148047_j37898791420018_1_alg».proof.Proof.KI.R11
import proofs.«148047_j37898791420018_1_alg».proof.Proof.KI.R12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary of @main: a fold from the launch memory

W0 is the launch memory; W(2K+1) is what host stretch K makes of W(2K); W(2K+2) is W(2K+1) with region K's
arrays at what its write-backs leave. -/

/-- Core c's buffers at launch. -/
abbrev W0 : Dev nD → Valuation τ sig (Elt F) := fun c b => m (c, b)

/-- After host stretch 0 (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W_odd_0 (c : Dev nD) : W1 m c = StableHlo.after hostOps0 (W0 m c) := rfl
theorem W_even_0 (c : Dev nD) : W2 m c = Pipeline.withArrays spec0 c (W1 m c) fun w => (dat0 (fun c b => W1 m c b) c).arrAt w cfg0.N := rfl
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After host stretch 1 (region 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W_odd_1 (c : Dev nD) : W3 m c = StableHlo.after hostOps1 (W2 m c) := rfl
theorem W_even_1 (c : Dev nD) : W4 m c = Pipeline.withArrays spec1 c (W3 m c) fun w => (dat1 (fun c b => W3 m c b) c).arrAt w cfg1.N := rfl
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After host stretch 2 (region 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W_odd_2 (c : Dev nD) : W5 m c = StableHlo.after hostOps2 (W4 m c) := rfl
theorem W_even_2 (c : Dev nD) : W6 m c = Pipeline.withArrays spec2 c (W5 m c) fun w => (dat2 (fun c b => W5 m c b) c).arrAt w cfg2.N := rfl
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After host stretch 3 (region 3's entry). -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W_odd_3 (c : Dev nD) : W7 m c = StableHlo.after hostOps3 (W6 m c) := rfl
theorem W_even_3 (c : Dev nD) : W8 m c = Pipeline.withArrays spec3 c (W7 m c) fun w => (dat3 (fun c b => W7 m c b) c).arrAt w cfg3.N := rfl
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After host stretch 4 (region 4's entry). -/
abbrev W9 : Dev nD → Valuation τ sig (Elt F) := fun c => StableHlo.after hostOps4 (W8 m c)
/-- The same read at the TensorCore's references. -/
abbrev V9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (V9 m) c).arrAt w cfg4.N
theorem W_odd_4 (c : Dev nD) : W9 m c = StableHlo.after hostOps4 (W8 m c) := rfl
theorem W_even_4 (c : Dev nD) : W10 m c = Pipeline.withArrays spec4 c (W9 m c) fun w => (dat4 (fun c b => W9 m c b) c).arrAt w cfg4.N := rfl
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

/-- After host stretch 5 (region 5's entry). -/
abbrev W11 : Dev nD → Valuation τ sig (Elt F) := fun c => StableHlo.after hostOps5 (W10 m c)
/-- The same read at the TensorCore's references. -/
abbrev V11 : (c : Dev nD) → (b : Ref sig .tc) → Buf (Elt F) ((c : Thread nD τ).loc b) := fun c b => W11 m c b
/-- At region 5's exit: its arrays at what the pipeline leaves, every other buffer as entered. -/
def W12 (c : Dev nD) : Valuation τ sig (Elt F) :=
  Pipeline.withArrays spec5 c (W11 m c) fun w => (dat5 (V11 m) c).arrAt w cfg5.N
theorem W_odd_5 (c : Dev nD) : W11 m c = StableHlo.after hostOps5 (W10 m c) := rfl
theorem W_even_5 (c : Dev nD) : W12 m c = Pipeline.withArrays spec5 c (W11 m c) fun w => (dat5 (fun c b => W11 m c b) c).arrAt w cfg5.N := rfl
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)

/-- After host stretch 6 (region 6's entry). -/
abbrev W13 : Dev nD → Valuation τ sig (Elt F) := fun c => StableHlo.after hostOps6 (W12 m c)
/-- The same read at the TensorCore's references. -/
abbrev V13 : (c : Dev nD) → (b : Ref sig .tc) → Buf (Elt F) ((c : Thread nD τ).loc b) := fun c b => W13 m c b
/-- At region 6's exit: its arrays at what the pipeline leaves, every other buffer as entered. -/
def W14 (c : Dev nD) : Valuation τ sig (Elt F) :=
  Pipeline.withArrays spec6 c (W13 m c) fun w => (dat6 (V13 m) c).arrAt w cfg6.N
theorem W_odd_6 (c : Dev nD) : W13 m c = StableHlo.after hostOps6 (W12 m c) := rfl
theorem W_even_6 (c : Dev nD) : W14 m c = Pipeline.withArrays spec6 c (W13 m c) fun w => (dat6 (fun c b => W13 m c b) c).arrAt w cfg6.N := rfl
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m c b
theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b hb => W14_of_ne m c b fun w e => hb (Finset.mem_image.mpr ⟨w, Finset.mem_univ _, e⟩)

/-- After host stretch 7 (region 7's entry). -/
abbrev W15 : Dev nD → Valuation τ sig (Elt F) := fun c => StableHlo.after hostOps7 (W14 m c)
/-- The same read at the TensorCore's references. -/
abbrev V15 : (c : Dev nD) → (b : Ref sig .tc) → Buf (Elt F) ((c : Thread nD τ).loc b) := fun c b => W15 m c b
/-- At region 7's exit: its arrays at what the pipeline leaves, every other buffer as entered. -/
def W16 (c : Dev nD) : Valuation τ sig (Elt F) :=
  Pipeline.withArrays spec7 c (W15 m c) fun w => (dat7 (V15 m) c).arrAt w cfg7.N
theorem W_odd_7 (c : Dev nD) : W15 m c = StableHlo.after hostOps7 (W14 m c) := rfl
theorem W_even_7 (c : Dev nD) : W16 m c = Pipeline.withArrays spec7 c (W15 m c) fun w => (dat7 (fun c b => W15 m c b) c).arrAt w cfg7.N := rfl
theorem W16_arr (c : Dev nD) (w : Fin cfg7.W) :
    W16 m c (Proc.devRef .tc (Pipeline.arrRef spec7 w)) = (dat7 (V15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m c b
theorem hF7 (c : Dev nD) (w : Fin cfg7.W) : (dat7 (V15 m) c).arrAt w cfg7.N = V16 m c (Pipeline.arrRef spec7 w) :=
  (W16_arr m c w).symm
theorem hrest7 (c : Dev nD) : ∀ b, b ∉ Finset.univ.image (Pipeline.arrRef spec7) → V16 m c b = V15 m c b :=
  fun b hb => W16_of_ne m c b fun w e => hb (Finset.mem_image.mpr ⟨w, Finset.mem_univ _, e⟩)

/-- After host stretch 8 (region 8's entry). -/
abbrev W17 : Dev nD → Valuation τ sig (Elt F) := fun c => StableHlo.after hostOps8 (W16 m c)
/-- The same read at the TensorCore's references. -/
abbrev V17 : (c : Dev nD) → (b : Ref sig .tc) → Buf (Elt F) ((c : Thread nD τ).loc b) := fun c b => W17 m c b
/-- At region 8's exit: its arrays at what the pipeline leaves, every other buffer as entered. -/
def W18 (c : Dev nD) : Valuation τ sig (Elt F) :=
  Pipeline.withArrays spec8 c (W17 m c) fun w => (dat8 (V17 m) c).arrAt w cfg8.N
theorem W_odd_8 (c : Dev nD) : W17 m c = StableHlo.after hostOps8 (W16 m c) := rfl
theorem W_even_8 (c : Dev nD) : W18 m c = Pipeline.withArrays spec8 c (W17 m c) fun w => (dat8 (fun c b => W17 m c b) c).arrAt w cfg8.N := rfl
theorem W18_arr (c : Dev nD) (w : Fin cfg8.W) :
    W18 m c (Proc.devRef .tc (Pipeline.arrRef spec8 w)) = (dat8 (V17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m c b
theorem hF8 (c : Dev nD) (w : Fin cfg8.W) : (dat8 (V17 m) c).arrAt w cfg8.N = V18 m c (Pipeline.arrRef spec8 w) :=
  (W18_arr m c w).symm
theorem hrest8 (c : Dev nD) : ∀ b, b ∉ Finset.univ.image (Pipeline.arrRef spec8) → V18 m c b = V17 m c b :=
  fun b hb => W18_of_ne m c b fun w e => hb (Finset.mem_image.mpr ⟨w, Finset.mem_univ _, e⟩)

/-- After host stretch 9 (region 9's entry). -/
abbrev W19 : Dev nD → Valuation τ sig (Elt F) := fun c => StableHlo.after hostOps9 (W18 m c)
/-- The same read at the TensorCore's references. -/
abbrev V19 : (c : Dev nD) → (b : Ref sig .tc) → Buf (Elt F) ((c : Thread nD τ).loc b) := fun c b => W19 m c b
/-- At region 9's exit: its arrays at what the pipeline leaves, every other buffer as entered. -/
def W20 (c : Dev nD) : Valuation τ sig (Elt F) :=
  Pipeline.withArrays spec9 c (W19 m c) fun w => (dat9 (V19 m) c).arrAt w cfg9.N
theorem W_odd_9 (c : Dev nD) : W19 m c = StableHlo.after hostOps9 (W18 m c) := rfl
theorem W_even_9 (c : Dev nD) : W20 m c = Pipeline.withArrays spec9 c (W19 m c) fun w => (dat9 (fun c b => W19 m c b) c).arrAt w cfg9.N := rfl
theorem W20_arr (c : Dev nD) (w : Fin cfg9.W) :
    W20 m c (Proc.devRef .tc (Pipeline.arrRef spec9 w)) = (dat9 (V19 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m c b
theorem hF9 (c : Dev nD) (w : Fin cfg9.W) : (dat9 (V19 m) c).arrAt w cfg9.N = V20 m c (Pipeline.arrRef spec9 w) :=
  (W20_arr m c w).symm
theorem hrest9 (c : Dev nD) : ∀ b, b ∉ Finset.univ.image (Pipeline.arrRef spec9) → V20 m c b = V19 m c b :=
  fun b hb => W20_of_ne m c b fun w e => hb (Finset.mem_image.mpr ⟨w, Finset.mem_univ _, e⟩)

/-- After host stretch 10 (region 10's entry). -/
abbrev W21 : Dev nD → Valuation τ sig (Elt F) := fun c => StableHlo.after hostOps10 (W20 m c)
/-- The same read at the TensorCore's references. -/
abbrev V21 : (c : Dev nD) → (b : Ref sig .tc) → Buf (Elt F) ((c : Thread nD τ).loc b) := fun c b => W21 m c b
/-- At region 10's exit: its arrays at what the pipeline leaves, every other buffer as entered. -/
def W22 (c : Dev nD) : Valuation τ sig (Elt F) :=
  Pipeline.withArrays spec10 c (W21 m c) fun w => (dat10 (V21 m) c).arrAt w cfg10.N
theorem W_odd_10 (c : Dev nD) : W21 m c = StableHlo.after hostOps10 (W20 m c) := rfl
theorem W_even_10 (c : Dev nD) : W22 m c = Pipeline.withArrays spec10 c (W21 m c) fun w => (dat10 (fun c b => W21 m c b) c).arrAt w cfg10.N := rfl
theorem W22_arr (c : Dev nD) (w : Fin cfg10.W) :
    W22 m c (Proc.devRef .tc (Pipeline.arrRef spec10 w)) = (dat10 (V21 m) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m c (Proc.devRef .tc b) = W21 m c (Proc.devRef .tc b) := by
  unfold W22; exact Pipeline.withArrays_of_ne spec10 c _ _ b hb
/-- The same read at the TensorCore's references (region 10's exit contents). -/
abbrev V22 : (c : Dev nD) → (b : Ref sig .tc) → Buf (Elt F) ((c : Thread nD τ).loc b) := fun c b => W22 m c b
theorem hF10 (c : Dev nD) (w : Fin cfg10.W) : (dat10 (V21 m) c).arrAt w cfg10.N = V22 m c (Pipeline.arrRef spec10 w) :=
  (W22_arr m c w).symm
theorem hrest10 (c : Dev nD) : ∀ b, b ∉ Finset.univ.image (Pipeline.arrRef spec10) → V22 m c b = V21 m c b :=
  fun b hb => W22_of_ne m c b fun w e => hb (Finset.mem_image.mpr ⟨w, Finset.mem_univ _, e⟩)

/-- After host stretch 11 (region 11's entry). -/
abbrev W23 : Dev nD → Valuation τ sig (Elt F) := fun c => StableHlo.after hostOps11 (W22 m c)
/-- The same read at the TensorCore's references. -/
abbrev V23 : (c : Dev nD) → (b : Ref sig .tc) → Buf (Elt F) ((c : Thread nD τ).loc b) := fun c b => W23 m c b
/-- At region 11's exit: its arrays at what the pipeline leaves, every other buffer as entered. -/
def W24 (c : Dev nD) : Valuation τ sig (Elt F) :=
  Pipeline.withArrays spec11 c (W23 m c) fun w => (dat11 (V23 m) c).arrAt w cfg11.N
theorem W_odd_11 (c : Dev nD) : W23 m c = StableHlo.after hostOps11 (W22 m c) := rfl
theorem W_even_11 (c : Dev nD) : W24 m c = Pipeline.withArrays spec11 c (W23 m c) fun w => (dat11 (fun c b => W23 m c b) c).arrAt w cfg11.N := rfl
theorem W24_arr (c : Dev nD) (w : Fin cfg11.W) :
    W24 m c (Proc.devRef .tc (Pipeline.arrRef spec11 w)) = (dat11 (V23 m) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m c (Proc.devRef .tc b) = W23 m c (Proc.devRef .tc b) := by
  unfold W24; exact Pipeline.withArrays_of_ne spec11 c _ _ b hb
/-- The same read at the TensorCore's references (region 11's exit contents). -/
abbrev V24 : (c : Dev nD) → (b : Ref sig .tc) → Buf (Elt F) ((c : Thread nD τ).loc b) := fun c b => W24 m c b
theorem hF11 (c : Dev nD) (w : Fin cfg11.W) : (dat11 (V23 m) c).arrAt w cfg11.N = V24 m c (Pipeline.arrRef spec11 w) :=
  (W24_arr m c w).symm
theorem hrest11 (c : Dev nD) : ∀ b, b ∉ Finset.univ.image (Pipeline.arrRef spec11) → V24 m c b = V23 m c b :=
  fun b hb => W24_of_ne m c b fun w e => hb (Finset.mem_image.mpr ⟨w, Finset.mem_univ _, e⟩)

/-- After host stretch 12 (region 12's entry). -/
abbrev W25 : Dev nD → Valuation τ sig (Elt F) := fun c => StableHlo.after hostOps12 (W24 m c)
/-- The same read at the TensorCore's references. -/
abbrev V25 : (c : Dev nD) → (b : Ref sig .tc) → Buf (Elt F) ((c : Thread nD τ).loc b) := fun c b => W25 m c b
/-- At region 12's exit: its arrays at what the pipeline leaves, every other buffer as entered. -/
def W26 (c : Dev nD) : Valuation τ sig (Elt F) :=
  Pipeline.withArrays spec12 c (W25 m c) fun w => (dat12 (V25 m) c).arrAt w cfg12.N
theorem W_odd_12 (c : Dev nD) : W25 m c = StableHlo.after hostOps12 (W24 m c) := rfl
theorem W_even_12 (c : Dev nD) : W26 m c = Pipeline.withArrays spec12 c (W25 m c) fun w => (dat12 (fun c b => W25 m c b) c).arrAt w cfg12.N := rfl
theorem W26_arr (c : Dev nD) (w : Fin cfg12.W) :
    W26 m c (Proc.devRef .tc (Pipeline.arrRef spec12 w)) = (dat12 (V25 m) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m c (Proc.devRef .tc b) = W25 m c (Proc.devRef .tc b) := by
  unfold W26; exact Pipeline.withArrays_of_ne spec12 c _ _ b hb
/-- The same read at the TensorCore's references (region 12's exit contents). -/
abbrev V26 : (c : Dev nD) → (b : Ref sig .tc) → Buf (Elt F) ((c : Thread nD τ).loc b) := fun c b => W26 m c b
theorem hF12 (c : Dev nD) (w : Fin cfg12.W) : (dat12 (V25 m) c).arrAt w cfg12.N = V26 m c (Pipeline.arrRef spec12 w) :=
  (W26_arr m c w).symm
theorem hrest12 (c : Dev nD) : ∀ b, b ∉ Finset.univ.image (Pipeline.arrRef spec12) → V26 m c b = V25 m c b :=
  fun b hb => W26_of_ne m c b fun w e => hb (Finset.mem_image.mpr ⟨w, Finset.mem_univ _, e⟩)

/-! ## The arguments end as launched: no host stretch writes one; a region reads it through an input window or bypasses it -/

theorem W26_main_arg0 (c : Dev nD) : W26 m c (Proc.devRef .tc main_arg0) = m ((c : Thread nD τ).loc main_arg0) :=
  calc W26 m c (Proc.devRef .tc main_arg0)
    _ = W25 m c (Proc.devRef .tc main_arg0) := (W26_arr m c 0).trans (((dat12 (V25 m) c).arrAt_in 0 rfl _).trans (A_eq12 (V25 m) c 0))
    _ = W24 m c (Proc.devRef .tc main_arg0) := StableHlo.after_of_writes_sub hostOps12 _ hostOps12_writes (by decide)
    _ = W23 m c (Proc.devRef .tc main_arg0) := W24_of_ne m c main_arg0 (by decide)
    _ = W22 m c (Proc.devRef .tc main_arg0) := StableHlo.after_of_writes_sub hostOps11 _ hostOps11_writes (by decide)
    _ = W21 m c (Proc.devRef .tc main_arg0) := W22_of_ne m c main_arg0 (by decide)
    _ = W20 m c (Proc.devRef .tc main_arg0) := StableHlo.after_of_writes_sub hostOps10 _ hostOps10_writes (by decide)
    _ = W19 m c (Proc.devRef .tc main_arg0) := W20_of_ne m c main_arg0 (by decide)
    _ = W18 m c (Proc.devRef .tc main_arg0) := StableHlo.after_of_writes_sub hostOps9 _ hostOps9_writes (by decide)
    _ = W17 m c (Proc.devRef .tc main_arg0) := W18_of_ne m c main_arg0 (by decide)
    _ = W16 m c (Proc.devRef .tc main_arg0) := StableHlo.after_of_writes_sub hostOps8 _ hostOps8_writes (by decide)
    _ = W15 m c (Proc.devRef .tc main_arg0) := W16_of_ne m c main_arg0 (by decide)
    _ = W14 m c (Proc.devRef .tc main_arg0) := StableHlo.after_of_writes_sub hostOps7 _ hostOps7_writes (by decide)
    _ = W13 m c (Proc.devRef .tc main_arg0) := W14_of_ne m c main_arg0 (by decide)
    _ = W12 m c (Proc.devRef .tc main_arg0) := StableHlo.after_of_writes_sub hostOps6 _ hostOps6_writes (by decide)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W26_main_arg1 (c : Dev nD) : W26 m c (Proc.devRef .tc main_arg1) = m ((c : Thread nD τ).loc main_arg1) :=
  calc W26 m c (Proc.devRef .tc main_arg1)
    _ = W25 m c (Proc.devRef .tc main_arg1) := W26_of_ne m c main_arg1 (by decide)
    _ = W24 m c (Proc.devRef .tc main_arg1) := StableHlo.after_of_writes_sub hostOps12 _ hostOps12_writes (by decide)
    _ = W23 m c (Proc.devRef .tc main_arg1) := W24_of_ne m c main_arg1 (by decide)
    _ = W22 m c (Proc.devRef .tc main_arg1) := StableHlo.after_of_writes_sub hostOps11 _ hostOps11_writes (by decide)
    _ = W21 m c (Proc.devRef .tc main_arg1) := W22_of_ne m c main_arg1 (by decide)
    _ = W20 m c (Proc.devRef .tc main_arg1) := StableHlo.after_of_writes_sub hostOps10 _ hostOps10_writes (by decide)
    _ = W19 m c (Proc.devRef .tc main_arg1) := W20_of_ne m c main_arg1 (by decide)
    _ = W18 m c (Proc.devRef .tc main_arg1) := StableHlo.after_of_writes_sub hostOps9 _ hostOps9_writes (by decide)
    _ = W17 m c (Proc.devRef .tc main_arg1) := W18_of_ne m c main_arg1 (by decide)
    _ = W16 m c (Proc.devRef .tc main_arg1) := StableHlo.after_of_writes_sub hostOps8 _ hostOps8_writes (by decide)
    _ = W15 m c (Proc.devRef .tc main_arg1) := W16_of_ne m c main_arg1 (by decide)
    _ = W14 m c (Proc.devRef .tc main_arg1) := StableHlo.after_of_writes_sub hostOps7 _ hostOps7_writes (by decide)
    _ = W13 m c (Proc.devRef .tc main_arg1) := W14_of_ne m c main_arg1 (by decide)
    _ = W12 m c (Proc.devRef .tc main_arg1) := StableHlo.after_of_writes_sub hostOps6 _ hostOps6_writes (by decide)
    _ = W11 m c (Proc.devRef .tc main_arg1) := W12_of_ne m c main_arg1 (by decide)
    _ = W10 m c (Proc.devRef .tc main_arg1) := StableHlo.after_of_writes_sub hostOps5 _ hostOps5_writes (by decide)
    _ = W9 m c (Proc.devRef .tc main_arg1) := W10_of_ne m c main_arg1 (by decide)
    _ = W8 m c (Proc.devRef .tc main_arg1) := StableHlo.after_of_writes_sub hostOps4 _ hostOps4_writes (by decide)
    _ = W7 m c (Proc.devRef .tc main_arg1) := W8_of_ne m c main_arg1 (by decide)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide)
    _ = m ((c : Thread nD τ).loc main_arg1) := rfl

theorem W26_main_arg2 (c : Dev nD) : W26 m c (Proc.devRef .tc main_arg2) = m ((c : Thread nD τ).loc main_arg2) :=
  calc W26 m c (Proc.devRef .tc main_arg2)
    _ = W25 m c (Proc.devRef .tc main_arg2) := W26_of_ne m c main_arg2 (by decide)
    _ = W24 m c (Proc.devRef .tc main_arg2) := StableHlo.after_of_writes_sub hostOps12 _ hostOps12_writes (by decide)
    _ = W23 m c (Proc.devRef .tc main_arg2) := W24_of_ne m c main_arg2 (by decide)
    _ = W22 m c (Proc.devRef .tc main_arg2) := StableHlo.after_of_writes_sub hostOps11 _ hostOps11_writes (by decide)
    _ = W21 m c (Proc.devRef .tc main_arg2) := W22_of_ne m c main_arg2 (by decide)
    _ = W20 m c (Proc.devRef .tc main_arg2) := StableHlo.after_of_writes_sub hostOps10 _ hostOps10_writes (by decide)
    _ = W19 m c (Proc.devRef .tc main_arg2) := W20_of_ne m c main_arg2 (by decide)
    _ = W18 m c (Proc.devRef .tc main_arg2) := StableHlo.after_of_writes_sub hostOps9 _ hostOps9_writes (by decide)
    _ = W17 m c (Proc.devRef .tc main_arg2) := W18_of_ne m c main_arg2 (by decide)
    _ = W16 m c (Proc.devRef .tc main_arg2) := StableHlo.after_of_writes_sub hostOps8 _ hostOps8_writes (by decide)
    _ = W15 m c (Proc.devRef .tc main_arg2) := W16_of_ne m c main_arg2 (by decide)
    _ = W14 m c (Proc.devRef .tc main_arg2) := StableHlo.after_of_writes_sub hostOps7 _ hostOps7_writes (by decide)
    _ = W13 m c (Proc.devRef .tc main_arg2) := W14_of_ne m c main_arg2 (by decide)
    _ = W12 m c (Proc.devRef .tc main_arg2) := StableHlo.after_of_writes_sub hostOps6 _ hostOps6_writes (by decide)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := W10_of_ne m c main_arg2 (by decide)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W26_main_arg3 (c : Dev nD) : W26 m c (Proc.devRef .tc main_arg3) = m ((c : Thread nD τ).loc main_arg3) :=
  calc W26 m c (Proc.devRef .tc main_arg3)
    _ = W25 m c (Proc.devRef .tc main_arg3) := W26_of_ne m c main_arg3 (by decide)
    _ = W24 m c (Proc.devRef .tc main_arg3) := StableHlo.after_of_writes_sub hostOps12 _ hostOps12_writes (by decide)
    _ = W23 m c (Proc.devRef .tc main_arg3) := W24_of_ne m c main_arg3 (by decide)
    _ = W22 m c (Proc.devRef .tc main_arg3) := StableHlo.after_of_writes_sub hostOps11 _ hostOps11_writes (by decide)
    _ = W21 m c (Proc.devRef .tc main_arg3) := W22_of_ne m c main_arg3 (by decide)
    _ = W20 m c (Proc.devRef .tc main_arg3) := StableHlo.after_of_writes_sub hostOps10 _ hostOps10_writes (by decide)
    _ = W19 m c (Proc.devRef .tc main_arg3) := W20_of_ne m c main_arg3 (by decide)
    _ = W18 m c (Proc.devRef .tc main_arg3) := StableHlo.after_of_writes_sub hostOps9 _ hostOps9_writes (by decide)
    _ = W17 m c (Proc.devRef .tc main_arg3) := W18_of_ne m c main_arg3 (by decide)
    _ = W16 m c (Proc.devRef .tc main_arg3) := StableHlo.after_of_writes_sub hostOps8 _ hostOps8_writes (by decide)
    _ = W15 m c (Proc.devRef .tc main_arg3) := W16_of_ne m c main_arg3 (by decide)
    _ = W14 m c (Proc.devRef .tc main_arg3) := StableHlo.after_of_writes_sub hostOps7 _ hostOps7_writes (by decide)
    _ = W13 m c (Proc.devRef .tc main_arg3) := W14_of_ne m c main_arg3 (by decide)
    _ = W12 m c (Proc.devRef .tc main_arg3) := StableHlo.after_of_writes_sub hostOps6 _ hostOps6_writes (by decide)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W26_main_arg4 (c : Dev nD) : W26 m c (Proc.devRef .tc main_arg4) = m ((c : Thread nD τ).loc main_arg4) :=
  calc W26 m c (Proc.devRef .tc main_arg4)
    _ = W25 m c (Proc.devRef .tc main_arg4) := W26_of_ne m c main_arg4 (by decide)
    _ = W24 m c (Proc.devRef .tc main_arg4) := StableHlo.after_of_writes_sub hostOps12 _ hostOps12_writes (by decide)
    _ = W23 m c (Proc.devRef .tc main_arg4) := W24_of_ne m c main_arg4 (by decide)
    _ = W22 m c (Proc.devRef .tc main_arg4) := StableHlo.after_of_writes_sub hostOps11 _ hostOps11_writes (by decide)
    _ = W21 m c (Proc.devRef .tc main_arg4) := W22_of_ne m c main_arg4 (by decide)
    _ = W20 m c (Proc.devRef .tc main_arg4) := StableHlo.after_of_writes_sub hostOps10 _ hostOps10_writes (by decide)
    _ = W19 m c (Proc.devRef .tc main_arg4) := W20_of_ne m c main_arg4 (by decide)
    _ = W18 m c (Proc.devRef .tc main_arg4) := StableHlo.after_of_writes_sub hostOps9 _ hostOps9_writes (by decide)
    _ = W17 m c (Proc.devRef .tc main_arg4) := W18_of_ne m c main_arg4 (by decide)
    _ = W16 m c (Proc.devRef .tc main_arg4) := StableHlo.after_of_writes_sub hostOps8 _ hostOps8_writes (by decide)
    _ = W15 m c (Proc.devRef .tc main_arg4) := W16_of_ne m c main_arg4 (by decide)
    _ = W14 m c (Proc.devRef .tc main_arg4) := StableHlo.after_of_writes_sub hostOps7 _ hostOps7_writes (by decide)
    _ = W13 m c (Proc.devRef .tc main_arg4) := W14_of_ne m c main_arg4 (by decide)
    _ = W12 m c (Proc.devRef .tc main_arg4) := StableHlo.after_of_writes_sub hostOps6 _ hostOps6_writes (by decide)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W26_main_arg5 (c : Dev nD) : W26 m c (Proc.devRef .tc main_arg5) = m ((c : Thread nD τ).loc main_arg5) :=
  calc W26 m c (Proc.devRef .tc main_arg5)
    _ = W25 m c (Proc.devRef .tc main_arg5) := W26_of_ne m c main_arg5 (by decide)
    _ = W24 m c (Proc.devRef .tc main_arg5) := StableHlo.after_of_writes_sub hostOps12 _ hostOps12_writes (by decide)
    _ = W23 m c (Proc.devRef .tc main_arg5) := W24_of_ne m c main_arg5 (by decide)
    _ = W22 m c (Proc.devRef .tc main_arg5) := StableHlo.after_of_writes_sub hostOps11 _ hostOps11_writes (by decide)
    _ = W21 m c (Proc.devRef .tc main_arg5) := W22_of_ne m c main_arg5 (by decide)
    _ = W20 m c (Proc.devRef .tc main_arg5) := StableHlo.after_of_writes_sub hostOps10 _ hostOps10_writes (by decide)
    _ = W19 m c (Proc.devRef .tc main_arg5) := W20_of_ne m c main_arg5 (by decide)
    _ = W18 m c (Proc.devRef .tc main_arg5) := StableHlo.after_of_writes_sub hostOps9 _ hostOps9_writes (by decide)
    _ = W17 m c (Proc.devRef .tc main_arg5) := W18_of_ne m c main_arg5 (by decide)
    _ = W16 m c (Proc.devRef .tc main_arg5) := StableHlo.after_of_writes_sub hostOps8 _ hostOps8_writes (by decide)
    _ = W15 m c (Proc.devRef .tc main_arg5) := W16_of_ne m c main_arg5 (by decide)
    _ = W14 m c (Proc.devRef .tc main_arg5) := StableHlo.after_of_writes_sub hostOps7 _ hostOps7_writes (by decide)
    _ = W13 m c (Proc.devRef .tc main_arg5) := W14_of_ne m c main_arg5 (by decide)
    _ = W12 m c (Proc.devRef .tc main_arg5) := StableHlo.after_of_writes_sub hostOps6 _ hostOps6_writes (by decide)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W26_main_arg6 (c : Dev nD) : W26 m c (Proc.devRef .tc main_arg6) = m ((c : Thread nD τ).loc main_arg6) :=
  calc W26 m c (Proc.devRef .tc main_arg6)
    _ = W25 m c (Proc.devRef .tc main_arg6) := W26_of_ne m c main_arg6 (by decide)
    _ = W24 m c (Proc.devRef .tc main_arg6) := StableHlo.after_of_writes_sub hostOps12 _ hostOps12_writes (by decide)
    _ = W23 m c (Proc.devRef .tc main_arg6) := W24_of_ne m c main_arg6 (by decide)
    _ = W22 m c (Proc.devRef .tc main_arg6) := StableHlo.after_of_writes_sub hostOps11 _ hostOps11_writes (by decide)
    _ = W21 m c (Proc.devRef .tc main_arg6) := W22_of_ne m c main_arg6 (by decide)
    _ = W20 m c (Proc.devRef .tc main_arg6) := StableHlo.after_of_writes_sub hostOps10 _ hostOps10_writes (by decide)
    _ = W19 m c (Proc.devRef .tc main_arg6) := W20_of_ne m c main_arg6 (by decide)
    _ = W18 m c (Proc.devRef .tc main_arg6) := StableHlo.after_of_writes_sub hostOps9 _ hostOps9_writes (by decide)
    _ = W17 m c (Proc.devRef .tc main_arg6) := W18_of_ne m c main_arg6 (by decide)
    _ = W16 m c (Proc.devRef .tc main_arg6) := StableHlo.after_of_writes_sub hostOps8 _ hostOps8_writes (by decide)
    _ = W15 m c (Proc.devRef .tc main_arg6) := W16_of_ne m c main_arg6 (by decide)
    _ = W14 m c (Proc.devRef .tc main_arg6) := StableHlo.after_of_writes_sub hostOps7 _ hostOps7_writes (by decide)
    _ = W13 m c (Proc.devRef .tc main_arg6) := W14_of_ne m c main_arg6 (by decide)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W26_main_arg7 (c : Dev nD) : W26 m c (Proc.devRef .tc main_arg7) = m ((c : Thread nD τ).loc main_arg7) :=
  calc W26 m c (Proc.devRef .tc main_arg7)
    _ = W25 m c (Proc.devRef .tc main_arg7) := W26_of_ne m c main_arg7 (by decide)
    _ = W24 m c (Proc.devRef .tc main_arg7) := StableHlo.after_of_writes_sub hostOps12 _ hostOps12_writes (by decide)
    _ = W23 m c (Proc.devRef .tc main_arg7) := W24_of_ne m c main_arg7 (by decide)
    _ = W22 m c (Proc.devRef .tc main_arg7) := StableHlo.after_of_writes_sub hostOps11 _ hostOps11_writes (by decide)
    _ = W21 m c (Proc.devRef .tc main_arg7) := W22_of_ne m c main_arg7 (by decide)
    _ = W20 m c (Proc.devRef .tc main_arg7) := StableHlo.after_of_writes_sub hostOps10 _ hostOps10_writes (by decide)
    _ = W19 m c (Proc.devRef .tc main_arg7) := W20_of_ne m c main_arg7 (by decide)
    _ = W18 m c (Proc.devRef .tc main_arg7) := StableHlo.after_of_writes_sub hostOps9 _ hostOps9_writes (by decide)
    _ = W17 m c (Proc.devRef .tc main_arg7) := W18_of_ne m c main_arg7 (by decide)
    _ = W16 m c (Proc.devRef .tc main_arg7) := StableHlo.after_of_writes_sub hostOps8 _ hostOps8_writes (by decide)
    _ = W15 m c (Proc.devRef .tc main_arg7) := W16_of_ne m c main_arg7 (by decide)
    _ = W14 m c (Proc.devRef .tc main_arg7) := StableHlo.after_of_writes_sub hostOps7 _ hostOps7_writes (by decide)
    _ = W13 m c (Proc.devRef .tc main_arg7) := W14_of_ne m c main_arg7 (by decide)
    _ = W12 m c (Proc.devRef .tc main_arg7) := StableHlo.after_of_writes_sub hostOps6 _ hostOps6_writes (by decide)
    _ = W11 m c (Proc.devRef .tc main_arg7) := W12_of_ne m c main_arg7 (by decide)
    _ = W10 m c (Proc.devRef .tc main_arg7) := StableHlo.after_of_writes_sub hostOps5 _ hostOps5_writes (by decide)
    _ = W9 m c (Proc.devRef .tc main_arg7) := W10_of_ne m c main_arg7 (by decide)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W26_main_arg8 (c : Dev nD) : W26 m c (Proc.devRef .tc main_arg8) = m ((c : Thread nD τ).loc main_arg8) :=
  calc W26 m c (Proc.devRef .tc main_arg8)
    _ = W25 m c (Proc.devRef .tc main_arg8) := (W26_arr m c 5).trans (((dat12 (V25 m) c).arrAt_in 5 rfl _).trans (A_eq12 (V25 m) c 5))
    _ = W24 m c (Proc.devRef .tc main_arg8) := StableHlo.after_of_writes_sub hostOps12 _ hostOps12_writes (by decide)
    _ = W23 m c (Proc.devRef .tc main_arg8) := W24_of_ne m c main_arg8 (by decide)
    _ = W22 m c (Proc.devRef .tc main_arg8) := StableHlo.after_of_writes_sub hostOps11 _ hostOps11_writes (by decide)
    _ = W21 m c (Proc.devRef .tc main_arg8) := W22_of_ne m c main_arg8 (by decide)
    _ = W20 m c (Proc.devRef .tc main_arg8) := StableHlo.after_of_writes_sub hostOps10 _ hostOps10_writes (by decide)
    _ = W19 m c (Proc.devRef .tc main_arg8) := W20_of_ne m c main_arg8 (by decide)
    _ = W18 m c (Proc.devRef .tc main_arg8) := StableHlo.after_of_writes_sub hostOps9 _ hostOps9_writes (by decide)
    _ = W17 m c (Proc.devRef .tc main_arg8) := W18_of_ne m c main_arg8 (by decide)
    _ = W16 m c (Proc.devRef .tc main_arg8) := StableHlo.after_of_writes_sub hostOps8 _ hostOps8_writes (by decide)
    _ = W15 m c (Proc.devRef .tc main_arg8) := W16_of_ne m c main_arg8 (by decide)
    _ = W14 m c (Proc.devRef .tc main_arg8) := StableHlo.after_of_writes_sub hostOps7 _ hostOps7_writes (by decide)
    _ = W13 m c (Proc.devRef .tc main_arg8) := W14_of_ne m c main_arg8 (by decide)
    _ = W12 m c (Proc.devRef .tc main_arg8) := StableHlo.after_of_writes_sub hostOps6 _ hostOps6_writes (by decide)
    _ = W11 m c (Proc.devRef .tc main_arg8) := W12_of_ne m c main_arg8 (by decide)
    _ = W10 m c (Proc.devRef .tc main_arg8) := StableHlo.after_of_writes_sub hostOps5 _ hostOps5_writes (by decide)
    _ = W9 m c (Proc.devRef .tc main_arg8) := W10_of_ne m c main_arg8 (by decide)
    _ = W8 m c (Proc.devRef .tc main_arg8) := StableHlo.after_of_writes_sub hostOps4 _ hostOps4_writes (by decide)
    _ = W7 m c (Proc.devRef .tc main_arg8) := W8_of_ne m c main_arg8 (by decide)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W26_main_arg9 (c : Dev nD) : W26 m c (Proc.devRef .tc main_arg9) = m ((c : Thread nD τ).loc main_arg9) :=
  calc W26 m c (Proc.devRef .tc main_arg9)
    _ = W25 m c (Proc.devRef .tc main_arg9) := W26_of_ne m c main_arg9 (by decide)
    _ = W24 m c (Proc.devRef .tc main_arg9) := StableHlo.after_of_writes_sub hostOps12 _ hostOps12_writes (by decide)
    _ = W23 m c (Proc.devRef .tc main_arg9) := W24_of_ne m c main_arg9 (by decide)
    _ = W22 m c (Proc.devRef .tc main_arg9) := StableHlo.after_of_writes_sub hostOps11 _ hostOps11_writes (by decide)
    _ = W21 m c (Proc.devRef .tc main_arg9) := W22_of_ne m c main_arg9 (by decide)
    _ = W20 m c (Proc.devRef .tc main_arg9) := StableHlo.after_of_writes_sub hostOps10 _ hostOps10_writes (by decide)
    _ = W19 m c (Proc.devRef .tc main_arg9) := W20_of_ne m c main_arg9 (by decide)
    _ = W18 m c (Proc.devRef .tc main_arg9) := StableHlo.after_of_writes_sub hostOps9 _ hostOps9_writes (by decide)
    _ = W17 m c (Proc.devRef .tc main_arg9) := W18_of_ne m c main_arg9 (by decide)
    _ = W16 m c (Proc.devRef .tc main_arg9) := StableHlo.after_of_writes_sub hostOps8 _ hostOps8_writes (by decide)
    _ = W15 m c (Proc.devRef .tc main_arg9) := W16_of_ne m c main_arg9 (by decide)
    _ = W14 m c (Proc.devRef .tc main_arg9) := StableHlo.after_of_writes_sub hostOps7 _ hostOps7_writes (by decide)
    _ = W13 m c (Proc.devRef .tc main_arg9) := W14_of_ne m c main_arg9 (by decide)
    _ = W12 m c (Proc.devRef .tc main_arg9) := StableHlo.after_of_writes_sub hostOps6 _ hostOps6_writes (by decide)
    _ = W11 m c (Proc.devRef .tc main_arg9) := W12_of_ne m c main_arg9 (by decide)
    _ = W10 m c (Proc.devRef .tc main_arg9) := StableHlo.after_of_writes_sub hostOps5 _ hostOps5_writes (by decide)
    _ = W9 m c (Proc.devRef .tc main_arg9) := W10_of_ne m c main_arg9 (by decide)
    _ = W8 m c (Proc.devRef .tc main_arg9) := StableHlo.after_of_writes_sub hostOps4 _ hostOps4_writes (by decide)
    _ = W7 m c (Proc.devRef .tc main_arg9) := W8_of_ne m c main_arg9 (by decide)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W26_main_arg10 (c : Dev nD) : W26 m c (Proc.devRef .tc main_arg10) = m ((c : Thread nD τ).loc main_arg10) :=
  calc W26 m c (Proc.devRef .tc main_arg10)
    _ = W25 m c (Proc.devRef .tc main_arg10) := (W26_arr m c 7).trans (((dat12 (V25 m) c).arrAt_in 7 rfl _).trans (A_eq12 (V25 m) c 7))
    _ = W24 m c (Proc.devRef .tc main_arg10) := StableHlo.after_of_writes_sub hostOps12 _ hostOps12_writes (by decide)
    _ = W23 m c (Proc.devRef .tc main_arg10) := W24_of_ne m c main_arg10 (by decide)
    _ = W22 m c (Proc.devRef .tc main_arg10) := StableHlo.after_of_writes_sub hostOps11 _ hostOps11_writes (by decide)
    _ = W21 m c (Proc.devRef .tc main_arg10) := W22_of_ne m c main_arg10 (by decide)
    _ = W20 m c (Proc.devRef .tc main_arg10) := StableHlo.after_of_writes_sub hostOps10 _ hostOps10_writes (by decide)
    _ = W19 m c (Proc.devRef .tc main_arg10) := W20_of_ne m c main_arg10 (by decide)
    _ = W18 m c (Proc.devRef .tc main_arg10) := StableHlo.after_of_writes_sub hostOps9 _ hostOps9_writes (by decide)
    _ = W17 m c (Proc.devRef .tc main_arg10) := W18_of_ne m c main_arg10 (by decide)
    _ = W16 m c (Proc.devRef .tc main_arg10) := StableHlo.after_of_writes_sub hostOps8 _ hostOps8_writes (by decide)
    _ = W15 m c (Proc.devRef .tc main_arg10) := W16_of_ne m c main_arg10 (by decide)
    _ = W14 m c (Proc.devRef .tc main_arg10) := StableHlo.after_of_writes_sub hostOps7 _ hostOps7_writes (by decide)
    _ = W13 m c (Proc.devRef .tc main_arg10) := W14_of_ne m c main_arg10 (by decide)
    _ = W12 m c (Proc.devRef .tc main_arg10) := StableHlo.after_of_writes_sub hostOps6 _ hostOps6_writes (by decide)
    _ = W11 m c (Proc.devRef .tc main_arg10) := W12_of_ne m c main_arg10 (by decide)
    _ = W10 m c (Proc.devRef .tc main_arg10) := StableHlo.after_of_writes_sub hostOps5 _ hostOps5_writes (by decide)
    _ = W9 m c (Proc.devRef .tc main_arg10) := W10_of_ne m c main_arg10 (by decide)
    _ = W8 m c (Proc.devRef .tc main_arg10) := StableHlo.after_of_writes_sub hostOps4 _ hostOps4_writes (by decide)
    _ = W7 m c (Proc.devRef .tc main_arg10) := W8_of_ne m c main_arg10 (by decide)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W26_main_arg11 (c : Dev nD) : W26 m c (Proc.devRef .tc main_arg11) = m ((c : Thread nD τ).loc main_arg11) :=
  calc W26 m c (Proc.devRef .tc main_arg11)
    _ = W25 m c (Proc.devRef .tc main_arg11) := (W26_arr m c 8).trans (((dat12 (V25 m) c).arrAt_in 8 rfl _).trans (A_eq12 (V25 m) c 8))
    _ = W24 m c (Proc.devRef .tc main_arg11) := StableHlo.after_of_writes_sub hostOps12 _ hostOps12_writes (by decide)
    _ = W23 m c (Proc.devRef .tc main_arg11) := W24_of_ne m c main_arg11 (by decide)
    _ = W22 m c (Proc.devRef .tc main_arg11) := StableHlo.after_of_writes_sub hostOps11 _ hostOps11_writes (by decide)
    _ = W21 m c (Proc.devRef .tc main_arg11) := W22_of_ne m c main_arg11 (by decide)
    _ = W20 m c (Proc.devRef .tc main_arg11) := StableHlo.after_of_writes_sub hostOps10 _ hostOps10_writes (by decide)
    _ = W19 m c (Proc.devRef .tc main_arg11) := W20_of_ne m c main_arg11 (by decide)
    _ = W18 m c (Proc.devRef .tc main_arg11) := StableHlo.after_of_writes_sub hostOps9 _ hostOps9_writes (by decide)
    _ = W17 m c (Proc.devRef .tc main_arg11) := W18_of_ne m c main_arg11 (by decide)
    _ = W16 m c (Proc.devRef .tc main_arg11) := StableHlo.after_of_writes_sub hostOps8 _ hostOps8_writes (by decide)
    _ = W15 m c (Proc.devRef .tc main_arg11) := W16_of_ne m c main_arg11 (by decide)
    _ = W14 m c (Proc.devRef .tc main_arg11) := StableHlo.after_of_writes_sub hostOps7 _ hostOps7_writes (by decide)
    _ = W13 m c (Proc.devRef .tc main_arg11) := W14_of_ne m c main_arg11 (by decide)
    _ = W12 m c (Proc.devRef .tc main_arg11) := StableHlo.after_of_writes_sub hostOps6 _ hostOps6_writes (by decide)
    _ = W11 m c (Proc.devRef .tc main_arg11) := W12_of_ne m c main_arg11 (by decide)
    _ = W10 m c (Proc.devRef .tc main_arg11) := StableHlo.after_of_writes_sub hostOps5 _ hostOps5_writes (by decide)
    _ = W9 m c (Proc.devRef .tc main_arg11) := W10_of_ne m c main_arg11 (by decide)
    _ = W8 m c (Proc.devRef .tc main_arg11) := StableHlo.after_of_writes_sub hostOps4 _ hostOps4_writes (by decide)
    _ = W7 m c (Proc.devRef .tc main_arg11) := W8_of_ne m c main_arg11 (by decide)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

theorem W26_main_arg12 (c : Dev nD) : W26 m c (Proc.devRef .tc main_arg12) = m ((c : Thread nD τ).loc main_arg12) :=
  calc W26 m c (Proc.devRef .tc main_arg12)
    _ = W25 m c (Proc.devRef .tc main_arg12) := W26_of_ne m c main_arg12 (by decide)
    _ = W24 m c (Proc.devRef .tc main_arg12) := StableHlo.after_of_writes_sub hostOps12 _ hostOps12_writes (by decide)
    _ = W23 m c (Proc.devRef .tc main_arg12) := W24_of_ne m c main_arg12 (by decide)
    _ = W22 m c (Proc.devRef .tc main_arg12) := StableHlo.after_of_writes_sub hostOps11 _ hostOps11_writes (by decide)
    _ = W21 m c (Proc.devRef .tc main_arg12) := W22_of_ne m c main_arg12 (by decide)
    _ = W20 m c (Proc.devRef .tc main_arg12) := StableHlo.after_of_writes_sub hostOps10 _ hostOps10_writes (by decide)
    _ = W19 m c (Proc.devRef .tc main_arg12) := W20_of_ne m c main_arg12 (by decide)
    _ = W18 m c (Proc.devRef .tc main_arg12) := StableHlo.after_of_writes_sub hostOps9 _ hostOps9_writes (by decide)
    _ = W17 m c (Proc.devRef .tc main_arg12) := W18_of_ne m c main_arg12 (by decide)
    _ = W16 m c (Proc.devRef .tc main_arg12) := StableHlo.after_of_writes_sub hostOps8 _ hostOps8_writes (by decide)
    _ = W15 m c (Proc.devRef .tc main_arg12) := W16_of_ne m c main_arg12 (by decide)
    _ = W14 m c (Proc.devRef .tc main_arg12) := StableHlo.after_of_writes_sub hostOps7 _ hostOps7_writes (by decide)
    _ = W13 m c (Proc.devRef .tc main_arg12) := W14_of_ne m c main_arg12 (by decide)
    _ = W12 m c (Proc.devRef .tc main_arg12) := StableHlo.after_of_writes_sub hostOps6 _ hostOps6_writes (by decide)
    _ = W11 m c (Proc.devRef .tc main_arg12) := W12_of_ne m c main_arg12 (by decide)
    _ = W10 m c (Proc.devRef .tc main_arg12) := StableHlo.after_of_writes_sub hostOps5 _ hostOps5_writes (by decide)
    _ = W9 m c (Proc.devRef .tc main_arg12) := W10_of_ne m c main_arg12 (by decide)
    _ = W8 m c (Proc.devRef .tc main_arg12) := StableHlo.after_of_writes_sub hostOps4 _ hostOps4_writes (by decide)
    _ = W7 m c (Proc.devRef .tc main_arg12) := W8_of_ne m c main_arg12 (by decide)
    _ = W6 m c (Proc.devRef .tc main_arg12) := StableHlo.after_of_writes_sub hostOps3 _ hostOps3_writes (by decide)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

theorem W26_main_arg13 (c : Dev nD) : W26 m c (Proc.devRef .tc main_arg13) = m ((c : Thread nD τ).loc main_arg13) :=
  calc W26 m c (Proc.devRef .tc main_arg13)
    _ = W25 m c (Proc.devRef .tc main_arg13) := W26_of_ne m c main_arg13 (by decide)
    _ = W24 m c (Proc.devRef .tc main_arg13) := StableHlo.after_of_writes_sub hostOps12 _ hostOps12_writes (by decide)
    _ = W23 m c (Proc.devRef .tc main_arg13) := W24_of_ne m c main_arg13 (by decide)
    _ = W22 m c (Proc.devRef .tc main_arg13) := StableHlo.after_of_writes_sub hostOps11 _ hostOps11_writes (by decide)
    _ = W21 m c (Proc.devRef .tc main_arg13) := W22_of_ne m c main_arg13 (by decide)
    _ = W20 m c (Proc.devRef .tc main_arg13) := StableHlo.after_of_writes_sub hostOps10 _ hostOps10_writes (by decide)
    _ = W19 m c (Proc.devRef .tc main_arg13) := W20_of_ne m c main_arg13 (by decide)
    _ = W18 m c (Proc.devRef .tc main_arg13) := StableHlo.after_of_writes_sub hostOps9 _ hostOps9_writes (by decide)
    _ = W17 m c (Proc.devRef .tc main_arg13) := W18_of_ne m c main_arg13 (by decide)
    _ = W16 m c (Proc.devRef .tc main_arg13) := StableHlo.after_of_writes_sub hostOps8 _ hostOps8_writes (by decide)
    _ = W15 m c (Proc.devRef .tc main_arg13) := W16_of_ne m c main_arg13 (by decide)
    _ = W14 m c (Proc.devRef .tc main_arg13) := StableHlo.after_of_writes_sub hostOps7 _ hostOps7_writes (by decide)
    _ = W13 m c (Proc.devRef .tc main_arg13) := W14_of_ne m c main_arg13 (by decide)
    _ = W12 m c (Proc.devRef .tc main_arg13) := StableHlo.after_of_writes_sub hostOps6 _ hostOps6_writes (by decide)
    _ = W11 m c (Proc.devRef .tc main_arg13) := W12_of_ne m c main_arg13 (by decide)
    _ = W10 m c (Proc.devRef .tc main_arg13) := StableHlo.after_of_writes_sub hostOps5 _ hostOps5_writes (by decide)
    _ = W9 m c (Proc.devRef .tc main_arg13) := W10_of_ne m c main_arg13 (by decide)
    _ = W8 m c (Proc.devRef .tc main_arg13) := StableHlo.after_of_writes_sub hostOps4 _ hostOps4_writes (by decide)
    _ = W7 m c (Proc.devRef .tc main_arg13) := W8_of_ne m c main_arg13 (by decide)
    _ = W6 m c (Proc.devRef .tc main_arg13) := StableHlo.after_of_writes_sub hostOps3 _ hostOps3_writes (by decide)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl

/-! ## The proof data family and the thread state -/

/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
  | ⟨7, _⟩ => fun c => dat7 (V15 m) c
  | ⟨8, _⟩ => fun c => dat8 (V17 m) c
  | ⟨9, _⟩ => fun c => dat9 (V19 m) c
  | ⟨10, _⟩ => fun c => dat10 (V21 m) c
  | ⟨11, _⟩ => fun c => dat11 (V23 m) c
  | ⟨12, _⟩ => fun c => dat12 (V25 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W26 m c) ∗ ∃ r, prngReg c r)

end Cert.KernelIdeal.Hand

end
-- ==== Proof.KI.Seg0.lean ====
-- Region 0 of @main as one segment of the run: entered holding every unscoped buffer at the contents after host stretch 0, left holding them with the region's arrays at what its write-backs leave.
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 0 (custom_call 0) over the thread state: entered from every unscoped buffer at W1, left at W2.
    Its arrays are split out of the unscoped buffers and put back at the exit contents; the generator register goes
    into the class invariant and comes out (the region's own invariant is entered from it and gives it back);
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 0 c).owed 0 = 0 := owed_eq0 (V1 m) c 0
      have er : (pdats m 0 c).recorded 0 = Set.univ := recorded_eq0 (V1 m) c 0
      unfold Pipeline.Dat.owesAt Pipeline.owesWithin
      rw [e0]
      icases HO with ⟨%W, HO⟩; iexists W; isplitr
      · ipureintro; intro x _
        have hx : x ∈ (pdats m 0 c).recorded 0 := by rw [er]; exact Set.mem_univ x
        exact Or.inl hx
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    have eN : (pdats m 0 c).owed (Fin.last (Pipeline.pin (pcfgs (F := F)) adm 0).N) = 0 := owed_eq0 (V1 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg1.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 1 (custom_call 1) over the thread state: entered from every unscoped buffer at W3, left at W4.
    Its arrays are split out of the unscoped buffers and put back at the exit contents; the generator register goes
    into the class invariant and comes out (the region's own invariant is entered from it and gives it back);
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 1 c).owed 0 = 0 := owed_eq1 (V3 m) c 0
      have er : (pdats m 1 c).recorded 0 = Set.univ := recorded_eq1 (V3 m) c 0
      unfold Pipeline.Dat.owesAt Pipeline.owesWithin
      rw [e0]
      icases HO with ⟨%W, HO⟩; iexists W; isplitr
      · ipureintro; intro x _
        have hx : x ∈ (pdats m 1 c).recorded 0 := by rw [er]; exact Set.mem_univ x
        exact Or.inl hx
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V3 m) c w)
      (V3 m c) (V4 m c) ((pdats m 1 c).arrAt · cfg1.N) (hF1 m c) (hrest1 m c)
    rw [Pipeline.unscopedBufs_held] at hjoin
    have eN : (pdats m 1 c).owed (Fin.last (Pipeline.pin (pcfgs (F := F)) adm 1).N) = 0 := owed_eq1 (V3 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg2.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 2 (custom_call 2) over the thread state: entered from every unscoped buffer at W5, left at W6.
    Its arrays are split out of the unscoped buffers and put back at the exit contents; the generator register goes
    into the class invariant and comes out (the region's own invariant is entered from it and gives it back);
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun c t => owed_eq2 (V5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (V5 m) c w) (V5 m c) fun w => A_eq2 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 2 c).owed 0 = 0 := owed_eq2 (V5 m) c 0
      have er : (pdats m 2 c).recorded 0 = Set.univ := recorded_eq2 (V5 m) c 0
      unfold Pipeline.Dat.owesAt Pipeline.owesWithin
      rw [e0]
      icases HO with ⟨%W, HO⟩; iexists W; isplitr
      · ipureintro; intro x _
        have hx : x ∈ (pdats m 2 c).recorded 0 := by rw [er]; exact Set.mem_univ x
        exact Or.inl hx
      iexact HO
    isplitl [Hp]; · iexact Hp
    iexact Hrest
  hin c := by
    refine .trans ?_ (hin2 (V5 m) c)
    unfold Pipeline.ΦA
    iintro ⟨Hp, -, Hr⟩
    isplitl [Hr]; · iexact Hr
    iexact Hp
  hout c := by
    rw [Pipeline.ownSems0_none]
    refine (hout2 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (V5 m) c w)
      (V5 m c) (V6 m c) ((pdats m 2 c).arrAt · cfg2.N) (hF2 m c) (hrest2 m c)
    rw [Pipeline.unscopedBufs_held] at hjoin
    have eN : (pdats m 2 c).owed (Fin.last (Pipeline.pin (pcfgs (F := F)) adm 2).N) = 0 := owed_eq2 (V5 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg3.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 3 (custom_call 3) over the thread state: entered from every unscoped buffer at W7, left at W8.
    Its arrays are split out of the unscoped buffers and put back at the exit contents; the generator register goes
    into the class invariant and comes out (the region's own invariant is entered from it and gives it back);
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun c t => owed_eq3 (V7 m) c t
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (V7 m) c w) (V7 m c) fun w => A_eq3 (V7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 3 c).owed 0 = 0 := owed_eq3 (V7 m) c 0
      have er : (pdats m 3 c).recorded 0 = Set.univ := recorded_eq3 (V7 m) c 0
      unfold Pipeline.Dat.owesAt Pipeline.owesWithin
      rw [e0]
      icases HO with ⟨%W, HO⟩; iexists W; isplitr
      · ipureintro; intro x _
        have hx : x ∈ (pdats m 3 c).recorded 0 := by rw [er]; exact Set.mem_univ x
        exact Or.inl hx
      iexact HO
    isplitl [Hp]; · iexact Hp
    iexact Hrest
  hin c := by
    refine .trans ?_ (hin3 (V7 m) c)
    unfold Pipeline.ΦA
    iintro ⟨Hp, -, Hr⟩
    isplitl [Hr]; · iexact Hr
    iexact Hp
  hout c := by
    rw [Pipeline.ownSems0_none]
    refine (hout3 (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (V7 m) c w)
      (V7 m c) (V8 m c) ((pdats m 3 c).arrAt · cfg3.N) (hF3 m c) (hrest3 m c)
    rw [Pipeline.unscopedBufs_held] at hjoin
    have eN : (pdats m 3 c).owed (Fin.last (Pipeline.pin (pcfgs (F := F)) adm 3).N) = 0 := owed_eq3 (V7 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg4.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 4 (custom_call 4) over the thread state: entered from every unscoped buffer at W9, left at W10.
    Its arrays are split out of the unscoped buffers and put back at the exit contents; the generator register goes
    into the class invariant and comes out (the region's own invariant is entered from it and gives it back);
    nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun c t => owed_eq4 (V9 m) c t
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (V9 m) c w) (V9 m c) fun w => A_eq4 (V9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 4 c).owed 0 = 0 := owed_eq4 (V9 m) c 0
      have er : (pdats m 4 c).recorded 0 = Set.univ := recorded_eq4 (V9 m) c 0
      unfold Pipeline.Dat.owesAt Pipeline.owesWithin
      rw [e0]
      icases HO with ⟨%W, HO⟩; iexists W; isplitr
      · ipureintro; intro x _
        have hx : x ∈ (pdats m 4 c).recorded 0 := by rw [er]; exact Set.mem_univ x
        exact Or.inl hx
      iexact HO
    isplitl [Hp]; · iexact Hp
    iexact Hrest
  hin c := by
    refine .trans ?_ (hin4 (V9 m) c)
    unfold Pipeline.ΦA
    iintro ⟨Hp, -, Hr⟩
    isplitl [Hr]; · iexact Hr
    iexact Hp
  hout c := by
    rw [Pipeline.ownSems0_none]
    refine (hout4 (V9 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (V9 m) c w)
      (V9 m c) (V10 m c) ((pdats m 4 c).arrAt · cfg4.N) (hF4 m c) (hrest4 m c)
    rw [Pipeline.unscopedBufs_held] at hjoin
    have eN : (pdats m 4 c).owed (Fin.last (Pipeline.pin (pcfgs (F := F)) adm 4).N) = 0 := owed_eq4 (V9 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg5.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 5 (custom_call 5) over the thread state: entered from every unscoped buffer at W11, left at W12.
    Its arrays are split out of the unscoped buffers and put back at the exit contents; the generator register goes
    into the class invariant and comes out (the region's own invariant is entered from it and gives it back);
    nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun c t => owed_eq5 (V11 m) c t
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun w => q_eq5 (V11 m) c w) (V11 m c) fun w => A_eq5 (V11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 5 c).owed 0 = 0 := owed_eq5 (V11 m) c 0
      have er : (pdats m 5 c).recorded 0 = Set.univ := recorded_eq5 (V11 m) c 0
      unfold Pipeline.Dat.owesAt Pipeline.owesWithin
      rw [e0]
      icases HO with ⟨%W, HO⟩; iexists W; isplitr
      · ipureintro; intro x _
        have hx : x ∈ (pdats m 5 c).recorded 0 := by rw [er]; exact Set.mem_univ x
        exact Or.inl hx
      iexact HO
    isplitl [Hp]; · iexact Hp
    iexact Hrest
  hin c := by
    refine .trans ?_ (hin5 (V11 m) c)
    unfold Pipeline.ΦA
    iintro ⟨Hp, -, Hr⟩
    isplitl [Hr]; · iexact Hr
    iexact Hp
  hout c := by
    rw [Pipeline.ownSems0_none]
    refine (hout5 (V11 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun w => q_eq5 (V11 m) c w)
      (V11 m c) (V12 m c) ((pdats m 5 c).arrAt · cfg5.N) (hF5 m c) (hrest5 m c)
    rw [Pipeline.unscopedBufs_held] at hjoin
    have eN : (pdats m 5 c).owed (Fin.last (Pipeline.pin (pcfgs (F := F)) adm 5).N) = 0 := owed_eq5 (V11 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg6.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 6 (custom_call 6) over the thread state: entered from every unscoped buffer at W13, left at W14.
    Its arrays are split out of the unscoped buffers and put back at the exit contents; the generator register goes
    into the class invariant and comes out (the region's own invariant is entered from it and gives it back);
    nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun c t => owed_eq6 (V13 m) c t
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun w => q_eq6 (V13 m) c w) (V13 m c) fun w => A_eq6 (V13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 6 c).owed 0 = 0 := owed_eq6 (V13 m) c 0
      have er : (pdats m 6 c).recorded 0 = Set.univ := recorded_eq6 (V13 m) c 0
      unfold Pipeline.Dat.owesAt Pipeline.owesWithin
      rw [e0]
      icases HO with ⟨%W, HO⟩; iexists W; isplitr
      · ipureintro; intro x _
        have hx : x ∈ (pdats m 6 c).recorded 0 := by rw [er]; exact Set.mem_univ x
        exact Or.inl hx
      iexact HO
    isplitl [Hp]; · iexact Hp
    iexact Hrest
  hin c := by
    refine .trans ?_ (hin6 (V13 m) c)
    unfold Pipeline.ΦA
    iintro ⟨Hp, -, Hr⟩
    isplitl [Hr]; · iexact Hr
    iexact Hp
  hout c := by
    rw [Pipeline.ownSems0_none]
    refine (hout6 (V13 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun w => q_eq6 (V13 m) c w)
      (V13 m c) (V14 m c) ((pdats m 6 c).arrAt · cfg6.N) (hF6 m c) (hrest6 m c)
    rw [Pipeline.unscopedBufs_held] at hjoin
    have eN : (pdats m 6 c).owed (Fin.last (Pipeline.pin (pcfgs (F := F)) adm 6).N) = 0 := owed_eq6 (V13 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg7.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 7 (custom_call 7) over the thread state: entered from every unscoped buffer at W15, left at W16.
    Its arrays are split out of the unscoped buffers and put back at the exit contents; the generator register goes
    into the class invariant and comes out (the region's own invariant is entered from it and gives it back);
    nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m) c).loose
  hwaits := Pipeline.hwaits_of_owed_zero _ _ _ _ L lv 7 fun c t => owed_eq7 (V15 m) c t
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (V15 m c)
  hentry c := by
    rw [Pipeline.ownSems0_none]
    have hsplit := Pipeline.arrays_of_unscopedBufs (p := 7) (pcfgs (F := F)) adm (pdats m) launch7.win launch7.arr_whole c
      ((pdats m 7 c).share_full fun w => q_eq7 (V15 m) c w) (V15 m c) fun w => A_eq7 (V15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 7 c).owed 0 = 0 := owed_eq7 (V15 m) c 0
      have er : (pdats m 7 c).recorded 0 = Set.univ := recorded_eq7 (V15 m) c 0
      unfold Pipeline.Dat.owesAt Pipeline.owesWithin
      rw [e0]
      icases HO with ⟨%W, HO⟩; iexists W; isplitr
      · ipureintro; intro x _
        have hx : x ∈ (pdats m 7 c).recorded 0 := by rw [er]; exact Set.mem_univ x
        exact Or.inl hx
      iexact HO
    isplitl [Hp]; · iexact Hp
    iexact Hrest
  hin c := by
    refine .trans ?_ (hin7 (V15 m) c)
    unfold Pipeline.ΦA
    iintro ⟨Hp, -, Hr⟩
    isplitl [Hr]; · iexact Hr
    iexact Hp
  hout c := by
    rw [Pipeline.ownSems0_none]
    refine (hout7 (V15 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun w => q_eq7 (V15 m) c w)
      (V15 m c) (V16 m c) ((pdats m 7 c).arrAt · cfg7.N) (hF7 m c) (hrest7 m c)
    rw [Pipeline.unscopedBufs_held] at hjoin
    have eN : (pdats m 7 c).owed (Fin.last (Pipeline.pin (pcfgs (F := F)) adm 7).N) = 0 := owed_eq7 (V15 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg8.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 8 (custom_call 8) over the thread state: entered from every unscoped buffer at W17, left at W18.
    Its arrays are split out of the unscoped buffers and put back at the exit contents; the generator register goes
    into the class invariant and comes out (the region's own invariant is entered from it and gives it back);
    nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m) c).loose
  hwaits := Pipeline.hwaits_of_owed_zero _ _ _ _ L lv 8 fun c t => owed_eq8 (V17 m) c t
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (V17 m c)
  hentry c := by
    rw [Pipeline.ownSems0_none]
    have hsplit := Pipeline.arrays_of_unscopedBufs (p := 8) (pcfgs (F := F)) adm (pdats m) launch8.win launch8.arr_whole c
      ((pdats m 8 c).share_full fun w => q_eq8 (V17 m) c w) (V17 m c) fun w => A_eq8 (V17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 8 c).owed 0 = 0 := owed_eq8 (V17 m) c 0
      have er : (pdats m 8 c).recorded 0 = Set.univ := recorded_eq8 (V17 m) c 0
      unfold Pipeline.Dat.owesAt Pipeline.owesWithin
      rw [e0]
      icases HO with ⟨%W, HO⟩; iexists W; isplitr
      · ipureintro; intro x _
        have hx : x ∈ (pdats m 8 c).recorded 0 := by rw [er]; exact Set.mem_univ x
        exact Or.inl hx
      iexact HO
    isplitl [Hp]; · iexact Hp
    iexact Hrest
  hin c := by
    refine .trans ?_ (hin8 (V17 m) c)
    unfold Pipeline.ΦA
    iintro ⟨Hp, -, Hr⟩
    isplitl [Hr]; · iexact Hr
    iexact Hp
  hout c := by
    rw [Pipeline.ownSems0_none]
    refine (hout8 (V17 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun w => q_eq8 (V17 m) c w)
      (V17 m c) (V18 m c) ((pdats m 8 c).arrAt · cfg8.N) (hF8 m c) (hrest8 m c)
    rw [Pipeline.unscopedBufs_held] at hjoin
    have eN : (pdats m 8 c).owed (Fin.last (Pipeline.pin (pcfgs (F := F)) adm 8).N) = 0 := owed_eq8 (V17 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg9.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 9 (custom_call 9) over the thread state: entered from every unscoped buffer at W19, left at W20.
    Its arrays are split out of the unscoped buffers and put back at the exit contents; the generator register goes
    into the class invariant and comes out (the region's own invariant is entered from it and gives it back);
    nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m) c).loose
  hwaits := Pipeline.hwaits_of_owed_zero _ _ _ _ L lv 9 fun c t => owed_eq9 (V19 m) c t
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (V19 m c)
  hentry c := by
    rw [Pipeline.ownSems0_none]
    have hsplit := Pipeline.arrays_of_unscopedBufs (p := 9) (pcfgs (F := F)) adm (pdats m) launch9.win launch9.arr_whole c
      ((pdats m 9 c).share_full fun w => q_eq9 (V19 m) c w) (V19 m c) fun w => A_eq9 (V19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 9 c).owed 0 = 0 := owed_eq9 (V19 m) c 0
      have er : (pdats m 9 c).recorded 0 = Set.univ := recorded_eq9 (V19 m) c 0
      unfold Pipeline.Dat.owesAt Pipeline.owesWithin
      rw [e0]
      icases HO with ⟨%W, HO⟩; iexists W; isplitr
      · ipureintro; intro x _
        have hx : x ∈ (pdats m 9 c).recorded 0 := by rw [er]; exact Set.mem_univ x
        exact Or.inl hx
      iexact HO
    isplitl [Hp]; · iexact Hp
    iexact Hrest
  hin c := by
    refine .trans ?_ (hin9 (V19 m) c)
    unfold Pipeline.ΦA
    iintro ⟨Hp, -, Hr⟩
    isplitl [Hr]; · iexact Hr
    iexact Hp
  hout c := by
    rw [Pipeline.ownSems0_none]
    refine (hout9 (V19 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun w => q_eq9 (V19 m) c w)
      (V19 m c) (V20 m c) ((pdats m 9 c).arrAt · cfg9.N) (hF9 m c) (hrest9 m c)
    rw [Pipeline.unscopedBufs_held] at hjoin
    have eN : (pdats m 9 c).owed (Fin.last (Pipeline.pin (pcfgs (F := F)) adm 9).N) = 0 := owed_eq9 (V19 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg10.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 10 (custom_call 10) over the thread state: entered from every unscoped buffer at W21, left at W22.
    Its arrays are split out of the unscoped buffers and put back at the exit contents; the generator register goes
    into the class invariant and comes out (the region's own invariant is entered from it and gives it back);
    nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m) c).loose
  hwaits := Pipeline.hwaits_of_owed_zero _ _ _ _ L lv 10 fun c t => owed_eq10 (V21 m) c t
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (V21 m c)
  hentry c := by
    rw [Pipeline.ownSems0_none]
    have hsplit := Pipeline.arrays_of_unscopedBufs (p := 10) (pcfgs (F := F)) adm (pdats m) launch10.win launch10.arr_whole c
      ((pdats m 10 c).share_full fun w => q_eq10 (V21 m) c w) (V21 m c) fun w => A_eq10 (V21 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 10 c).owed 0 = 0 := owed_eq10 (V21 m) c 0
      have er : (pdats m 10 c).recorded 0 = Set.univ := recorded_eq10 (V21 m) c 0
      unfold Pipeline.Dat.owesAt Pipeline.owesWithin
      rw [e0]
      icases HO with ⟨%W, HO⟩; iexists W; isplitr
      · ipureintro; intro x _
        have hx : x ∈ (pdats m 10 c).recorded 0 := by rw [er]; exact Set.mem_univ x
        exact Or.inl hx
      iexact HO
    isplitl [Hp]; · iexact Hp
    iexact Hrest
  hin c := by
    refine .trans ?_ (hin10 (V21 m) c)
    unfold Pipeline.ΦA
    iintro ⟨Hp, -, Hr⟩
    isplitl [Hr]; · iexact Hr
    iexact Hp
  hout c := by
    rw [Pipeline.ownSems0_none]
    refine (hout10 (V21 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun w => q_eq10 (V21 m) c w)
      (V21 m c) (V22 m c) ((pdats m 10 c).arrAt · cfg10.N) (hF10 m c) (hrest10 m c)
    rw [Pipeline.unscopedBufs_held] at hjoin
    have eN : (pdats m 10 c).owed (Fin.last (Pipeline.pin (pcfgs (F := F)) adm 10).N) = 0 := owed_eq10 (V21 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg11.lean ====
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 11 (custom_call 11) over the thread state: entered from every unscoped buffer at W23, left at W24.
    Its arrays are split out of the unscoped buffers and put back at the exit contents; the generator register goes
    into the class invariant and comes out (the region's own invariant is entered from it and gives it back);
    nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m) c).loose
  hwaits := Pipeline.hwaits_of_owed_zero _ _ _ _ L lv 11 fun c t => owed_eq11 (V23 m) c t
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec11 c (V23 m c)
  hentry c := by
    rw [Pipeline.ownSems0_none]
    have hsplit := Pipeline.arrays_of_unscopedBufs (p := 11) (pcfgs (F := F)) adm (pdats m) launch11.win launch11.arr_whole c
      ((pdats m 11 c).share_full fun w => q_eq11 (V23 m) c w) (V23 m c) fun w => A_eq11 (V23 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 11 c).owed 0 = 0 := owed_eq11 (V23 m) c 0
      have er : (pdats m 11 c).recorded 0 = Set.univ := recorded_eq11 (V23 m) c 0
      unfold Pipeline.Dat.owesAt Pipeline.owesWithin
      rw [e0]
      icases HO with ⟨%W, HO⟩; iexists W; isplitr
      · ipureintro; intro x _
        have hx : x ∈ (pdats m 11 c).recorded 0 := by rw [er]; exact Set.mem_univ x
        exact Or.inl hx
      iexact HO
    isplitl [Hp]; · iexact Hp
    iexact Hrest
  hin c := by
    refine .trans ?_ (hin11 (V23 m) c)
    unfold Pipeline.ΦA
    iintro ⟨Hp, -, Hr⟩
    isplitl [Hr]; · iexact Hr
    iexact Hp
  hout c := by
    rw [Pipeline.ownSems0_none]
    refine (hout11 (V23 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun w => q_eq11 (V23 m) c w)
      (V23 m c) (V24 m c) ((pdats m 11 c).arrAt · cfg11.N) (hF11 m c) (hrest11 m c)
    rw [Pipeline.unscopedBufs_held] at hjoin
    have eN : (pdats m 11 c).owed (Fin.last (Pipeline.pin (pcfgs (F := F)) adm 11).N) = 0 := owed_eq11 (V23 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

end Cert.KernelIdeal.Hand

end
-- ==== Proof.KI.Seg12.lean ====
-- Region 12 of @main, the last segment of the run: entered holding every unscoped buffer at the contents after host stretch 12, left at the final contents beside the core owing nothing.
import proofs.«148047_j37898791420018_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unifying a library lemma stated over the pinned configuration with the printed one takes unfolding plain
-- definitions in a metavariable's type
set_option backward.isDefEq.respectTransparency.types false in
/-- REGION 12 (custom_call 12) over the thread state: entered from every unscoped buffer at W25, left at W26.
    Its arrays are split out of the unscoped buffers and put back at the exit contents; the generator register goes
    into the class invariant and comes out (the region's own invariant is entered from it and gives it back);
    nothing is owed; the kernel has no semaphore of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m) c).loose
  hwaits := Pipeline.hwaits_of_owed_zero _ _ _ _ L lv 12 fun c t => owed_eq12 (V25 m) c t
  pre c := iprop(StableHlo.held (c : Thread nD τ) (Pipeline.ucRefs τ sig) (W25 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec12 c (V25 m c)
  hentry c := by
    rw [Pipeline.ownSems0_none]
    have hsplit := Pipeline.arrays_of_unscopedBufs (p := 12) (pcfgs (F := F)) adm (pdats m) launch12.win launch12.arr_whole c
      ((pdats m 12 c).share_full fun w => q_eq12 (V25 m) c w) (V25 m c) fun w => A_eq12 (V25 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m 12 c).owed 0 = 0 := owed_eq12 (V25 m) c 0
      have er : (pdats m 12 c).recorded 0 = Set.univ := recorded_eq12 (V25 m) c 0
      unfold Pipeline.Dat.owesAt Pipeline.owesWithin
      rw [e0]
      icases HO with ⟨%W, HO⟩; iexists W; isplitr
      · ipureintro; intro x _
        have hx : x ∈ (pdats m 12 c).recorded 0 := by rw [er]; exact Set.mem_univ x
        exact Or.inl hx
      iexact HO
    isplitl [Hp]; · iexact Hp
    iexact Hrest
  hin c := by
    refine .trans ?_ (hin12 (V25 m) c)
    unfold Pipeline.ΦA
    iintro ⟨Hp, -, Hr⟩
    isplitl [Hr]; · iexact Hr
    iexact Hp
  hout c := by
    rw [Pipeline.ownSems0_none]
    refine (hout12 (V25 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun w => q_eq12 (V25 m) c w)
      (V25 m c) (V26 m c) ((pdats m 12 c).arrAt · cfg12.N) (hF12 m c) (hrest12 m c)
    rw [Pipeline.unscopedBufs_held] at hjoin
    have eN : (pdats m 12 c).owed (Fin.last (Pipeline.pin (pcfgs (F := F)) adm 12).N) = 0 := owed_eq12 (V25 m) c (Fin.last _)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [eN]
    icases HO with ⟨%W, -, HO⟩; iexists W; iexact HO

end Cert.KernelIdeal.Hand

end
-- ==== Proof.KI.Run.lean ====
-- The launch of @main over its 26 segments: every weakly fair execution terminates and every final memory holds each unscoped buffer at the last boundary's contents; the arguments end as launched.
import proofs.«148047_j37898791420018_1_alg».proof.Proof.KI.Seg0
import proofs.«148047_j37898791420018_1_alg».proof.Proof.KI.Seg1
import proofs.«148047_j37898791420018_1_alg».proof.Proof.KI.Seg2
import proofs.«148047_j37898791420018_1_alg».proof.Proof.KI.Seg3
import proofs.«148047_j37898791420018_1_alg».proof.Proof.KI.Seg4
import proofs.«148047_j37898791420018_1_alg».proof.Proof.KI.Seg5
import proofs.«148047_j37898791420018_1_alg».proof.Proof.KI.Seg6
import proofs.«148047_j37898791420018_1_alg».proof.Proof.KI.Seg7
import proofs.«148047_j37898791420018_1_alg».proof.Proof.KI.Seg8
import proofs.«148047_j37898791420018_1_alg».proof.Proof.KI.Seg9
import proofs.«148047_j37898791420018_1_alg».proof.Proof.KI.Seg10
import proofs.«148047_j37898791420018_1_alg».proof.Proof.KI.Seg11
import proofs.«148047_j37898791420018_1_alg».proof.Proof.KI.Seg12

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! # @main as segments, and the launch -/

/-- @main's 26 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m),
    .host (hseg hostOps10 hostOps10_sub hostOps10_fresh (W20 m)),
    .region (reg10 m),
    .host (hseg hostOps11 hostOps11_sub hostOps11_fresh (W22 m)),
    .region (reg11 m),
    .host (hseg hostOps12 hostOps12_sub hostOps12_fresh (W24 m)),
    .region (reg12 m) ]

/-- The segments' fragments of @main are the items of its chain. -/
theorem segs_prog : (segs m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10,
      Prog.lift (.customCall (Pipeline.entry 10) ()),
      StableHlo.seq hostOps11,
      Prog.lift (.customCall (Pipeline.entry 11) ()),
      StableHlo.seq hostOps12,
      Prog.lift (.customCall (Pipeline.entry 12) ()) ] := rfl

/-- @main IS the run of the segments: the chain of its items is the chain of the segments' fragments. -/
theorem main_run (c : Dev nD) : main (F := F) c = Pipeline.Seg.run (segs m) := by
  rw [main_chain c, Pipeline.Seg.run_eq_chain, segs_prog]

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final state holds each unscoped buffer at the last boundary's contents W26: the launch
    over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m c b)
    (hfin := fun c s' => by
      iintro ⟨⟨Hh, -⟩, HSI⟩
      unfold StableHlo.held
      imodintro
      iapply (pointsTo_read_all (Pipeline.ucRefs τ sig) (fun b => (((c : Thread nD τ)).1, b)) (W26 m c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (W26_main_arg0 m c),
    (h c _ (mem_uc main_arg1 (by decide))).trans (W26_main_arg1 m c),
    (h c _ (mem_uc main_arg2 (by decide))).trans (W26_main_arg2 m c),
    (h c _ (mem_uc main_arg3 (by decide))).trans (W26_main_arg3 m c),
    (h c _ (mem_uc main_arg4 (by decide))).trans (W26_main_arg4 m c),
    (h c _ (mem_uc main_arg5 (by decide))).trans (W26_main_arg5 m c),
    (h c _ (mem_uc main_arg6 (by decide))).trans (W26_main_arg6 m c),
    (h c _ (mem_uc main_arg7 (by decide))).trans (W26_main_arg7 m c),
    (h c _ (mem_uc main_arg8 (by decide))).trans (W26_main_arg8 m c),
    (h c _ (mem_uc main_arg9 (by decide))).trans (W26_main_arg9 m c),
    (h c _ (mem_uc main_arg10 (by decide))).trans (W26_main_arg10 m c),
    (h c _ (mem_uc main_arg11 (by decide))).trans (W26_main_arg11 m c),
    (h c _ (mem_uc main_arg12 (by decide))).trans (W26_main_arg12 m c),
    (h c _ (mem_uc main_arg13 (by decide))).trans (W26_main_arg13 m c)⟩) (run_all m ρ)

/-- The same run, naming the result buffer's final contents beside the arguments'. -/
theorem run_result : θ_run defs (onTc (τ := τ) (main (F := F))) ⟨m, fun _ => 0, ρ⟩ (fun r => ∀ c : Dev nD,
      r.2.mem ((c.tc : Thread nD τ).loc main_v215) = W26 m c (Proc.devRef .tc main_v215)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c _ (mem_uc main_v215 (by decide)),
    (h c _ (mem_uc main_arg0 (by decide))).trans (W26_main_arg0 m c),
    (h c _ (mem_uc main_arg1 (by decide))).trans (W26_main_arg1 m c),
    (h c _ (mem_uc main_arg2 (by decide))).trans (W26_main_arg2 m c),
    (h c _ (mem_uc main_arg3 (by decide))).trans (W26_main_arg3 m c),
    (h c _ (mem_uc main_arg4 (by decide))).trans (W26_main_arg4 m c),
    (h c _ (mem_uc main_arg5 (by decide))).trans (W26_main_arg5 m c),
    (h c _ (mem_uc main_arg6 (by decide))).trans (W26_main_arg6 m c),
    (h c _ (mem_uc main_arg7 (by decide))).trans (W26_main_arg7 m c),
    (h c _ (mem_uc main_arg8 (by decide))).trans (W26_main_arg8 m c),
    (h c _ (mem_uc main_arg9 (by decide))).trans (W26_main_arg9 m c),
    (h c _ (mem_uc main_arg10 (by decide))).trans (W26_main_arg10 m c),
    (h c _ (mem_uc main_arg11 (by decide))).trans (W26_main_arg11 m c),
    (h c _ (mem_uc main_arg12 (by decide))).trans (W26_main_arg12 m c),
    (h c _ (mem_uc main_arg13 (by decide))).trans (W26_main_arg13 m c)⟩) (run_all m ρ)

end Cert.KernelIdeal.Hand

end
-- ==== Proof.Ref.Ops0.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 104 operations of statements window 0 of @main, in program order, each call's callee listed in place over the call's own buffers. -/
abbrev ops0 : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg12 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg12 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg12 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg13 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v9 main_v10 (addf : (⟨S50000x128, .f32⟩ : BufTy).Contents (Elt F) → (⟨S50000x128, .f32⟩ : BufTy).Contents (Elt F) → (⟨S50000x128, .f32⟩ : BufTy).Contents (Elt F)),
    StableHlo.binary main_v10 main_arg1 main_v11 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v12 ((extractStridedSlice S1x256 ![0, 0] · slices_S4x256_S1x256_0_0) : (⟨S4x256, .f32⟩ : BufTy).Contents (Elt F) → (⟨S1x256, .f32⟩ : BufTy).Contents (Elt F)),
    StableHlo.reshape main_v12 main_v13 rfl shapeCasts_S1x256_S256,
    StableHlo.unary main_arg5 main_v14 ((extractStridedSlice S1x256 ![0, 0] · slices_S4x256_S1x256_0_0) : (⟨S4x256, .f32⟩ : BufTy).Contents (Elt F) → (⟨S1x256, .f32⟩ : BufTy).Contents (Elt F)),
    StableHlo.reshape main_v14 main_v15 rfl shapeCasts_S1x256_S256,
    StableHlo.nullary main_cst_1 (constant S_ .f32 0x00000000#32),
    StableHlo.binary main_v11 main_cst_1 main_v16 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v17 (broadcastInDim S256 ![] bcast_S_S256 : (⟨S_, .f32⟩ : BufTy).Contents (Elt F) → (⟨S256, .f32⟩ : BufTy).Contents (Elt F)),
    StableHlo.binary main_v16 main_v17 main_v18 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v11 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v11 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v18 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v11 main_v21 main_v22 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v23 (broadcastInDim S256 ![] bcast_S_S256 : (⟨S_, .f32⟩ : BufTy).Contents (Elt F) → (⟨S256, .f32⟩ : BufTy).Contents (Elt F)),
    StableHlo.binary main_v19 main_v23 main_v24 (addf : (⟨S256, .f32⟩ : BufTy).Contents (Elt F) → (⟨S256, .f32⟩ : BufTy).Contents (Elt F) → (⟨S256, .f32⟩ : BufTy).Contents (Elt F)),
    StableHlo.unary main_v24 main_v25 (Host.rsqrt : (⟨S256, .f32⟩ : BufTy).Contents (Elt F) → (⟨S256, .f32⟩ : BufTy).Contents (Elt F)),
    StableHlo.unary main_v25 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v27 main_v28 (mulf : (⟨S50000x256, .f32⟩ : BufTy).Contents (Elt F) → (⟨S50000x256, .f32⟩ : BufTy).Contents (Elt F) → (⟨S50000x256, .f32⟩ : BufTy).Contents (Elt F)),
    StableHlo.unary main_v13 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S50000x256 ![0, 1] bcast_S1x256_S50000x256_0_1 : (⟨S1x256, .f32⟩ : BufTy).Contents (Elt F) → (⟨S50000x256, .f32⟩ : BufTy).Contents (Elt F)),
    StableHlo.binary main_v28 main_v30 main_v31 (mulf : (⟨S50000x256, .f32⟩ : BufTy).Contents (Elt F) → (⟨S50000x256, .f32⟩ : BufTy).Contents (Elt F) → (⟨S50000x256, .f32⟩ : BufTy).Contents (Elt F)),
    StableHlo.unary main_v15 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S50000x256 ![0, 1] bcast_S1x256_S50000x256_0_1 : (⟨S1x256, .f32⟩ : BufTy).Contents (Elt F) → (⟨S50000x256, .f32⟩ : BufTy).Contents (Elt F)),
    StableHlo.binary main_v31 main_v33 main_v34 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v34 : StableHlo.TRef sig ⟨S50000x256, .f32⟩) main_call1.v0 main_call1.v1 maximumf,
    StableHlo.unary main_arg3 main_v36 ((extractStridedSlice S1x256x256 ![0, 0, 0] · slices_S4x256x256_S1x256x256_0_0_0) : (⟨S4x256x256, .f32⟩ : BufTy).Contents (Elt F) → (⟨S1x256x256, .f32⟩ : BufTy).Contents (Elt F)),
    StableHlo.reshape main_v36 main_v37 rfl shapeCasts_S1x256x256_S256x256,
    StableHlo.binary main_v35 main_v37 main_v38 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v39 ((extractStridedSlice S1x256 ![0, 0] · slices_S4x256_S1x256_0_0) : (⟨S4x256, .f32⟩ : BufTy).Contents (Elt F) → (⟨S1x256, .f32⟩ : BufTy).Contents (Elt F)),
    StableHlo.reshape main_v39 main_v40 rfl shapeCasts_S1x256_S256,
    StableHlo.unary main_arg7 main_v41 ((extractStridedSlice S1x256 ![0, 0] · slices_S4x256_S1x256_0_0) : (⟨S4x256, .f32⟩ : BufTy).Contents (Elt F) → (⟨S1x256, .f32⟩ : BufTy).Contents (Elt F)),
    StableHlo.reshape main_v41 main_v42 rfl shapeCasts_S1x256_S256,
    StableHlo.nullary main_cst_5 (constant S_ .f32 0x00000000#32),
    StableHlo.binary main_v38 main_cst_5 main_v43 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_6 (constant S_ .f32 0x47435000#32),
    StableHlo.unary main_cst_6 main_v44 (broadcastInDim S256 ![] bcast_S_S256 : (⟨S_, .f32⟩ : BufTy).Contents (Elt F) → (⟨S256, .f32⟩ : BufTy).Contents (Elt F)),
    StableHlo.binary main_v43 main_v44 main_v45 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call2.cst (constant S_ .f32 0x00000000#32),
    StableHlo.TRef.binary (.of main_v38 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v38 : StableHlo.TRef sig ⟨S50000x256, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v45 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S50000x256 ![0, 1] bcast_S1x256_S50000x256_0_1 : (⟨S1x256, .f32⟩ : BufTy).Contents (Elt F) → (⟨S50000x256, .f32⟩ : BufTy).Contents (Elt F)),
    StableHlo.binary main_v38 main_v48 main_v49 (subf : (⟨S50000x256, .f32⟩ : BufTy).Contents (Elt F) → (⟨S50000x256, .f32⟩ : BufTy).Contents (Elt F) → (⟨S50000x256, .f32⟩ : BufTy).Contents (Elt F)) ]

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

theorem ops0_keep : (ops0 : List (HloOp τ sig (Elt F))).Forall fun op =>
    ∃ y : Ref sig .tc, op.writes = {Proc.devRef (τ := τ) .tc y} ∧ y ∉ [main_arg0, main_arg1, main_arg2, main_arg3, main_arg4, main_arg5, main_arg6, main_arg7, main_arg8, main_arg9, main_arg10, main_arg11, main_arg12, main_arg13] :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.Hand

end
-- ==== Proof.Ref.Ops1.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 85 operations of statements window 1 of @main, in program order, each call's callee listed in place over the call's own buffers. -/
abbrev ops1 : List (HloOp τ sig (Elt F)) :=
  [ StableHlo.nullary main_cst_8 (constant S_ .f32 0x3727C5AC#32),
    StableHlo.unary main_cst_8 main_v50 (broadcastInDim S256 ![] bcast_S_S256 : (⟨S_, .f32⟩ : BufTy).Contents (Elt F) → (⟨S256, .f32⟩ : BufTy).Contents (Elt F)),
    StableHlo.binary main_v46 main_v50 main_v51 (addf : (⟨S256, .f32⟩ : BufTy).Contents (Elt F) → (⟨S256, .f32⟩ : BufTy).Contents (Elt F) → (⟨S256, .f32⟩ : BufTy).Contents (Elt F)),
    StableHlo.unary main_v51 main_v52 (Host.rsqrt : (⟨S256, .f32⟩ : BufTy).Contents (Elt F) → (⟨S256, .f32⟩ : BufTy).Contents (Elt F)),
    StableHlo.unary main_v52 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v54 main_v55 (mulf : (⟨S50000x256, .f32⟩ : BufTy).Contents (Elt F) → (⟨S50000x256, .f32⟩ : BufTy).Contents (Elt F) → (⟨S50000x256, .f32⟩ : BufTy).Contents (Elt F)),
    StableHlo.unary main_v40 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v57 main_v58 (mulf : (⟨S50000x256, .f32⟩ : BufTy).Contents (Elt F) → (⟨S50000x256, .f32⟩ : BufTy).Contents (Elt F) → (⟨S50000x256, .f32⟩ : BufTy).Contents (Elt F)),
    StableHlo.unary main_v42 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S50000x256 ![0, 1] bcast_S1x256_S50000x256_0_1 : (⟨S1x256, .f32⟩ : BufTy).Contents (Elt F) → (⟨S50000x256, .f32⟩ : BufTy).Contents (Elt F)),
    StableHlo.binary main_v58 main_v60 main_v61 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v61 : StableHlo.TRef sig ⟨S50000x256, .f32⟩) main_call3.v0 main_call3.v1 maximumf,
    StableHlo.nullary main_c_9 (constantI S_ 32 0#32),
    StableHlo.unary main_c_9 main_v63 (broadcastInDim S800000 ![] bcast_S_S800000 : (⟨S_, .i32⟩ : BufTy).Contents (Elt F) → (⟨S800000, .i32⟩ : BufTy).Contents (Elt F)),
    StableHlo.binary main_arg12 main_v63 main_v64 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v65 (broadcastInDim S800000 ![] bcast_S_S800000 : (⟨S_, .i32⟩ : BufTy).Contents (Elt F) → (⟨S800000, .i32⟩ : BufTy).Contents (Elt F)),
    StableHlo.binary main_arg12 main_v65 main_v66 (addi : (⟨S800000, .i32⟩ : BufTy).Contents (Elt F) → (⟨S800000, .i32⟩ : BufTy).Contents (Elt F) → (⟨S800000, .i32⟩ : BufTy).Contents (Elt F)),
    StableHlo.ternary main_v64 main_v66 main_arg12 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v67 main_v68 (broadcastInDim S800000x1 ![0] bcast_S800000_S800000x1_0 : (⟨S800000, .i32⟩ : BufTy).Contents (Elt F) → (⟨S800000x1, .i32⟩ : BufTy).Contents (Elt F)),
    StableHlo.binary main_v62 main_v68 main_v69 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_11 (constant S_ .f32 0x00000000#32),
    StableHlo.unary main_cst_11 main_v70 (broadcastInDim S50000x256 ![] bcast_S_S50000x256 : (⟨S_, .f32⟩ : BufTy).Contents (Elt F) → (⟨S50000x256, .f32⟩ : BufTy).Contents (Elt F)),
    StableHlo.unary main_arg13 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v69 main_v72 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v62 main_v72 main_v73 (addf : (⟨S50000x256, .f32⟩ : BufTy).Contents (Elt F) → (⟨S50000x256, .f32⟩ : BufTy).Contents (Elt F) → (⟨S50000x256, .f32⟩ : BufTy).Contents (Elt F)),
    StableHlo.unary main_arg2 main_v74 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v74 main_v75 rfl shapeCasts_S1x256x256_S256x256,
    StableHlo.binary main_v73 main_v75 main_v76 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v77 ((extractStridedSlice S1x256 ![1, 0] · slices_S4x256_S1x256_1_0) : (⟨S4x256, .f32⟩ : BufTy).Contents (Elt F) → (⟨S1x256, .f32⟩ : BufTy).Contents (Elt F)),
    StableHlo.reshape main_v77 main_v78 rfl shapeCasts_S1x256_S256,
    StableHlo.unary main_arg5 main_v79 ((extractStridedSlice S1x256 ![1, 0] · slices_S4x256_S1x256_1_0) : (⟨S4x256, .f32⟩ : BufTy).Contents (Elt F) → (⟨S1x256, .f32⟩ : BufTy).Contents (Elt F)),
    StableHlo.reshape main_v79 main_v80 rfl shapeCasts_S1x256_S256,
    StableHlo.nullary main_cst_12 (constant S_ .f32 0x00000000#32),
    StableHlo.binary main_v76 main_cst_12 main_v81 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v82 (broadcastInDim S256 ![] bcast_S_S256 : (⟨S_, .f32⟩ : BufTy).Contents (Elt F) → (⟨S256, .f32⟩ : BufTy).Contents (Elt F)),
    StableHlo.binary main_v81 main_v82 main_v83 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call4.cst (constant S_ .f32 0x00000000#32),
    StableHlo.TRef.binary (.of main_v76 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v76 : StableHlo.TRef sig ⟨S50000x256, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v83 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S50000x256 ![0, 1] bcast_S1x256_S50000x256_0_1 : (⟨S1x256, .f32⟩ : BufTy).Contents (Elt F) → (⟨S50000x256, .f32⟩ : BufTy).Contents (Elt F)),
    StableHlo.binary main_v76 main_v86 main_v87 (subf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v88 (broadcastInDim S256 ![] bcast_S_S256 : (⟨S_, .f32⟩ : BufTy).Contents (Elt F) → (⟨S256, .f32⟩ : BufTy).Contents (Elt F)),
    StableHlo.binary main_v84 main_v88 main_v89 (addf : (⟨S256, .f32⟩ : BufTy).Contents (Elt F) → (⟨S256, .f32⟩ : BufTy).Contents (Elt F) → (⟨S256, .f32⟩ : BufTy).Contents (Elt F)),
    StableHlo.unary main_v89 main_v90 (Host.rsqrt : (⟨S256, .f32⟩ : BufTy).Contents (Elt F) → (⟨S256, .f32⟩ : BufTy).Contents (Elt F)),
    StableHlo.unary main_v90 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S50000x256 ![0, 1] bcast_S1x256_S50000x256_0_1 : (⟨S1x256, .f32⟩ : BufTy).Contents (Elt F) → (⟨S50000x256, .f32⟩ : BufTy).Contents (Elt F)),
    StableHlo.binary main_v87 main_v92 main_v93 (mulf : (⟨S50000x256, .f32⟩ : BufTy).Contents (Elt F) → (⟨S50000x256, .f32⟩ : BufTy).Contents (Elt F) → (⟨S50000x256, .f32⟩ : BufTy).Contents (Elt F)),
    StableHlo.unary main_v78 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v95 main_v96 (mulf : (⟨S50000x256, .f32⟩ : BufTy).Contents (Elt F) → (⟨S50000x256, .f32⟩ : BufTy).Contents (Elt F) → (⟨S50000x256, .f32⟩ : BufTy).Contents (Elt F)),
    StableHlo.unary main_v80 main_v97 (broadcastInDim S1x256 ![1] bcast_S256_S1x256_1 : (⟨S256, .f32⟩ : BufTy).Contents (Elt F) → (⟨S1x256, .f32⟩ : BufTy).Contents (Elt F)),
    StableHlo.unary main_v97 main_v98 (broadcastInDim S50000x256 ![0, 1] bcast_S1x256_S50000x256_0_1 : (⟨S1x256, .f32⟩ : BufTy).Contents (Elt F) → (⟨S50000x256, .f32⟩ : BufTy).Contents (Elt F)),
    StableHlo.binary main_v96 main_v98 main_v99 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v99 : StableHlo.TRef sig ⟨S50000x256, .f32⟩) main_call5.v0 main_call5.v1 maximumf,
    StableHlo.unary main_arg3 main_v101 ((extractStridedSlice S1x256x256 ![1, 0, 0] · slices_S4x256x256_S1x256x256_1_0_0) : (⟨S4x256x256, .f32⟩ : BufTy).Contents (Elt F) → (⟨S1x256x256, .f32⟩ : BufTy).Contents (Elt F)) ]

theorem ops1_sub : (ops1 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., reshape_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem ops1_keep : (ops1 : List (HloOp τ sig (Elt F))).Forall fun op =>
    ∃ y : Ref sig .tc, op.writes = {Proc.devRef (τ := τ) .tc y} ∧ y ∉ [main_arg0, main_arg1, main_arg2, main_arg3, main_arg4, main_arg5, main_arg6, main_arg7, main_arg8, main_arg9, main_arg10, main_arg11, main_arg12, main_arg13] :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩⟩

end Cert.ReferenceIdeal.Hand

end
-- ==== Proof.Ref.Ops2.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 104 operations of statements window 2 of @main, in program order, each call's callee listed in place over the call's own buffers. -/
abbrev ops2 : List (HloOp τ sig (Elt F)) :=
  [ StableHlo.reshape main_v101 main_v102 rfl shapeCasts_S1x256x256_S256x256,
    StableHlo.binary main_v100 main_v102 main_v103 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v104 ((extractStridedSlice S1x256 ![1, 0] · slices_S4x256_S1x256_1_0) : (⟨S4x256, .f32⟩ : BufTy).Contents (Elt F) → (⟨S1x256, .f32⟩ : BufTy).Contents (Elt F)),
    StableHlo.reshape main_v104 main_v105 rfl shapeCasts_S1x256_S256,
    StableHlo.unary main_arg7 main_v106 ((extractStridedSlice S1x256 ![1, 0] · slices_S4x256_S1x256_1_0) : (⟨S4x256, .f32⟩ : BufTy).Contents (Elt F) → (⟨S1x256, .f32⟩ : BufTy).Contents (Elt F)),
    StableHlo.reshape main_v106 main_v107 rfl shapeCasts_S1x256_S256,
    StableHlo.nullary main_cst_16 (constant S_ .f32 0x00000000#32),
    StableHlo.binary main_v103 main_cst_16 main_v108 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_17 (constant S_ .f32 0x47435000#32),
    StableHlo.unary main_cst_17 main_v109 (broadcastInDim S256 ![] bcast_S_S256 : (⟨S_, .f32⟩ : BufTy).Contents (Elt F) → (⟨S256, .f32⟩ : BufTy).Contents (Elt F)),
    StableHlo.binary main_v108 main_v109 main_v110 (Host.divf : (⟨S256, .f32⟩ : BufTy).Contents (Elt F) → (⟨S256, .f32⟩ : BufTy).Contents (Elt F) → (⟨S256, .f32⟩ : BufTy).Contents (Elt F)),
    StableHlo.nullary main_c_18 (constantI S_ 32 0#32),
    StableHlo.TRef.nullary main_call6.cst (constant S_ .f32 0x00000000#32),
    StableHlo.TRef.binary (.of main_v103 : StableHlo.TRef sig ⟨S50000x256, .f32⟩) main_call6.cst main_call6.v0 (fun x v => Host.reduceAdd x v reducesTo_S50000x256_S256_d0 h_S_),
    StableHlo.TRef.unary main_call6.v0 main_call6.v1 (broadcastInDim S1x256 ![1] bcast_S256_S1x256_1),
    StableHlo.TRef.nullary main_call6.cst_0 (constant S_ .f32 0x47435000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S50000x256 ![0, 1] bcast_S1x256_S50000x256_0_1),
    StableHlo.TRef.binary (.of main_v103 : StableHlo.TRef sig ⟨S50000x256, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v110 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v103 main_v113 main_v114 (subf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x3727C5AC#32),
    StableHlo.unary main_cst_19 main_v115 (broadcastInDim S256 ![] bcast_S_S256 : (⟨S_, .f32⟩ : BufTy).Contents (Elt F) → (⟨S256, .f32⟩ : BufTy).Contents (Elt F)),
    StableHlo.binary main_v111 main_v115 main_v116 (addf : (⟨S256, .f32⟩ : BufTy).Contents (Elt F) → (⟨S256, .f32⟩ : BufTy).Contents (Elt F) → (⟨S256, .f32⟩ : BufTy).Contents (Elt F)),
    StableHlo.unary main_v116 main_v117 (Host.rsqrt : (⟨S256, .f32⟩ : BufTy).Contents (Elt F) → (⟨S256, .f32⟩ : BufTy).Contents (Elt F)),
    StableHlo.unary main_v117 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S50000x256 ![0, 1] bcast_S1x256_S50000x256_0_1 : (⟨S1x256, .f32⟩ : BufTy).Contents (Elt F) → (⟨S50000x256, .f32⟩ : BufTy).Contents (Elt F)),
    StableHlo.binary main_v114 main_v119 main_v120 (mulf : (⟨S50000x256, .f32⟩ : BufTy).Contents (Elt F) → (⟨S50000x256, .f32⟩ : BufTy).Contents (Elt F) → (⟨S50000x256, .f32⟩ : BufTy).Contents (Elt F)),
    StableHlo.unary main_v105 main_v121 (broadcastInDim S1x256 ![1] bcast_S256_S1x256_1 : (⟨S256, .f32⟩ : BufTy).Contents (Elt F) → (⟨S1x256, .f32⟩ : BufTy).Contents (Elt F)),
    StableHlo.unary main_v121 main_v122 (broadcastInDim S50000x256 ![0, 1] bcast_S1x256_S50000x256_0_1 : (⟨S1x256, .f32⟩ : BufTy).Contents (Elt F) → (⟨S50000x256, .f32⟩ : BufTy).Contents (Elt F)),
    StableHlo.binary main_v120 main_v122 main_v123 (mulf : (⟨S50000x256, .f32⟩ : BufTy).Contents (Elt F) → (⟨S50000x256, .f32⟩ : BufTy).Contents (Elt F) → (⟨S50000x256, .f32⟩ : BufTy).Contents (Elt F)),
    StableHlo.unary main_v107 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v123 main_v125 main_v126 (addf : (⟨S50000x256, .f32⟩ : BufTy).Contents (Elt F) → (⟨S50000x256, .f32⟩ : BufTy).Contents (Elt F) → (⟨S50000x256, .f32⟩ : BufTy).Contents (Elt F)),
    StableHlo.TRef.nullary main_call7.cst (constant S_ .f32 0x00000000#32),
    StableHlo.TRef.unary main_call7.cst main_call7.v0 (broadcastInDim S50000x256 ![] bcast_S_S50000x256),
    StableHlo.TRef.binary (.of main_v126 : StableHlo.TRef sig ⟨S50000x256, .f32⟩) main_call7.v0 main_call7.v1 maximumf,
    StableHlo.nullary main_c_20 (constantI S_ 32 0#32),
    StableHlo.unary main_c_20 main_v128 (broadcastInDim S800000 ![] bcast_S_S800000 : (⟨S_, .i32⟩ : BufTy).Contents (Elt F) → (⟨S800000, .i32⟩ : BufTy).Contents (Elt F)),
    StableHlo.binary main_arg12 main_v128 main_v129 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v130 (broadcastInDim S800000 ![] bcast_S_S800000 : (⟨S_, .i32⟩ : BufTy).Contents (Elt F) → (⟨S800000, .i32⟩ : BufTy).Contents (Elt F)),
    StableHlo.binary main_arg12 main_v130 main_v131 (addi : (⟨S800000, .i32⟩ : BufTy).Contents (Elt F) → (⟨S800000, .i32⟩ : BufTy).Contents (Elt F) → (⟨S800000, .i32⟩ : BufTy).Contents (Elt F)),
    StableHlo.ternary main_v129 main_v131 main_arg12 main_v132 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v132 main_v133 (broadcastInDim S800000x1 ![0] bcast_S800000_S800000x1_0 : (⟨S800000, .i32⟩ : BufTy).Contents (Elt F) → (⟨S800000x1, .i32⟩ : BufTy).Contents (Elt F)),
    StableHlo.binary main_v127 main_v133 main_v134 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_22 (constant S_ .f32 0x00000000#32),
    StableHlo.unary main_cst_22 main_v135 (broadcastInDim S50000x256 ![] bcast_S_S50000x256 : (⟨S_, .f32⟩ : BufTy).Contents (Elt F) → (⟨S50000x256, .f32⟩ : BufTy).Contents (Elt F)),
    StableHlo.unary main_arg13 main_v136 (broadcastInDim S800000x1 ![0] bcast_S800000_S800000x1_0 : (⟨S800000, .i32⟩ : BufTy).Contents (Elt F) → (⟨S800000x1, .i32⟩ : BufTy).Contents (Elt F)),
    StableHlo.ternary main_v135 main_v136 main_v134 main_v137 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v127 main_v137 main_v138 (addf : (⟨S50000x256, .f32⟩ : BufTy).Contents (Elt F) → (⟨S50000x256, .f32⟩ : BufTy).Contents (Elt F) → (⟨S50000x256, .f32⟩ : BufTy).Contents (Elt F)),
    StableHlo.unary main_arg2 main_v139 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v139 main_v140 rfl shapeCasts_S1x256x256_S256x256,
    StableHlo.binary main_v138 main_v140 main_v141 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v142 ((extractStridedSlice S1x256 ![2, 0] · slices_S4x256_S1x256_2_0) : (⟨S4x256, .f32⟩ : BufTy).Contents (Elt F) → (⟨S1x256, .f32⟩ : BufTy).Contents (Elt F)),
    StableHlo.reshape main_v142 main_v143 rfl shapeCasts_S1x256_S256,
    StableHlo.unary main_arg5 main_v144 ((extractStridedSlice S1x256 ![2, 0] · slices_S4x256_S1x256_2_0) : (⟨S4x256, .f32⟩ : BufTy).Contents (Elt F) → (⟨S1x256, .f32⟩ : BufTy).Contents (Elt F)),
    StableHlo.reshape main_v144 main_v145 rfl shapeCasts_S1x256_S256,
    StableHlo.nullary main_cst_23 (constant S_ .f32 0x00000000#32),
    StableHlo.binary main_v141 main_cst_23 main_v146 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_24 (constant S_ .f32 0x47435000#32),
    StableHlo.unary main_cst_24 main_v147 (broadcastInDim S256 ![] bcast_S_S256 : (⟨S_, .f32⟩ : BufTy).Contents (Elt F) → (⟨S256, .f32⟩ : BufTy).Contents (Elt F)),
    StableHlo.binary main_v146 main_v147 main_v148 (Host.divf : (⟨S256, .f32⟩ : BufTy).Contents (Elt F) → (⟨S256, .f32⟩ : BufTy).Contents (Elt F) → (⟨S256, .f32⟩ : BufTy).Contents (Elt F)),
    StableHlo.nullary main_c_25 (constantI S_ 32 0#32),
    StableHlo.TRef.nullary main_call8.cst (constant S_ .f32 0x00000000#32),
    StableHlo.TRef.binary (.of main_v141 : StableHlo.TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v141 : StableHlo.TRef sig ⟨S50000x256, .f32⟩) main_call8.v4 main_call8.v5 subf,
    StableHlo.TRef.binary main_call8.v5 main_call8.v5 main_call8.v6 mulf,
    StableHlo.TRef.unary (.of main_c_25 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v148 main_v150 (broadcastInDim S1x256 ![1] bcast_S256_S1x256_1 : (⟨S256, .f32⟩ : BufTy).Contents (Elt F) → (⟨S1x256, .f32⟩ : BufTy).Contents (Elt F)),
    StableHlo.unary main_v150 main_v151 (broadcastInDim S50000x256 ![0, 1] bcast_S1x256_S50000x256_0_1 : (⟨S1x256, .f32⟩ : BufTy).Contents (Elt F) → (⟨S50000x256, .f32⟩ : BufTy).Contents (Elt F)) ]

theorem ops2_sub : (ops2 : List (HloOp τ sig (Elt F))).Forall fun op => op.bufs ⊆ tcRefs τ sig :=
  ⟨reshape_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., unary_bufs_sub .., reshape_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

theorem ops2_keep : (ops2 : List (HloOp τ sig (Elt F))).Forall fun op =>
    ∃ y : Ref sig .tc, op.writes = {Proc.devRef (τ := τ) .tc y} ∧ y ∉ [main_arg0, main_arg1, main_arg2, main_arg3, main_arg4, main_arg5, main_arg6, main_arg7, main_arg8, main_arg9, main_arg10, main_arg11, main_arg12, main_arg13] :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.Hand

end
-- ==== Proof.Ref.Ops3.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 85 operations of statements window 3 of @main, in program order, each call's callee listed in place over the call's own buffers. -/
abbrev ops3 : List (HloOp τ sig (Elt F)) :=
  [ StableHlo.binary main_v141 main_v151 main_v152 (subf : (⟨S50000x256, .f32⟩ : BufTy).Contents (Elt F) → (⟨S50000x256, .f32⟩ : BufTy).Contents (Elt F) → (⟨S50000x256, .f32⟩ : BufTy).Contents (Elt F)),
    StableHlo.nullary main_cst_26 (constant S_ .f32 0x3727C5AC#32),
    StableHlo.unary main_cst_26 main_v153 (broadcastInDim S256 ![] bcast_S_S256 : (⟨S_, .f32⟩ : BufTy).Contents (Elt F) → (⟨S256, .f32⟩ : BufTy).Contents (Elt F)),
    StableHlo.binary main_v149 main_v153 main_v154 (addf : (⟨S256, .f32⟩ : BufTy).Contents (Elt F) → (⟨S256, .f32⟩ : BufTy).Contents (Elt F) → (⟨S256, .f32⟩ : BufTy).Contents (Elt F)),
    StableHlo.unary main_v154 main_v155 (Host.rsqrt : (⟨S256, .f32⟩ : BufTy).Contents (Elt F) → (⟨S256, .f32⟩ : BufTy).Contents (Elt F)),
    StableHlo.unary main_v155 main_v156 (broadcastInDim S1x256 ![1] bcast_S256_S1x256_1 : (⟨S256, .f32⟩ : BufTy).Contents (Elt F) → (⟨S1x256, .f32⟩ : BufTy).Contents (Elt F)),
    StableHlo.unary main_v156 main_v157 (broadcastInDim S50000x256 ![0, 1] bcast_S1x256_S50000x256_0_1 : (⟨S1x256, .f32⟩ : BufTy).Contents (Elt F) → (⟨S50000x256, .f32⟩ : BufTy).Contents (Elt F)),
    StableHlo.binary main_v152 main_v157 main_v158 (mulf : (⟨S50000x256, .f32⟩ : BufTy).Contents (Elt F) → (⟨S50000x256, .f32⟩ : BufTy).Contents (Elt F) → (⟨S50000x256, .f32⟩ : BufTy).Contents (Elt F)),
    StableHlo.unary main_v143 main_v159 (broadcastInDim S1x256 ![1] bcast_S256_S1x256_1 : (⟨S256, .f32⟩ : BufTy).Contents (Elt F) → (⟨S1x256, .f32⟩ : BufTy).Contents (Elt F)),
    StableHlo.unary main_v159 main_v160 (broadcastInDim S50000x256 ![0, 1] bcast_S1x256_S50000x256_0_1 : (⟨S1x256, .f32⟩ : BufTy).Contents (Elt F) → (⟨S50000x256, .f32⟩ : BufTy).Contents (Elt F)),
    StableHlo.binary main_v158 main_v160 main_v161 (mulf : (⟨S50000x256, .f32⟩ : BufTy).Contents (Elt F) → (⟨S50000x256, .f32⟩ : BufTy).Contents (Elt F) → (⟨S50000x256, .f32⟩ : BufTy).Contents (Elt F)),
    StableHlo.unary main_v145 main_v162 (broadcastInDim S1x256 ![1] bcast_S256_S1x256_1 : (⟨S256, .f32⟩ : BufTy).Contents (Elt F) → (⟨S1x256, .f32⟩ : BufTy).Contents (Elt F)),
    StableHlo.unary main_v162 main_v163 (broadcastInDim S50000x256 ![0, 1] bcast_S1x256_S50000x256_0_1 : (⟨S1x256, .f32⟩ : BufTy).Contents (Elt F) → (⟨S50000x256, .f32⟩ : BufTy).Contents (Elt F)),
    StableHlo.binary main_v161 main_v163 main_v164 (addf : (⟨S50000x256, .f32⟩ : BufTy).Contents (Elt F) → (⟨S50000x256, .f32⟩ : BufTy).Contents (Elt F) → (⟨S50000x256, .f32⟩ : BufTy).Contents (Elt F)),
    StableHlo.TRef.nullary main_call9.cst (constant S_ .f32 0x00000000#32),
    StableHlo.TRef.unary main_call9.cst main_call9.v0 (broadcastInDim S50000x256 ![] bcast_S_S50000x256),
    StableHlo.TRef.binary (.of main_v164 : StableHlo.TRef sig ⟨S50000x256, .f32⟩) main_call9.v0 main_call9.v1 maximumf,
    StableHlo.unary main_arg3 main_v166 ((extractStridedSlice S1x256x256 ![2, 0, 0] · slices_S4x256x256_S1x256x256_2_0_0) : (⟨S4x256x256, .f32⟩ : BufTy).Contents (Elt F) → (⟨S1x256x256, .f32⟩ : BufTy).Contents (Elt F)),
    StableHlo.reshape main_v166 main_v167 rfl shapeCasts_S1x256x256_S256x256,
    StableHlo.binary main_v165 main_v167 main_v168 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v169 ((extractStridedSlice S1x256 ![2, 0] · slices_S4x256_S1x256_2_0) : (⟨S4x256, .f32⟩ : BufTy).Contents (Elt F) → (⟨S1x256, .f32⟩ : BufTy).Contents (Elt F)),
    StableHlo.reshape main_v169 main_v170 rfl shapeCasts_S1x256_S256,
    StableHlo.unary main_arg7 main_v171 ((extractStridedSlice S1x256 ![2, 0] · slices_S4x256_S1x256_2_0) : (⟨S4x256, .f32⟩ : BufTy).Contents (Elt F) → (⟨S1x256, .f32⟩ : BufTy).Contents (Elt F)),
    StableHlo.reshape main_v171 main_v172 rfl shapeCasts_S1x256_S256,
    StableHlo.nullary main_cst_27 (constant S_ .f32 0x00000000#32),
    StableHlo.binary main_v168 main_cst_27 main_v173 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_28 (constant S_ .f32 0x47435000#32),
    StableHlo.unary main_cst_28 main_v174 (broadcastInDim S256 ![] bcast_S_S256 : (⟨S_, .f32⟩ : BufTy).Contents (Elt F) → (⟨S256, .f32⟩ : BufTy).Contents (Elt F)),
    StableHlo.binary main_v173 main_v174 main_v175 (Host.divf : (⟨S256, .f32⟩ : BufTy).Contents (Elt F) → (⟨S256, .f32⟩ : BufTy).Contents (Elt F) → (⟨S256, .f32⟩ : BufTy).Contents (Elt F)),
    StableHlo.nullary main_c_29 (constantI S_ 32 0#32),
    StableHlo.TRef.nullary main_call10.cst (constant S_ .f32 0x00000000#32),
    StableHlo.TRef.binary (.of main_v168 : StableHlo.TRef sig ⟨S50000x256, .f32⟩) main_call10.cst main_call10.v0 (fun x v => Host.reduceAdd x v reducesTo_S50000x256_S256_d0 h_S_),
    StableHlo.TRef.unary main_call10.v0 main_call10.v1 (broadcastInDim S1x256 ![1] bcast_S256_S1x256_1),
    StableHlo.TRef.nullary main_call10.cst_0 (constant S_ .f32 0x47435000#32),
    StableHlo.TRef.unary main_call10.cst_0 main_call10.v2 (broadcastInDim S1x256 ![] bcast_S_S1x256),
    StableHlo.TRef.binary main_call10.v1 main_call10.v2 main_call10.v3 Host.divf,
    StableHlo.TRef.unary main_call10.v3 main_call10.v4 (broadcastInDim S50000x256 ![0, 1] bcast_S1x256_S50000x256_0_1),
    StableHlo.TRef.binary (.of main_v168 : StableHlo.TRef sig ⟨S50000x256, .f32⟩) main_call10.v4 main_call10.v5 subf,
    StableHlo.TRef.binary main_call10.v5 main_call10.v5 main_call10.v6 mulf,
    StableHlo.TRef.unary (.of main_c_29 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x256_S256_d0 h_S_),
    StableHlo.TRef.unary main_call10.v8 main_call10.v10 (broadcastInDim S256 ![] bcast_S_S256),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S256 ![] bcast_S_S256),
    StableHlo.TRef.ternary main_call10.v12 main_call10.v11 main_call10.call0.v1 main_call10.call0.v2 (fun p a b => select (broadcastInDim S256 ![] bcast_S_S256 p) a b),
    StableHlo.unary main_v175 main_v177 (broadcastInDim S1x256 ![1] bcast_S256_S1x256_1 : (⟨S256, .f32⟩ : BufTy).Contents (Elt F) → (⟨S1x256, .f32⟩ : BufTy).Contents (Elt F)),
    StableHlo.unary main_v177 main_v178 (broadcastInDim S50000x256 ![0, 1] bcast_S1x256_S50000x256_0_1 : (⟨S1x256, .f32⟩ : BufTy).Contents (Elt F) → (⟨S50000x256, .f32⟩ : BufTy).Contents (Elt F)),
    StableHlo.binary main_v168 main_v178 main_v179 (subf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x3727C5AC#32),
    StableHlo.unary main_cst_30 main_v180 (broadcastInDim S256 ![] bcast_S_S256 : (⟨S_, .f32⟩ : BufTy).Contents (Elt F) → (⟨S256, .f32⟩ : BufTy).Contents (Elt F)),
    StableHlo.binary main_v176 main_v180 main_v181 (addf : (⟨S256, .f32⟩ : BufTy).Contents (Elt F) → (⟨S256, .f32⟩ : BufTy).Contents (Elt F) → (⟨S256, .f32⟩ : BufTy).Contents (Elt F)),
    StableHlo.unary main_v181 main_v182 (Host.rsqrt : (⟨S256, .f32⟩ : BufTy).Contents (Elt F) → (⟨S256, .f32⟩ : BufTy).Contents (Elt F)),
    StableHlo.unary main_v182 main_v183 (broadcastInDim S1x256 ![1] bcast_S256_S1x256_1 : (⟨S256, .f32⟩ : BufTy).Contents (Elt F) → (⟨S1x256, .f32⟩ : BufTy).Contents (Elt F)),
    StableHlo.unary main_v183 main_v184 (broadcastInDim S50000x256 ![0, 1] bcast_S1x256_S50000x256_0_1 : (⟨S1x256, .f32⟩ : BufTy).Contents (Elt F) → (⟨S50000x256, .f32⟩ : BufTy).Contents (Elt F)),
    StableHlo.binary main_v179 main_v184 main_v185 (mulf : (⟨S50000x256, .f32⟩ : BufTy).Contents (Elt F) → (⟨S50000x256, .f32⟩ : BufTy).Contents (Elt F) → (⟨S50000x256, .f32⟩ : BufTy).Contents (Elt F)),
    StableHlo.unary main_v170 main_v186 (broadcastInDim S1x256 ![1] bcast_S256_S1x256_1 : (⟨S256, .f32⟩ : BufTy).Contents (Elt F) → (⟨S1x256, .f32⟩ : BufTy).Contents (Elt F)),
    StableHlo.unary main_v186 main_v187 (broadcastInDim S50000x256 ![0, 1] bcast_S1x256_S50000x256_0_1 : (⟨S1x256, .f32⟩ : BufTy).Contents (Elt F) → (⟨S50000x256, .f32⟩ : BufTy).Contents (Elt F)),
    StableHlo.binary main_v185 main_v187 main_v188 (mulf : (⟨S50000x256, .f32⟩ : BufTy).Contents (Elt F) → (⟨S50000x256, .f32⟩ : BufTy).Contents (Elt F) → (⟨S50000x256, .f32⟩ : BufTy).Contents (Elt F)),
    StableHlo.unary main_v172 main_v189 (broadcastInDim S1x256 ![1] bcast_S256_S1x256_1 : (⟨S256, .f32⟩ : BufTy).Contents (Elt F) → (⟨S1x256, .f32⟩ : BufTy).Contents (Elt F)),
    StableHlo.unary main_v189 main_v190 (broadcastInDim S50000x256 ![0, 1] bcast_S1x256_S50000x256_0_1 : (⟨S1x256, .f32⟩ : BufTy).Contents (Elt F) → (⟨S50000x256, .f32⟩ : BufTy).Contents (Elt F)),
    StableHlo.binary main_v188 main_v190 main_v191 (addf : (⟨S50000x256, .f32⟩ : BufTy).Contents (Elt F) → (⟨S50000x256, .f32⟩ : BufTy).Contents (Elt F) → (⟨S50000x256, .f32⟩ : BufTy).Contents (Elt F)),
    StableHlo.TRef.nullary main_call11.cst (constant S_ .f32 0x00000000#32),
    StableHlo.TRef.unary main_call11.cst main_call11.v0 (broadcastInDim S50000x256 ![] bcast_S_S50000x256),
    StableHlo.TRef.binary (.of main_v191 : StableHlo.TRef sig ⟨S50000x256, .f32⟩) main_call11.v0 main_call11.v1 maximumf,
    StableHlo.nullary main_c_31 (constantI S_ 32 0#32),
    StableHlo.unary main_c_31 main_v193 (broadcastInDim S800000 ![] bcast_S_S800000 : (⟨S_, .i32⟩ : BufTy).Contents (Elt F) → (⟨S800000, .i32⟩ : BufTy).Contents (Elt F)),
    StableHlo.binary main_arg12 main_v193 main_v194 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v195 (broadcastInDim S800000 ![] bcast_S_S800000 : (⟨S_, .i32⟩ : BufTy).Contents (Elt F) → (⟨S800000, .i32⟩ : BufTy).Contents (Elt F)),
    StableHlo.binary main_arg12 main_v195 main_v196 (addi : (⟨S800000, .i32⟩ : BufTy).Contents (Elt F) → (⟨S800000, .i32⟩ : BufTy).Contents (Elt F) → (⟨S800000, .i32⟩ : BufTy).Contents (Elt F)),
    StableHlo.ternary main_v194 main_v196 main_arg12 main_v197 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v197 main_v198 (broadcastInDim S800000x1 ![0] bcast_S800000_S800000x1_0 : (⟨S800000, .i32⟩ : BufTy).Contents (Elt F) → (⟨S800000x1, .i32⟩ : BufTy).Contents (Elt F)),
    StableHlo.binary main_v192 main_v198 main_v199 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_33 (constant S_ .f32 0x00000000#32),
    StableHlo.unary main_cst_33 main_v200 (broadcastInDim S50000x256 ![] bcast_S_S50000x256 : (⟨S_, .f32⟩ : BufTy).Contents (Elt F) → (⟨S50000x256, .f32⟩ : BufTy).Contents (Elt F)),
    StableHlo.unary main_arg13 main_v201 (broadcastInDim S800000x1 ![0] bcast_S800000_S800000x1_0 : (⟨S800000, .i32⟩ : BufTy).Contents (Elt F) → (⟨S800000x1, .i32⟩ : BufTy).Contents (Elt F)),
    StableHlo.ternary main_v200 main_v201 main_v199 main_v202 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v192 main_v202 main_v203 (addf : (⟨S50000x256, .f32⟩ : BufTy).Contents (Elt F) → (⟨S50000x256, .f32⟩ : BufTy).Contents (Elt F) → (⟨S50000x256, .f32⟩ : BufTy).Contents (Elt F)) ]

theorem ops3_sub : (ops3 : List (HloOp τ sig (Elt F))).Forall fun op => op.bufs ⊆ tcRefs τ sig :=
  ⟨binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem ops3_keep : (ops3 : List (HloOp τ sig (Elt F))).Forall fun op =>
    ∃ y : Ref sig .tc, op.writes = {Proc.devRef (τ := τ) .tc y} ∧ y ∉ [main_arg0, main_arg1, main_arg2, main_arg3, main_arg4, main_arg5, main_arg6, main_arg7, main_arg8, main_arg9, main_arg10, main_arg11, main_arg12, main_arg13] :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩⟩

end Cert.ReferenceIdeal.Hand

end
-- ==== Proof.Ref.Ops4.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 104 operations of statements window 4 of @main, in program order, each call's callee listed in place over the call's own buffers. -/
abbrev ops4 : List (HloOp τ sig (Elt F)) :=
  [ StableHlo.unary main_arg2 main_v204 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v204 main_v205 rfl shapeCasts_S1x256x256_S256x256,
    StableHlo.binary main_v203 main_v205 main_v206 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v207 ((extractStridedSlice S1x256 ![3, 0] · slices_S4x256_S1x256_3_0) : (⟨S4x256, .f32⟩ : BufTy).Contents (Elt F) → (⟨S1x256, .f32⟩ : BufTy).Contents (Elt F)),
    StableHlo.reshape main_v207 main_v208 rfl shapeCasts_S1x256_S256,
    StableHlo.unary main_arg5 main_v209 ((extractStridedSlice S1x256 ![3, 0] · slices_S4x256_S1x256_3_0) : (⟨S4x256, .f32⟩ : BufTy).Contents (Elt F) → (⟨S1x256, .f32⟩ : BufTy).Contents (Elt F)),
    StableHlo.reshape main_v209 main_v210 rfl shapeCasts_S1x256_S256,
    StableHlo.nullary main_cst_34 (constant S_ .f32 0x00000000#32),
    StableHlo.binary main_v206 main_cst_34 main_v211 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_35 (constant S_ .f32 0x47435000#32),
    StableHlo.unary main_cst_35 main_v212 (broadcastInDim S256 ![] bcast_S_S256 : (⟨S_, .f32⟩ : BufTy).Contents (Elt F) → (⟨S256, .f32⟩ : BufTy).Contents (Elt F)),
    StableHlo.binary main_v211 main_v212 main_v213 (Host.divf : (⟨S256, .f32⟩ : BufTy).Contents (Elt F) → (⟨S256, .f32⟩ : BufTy).Contents (Elt F) → (⟨S256, .f32⟩ : BufTy).Contents (Elt F)),
    StableHlo.nullary main_c_36 (constantI S_ 32 0#32),
    StableHlo.TRef.nullary main_call12.cst (constant S_ .f32 0x00000000#32),
    StableHlo.TRef.binary (.of main_v206 : StableHlo.TRef sig ⟨S50000x256, .f32⟩) main_call12.cst main_call12.v0 (fun x v => Host.reduceAdd x v reducesTo_S50000x256_S256_d0 h_S_),
    StableHlo.TRef.unary main_call12.v0 main_call12.v1 (broadcastInDim S1x256 ![1] bcast_S256_S1x256_1),
    StableHlo.TRef.nullary main_call12.cst_0 (constant S_ .f32 0x47435000#32),
    StableHlo.TRef.unary main_call12.cst_0 main_call12.v2 (broadcastInDim S1x256 ![] bcast_S_S1x256),
    StableHlo.TRef.binary main_call12.v1 main_call12.v2 main_call12.v3 Host.divf,
    StableHlo.TRef.unary main_call12.v3 main_call12.v4 (broadcastInDim S50000x256 ![0, 1] bcast_S1x256_S50000x256_0_1),
    StableHlo.TRef.binary (.of main_v206 : StableHlo.TRef sig ⟨S50000x256, .f32⟩) main_call12.v4 main_call12.v5 subf,
    StableHlo.TRef.binary main_call12.v5 main_call12.v5 main_call12.v6 mulf,
    StableHlo.TRef.unary (.of main_c_36 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x256_S256_d0 h_S_),
    StableHlo.TRef.unary main_call12.v8 main_call12.v10 (broadcastInDim S256 ![] bcast_S_S256),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S256 ![] bcast_S_S256),
    StableHlo.TRef.ternary main_call12.v12 main_call12.v11 main_call12.call0.v1 main_call12.call0.v2 (fun p a b => select (broadcastInDim S256 ![] bcast_S_S256 p) a b),
    StableHlo.unary main_v213 main_v215 (broadcastInDim S1x256 ![1] bcast_S256_S1x256_1 : (⟨S256, .f32⟩ : BufTy).Contents (Elt F) → (⟨S1x256, .f32⟩ : BufTy).Contents (Elt F)),
    StableHlo.unary main_v215 main_v216 (broadcastInDim S50000x256 ![0, 1] bcast_S1x256_S50000x256_0_1 : (⟨S1x256, .f32⟩ : BufTy).Contents (Elt F) → (⟨S50000x256, .f32⟩ : BufTy).Contents (Elt F)),
    StableHlo.binary main_v206 main_v216 main_v217 (subf : (⟨S50000x256, .f32⟩ : BufTy).Contents (Elt F) → (⟨S50000x256, .f32⟩ : BufTy).Contents (Elt F) → (⟨S50000x256, .f32⟩ : BufTy).Contents (Elt F)),
    StableHlo.nullary main_cst_37 (constant S_ .f32 0x3727C5AC#32),
    StableHlo.unary main_cst_37 main_v218 (broadcastInDim S256 ![] bcast_S_S256 : (⟨S_, .f32⟩ : BufTy).Contents (Elt F) → (⟨S256, .f32⟩ : BufTy).Contents (Elt F)),
    StableHlo.binary main_v214 main_v218 main_v219 (addf : (⟨S256, .f32⟩ : BufTy).Contents (Elt F) → (⟨S256, .f32⟩ : BufTy).Contents (Elt F) → (⟨S256, .f32⟩ : BufTy).Contents (Elt F)),
    StableHlo.unary main_v219 main_v220 (Host.rsqrt : (⟨S256, .f32⟩ : BufTy).Contents (Elt F) → (⟨S256, .f32⟩ : BufTy).Contents (Elt F)),
    StableHlo.unary main_v220 main_v221 (broadcastInDim S1x256 ![1] bcast_S256_S1x256_1 : (⟨S256, .f32⟩ : BufTy).Contents (Elt F) → (⟨S1x256, .f32⟩ : BufTy).Contents (Elt F)),
    StableHlo.unary main_v221 main_v222 (broadcastInDim S50000x256 ![0, 1] bcast_S1x256_S50000x256_0_1 : (⟨S1x256, .f32⟩ : BufTy).Contents (Elt F) → (⟨S50000x256, .f32⟩ : BufTy).Contents (Elt F)),
    StableHlo.binary main_v217 main_v222 main_v223 (mulf : (⟨S50000x256, .f32⟩ : BufTy).Contents (Elt F) → (⟨S50000x256, .f32⟩ : BufTy).Contents (Elt F) → (⟨S50000x256, .f32⟩ : BufTy).Contents (Elt F)),
    StableHlo.unary main_v208 main_v224 (broadcastInDim S1x256 ![1] bcast_S256_S1x256_1 : (⟨S256, .f32⟩ : BufTy).Contents (Elt F) → (⟨S1x256, .f32⟩ : BufTy).Contents (Elt F)),
    StableHlo.unary main_v224 main_v225 (broadcastInDim S50000x256 ![0, 1] bcast_S1x256_S50000x256_0_1 : (⟨S1x256, .f32⟩ : BufTy).Contents (Elt F) → (⟨S50000x256, .f32⟩ : BufTy).Contents (Elt F)),
    StableHlo.binary main_v223 main_v225 main_v226 (mulf : (⟨S50000x256, .f32⟩ : BufTy).Contents (Elt F) → (⟨S50000x256, .f32⟩ : BufTy).Contents (Elt F) → (⟨S50000x256, .f32⟩ : BufTy).Contents (Elt F)),
    StableHlo.unary main_v210 main_v227 (broadcastInDim S1x256 ![1] bcast_S256_S1x256_1 : (⟨S256, .f32⟩ : BufTy).Contents (Elt F) → (⟨S1x256, .f32⟩ : BufTy).Contents (Elt F)),
    StableHlo.unary main_v227 main_v228 (broadcastInDim S50000x256 ![0, 1] bcast_S1x256_S50000x256_0_1 : (⟨S1x256, .f32⟩ : BufTy).Contents (Elt F) → (⟨S50000x256, .f32⟩ : BufTy).Contents (Elt F)),
    StableHlo.binary main_v226 main_v228 main_v229 (addf : (⟨S50000x256, .f32⟩ : BufTy).Contents (Elt F) → (⟨S50000x256, .f32⟩ : BufTy).Contents (Elt F) → (⟨S50000x256, .f32⟩ : BufTy).Contents (Elt F)),
    StableHlo.TRef.nullary main_call13.cst (constant S_ .f32 0x00000000#32),
    StableHlo.TRef.unary main_call13.cst main_call13.v0 (broadcastInDim S50000x256 ![] bcast_S_S50000x256),
    StableHlo.TRef.binary (.of main_v229 : StableHlo.TRef sig ⟨S50000x256, .f32⟩) main_call13.v0 main_call13.v1 maximumf,
    StableHlo.unary main_arg3 main_v231 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v231 main_v232 rfl shapeCasts_S1x256x256_S256x256,
    StableHlo.binary main_v230 main_v232 main_v233 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v234 ((extractStridedSlice S1x256 ![3, 0] · slices_S4x256_S1x256_3_0) : (⟨S4x256, .f32⟩ : BufTy).Contents (Elt F) → (⟨S1x256, .f32⟩ : BufTy).Contents (Elt F)),
    StableHlo.reshape main_v234 main_v235 rfl shapeCasts_S1x256_S256,
    StableHlo.unary main_arg7 main_v236 ((extractStridedSlice S1x256 ![3, 0] · slices_S4x256_S1x256_3_0) : (⟨S4x256, .f32⟩ : BufTy).Contents (Elt F) → (⟨S1x256, .f32⟩ : BufTy).Contents (Elt F)),
    StableHlo.reshape main_v236 main_v237 rfl shapeCasts_S1x256_S256,
    StableHlo.nullary main_cst_38 (constant S_ .f32 0x00000000#32),
    StableHlo.binary main_v233 main_cst_38 main_v238 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_39 (constant S_ .f32 0x47435000#32),
    StableHlo.unary main_cst_39 main_v239 (broadcastInDim S256 ![] bcast_S_S256 : (⟨S_, .f32⟩ : BufTy).Contents (Elt F) → (⟨S256, .f32⟩ : BufTy).Contents (Elt F)),
    StableHlo.binary main_v238 main_v239 main_v240 (Host.divf : (⟨S256, .f32⟩ : BufTy).Contents (Elt F) → (⟨S256, .f32⟩ : BufTy).Contents (Elt F) → (⟨S256, .f32⟩ : BufTy).Contents (Elt F)),
    StableHlo.nullary main_c_40 (constantI S_ 32 0#32),
    StableHlo.TRef.nullary main_call14.cst (constant S_ .f32 0x00000000#32),
    StableHlo.TRef.binary (.of main_v233 : StableHlo.TRef sig ⟨S50000x256, .f32⟩) main_call14.cst main_call14.v0 (fun x v => Host.reduceAdd x v reducesTo_S50000x256_S256_d0 h_S_),
    StableHlo.TRef.unary main_call14.v0 main_call14.v1 (broadcastInDim S1x256 ![1] bcast_S256_S1x256_1),
    StableHlo.TRef.nullary main_call14.cst_0 (constant S_ .f32 0x47435000#32),
    StableHlo.TRef.unary main_call14.cst_0 main_call14.v2 (broadcastInDim S1x256 ![] bcast_S_S1x256),
    StableHlo.TRef.binary main_call14.v1 main_call14.v2 main_call14.v3 Host.divf,
    StableHlo.TRef.unary main_call14.v3 main_call14.v4 (broadcastInDim S50000x256 ![0, 1] bcast_S1x256_S50000x256_0_1),
    StableHlo.TRef.binary (.of main_v233 : StableHlo.TRef sig ⟨S50000x256, .f32⟩) main_call14.v4 main_call14.v5 subf,
    StableHlo.TRef.binary main_call14.v5 main_call14.v5 main_call14.v6 mulf,
    StableHlo.TRef.unary (.of main_c_40 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x256_S256_d0 h_S_),
    StableHlo.TRef.unary main_call14.v8 main_call14.v10 (broadcastInDim S256 ![] bcast_S_S256),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S256 ![] bcast_S_S256),
    StableHlo.TRef.ternary main_call14.v12 main_call14.v11 main_call14.call0.v1 main_call14.call0.v2 (fun p a b => select (broadcastInDim S256 ![] bcast_S_S256 p) a b),
    StableHlo.unary main_v240 main_v242 (broadcastInDim S1x256 ![1] bcast_S256_S1x256_1 : (⟨S256, .f32⟩ : BufTy).Contents (Elt F) → (⟨S1x256, .f32⟩ : BufTy).Contents (Elt F)),
    StableHlo.unary main_v242 main_v243 (broadcastInDim S50000x256 ![0, 1] bcast_S1x256_S50000x256_0_1 : (⟨S1x256, .f32⟩ : BufTy).Contents (Elt F) → (⟨S50000x256, .f32⟩ : BufTy).Contents (Elt F)),
    StableHlo.binary main_v233 main_v243 main_v244 (subf : (⟨S50000x256, .f32⟩ : BufTy).Contents (Elt F) → (⟨S50000x256, .f32⟩ : BufTy).Contents (Elt F) → (⟨S50000x256, .f32⟩ : BufTy).Contents (Elt F)),
    StableHlo.nullary main_cst_41 (constant S_ .f32 0x3727C5AC#32),
    StableHlo.unary main_cst_41 main_v245 (broadcastInDim S256 ![] bcast_S_S256 : (⟨S_, .f32⟩ : BufTy).Contents (Elt F) → (⟨S256, .f32⟩ : BufTy).Contents (Elt F)),
    StableHlo.binary main_v241 main_v245 main_v246 (addf : (⟨S256, .f32⟩ : BufTy).Contents (Elt F) → (⟨S256, .f32⟩ : BufTy).Contents (Elt F) → (⟨S256, .f32⟩ : BufTy).Contents (Elt F)),
    StableHlo.unary main_v246 main_v247 (Host.rsqrt : (⟨S256, .f32⟩ : BufTy).Contents (Elt F) → (⟨S256, .f32⟩ : BufTy).Contents (Elt F)),
    StableHlo.unary main_v247 main_v248 (broadcastInDim S1x256 ![1] bcast_S256_S1x256_1 : (⟨S256, .f32⟩ : BufTy).Contents (Elt F) → (⟨S1x256, .f32⟩ : BufTy).Contents (Elt F)),
    StableHlo.unary main_v248 main_v249 (broadcastInDim S50000x256 ![0, 1] bcast_S1x256_S50000x256_0_1 : (⟨S1x256, .f32⟩ : BufTy).Contents (Elt F) → (⟨S50000x256, .f32⟩ : BufTy).Contents (Elt F)),
    StableHlo.binary main_v244 main_v249 main_v250 (mulf : (⟨S50000x256, .f32⟩ : BufTy).Contents (Elt F) → (⟨S50000x256, .f32⟩ : BufTy).Contents (Elt F) → (⟨S50000x256, .f32⟩ : BufTy).Contents (Elt F)),
    StableHlo.unary main_v235 main_v251 (broadcastInDim S1x256 ![1] bcast_S256_S1x256_1 : (⟨S256, .f32⟩ : BufTy).Contents (Elt F) → (⟨S1x256, .f32⟩ : BufTy).Contents (Elt F)),
    StableHlo.unary main_v251 main_v252 (broadcastInDim S50000x256 ![0, 1] bcast_S1x256_S50000x256_0_1 : (⟨S1x256, .f32⟩ : BufTy).Contents (Elt F) → (⟨S50000x256, .f32⟩ : BufTy).Contents (Elt F)),
    StableHlo.binary main_v250 main_v252 main_v253 (mulf : (⟨S50000x256, .f32⟩ : BufTy).Contents (Elt F) → (⟨S50000x256, .f32⟩ : BufTy).Contents (Elt F) → (⟨S50000x256, .f32⟩ : BufTy).Contents (Elt F)),
    StableHlo.unary main_v237 main_v254 (broadcastInDim S1x256 ![1] bcast_S256_S1x256_1 : (⟨S256, .f32⟩ : BufTy).Contents (Elt F) → (⟨S1x256, .f32⟩ : BufTy).Contents (Elt F)),
    StableHlo.unary main_v254 main_v255 (broadcastInDim S50000x256 ![0, 1] bcast_S1x256_S50000x256_0_1 : (⟨S1x256, .f32⟩ : BufTy).Contents (Elt F) → (⟨S50000x256, .f32⟩ : BufTy).Contents (Elt F)) ]

theorem ops4_sub : (ops4 : List (HloOp τ sig (Elt F))).Forall fun op => op.bufs ⊆ tcRefs τ sig :=
  ⟨unary_bufs_sub .., reshape_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

theorem ops4_keep : (ops4 : List (HloOp τ sig (Elt F))).Forall fun op =>
    ∃ y : Ref sig .tc, op.writes = {Proc.devRef (τ := τ) .tc y} ∧ y ∉ [main_arg0, main_arg1, main_arg2, main_arg3, main_arg4, main_arg5, main_arg6, main_arg7, main_arg8, main_arg9, main_arg10, main_arg11, main_arg12, main_arg13] :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.Hand

end
-- ==== Proof.Ref.Ops5.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 44 operations of statements window 5 of @main, in program order, each call's callee listed in place over the call's own buffers. -/
abbrev ops5 : List (HloOp τ sig (Elt F)) :=
  [ StableHlo.binary main_v253 main_v255 main_v256 (addf : (⟨S50000x256, .f32⟩ : BufTy).Contents (Elt F) → (⟨S50000x256, .f32⟩ : BufTy).Contents (Elt F) → (⟨S50000x256, .f32⟩ : BufTy).Contents (Elt F)),
    StableHlo.TRef.nullary main_call15.cst (constant S_ .f32 0x00000000#32),
    StableHlo.TRef.unary main_call15.cst main_call15.v0 (broadcastInDim S50000x256 ![] bcast_S_S50000x256),
    StableHlo.TRef.binary (.of main_v256 : StableHlo.TRef sig ⟨S50000x256, .f32⟩) main_call15.v0 main_call15.v1 maximumf,
    StableHlo.binary main_arg0 main_arg8 main_v258 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg9 main_v259 (broadcastInDim S1x64 ![1] bcast_S64_S1x64_1 : (⟨S64, .f32⟩ : BufTy).Contents (Elt F) → (⟨S1x64, .f32⟩ : BufTy).Contents (Elt F)),
    StableHlo.unary main_v259 main_v260 (broadcastInDim S50000x64 ![0, 1] bcast_S1x64_S50000x64_0_1 : (⟨S1x64, .f32⟩ : BufTy).Contents (Elt F) → (⟨S50000x64, .f32⟩ : BufTy).Contents (Elt F)),
    StableHlo.binary main_v258 main_v260 main_v261 (addf : (⟨S50000x64, .f32⟩ : BufTy).Contents (Elt F) → (⟨S50000x64, .f32⟩ : BufTy).Contents (Elt F) → (⟨S50000x64, .f32⟩ : BufTy).Contents (Elt F)),
    StableHlo.unary main_arg10 main_v262 ((extractStridedSlice S1x256x64 ![0, 0, 0] · slices_S4x256x64_S1x256x64_0_0_0) : (⟨S4x256x64, .f32⟩ : BufTy).Contents (Elt F) → (⟨S1x256x64, .f32⟩ : BufTy).Contents (Elt F)),
    StableHlo.reshape main_v262 main_v263 rfl shapeCasts_S1x256x64_S256x64,
    StableHlo.binary main_v62 main_v263 main_v264 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_v261 main_v264 main_v265 (addf : (⟨S50000x64, .f32⟩ : BufTy).Contents (Elt F) → (⟨S50000x64, .f32⟩ : BufTy).Contents (Elt F) → (⟨S50000x64, .f32⟩ : BufTy).Contents (Elt F)),
    StableHlo.unary main_arg11 main_v266 ((extractStridedSlice S1x64 ![0, 0] · slices_S4x64_S1x64_0_0) : (⟨S4x64, .f32⟩ : BufTy).Contents (Elt F) → (⟨S1x64, .f32⟩ : BufTy).Contents (Elt F)),
    StableHlo.reshape main_v266 main_v267 rfl shapeCasts_S1x64_S64,
    StableHlo.unary main_v267 main_v268 (broadcastInDim S1x64 ![1] bcast_S64_S1x64_1 : (⟨S64, .f32⟩ : BufTy).Contents (Elt F) → (⟨S1x64, .f32⟩ : BufTy).Contents (Elt F)),
    StableHlo.unary main_v268 main_v269 (broadcastInDim S50000x64 ![0, 1] bcast_S1x64_S50000x64_0_1 : (⟨S1x64, .f32⟩ : BufTy).Contents (Elt F) → (⟨S50000x64, .f32⟩ : BufTy).Contents (Elt F)),
    StableHlo.binary main_v265 main_v269 main_v270 (addf : (⟨S50000x64, .f32⟩ : BufTy).Contents (Elt F) → (⟨S50000x64, .f32⟩ : BufTy).Contents (Elt F) → (⟨S50000x64, .f32⟩ : BufTy).Contents (Elt F)),
    StableHlo.unary main_arg10 main_v271 ((extractStridedSlice S1x256x64 ![1, 0, 0] · slices_S4x256x64_S1x256x64_1_0_0) : (⟨S4x256x64, .f32⟩ : BufTy).Contents (Elt F) → (⟨S1x256x64, .f32⟩ : BufTy).Contents (Elt F)),
    StableHlo.reshape main_v271 main_v272 rfl shapeCasts_S1x256x64_S256x64,
    StableHlo.binary main_v127 main_v272 main_v273 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_v270 main_v273 main_v274 (addf : (⟨S50000x64, .f32⟩ : BufTy).Contents (Elt F) → (⟨S50000x64, .f32⟩ : BufTy).Contents (Elt F) → (⟨S50000x64, .f32⟩ : BufTy).Contents (Elt F)),
    StableHlo.unary main_arg11 main_v275 ((extractStridedSlice S1x64 ![1, 0] · slices_S4x64_S1x64_1_0) : (⟨S4x64, .f32⟩ : BufTy).Contents (Elt F) → (⟨S1x64, .f32⟩ : BufTy).Contents (Elt F)),
    StableHlo.reshape main_v275 main_v276 rfl shapeCasts_S1x64_S64,
    StableHlo.unary main_v276 main_v277 (broadcastInDim S1x64 ![1] bcast_S64_S1x64_1 : (⟨S64, .f32⟩ : BufTy).Contents (Elt F) → (⟨S1x64, .f32⟩ : BufTy).Contents (Elt F)),
    StableHlo.unary main_v277 main_v278 (broadcastInDim S50000x64 ![0, 1] bcast_S1x64_S50000x64_0_1 : (⟨S1x64, .f32⟩ : BufTy).Contents (Elt F) → (⟨S50000x64, .f32⟩ : BufTy).Contents (Elt F)),
    StableHlo.binary main_v274 main_v278 main_v279 (addf : (⟨S50000x64, .f32⟩ : BufTy).Contents (Elt F) → (⟨S50000x64, .f32⟩ : BufTy).Contents (Elt F) → (⟨S50000x64, .f32⟩ : BufTy).Contents (Elt F)),
    StableHlo.unary main_arg10 main_v280 ((extractStridedSlice S1x256x64 ![2, 0, 0] · slices_S4x256x64_S1x256x64_2_0_0) : (⟨S4x256x64, .f32⟩ : BufTy).Contents (Elt F) → (⟨S1x256x64, .f32⟩ : BufTy).Contents (Elt F)),
    StableHlo.reshape main_v280 main_v281 rfl shapeCasts_S1x256x64_S256x64,
    StableHlo.binary main_v192 main_v281 main_v282 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_v279 main_v282 main_v283 (addf : (⟨S50000x64, .f32⟩ : BufTy).Contents (Elt F) → (⟨S50000x64, .f32⟩ : BufTy).Contents (Elt F) → (⟨S50000x64, .f32⟩ : BufTy).Contents (Elt F)),
    StableHlo.unary main_arg11 main_v284 ((extractStridedSlice S1x64 ![2, 0] · slices_S4x64_S1x64_2_0) : (⟨S4x64, .f32⟩ : BufTy).Contents (Elt F) → (⟨S1x64, .f32⟩ : BufTy).Contents (Elt F)),
    StableHlo.reshape main_v284 main_v285 rfl shapeCasts_S1x64_S64,
    StableHlo.unary main_v285 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S50000x64 ![0, 1] bcast_S1x64_S50000x64_0_1 : (⟨S1x64, .f32⟩ : BufTy).Contents (Elt F) → (⟨S50000x64, .f32⟩ : BufTy).Contents (Elt F)),
    StableHlo.binary main_v283 main_v287 main_v288 (addf : (⟨S50000x64, .f32⟩ : BufTy).Contents (Elt F) → (⟨S50000x64, .f32⟩ : BufTy).Contents (Elt F) → (⟨S50000x64, .f32⟩ : BufTy).Contents (Elt F)),
    StableHlo.unary main_arg10 main_v289 ((extractStridedSlice S1x256x64 ![3, 0, 0] · slices_S4x256x64_S1x256x64_3_0_0) : (⟨S4x256x64, .f32⟩ : BufTy).Contents (Elt F) → (⟨S1x256x64, .f32⟩ : BufTy).Contents (Elt F)),
    StableHlo.reshape main_v289 main_v290 rfl shapeCasts_S1x256x64_S256x64,
    StableHlo.binary main_v257 main_v290 main_v291 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_v288 main_v291 main_v292 (addf : (⟨S50000x64, .f32⟩ : BufTy).Contents (Elt F) → (⟨S50000x64, .f32⟩ : BufTy).Contents (Elt F) → (⟨S50000x64, .f32⟩ : BufTy).Contents (Elt F)),
    StableHlo.unary main_arg11 main_v293 ((extractStridedSlice S1x64 ![3, 0] · slices_S4x64_S1x64_3_0) : (⟨S4x64, .f32⟩ : BufTy).Contents (Elt F) → (⟨S1x64, .f32⟩ : BufTy).Contents (Elt F)),
    StableHlo.reshape main_v293 main_v294 rfl shapeCasts_S1x64_S64,
    StableHlo.unary main_v294 main_v295 (broadcastInDim S1x64 ![1] bcast_S64_S1x64_1 : (⟨S64, .f32⟩ : BufTy).Contents (Elt F) → (⟨S1x64, .f32⟩ : BufTy).Contents (Elt F)),
    StableHlo.unary main_v295 main_v296 (broadcastInDim S50000x64 ![0, 1] bcast_S1x64_S50000x64_0_1 : (⟨S1x64, .f32⟩ : BufTy).Contents (Elt F) → (⟨S50000x64, .f32⟩ : BufTy).Contents (Elt F)),
    StableHlo.binary main_v292 main_v296 main_v297 (addf : (⟨S50000x64, .f32⟩ : BufTy).Contents (Elt F) → (⟨S50000x64, .f32⟩ : BufTy).Contents (Elt F) → (⟨S50000x64, .f32⟩ : BufTy).Contents (Elt F)) ]

theorem ops5_sub : (ops5 : List (HloOp τ sig (Elt F))).Forall fun op => op.bufs ⊆ tcRefs τ sig :=
  ⟨binary_bufs_sub .., nullary_bufs_sub .., unary_bufs_sub .., binary_bufs_sub .., binary_bufs_sub .., unary_bufs_sub ..,
    unary_bufs_sub .., binary_bufs_sub .., unary_bufs_sub .., reshape_bufs_sub .., binary_bufs_sub .., binary_bufs_sub ..,
    unary_bufs_sub .., reshape_bufs_sub .., unary_bufs_sub .., unary_bufs_sub .., binary_bufs_sub .., unary_bufs_sub ..,
    reshape_bufs_sub .., binary_bufs_sub .., binary_bufs_sub .., unary_bufs_sub .., reshape_bufs_sub .., unary_bufs_sub ..,
    unary_bufs_sub .., binary_bufs_sub .., unary_bufs_sub .., reshape_bufs_sub .., binary_bufs_sub .., binary_bufs_sub ..,
    unary_bufs_sub .., reshape_bufs_sub .., unary_bufs_sub .., unary_bufs_sub .., binary_bufs_sub .., unary_bufs_sub ..,
    reshape_bufs_sub .., binary_bufs_sub .., binary_bufs_sub .., unary_bufs_sub .., reshape_bufs_sub .., unary_bufs_sub ..,
    unary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops5_keep : (ops5 : List (HloOp τ sig (Elt F))).Forall fun op =>
    ∃ y : Ref sig .tc, op.writes = {Proc.devRef (τ := τ) .tc y} ∧ y ∉ [main_arg0, main_arg1, main_arg2, main_arg3, main_arg4, main_arg5, main_arg6, main_arg7, main_arg8, main_arg9, main_arg10, main_arg11, main_arg12, main_arg13] :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.Hand

end
-- ==== Proof.Ref.Run.lean ====
import proofs.«148047_j37898791420018_1_alg».proof.Proof.Ref.Ops0
import proofs.«148047_j37898791420018_1_alg».proof.Proof.Ref.Ops1
import proofs.«148047_j37898791420018_1_alg».proof.Proof.Ref.Ops2
import proofs.«148047_j37898791420018_1_alg».proof.Proof.Ref.Ops3
import proofs.«148047_j37898791420018_1_alg».proof.Proof.Ref.Ops4
import proofs.«148047_j37898791420018_1_alg».proof.Proof.Ref.Ops5
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! # The reference program's run

@main is printed in six windows; each window is a straight line of host operations once the three outlined
functions (@_var, the @_where it ends in, @relu) are unfolded at their calls, each over the call's own buffers.
`opsK` lists window K's operations in program order; `ops` is the six lists joined. The run of a straight line is
Lib/StableHlo/Run.lean's `run_seq`: every buffer ends at the fold `after ops` of the operations' results over
the launch contents. No operation writes an argument's buffer, so each argument ends as it began. -/

/-- All of @main's operations in program order, the callees listed in place. -/
abbrev ops : List (HloOp τ sig (Elt F)) := ops0 ++ ops1 ++ ops2 ++ ops3 ++ ops4 ++ ops5

/-! ## Each window is its list

The callees' definitions unfolded at their calls and the records at their fields, both sides are one chain of
`hlo` steps once sequencing is reassociated; a window that does not end in a return differs from its list by the
list's closing `pure`, which the free monad's bind computes away. -/

set_option maxRecDepth 16384 in
set_option maxHeartbeats 4000000 in
theorem main_part0_eq (c : Dev nD) : main_part0 (F := F) c = seq ops0 := by
  simp only [main_part0, fn_var.body, fn_where.body, fn_relu.body, seq, bind_assoc, pure_bind] <;> rfl

set_option maxRecDepth 16384 in
set_option maxHeartbeats 4000000 in
theorem main_part1_eq (c : Dev nD) : main_part1 (F := F) c = seq ops1 := by
  simp only [main_part1, fn_var.body, fn_where.body, fn_relu.body, seq, bind_assoc, pure_bind] <;> rfl

set_option maxRecDepth 16384 in
set_option maxHeartbeats 4000000 in
theorem main_part2_eq (c : Dev nD) : main_part2 (F := F) c = seq ops2 := by
  simp only [main_part2, fn_var.body, fn_where.body, fn_relu.body, seq, bind_assoc, pure_bind] <;> rfl

set_option maxRecDepth 16384 in
set_option maxHeartbeats 4000000 in
theorem main_part3_eq (c : Dev nD) : main_part3 (F := F) c = seq ops3 := by
  simp only [main_part3, fn_var.body, fn_where.body, fn_relu.body, seq, bind_assoc, pure_bind] <;> rfl

set_option maxRecDepth 16384 in
set_option maxHeartbeats 4000000 in
theorem main_part4_eq (c : Dev nD) : main_part4 (F := F) c = seq ops4 := by
  simp only [main_part4, fn_var.body, fn_where.body, fn_relu.body, seq, bind_assoc, pure_bind] <;> rfl

set_option maxRecDepth 16384 in
set_option maxHeartbeats 4000000 in
theorem main_part5_eq (c : Dev nD) : main_part5 (F := F) c = seq ops5 := by
  simp only [main_part5, fn_var.body, fn_where.body, fn_relu.body, seq, bind_assoc, pure_bind] <;> rfl

/-- @main is the six windows in order, so it is the joined list run as one line (`seq_append`). -/
theorem main_eq (c : Dev nD) : main (F := F) c = seq ops := by
  show (main_part0 c >>= fun _ => main_part1 c >>= fun _ => main_part2 c >>= fun _ => main_part3 c >>= fun _ =>
      main_part4 c >>= fun _ => main_part5 c) = _
  rw [main_part0_eq, main_part1_eq, main_part2_eq, main_part3_eq, main_part4_eq, main_part5_eq]
  simp only [ops, seq_append, bind_assoc]

/-! ## The side conditions, joined from the windows' tables -/

private theorem forall_app {α : Type _} {p : α → Prop} {l₁ l₂ : List α} (h₁ : l₁.Forall p) (h₂ : l₂.Forall p) :
    (l₁ ++ l₂).Forall p := List.forall_append.mpr ⟨h₁, h₂⟩

/-- Every operation touches TensorCore references only. -/
theorem ops_sub : (ops : List (HloOp τ sig (Elt F))).Forall fun op => op.bufs ⊆ tcRefs τ sig :=
  forall_app (forall_app (forall_app (forall_app (forall_app ops0_sub ops1_sub) ops2_sub) ops3_sub) ops4_sub) ops5_sub

/-- No operation allocates: each determines its results. -/
theorem ops_fresh : (ops : List (HloOp τ sig (Elt F))).Forall fun op => op.fresh = ∅ :=
  forall_app (forall_app (forall_app (forall_app (forall_app ops0_fresh ops1_fresh) ops2_fresh) ops3_fresh) ops4_fresh) ops5_fresh

/-- Every operation writes one reference, and it is none of the fourteen arguments. -/
theorem ops_keep : (ops : List (HloOp τ sig (Elt F))).Forall fun op =>
    ∃ y : Ref sig .tc, op.writes = {Proc.devRef (τ := τ) .tc y} ∧ y ∉ [main_arg0, main_arg1, main_arg2, main_arg3, main_arg4, main_arg5, main_arg6, main_arg7, main_arg8, main_arg9, main_arg10, main_arg11, main_arg12, main_arg13] :=
  forall_app (forall_app (forall_app (forall_app (forall_app ops0_keep ops1_keep) ops2_keep) ops3_keep) ops4_keep) ops5_keep

theorem scopedRefs_eq : (Finset.univ.filter fun b : Ref sig .tc => b.isScoped) = ∅ := by decide
theorem scopedSems_eq : (Finset.univ.filter fun sm : SemLoc sig => sm.isScoped .tc) = ∅ := by decide

/-! ## The run -/

/-- On every device, for any float values, from any memory with zero counters: every weakly fair execution of
    @main terminates with each TensorCore buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-! ## The arguments are kept -/

/-- A reference of a list `A` keeps its contents through a line each of whose operations writes one reference
    outside `A`. -/
theorem after_keeps {A : List (Ref sig .tc)} (l : List (HloOp τ sig (Elt F))) (V : Valuation τ sig (Elt F))
    (h : l.Forall fun op => ∃ y : Ref sig .tc, op.writes = {Proc.devRef (τ := τ) .tc y} ∧ y ∉ A)
    {r : Ref sig .tc} (hr : r ∈ A) : after l V (Proc.devRef .tc r) = V (Proc.devRef .tc r) :=
  after_of_forall_not_mem l V fun op hop hb => by
    obtain ⟨y, hw, hy⟩ := List.forall_iff_forall_mem.mp h op hop
    rw [hw, Finset.mem_singleton] at hb
    exact hy (Proc.devRef_injective _ hb ▸ hr)

theorem kept_main_arg0 (m : (ℓ : Loc nD τ sig) → Buf (Elt F) ℓ) (d : Dev nD) :
    after ops (launchContents m d) (Proc.devRef .tc main_arg0) = m ((d.tc : Thread nD τ).loc main_arg0) :=
  after_keeps ops _ ops_keep (by decide)
theorem kept_main_arg1 (m : (ℓ : Loc nD τ sig) → Buf (Elt F) ℓ) (d : Dev nD) :
    after ops (launchContents m d) (Proc.devRef .tc main_arg1) = m ((d.tc : Thread nD τ).loc main_arg1) :=
  after_keeps ops _ ops_keep (by decide)
theorem kept_main_arg2 (m : (ℓ : Loc nD τ sig) → Buf (Elt F) ℓ) (d : Dev nD) :
    after ops (launchContents m d) (Proc.devRef .tc main_arg2) = m ((d.tc : Thread nD τ).loc main_arg2) :=
  after_keeps ops _ ops_keep (by decide)
theorem kept_main_arg3 (m : (ℓ : Loc nD τ sig) → Buf (Elt F) ℓ) (d : Dev nD) :
    after ops (launchContents m d) (Proc.devRef .tc main_arg3) = m ((d.tc : Thread nD τ).loc main_arg3) :=
  after_keeps ops _ ops_keep (by decide)
theorem kept_main_arg4 (m : (ℓ : Loc nD τ sig) → Buf (Elt F) ℓ) (d : Dev nD) :
    after ops (launchContents m d) (Proc.devRef .tc main_arg4) = m ((d.tc : Thread nD τ).loc main_arg4) :=
  after_keeps ops _ ops_keep (by decide)
theorem kept_main_arg5 (m : (ℓ : Loc nD τ sig) → Buf (Elt F) ℓ) (d : Dev nD) :
    after ops (launchContents m d) (Proc.devRef .tc main_arg5) = m ((d.tc : Thread nD τ).loc main_arg5) :=
  after_keeps ops _ ops_keep (by decide)
theorem kept_main_arg6 (m : (ℓ : Loc nD τ sig) → Buf (Elt F) ℓ) (d : Dev nD) :
    after ops (launchContents m d) (Proc.devRef .tc main_arg6) = m ((d.tc : Thread nD τ).loc main_arg6) :=
  after_keeps ops _ ops_keep (by decide)
theorem kept_main_arg7 (m : (ℓ : Loc nD τ sig) → Buf (Elt F) ℓ) (d : Dev nD) :
    after ops (launchContents m d) (Proc.devRef .tc main_arg7) = m ((d.tc : Thread nD τ).loc main_arg7) :=
  after_keeps ops _ ops_keep (by decide)
theorem kept_main_arg8 (m : (ℓ : Loc nD τ sig) → Buf (Elt F) ℓ) (d : Dev nD) :
    after ops (launchContents m d) (Proc.devRef .tc main_arg8) = m ((d.tc : Thread nD τ).loc main_arg8) :=
  after_keeps ops _ ops_keep (by decide)
theorem kept_main_arg9 (m : (ℓ : Loc nD τ sig) → Buf (Elt F) ℓ) (d : Dev nD) :
    after ops (launchContents m d) (Proc.devRef .tc main_arg9) = m ((d.tc : Thread nD τ).loc main_arg9) :=
  after_keeps ops _ ops_keep (by decide)
theorem kept_main_arg10 (m : (ℓ : Loc nD τ sig) → Buf (Elt F) ℓ) (d : Dev nD) :
    after ops (launchContents m d) (Proc.devRef .tc main_arg10) = m ((d.tc : Thread nD τ).loc main_arg10) :=
  after_keeps ops _ ops_keep (by decide)
theorem kept_main_arg11 (m : (ℓ : Loc nD τ sig) → Buf (Elt F) ℓ) (d : Dev nD) :
    after ops (launchContents m d) (Proc.devRef .tc main_arg11) = m ((d.tc : Thread nD τ).loc main_arg11) :=
  after_keeps ops _ ops_keep (by decide)
theorem kept_main_arg12 (m : (ℓ : Loc nD τ sig) → Buf (Elt F) ℓ) (d : Dev nD) :
    after ops (launchContents m d) (Proc.devRef .tc main_arg12) = m ((d.tc : Thread nD τ).loc main_arg12) :=
  after_keeps ops _ ops_keep (by decide)
theorem kept_main_arg13 (m : (ℓ : Loc nD τ sig) → Buf (Elt F) ℓ) (d : Dev nD) :
    after ops (launchContents m d) (Proc.devRef .tc main_arg13) = m ((d.tc : Thread nD τ).loc main_arg13) :=
  after_keeps ops _ ops_keep (by decide)

end Cert.ReferenceIdeal.Hand

end
-- ==== Proof.Ref.Frame.lean ====
/-
  The reference program runs to the end, faults nowhere and leaves its fourteen argument arrays as launched: it is a
  straight line of host operations, none of which writes an argument, so each argument's final contents are its
  launch contents.
-/
import proofs.«148047_j37898791420018_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution terminates and every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c),
      (h c main_arg13).trans (kept_main_arg13 m c)⟩)
    (run_after m ρ)

end Cert.ReferenceIdeal.Hand

end
-- ==== Proof.Spec.lean ====
/-
  The mathematics both programs compute, index by index over the extended reals (floats read exactly).

  One network layer is: a matrix product, a batch normalisation over the 50000 rows (column mean, column variance,
  scale by the reciprocal square root of variance plus a small constant, an affine map), a rectifier, a second matrix
  product, a second normalisation and rectifier. The two programs differ in ONE place: the kernel takes the variance of
  a column as the mean of the squares minus the square of the mean (from running column sums), the reference as the
  mean of the squared deviations from the mean. Here the layer is written once, with the variance as a parameter, so
  that the two sides are the same term at two variances.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An `a × b` array of extended reals, indexed as the programs index it. -/
abbrev Arr (a b : Nat) : Type := (⟨2, ![a, b]⟩ : Shape).Idx → EReal
/-- A vector of `b` extended reals (one entry per column). -/
abbrev Vc (b : Nat) : Type := Fin b → EReal

/-- The small constant added to a variance before the reciprocal square root (the float nearest 1e-5, read exactly). -/
def eps : EReal := Ideal.ofBits .f32 0x3727C5AC#32
/-- The number of rows, 50000, as the float both programs divide by. -/
def cnt : EReal := Ideal.ofBits .f32 0x47435000#32

/-- The matrix product: entry (r, c) is the sum over k of A (r, k) · B (k, c). -/
def mm {a k b : Nat} (A : Arr a k) (B : Arr k b) : Arr a b :=
  fun i => ∑ j : Fin k, A (ix2 (i 0) j) * B (ix2 j (i 1))

/-- The sum of each column. -/
def colsum {a b : Nat} (M : Arr a b) : Vc b := fun j => ∑ r : Fin a, M (ix2 r j)
/-- The sum of the squares of each column. -/
def colsumsq {a b : Nat} (M : Arr a b) : Vc b := fun j => ∑ r : Fin a, M (ix2 r j) * M (ix2 r j)
/-- The mean of each column: its sum over the number of rows. -/
def meanOf {a b : Nat} (M : Arr a b) : Vc b := fun j => Ideal.div (colsum M j) cnt
/-- The variance of each column as the kernel takes it: the mean of the squares minus the square of the mean. -/
def varK {a b : Nat} (M : Arr a b) : Vc b := fun j => Ideal.div (colsumsq M j) cnt - meanOf M j * meanOf M j
/-- The variance of each column as the reference takes it: the mean of the squared deviations from the mean. -/
def varR {a b : Nat} (M : Arr a b) : Vc b :=
  fun j => Ideal.div (∑ r : Fin a, (M (ix2 r j) - meanOf M j) * (M (ix2 r j) - meanOf M j)) cnt

/-- Normalise each column by a mean and a variance, apply the affine map, rectify:
    max (((x − mean) · (var + eps)^(−1/2)) · g + b, 0), entry by entry, the column's parameters at the entry's column. -/
def bnrelu {a b : Nat} (M : Arr a b) (mean var g be : Vc b) : Arr a b :=
  fun i => max ((M i - mean (i 1)) * Ideal.rsqrt (var (i 1) + eps) * g (i 1) + be (i 1)) 0

/-- One layer from the aggregated activations, at a choice `var` of the column variance. -/
def layer {d : Nat} (var : Arr 50000 256 → Vc 256) (agg : Arr 50000 d) (W1 : Arr d 256) (g1 b1 : Vc 256)
    (W2 : Arr 256 256) (g2 b2 : Vc 256) : Arr 50000 256 :=
  bnrelu (mm (bnrelu (mm agg W1) (meanOf (mm agg W1)) (var (mm agg W1)) g1 b1) W2)
    (meanOf (mm (bnrelu (mm agg W1) (meanOf (mm agg W1)) (var (mm agg W1)) g1 b1) W2))
    (var (mm (bnrelu (mm agg W1) (meanOf (mm agg W1)) (var (mm agg W1)) g1 b1) W2)) g2 b2

/-- The linear heads over the input and the four layers' outputs, summed in the programs' order:
    ((((h·w0 + c0) + x1·w1) + c1) + x2·w2) + c2 … -/
def head (h : Arr 50000 128) (x1 x2 x3 x4 : Arr 50000 256) (w0 : Arr 128 64) (c0 : Vc 64)
    (w1 w2 w3 w4 : Arr 256 64) (c1 c2 c3 c4 : Vc 64) : Arr 50000 64 :=
  fun i => ((((((((mm h w0 i + c0 (i 1)) + mm x1 w1 i) + c1 (i 1)) + mm x2 w2 i) + c2 (i 1)) + mm x3 w3 i) + c3 (i 1))
    + mm x4 w4 i) + c4 (i 1)

/-- Row `i` of an `n × b` table of per-layer parameters, as a vector. -/
def row {n b : Nat} (P : Arr n b) (i : Fin n) : Vc b := fun j => P (ix2 i j)
/-- Slab `i` of a stack of `n` matrices, as a matrix. -/
def slab {n a b : Nat} (T : (⟨3, ![n, a, b]⟩ : Shape).Idx → EReal) (i : Fin n) : Arr a b := fun j => T (ix3 i (j 0) (j 1))
/-- A rank-1 array as a vector. -/
def vec {b : Nat} (p : (⟨1, ![b]⟩ : Shape).Idx → EReal) : Vc b := fun j => p (ix1 j)

/-- A stack of `n` matrices. -/
abbrev Stack (n a b : Nat) : Type := (⟨3, ![n, a, b]⟩ : Shape).Idx → EReal

section Net
variable (var : Arr 50000 256 → Vc 256) (ag0 : Arr 50000 128 → Arr 50000 128) (ag : Arr 50000 256 → Arr 50000 256)
  (h : Arr 50000 128) (cW1 : Arr 128 256) (W1s : Stack 3 256 256) (W2s : Stack 4 256 256) (g1 b1 g2 b2 : Arr 4 256)

/-- The four layers' outputs in turn: each layer runs on the aggregation (`ag0` on the 128-wide input, `ag` on the
    256-wide hidden activations) of the one before; layer `i` takes row `i` of each parameter table, slab `i` of the
    second weights, and for `i ≥ 1` slab `i − 1` of the first weights (layer 0 has its own 128 × 256 first weights). -/
def x1 : Arr 50000 256 := layer var (ag0 h) cW1 (row g1 0) (row b1 0) (slab W2s 0) (row g2 0) (row b2 0)
def x2 : Arr 50000 256 := layer var (ag (x1 var ag0 h cW1 W2s g1 b1 g2 b2)) (slab W1s 0) (row g1 1) (row b1 1) (slab W2s 1) (row g2 1) (row b2 1)
def x3 : Arr 50000 256 := layer var (ag (x2 var ag0 ag h cW1 W1s W2s g1 b1 g2 b2)) (slab W1s 1) (row g1 2) (row b1 2) (slab W2s 2) (row g2 2) (row b2 2)
def x4 : Arr 50000 256 := layer var (ag (x3 var ag0 ag h cW1 W1s W2s g1 b1 g2 b2)) (slab W1s 2) (row g1 3) (row b1 3) (slab W2s 3) (row g2 3) (row b2 3)

/-- The whole network: the heads over the input and the four layers' outputs. -/
def net (p0W : Arr 128 64) (p0b : (⟨1, ![64]⟩ : Shape).Idx → EReal) (pW : Stack 4 256 64) (pb : Arr 4 64) : Arr 50000 64 :=
  head h (x1 var ag0 h cW1 W2s g1 b1 g2 b2) (x2 var ag0 ag h cW1 W1s W2s g1 b1 g2 b2) (x3 var ag0 ag h cW1 W1s W2s g1 b1 g2 b2)
    (x4 var ag0 ag h cW1 W1s W2s g1 b1 g2 b2) p0W (vec p0b) (slab pW 0) (slab pW 1) (slab pW 2) (slab pW 3)
    (row pb 0) (row pb 1) (row pb 2) (row pb 3)
end Net

/-- Every entry of an array is a real number (no infinity). -/
def AllReal {ι : Type} (v : ι → EReal) : Prop := ∀ i, ∃ r : ℝ, v i = (r : EReal)

end Cert.Spec

end
-- ==== Proof.LibRealArith.lean ====
/-
  Arithmetic on extended reals that are reals, as the ideal reading of float operations needs it.

  The ideal values are Mathlib's `EReal`; its `+`, `-`, `*`, `max` restrict to the real operations
  on (coerced) reals, and so do a division by a nonzero real, a finite sum, and the reciprocal
  square root of a positive real. `IsReal x` says "`x` is the coercion of a real"; the lemmas
  below close it under those operations, move a finite sum through the coercion (`coe_sum`), and
  state the one law of batch statistics used downstream: the mean of the squares minus the square
  of the mean IS the mean of the squared deviations (`var_real` over `ℝ`; `var_ereal` on extended
  reals that are reals, in the operations' own spelling), which is nonnegative
  (`var_real_nonneg`, `var_ereal_isReal_nonneg`). Last, three evaluations of `f32` literals.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Fin
import Mathlib.Algebra.Order.BigOperators.Group.Finset
import Mathlib.Analysis.SpecialFunctions.Pow.Real
import Mathlib.Tactic.Ring
import Mathlib.Tactic.FieldSimp
import Mathlib.Tactic.NormNum
import Mathlib.Tactic.Positivity

namespace Cert.Lib.RealArith

open Idealize.ShloMosaic
open scoped BigOperators

/-- An extended real that is (the coercion of) a real: neither infinity. -/
def IsReal (x : EReal) : Prop := ∃ r : ℝ, x = (r : EReal)

/-- A coerced real is a real. -/
theorem isReal_coe (r : ℝ) : IsReal (r : EReal) := ⟨r, rfl⟩

/-- Zero is a real. -/
theorem isReal_zero : IsReal 0 := ⟨0, rfl⟩

/-- One is a real. -/
theorem isReal_one : IsReal 1 := ⟨1, rfl⟩

/-- A real is not the top element. -/
theorem IsReal.ne_top {x : EReal} (hx : IsReal x) : x ≠ ⊤ := by
  obtain ⟨a, rfl⟩ := hx; exact EReal.coe_ne_top a

/-- A real is not the bottom element. -/
theorem IsReal.ne_bot {x : EReal} (hx : IsReal x) : x ≠ ⊥ := by
  obtain ⟨a, rfl⟩ := hx; exact EReal.coe_ne_bot a

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  obtain ⟨a, rfl⟩ := hx; obtain ⟨b, rfl⟩ := hy; exact ⟨Max.max a b, EReal.coe_strictMono.monotone.map_max.symm⟩

/-- The minimum of two reals is a real. -/
theorem IsReal.min {x y : EReal} (hx : IsReal x) (hy : IsReal y) : IsReal (min x y) := by
  obtain ⟨a, rfl⟩ := hx; obtain ⟨b, rfl⟩ := hy; exact ⟨Min.min a b, EReal.coe_strictMono.monotone.map_min.symm⟩

/-- The coercion `ℝ → EReal` commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A real divided (the float division of the ideal reading) by a nonzero real is a real. -/
theorem IsReal.div_coe {y : ℝ} (hy : y ≠ 0) {x : EReal} (hx : IsReal x) :
    IsReal (Ideal.div x (y : EReal)) := by
  rw [Ideal.div_coe hy]; exact hx.mul (isReal_coe _)

/-- The float division of a coerced real by a nonzero coerced real is the coerced real quotient. -/
theorem div_coe_coe {y : ℝ} (hy : y ≠ 0) (x : ℝ) :
    Ideal.div (x : EReal) (y : EReal) = ((x / y : ℝ) : EReal) := by
  rw [Ideal.div_coe hy, ← EReal.coe_mul, mul_one_div]

/-- The reciprocal square root of a positive real, as a value: the coerced `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real is a real. -/
theorem IsReal.rsqrt_of_pos {r : ℝ} (hr : 0 < r) : IsReal (Ideal.rsqrt (r : EReal)) :=
  ⟨_, rsqrt_coe_of_pos hr⟩

/-- The reciprocal square root of a nonnegative real plus a positive real, as a value. -/
theorem rsqrt_add_coe_of_nonneg_of_pos {v e : ℝ} (hv : 0 ≤ v) (he : 0 < e) :
    Ideal.rsqrt ((v : EReal) + (e : EReal)) = (((Real.sqrt (v + e))⁻¹ : ℝ) : EReal) := by
  rw [← EReal.coe_add]; exact rsqrt_coe_of_pos (add_pos_of_nonneg_of_pos hv he)

/-- The reciprocal square root of a nonnegative real plus a positive real is a real. -/
theorem IsReal.rsqrt_add_of_nonneg_of_pos {v e : ℝ} (hv : 0 ≤ v) (he : 0 < e) :
    IsReal (Ideal.rsqrt ((v : EReal) + (e : EReal))) :=
  ⟨_, rsqrt_add_coe_of_nonneg_of_pos hv he⟩

/-- Over `ℝ`, for `n ≥ 1` entries: the mean of the squares minus the square of the mean is the mean
    of the squared deviations from the mean. -/
theorem var_real {n : ℕ} (hn : 0 < n) (a : Fin n → ℝ) :
    (∑ i, a i * a i) / n - ((∑ i, a i) / n) * ((∑ i, a i) / n)
      = (∑ i, (a i - (∑ i, a i) / n) * (a i - (∑ i, a i) / n)) / n := by
  have hN : (n : ℝ) ≠ 0 := by exact_mod_cast hn.ne'
  generalize hS : (∑ i, a i) = S
  have h1 : ∀ m : ℝ, ∑ i, (a i - m) * (a i - m) = (∑ i, a i * a i) - 2 * m * S + n * (m * m) := by
    intro m
    have h2 : ∀ i, (a i - m) * (a i - m) = a i * a i - 2 * m * a i + m * m := fun i => by ring
    simp only [h2, Finset.sum_add_distrib, Finset.sum_sub_distrib, ← Finset.mul_sum, hS,
      Finset.sum_const, Finset.card_univ, Fintype.card_fin, nsmul_eq_mul]
    ring
  rw [h1]; field_simp; ring

/-- Over `ℝ`: the mean of the squared deviations is nonnegative (for any `n`, zero included). -/
theorem var_real_nonneg {n : ℕ} (a : Fin n → ℝ) :
    0 ≤ (∑ i, (a i - (∑ i, a i) / n) * (a i - (∑ i, a i) / n)) / n :=
  div_nonneg (Finset.sum_nonneg fun _ _ => mul_self_nonneg _) (Nat.cast_nonneg n)

/-- The right-hand side of `var_ereal` on coerced reals is the coerced real mean of squared
    deviations. -/
theorem var_ereal_rhs_coe {n : ℕ} (hn : 0 < n) (N : ℝ) (hN : N = n) (b : Fin n → ℝ) :
    Ideal.div (0 + ∑ i, ((b i : EReal) - Ideal.div (0 + ∑ i, (b i : EReal)) (N : EReal))
        * ((b i : EReal) - Ideal.div (0 + ∑ i, (b i : EReal)) (N : EReal))) (N : EReal)
      = (((∑ i, (b i - (∑ i, b i) / n) * (b i - (∑ i, b i) / n)) / n : ℝ) : EReal) := by
  subst hN
  have hN0 : (n : ℝ) ≠ 0 := by exact_mod_cast hn.ne'
  simp only [zero_add, ← coe_sum, div_coe_coe hN0, ← EReal.coe_sub, ← EReal.coe_mul]

/-- On extended reals that are reals, in the float operations' own spelling (`N` the real `n`,
    divisions by `(N : EReal)`, the right-hand sums with their initial value `0 +`): the mean of
    the squares minus the square of the mean is the mean of the squared deviations. -/
theorem var_ereal {n : ℕ} (hn : 0 < n) (N : ℝ) (hN : N = n) (a : Fin n → EReal)
    (ha : ∀ i, IsReal (a i)) :
    Ideal.div (∑ i, a i * a i) (N : EReal)
        - Ideal.div (∑ i, a i) (N : EReal) * Ideal.div (∑ i, a i) (N : EReal)
      = Ideal.div (0 + ∑ i, (a i - Ideal.div (0 + ∑ i, a i) (N : EReal))
          * (a i - Ideal.div (0 + ∑ i, a i) (N : EReal))) (N : EReal) := by
  choose b hb using ha
  obtain rfl : a = fun i => (b i : EReal) := funext hb
  rw [var_ereal_rhs_coe hn N hN b, ← var_real hn b]
  subst hN
  have hN0 : (n : ℝ) ≠ 0 := by exact_mod_cast hn.ne'
  simp only [← coe_sum, div_coe_coe hN0, ← EReal.coe_sub, ← EReal.coe_mul]

/-- Under the hypotheses of `var_ereal`, its right-hand side (hence its left-hand side) is a
    nonnegative real. -/
theorem var_ereal_isReal_nonneg {n : ℕ} (hn : 0 < n) (N : ℝ) (hN : N = n) (a : Fin n → EReal)
    (ha : ∀ i, IsReal (a i)) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  choose b hb using ha
  obtain rfl : a = fun i => (b i : EReal) := funext hb
  exact ⟨_, var_real_nonneg b, var_ereal_rhs_coe hn N hN b⟩

/-- The `f32` pattern `0x47435000` denotes `50000`. -/
theorem ofBits_50000 : Ideal.ofBits .f32 0x47435000#32 = ((50000 : ℝ) : EReal) := by
  simp [Ideal.ofBits, Ideal.ieee]
  rw [← EReal.coe_mul]
  norm_num

/-- The `f32` pattern `0x3727C5AC` (the one nearest `1e-5`) denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee]

/-- The guard `50000 - 0 > 0` evaluates to true. -/
theorem cmp_ogt_50000 :
    Ideal.cmp .ogt (((50000 : ℝ) : EReal) - ((0 : ℝ) : EReal)) 0 = 1#1 := by
  have h : (0 : EReal) < ((50000 : ℝ) : EReal) - ((0 : ℝ) : EReal) := by
    rw [← EReal.coe_sub]; exact_mod_cast (by norm_num : (0 : ℝ) < 50000 - 0)
  simp [Ideal.cmp, h]

end Cert.Lib.RealArith
-- ==== Proof.KI.ValDefs.lean ====
/-
  The neighbour aggregation as the kernel program's host glue prints it, and the small layout facts the host glue
  between the regions needs: a row of a table cut out, flattened and lifted back to a one-row table reads as that
  row; a column mean is the stats row over the row count; the variance is the mean of squares minus the squared mean.
-/
import proofs.«148047_j37898791420018_1_alg».proof.Proof.Gen.KernelIdeal.Launch
import proofs.«148047_j37898791420018_1_alg».proof.Proof.Spec
import proofs.«148047_j37898791420018_1_alg».proof.Proof.LibRealArith
import Idealize.ShloMosaic.Lib.ValueLayout
import Idealize.ShloMosaic.Lib.ValueIdx

set_option maxRecDepth 16384

noncomputable section

namespace Cert.KernelIdeal.HandV

open Cert.KernelIdeal Cert.KernelIdeal.Gen
open Idealize.ShloMosaic Idealize.ShloMosaic.TcCoe Idealize.ShloMosaic.ValueIdx
open Cert.Spec (Arr Vc Stack)

/-- The aggregation on 128 columns: x plus the scatter-add, over the destination nodes, of the rows of x gathered at
    the source nodes (a negative source index wrapped by the row count), as one composed term of the printed operations. -/
def aggKer128 (x : Arr 50000 128) (src dst : IVec S800000 32) : Arr 50000 128 :=
  addf (F := Ideal) x
    (Host.scatterAdd (F := Ideal) scatter_S50000x128_S800000x1_S800000x128_1_0_0_1
      (broadcastInDim S50000x128 ![] bcast_S_S50000x128 (constant (F := Ideal) S_ FTy.f32 0#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select
            (cmpi CmpIPredicate.slt src (broadcastInDim S800000 ![] bcast_S_S800000 (constantI S_ 32 0#32)))
            (addi src (broadcastInDim S800000 ![] bcast_S_S800000 (constantI S_ 32 50000#32)))
            src))))

/-- The same aggregation on 256 columns. -/
def aggKer256 (x : Arr 50000 256) (src dst : IVec S800000 32) : Arr 50000 256 :=
  addf (F := Ideal) x
    (Host.scatterAdd (F := Ideal) scatter_S50000x256_S800000x1_S800000x256_1_0_0_1
      (broadcastInDim S50000x256 ![] bcast_S_S50000x256 (constant (F := Ideal) S_ FTy.f32 0#32))
      (broadcastInDim S800000x1 ![0] bcast_S800000_S800000x1_0 dst)
      (Host.gather gather_S50000x256_S800000x1_S800000x256_1_0_n_n_0_1_1256 x
        (broadcastInDim S800000x1 ![0] bcast_S800000_S800000x1_0
          (select
            (cmpi CmpIPredicate.slt src (broadcastInDim S800000 ![] bcast_S_S800000 (constantI S_ 32 0#32)))
            (addi src (broadcastInDim S800000 ![] bcast_S_S800000 (constantI S_ 32 50000#32)))
            src))))

/-- Two matrices that agree at every pair of coordinates are equal. -/
theorem arr_ext {a b : Nat} {X Y : Arr a b} (h : ∀ (i : Fin a) (j : Fin b), X (ix2 i j) = Y (ix2 i j)) : X = Y :=
  funext fun k => by rw [eq_ix2 k]; exact h (k 0) (k 1)

/-- The host's quotient at an index, over the extended reals. -/
theorem hostDivf_apply {s : Shape} {φ : FTy} (a b : FVec Ideal s φ) (i : s.Idx) :
    Host.divf (F := Ideal) a b i = Ideal.div (a i) (b i) := rfl

/-- Row o of an n × b table, cut out and flattened to a vector, reads at j the table at (o, j). -/
theorem rowvec_apply {n b : Nat} (o : Nat) (X : Arr n b)
    (hs : (⟨2, ![n, b]⟩ : Shape).Slices ![o, 0] ⟨2, ![1, b]⟩) (hc : (⟨2, ![1, b]⟩ : Shape).ShapeCasts ⟨1, ![b]⟩)
    (k : Fin n) (hk : k.val = o) (j : Fin b) :
    shapeCast ⟨1, ![b]⟩ (extractStridedSlice ⟨2, ![1, b]⟩ ![o, 0] X hs) hc (ix1 j) = X (ix2 k j) :=
  (shapeCast_1a_a_apply _ hc j).trans (slice2_axis0_apply o X hs (0 : Fin 1) j k (by rw [hk]; rfl))

/-- Slab o of a stack of n matrices, cut out and with the unit axis dropped, reads at (i, j) the stack at (o, i, j). -/
theorem slabmat_apply {n a b : Nat} (o : Nat) (T : Stack n a b)
    (hs : (⟨3, ![n, a, b]⟩ : Shape).Slices ![o, 0, 0] ⟨3, ![1, a, b]⟩) (hc : (⟨3, ![1, a, b]⟩ : Shape).ShapeCasts ⟨2, ![a, b]⟩)
    (k : Fin n) (hk : k.val = o) (i : Fin a) (j : Fin b) :
    shapeCast ⟨2, ![a, b]⟩ (extractStridedSlice ⟨3, ![1, a, b]⟩ ![o, 0, 0] T hs) hc (ix2 i j) = T (ix3 k i j) :=
  (shapeCast_1ab_ab_apply _ hc i j).trans (extractStridedSlice_apply _ _ _ _ _ (fun ax => by
    match ax with
    | ⟨0, _⟩ => exact (by rw [hk]; rfl)
    | ⟨1, _⟩ => exact (Nat.zero_add _).symm
    | ⟨2, _⟩ => exact (Nat.zero_add _).symm))

/-- The mean row: if a one-row table holds, at column j, the first stats row over the row count, and the stats' first
    row is the column sums of M, the row is the column mean of M. -/
theorem row_mean {M : Arr 50000 256} {S : Arr 2 256} {mu : Arr 1 256}
    (hS : ∀ j : Fin 256, S (ix2 0 j) = Cert.Spec.colsum M j ∧ S (ix2 1 j) = Cert.Spec.colsumsq M j)
    (hmu : ∀ j : Fin 256, mu (ix2 0 j) = Ideal.div (S (ix2 0 j)) Cert.Spec.cnt) :
    Cert.Spec.row mu 0 = Cert.Spec.meanOf M :=
  funext fun j => by
    show mu (ix2 0 j) = Ideal.div (Cert.Spec.colsum M j) Cert.Spec.cnt
    rw [hmu j, (hS j).1]

/-- The variance row: the second stats row over the row count, minus the square of the mean. -/
theorem row_var {M : Arr 50000 256} {S : Arr 2 256} {va : Arr 1 256}
    (hS : ∀ j : Fin 256, S (ix2 0 j) = Cert.Spec.colsum M j ∧ S (ix2 1 j) = Cert.Spec.colsumsq M j)
    (hva : ∀ j : Fin 256, va (ix2 0 j) = Ideal.div (S (ix2 1 j)) Cert.Spec.cnt
      - Ideal.div (S (ix2 0 j)) Cert.Spec.cnt * Ideal.div (S (ix2 0 j)) Cert.Spec.cnt) :
    Cert.Spec.row va 0 = Cert.Spec.varK M :=
  funext fun j => by
    show va (ix2 0 j) = Ideal.div (Cert.Spec.colsumsq M j) Cert.Spec.cnt
      - Ideal.div (Cert.Spec.colsum M j) Cert.Spec.cnt * Ideal.div (Cert.Spec.colsum M j) Cert.Spec.cnt
    rw [hva j, (hS j).1, (hS j).2]

/-- A splat constant broadcast to a vector reads, at every index, the extended real its word encodes. -/
theorem bconst_apply {b : Nat} (hb : S_.BroadcastsInDim ⟨1, ![b]⟩ ![]) (w : BitVec FTy.f32.bits) (j : Fin b) :
    broadcastInDim ⟨1, ![b]⟩ ![] hb (constant (F := Ideal) S_ FTy.f32 w) (ix1 j) = Ideal.ofBits FTy.f32 w := rfl

/-- Row o of a stats table over the row count, as a one-row table: at (0, j) the table at (o, j) over the count. -/
theorem meanrow_apply {b : Nat} (o : Nat) (X : Arr 2 b)
    (hs : (⟨2, ![2, b]⟩ : Shape).Slices ![o, 0] ⟨2, ![1, b]⟩) (hc1 : (⟨2, ![1, b]⟩ : Shape).ShapeCasts ⟨1, ![b]⟩)
    (hb : S_.BroadcastsInDim ⟨1, ![b]⟩ ![]) (hc2 : (⟨1, ![b]⟩ : Shape).ShapeCasts ⟨2, ![1, b]⟩)
    (k : Fin 2) (hk : k.val = o) (j : Fin b) :
    shapeCast ⟨2, ![1, b]⟩
      (Host.divf (F := Ideal) (shapeCast ⟨1, ![b]⟩ (extractStridedSlice ⟨2, ![1, b]⟩ ![o, 0] X hs) hc1)
        (broadcastInDim ⟨1, ![b]⟩ ![] hb (constant (F := Ideal) S_ FTy.f32 0x47435000#32))) hc2 (ix2 (0 : Fin 1) j)
      = Ideal.div (X (ix2 k j)) Cert.Spec.cnt := by
  refine (shapeCast_a_1a_apply _ hc2 (0 : Fin 1) j).trans ?_
  refine (hostDivf_apply _ _ (ix1 j)).trans ?_
  rw [rowvec_apply o X hs hc1 k hk j, bconst_apply hb _ j]; rfl

/-- The variance row: the second stats row over the count minus the square of the first over the count. -/
theorem varrow_apply {b : Nat} (X : Arr 2 b)
    (hs0 : (⟨2, ![2, b]⟩ : Shape).Slices ![0, 0] ⟨2, ![1, b]⟩) (hs1 : (⟨2, ![2, b]⟩ : Shape).Slices ![1, 0] ⟨2, ![1, b]⟩)
    (hc1 : (⟨2, ![1, b]⟩ : Shape).ShapeCasts ⟨1, ![b]⟩)
    (hb : S_.BroadcastsInDim ⟨1, ![b]⟩ ![]) (hc2 : (⟨1, ![b]⟩ : Shape).ShapeCasts ⟨2, ![1, b]⟩) (j : Fin b) :
    shapeCast ⟨2, ![1, b]⟩
      (subf (F := Ideal)
        (Host.divf (F := Ideal) (shapeCast ⟨1, ![b]⟩ (extractStridedSlice ⟨2, ![1, b]⟩ ![1, 0] X hs1) hc1)
          (broadcastInDim ⟨1, ![b]⟩ ![] hb (constant (F := Ideal) S_ FTy.f32 0x47435000#32)))
        (mulf (F := Ideal)
          (Host.divf (F := Ideal) (shapeCast ⟨1, ![b]⟩ (extractStridedSlice ⟨2, ![1, b]⟩ ![0, 0] X hs0) hc1)
            (broadcastInDim ⟨1, ![b]⟩ ![] hb (constant (F := Ideal) S_ FTy.f32 0x47435000#32)))
          (Host.divf (F := Ideal) (shapeCast ⟨1, ![b]⟩ (extractStridedSlice ⟨2, ![1, b]⟩ ![0, 0] X hs0) hc1)
            (broadcastInDim ⟨1, ![b]⟩ ![] hb (constant (F := Ideal) S_ FTy.f32 0x47435000#32))))) hc2 (ix2 (0 : Fin 1) j)
      = Ideal.div (X (ix2 1 j)) Cert.Spec.cnt
        - Ideal.div (X (ix2 0 j)) Cert.Spec.cnt * Ideal.div (X (ix2 0 j)) Cert.Spec.cnt := by
  refine (shapeCast_a_1a_apply _ hc2 (0 : Fin 1) j).trans ?_
  refine (subf_apply _ _ (ix1 j)).trans ?_
  rw [mulf_apply, hostDivf_apply, hostDivf_apply, rowvec_apply 1 X hs1 hc1 1 rfl j, rowvec_apply 0 X hs0 hc1 0 rfl j,
    bconst_apply hb _ j]; rfl

/-- A row of a parameter table cut out, flattened and lifted back to a one-row table reads as that row. -/
theorem parrow_apply {n b : Nat} (o : Nat) (X : Arr n b)
    (hs : (⟨2, ![n, b]⟩ : Shape).Slices ![o, 0] ⟨2, ![1, b]⟩) (hc1 : (⟨2, ![1, b]⟩ : Shape).ShapeCasts ⟨1, ![b]⟩)
    (hc2 : (⟨1, ![b]⟩ : Shape).ShapeCasts ⟨2, ![1, b]⟩) (k : Fin n) (hk : k.val = o) (j : Fin b) :
    shapeCast ⟨2, ![1, b]⟩ (shapeCast ⟨1, ![b]⟩ (extractStridedSlice ⟨2, ![1, b]⟩ ![o, 0] X hs) hc1) hc2 (ix2 (0 : Fin 1) j)
      = X (ix2 k j) :=
  (shapeCast_a_1a_apply _ hc2 (0 : Fin 1) j).trans (rowvec_apply o X hs hc1 k hk j)

end Cert.KernelIdeal.HandV
end
-- ==== Proof.Ref.SegA0.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch A0 of @main: 14 operations in program order. -/
def segA0 : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg12 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg12 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg12 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg13 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v9 main_v10 (addf : (⟨S50000x128, .f32⟩ : BufTy).Contents (Elt F) → (⟨S50000x128, .f32⟩ : BufTy).Contents (Elt F) → (⟨S50000x128, .f32⟩ : BufTy).Contents (Elt F)) ]

/-- The references stretch A0 carries: the arguments and the other stretches' results. -/
abbrev keepA0 : List (Ref sig .tc) := [main_arg0, main_arg1, main_arg2, main_arg3, main_arg4, main_arg5, main_arg6, main_arg7, main_arg8, main_arg9, main_arg10, main_arg11, main_arg12, main_arg13, main_v35, main_v62, main_v73, main_v100, main_v127, main_v138, main_v165, main_v192, main_v203, main_v230, main_v257]

theorem segA0_keep : (segA0 : List (HloOp τ sig (Elt F))).Forall fun op =>
    ∃ y : Ref sig .tc, op.writes = {Proc.devRef (τ := τ) .tc y} ∧ y ∉ keepA0 := by
  unfold segA0
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.Hand

end
-- ==== Proof.Ref.SegH0a.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch H0a of @main: 52 operations in program order. -/
def segH0a : List (HloOp τ sig (Elt F)) :=
  [ StableHlo.binary main_v10 main_arg1 main_v11 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v12 ((extractStridedSlice S1x256 ![0, 0] · slices_S4x256_S1x256_0_0) : (⟨S4x256, .f32⟩ : BufTy).Contents (Elt F) → (⟨S1x256, .f32⟩ : BufTy).Contents (Elt F)),
    StableHlo.reshape main_v12 main_v13 rfl shapeCasts_S1x256_S256,
    StableHlo.unary main_arg5 main_v14 ((extractStridedSlice S1x256 ![0, 0] · slices_S4x256_S1x256_0_0) : (⟨S4x256, .f32⟩ : BufTy).Contents (Elt F) → (⟨S1x256, .f32⟩ : BufTy).Contents (Elt F)),
    StableHlo.reshape main_v14 main_v15 rfl shapeCasts_S1x256_S256,
    StableHlo.nullary main_cst_1 (constant S_ .f32 0x00000000#32),
    StableHlo.binary main_v11 main_cst_1 main_v16 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v17 (broadcastInDim S256 ![] bcast_S_S256 : (⟨S_, .f32⟩ : BufTy).Contents (Elt F) → (⟨S256, .f32⟩ : BufTy).Contents (Elt F)),
    StableHlo.binary main_v16 main_v17 main_v18 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v11 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v11 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v18 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v11 main_v21 main_v22 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v23 (broadcastInDim S256 ![] bcast_S_S256 : (⟨S_, .f32⟩ : BufTy).Contents (Elt F) → (⟨S256, .f32⟩ : BufTy).Contents (Elt F)),
    StableHlo.binary main_v19 main_v23 main_v24 (addf : (⟨S256, .f32⟩ : BufTy).Contents (Elt F) → (⟨S256, .f32⟩ : BufTy).Contents (Elt F) → (⟨S256, .f32⟩ : BufTy).Contents (Elt F)),
    StableHlo.unary main_v24 main_v25 (Host.rsqrt : (⟨S256, .f32⟩ : BufTy).Contents (Elt F) → (⟨S256, .f32⟩ : BufTy).Contents (Elt F)),
    StableHlo.unary main_v25 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v27 main_v28 (mulf : (⟨S50000x256, .f32⟩ : BufTy).Contents (Elt F) → (⟨S50000x256, .f32⟩ : BufTy).Contents (Elt F) → (⟨S50000x256, .f32⟩ : BufTy).Contents (Elt F)),
    StableHlo.unary main_v13 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S50000x256 ![0, 1] bcast_S1x256_S50000x256_0_1 : (⟨S1x256, .f32⟩ : BufTy).Contents (Elt F) → (⟨S50000x256, .f32⟩ : BufTy).Contents (Elt F)),
    StableHlo.binary main_v28 main_v30 main_v31 (mulf : (⟨S50000x256, .f32⟩ : BufTy).Contents (Elt F) → (⟨S50000x256, .f32⟩ : BufTy).Contents (Elt F) → (⟨S50000x256, .f32⟩ : BufTy).Contents (Elt F)),
    StableHlo.unary main_v15 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S50000x256 ![0, 1] bcast_S1x256_S50000x256_0_1 : (⟨S1x256, .f32⟩ : BufTy).Contents (Elt F) → (⟨S50000x256, .f32⟩ : BufTy).Contents (Elt F)),
    StableHlo.binary main_v31 main_v33 main_v34 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v34 : StableHlo.TRef sig ⟨S50000x256, .f32⟩) main_call1.v0 main_call1.v1 maximumf ]

/-- The references stretch H0a carries: the arguments and the other stretches' results. -/
abbrev keepH0a : List (Ref sig .tc) := [main_arg0, main_arg1, main_arg2, main_arg3, main_arg4, main_arg5, main_arg6, main_arg7, main_arg8, main_arg9, main_arg10, main_arg11, main_arg12, main_arg13, main_v10, main_v62, main_v73, main_v100, main_v127, main_v138, main_v165, main_v192, main_v203, main_v230, main_v257]

theorem segH0a_keep : (segH0a : List (HloOp τ sig (Elt F))).Forall fun op =>
    ∃ y : Ref sig .tc, op.writes = {Proc.devRef (τ := τ) .tc y} ∧ y ∉ keepH0a := by
  unfold segH0a
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩⟩

end Cert.ReferenceIdeal.Hand

end
-- ==== Proof.Ref.SegH0b.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch H0b of @main: 54 operations in program order. -/
def segH0b : List (HloOp τ sig (Elt F)) :=
  [ StableHlo.unary main_arg3 main_v36 ((extractStridedSlice S1x256x256 ![0, 0, 0] · slices_S4x256x256_S1x256x256_0_0_0) : (⟨S4x256x256, .f32⟩ : BufTy).Contents (Elt F) → (⟨S1x256x256, .f32⟩ : BufTy).Contents (Elt F)),
    StableHlo.reshape main_v36 main_v37 rfl shapeCasts_S1x256x256_S256x256,
    StableHlo.binary main_v35 main_v37 main_v38 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v39 ((extractStridedSlice S1x256 ![0, 0] · slices_S4x256_S1x256_0_0) : (⟨S4x256, .f32⟩ : BufTy).Contents (Elt F) → (⟨S1x256, .f32⟩ : BufTy).Contents (Elt F)),
    StableHlo.reshape main_v39 main_v40 rfl shapeCasts_S1x256_S256,
    StableHlo.unary main_arg7 main_v41 ((extractStridedSlice S1x256 ![0, 0] · slices_S4x256_S1x256_0_0) : (⟨S4x256, .f32⟩ : BufTy).Contents (Elt F) → (⟨S1x256, .f32⟩ : BufTy).Contents (Elt F)),
    StableHlo.reshape main_v41 main_v42 rfl shapeCasts_S1x256_S256,
    StableHlo.nullary main_cst_5 (constant S_ .f32 0x00000000#32),
    StableHlo.binary main_v38 main_cst_5 main_v43 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_6 (constant S_ .f32 0x47435000#32),
    StableHlo.unary main_cst_6 main_v44 (broadcastInDim S256 ![] bcast_S_S256 : (⟨S_, .f32⟩ : BufTy).Contents (Elt F) → (⟨S256, .f32⟩ : BufTy).Contents (Elt F)),
    StableHlo.binary main_v43 main_v44 main_v45 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call2.cst (constant S_ .f32 0x00000000#32),
    StableHlo.TRef.binary (.of main_v38 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v38 : StableHlo.TRef sig ⟨S50000x256, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v45 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S50000x256 ![0, 1] bcast_S1x256_S50000x256_0_1 : (⟨S1x256, .f32⟩ : BufTy).Contents (Elt F) → (⟨S50000x256, .f32⟩ : BufTy).Contents (Elt F)),
    StableHlo.binary main_v38 main_v48 main_v49 (subf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v50 (broadcastInDim S256 ![] bcast_S_S256 : (⟨S_, .f32⟩ : BufTy).Contents (Elt F) → (⟨S256, .f32⟩ : BufTy).Contents (Elt F)),
    StableHlo.binary main_v46 main_v50 main_v51 (addf : (⟨S256, .f32⟩ : BufTy).Contents (Elt F) → (⟨S256, .f32⟩ : BufTy).Contents (Elt F) → (⟨S256, .f32⟩ : BufTy).Contents (Elt F)),
    StableHlo.unary main_v51 main_v52 (Host.rsqrt : (⟨S256, .f32⟩ : BufTy).Contents (Elt F) → (⟨S256, .f32⟩ : BufTy).Contents (Elt F)),
    StableHlo.unary main_v52 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v54 main_v55 (mulf : (⟨S50000x256, .f32⟩ : BufTy).Contents (Elt F) → (⟨S50000x256, .f32⟩ : BufTy).Contents (Elt F) → (⟨S50000x256, .f32⟩ : BufTy).Contents (Elt F)),
    StableHlo.unary main_v40 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v57 main_v58 (mulf : (⟨S50000x256, .f32⟩ : BufTy).Contents (Elt F) → (⟨S50000x256, .f32⟩ : BufTy).Contents (Elt F) → (⟨S50000x256, .f32⟩ : BufTy).Contents (Elt F)),
    StableHlo.unary main_v42 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S50000x256 ![0, 1] bcast_S1x256_S50000x256_0_1 : (⟨S1x256, .f32⟩ : BufTy).Contents (Elt F) → (⟨S50000x256, .f32⟩ : BufTy).Contents (Elt F)),
    StableHlo.binary main_v58 main_v60 main_v61 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v61 : StableHlo.TRef sig ⟨S50000x256, .f32⟩) main_call3.v0 main_call3.v1 maximumf ]

/-- The references stretch H0b carries: the arguments and the other stretches' results. -/
abbrev keepH0b : List (Ref sig .tc) := [main_arg0, main_arg1, main_arg2, main_arg3, main_arg4, main_arg5, main_arg6, main_arg7, main_arg8, main_arg9, main_arg10, main_arg11, main_arg12, main_arg13, main_v10, main_v35, main_v73, main_v100, main_v127, main_v138, main_v165, main_v192, main_v203, main_v230, main_v257]

theorem segH0b_keep : (segH0b : List (HloOp τ sig (Elt F))).Forall fun op =>
    ∃ y : Ref sig .tc, op.writes = {Proc.devRef (τ := τ) .tc y} ∧ y ∉ keepH0b := by
  unfold segH0b
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.Hand

end
-- ==== Proof.Ref.ValueDefs.lean ====
import proofs.«148047_j37898791420018_1_alg».proof.Proof.Gen.ReferenceIdeal
import proofs.«148047_j37898791420018_1_alg».proof.Proof.Spec
import Idealize.ShloMosaic.PureOps.Ideal

noncomputable section

namespace Cert.ReferenceIdeal.Hand

open Cert.ReferenceIdeal Cert.ReferenceIdeal.Gen Idealize.ShloMosaic

/-! ## The reference's stretches as functions of their operands (at the ideal values)

Each is the composed term of the library's operations exactly as @main (and the outlined functions @_var,
@_where, @relu) print the stretch, with the reference's own shape records. -/

/-- A vector over the 256 columns, repeated down the 50000 rows: the two `broadcast_in_dim`s ([256] → [1,256] → [50000,256]). -/
def bcCol (v : FVec Ideal S256 .f32) : FVec Ideal S50000x256 .f32 :=
  broadcastInDim S50000x256 ![0, 1] bcast_S1x256_S50000x256_0_1 (broadcastInDim S1x256 ![1] bcast_S256_S1x256_1 v)

/-- The column mean as @main prints it: the column sums (a `reduce` from the initial value 0) over the splat 50000. -/
def meanRef (Z : FVec Ideal S50000x256 .f32) : FVec Ideal S256 .f32 :=
  Host.divf (Host.reduceAdd Z (constant (F := Ideal) S_ .f32 0x00000000#32) reducesTo_S50000x256_S256_d0 h_S_)
    (broadcastInDim S256 ![] bcast_S_S256 (constant (F := Ideal) S_ .f32 0x47435000#32))

/-- @_var's body (with the @_where it ends in) on an array `Z` and the integer `c` (jnp.var's ddof). -/
def varRef (Z : FVec Ideal S50000x256 .f32) (c : IVec S_ 32) : FVec Ideal S256 .f32 :=
  select (broadcastInDim S256 ![] bcast_S_S256
      (cmpf .ogt (subf (constant (F := Ideal) S_ .f32 0x47435000#32) (sitofp (F := Ideal) .f32 c)) (constant (F := Ideal) S_ .f32 0x00000000#32)))
    (Host.divf
      (Host.reduceAdd
        (mulf
          (subf Z (broadcastInDim S50000x256 ![0, 1] bcast_S1x256_S50000x256_0_1
            (Host.divf (broadcastInDim S1x256 ![1] bcast_S256_S1x256_1
                (Host.reduceAdd Z (constant (F := Ideal) S_ .f32 0x00000000#32) reducesTo_S50000x256_S256_d0 h_S_))
              (broadcastInDim S1x256 ![] bcast_S_S1x256 (constant (F := Ideal) S_ .f32 0x47435000#32)))))
          (subf Z (broadcastInDim S50000x256 ![0, 1] bcast_S1x256_S50000x256_0_1
            (Host.divf (broadcastInDim S1x256 ![1] bcast_S256_S1x256_1
                (Host.reduceAdd Z (constant (F := Ideal) S_ .f32 0x00000000#32) reducesTo_S50000x256_S256_d0 h_S_))
              (broadcastInDim S1x256 ![] bcast_S_S1x256 (constant (F := Ideal) S_ .f32 0x47435000#32))))))
        (constant (F := Ideal) S_ .f32 0x00000000#32) reducesTo_S50000x256_S256_d0 h_S_)
      (broadcastInDim S256 ![] bcast_S_S256 (subf (constant (F := Ideal) S_ .f32 0x47435000#32) (sitofp (F := Ideal) .f32 c))))
    (broadcastInDim S256 ![] bcast_S_S256 (constant (F := Ideal) S_ .f32 0x7FC00000#32))

/-- The normalisation, affine map and rectifier as @main prints them after a product `Z`. -/
def bnReluRef (Z : FVec Ideal S50000x256 .f32) (mean var g b : FVec Ideal S256 .f32) : FVec Ideal S50000x256 .f32 :=
  maximumf
    (addf (mulf (mulf (subf Z (bcCol mean))
        (bcCol (Host.rsqrt (addf var (broadcastInDim S256 ![] bcast_S_S256 (constant (F := Ideal) S_ .f32 0x3727C5AC#32))))))
      (bcCol g)) (bcCol b))
    (broadcastInDim S50000x256 ![] bcast_S_S50000x256 (constant (F := Ideal) S_ .f32 0x00000000#32))

/-- Half a layer: the product, its column mean and @_var, the normalise-relu. -/
def halfRef {sl sr : Shape} (d : DotDims sl sr S50000x256) (X : FVec Ideal sl .f32) (W : FVec Ideal sr .f32)
    (g b : FVec Ideal S256 .f32) : FVec Ideal S50000x256 .f32 :=
  bnReluRef (Host.dotGeneral d none X W) (meanRef (Host.dotGeneral d none X W))
    (varRef (Host.dotGeneral d none X W) (constantI S_ 32 0#32)) g b

/-- Row `off 0` of a 4 × 256 parameter table: the slice [i:i+1, 0:256] reshaped to [256]. -/
def rowRef (P : FVec Ideal S4x256 .f32) (off : Fin S4x256.rank → Nat) (h : S4x256.Slices off S1x256) : FVec Ideal S256 .f32 :=
  shapeCast S256 (extractStridedSlice S1x256 off P h) shapeCasts_S1x256_S256

/-- Slab `off 0` of a stack of [256, 256] weights: the slice [i:i+1, :, :] reshaped to [256, 256]. -/
def slabRef {n : Nat} (T : FVec Ideal ⟨3, ![n, 256, 256]⟩ .f32) (off : Fin 3 → Nat)
    (h : (⟨3, ![n, 256, 256]⟩ : Shape).Slices off S1x256x256) : FVec Ideal S256x256 .f32 :=
  shapeCast S256x256 (extractStridedSlice S1x256x256 off T h) shapeCasts_S1x256x256_S256x256

/-- Slab `off 0` of the stack of [256, 64] head weights. -/
def slabHRef (T : FVec Ideal S4x256x64 .f32) (off : Fin S4x256x64.rank → Nat) (h : S4x256x64.Slices off S1x256x64) :
    FVec Ideal S256x64 .f32 :=
  shapeCast S256x64 (extractStridedSlice S1x256x64 off T h) shapeCasts_S1x256x64_S256x64

/-- Row `off 0` of the 4 × 64 table of head biases. -/
def rowHRef (P : FVec Ideal S4x64 .f32) (off : Fin S4x64.rank → Nat) (h : S4x64.Slices off S1x64) : FVec Ideal S64 .f32 :=
  shapeCast S64 (extractStridedSlice S1x64 off P h) shapeCasts_S1x64_S64

/-- A vector over the 64 output columns repeated down the rows. -/
def bcCol64 (v : FVec Ideal S64 .f32) : FVec Ideal S50000x64 .f32 :=
  broadcastInDim S50000x64 ![0, 1] bcast_S1x64_S50000x64_0_1 (broadcastInDim S1x64 ![1] bcast_S64_S1x64_1 v)

/-- The heads as @main prints them: the input's product and bias, then each layer's product and bias, summed in order. -/
def headRef (hh : FVec Ideal S50000x128 .f32) (x1 x2 x3 x4 : FVec Ideal S50000x256 .f32) (w0 : FVec Ideal S128x64 .f32)
    (c0 : FVec Ideal S64 .f32) (pW : FVec Ideal S4x256x64 .f32) (pb : FVec Ideal S4x64 .f32) : FVec Ideal S50000x64 .f32 :=
  addf (addf (addf (addf (addf (addf (addf (addf (addf
    (Host.dotGeneral dot_S50000x128_S128x64_S50000x64_1_0_0_1_n_n none hh w0) (bcCol64 c0))
    (Host.dotGeneral dot_S50000x256_S256x64_S50000x64_1_0_0_1_n_n none x1 (slabHRef pW ![0, 0, 0] slices_S4x256x64_S1x256x64_0_0_0)))
    (bcCol64 (rowHRef pb ![0, 0] slices_S4x64_S1x64_0_0)))
    (Host.dotGeneral dot_S50000x256_S256x64_S50000x64_1_0_0_1_n_n none x2 (slabHRef pW ![1, 0, 0] slices_S4x256x64_S1x256x64_1_0_0)))
    (bcCol64 (rowHRef pb ![1, 0] slices_S4x64_S1x64_1_0)))
    (Host.dotGeneral dot_S50000x256_S256x64_S50000x64_1_0_0_1_n_n none x3 (slabHRef pW ![2, 0, 0] slices_S4x256x64_S1x256x64_2_0_0)))
    (bcCol64 (rowHRef pb ![2, 0] slices_S4x64_S1x64_2_0)))
    (Host.dotGeneral dot_S50000x256_S256x64_S50000x64_1_0_0_1_n_n none x4 (slabHRef pW ![3, 0, 0] slices_S4x256x64_S1x256x64_3_0_0)))
    (bcCol64 (rowHRef pb ![3, 0] slices_S4x64_S1x64_3_0))

/-- The edge sources wrapped as jnp indexing wraps them: a negative index plus the row count. -/
def wrapSrc (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour aggregation on the 128-wide input exactly as @main prints it: the rows gathered at the (wrapped) edge
    sources, scatter-added into zeros at the edge destinations, plus the input. -/
def aggRef128 (x : Cert.Spec.Arr 50000 128) (src dst : IVec S800000 32) : Cert.Spec.Arr 50000 128 :=
  addf (F := Ideal) (φ := .f32) x
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 x (wrapSrc src)))

/-- The same on the 256-wide activations (layers 1 to 3 print it identically). -/
def aggRef256 (x : Cert.Spec.Arr 50000 256) (src dst : IVec S800000 32) : Cert.Spec.Arr 50000 256 :=
  addf (F := Ideal) (φ := .f32) x
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 x (wrapSrc src)))

end Cert.ReferenceIdeal.Hand

end
-- ==== Proof.Ref.PlumbL0.lean ====
import proofs.«148047_j37898791420018_1_alg».proof.Proof.Ref.SegA0
import proofs.«148047_j37898791420018_1_alg».proof.Proof.Ref.SegH0a
import proofs.«148047_j37898791420018_1_alg».proof.Proof.Ref.SegH0b
import proofs.«148047_j37898791420018_1_alg».proof.Proof.Ref.ValueDefs
import proofs.«148047_j37898791420018_1_alg».proof.Proof.Ref.Run
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! Each stretch of @main read as ONE function of the buffers it starts from (the fold over its operations computed,
the result the named composed term of Ref/ValueDefs.lean), and what it leaves untouched. -/

set_option maxRecDepth 16384 in
set_option maxHeartbeats 4000000 in
/-- Stretch A0 read as one function of the buffers it starts from. -/
theorem plumb_A0 (W : Valuation τ sig (Elt Ideal)) :
    after (segA0 (F := Ideal)) W (no_index (Proc.devRef .tc main_v10))
      = aggRef128 (W (Proc.devRef .tc main_arg0)) (W (Proc.devRef .tc main_arg12)) (W (Proc.devRef .tc main_arg13)) := by
  unfold segA0
  after_results_simp
  rfl

/-- Stretch A0 leaves the references it carries as they were. -/
theorem frame_A0 (W : Valuation τ sig (Elt Ideal)) {r : Ref sig .tc} (hr : r ∈ keepA0) :
    after (segA0 (F := Ideal)) W (no_index (Proc.devRef .tc r)) = W (Proc.devRef .tc r) :=
  after_keeps _ W segA0_keep hr

set_option maxRecDepth 16384 in
set_option maxHeartbeats 4000000 in
/-- Stretch H0a read as one function of the buffers it starts from. -/
theorem plumb_H0a (W : Valuation τ sig (Elt Ideal)) :
    after (segH0a (F := Ideal)) W (no_index (Proc.devRef .tc main_v35))
      = halfRef dot_S50000x128_S128x256_S50000x256_1_0_0_1_n_n (W (Proc.devRef .tc main_v10)) (W (Proc.devRef .tc main_arg1))
          (rowRef (W (Proc.devRef .tc main_arg4)) ![0, 0] slices_S4x256_S1x256_0_0)
          (rowRef (W (Proc.devRef .tc main_arg5)) ![0, 0] slices_S4x256_S1x256_0_0) := by
  unfold segH0a
  after_results_simp
  rfl

/-- Stretch H0a leaves the references it carries as they were. -/
theorem frame_H0a (W : Valuation τ sig (Elt Ideal)) {r : Ref sig .tc} (hr : r ∈ keepH0a) :
    after (segH0a (F := Ideal)) W (no_index (Proc.devRef .tc r)) = W (Proc.devRef .tc r) :=
  after_keeps _ W segH0a_keep hr

set_option maxRecDepth 16384 in
set_option maxHeartbeats 4000000 in
/-- Stretch H0b read as one function of the buffers it starts from. -/
theorem plumb_H0b (W : Valuation τ sig (Elt Ideal)) :
    after (segH0b (F := Ideal)) W (no_index (Proc.devRef .tc main_v62))
      = halfRef dot_S50000x256_S256x256_S50000x256_1_0_0_1_n_n (W (Proc.devRef .tc main_v35))
          (slabRef (n := 4) (W (Proc.devRef .tc main_arg3)) ![0, 0, 0] slices_S4x256x256_S1x256x256_0_0_0)
          (rowRef (W (Proc.devRef .tc main_arg6)) ![0, 0] slices_S4x256_S1x256_0_0)
          (rowRef (W (Proc.devRef .tc main_arg7)) ![0, 0] slices_S4x256_S1x256_0_0) := by
  unfold segH0b
  after_results_simp
  rfl

/-- Stretch H0b leaves the references it carries as they were. -/
theorem frame_H0b (W : Valuation τ sig (Elt Ideal)) {r : Ref sig .tc} (hr : r ∈ keepH0b) :
    after (segH0b (F := Ideal)) W (no_index (Proc.devRef .tc r)) = W (Proc.devRef .tc r) :=
  after_keeps _ W segH0b_keep hr

end Cert.ReferenceIdeal.Hand

end
-- ==== Proof.Ref.SegA1.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch A1 of @main: 14 operations in program order. -/
def segA1 : List (HloOp τ sig (Elt F)) :=
  [ StableHlo.nullary main_c_9 (constantI S_ 32 0#32),
    StableHlo.unary main_c_9 main_v63 (broadcastInDim S800000 ![] bcast_S_S800000 : (⟨S_, .i32⟩ : BufTy).Contents (Elt F) → (⟨S800000, .i32⟩ : BufTy).Contents (Elt F)),
    StableHlo.binary main_arg12 main_v63 main_v64 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v65 (broadcastInDim S800000 ![] bcast_S_S800000 : (⟨S_, .i32⟩ : BufTy).Contents (Elt F) → (⟨S800000, .i32⟩ : BufTy).Contents (Elt F)),
    StableHlo.binary main_arg12 main_v65 main_v66 (addi : (⟨S800000, .i32⟩ : BufTy).Contents (Elt F) → (⟨S800000, .i32⟩ : BufTy).Contents (Elt F) → (⟨S800000, .i32⟩ : BufTy).Contents (Elt F)),
    StableHlo.ternary main_v64 main_v66 main_arg12 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v67 main_v68 (broadcastInDim S800000x1 ![0] bcast_S800000_S800000x1_0 : (⟨S800000, .i32⟩ : BufTy).Contents (Elt F) → (⟨S800000x1, .i32⟩ : BufTy).Contents (Elt F)),
    StableHlo.binary main_v62 main_v68 main_v69 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_11 (constant S_ .f32 0x00000000#32),
    StableHlo.unary main_cst_11 main_v70 (broadcastInDim S50000x256 ![] bcast_S_S50000x256 : (⟨S_, .f32⟩ : BufTy).Contents (Elt F) → (⟨S50000x256, .f32⟩ : BufTy).Contents (Elt F)),
    StableHlo.unary main_arg13 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v69 main_v72 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v62 main_v72 main_v73 (addf : (⟨S50000x256, .f32⟩ : BufTy).Contents (Elt F) → (⟨S50000x256, .f32⟩ : BufTy).Contents (Elt F) → (⟨S50000x256, .f32⟩ : BufTy).Contents (Elt F)) ]

/-- The references stretch A1 carries: the arguments and the other stretches' results. -/
abbrev keepA1 : List (Ref sig .tc) := [main_arg0, main_arg1, main_arg2, main_arg3, main_arg4, main_arg5, main_arg6, main_arg7, main_arg8, main_arg9, main_arg10, main_arg11, main_arg12, main_arg13, main_v10, main_v35, main_v62, main_v100, main_v127, main_v138, main_v165, main_v192, main_v203, main_v230, main_v257]

theorem segA1_keep : (segA1 : List (HloOp τ sig (Elt F))).Forall fun op =>
    ∃ y : Ref sig .tc, op.writes = {Proc.devRef (τ := τ) .tc y} ∧ y ∉ keepA1 := by
  unfold segA1
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.Hand

end
-- ==== Proof.Ref.SegH1a.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch H1a of @main: 54 operations in program order. -/
def segH1a : List (HloOp τ sig (Elt F)) :=
  [ StableHlo.unary main_arg2 main_v74 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v74 main_v75 rfl shapeCasts_S1x256x256_S256x256,
    StableHlo.binary main_v73 main_v75 main_v76 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v77 ((extractStridedSlice S1x256 ![1, 0] · slices_S4x256_S1x256_1_0) : (⟨S4x256, .f32⟩ : BufTy).Contents (Elt F) → (⟨S1x256, .f32⟩ : BufTy).Contents (Elt F)),
    StableHlo.reshape main_v77 main_v78 rfl shapeCasts_S1x256_S256,
    StableHlo.unary main_arg5 main_v79 ((extractStridedSlice S1x256 ![1, 0] · slices_S4x256_S1x256_1_0) : (⟨S4x256, .f32⟩ : BufTy).Contents (Elt F) → (⟨S1x256, .f32⟩ : BufTy).Contents (Elt F)),
    StableHlo.reshape main_v79 main_v80 rfl shapeCasts_S1x256_S256,
    StableHlo.nullary main_cst_12 (constant S_ .f32 0x00000000#32),
    StableHlo.binary main_v76 main_cst_12 main_v81 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v82 (broadcastInDim S256 ![] bcast_S_S256 : (⟨S_, .f32⟩ : BufTy).Contents (Elt F) → (⟨S256, .f32⟩ : BufTy).Contents (Elt F)),
    StableHlo.binary main_v81 main_v82 main_v83 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call4.cst (constant S_ .f32 0x00000000#32),
    StableHlo.TRef.binary (.of main_v76 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v76 : StableHlo.TRef sig ⟨S50000x256, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v83 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S50000x256 ![0, 1] bcast_S1x256_S50000x256_0_1 : (⟨S1x256, .f32⟩ : BufTy).Contents (Elt F) → (⟨S50000x256, .f32⟩ : BufTy).Contents (Elt F)),
    StableHlo.binary main_v76 main_v86 main_v87 (subf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v88 (broadcastInDim S256 ![] bcast_S_S256 : (⟨S_, .f32⟩ : BufTy).Contents (Elt F) → (⟨S256, .f32⟩ : BufTy).Contents (Elt F)),
    StableHlo.binary main_v84 main_v88 main_v89 (addf : (⟨S256, .f32⟩ : BufTy).Contents (Elt F) → (⟨S256, .f32⟩ : BufTy).Contents (Elt F) → (⟨S256, .f32⟩ : BufTy).Contents (Elt F)),
    StableHlo.unary main_v89 main_v90 (Host.rsqrt : (⟨S256, .f32⟩ : BufTy).Contents (Elt F) → (⟨S256, .f32⟩ : BufTy).Contents (Elt F)),
    StableHlo.unary main_v90 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S50000x256 ![0, 1] bcast_S1x256_S50000x256_0_1 : (⟨S1x256, .f32⟩ : BufTy).Contents (Elt F) → (⟨S50000x256, .f32⟩ : BufTy).Contents (Elt F)),
    StableHlo.binary main_v87 main_v92 main_v93 (mulf : (⟨S50000x256, .f32⟩ : BufTy).Contents (Elt F) → (⟨S50000x256, .f32⟩ : BufTy).Contents (Elt F) → (⟨S50000x256, .f32⟩ : BufTy).Contents (Elt F)),
    StableHlo.unary main_v78 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v95 main_v96 (mulf : (⟨S50000x256, .f32⟩ : BufTy).Contents (Elt F) → (⟨S50000x256, .f32⟩ : BufTy).Contents (Elt F) → (⟨S50000x256, .f32⟩ : BufTy).Contents (Elt F)),
    StableHlo.unary main_v80 main_v97 (broadcastInDim S1x256 ![1] bcast_S256_S1x256_1 : (⟨S256, .f32⟩ : BufTy).Contents (Elt F) → (⟨S1x256, .f32⟩ : BufTy).Contents (Elt F)),
    StableHlo.unary main_v97 main_v98 (broadcastInDim S50000x256 ![0, 1] bcast_S1x256_S50000x256_0_1 : (⟨S1x256, .f32⟩ : BufTy).Contents (Elt F) → (⟨S50000x256, .f32⟩ : BufTy).Contents (Elt F)),
    StableHlo.binary main_v96 main_v98 main_v99 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v99 : StableHlo.TRef sig ⟨S50000x256, .f32⟩) main_call5.v0 main_call5.v1 maximumf ]

/-- The references stretch H1a carries: the arguments and the other stretches' results. -/
abbrev keepH1a : List (Ref sig .tc) := [main_arg0, main_arg1, main_arg2, main_arg3, main_arg4, main_arg5, main_arg6, main_arg7, main_arg8, main_arg9, main_arg10, main_arg11, main_arg12, main_arg13, main_v10, main_v35, main_v62, main_v73, main_v127, main_v138, main_v165, main_v192, main_v203, main_v230, main_v257]

theorem segH1a_keep : (segH1a : List (HloOp τ sig (Elt F))).Forall fun op =>
    ∃ y : Ref sig .tc, op.writes = {Proc.devRef (τ := τ) .tc y} ∧ y ∉ keepH1a := by
  unfold segH1a
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.Hand

end
-- ==== Proof.Ref.SegH1b.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch H1b of @main: 54 operations in program order. -/
def segH1b : List (HloOp τ sig (Elt F)) :=
  [ StableHlo.unary main_arg3 main_v101 ((extractStridedSlice S1x256x256 ![1, 0, 0] · slices_S4x256x256_S1x256x256_1_0_0) : (⟨S4x256x256, .f32⟩ : BufTy).Contents (Elt F) → (⟨S1x256x256, .f32⟩ : BufTy).Contents (Elt F)),
    StableHlo.reshape main_v101 main_v102 rfl shapeCasts_S1x256x256_S256x256,
    StableHlo.binary main_v100 main_v102 main_v103 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v104 ((extractStridedSlice S1x256 ![1, 0] · slices_S4x256_S1x256_1_0) : (⟨S4x256, .f32⟩ : BufTy).Contents (Elt F) → (⟨S1x256, .f32⟩ : BufTy).Contents (Elt F)),
    StableHlo.reshape main_v104 main_v105 rfl shapeCasts_S1x256_S256,
    StableHlo.unary main_arg7 main_v106 ((extractStridedSlice S1x256 ![1, 0] · slices_S4x256_S1x256_1_0) : (⟨S4x256, .f32⟩ : BufTy).Contents (Elt F) → (⟨S1x256, .f32⟩ : BufTy).Contents (Elt F)),
    StableHlo.reshape main_v106 main_v107 rfl shapeCasts_S1x256_S256,
    StableHlo.nullary main_cst_16 (constant S_ .f32 0x00000000#32),
    StableHlo.binary main_v103 main_cst_16 main_v108 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_17 (constant S_ .f32 0x47435000#32),
    StableHlo.unary main_cst_17 main_v109 (broadcastInDim S256 ![] bcast_S_S256 : (⟨S_, .f32⟩ : BufTy).Contents (Elt F) → (⟨S256, .f32⟩ : BufTy).Contents (Elt F)),
    StableHlo.binary main_v108 main_v109 main_v110 (Host.divf : (⟨S256, .f32⟩ : BufTy).Contents (Elt F) → (⟨S256, .f32⟩ : BufTy).Contents (Elt F) → (⟨S256, .f32⟩ : BufTy).Contents (Elt F)),
    StableHlo.nullary main_c_18 (constantI S_ 32 0#32),
    StableHlo.TRef.nullary main_call6.cst (constant S_ .f32 0x00000000#32),
    StableHlo.TRef.binary (.of main_v103 : StableHlo.TRef sig ⟨S50000x256, .f32⟩) main_call6.cst main_call6.v0 (fun x v => Host.reduceAdd x v reducesTo_S50000x256_S256_d0 h_S_),
    StableHlo.TRef.unary main_call6.v0 main_call6.v1 (broadcastInDim S1x256 ![1] bcast_S256_S1x256_1),
    StableHlo.TRef.nullary main_call6.cst_0 (constant S_ .f32 0x47435000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S50000x256 ![0, 1] bcast_S1x256_S50000x256_0_1),
    StableHlo.TRef.binary (.of main_v103 : StableHlo.TRef sig ⟨S50000x256, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v110 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v103 main_v113 main_v114 (subf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x3727C5AC#32),
    StableHlo.unary main_cst_19 main_v115 (broadcastInDim S256 ![] bcast_S_S256 : (⟨S_, .f32⟩ : BufTy).Contents (Elt F) → (⟨S256, .f32⟩ : BufTy).Contents (Elt F)),
    StableHlo.binary main_v111 main_v115 main_v116 (addf : (⟨S256, .f32⟩ : BufTy).Contents (Elt F) → (⟨S256, .f32⟩ : BufTy).Contents (Elt F) → (⟨S256, .f32⟩ : BufTy).Contents (Elt F)),
    StableHlo.unary main_v116 main_v117 (Host.rsqrt : (⟨S256, .f32⟩ : BufTy).Contents (Elt F) → (⟨S256, .f32⟩ : BufTy).Contents (Elt F)),
    StableHlo.unary main_v117 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S50000x256 ![0, 1] bcast_S1x256_S50000x256_0_1 : (⟨S1x256, .f32⟩ : BufTy).Contents (Elt F) → (⟨S50000x256, .f32⟩ : BufTy).Contents (Elt F)),
    StableHlo.binary main_v114 main_v119 main_v120 (mulf : (⟨S50000x256, .f32⟩ : BufTy).Contents (Elt F) → (⟨S50000x256, .f32⟩ : BufTy).Contents (Elt F) → (⟨S50000x256, .f32⟩ : BufTy).Contents (Elt F)),
    StableHlo.unary main_v105 main_v121 (broadcastInDim S1x256 ![1] bcast_S256_S1x256_1 : (⟨S256, .f32⟩ : BufTy).Contents (Elt F) → (⟨S1x256, .f32⟩ : BufTy).Contents (Elt F)),
    StableHlo.unary main_v121 main_v122 (broadcastInDim S50000x256 ![0, 1] bcast_S1x256_S50000x256_0_1 : (⟨S1x256, .f32⟩ : BufTy).Contents (Elt F) → (⟨S50000x256, .f32⟩ : BufTy).Contents (Elt F)),
    StableHlo.binary main_v120 main_v122 main_v123 (mulf : (⟨S50000x256, .f32⟩ : BufTy).Contents (Elt F) → (⟨S50000x256, .f32⟩ : BufTy).Contents (Elt F) → (⟨S50000x256, .f32⟩ : BufTy).Contents (Elt F)),
    StableHlo.unary main_v107 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v123 main_v125 main_v126 (addf : (⟨S50000x256, .f32⟩ : BufTy).Contents (Elt F) → (⟨S50000x256, .f32⟩ : BufTy).Contents (Elt F) → (⟨S50000x256, .f32⟩ : BufTy).Contents (Elt F)),
    StableHlo.TRef.nullary main_call7.cst (constant S_ .f32 0x00000000#32),
    StableHlo.TRef.unary main_call7.cst main_call7.v0 (broadcastInDim S50000x256 ![] bcast_S_S50000x256),
    StableHlo.TRef.binary (.of main_v126 : StableHlo.TRef sig ⟨S50000x256, .f32⟩) main_call7.v0 main_call7.v1 maximumf ]

/-- The references stretch H1b carries: the arguments and the other stretches' results. -/
abbrev keepH1b : List (Ref sig .tc) := [main_arg0, main_arg1, main_arg2, main_arg3, main_arg4, main_arg5, main_arg6, main_arg7, main_arg8, main_arg9, main_arg10, main_arg11, main_arg12, main_arg13, main_v10, main_v35, main_v62, main_v73, main_v100, main_v138, main_v165, main_v192, main_v203, main_v230, main_v257]

theorem segH1b_keep : (segH1b : List (HloOp τ sig (Elt F))).Forall fun op =>
    ∃ y : Ref sig .tc, op.writes = {Proc.devRef (τ := τ) .tc y} ∧ y ∉ keepH1b := by
  unfold segH1b
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.Hand

end
-- ==== Proof.Ref.PlumbL1.lean ====
import proofs.«148047_j37898791420018_1_alg».proof.Proof.Ref.SegA1
import proofs.«148047_j37898791420018_1_alg».proof.Proof.Ref.SegH1a
import proofs.«148047_j37898791420018_1_alg».proof.Proof.Ref.SegH1b
import proofs.«148047_j37898791420018_1_alg».proof.Proof.Ref.ValueDefs
import proofs.«148047_j37898791420018_1_alg».proof.Proof.Ref.Run
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! Each stretch of @main read as ONE function of the buffers it starts from (the fold over its operations computed,
the result the named composed term of Ref/ValueDefs.lean), and what it leaves untouched. -/

set_option maxRecDepth 16384 in
set_option maxHeartbeats 4000000 in
/-- Stretch A1 read as one function of the buffers it starts from. -/
theorem plumb_A1 (W : Valuation τ sig (Elt Ideal)) :
    after (segA1 (F := Ideal)) W (no_index (Proc.devRef .tc main_v73))
      = aggRef256 (W (Proc.devRef .tc main_v62)) (W (Proc.devRef .tc main_arg12)) (W (Proc.devRef .tc main_arg13)) := by
  unfold segA1
  after_results_simp
  rfl

/-- Stretch A1 leaves the references it carries as they were. -/
theorem frame_A1 (W : Valuation τ sig (Elt Ideal)) {r : Ref sig .tc} (hr : r ∈ keepA1) :
    after (segA1 (F := Ideal)) W (no_index (Proc.devRef .tc r)) = W (Proc.devRef .tc r) :=
  after_keeps _ W segA1_keep hr

set_option maxRecDepth 16384 in
set_option maxHeartbeats 4000000 in
/-- Stretch H1a read as one function of the buffers it starts from. -/
theorem plumb_H1a (W : Valuation τ sig (Elt Ideal)) :
    after (segH1a (F := Ideal)) W (no_index (Proc.devRef .tc main_v100))
      = halfRef dot_S50000x256_S256x256_S50000x256_1_0_0_1_n_n (W (Proc.devRef .tc main_v73))
          (slabRef (n := 3) (W (Proc.devRef .tc main_arg2)) ![0, 0, 0] slices_S3x256x256_S1x256x256_0_0_0)
          (rowRef (W (Proc.devRef .tc main_arg4)) ![1, 0] slices_S4x256_S1x256_1_0)
          (rowRef (W (Proc.devRef .tc main_arg5)) ![1, 0] slices_S4x256_S1x256_1_0) := by
  unfold segH1a
  after_results_simp
  rfl

/-- Stretch H1a leaves the references it carries as they were. -/
theorem frame_H1a (W : Valuation τ sig (Elt Ideal)) {r : Ref sig .tc} (hr : r ∈ keepH1a) :
    after (segH1a (F := Ideal)) W (no_index (Proc.devRef .tc r)) = W (Proc.devRef .tc r) :=
  after_keeps _ W segH1a_keep hr

set_option maxRecDepth 16384 in
set_option maxHeartbeats 4000000 in
/-- Stretch H1b read as one function of the buffers it starts from. -/
theorem plumb_H1b (W : Valuation τ sig (Elt Ideal)) :
    after (segH1b (F := Ideal)) W (no_index (Proc.devRef .tc main_v127))
      = halfRef dot_S50000x256_S256x256_S50000x256_1_0_0_1_n_n (W (Proc.devRef .tc main_v100))
          (slabRef (n := 4) (W (Proc.devRef .tc main_arg3)) ![1, 0, 0] slices_S4x256x256_S1x256x256_1_0_0)
          (rowRef (W (Proc.devRef .tc main_arg6)) ![1, 0] slices_S4x256_S1x256_1_0)
          (rowRef (W (Proc.devRef .tc main_arg7)) ![1, 0] slices_S4x256_S1x256_1_0) := by
  unfold segH1b
  after_results_simp
  rfl

/-- Stretch H1b leaves the references it carries as they were. -/
theorem frame_H1b (W : Valuation τ sig (Elt Ideal)) {r : Ref sig .tc} (hr : r ∈ keepH1b) :
    after (segH1b (F := Ideal)) W (no_index (Proc.devRef .tc r)) = W (Proc.devRef .tc r) :=
  after_keeps _ W segH1b_keep hr

end Cert.ReferenceIdeal.Hand

end
-- ==== Proof.Ref.SegA2.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch A2 of @main: 14 operations in program order. -/
def segA2 : List (HloOp τ sig (Elt F)) :=
  [ StableHlo.nullary main_c_20 (constantI S_ 32 0#32),
    StableHlo.unary main_c_20 main_v128 (broadcastInDim S800000 ![] bcast_S_S800000 : (⟨S_, .i32⟩ : BufTy).Contents (Elt F) → (⟨S800000, .i32⟩ : BufTy).Contents (Elt F)),
    StableHlo.binary main_arg12 main_v128 main_v129 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v130 (broadcastInDim S800000 ![] bcast_S_S800000 : (⟨S_, .i32⟩ : BufTy).Contents (Elt F) → (⟨S800000, .i32⟩ : BufTy).Contents (Elt F)),
    StableHlo.binary main_arg12 main_v130 main_v131 (addi : (⟨S800000, .i32⟩ : BufTy).Contents (Elt F) → (⟨S800000, .i32⟩ : BufTy).Contents (Elt F) → (⟨S800000, .i32⟩ : BufTy).Contents (Elt F)),
    StableHlo.ternary main_v129 main_v131 main_arg12 main_v132 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v132 main_v133 (broadcastInDim S800000x1 ![0] bcast_S800000_S800000x1_0 : (⟨S800000, .i32⟩ : BufTy).Contents (Elt F) → (⟨S800000x1, .i32⟩ : BufTy).Contents (Elt F)),
    StableHlo.binary main_v127 main_v133 main_v134 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_22 (constant S_ .f32 0x00000000#32),
    StableHlo.unary main_cst_22 main_v135 (broadcastInDim S50000x256 ![] bcast_S_S50000x256 : (⟨S_, .f32⟩ : BufTy).Contents (Elt F) → (⟨S50000x256, .f32⟩ : BufTy).Contents (Elt F)),
    StableHlo.unary main_arg13 main_v136 (broadcastInDim S800000x1 ![0] bcast_S800000_S800000x1_0 : (⟨S800000, .i32⟩ : BufTy).Contents (Elt F) → (⟨S800000x1, .i32⟩ : BufTy).Contents (Elt F)),
    StableHlo.ternary main_v135 main_v136 main_v134 main_v137 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v127 main_v137 main_v138 (addf : (⟨S50000x256, .f32⟩ : BufTy).Contents (Elt F) → (⟨S50000x256, .f32⟩ : BufTy).Contents (Elt F) → (⟨S50000x256, .f32⟩ : BufTy).Contents (Elt F)) ]

/-- The references stretch A2 carries: the arguments and the other stretches' results. -/
abbrev keepA2 : List (Ref sig .tc) := [main_arg0, main_arg1, main_arg2, main_arg3, main_arg4, main_arg5, main_arg6, main_arg7, main_arg8, main_arg9, main_arg10, main_arg11, main_arg12, main_arg13, main_v10, main_v35, main_v62, main_v73, main_v100, main_v127, main_v165, main_v192, main_v203, main_v230, main_v257]

theorem segA2_keep : (segA2 : List (HloOp τ sig (Elt F))).Forall fun op =>
    ∃ y : Ref sig .tc, op.writes = {Proc.devRef (τ := τ) .tc y} ∧ y ∉ keepA2 := by
  unfold segA2
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.Hand

end
-- ==== Proof.Ref.SegH2a.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch H2a of @main: 54 operations in program order. -/
def segH2a : List (HloOp τ sig (Elt F)) :=
  [ StableHlo.unary main_arg2 main_v139 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v139 main_v140 rfl shapeCasts_S1x256x256_S256x256,
    StableHlo.binary main_v138 main_v140 main_v141 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v142 ((extractStridedSlice S1x256 ![2, 0] · slices_S4x256_S1x256_2_0) : (⟨S4x256, .f32⟩ : BufTy).Contents (Elt F) → (⟨S1x256, .f32⟩ : BufTy).Contents (Elt F)),
    StableHlo.reshape main_v142 main_v143 rfl shapeCasts_S1x256_S256,
    StableHlo.unary main_arg5 main_v144 ((extractStridedSlice S1x256 ![2, 0] · slices_S4x256_S1x256_2_0) : (⟨S4x256, .f32⟩ : BufTy).Contents (Elt F) → (⟨S1x256, .f32⟩ : BufTy).Contents (Elt F)),
    StableHlo.reshape main_v144 main_v145 rfl shapeCasts_S1x256_S256,
    StableHlo.nullary main_cst_23 (constant S_ .f32 0x00000000#32),
    StableHlo.binary main_v141 main_cst_23 main_v146 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_24 (constant S_ .f32 0x47435000#32),
    StableHlo.unary main_cst_24 main_v147 (broadcastInDim S256 ![] bcast_S_S256 : (⟨S_, .f32⟩ : BufTy).Contents (Elt F) → (⟨S256, .f32⟩ : BufTy).Contents (Elt F)),
    StableHlo.binary main_v146 main_v147 main_v148 (Host.divf : (⟨S256, .f32⟩ : BufTy).Contents (Elt F) → (⟨S256, .f32⟩ : BufTy).Contents (Elt F) → (⟨S256, .f32⟩ : BufTy).Contents (Elt F)),
    StableHlo.nullary main_c_25 (constantI S_ 32 0#32),
    StableHlo.TRef.nullary main_call8.cst (constant S_ .f32 0x00000000#32),
    StableHlo.TRef.binary (.of main_v141 : StableHlo.TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v141 : StableHlo.TRef sig ⟨S50000x256, .f32⟩) main_call8.v4 main_call8.v5 subf,
    StableHlo.TRef.binary main_call8.v5 main_call8.v5 main_call8.v6 mulf,
    StableHlo.TRef.unary (.of main_c_25 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v148 main_v150 (broadcastInDim S1x256 ![1] bcast_S256_S1x256_1 : (⟨S256, .f32⟩ : BufTy).Contents (Elt F) → (⟨S1x256, .f32⟩ : BufTy).Contents (Elt F)),
    StableHlo.unary main_v150 main_v151 (broadcastInDim S50000x256 ![0, 1] bcast_S1x256_S50000x256_0_1 : (⟨S1x256, .f32⟩ : BufTy).Contents (Elt F) → (⟨S50000x256, .f32⟩ : BufTy).Contents (Elt F)),
    StableHlo.binary main_v141 main_v151 main_v152 (subf : (⟨S50000x256, .f32⟩ : BufTy).Contents (Elt F) → (⟨S50000x256, .f32⟩ : BufTy).Contents (Elt F) → (⟨S50000x256, .f32⟩ : BufTy).Contents (Elt F)),
    StableHlo.nullary main_cst_26 (constant S_ .f32 0x3727C5AC#32),
    StableHlo.unary main_cst_26 main_v153 (broadcastInDim S256 ![] bcast_S_S256 : (⟨S_, .f32⟩ : BufTy).Contents (Elt F) → (⟨S256, .f32⟩ : BufTy).Contents (Elt F)),
    StableHlo.binary main_v149 main_v153 main_v154 (addf : (⟨S256, .f32⟩ : BufTy).Contents (Elt F) → (⟨S256, .f32⟩ : BufTy).Contents (Elt F) → (⟨S256, .f32⟩ : BufTy).Contents (Elt F)),
    StableHlo.unary main_v154 main_v155 (Host.rsqrt : (⟨S256, .f32⟩ : BufTy).Contents (Elt F) → (⟨S256, .f32⟩ : BufTy).Contents (Elt F)),
    StableHlo.unary main_v155 main_v156 (broadcastInDim S1x256 ![1] bcast_S256_S1x256_1 : (⟨S256, .f32⟩ : BufTy).Contents (Elt F) → (⟨S1x256, .f32⟩ : BufTy).Contents (Elt F)),
    StableHlo.unary main_v156 main_v157 (broadcastInDim S50000x256 ![0, 1] bcast_S1x256_S50000x256_0_1 : (⟨S1x256, .f32⟩ : BufTy).Contents (Elt F) → (⟨S50000x256, .f32⟩ : BufTy).Contents (Elt F)),
    StableHlo.binary main_v152 main_v157 main_v158 (mulf : (⟨S50000x256, .f32⟩ : BufTy).Contents (Elt F) → (⟨S50000x256, .f32⟩ : BufTy).Contents (Elt F) → (⟨S50000x256, .f32⟩ : BufTy).Contents (Elt F)),
    StableHlo.unary main_v143 main_v159 (broadcastInDim S1x256 ![1] bcast_S256_S1x256_1 : (⟨S256, .f32⟩ : BufTy).Contents (Elt F) → (⟨S1x256, .f32⟩ : BufTy).Contents (Elt F)),
    StableHlo.unary main_v159 main_v160 (broadcastInDim S50000x256 ![0, 1] bcast_S1x256_S50000x256_0_1 : (⟨S1x256, .f32⟩ : BufTy).Contents (Elt F) → (⟨S50000x256, .f32⟩ : BufTy).Contents (Elt F)),
    StableHlo.binary main_v158 main_v160 main_v161 (mulf : (⟨S50000x256, .f32⟩ : BufTy).Contents (Elt F) → (⟨S50000x256, .f32⟩ : BufTy).Contents (Elt F) → (⟨S50000x256, .f32⟩ : BufTy).Contents (Elt F)),
    StableHlo.unary main_v145 main_v162 (broadcastInDim S1x256 ![1] bcast_S256_S1x256_1 : (⟨S256, .f32⟩ : BufTy).Contents (Elt F) → (⟨S1x256, .f32⟩ : BufTy).Contents (Elt F)),
    StableHlo.unary main_v162 main_v163 (broadcastInDim S50000x256 ![0, 1] bcast_S1x256_S50000x256_0_1 : (⟨S1x256, .f32⟩ : BufTy).Contents (Elt F) → (⟨S50000x256, .f32⟩ : BufTy).Contents (Elt F)),
    StableHlo.binary main_v161 main_v163 main_v164 (addf : (⟨S50000x256, .f32⟩ : BufTy).Contents (Elt F) → (⟨S50000x256, .f32⟩ : BufTy).Contents (Elt F) → (⟨S50000x256, .f32⟩ : BufTy).Contents (Elt F)),
    StableHlo.TRef.nullary main_call9.cst (constant S_ .f32 0x00000000#32),
    StableHlo.TRef.unary main_call9.cst main_call9.v0 (broadcastInDim S50000x256 ![] bcast_S_S50000x256),
    StableHlo.TRef.binary (.of main_v164 : StableHlo.TRef sig ⟨S50000x256, .f32⟩) main_call9.v0 main_call9.v1 maximumf ]

/-- The references stretch H2a carries: the arguments and the other stretches' results. -/
abbrev keepH2a : List (Ref sig .tc) := [main_arg0, main_arg1, main_arg2, main_arg3, main_arg4, main_arg5, main_arg6, main_arg7, main_arg8, main_arg9, main_arg10, main_arg11, main_arg12, main_arg13, main_v10, main_v35, main_v62, main_v73, main_v100, main_v127, main_v138, main_v192, main_v203, main_v230, main_v257]

theorem segH2a_keep : (segH2a : List (HloOp τ sig (Elt F))).Forall fun op =>
    ∃ y : Ref sig .tc, op.writes = {Proc.devRef (τ := τ) .tc y} ∧ y ∉ keepH2a := by
  unfold segH2a
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.Hand

end
-- ==== Proof.Ref.SegH2b.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch H2b of @main: 54 operations in program order. -/
def segH2b : List (HloOp τ sig (Elt F)) :=
  [ StableHlo.unary main_arg3 main_v166 ((extractStridedSlice S1x256x256 ![2, 0, 0] · slices_S4x256x256_S1x256x256_2_0_0) : (⟨S4x256x256, .f32⟩ : BufTy).Contents (Elt F) → (⟨S1x256x256, .f32⟩ : BufTy).Contents (Elt F)),
    StableHlo.reshape main_v166 main_v167 rfl shapeCasts_S1x256x256_S256x256,
    StableHlo.binary main_v165 main_v167 main_v168 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v169 ((extractStridedSlice S1x256 ![2, 0] · slices_S4x256_S1x256_2_0) : (⟨S4x256, .f32⟩ : BufTy).Contents (Elt F) → (⟨S1x256, .f32⟩ : BufTy).Contents (Elt F)),
    StableHlo.reshape main_v169 main_v170 rfl shapeCasts_S1x256_S256,
    StableHlo.unary main_arg7 main_v171 ((extractStridedSlice S1x256 ![2, 0] · slices_S4x256_S1x256_2_0) : (⟨S4x256, .f32⟩ : BufTy).Contents (Elt F) → (⟨S1x256, .f32⟩ : BufTy).Contents (Elt F)),
    StableHlo.reshape main_v171 main_v172 rfl shapeCasts_S1x256_S256,
    StableHlo.nullary main_cst_27 (constant S_ .f32 0x00000000#32),
    StableHlo.binary main_v168 main_cst_27 main_v173 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_28 (constant S_ .f32 0x47435000#32),
    StableHlo.unary main_cst_28 main_v174 (broadcastInDim S256 ![] bcast_S_S256 : (⟨S_, .f32⟩ : BufTy).Contents (Elt F) → (⟨S256, .f32⟩ : BufTy).Contents (Elt F)),
    StableHlo.binary main_v173 main_v174 main_v175 (Host.divf : (⟨S256, .f32⟩ : BufTy).Contents (Elt F) → (⟨S256, .f32⟩ : BufTy).Contents (Elt F) → (⟨S256, .f32⟩ : BufTy).Contents (Elt F)),
    StableHlo.nullary main_c_29 (constantI S_ 32 0#32),
    StableHlo.TRef.nullary main_call10.cst (constant S_ .f32 0x00000000#32),
    StableHlo.TRef.binary (.of main_v168 : StableHlo.TRef sig ⟨S50000x256, .f32⟩) main_call10.cst main_call10.v0 (fun x v => Host.reduceAdd x v reducesTo_S50000x256_S256_d0 h_S_),
    StableHlo.TRef.unary main_call10.v0 main_call10.v1 (broadcastInDim S1x256 ![1] bcast_S256_S1x256_1),
    StableHlo.TRef.nullary main_call10.cst_0 (constant S_ .f32 0x47435000#32),
    StableHlo.TRef.unary main_call10.cst_0 main_call10.v2 (broadcastInDim S1x256 ![] bcast_S_S1x256),
    StableHlo.TRef.binary main_call10.v1 main_call10.v2 main_call10.v3 Host.divf,
    StableHlo.TRef.unary main_call10.v3 main_call10.v4 (broadcastInDim S50000x256 ![0, 1] bcast_S1x256_S50000x256_0_1),
    StableHlo.TRef.binary (.of main_v168 : StableHlo.TRef sig ⟨S50000x256, .f32⟩) main_call10.v4 main_call10.v5 subf,
    StableHlo.TRef.binary main_call10.v5 main_call10.v5 main_call10.v6 mulf,
    StableHlo.TRef.unary (.of main_c_29 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x256_S256_d0 h_S_),
    StableHlo.TRef.unary main_call10.v8 main_call10.v10 (broadcastInDim S256 ![] bcast_S_S256),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S256 ![] bcast_S_S256),
    StableHlo.TRef.ternary main_call10.v12 main_call10.v11 main_call10.call0.v1 main_call10.call0.v2 (fun p a b => select (broadcastInDim S256 ![] bcast_S_S256 p) a b),
    StableHlo.unary main_v175 main_v177 (broadcastInDim S1x256 ![1] bcast_S256_S1x256_1 : (⟨S256, .f32⟩ : BufTy).Contents (Elt F) → (⟨S1x256, .f32⟩ : BufTy).Contents (Elt F)),
    StableHlo.unary main_v177 main_v178 (broadcastInDim S50000x256 ![0, 1] bcast_S1x256_S50000x256_0_1 : (⟨S1x256, .f32⟩ : BufTy).Contents (Elt F) → (⟨S50000x256, .f32⟩ : BufTy).Contents (Elt F)),
    StableHlo.binary main_v168 main_v178 main_v179 (subf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x3727C5AC#32),
    StableHlo.unary main_cst_30 main_v180 (broadcastInDim S256 ![] bcast_S_S256 : (⟨S_, .f32⟩ : BufTy).Contents (Elt F) → (⟨S256, .f32⟩ : BufTy).Contents (Elt F)),
    StableHlo.binary main_v176 main_v180 main_v181 (addf : (⟨S256, .f32⟩ : BufTy).Contents (Elt F) → (⟨S256, .f32⟩ : BufTy).Contents (Elt F) → (⟨S256, .f32⟩ : BufTy).Contents (Elt F)),
    StableHlo.unary main_v181 main_v182 (Host.rsqrt : (⟨S256, .f32⟩ : BufTy).Contents (Elt F) → (⟨S256, .f32⟩ : BufTy).Contents (Elt F)),
    StableHlo.unary main_v182 main_v183 (broadcastInDim S1x256 ![1] bcast_S256_S1x256_1 : (⟨S256, .f32⟩ : BufTy).Contents (Elt F) → (⟨S1x256, .f32⟩ : BufTy).Contents (Elt F)),
    StableHlo.unary main_v183 main_v184 (broadcastInDim S50000x256 ![0, 1] bcast_S1x256_S50000x256_0_1 : (⟨S1x256, .f32⟩ : BufTy).Contents (Elt F) → (⟨S50000x256, .f32⟩ : BufTy).Contents (Elt F)),
    StableHlo.binary main_v179 main_v184 main_v185 (mulf : (⟨S50000x256, .f32⟩ : BufTy).Contents (Elt F) → (⟨S50000x256, .f32⟩ : BufTy).Contents (Elt F) → (⟨S50000x256, .f32⟩ : BufTy).Contents (Elt F)),
    StableHlo.unary main_v170 main_v186 (broadcastInDim S1x256 ![1] bcast_S256_S1x256_1 : (⟨S256, .f32⟩ : BufTy).Contents (Elt F) → (⟨S1x256, .f32⟩ : BufTy).Contents (Elt F)),
    StableHlo.unary main_v186 main_v187 (broadcastInDim S50000x256 ![0, 1] bcast_S1x256_S50000x256_0_1 : (⟨S1x256, .f32⟩ : BufTy).Contents (Elt F) → (⟨S50000x256, .f32⟩ : BufTy).Contents (Elt F)),
    StableHlo.binary main_v185 main_v187 main_v188 (mulf : (⟨S50000x256, .f32⟩ : BufTy).Contents (Elt F) → (⟨S50000x256, .f32⟩ : BufTy).Contents (Elt F) → (⟨S50000x256, .f32⟩ : BufTy).Contents (Elt F)),
    StableHlo.unary main_v172 main_v189 (broadcastInDim S1x256 ![1] bcast_S256_S1x256_1 : (⟨S256, .f32⟩ : BufTy).Contents (Elt F) → (⟨S1x256, .f32⟩ : BufTy).Contents (Elt F)),
    StableHlo.unary main_v189 main_v190 (broadcastInDim S50000x256 ![0, 1] bcast_S1x256_S50000x256_0_1 : (⟨S1x256, .f32⟩ : BufTy).Contents (Elt F) → (⟨S50000x256, .f32⟩ : BufTy).Contents (Elt F)),
    StableHlo.binary main_v188 main_v190 main_v191 (addf : (⟨S50000x256, .f32⟩ : BufTy).Contents (Elt F) → (⟨S50000x256, .f32⟩ : BufTy).Contents (Elt F) → (⟨S50000x256, .f32⟩ : BufTy).Contents (Elt F)),
    StableHlo.TRef.nullary main_call11.cst (constant S_ .f32 0x00000000#32),
    StableHlo.TRef.unary main_call11.cst main_call11.v0 (broadcastInDim S50000x256 ![] bcast_S_S50000x256),
    StableHlo.TRef.binary (.of main_v191 : StableHlo.TRef sig ⟨S50000x256, .f32⟩) main_call11.v0 main_call11.v1 maximumf ]

/-- The references stretch H2b carries: the arguments and the other stretches' results. -/
abbrev keepH2b : List (Ref sig .tc) := [main_arg0, main_arg1, main_arg2, main_arg3, main_arg4, main_arg5, main_arg6, main_arg7, main_arg8, main_arg9, main_arg10, main_arg11, main_arg12, main_arg13, main_v10, main_v35, main_v62, main_v73, main_v100, main_v127, main_v138, main_v165, main_v203, main_v230, main_v257]

theorem segH2b_keep : (segH2b : List (HloOp τ sig (Elt F))).Forall fun op =>
    ∃ y : Ref sig .tc, op.writes = {Proc.devRef (τ := τ) .tc y} ∧ y ∉ keepH2b := by
  unfold segH2b
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.Hand

end
-- ==== Proof.Ref.PlumbL2.lean ====
import proofs.«148047_j37898791420018_1_alg».proof.Proof.Ref.SegA2
import proofs.«148047_j37898791420018_1_alg».proof.Proof.Ref.SegH2a
import proofs.«148047_j37898791420018_1_alg».proof.Proof.Ref.SegH2b
import proofs.«148047_j37898791420018_1_alg».proof.Proof.Ref.ValueDefs
import proofs.«148047_j37898791420018_1_alg».proof.Proof.Ref.Run
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! Each stretch of @main read as ONE function of the buffers it starts from (the fold over its operations computed,
the result the named composed term of Ref/ValueDefs.lean), and what it leaves untouched. -/

set_option maxRecDepth 16384 in
set_option maxHeartbeats 4000000 in
/-- Stretch A2 read as one function of the buffers it starts from. -/
theorem plumb_A2 (W : Valuation τ sig (Elt Ideal)) :
    after (segA2 (F := Ideal)) W (no_index (Proc.devRef .tc main_v138))
      = aggRef256 (W (Proc.devRef .tc main_v127)) (W (Proc.devRef .tc main_arg12)) (W (Proc.devRef .tc main_arg13)) := by
  unfold segA2
  after_results_simp
  rfl

/-- Stretch A2 leaves the references it carries as they were. -/
theorem frame_A2 (W : Valuation τ sig (Elt Ideal)) {r : Ref sig .tc} (hr : r ∈ keepA2) :
    after (segA2 (F := Ideal)) W (no_index (Proc.devRef .tc r)) = W (Proc.devRef .tc r) :=
  after_keeps _ W segA2_keep hr

set_option maxRecDepth 16384 in
set_option maxHeartbeats 4000000 in
/-- Stretch H2a read as one function of the buffers it starts from. -/
theorem plumb_H2a (W : Valuation τ sig (Elt Ideal)) :
    after (segH2a (F := Ideal)) W (no_index (Proc.devRef .tc main_v165))
      = halfRef dot_S50000x256_S256x256_S50000x256_1_0_0_1_n_n (W (Proc.devRef .tc main_v138))
          (slabRef (n := 3) (W (Proc.devRef .tc main_arg2)) ![1, 0, 0] slices_S3x256x256_S1x256x256_1_0_0)
          (rowRef (W (Proc.devRef .tc main_arg4)) ![2, 0] slices_S4x256_S1x256_2_0)
          (rowRef (W (Proc.devRef .tc main_arg5)) ![2, 0] slices_S4x256_S1x256_2_0) := by
  unfold segH2a
  after_results_simp
  rfl

/-- Stretch H2a leaves the references it carries as they were. -/
theorem frame_H2a (W : Valuation τ sig (Elt Ideal)) {r : Ref sig .tc} (hr : r ∈ keepH2a) :
    after (segH2a (F := Ideal)) W (no_index (Proc.devRef .tc r)) = W (Proc.devRef .tc r) :=
  after_keeps _ W segH2a_keep hr

set_option maxRecDepth 16384 in
set_option maxHeartbeats 4000000 in
/-- Stretch H2b read as one function of the buffers it starts from. -/
theorem plumb_H2b (W : Valuation τ sig (Elt Ideal)) :
    after (segH2b (F := Ideal)) W (no_index (Proc.devRef .tc main_v192))
      = halfRef dot_S50000x256_S256x256_S50000x256_1_0_0_1_n_n (W (Proc.devRef .tc main_v165))
          (slabRef (n := 4) (W (Proc.devRef .tc main_arg3)) ![2, 0, 0] slices_S4x256x256_S1x256x256_2_0_0)
          (rowRef (W (Proc.devRef .tc main_arg6)) ![2, 0] slices_S4x256_S1x256_2_0)
          (rowRef (W (Proc.devRef .tc main_arg7)) ![2, 0] slices_S4x256_S1x256_2_0) := by
  unfold segH2b
  after_results_simp
  rfl

/-- Stretch H2b leaves the references it carries as they were. -/
theorem frame_H2b (W : Valuation τ sig (Elt Ideal)) {r : Ref sig .tc} (hr : r ∈ keepH2b) :
    after (segH2b (F := Ideal)) W (no_index (Proc.devRef .tc r)) = W (Proc.devRef .tc r) :=
  after_keeps _ W segH2b_keep hr

end Cert.ReferenceIdeal.Hand

end
-- ==== Proof.Ref.SegA3.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch A3 of @main: 14 operations in program order. -/
def segA3 : List (HloOp τ sig (Elt F)) :=
  [ StableHlo.nullary main_c_31 (constantI S_ 32 0#32),
    StableHlo.unary main_c_31 main_v193 (broadcastInDim S800000 ![] bcast_S_S800000 : (⟨S_, .i32⟩ : BufTy).Contents (Elt F) → (⟨S800000, .i32⟩ : BufTy).Contents (Elt F)),
    StableHlo.binary main_arg12 main_v193 main_v194 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v195 (broadcastInDim S800000 ![] bcast_S_S800000 : (⟨S_, .i32⟩ : BufTy).Contents (Elt F) → (⟨S800000, .i32⟩ : BufTy).Contents (Elt F)),
    StableHlo.binary main_arg12 main_v195 main_v196 (addi : (⟨S800000, .i32⟩ : BufTy).Contents (Elt F) → (⟨S800000, .i32⟩ : BufTy).Contents (Elt F) → (⟨S800000, .i32⟩ : BufTy).Contents (Elt F)),
    StableHlo.ternary main_v194 main_v196 main_arg12 main_v197 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v197 main_v198 (broadcastInDim S800000x1 ![0] bcast_S800000_S800000x1_0 : (⟨S800000, .i32⟩ : BufTy).Contents (Elt F) → (⟨S800000x1, .i32⟩ : BufTy).Contents (Elt F)),
    StableHlo.binary main_v192 main_v198 main_v199 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_33 (constant S_ .f32 0x00000000#32),
    StableHlo.unary main_cst_33 main_v200 (broadcastInDim S50000x256 ![] bcast_S_S50000x256 : (⟨S_, .f32⟩ : BufTy).Contents (Elt F) → (⟨S50000x256, .f32⟩ : BufTy).Contents (Elt F)),
    StableHlo.unary main_arg13 main_v201 (broadcastInDim S800000x1 ![0] bcast_S800000_S800000x1_0 : (⟨S800000, .i32⟩ : BufTy).Contents (Elt F) → (⟨S800000x1, .i32⟩ : BufTy).Contents (Elt F)),
    StableHlo.ternary main_v200 main_v201 main_v199 main_v202 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v192 main_v202 main_v203 (addf : (⟨S50000x256, .f32⟩ : BufTy).Contents (Elt F) → (⟨S50000x256, .f32⟩ : BufTy).Contents (Elt F) → (⟨S50000x256, .f32⟩ : BufTy).Contents (Elt F)) ]

/-- The references stretch A3 carries: the arguments and the other stretches' results. -/
abbrev keepA3 : List (Ref sig .tc) := [main_arg0, main_arg1, main_arg2, main_arg3, main_arg4, main_arg5, main_arg6, main_arg7, main_arg8, main_arg9, main_arg10, main_arg11, main_arg12, main_arg13, main_v10, main_v35, main_v62, main_v73, main_v100, main_v127, main_v138, main_v165, main_v192, main_v230, main_v257]

theorem segA3_keep : (segA3 : List (HloOp τ sig (Elt F))).Forall fun op =>
    ∃ y : Ref sig .tc, op.writes = {Proc.devRef (τ := τ) .tc y} ∧ y ∉ keepA3 := by
  unfold segA3
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.Hand

end
-- ==== Proof.Ref.SegH3a.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch H3a of @main: 54 operations in program order. -/
def segH3a : List (HloOp τ sig (Elt F)) :=
  [ StableHlo.unary main_arg2 main_v204 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v204 main_v205 rfl shapeCasts_S1x256x256_S256x256,
    StableHlo.binary main_v203 main_v205 main_v206 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v207 ((extractStridedSlice S1x256 ![3, 0] · slices_S4x256_S1x256_3_0) : (⟨S4x256, .f32⟩ : BufTy).Contents (Elt F) → (⟨S1x256, .f32⟩ : BufTy).Contents (Elt F)),
    StableHlo.reshape main_v207 main_v208 rfl shapeCasts_S1x256_S256,
    StableHlo.unary main_arg5 main_v209 ((extractStridedSlice S1x256 ![3, 0] · slices_S4x256_S1x256_3_0) : (⟨S4x256, .f32⟩ : BufTy).Contents (Elt F) → (⟨S1x256, .f32⟩ : BufTy).Contents (Elt F)),
    StableHlo.reshape main_v209 main_v210 rfl shapeCasts_S1x256_S256,
    StableHlo.nullary main_cst_34 (constant S_ .f32 0x00000000#32),
    StableHlo.binary main_v206 main_cst_34 main_v211 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_35 (constant S_ .f32 0x47435000#32),
    StableHlo.unary main_cst_35 main_v212 (broadcastInDim S256 ![] bcast_S_S256 : (⟨S_, .f32⟩ : BufTy).Contents (Elt F) → (⟨S256, .f32⟩ : BufTy).Contents (Elt F)),
    StableHlo.binary main_v211 main_v212 main_v213 (Host.divf : (⟨S256, .f32⟩ : BufTy).Contents (Elt F) → (⟨S256, .f32⟩ : BufTy).Contents (Elt F) → (⟨S256, .f32⟩ : BufTy).Contents (Elt F)),
    StableHlo.nullary main_c_36 (constantI S_ 32 0#32),
    StableHlo.TRef.nullary main_call12.cst (constant S_ .f32 0x00000000#32),
    StableHlo.TRef.binary (.of main_v206 : StableHlo.TRef sig ⟨S50000x256, .f32⟩) main_call12.cst main_call12.v0 (fun x v => Host.reduceAdd x v reducesTo_S50000x256_S256_d0 h_S_),
    StableHlo.TRef.unary main_call12.v0 main_call12.v1 (broadcastInDim S1x256 ![1] bcast_S256_S1x256_1),
    StableHlo.TRef.nullary main_call12.cst_0 (constant S_ .f32 0x47435000#32),
    StableHlo.TRef.unary main_call12.cst_0 main_call12.v2 (broadcastInDim S1x256 ![] bcast_S_S1x256),
    StableHlo.TRef.binary main_call12.v1 main_call12.v2 main_call12.v3 Host.divf,
    StableHlo.TRef.unary main_call12.v3 main_call12.v4 (broadcastInDim S50000x256 ![0, 1] bcast_S1x256_S50000x256_0_1),
    StableHlo.TRef.binary (.of main_v206 : StableHlo.TRef sig ⟨S50000x256, .f32⟩) main_call12.v4 main_call12.v5 subf,
    StableHlo.TRef.binary main_call12.v5 main_call12.v5 main_call12.v6 mulf,
    StableHlo.TRef.unary (.of main_c_36 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x256_S256_d0 h_S_),
    StableHlo.TRef.unary main_call12.v8 main_call12.v10 (broadcastInDim S256 ![] bcast_S_S256),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S256 ![] bcast_S_S256),
    StableHlo.TRef.ternary main_call12.v12 main_call12.v11 main_call12.call0.v1 main_call12.call0.v2 (fun p a b => select (broadcastInDim S256 ![] bcast_S_S256 p) a b),
    StableHlo.unary main_v213 main_v215 (broadcastInDim S1x256 ![1] bcast_S256_S1x256_1 : (⟨S256, .f32⟩ : BufTy).Contents (Elt F) → (⟨S1x256, .f32⟩ : BufTy).Contents (Elt F)),
    StableHlo.unary main_v215 main_v216 (broadcastInDim S50000x256 ![0, 1] bcast_S1x256_S50000x256_0_1 : (⟨S1x256, .f32⟩ : BufTy).Contents (Elt F) → (⟨S50000x256, .f32⟩ : BufTy).Contents (Elt F)),
    StableHlo.binary main_v206 main_v216 main_v217 (subf : (⟨S50000x256, .f32⟩ : BufTy).Contents (Elt F) → (⟨S50000x256, .f32⟩ : BufTy).Contents (Elt F) → (⟨S50000x256, .f32⟩ : BufTy).Contents (Elt F)),
    StableHlo.nullary main_cst_37 (constant S_ .f32 0x3727C5AC#32),
    StableHlo.unary main_cst_37 main_v218 (broadcastInDim S256 ![] bcast_S_S256 : (⟨S_, .f32⟩ : BufTy).Contents (Elt F) → (⟨S256, .f32⟩ : BufTy).Contents (Elt F)),
    StableHlo.binary main_v214 main_v218 main_v219 (addf : (⟨S256, .f32⟩ : BufTy).Contents (Elt F) → (⟨S256, .f32⟩ : BufTy).Contents (Elt F) → (⟨S256, .f32⟩ : BufTy).Contents (Elt F)),
    StableHlo.unary main_v219 main_v220 (Host.rsqrt : (⟨S256, .f32⟩ : BufTy).Contents (Elt F) → (⟨S256, .f32⟩ : BufTy).Contents (Elt F)),
    StableHlo.unary main_v220 main_v221 (broadcastInDim S1x256 ![1] bcast_S256_S1x256_1 : (⟨S256, .f32⟩ : BufTy).Contents (Elt F) → (⟨S1x256, .f32⟩ : BufTy).Contents (Elt F)),
    StableHlo.unary main_v221 main_v222 (broadcastInDim S50000x256 ![0, 1] bcast_S1x256_S50000x256_0_1 : (⟨S1x256, .f32⟩ : BufTy).Contents (Elt F) → (⟨S50000x256, .f32⟩ : BufTy).Contents (Elt F)),
    StableHlo.binary main_v217 main_v222 main_v223 (mulf : (⟨S50000x256, .f32⟩ : BufTy).Contents (Elt F) → (⟨S50000x256, .f32⟩ : BufTy).Contents (Elt F) → (⟨S50000x256, .f32⟩ : BufTy).Contents (Elt F)),
    StableHlo.unary main_v208 main_v224 (broadcastInDim S1x256 ![1] bcast_S256_S1x256_1 : (⟨S256, .f32⟩ : BufTy).Contents (Elt F) → (⟨S1x256, .f32⟩ : BufTy).Contents (Elt F)),
    StableHlo.unary main_v224 main_v225 (broadcastInDim S50000x256 ![0, 1] bcast_S1x256_S50000x256_0_1 : (⟨S1x256, .f32⟩ : BufTy).Contents (Elt F) → (⟨S50000x256, .f32⟩ : BufTy).Contents (Elt F)),
    StableHlo.binary main_v223 main_v225 main_v226 (mulf : (⟨S50000x256, .f32⟩ : BufTy).Contents (Elt F) → (⟨S50000x256, .f32⟩ : BufTy).Contents (Elt F) → (⟨S50000x256, .f32⟩ : BufTy).Contents (Elt F)),
    StableHlo.unary main_v210 main_v227 (broadcastInDim S1x256 ![1] bcast_S256_S1x256_1 : (⟨S256, .f32⟩ : BufTy).Contents (Elt F) → (⟨S1x256, .f32⟩ : BufTy).Contents (Elt F)),
    StableHlo.unary main_v227 main_v228 (broadcastInDim S50000x256 ![0, 1] bcast_S1x256_S50000x256_0_1 : (⟨S1x256, .f32⟩ : BufTy).Contents (Elt F) → (⟨S50000x256, .f32⟩ : BufTy).Contents (Elt F)),
    StableHlo.binary main_v226 main_v228 main_v229 (addf : (⟨S50000x256, .f32⟩ : BufTy).Contents (Elt F) → (⟨S50000x256, .f32⟩ : BufTy).Contents (Elt F) → (⟨S50000x256, .f32⟩ : BufTy).Contents (Elt F)),
    StableHlo.TRef.nullary main_call13.cst (constant S_ .f32 0x00000000#32),
    StableHlo.TRef.unary main_call13.cst main_call13.v0 (broadcastInDim S50000x256 ![] bcast_S_S50000x256),
    StableHlo.TRef.binary (.of main_v229 : StableHlo.TRef sig ⟨S50000x256, .f32⟩) main_call13.v0 main_call13.v1 maximumf ]

/-- The references stretch H3a carries: the arguments and the other stretches' results. -/
abbrev keepH3a : List (Ref sig .tc) := [main_arg0, main_arg1, main_arg2, main_arg3, main_arg4, main_arg5, main_arg6, main_arg7, main_arg8, main_arg9, main_arg10, main_arg11, main_arg12, main_arg13, main_v10, main_v35, main_v62, main_v73, main_v100, main_v127, main_v138, main_v165, main_v192, main_v203, main_v257]

theorem segH3a_keep : (segH3a : List (HloOp τ sig (Elt F))).Forall fun op =>
    ∃ y : Ref sig .tc, op.writes = {Proc.devRef (τ := τ) .tc y} ∧ y ∉ keepH3a := by
  unfold segH3a
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.Hand

end
-- ==== Proof.Ref.SegH3b.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch H3b of @main: 54 operations in program order. -/
def segH3b : List (HloOp τ sig (Elt F)) :=
  [ StableHlo.unary main_arg3 main_v231 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v231 main_v232 rfl shapeCasts_S1x256x256_S256x256,
    StableHlo.binary main_v230 main_v232 main_v233 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v234 ((extractStridedSlice S1x256 ![3, 0] · slices_S4x256_S1x256_3_0) : (⟨S4x256, .f32⟩ : BufTy).Contents (Elt F) → (⟨S1x256, .f32⟩ : BufTy).Contents (Elt F)),
    StableHlo.reshape main_v234 main_v235 rfl shapeCasts_S1x256_S256,
    StableHlo.unary main_arg7 main_v236 ((extractStridedSlice S1x256 ![3, 0] · slices_S4x256_S1x256_3_0) : (⟨S4x256, .f32⟩ : BufTy).Contents (Elt F) → (⟨S1x256, .f32⟩ : BufTy).Contents (Elt F)),
    StableHlo.reshape main_v236 main_v237 rfl shapeCasts_S1x256_S256,
    StableHlo.nullary main_cst_38 (constant S_ .f32 0x00000000#32),
    StableHlo.binary main_v233 main_cst_38 main_v238 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_39 (constant S_ .f32 0x47435000#32),
    StableHlo.unary main_cst_39 main_v239 (broadcastInDim S256 ![] bcast_S_S256 : (⟨S_, .f32⟩ : BufTy).Contents (Elt F) → (⟨S256, .f32⟩ : BufTy).Contents (Elt F)),
    StableHlo.binary main_v238 main_v239 main_v240 (Host.divf : (⟨S256, .f32⟩ : BufTy).Contents (Elt F) → (⟨S256, .f32⟩ : BufTy).Contents (Elt F) → (⟨S256, .f32⟩ : BufTy).Contents (Elt F)),
    StableHlo.nullary main_c_40 (constantI S_ 32 0#32),
    StableHlo.TRef.nullary main_call14.cst (constant S_ .f32 0x00000000#32),
    StableHlo.TRef.binary (.of main_v233 : StableHlo.TRef sig ⟨S50000x256, .f32⟩) main_call14.cst main_call14.v0 (fun x v => Host.reduceAdd x v reducesTo_S50000x256_S256_d0 h_S_),
    StableHlo.TRef.unary main_call14.v0 main_call14.v1 (broadcastInDim S1x256 ![1] bcast_S256_S1x256_1),
    StableHlo.TRef.nullary main_call14.cst_0 (constant S_ .f32 0x47435000#32),
    StableHlo.TRef.unary main_call14.cst_0 main_call14.v2 (broadcastInDim S1x256 ![] bcast_S_S1x256),
    StableHlo.TRef.binary main_call14.v1 main_call14.v2 main_call14.v3 Host.divf,
    StableHlo.TRef.unary main_call14.v3 main_call14.v4 (broadcastInDim S50000x256 ![0, 1] bcast_S1x256_S50000x256_0_1),
    StableHlo.TRef.binary (.of main_v233 : StableHlo.TRef sig ⟨S50000x256, .f32⟩) main_call14.v4 main_call14.v5 subf,
    StableHlo.TRef.binary main_call14.v5 main_call14.v5 main_call14.v6 mulf,
    StableHlo.TRef.unary (.of main_c_40 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x256_S256_d0 h_S_),
    StableHlo.TRef.unary main_call14.v8 main_call14.v10 (broadcastInDim S256 ![] bcast_S_S256),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S256 ![] bcast_S_S256),
    StableHlo.TRef.ternary main_call14.v12 main_call14.v11 main_call14.call0.v1 main_call14.call0.v2 (fun p a b => select (broadcastInDim S256 ![] bcast_S_S256 p) a b),
    StableHlo.unary main_v240 main_v242 (broadcastInDim S1x256 ![1] bcast_S256_S1x256_1 : (⟨S256, .f32⟩ : BufTy).Contents (Elt F) → (⟨S1x256, .f32⟩ : BufTy).Contents (Elt F)),
    StableHlo.unary main_v242 main_v243 (broadcastInDim S50000x256 ![0, 1] bcast_S1x256_S50000x256_0_1 : (⟨S1x256, .f32⟩ : BufTy).Contents (Elt F) → (⟨S50000x256, .f32⟩ : BufTy).Contents (Elt F)),
    StableHlo.binary main_v233 main_v243 main_v244 (subf : (⟨S50000x256, .f32⟩ : BufTy).Contents (Elt F) → (⟨S50000x256, .f32⟩ : BufTy).Contents (Elt F) → (⟨S50000x256, .f32⟩ : BufTy).Contents (Elt F)),
    StableHlo.nullary main_cst_41 (constant S_ .f32 0x3727C5AC#32),
    StableHlo.unary main_cst_41 main_v245 (broadcastInDim S256 ![] bcast_S_S256 : (⟨S_, .f32⟩ : BufTy).Contents (Elt F) → (⟨S256, .f32⟩ : BufTy).Contents (Elt F)),
    StableHlo.binary main_v241 main_v245 main_v246 (addf : (⟨S256, .f32⟩ : BufTy).Contents (Elt F) → (⟨S256, .f32⟩ : BufTy).Contents (Elt F) → (⟨S256, .f32⟩ : BufTy).Contents (Elt F)),
    StableHlo.unary main_v246 main_v247 (Host.rsqrt : (⟨S256, .f32⟩ : BufTy).Contents (Elt F) → (⟨S256, .f32⟩ : BufTy).Contents (Elt F)),
    StableHlo.unary main_v247 main_v248 (broadcastInDim S1x256 ![1] bcast_S256_S1x256_1 : (⟨S256, .f32⟩ : BufTy).Contents (Elt F) → (⟨S1x256, .f32⟩ : BufTy).Contents (Elt F)),
    StableHlo.unary main_v248 main_v249 (broadcastInDim S50000x256 ![0, 1] bcast_S1x256_S50000x256_0_1 : (⟨S1x256, .f32⟩ : BufTy).Contents (Elt F) → (⟨S50000x256, .f32⟩ : BufTy).Contents (Elt F)),
    StableHlo.binary main_v244 main_v249 main_v250 (mulf : (⟨S50000x256, .f32⟩ : BufTy).Contents (Elt F) → (⟨S50000x256, .f32⟩ : BufTy).Contents (Elt F) → (⟨S50000x256, .f32⟩ : BufTy).Contents (Elt F)),
    StableHlo.unary main_v235 main_v251 (broadcastInDim S1x256 ![1] bcast_S256_S1x256_1 : (⟨S256, .f32⟩ : BufTy).Contents (Elt F) → (⟨S1x256, .f32⟩ : BufTy).Contents (Elt F)),
    StableHlo.unary main_v251 main_v252 (broadcastInDim S50000x256 ![0, 1] bcast_S1x256_S50000x256_0_1 : (⟨S1x256, .f32⟩ : BufTy).Contents (Elt F) → (⟨S50000x256, .f32⟩ : BufTy).Contents (Elt F)),
    StableHlo.binary main_v250 main_v252 main_v253 (mulf : (⟨S50000x256, .f32⟩ : BufTy).Contents (Elt F) → (⟨S50000x256, .f32⟩ : BufTy).Contents (Elt F) → (⟨S50000x256, .f32⟩ : BufTy).Contents (Elt F)),
    StableHlo.unary main_v237 main_v254 (broadcastInDim S1x256 ![1] bcast_S256_S1x256_1 : (⟨S256, .f32⟩ : BufTy).Contents (Elt F) → (⟨S1x256, .f32⟩ : BufTy).Contents (Elt F)),
    StableHlo.unary main_v254 main_v255 (broadcastInDim S50000x256 ![0, 1] bcast_S1x256_S50000x256_0_1 : (⟨S1x256, .f32⟩ : BufTy).Contents (Elt F) → (⟨S50000x256, .f32⟩ : BufTy).Contents (Elt F)),
    StableHlo.binary main_v253 main_v255 main_v256 (addf : (⟨S50000x256, .f32⟩ : BufTy).Contents (Elt F) → (⟨S50000x256, .f32⟩ : BufTy).Contents (Elt F) → (⟨S50000x256, .f32⟩ : BufTy).Contents (Elt F)),
    StableHlo.TRef.nullary main_call15.cst (constant S_ .f32 0x00000000#32),
    StableHlo.TRef.unary main_call15.cst main_call15.v0 (broadcastInDim S50000x256 ![] bcast_S_S50000x256),
    StableHlo.TRef.binary (.of main_v256 : StableHlo.TRef sig ⟨S50000x256, .f32⟩) main_call15.v0 main_call15.v1 maximumf ]

/-- The references stretch H3b carries: the arguments and the other stretches' results. -/
abbrev keepH3b : List (Ref sig .tc) := [main_arg0, main_arg1, main_arg2, main_arg3, main_arg4, main_arg5, main_arg6, main_arg7, main_arg8, main_arg9, main_arg10, main_arg11, main_arg12, main_arg13, main_v10, main_v35, main_v62, main_v73, main_v100, main_v127, main_v138, main_v165, main_v192, main_v203, main_v230]

theorem segH3b_keep : (segH3b : List (HloOp τ sig (Elt F))).Forall fun op =>
    ∃ y : Ref sig .tc, op.writes = {Proc.devRef (τ := τ) .tc y} ∧ y ∉ keepH3b := by
  unfold segH3b
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.Hand

end
-- ==== Proof.Ref.SegHD.lean ====
import proofs.«148047_j37898791420018_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch HD of @main: 40 operations in program order. -/
def segHD : List (HloOp τ sig (Elt F)) :=
  [ StableHlo.binary main_arg0 main_arg8 main_v258 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg9 main_v259 (broadcastInDim S1x64 ![1] bcast_S64_S1x64_1 : (⟨S64, .f32⟩ : BufTy).Contents (Elt F) → (⟨S1x64, .f32⟩ : BufTy).Contents (Elt F)),
    StableHlo.unary main_v259 main_v260 (broadcastInDim S50000x64 ![0, 1] bcast_S1x64_S50000x64_0_1 : (⟨S1x64, .f32⟩ : BufTy).Contents (Elt F) → (⟨S50000x64, .f32⟩ : BufTy).Contents (Elt F)),
    StableHlo.binary main_v258 main_v260 main_v261 (addf : (⟨S50000x64, .f32⟩ : BufTy).Contents (Elt F) → (⟨S50000x64, .f32⟩ : BufTy).Contents (Elt F) → (⟨S50000x64, .f32⟩ : BufTy).Contents (Elt F)),
    StableHlo.unary main_arg10 main_v262 ((extractStridedSlice S1x256x64 ![0, 0, 0] · slices_S4x256x64_S1x256x64_0_0_0) : (⟨S4x256x64, .f32⟩ : BufTy).Contents (Elt F) → (⟨S1x256x64, .f32⟩ : BufTy).Contents (Elt F)),
    StableHlo.reshape main_v262 main_v263 rfl shapeCasts_S1x256x64_S256x64,
    StableHlo.binary main_v62 main_v263 main_v264 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_v261 main_v264 main_v265 (addf : (⟨S50000x64, .f32⟩ : BufTy).Contents (Elt F) → (⟨S50000x64, .f32⟩ : BufTy).Contents (Elt F) → (⟨S50000x64, .f32⟩ : BufTy).Contents (Elt F)),
    StableHlo.unary main_arg11 main_v266 ((extractStridedSlice S1x64 ![0, 0] · slices_S4x64_S1x64_0_0) : (⟨S4x64, .f32⟩ : BufTy).Contents (Elt F) → (⟨S1x64, .f32⟩ : BufTy).Contents (Elt F)),
    StableHlo.reshape main_v266 main_v267 rfl shapeCasts_S1x64_S64,
    StableHlo.unary main_v267 main_v268 (broadcastInDim S1x64 ![1] bcast_S64_S1x64_1 : (⟨S64, .f32⟩ : BufTy).Contents (Elt F) → (⟨S1x64, .f32⟩ : BufTy).Contents (Elt F)),
    StableHlo.unary main_v268 main_v269 (broadcastInDim S50000x64 ![0, 1] bcast_S1x64_S50000x64_0_1 : (⟨S1x64, .f32⟩ : BufTy).Contents (Elt F) → (⟨S50000x64, .f32⟩ : BufTy).Contents (Elt F)),
    StableHlo.binary main_v265 main_v269 main_v270 (addf : (⟨S50000x64, .f32⟩ : BufTy).Contents (Elt F) → (⟨S50000x64, .f32⟩ : BufTy).Contents (Elt F) → (⟨S50000x64, .f32⟩ : BufTy).Contents (Elt F)),
    StableHlo.unary main_arg10 main_v271 ((extractStridedSlice S1x256x64 ![1, 0, 0] · slices_S4x256x64_S1x256x64_1_0_0) : (⟨S4x256x64, .f32⟩ : BufTy).Contents (Elt F) → (⟨S1x256x64, .f32⟩ : BufTy).Contents (Elt F)),
    StableHlo.reshape main_v271 main_v272 rfl shapeCasts_S1x256x64_S256x64,
    StableHlo.binary main_v127 main_v272 main_v273 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_v270 main_v273 main_v274 (addf : (⟨S50000x64, .f32⟩ : BufTy).Contents (Elt F) → (⟨S50000x64, .f32⟩ : BufTy).Contents (Elt F) → (⟨S50000x64, .f32⟩ : BufTy).Contents (Elt F)),
    StableHlo.unary main_arg11 main_v275 ((extractStridedSlice S1x64 ![1, 0] · slices_S4x64_S1x64_1_0) : (⟨S4x64, .f32⟩ : BufTy).Contents (Elt F) → (⟨S1x64, .f32⟩ : BufTy).Contents (Elt F)),
    StableHlo.reshape main_v275 main_v276 rfl shapeCasts_S1x64_S64,
    StableHlo.unary main_v276 main_v277 (broadcastInDim S1x64 ![1] bcast_S64_S1x64_1 : (⟨S64, .f32⟩ : BufTy).Contents (Elt F) → (⟨S1x64, .f32⟩ : BufTy).Contents (Elt F)),
    StableHlo.unary main_v277 main_v278 (broadcastInDim S50000x64 ![0, 1] bcast_S1x64_S50000x64_0_1 : (⟨S1x64, .f32⟩ : BufTy).Contents (Elt F) → (⟨S50000x64, .f32⟩ : BufTy).Contents (Elt F)),
    StableHlo.binary main_v274 main_v278 main_v279 (addf : (⟨S50000x64, .f32⟩ : BufTy).Contents (Elt F) → (⟨S50000x64, .f32⟩ : BufTy).Contents (Elt F) → (⟨S50000x64, .f32⟩ : BufTy).Contents (Elt F)),
    StableHlo.unary main_arg10 main_v280 ((extractStridedSlice S1x256x64 ![2, 0, 0] · slices_S4x256x64_S1x256x64_2_0_0) : (⟨S4x256x64, .f32⟩ : BufTy).Contents (Elt F) → (⟨S1x256x64, .f32⟩ : BufTy).Contents (Elt F)),
    StableHlo.reshape main_v280 main_v281 rfl shapeCasts_S1x256x64_S256x64,
    StableHlo.binary main_v192 main_v281 main_v282 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_v279 main_v282 main_v283 (addf : (⟨S50000x64, .f32⟩ : BufTy).Contents (Elt F) → (⟨S50000x64, .f32⟩ : BufTy).Contents (Elt F) → (⟨S50000x64, .f32⟩ : BufTy).Contents (Elt F)),
    StableHlo.unary main_arg11 main_v284 ((extractStridedSlice S1x64 ![2, 0] · slices_S4x64_S1x64_2_0) : (⟨S4x64, .f32⟩ : BufTy).Contents (Elt F) → (⟨S1x64, .f32⟩ : BufTy).Contents (Elt F)),
    StableHlo.reshape main_v284 main_v285 rfl shapeCasts_S1x64_S64,
    StableHlo.unary main_v285 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S50000x64 ![0, 1] bcast_S1x64_S50000x64_0_1 : (⟨S1x64, .f32⟩ : BufTy).Contents (Elt F) → (⟨S50000x64, .f32⟩ : BufTy).Contents (Elt F)),
    StableHlo.binary main_v283 main_v287 main_v288 (addf : (⟨S50000x64, .f32⟩ : BufTy).Contents (Elt F) → (⟨S50000x64, .f32⟩ : BufTy).Contents (Elt F) → (⟨S50000x64, .f32⟩ : BufTy).Contents (Elt F)),
    StableHlo.unary main_arg10 main_v289 ((extractStridedSlice S1x256x64 ![3, 0, 0] · slices_S4x256x64_S1x256x64_3_0_0) : (⟨S4x256x64, .f32⟩ : BufTy).Contents (Elt F) → (⟨S1x256x64, .f32⟩ : BufTy).Contents (Elt F)),
    StableHlo.reshape main_v289 main_v290 rfl shapeCasts_S1x256x64_S256x64,
    StableHlo.binary main_v257 main_v290 main_v291 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_v288 main_v291 main_v292 (addf : (⟨S50000x64, .f32⟩ : BufTy).Contents (Elt F) → (⟨S50000x64, .f32⟩ : BufTy).Contents (Elt F) → (⟨S50000x64, .f32⟩ : BufTy).Contents (Elt F)),
    StableHlo.unary main_arg11 main_v293 ((extractStridedSlice S1x64 ![3, 0] · slices_S4x64_S1x64_3_0) : (⟨S4x64, .f32⟩ : BufTy).Contents (Elt F) → (⟨S1x64, .f32⟩ : BufTy).Contents (Elt F)),
    StableHlo.reshape main_v293 main_v294 rfl shapeCasts_S1x64_S64,
    StableHlo.unary main_v294 main_v295 (broadcastInDim S1x64 ![1] bcast_S64_S1x64_1 : (⟨S64, .f32⟩ : BufTy).Contents (Elt F) → (⟨S1x64, .f32⟩ : BufTy).Contents (Elt F)),
    StableHlo.unary main_v295 main_v296 (broadcastInDim S50000x64 ![0, 1] bcast_S1x64_S50000x64_0_1 : (⟨S1x64, .f32⟩ : BufTy).Contents (Elt F) → (⟨S50000x64, .f32⟩ : BufTy).Contents (Elt F)),
    StableHlo.binary main_v292 main_v296 main_v297 (addf : (⟨S50000x64, .f32⟩ : BufTy).Contents (Elt F) → (⟨S50000x64, .f32⟩ : BufTy).Contents (Elt F) → (⟨S50000x64, .f32⟩ : BufTy).Contents (Elt F)) ]

/-- The references stretch HD carries: the arguments and the other stretches' results. -/
abbrev keepHD : List (Ref sig .tc) := [main_arg0, main_arg1, main_arg2, main_arg3, main_arg4, main_arg5, main_arg6, main_arg7, main_arg8, main_arg9, main_arg10, main_arg11, main_arg12, main_arg13, main_v10, main_v35, main_v62, main_v73, main_v100, main_v127, main_v138, main_v165, main_v192, main_v203, main_v230, main_v257]

theorem segHD_keep : (segHD : List (HloOp τ sig (Elt F))).Forall fun op =>
    ∃ y : Ref sig .tc, op.writes = {Proc.devRef (τ := τ) .tc y} ∧ y ∉ keepHD := by
  unfold segHD
  exact ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩⟩

end Cert.ReferenceIdeal.Hand

end
-- ==== Proof.Ref.PlumbL3.lean ====
import proofs.«148047_j37898791420018_1_alg».proof.Proof.Ref.SegA3
import proofs.«148047_j37898791420018_1_alg».proof.Proof.Ref.SegH3a
import proofs.«148047_j37898791420018_1_alg».proof.Proof.Ref.SegH3b
import proofs.«148047_j37898791420018_1_alg».proof.Proof.Ref.SegHD
import proofs.«148047_j37898791420018_1_alg».proof.Proof.Ref.ValueDefs
import proofs.«148047_j37898791420018_1_alg».proof.Proof.Ref.Run
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! Each stretch of @main read as ONE function of the buffers it starts from (the fold over its operations computed,
the result the named composed term of Ref/ValueDefs.lean), and what it leaves untouched. -/

set_option maxRecDepth 16384 in
set_option maxHeartbeats 4000000 in
/-- Stretch A3 read as one function of the buffers it starts from. -/
theorem plumb_A3 (W : Valuation τ sig (Elt Ideal)) :
    after (segA3 (F := Ideal)) W (no_index (Proc.devRef .tc main_v203))
      = aggRef256 (W (Proc.devRef .tc main_v192)) (W (Proc.devRef .tc main_arg12)) (W (Proc.devRef .tc main_arg13)) := by
  unfold segA3
  after_results_simp
  rfl

/-- Stretch A3 leaves the references it carries as they were. -/
theorem frame_A3 (W : Valuation τ sig (Elt Ideal)) {r : Ref sig .tc} (hr : r ∈ keepA3) :
    after (segA3 (F := Ideal)) W (no_index (Proc.devRef .tc r)) = W (Proc.devRef .tc r) :=
  after_keeps _ W segA3_keep hr

set_option maxRecDepth 16384 in
set_option maxHeartbeats 4000000 in
/-- Stretch H3a read as one function of the buffers it starts from. -/
theorem plumb_H3a (W : Valuation τ sig (Elt Ideal)) :
    after (segH3a (F := Ideal)) W (no_index (Proc.devRef .tc main_v230))
      = halfRef dot_S50000x256_S256x256_S50000x256_1_0_0_1_n_n (W (Proc.devRef .tc main_v203))
          (slabRef (n := 3) (W (Proc.devRef .tc main_arg2)) ![2, 0, 0] slices_S3x256x256_S1x256x256_2_0_0)
          (rowRef (W (Proc.devRef .tc main_arg4)) ![3, 0] slices_S4x256_S1x256_3_0)
          (rowRef (W (Proc.devRef .tc main_arg5)) ![3, 0] slices_S4x256_S1x256_3_0) := by
  unfold segH3a
  after_results_simp
  rfl

/-- Stretch H3a leaves the references it carries as they were. -/
theorem frame_H3a (W : Valuation τ sig (Elt Ideal)) {r : Ref sig .tc} (hr : r ∈ keepH3a) :
    after (segH3a (F := Ideal)) W (no_index (Proc.devRef .tc r)) = W (Proc.devRef .tc r) :=
  after_keeps _ W segH3a_keep hr

set_option maxRecDepth 16384 in
set_option maxHeartbeats 4000000 in
/-- Stretch H3b read as one function of the buffers it starts from. -/
theorem plumb_H3b (W : Valuation τ sig (Elt Ideal)) :
    after (segH3b (F := Ideal)) W (no_index (Proc.devRef .tc main_v257))
      = halfRef dot_S50000x256_S256x256_S50000x256_1_0_0_1_n_n (W (Proc.devRef .tc main_v230))
          (slabRef (n := 4) (W (Proc.devRef .tc main_arg3)) ![3, 0, 0] slices_S4x256x256_S1x256x256_3_0_0)
          (rowRef (W (Proc.devRef .tc main_arg6)) ![3, 0] slices_S4x256_S1x256_3_0)
          (rowRef (W (Proc.devRef .tc main_arg7)) ![3, 0] slices_S4x256_S1x256_3_0) := by
  unfold segH3b
  after_results_simp
  rfl

/-- Stretch H3b leaves the references it carries as they were. -/
theorem frame_H3b (W : Valuation τ sig (Elt Ideal)) {r : Ref sig .tc} (hr : r ∈ keepH3b) :
    after (segH3b (F := Ideal)) W (no_index (Proc.devRef .tc r)) = W (Proc.devRef .tc r) :=
  after_keeps _ W segH3b_keep hr

set_option maxRecDepth 16384 in
set_option maxHeartbeats 4000000 in
/-- Stretch HD read as one function of the buffers it starts from. -/
theorem plumb_HD (W : Valuation τ sig (Elt Ideal)) :
    after (segHD (F := Ideal)) W (no_index (Proc.devRef .tc main_v297))
      = headRef (W (Proc.devRef .tc main_arg0)) (W (Proc.devRef .tc main_v62)) (W (Proc.devRef .tc main_v127)) (W (Proc.devRef .tc main_v192)) (W (Proc.devRef .tc main_v257))
          (W (Proc.devRef .tc main_arg8)) (W (Proc.devRef .tc main_arg9)) (W (Proc.devRef .tc main_arg10)) (W (Proc.devRef .tc main_arg11)) := by
  unfold segHD
  after_results_simp
  rfl

/-- Stretch HD leaves the references it carries as they were. -/
theorem frame_HD (W : Valuation τ sig (Elt Ideal)) {r : Ref sig .tc} (hr : r ∈ keepHD) :
    after (segHD (F := Ideal)) W (no_index (Proc.devRef .tc r)) = W (Proc.devRef .tc r) :=
  after_keeps _ W segHD_keep hr

end Cert.ReferenceIdeal.Hand

end
-- ==== Proof.Ref.ValueMath.lean ====
import proofs.«148047_j37898791420018_1_alg».proof.Proof.Ref.ValueDefs
import proofs.«148047_j37898791420018_1_alg».proof.Proof.Spec
import proofs.«148047_j37898791420018_1_alg».proof.Proof.LibRealArith
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## The stretches read at an index -/

theorem bcCol_apply (v : FVec Ideal S256 .f32) (i : S50000x256.Idx) : bcCol v i = v (ix1 (i 1)) := by
  unfold bcCol
  refine (broadcastInDim_apply _ _ _ i (ix2 (0 : Fin 1) (i 1)) fun a => ?_).trans ?_
  · match a with
    | ⟨0, _⟩ => rfl
    | ⟨1, _⟩ => rfl
  · exact broadcastInDim_apply _ _ _ _ (ix1 (i 1)) fun a => match a with | ⟨0, _⟩ => rfl

theorem bcScalar_apply {t : Shape} {α : Type} (h : S_.BroadcastsInDim t (![] : Fin 0 → Fin t.rank)) (x : S_.Idx → α) (j : t.Idx) :
    broadcastInDim t ![] h x j = x ix0 :=
  broadcastInDim_apply _ _ _ j ix0 fun a => a.elim0

/-- The witness that summing [50000, 256] over axis 0 leaves [256], naming the inserted index. -/
theorem reduces_rows : S50000x256.Reduces [0] S256 := by decide

theorem colSum_apply (Z : FVec Ideal S50000x256 .f32) (j : S256.Idx) :
    Host.reduceAdd Z (constant (F := Ideal) S_ .f32 0x00000000#32) reducesTo_S50000x256_S256_d0 h_S_ j = ∑ r : Fin 50000, Z (ix2 r (j 0)) := by
  unfold Host.reduceAdd
  rw [Ideal.hostReduceAdd_def, Ideal.hostReduceAdd_single _ reduces_rows, constant_apply, Ideal.ofBits_zero_f32, zero_add]
  refine Finset.sum_congr rfl fun r _ => congrArg Z ?_
  exact Shape.idx_ext₂ rfl rfl

theorem meanRef_apply (Z : FVec Ideal S50000x256 .f32) (j : S256.Idx) : meanRef Z j = Spec.meanOf Z (j 0) := by
  unfold meanRef Host.divf
  rw [Ideal.hostDivf_def, colSum_apply, bcScalar_apply, constant_apply]
  rfl

theorem bcRow_apply {α : Type} (v : S1x256.Idx → α) (i : S50000x256.Idx) :
    broadcastInDim S50000x256 ![0, 1] bcast_S1x256_S50000x256_0_1 v i = v (ix2 (0 : Fin 1) (i 1)) :=
  broadcastInDim_apply _ _ _ i (ix2 (0 : Fin 1) (i 1)) fun a => match a with | ⟨0, _⟩ => rfl | ⟨1, _⟩ => rfl

theorem bcUp_apply {α : Type} (v : S256.Idx → α) (k : S1x256.Idx) :
    broadcastInDim S1x256 ![1] bcast_S256_S1x256_1 v k = v (ix1 (k 1)) :=
  broadcastInDim_apply _ _ _ k (ix1 (k 1)) fun a => match a with | ⟨0, _⟩ => rfl

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

/-- The integer 0 converts to the real 0. -/
theorem sitofp_zero : FloatOps.sitofp (F := Ideal) .f32 (0#32 : BitVec 32) = ((0 : ℝ) : EReal) := by
  show (((0#32 : BitVec 32).toInt : ℝ) : EReal) = ((0 : ℝ) : EReal)
  simp

/-- 50000 − 0 = 50000. -/
theorem cnt_sub_zero : Ideal.ofBits .f32 0x47435000#32 - FloatOps.sitofp (F := Ideal) .f32 (0#32 : BitVec 32) = Spec.cnt := by
  rw [sitofp_zero, EReal.coe_zero, sub_zero]; rfl

/-- @_var's guard 50000 − 0 > 0 is true. -/
theorem guard_true : FloatOps.cmpf (F := Ideal) (φ := .f32) .ogt
    (Ideal.ofBits .f32 0x47435000#32 - FloatOps.sitofp (F := Ideal) .f32 (0#32 : BitVec 32)) (Ideal.ofBits .f32 0x00000000#32) = 1#1 := by
  rw [Ideal.cmpf_def, sitofp_zero, Ideal.ofBits_zero_f32, Cert.Lib.RealArith.ofBits_50000]
  exact Cert.Lib.RealArith.cmp_ogt_50000

/-- The mean inside @_var (kept with a unit axis, then repeated down the rows) is the column mean again. -/
theorem innerMean_apply (Z : FVec Ideal S50000x256 .f32) (i : S50000x256.Idx) :
    broadcastInDim S50000x256 ![0, 1] bcast_S1x256_S50000x256_0_1
      (Host.divf (broadcastInDim S1x256 ![1] bcast_S256_S1x256_1
          (Host.reduceAdd Z (constant (F := Ideal) S_ .f32 0x00000000#32) reducesTo_S50000x256_S256_d0 h_S_))
        (broadcastInDim S1x256 ![] bcast_S_S1x256 (constant (F := Ideal) S_ .f32 0x47435000#32))) i
      = Spec.meanOf Z (i 1) := by
  rw [bcRow_apply, hostDivf_apply, bcUp_apply, colSum_apply, bcScalar_apply, constant_apply]
  rfl

theorem varRef_apply (Z : FVec Ideal S50000x256 .f32) (j : S256.Idx) :
    varRef Z (constantI S_ 32 0#32) j = Spec.varR Z (j 0) := by
  unfold varRef
  rw [select_apply, bcScalar_apply, cmpf_apply, subf_apply, sitofp_apply]
  simp only [constant_apply, constantI]
  rw [guard_true, select_one, hostDivf_apply, colSum_apply, bcScalar_apply, subf_apply, sitofp_apply]
  simp only [constant_apply, constantI]
  rw [cnt_sub_zero]
  unfold Spec.varR
  refine congrArg (fun s => Ideal.div s Spec.cnt) (Finset.sum_congr rfl fun r _ => ?_)
  rw [mulf_apply, subf_apply, innerMean_apply]

theorem bnReluRef_eq (Z : FVec Ideal S50000x256 .f32) (mean var g b : FVec Ideal S256 .f32) :
    bnReluRef Z mean var g b
      = Spec.bnrelu Z (fun c => mean (ix1 c)) (fun c => var (ix1 c)) (fun c => g (ix1 c)) (fun c => b (ix1 c)) := by
  funext i
  unfold bnReluRef Spec.bnrelu
  simp only [maximumf_apply, addf_apply, mulf_apply, subf_apply, bcCol_apply, hostRsqrt_apply]
  rw [bcScalar_apply, bcScalar_apply, constant_apply, constant_apply, Ideal.ofBits_zero_f32]
  rfl

/-! ## A product read as the matrix product -/

/-- A `dot_general` contracting the left operand's columns with the right operand's rows is the matrix product. -/
theorem dot_eq_mm {a k b : Nat} (d : DotDims ⟨2, ![a, k]⟩ ⟨2, ![k, b]⟩ ⟨2, ![a, b]⟩) (hr : d.contr.rank = 1)
    (hs : d.contr.size ⟨0, by omega⟩ = k)
    (hl : ∀ (j : (⟨2, ![a, b]⟩ : Shape).Idx) (q : d.contr.Idx), d.lhsIdx j q = ix2 (j 0) ((q ⟨0, by omega⟩).cast hs))
    (hrr : ∀ (j : (⟨2, ![a, b]⟩ : Shape).Idx) (q : d.contr.Idx), d.rhsIdx j q = ix2 ((q ⟨0, by omega⟩).cast hs) (j 1))
    (X : FVec Ideal ⟨2, ![a, k]⟩ .f32) (W : FVec Ideal ⟨2, ![k, b]⟩ .f32) :
    Host.dotGeneral d none X W = Spec.mm X W := by
  funext j
  show FloatOps.dotGeneral d none .single X W j = _
  rw [Ideal.dotGeneral_apply]
  unfold Spec.mm
  refine Fintype.sum_equiv (contrEquiv1 d k hr hs) _ _ fun q => ?_
  rw [hl, hrr]
  rfl

theorem dot0_eq (X : FVec Ideal S50000x128 .f32) (W : FVec Ideal S128x256 .f32) :
    Host.dotGeneral dot_S50000x128_S128x256_S50000x256_1_0_0_1_n_n none X W = Spec.mm X W :=
  dot_eq_mm _ rfl rfl (fun _ _ => by refine Shape.idx_ext₂ ?_ ?_ <;> rfl) (fun _ _ => by refine Shape.idx_ext₂ ?_ ?_ <;> rfl) X W

theorem dot1_eq (X : FVec Ideal S50000x256 .f32) (W : FVec Ideal S256x256 .f32) :
    Host.dotGeneral dot_S50000x256_S256x256_S50000x256_1_0_0_1_n_n none X W = Spec.mm X W :=
  dot_eq_mm _ rfl rfl (fun _ _ => by refine Shape.idx_ext₂ ?_ ?_ <;> rfl) (fun _ _ => by refine Shape.idx_ext₂ ?_ ?_ <;> rfl) X W

theorem dotH0_eq (X : FVec Ideal S50000x128 .f32) (W : FVec Ideal S128x64 .f32) :
    Host.dotGeneral dot_S50000x128_S128x64_S50000x64_1_0_0_1_n_n none X W = Spec.mm X W :=
  dot_eq_mm _ rfl rfl (fun _ _ => by refine Shape.idx_ext₂ ?_ ?_ <;> rfl) (fun _ _ => by refine Shape.idx_ext₂ ?_ ?_ <;> rfl) X W

theorem dotH_eq (X : FVec Ideal S50000x256 .f32) (W : FVec Ideal S256x64 .f32) :
    Host.dotGeneral dot_S50000x256_S256x64_S50000x64_1_0_0_1_n_n none X W = Spec.mm X W :=
  dot_eq_mm _ rfl rfl (fun _ _ => by refine Shape.idx_ext₂ ?_ ?_ <;> rfl) (fun _ _ => by refine Shape.idx_ext₂ ?_ ?_ <;> rfl) X W

/-! ## Parameter rows and weight slabs -/

theorem rowRef_apply (P : FVec Ideal S4x256 .f32) (i : Fin 4) (h : S4x256.Slices ![i.val, 0] S1x256) (j : S256.Idx) :
    rowRef P ![i.val, 0] h j = Spec.row P i (j 0) := by
  unfold rowRef Spec.row
  rw [shapeCast_dropUnit_apply]
  refine extractStridedSlice_apply _ _ _ _ (ix2 i (j 0)) fun a => ?_
  match a with
  | ⟨0, _⟩ => show i.val = i.val + 0; omega
  | ⟨1, _⟩ => show (j 0).val = 0 + (j 0).val; omega

/-- A unit slice of a stack reshaped to its matrix is that slab. -/
theorem slab_eq {α : Type} {n a b : Nat} (T : (⟨3, ![n, a, b]⟩ : Shape).Idx → α) (i : Fin n)
    (h : (⟨3, ![n, a, b]⟩ : Shape).Slices ![i.val, 0, 0] ⟨3, ![1, a, b]⟩)
    (h' : (⟨3, ![1, a, b]⟩ : Shape).ShapeCasts ⟨2, ![a, b]⟩) (j : (⟨2, ![a, b]⟩ : Shape).Idx) :
    shapeCast ⟨2, ![a, b]⟩ (extractStridedSlice ⟨3, ![1, a, b]⟩ ![i.val, 0, 0] T h) h' j = T (ix3 i (j 0) (j 1)) := by
  rw [shapeCast_dropUnit_apply]
  refine extractStridedSlice_apply _ _ _ _ (ix3 i (j 0) (j 1)) fun c => ?_
  match c with
  | ⟨0, _⟩ => show i.val = i.val + 0; omega
  | ⟨1, _⟩ => show (j 0).val = 0 + (j 0).val; omega
  | ⟨2, _⟩ => show (j 1).val = 0 + (j 1).val; omega

theorem slabRef_eq {n : Nat} (T : FVec Ideal ⟨3, ![n, 256, 256]⟩ .f32) (i : Fin n)
    (h : (⟨3, ![n, 256, 256]⟩ : Shape).Slices ![i.val, 0, 0] S1x256x256) : slabRef T ![i.val, 0, 0] h = Spec.slab T i :=
  funext fun j => slab_eq T i h _ j

theorem slabHRef_eq (T : FVec Ideal S4x256x64 .f32) (i : Fin 4) (h : S4x256x64.Slices ![i.val, 0, 0] S1x256x64) :
    slabHRef T ![i.val, 0, 0] h = Spec.slab T i :=
  funext fun j => slab_eq T i h _ j

theorem rowHRef_apply (P : FVec Ideal S4x64 .f32) (i : Fin 4) (h : S4x64.Slices ![i.val, 0] S1x64) (j : S64.Idx) :
    rowHRef P ![i.val, 0] h j = Spec.row P i (j 0) := by
  unfold rowHRef Spec.row
  rw [shapeCast_dropUnit_apply]
  refine extractStridedSlice_apply _ _ _ _ (ix2 i (j 0)) fun a => ?_
  match a with
  | ⟨0, _⟩ => show i.val = i.val + 0; omega
  | ⟨1, _⟩ => show (j 0).val = 0 + (j 0).val; omega

theorem bcCol64_apply (v : FVec Ideal S64 .f32) (i : S50000x64.Idx) : bcCol64 v i = v (ix1 (i 1)) := by
  unfold bcCol64
  refine (broadcastInDim_apply _ _ _ i (ix2 (0 : Fin 1) (i 1)) fun a => ?_).trans ?_
  · match a with
    | ⟨0, _⟩ => rfl
    | ⟨1, _⟩ => rfl
  · exact broadcastInDim_apply _ _ _ _ (ix1 (i 1)) fun a => match a with | ⟨0, _⟩ => rfl

/-! ## Half a layer, and the heads, as the specification writes them -/

theorem half_spec {k : Nat} (d : DotDims ⟨2, ![50000, k]⟩ ⟨2, ![k, 256]⟩ S50000x256)
    (hd : ∀ X W, Host.dotGeneral (F := Ideal) (φ₁ := .f32) (φ₂ := .f32) d none X W = Spec.mm X W)
    (X : FVec Ideal ⟨2, ![50000, k]⟩ .f32) (W : FVec Ideal ⟨2, ![k, 256]⟩ .f32) (G B : FVec Ideal S4x256 .f32) (i : Fin 4)
    (hg hb : S4x256.Slices ![i.val, 0] S1x256) :
    halfRef d X W (rowRef G ![i.val, 0] hg) (rowRef B ![i.val, 0] hb)
      = Spec.bnrelu (Spec.mm X W) (Spec.meanOf (Spec.mm X W)) (Spec.varR (Spec.mm X W)) (Spec.row G i) (Spec.row B i) := by
  have e1 : (fun c => meanRef (Spec.mm X W) (ix1 c)) = Spec.meanOf (Spec.mm X W) := funext fun c => meanRef_apply _ _
  have e2 : (fun c => varRef (Spec.mm X W) (constantI S_ 32 0#32) (ix1 c)) = Spec.varR (Spec.mm X W) :=
    funext fun c => varRef_apply _ _
  have e3 : (fun c => rowRef G ![i.val, 0] hg (ix1 c)) = Spec.row G i := funext fun c => rowRef_apply _ _ _ _
  have e4 : (fun c => rowRef B ![i.val, 0] hb (ix1 c)) = Spec.row B i := funext fun c => rowRef_apply _ _ _ _
  unfold halfRef
  rw [hd, bnReluRef_eq, e1, e2, e3, e4]

theorem headRef_eq (hh : FVec Ideal S50000x128 .f32) (x1 x2 x3 x4 : FVec Ideal S50000x256 .f32) (w0 : FVec Ideal S128x64 .f32)
    (c0 : FVec Ideal S64 .f32) (pW : FVec Ideal S4x256x64 .f32) (pb : FVec Ideal S4x64 .f32) :
    headRef hh x1 x2 x3 x4 w0 c0 pW pb
      = Spec.head hh x1 x2 x3 x4 w0 (Spec.vec c0) (Spec.slab pW 0) (Spec.slab pW 1) (Spec.slab pW 2) (Spec.slab pW 3)
          (Spec.row pb 0) (Spec.row pb 1) (Spec.row pb 2) (Spec.row pb 3) := by
  funext i
  unfold headRef Spec.head
  simp only [addf_apply, bcCol64_apply, dotH0_eq, dotH_eq]
  have s0 : slabHRef pW ![0, 0, 0] slices_S4x256x64_S1x256x64_0_0_0 = Spec.slab pW 0 := slabHRef_eq pW 0 _
  have s1 : slabHRef pW ![1, 0, 0] slices_S4x256x64_S1x256x64_1_0_0 = Spec.slab pW 1 := slabHRef_eq pW 1 _
  have s2 : slabHRef pW ![2, 0, 0] slices_S4x256x64_S1x256x64_2_0_0 = Spec.slab pW 2 := slabHRef_eq pW 2 _
  have s3 : slabHRef pW ![3, 0, 0] slices_S4x256x64_S1x256x64_3_0_0 = Spec.slab pW 3 := slabHRef_eq pW 3 _
  have r0 : ∀ j, rowHRef pb ![0, 0] slices_S4x64_S1x64_0_0 j = Spec.row pb 0 (j 0) := rowHRef_apply pb 0 _
  have r1 : ∀ j, rowHRef pb ![1, 0] slices_S4x64_S1x64_1_0 j = Spec.row pb 1 (j 0) := rowHRef_apply pb 1 _
  have r2 : ∀ j, rowHRef pb ![2, 0] slices_S4x64_S1x64_2_0 j = Spec.row pb 2 (j 0) := rowHRef_apply pb 2 _
  have r3 : ∀ j, rowHRef pb ![3, 0] slices_S4x64_S1x64_3_0 j = Spec.row pb 3 (j 0) := rowHRef_apply pb 3 _
  rw [s0, s1, s2, s3, r0, r1, r2, r3]
  rfl

end Cert.ReferenceIdeal.Hand

end
-- ==== Proof.Ref.ValueNet.lean ====
import proofs.«148047_j37898791420018_1_alg».proof.Proof.Ref.ValueMath

noncomputable section

open scoped BigOperators

namespace Cert.ReferenceIdeal.Hand

open Cert.ReferenceIdeal Cert.ReferenceIdeal.Gen Idealize.ShloMosaic Idealize.ShloMosaic.ValueIdx

/-! ## The whole reference as one function of its arguments -/

/-- Layer 0's output as @main composes it from the input. -/
def x1Ref (h : FVec Ideal S50000x128 .f32) (cW1 : FVec Ideal S128x256 .f32) (W2s : FVec Ideal S4x256x256 .f32)
    (g1 b1 g2 b2 : FVec Ideal S4x256 .f32) (src dst : IVec S800000 32) : FVec Ideal S50000x256 .f32 :=
  halfRef dot_S50000x256_S256x256_S50000x256_1_0_0_1_n_n
    (halfRef dot_S50000x128_S128x256_S50000x256_1_0_0_1_n_n (aggRef128 h src dst) cW1 (rowRef g1 ![0, 0] slices_S4x256_S1x256_0_0) (rowRef b1 ![0, 0] slices_S4x256_S1x256_0_0))
    (slabRef (n := 4) W2s ![0, 0, 0] slices_S4x256x256_S1x256x256_0_0_0) (rowRef g2 ![0, 0] slices_S4x256_S1x256_0_0) (rowRef b2 ![0, 0] slices_S4x256_S1x256_0_0)

/-- Layer 1's output as @main composes it from layer 0's. -/
def x2Ref (x : FVec Ideal S50000x256 .f32) (W1s : FVec Ideal S3x256x256 .f32) (W2s : FVec Ideal S4x256x256 .f32)
    (g1 b1 g2 b2 : FVec Ideal S4x256 .f32) (src dst : IVec S800000 32) : FVec Ideal S50000x256 .f32 :=
  halfRef dot_S50000x256_S256x256_S50000x256_1_0_0_1_n_n
    (halfRef dot_S50000x256_S256x256_S50000x256_1_0_0_1_n_n (aggRef256 x src dst) (slabRef (n := 3) W1s ![0, 0, 0] slices_S3x256x256_S1x256x256_0_0_0)
      (rowRef g1 ![1, 0] slices_S4x256_S1x256_1_0) (rowRef b1 ![1, 0] slices_S4x256_S1x256_1_0))
    (slabRef (n := 4) W2s ![1, 0, 0] slices_S4x256x256_S1x256x256_1_0_0) (rowRef g2 ![1, 0] slices_S4x256_S1x256_1_0) (rowRef b2 ![1, 0] slices_S4x256_S1x256_1_0)

/-- Layer 2's output as @main composes it from layer 1's. -/
def x3Ref (x : FVec Ideal S50000x256 .f32) (W1s : FVec Ideal S3x256x256 .f32) (W2s : FVec Ideal S4x256x256 .f32)
    (g1 b1 g2 b2 : FVec Ideal S4x256 .f32) (src dst : IVec S800000 32) : FVec Ideal S50000x256 .f32 :=
  halfRef dot_S50000x256_S256x256_S50000x256_1_0_0_1_n_n
    (halfRef dot_S50000x256_S256x256_S50000x256_1_0_0_1_n_n (aggRef256 x src dst) (slabRef (n := 3) W1s ![1, 0, 0] slices_S3x256x256_S1x256x256_1_0_0)
      (rowRef g1 ![2, 0] slices_S4x256_S1x256_2_0) (rowRef b1 ![2, 0] slices_S4x256_S1x256_2_0))
    (slabRef (n := 4) W2s ![2, 0, 0] slices_S4x256x256_S1x256x256_2_0_0) (rowRef g2 ![2, 0] slices_S4x256_S1x256_2_0) (rowRef b2 ![2, 0] slices_S4x256_S1x256_2_0)

/-- Layer 3's output as @main composes it from layer 2's. -/
def x4Ref (x : FVec Ideal S50000x256 .f32) (W1s : FVec Ideal S3x256x256 .f32) (W2s : FVec Ideal S4x256x256 .f32)
    (g1 b1 g2 b2 : FVec Ideal S4x256 .f32) (src dst : IVec S800000 32) : FVec Ideal S50000x256 .f32 :=
  halfRef dot_S50000x256_S256x256_S50000x256_1_0_0_1_n_n
    (halfRef dot_S50000x256_S256x256_S50000x256_1_0_0_1_n_n (aggRef256 x src dst) (slabRef (n := 3) W1s ![2, 0, 0] slices_S3x256x256_S1x256x256_2_0_0)
      (rowRef g1 ![3, 0] slices_S4x256_S1x256_3_0) (rowRef b1 ![3, 0] slices_S4x256_S1x256_3_0))
    (slabRef (n := 4) W2s ![3, 0, 0] slices_S4x256x256_S1x256x256_3_0_0) (rowRef g2 ![3, 0] slices_S4x256_S1x256_3_0) (rowRef b2 ![3, 0] slices_S4x256_S1x256_3_0)

/-- @main's result as one function of its fourteen arguments. -/
def netRef (h : FVec Ideal S50000x128 .f32) (cW1 : FVec Ideal S128x256 .f32) (W1s : FVec Ideal S3x256x256 .f32)
    (W2s : FVec Ideal S4x256x256 .f32) (g1 b1 g2 b2 : FVec Ideal S4x256 .f32) (p0W : FVec Ideal S128x64 .f32)
    (p0b : FVec Ideal S64 .f32) (pW : FVec Ideal S4x256x64 .f32) (pb : FVec Ideal S4x64 .f32) (src dst : IVec S800000 32) :
    FVec Ideal S50000x64 .f32 :=
  headRef h (x1Ref h cW1 W2s g1 b1 g2 b2 src dst)
    (x2Ref (x1Ref h cW1 W2s g1 b1 g2 b2 src dst) W1s W2s g1 b1 g2 b2 src dst)
    (x3Ref (x2Ref (x1Ref h cW1 W2s g1 b1 g2 b2 src dst) W1s W2s g1 b1 g2 b2 src dst) W1s W2s g1 b1 g2 b2 src dst)
    (x4Ref (x3Ref (x2Ref (x1Ref h cW1 W2s g1 b1 g2 b2 src dst) W1s W2s g1 b1 g2 b2 src dst) W1s W2s g1 b1 g2 b2 src dst)
      W1s W2s g1 b1 g2 b2 src dst)
    p0W p0b pW pb

/-! ## The whole reference is the specification's network at the reference's variance -/

theorem layer_spec {k : Nat} (d : DotDims ⟨2, ![50000, k]⟩ ⟨2, ![k, 256]⟩ S50000x256)
    (hd : ∀ X W, Host.dotGeneral (F := Ideal) (φ₁ := .f32) (φ₂ := .f32) d none X W = Spec.mm X W)
    (agg : FVec Ideal ⟨2, ![50000, k]⟩ .f32) (W1 : FVec Ideal ⟨2, ![k, 256]⟩ .f32) (W2 : FVec Ideal S256x256 .f32)
    (g1 b1 g2 b2 : FVec Ideal S4x256 .f32) (i : Fin 4) (h1 h2 h3 h4 : S4x256.Slices ![i.val, 0] S1x256) :
    halfRef dot_S50000x256_S256x256_S50000x256_1_0_0_1_n_n
        (halfRef d agg W1 (rowRef g1 ![i.val, 0] h1) (rowRef b1 ![i.val, 0] h2)) W2
        (rowRef g2 ![i.val, 0] h3) (rowRef b2 ![i.val, 0] h4)
      = Spec.layer Spec.varR agg W1 (Spec.row g1 i) (Spec.row b1 i) W2 (Spec.row g2 i) (Spec.row b2 i) := by
  rw [half_spec d hd, half_spec _ (fun X W => dot1_eq X W)]
  rfl

theorem x1Ref_eq (h : FVec Ideal S50000x128 .f32) (cW1 : FVec Ideal S128x256 .f32) (W2s : FVec Ideal S4x256x256 .f32)
    (g1 b1 g2 b2 : FVec Ideal S4x256 .f32) (src dst : IVec S800000 32) :
    x1Ref h cW1 W2s g1 b1 g2 b2 src dst
      = Spec.layer Spec.varR (aggRef128 h src dst) cW1 (Spec.row g1 0) (Spec.row b1 0) (Spec.slab W2s 0)
          (Spec.row g2 0) (Spec.row b2 0) := by
  have e2 : slabRef (n := 4) W2s ![0, 0, 0] slices_S4x256x256_S1x256x256_0_0_0 = Spec.slab W2s 0 := slabRef_eq W2s 0 _
  unfold x1Ref
  rw [e2]
  exact layer_spec _ (fun X W => dot0_eq X W) _ _ _ g1 b1 g2 b2 0 _ _ _ _

theorem x2Ref_eq (x : FVec Ideal S50000x256 .f32) (W1s : FVec Ideal S3x256x256 .f32) (W2s : FVec Ideal S4x256x256 .f32)
    (g1 b1 g2 b2 : FVec Ideal S4x256 .f32) (src dst : IVec S800000 32) :
    x2Ref x W1s W2s g1 b1 g2 b2 src dst
      = Spec.layer Spec.varR (aggRef256 x src dst) (Spec.slab W1s 0) (Spec.row g1 1) (Spec.row b1 1) (Spec.slab W2s 1)
          (Spec.row g2 1) (Spec.row b2 1) := by
  have e1 : slabRef (n := 3) W1s ![0, 0, 0] slices_S3x256x256_S1x256x256_0_0_0 = Spec.slab W1s 0 := slabRef_eq W1s 0 _
  have e2 : slabRef (n := 4) W2s ![1, 0, 0] slices_S4x256x256_S1x256x256_1_0_0 = Spec.slab W2s 1 := slabRef_eq W2s 1 _
  unfold x2Ref
  rw [e1, e2]
  exact layer_spec _ (fun X W => dot1_eq X W) _ _ _ g1 b1 g2 b2 1 _ _ _ _

theorem x3Ref_eq (x : FVec Ideal S50000x256 .f32) (W1s : FVec Ideal S3x256x256 .f32) (W2s : FVec Ideal S4x256x256 .f32)
    (g1 b1 g2 b2 : FVec Ideal S4x256 .f32) (src dst : IVec S800000 32) :
    x3Ref x W1s W2s g1 b1 g2 b2 src dst
      = Spec.layer Spec.varR (aggRef256 x src dst) (Spec.slab W1s 1) (Spec.row g1 2) (Spec.row b1 2) (Spec.slab W2s 2)
          (Spec.row g2 2) (Spec.row b2 2) := by
  have e1 : slabRef (n := 3) W1s ![1, 0, 0] slices_S3x256x256_S1x256x256_1_0_0 = Spec.slab W1s 1 := slabRef_eq W1s 1 _
  have e2 : slabRef (n := 4) W2s ![2, 0, 0] slices_S4x256x256_S1x256x256_2_0_0 = Spec.slab W2s 2 := slabRef_eq W2s 2 _
  unfold x3Ref
  rw [e1, e2]
  exact layer_spec _ (fun X W => dot1_eq X W) _ _ _ g1 b1 g2 b2 2 _ _ _ _

theorem x4Ref_eq (x : FVec Ideal S50000x256 .f32) (W1s : FVec Ideal S3x256x256 .f32) (W2s : FVec Ideal S4x256x256 .f32)
    (g1 b1 g2 b2 : FVec Ideal S4x256 .f32) (src dst : IVec S800000 32) :
    x4Ref x W1s W2s g1 b1 g2 b2 src dst
      = Spec.layer Spec.varR (aggRef256 x src dst) (Spec.slab W1s 2) (Spec.row g1 3) (Spec.row b1 3) (Spec.slab W2s 3)
          (Spec.row g2 3) (Spec.row b2 3) := by
  have e1 : slabRef (n := 3) W1s ![2, 0, 0] slices_S3x256x256_S1x256x256_2_0_0 = Spec.slab W1s 2 := slabRef_eq W1s 2 _
  have e2 : slabRef (n := 4) W2s ![3, 0, 0] slices_S4x256x256_S1x256x256_3_0_0 = Spec.slab W2s 3 := slabRef_eq W2s 3 _
  unfold x4Ref
  rw [e1, e2]
  exact layer_spec _ (fun X W => dot1_eq X W) _ _ _ g1 b1 g2 b2 3 _ _ _ _

theorem netRef_eq (h : FVec Ideal S50000x128 .f32) (cW1 : FVec Ideal S128x256 .f32) (W1s : FVec Ideal S3x256x256 .f32)
    (W2s : FVec Ideal S4x256x256 .f32) (g1 b1 g2 b2 : FVec Ideal S4x256 .f32) (p0W : FVec Ideal S128x64 .f32)
    (p0b : FVec Ideal S64 .f32) (pW : FVec Ideal S4x256x64 .f32) (pb : FVec Ideal S4x64 .f32) (src dst : IVec S800000 32) :
    netRef h cW1 W1s W2s g1 b1 g2 b2 p0W p0b pW pb src dst
      = Spec.net Spec.varR (fun x => aggRef128 x src dst) (fun x => aggRef256 x src dst) h cW1 W1s W2s g1 b1 g2 b2
          p0W p0b pW pb := by
  unfold netRef
  rw [headRef_eq, x4Ref_eq, x3Ref_eq, x2Ref_eq, x1Ref_eq]
  rfl

end Cert.ReferenceIdeal.Hand

end
-- ==== Proof.Ref.Value.lean ====
import proofs.«148047_j37898791420018_1_alg».proof.Proof.Ref.Run
import proofs.«148047_j37898791420018_1_alg».proof.Proof.Ref.PlumbL0
import proofs.«148047_j37898791420018_1_alg».proof.Proof.Ref.PlumbL1
import proofs.«148047_j37898791420018_1_alg».proof.Proof.Ref.PlumbL2
import proofs.«148047_j37898791420018_1_alg».proof.Proof.Ref.PlumbL3
import proofs.«148047_j37898791420018_1_alg».proof.Proof.Ref.ValueNet
import proofs.«148047_j37898791420018_1_alg».proof.Proof.Spec
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The run's result buffer is the specification's network -/

/-- The fold over two lines joined is the fold over the second from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

set_option maxRecDepth 100000 in
/-- @main's operations are the thirteen stretches in order. -/
theorem ops_segs : (ops : List (HloOp τ sig (Elt F)))
    = segA0 ++ (segH0a ++ (segH0b ++ (segA1 ++ (segH1a ++ (segH1b ++ (segA2 ++ (segH2a ++ (segH2b ++ (segA3 ++ (segH3a ++ (segH3b ++ (segHD)))))))))))) := by
  chain_rfl

set_option maxRecDepth 16384 in
set_option maxHeartbeats 4000000 in
/-- The result buffer after the run, as the one function of the arguments' launch contents. -/
theorem value_plumb (V : Valuation τ sig (Elt Ideal)) :
    after (ops (F := Ideal)) V (Proc.devRef .tc main_v297)
      = netRef (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) := by
  rw [ops_segs]
  simp only [after_append]
  simp (disch := decide) only [plumb_A0, plumb_H0a, plumb_H0b, plumb_A1, plumb_H1a, plumb_H1b, plumb_A2, plumb_H2a, plumb_H2b, plumb_A3, plumb_H3a, plumb_H3b, plumb_HD,
    frame_A0, frame_H0a, frame_H0b, frame_A1, frame_H1a, frame_H1b, frame_A2, frame_H2a, frame_H2b, frame_A3, frame_H3a, frame_H3b, frame_HD]
  rfl

/-- THE VALUE: after the run the result buffer holds the specification's network at the reference's variance, the
    two aggregations as @main prints them. -/
theorem value (m : (ℓ : Loc nD τ sig) → Buf (Elt Ideal) ℓ) (d : Dev nD) :
    after ops (launchContents m d) (Proc.devRef .tc main_v297)
      = Cert.Spec.net Cert.Spec.varR
          (fun x => aggRef128 x (m ((d.tc : Thread nD τ).loc main_arg12)) (m ((d.tc : Thread nD τ).loc main_arg13)))
          (fun x => aggRef256 x (m ((d.tc : Thread nD τ).loc main_arg12)) (m ((d.tc : Thread nD τ).loc main_arg13)))
          (m ((d.tc : Thread nD τ).loc main_arg0))
          (m ((d.tc : Thread nD τ).loc main_arg1))
          (m ((d.tc : Thread nD τ).loc main_arg2))
          (m ((d.tc : Thread nD τ).loc main_arg3))
          (m ((d.tc : Thread nD τ).loc main_arg4))
          (m ((d.tc : Thread nD τ).loc main_arg5))
          (m ((d.tc : Thread nD τ).loc main_arg6))
          (m ((d.tc : Thread nD τ).loc main_arg7))
          (m ((d.tc : Thread nD τ).loc main_arg8))
          (m ((d.tc : Thread nD τ).loc main_arg9))
          (m ((d.tc : Thread nD τ).loc main_arg10))
          (m ((d.tc : Thread nD τ).loc main_arg11)) :=
  (value_plumb (launchContents m d)).trans (netRef_eq _ _ _ _ _ _ _ _ _ _ _ _ _ _)

end Cert.ReferenceIdeal.Hand

end
-- ==== Proof.SpecLaws.lean ====
/-
  Laws of the specification: on arrays all of whose entries are real numbers, the two column
  variances agree (the mean of the squares minus the square of the mean IS the mean of the squared
  deviations), the variance is a nonnegative real, every operation of a layer keeps all entries
  real, and so a layer, and the whole network, is the same at the two variances.
-/
import proofs.«148047_j37898791420018_1_alg».proof.Proof.Spec
import proofs.«148047_j37898791420018_1_alg».proof.Proof.LibRealArith

open scoped BigOperators

namespace Cert.Spec

open Idealize.ShloMosaic Idealize.ShloMosaic.ValueIdx Cert.Lib.RealArith

/-- The row count both programs divide by is the real 50000. -/
theorem cnt_eq : cnt = ((50000 : ℝ) : EReal) := ofBits_50000

/-- The small constant added to a variance is a positive real. -/
theorem eps_pos : ∃ e : ℝ, 0 < e ∧ eps = (e : EReal) := ofBits_eps_pos

/-- An entry of an all-real array is a real. -/
theorem AllReal.isReal {ι : Type} {v : ι → EReal} (h : AllReal v) (i : ι) : IsReal (v i) := h i

/-- An array whose entries are all real is all-real. -/
theorem allReal_of_isReal {ι : Type} {v : ι → EReal} (h : ∀ i, IsReal (v i)) : AllReal v := h

/-- On an all-real array of 50000 rows the two column variances agree. -/
theorem varK_eq_varR {b : Nat} (M : Arr 50000 b) (hM : AllReal M) : varK M = varR M := by
  funext j
  have h := var_ereal (n := 50000) (by norm_num) 50000 (by norm_num)
    (fun r : Fin 50000 => M (ix2 r j)) (fun r => hM (ix2 r j))
  simp only [zero_add] at h
  simp only [varK, varR, meanOf, colsum, colsumsq, cnt_eq]
  exact h

/-- On an all-real array of 50000 rows each column variance is a nonnegative real. -/
theorem varR_nonneg {b : Nat} (M : Arr 50000 b) (hM : AllReal M) (j : Fin b) :
    ∃ v : ℝ, 0 ≤ v ∧ varR M j = (v : EReal) := by
  have h := var_ereal_isReal_nonneg (n := 50000) (by norm_num) 50000 (by norm_num)
    (fun r : Fin 50000 => M (ix2 r j)) (fun r => hM (ix2 r j))
  simp only [zero_add] at h
  simp only [varR, meanOf, colsum, cnt_eq]
  exact h

/-- The product of two all-real matrices is all-real. -/
theorem allReal_mm {a k b : Nat} (A : Arr a k) (B : Arr k b) (hA : AllReal A) (hB : AllReal B) :
    AllReal (mm A B) := fun i =>
  IsReal.sum _ _ fun j _ => (hA.isReal (ix2 (i 0) j)).mul (hB.isReal (ix2 j (i 1)))

/-- The column sums of an all-real matrix are real. -/
theorem allReal_colsum {a b : Nat} (M : Arr a b) (hM : AllReal M) : AllReal (colsum M) := fun j =>
  IsReal.sum _ _ fun r _ => hM.isReal (ix2 r j)

/-- The column means of an all-real matrix are real. -/
theorem allReal_meanOf {a b : Nat} (M : Arr a b) (hM : AllReal M) : AllReal (meanOf M) := fun j => by
  show IsReal (Ideal.div (colsum M j) cnt)
  rw [cnt_eq]
  exact IsReal.div_coe (by norm_num) (allReal_colsum M hM j)

/-- Normalising an all-real matrix by real means, nonnegative real variances and real affine
    parameters, then rectifying, gives an all-real matrix. -/
theorem allReal_bnrelu {a b : Nat} (M : Arr a b) (mean var g be : Vc b) (hM : AllReal M)
    (hmean : AllReal mean) (hvar : ∀ j, ∃ v : ℝ, 0 ≤ v ∧ var j = (v : EReal)) (hg : AllReal g)
    (hb : AllReal be) : AllReal (bnrelu M mean var g be) := fun i => by
  obtain ⟨e, he, hE⟩ := eps_pos
  obtain ⟨v, hv, hV⟩ := hvar (i 1)
  show IsReal (max ((M i - mean (i 1)) * Ideal.rsqrt (var (i 1) + eps) * g (i 1) + be (i 1)) 0)
  rw [hV, hE]
  exact ((((hM.isReal i).sub (hmean.isReal (i 1))).mul
    (IsReal.rsqrt_add_of_nonneg_of_pos hv he)).mul (hg.isReal (i 1))).add (hb.isReal (i 1))
    |>.max isReal_zero

/-- A row of an all-real table is all-real. -/
theorem allReal_row {n b : Nat} (P : Arr n b) (hP : AllReal P) (i : Fin n) : AllReal (row P i) :=
  fun j => hP (ix2 i j)

/-- A slab of an all-real stack is all-real. -/
theorem allReal_slab {n a b : Nat} (T : Stack n a b) (hT : AllReal T) (i : Fin n) :
    AllReal (slab T i) := fun j => hT (ix3 i (j 0) (j 1))

/-- A rank-1 all-real array is an all-real vector. -/
theorem allReal_vec {b : Nat} (p : (⟨1, ![b]⟩ : Shape).Idx → EReal) (hp : AllReal p) :
    AllReal (vec p) := fun j => hp (ix1 j)

/-- On all-real inputs a layer is the same at the two variances, and its output is all-real. -/
theorem layer_varK_eq {d : Nat} (agg : Arr 50000 d) (W1 : Arr d 256) (g1 b1 : Vc 256)
    (W2 : Arr 256 256) (g2 b2 : Vc 256) (hagg : AllReal agg) (hW1 : AllReal W1) (hg1 : AllReal g1)
    (hb1 : AllReal b1) (hW2 : AllReal W2) (hg2 : AllReal g2) (hb2 : AllReal b2) :
    layer varK agg W1 g1 b1 W2 g2 b2 = layer varR agg W1 g1 b1 W2 g2 b2
      ∧ AllReal (layer varR agg W1 g1 b1 W2 g2 b2) := by
  have hZ1 : AllReal (mm agg W1) := allReal_mm _ _ hagg hW1
  have hY1 : AllReal (bnrelu (mm agg W1) (meanOf (mm agg W1)) (varR (mm agg W1)) g1 b1) :=
    allReal_bnrelu _ _ _ _ _ hZ1 (allReal_meanOf _ hZ1) (varR_nonneg _ hZ1) hg1 hb1
  have hZ2 := allReal_mm _ _ hY1 hW2
  refine ⟨?_, ?_⟩
  · unfold layer
    rw [varK_eq_varR _ hZ1, varK_eq_varR _ hZ2]
  · unfold layer
    exact allReal_bnrelu _ _ _ _ _ hZ2 (allReal_meanOf _ hZ2) (varR_nonneg _ hZ2) hg2 hb2

/-- The linear heads over all-real inputs are all-real. -/
theorem allReal_head (h : Arr 50000 128) (x1 x2 x3 x4 : Arr 50000 256) (w0 : Arr 128 64)
    (c0 : Vc 64) (w1 w2 w3 w4 : Arr 256 64) (c1 c2 c3 c4 : Vc 64) (hh : AllReal h)
    (hx1 : AllReal x1) (hx2 : AllReal x2) (hx3 : AllReal x3) (hx4 : AllReal x4) (hw0 : AllReal w0)
    (hc0 : AllReal c0) (hw1 : AllReal w1) (hw2 : AllReal w2) (hw3 : AllReal w3) (hw4 : AllReal w4)
    (hc1 : AllReal c1) (hc2 : AllReal c2) (hc3 : AllReal c3) (hc4 : AllReal c4) :
    AllReal (head h x1 x2 x3 x4 w0 c0 w1 w2 w3 w4 c1 c2 c3 c4) := fun i => by
  have m0 := (allReal_mm h w0 hh hw0).isReal i
  have m1 := (allReal_mm x1 w1 hx1 hw1).isReal i
  have m2 := (allReal_mm x2 w2 hx2 hw2).isReal i
  have m3 := (allReal_mm x3 w3 hx3 hw3).isReal i
  have m4 := (allReal_mm x4 w4 hx4 hw4).isReal i
  exact ((((((((m0.add (hc0.isReal _)).add m1).add (hc1.isReal _)).add m2).add
    (hc2.isReal _)).add m3).add (hc3.isReal _)).add m4).add (hc4.isReal _)

section Net
variable (ag0 : Arr 50000 128 → Arr 50000 128) (ag : Arr 50000 256 → Arr 50000 256)
  (hag0 : ∀ x, AllReal x → AllReal (ag0 x)) (hag : ∀ x, AllReal x → AllReal (ag x))
  (h : Arr 50000 128) (cW1 : Arr 128 256) (W1s : Stack 3 256 256) (W2s : Stack 4 256 256)
  (g1 b1 g2 b2 : Arr 4 256)
  (hh : AllReal h) (hcW1 : AllReal cW1) (hW1s : AllReal W1s) (hW2s : AllReal W2s)
  (hg1 : AllReal g1) (hb1 : AllReal b1) (hg2 : AllReal g2) (hb2 : AllReal b2)

include hag0 hh hcW1 hW2s hg1 hb1 hg2 hb2 in
/-- The first layer's output is the same at the two variances, and all-real. -/
theorem x1_varK_eq :
    x1 varK ag0 h cW1 W2s g1 b1 g2 b2 = x1 varR ag0 h cW1 W2s g1 b1 g2 b2
      ∧ AllReal (x1 varR ag0 h cW1 W2s g1 b1 g2 b2) := by
  unfold x1
  exact layer_varK_eq _ _ _ _ _ _ _ (hag0 _ hh) hcW1 (allReal_row _ hg1 _) (allReal_row _ hb1 _)
    (allReal_slab _ hW2s _) (allReal_row _ hg2 _) (allReal_row _ hb2 _)

include hag0 hag hh hcW1 hW1s hW2s hg1 hb1 hg2 hb2 in
/-- The second layer's output is the same at the two variances, and all-real. -/
theorem x2_varK_eq :
    x2 varK ag0 ag h cW1 W1s W2s g1 b1 g2 b2 = x2 varR ag0 ag h cW1 W1s W2s g1 b1 g2 b2
      ∧ AllReal (x2 varR ag0 ag h cW1 W1s W2s g1 b1 g2 b2) := by
  have p := x1_varK_eq ag0 hag0 h cW1 W2s g1 b1 g2 b2 hh hcW1 hW2s hg1 hb1 hg2 hb2
  unfold x2
  rw [p.1]
  exact layer_varK_eq _ _ _ _ _ _ _ (hag _ p.2) (allReal_slab _ hW1s _) (allReal_row _ hg1 _)
    (allReal_row _ hb1 _) (allReal_slab _ hW2s _) (allReal_row _ hg2 _) (allReal_row _ hb2 _)

include hag0 hag hh hcW1 hW1s hW2s hg1 hb1 hg2 hb2 in
/-- The third layer's output is the same at the two variances, and all-real. -/
theorem x3_varK_eq :
    x3 varK ag0 ag h cW1 W1s W2s g1 b1 g2 b2 = x3 varR ag0 ag h cW1 W1s W2s g1 b1 g2 b2
      ∧ AllReal (x3 varR ag0 ag h cW1 W1s W2s g1 b1 g2 b2) := by
  have p := x2_varK_eq ag0 ag hag0 hag h cW1 W1s W2s g1 b1 g2 b2 hh hcW1 hW1s hW2s hg1 hb1 hg2 hb2
  unfold x3
  rw [p.1]
  exact layer_varK_eq _ _ _ _ _ _ _ (hag _ p.2) (allReal_slab _ hW1s _) (allReal_row _ hg1 _)
    (allReal_row _ hb1 _) (allReal_slab _ hW2s _) (allReal_row _ hg2 _) (allReal_row _ hb2 _)

include hag0 hag hh hcW1 hW1s hW2s hg1 hb1 hg2 hb2 in
/-- The fourth layer's output is the same at the two variances, and all-real. -/
theorem x4_varK_eq :
    x4 varK ag0 ag h cW1 W1s W2s g1 b1 g2 b2 = x4 varR ag0 ag h cW1 W1s W2s g1 b1 g2 b2
      ∧ AllReal (x4 varR ag0 ag h cW1 W1s W2s g1 b1 g2 b2) := by
  have p := x3_varK_eq ag0 ag hag0 hag h cW1 W1s W2s g1 b1 g2 b2 hh hcW1 hW1s hW2s hg1 hb1 hg2 hb2
  unfold x4
  rw [p.1]
  exact layer_varK_eq _ _ _ _ _ _ _ (hag _ p.2) (allReal_slab _ hW1s _) (allReal_row _ hg1 _)
    (allReal_row _ hb1 _) (allReal_slab _ hW2s _) (allReal_row _ hg2 _) (allReal_row _ hb2 _)

include hag0 hag hh hcW1 hW1s hW2s hg1 hb1 hg2 hb2 in
/-- On all-real inputs, with aggregations that keep arrays all-real, the whole network is the same
    at the two variances. -/
theorem net_varK_eq (p0W : Arr 128 64) (p0b : (⟨1, ![64]⟩ : Shape).Idx → EReal)
    (pW : Stack 4 256 64) (pb : Arr 4 64) :
    net varK ag0 ag h cW1 W1s W2s g1 b1 g2 b2 p0W p0b pW pb
      = net varR ag0 ag h cW1 W1s W2s g1 b1 g2 b2 p0W p0b pW pb := by
  unfold net
  rw [(x1_varK_eq ag0 hag0 h cW1 W2s g1 b1 g2 b2 hh hcW1 hW2s hg1 hb1 hg2 hb2).1,
    (x2_varK_eq ag0 ag hag0 hag h cW1 W1s W2s g1 b1 g2 b2 hh hcW1 hW1s hW2s hg1 hb1 hg2 hb2).1,
    (x3_varK_eq ag0 ag hag0 hag h cW1 W1s W2s g1 b1 g2 b2 hh hcW1 hW1s hW2s hg1 hb1 hg2 hb2).1,
    (x4_varK_eq ag0 ag hag0 hag h cW1 W1s W2s g1 b1 g2 b2 hh hcW1 hW1s hW2s hg1 hb1 hg2 hb2).1]

end Net

end Cert.Spec
-- ==== Proof.LibAggReal.lean ====
/-
  Realness through the two host operations of a neighbour aggregation, read exactly: a gather re-indexes its operand, an
  accumulating float scatter adds to each entry of its base the finite sum of the updates landing on it. So if the
  operand (the base, the updates) has only real entries, so has the result. General: any dimension records, any index words.
-/
import Idealize.ShloMosaic.PureOps.Ideal
import Idealize.ShloMosaic.PureOps.ShapeOps
import Idealize.ShloMosaic.PureOps.Contract
import proofs.«148047_j37898791420018_1_alg».proof.Proof.LibRealArith

noncomputable section

open scoped BigOperators

namespace Cert.Lib.AggReal

open Idealize.ShloMosaic Cert.Lib.RealArith

/-- A gather of an array of reals is an array of reals: each result entry IS an operand entry. -/
theorem isReal_gather {s si t : Shape} {w : Nat} (d : GatherDims s si t) (x : s.Idx → EReal) (idx : IVec si w)
    (hx : ∀ i, IsReal (x i)) (j : t.Idx) : IsReal (Host.gather d x idx j) :=
  hx _

/-- An accumulating scatter of real updates into a real base is real: base entry plus a finite sum of updates. -/
theorem isReal_scatterAdd {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

end Cert.Lib.AggReal

end
-- ==== Proof.AggBridge.lean ====
/-
  The neighbour aggregation keeps every entry real: it is the input plus an accumulating scatter, into zeros, of rows of
  the input gathered at the edge sources, so each entry is an input entry plus a finite sum of input entries.
-/
import proofs.«148047_j37898791420018_1_alg».proof.Proof.Ref.ValueDefs
import proofs.«148047_j37898791420018_1_alg».proof.Proof.SpecLaws
import proofs.«148047_j37898791420018_1_alg».proof.Proof.LibAggReal

noncomputable section

namespace Cert.Proof.AggBridge

open Idealize.ShloMosaic Cert.Spec Cert.Lib.RealArith Cert.Lib.AggReal
open Cert.ReferenceIdeal Cert.ReferenceIdeal.Hand

/-- The zero word is the real number zero. -/
theorem isReal_zero_word : IsReal (Ideal.ofBits .f32 0x00000000#32) := by
  rw [Ideal.ofBits_zero_f32]; exact isReal_zero

/-- The aggregation of a 128-wide array of reals is an array of reals. -/
theorem allReal_aggRef128 (x : Arr 50000 128) (src dst : IVec S800000 32) (hx : AllReal x) : AllReal (aggRef128 x src dst) := by
  intro i
  have h : IsReal (aggRef128 x src dst i) := by
    unfold aggRef128
    exact (hx.isReal i).add (isReal_scatterAdd _ _ _ _ (fun _ => isReal_zero_word) (isReal_gather _ _ _ (fun k => hx.isReal k)) i)
  exact h

/-- The aggregation of a 256-wide array of reals is an array of reals. -/
theorem allReal_aggRef256 (x : Arr 50000 256) (src dst : IVec S800000 32) (hx : AllReal x) : AllReal (aggRef256 x src dst) := by
  intro i
  have h : IsReal (aggRef256 x src dst i) := by
    unfold aggRef256
    exact (hx.isReal i).add (isReal_scatterAdd _ _ _ _ (fun _ => isReal_zero_word) (isReal_gather _ _ _ (fun k => hx.isReal k)) i)
  exact h

end Cert.Proof.AggBridge

end
-- ==== Proof.PreRealCore.lean ====
/-
  From the printed precondition to "every entry of a float array is a real number": the argument.

  The precondition compares, entry by entry, the absolute value of each float argument with the f32 pattern of
  +infinity (strictly less), reduces each comparison array to one bit by `and` over all axes, and conjoins the twelve
  bits. Read over the extended reals: +infinity's pattern denotes `⊤`; `max x (-x) < ⊤` holds exactly when `x` is
  neither `⊤` nor `⊥`, that is when `x` is (the coercion of) a real. So a bit being 1 gives a real at every index
  of its array (`allReal_of_finiteBit`, at any shape), and the conjunction being 1 gives all twelve bits
  (`finiteBits_of_fn`, at any fourteen arguments).
-/
import proofs.«148047_j37898791420018_1_alg».proof.Pre_finite_inputs
import proofs.«148047_j37898791420018_1_alg».proof.Proof.Spec
import Idealize.ShloMosaic.Lib.ReduceAll
import Idealize.ShloMosaic.Lib.ValueIdx
import Idealize.ShloMosaic.PureOps.Ideal
import Mathlib.Data.EReal.Basic

noncomputable section

namespace Cert.Proof.PreReal

open Idealize.ShloMosaic Cert.Pre_finite_inputs

/-- The scalar shape has a single index. -/
instance : Subsingleton S_.Idx := ⟨fun a b => funext fun d => d.elim0⟩

/-- The f32 pattern of +infinity denotes `⊤`. -/
theorem ofBits_inf : Ideal.ofBits .f32 0x7F800000#32 = (⊤ : EReal) := by
  simp [Ideal.ofBits, Ideal.ieee]

/-- An extended real whose absolute value is strictly below +infinity is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The printed all-finite bit of one float array: `|x| < +inf` entrywise, reduced by `and` over every axis. -/
def FiniteBit {s : Shape} {axes : List (Fin s.rank)} (hb : S_.BroadcastsInDim s (![] : Fin 0 → Fin s.rank))
    (hr : s.ReducesTo axes S_) (hu : 0 < S_.numel) (x : FVec Ideal s .f32) : Prop :=
  Host.reduce IntOp.andi (cmpf .olt (Host.absf x) (broadcastInDim s ![] hb (constant S_ .f32 0x7F800000#32)))
    (constantI S_ 1 1#1) hr hu ValueIdx.ix0 = 1#1

/-- If the printed all-finite bit of an array is 1, every entry of the array is a real number. -/
theorem allReal_of_finiteBit {s : Shape} {axes : List (Fin s.rank)}
    (hb : S_.BroadcastsInDim s (![] : Fin 0 → Fin s.rank)) (hr : s.ReducesTo axes S_) (hu : 0 < S_.numel)
    (x : FVec Ideal s .f32) (e : FiniteBit hb hr hu x) : Cert.Spec.AllReal x := by
  intro i
  have hi := Host.reduce_andi_all _ _ hr hu ValueIdx.ix0 e i
  exact real_of_abs_lt_inf (x i) hi

variable [Cert.Pre_finite_inputs.Facts]

/-- The printed precondition being all ones, at any fourteen arguments, gives each of its twelve all-finite bits:
    the result is the `and` of the twelve bits, and an `and` of one-bit words is 1 only when both are. -/
theorem finiteBits_of_fn
    (a0 : FVec Ideal S50000x128 .f32) (a1 : FVec Ideal S128x256 .f32) (a2 : FVec Ideal S3x256x256 .f32)
    (a3 : FVec Ideal S4x256x256 .f32) (a4 a5 a6 a7 : FVec Ideal S4x256 .f32) (a8 : FVec Ideal S128x64 .f32)
    (a9 : FVec Ideal S64 .f32) (a10 : FVec Ideal S4x256x64 .f32) (a11 : FVec Ideal S4x64 .f32)
    (a12 a13 : IVec S800000 32)
    (h : Cert.Pre_finite_inputs.fn (F := Ideal) a0 a1 a2 a3 a4 a5 a6 a7 a8 a9 a10 a11 a12 a13 = fun _ => 1#1) :
    FiniteBit Facts.bcast_S_S50000x128 Facts.reducesTo_S50000x128_S_d0_1 Facts.h_S_ a0 ∧
    FiniteBit Facts.bcast_S_S128x256 Facts.reducesTo_S128x256_S_d0_1 Facts.h_S_ a1 ∧
    FiniteBit Facts.bcast_S_S3x256x256 Facts.reducesTo_S3x256x256_S_d0_1_2 Facts.h_S_ a2 ∧
    FiniteBit Facts.bcast_S_S4x256x256 Facts.reducesTo_S4x256x256_S_d0_1_2 Facts.h_S_ a3 ∧
    FiniteBit Facts.bcast_S_S4x256 Facts.reducesTo_S4x256_S_d0_1 Facts.h_S_ a4 ∧
    FiniteBit Facts.bcast_S_S4x256 Facts.reducesTo_S4x256_S_d0_1 Facts.h_S_ a5 ∧
    FiniteBit Facts.bcast_S_S4x256 Facts.reducesTo_S4x256_S_d0_1 Facts.h_S_ a6 ∧
    FiniteBit Facts.bcast_S_S4x256 Facts.reducesTo_S4x256_S_d0_1 Facts.h_S_ a7 ∧
    FiniteBit Facts.bcast_S_S128x64 Facts.reducesTo_S128x64_S_d0_1 Facts.h_S_ a8 ∧
    FiniteBit Facts.bcast_S_S64 Facts.reducesTo_S64_S_d0 Facts.h_S_ a9 ∧
    FiniteBit Facts.bcast_S_S4x256x64 Facts.reducesTo_S4x256x64_S_d0_1_2 Facts.h_S_ a10 ∧
    FiniteBit Facts.bcast_S_S4x64 Facts.reducesTo_S4x64_S_d0_1 Facts.h_S_ a11 := by
  have h := congrFun h ValueIdx.ix0
  dsimp only [Cert.Pre_finite_inputs.fn, Cert.Pre_finite_inputs.fn_part1, Cert.Pre_finite_inputs.fn_part2,
    Cert.Pre_finite_inputs.fn_part3, andi] at h
  simp only [IntOp.andi_eq_one] at h
  obtain ⟨⟨⟨⟨⟨⟨⟨⟨⟨⟨⟨h0, h1⟩, h2⟩, h3⟩, h4⟩, h5⟩, h6⟩, h7⟩, h8⟩, h9⟩, h10⟩, h11⟩ := h
  exact ⟨h0, h1, h2, h3, h4, h5, h6, h7, h8, h9, h10, h11⟩

end Cert.Proof.PreReal

end
-- ==== Proof.PreReal.lean ====
/-
  Every entry of each of the twelve float arguments is a real number.

  The precondition, all ones on every device, gives the twelve all-finite bits of the program's own argument arrays
  (`finiteBits_of_fn` at those arrays), and each bit gives its array's entries as reals (`allReal_of_finiteBit`).
  Arguments 12 and 13 are integer index arrays and have no such fact.
-/
import proofs.«148047_j37898791420018_1_alg».proof.Defs
import proofs.«148047_j37898791420018_1_alg».proof.Proof.Gen.Pre_finite_inputs
import proofs.«148047_j37898791420018_1_alg».proof.Proof.Spec
import proofs.«148047_j37898791420018_1_alg».proof.Proof.PreRealCore

noncomputable section

namespace Cert.Proof.PreReal

open Idealize.ShloMosaic Idealize.SL.Sem Cert.Pre_finite_inputs

variable [Cert.Pre_finite_inputs.Facts]

/-- The precondition split into its twelve all-finite bits, one per float argument. -/
theorem bits (m : (ℓ : Loc Cert.KernelIdeal.nD Cert.KernelIdeal.τ Cert.KernelIdeal.sig) → Buf (Elt Ideal) ℓ) (hpre : Cert.Pre_KernelIdeal m) (c : Dev Cert.KernelIdeal.nD) :
    FiniteBit Facts.bcast_S_S50000x128 Facts.reducesTo_S50000x128_S_d0_1 Facts.h_S_ (m ((c.tc : Thread Cert.KernelIdeal.nD Cert.KernelIdeal.τ).loc Cert.KernelIdeal.main_arg0)) ∧
    FiniteBit Facts.bcast_S_S128x256 Facts.reducesTo_S128x256_S_d0_1 Facts.h_S_ (m ((c.tc : Thread Cert.KernelIdeal.nD Cert.KernelIdeal.τ).loc Cert.KernelIdeal.main_arg1)) ∧
    FiniteBit Facts.bcast_S_S3x256x256 Facts.reducesTo_S3x256x256_S_d0_1_2 Facts.h_S_ (m ((c.tc : Thread Cert.KernelIdeal.nD Cert.KernelIdeal.τ).loc Cert.KernelIdeal.main_arg2)) ∧
    FiniteBit Facts.bcast_S_S4x256x256 Facts.reducesTo_S4x256x256_S_d0_1_2 Facts.h_S_ (m ((c.tc : Thread Cert.KernelIdeal.nD Cert.KernelIdeal.τ).loc Cert.KernelIdeal.main_arg3)) ∧
    FiniteBit Facts.bcast_S_S4x256 Facts.reducesTo_S4x256_S_d0_1 Facts.h_S_ (m ((c.tc : Thread Cert.KernelIdeal.nD Cert.KernelIdeal.τ).loc Cert.KernelIdeal.main_arg4)) ∧
    FiniteBit Facts.bcast_S_S4x256 Facts.reducesTo_S4x256_S_d0_1 Facts.h_S_ (m ((c.tc : Thread Cert.KernelIdeal.nD Cert.KernelIdeal.τ).loc Cert.KernelIdeal.main_arg5)) ∧
    FiniteBit Facts.bcast_S_S4x256 Facts.reducesTo_S4x256_S_d0_1 Facts.h_S_ (m ((c.tc : Thread Cert.KernelIdeal.nD Cert.KernelIdeal.τ).loc Cert.KernelIdeal.main_arg6)) ∧
    FiniteBit Facts.bcast_S_S4x256 Facts.reducesTo_S4x256_S_d0_1 Facts.h_S_ (m ((c.tc : Thread Cert.KernelIdeal.nD Cert.KernelIdeal.τ).loc Cert.KernelIdeal.main_arg7)) ∧
    FiniteBit Facts.bcast_S_S128x64 Facts.reducesTo_S128x64_S_d0_1 Facts.h_S_ (m ((c.tc : Thread Cert.KernelIdeal.nD Cert.KernelIdeal.τ).loc Cert.KernelIdeal.main_arg8)) ∧
    FiniteBit Facts.bcast_S_S64 Facts.reducesTo_S64_S_d0 Facts.h_S_ (m ((c.tc : Thread Cert.KernelIdeal.nD Cert.KernelIdeal.τ).loc Cert.KernelIdeal.main_arg9)) ∧
    FiniteBit Facts.bcast_S_S4x256x64 Facts.reducesTo_S4x256x64_S_d0_1_2 Facts.h_S_ (m ((c.tc : Thread Cert.KernelIdeal.nD Cert.KernelIdeal.τ).loc Cert.KernelIdeal.main_arg10)) ∧
    FiniteBit Facts.bcast_S_S4x64 Facts.reducesTo_S4x64_S_d0_1 Facts.h_S_ (m ((c.tc : Thread Cert.KernelIdeal.nD Cert.KernelIdeal.τ).loc Cert.KernelIdeal.main_arg11)) :=
  finiteBits_of_fn _ _ _ _ _ _ _ _ _ _ _ _ _ _ (hpre c)

/-- Every entry of float argument 0 is a real number. -/
theorem real_arg0 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg0)) :=
  allReal_of_finiteBit _ _ _ _ (bits m hpre c).1

/-- Every entry of float argument 1 is a real number. -/
theorem real_arg1 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg1)) :=
  allReal_of_finiteBit _ _ _ _ (bits m hpre c).2.1

/-- Every entry of float argument 2 is a real number. -/
theorem real_arg2 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg2)) :=
  allReal_of_finiteBit _ _ _ _ (bits m hpre c).2.2.1

/-- Every entry of float argument 3 is a real number. -/
theorem real_arg3 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg3)) :=
  allReal_of_finiteBit _ _ _ _ (bits m hpre c).2.2.2.1

/-- Every entry of float argument 4 is a real number. -/
theorem real_arg4 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg4)) :=
  allReal_of_finiteBit _ _ _ _ (bits m hpre c).2.2.2.2.1

/-- Every entry of float argument 5 is a real number. -/
theorem real_arg5 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg5)) :=
  allReal_of_finiteBit _ _ _ _ (bits m hpre c).2.2.2.2.2.1

/-- Every entry of float argument 6 is a real number. -/
theorem real_arg6 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg6)) :=
  allReal_of_finiteBit _ _ _ _ (bits m hpre c).2.2.2.2.2.2.1

/-- Every entry of float argument 7 is a real number. -/
theorem real_arg7 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg7)) :=
  allReal_of_finiteBit _ _ _ _ (bits m hpre c).2.2.2.2.2.2.2.1

/-- Every entry of float argument 8 is a real number. -/
theorem real_arg8 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg8)) :=
  allReal_of_finiteBit _ _ _ _ (bits m hpre c).2.2.2.2.2.2.2.2.1

/-- Every entry of float argument 9 is a real number. -/
theorem real_arg9 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg9)) :=
  allReal_of_finiteBit _ _ _ _ (bits m hpre c).2.2.2.2.2.2.2.2.2.1

/-- Every entry of float argument 10 is a real number. -/
theorem real_arg10 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg10)) :=
  allReal_of_finiteBit _ _ _ _ (bits m hpre c).2.2.2.2.2.2.2.2.2.2.1

/-- Every entry of float argument 11 is a real number. -/
theorem real_arg11 (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.AllReal (m ((c.tc : Thread Cert.KernelIdeal.nD Cert.KernelIdeal.τ).loc Cert.KernelIdeal.main_arg11)) :=
  allReal_of_finiteBit _ _ _ _ (bits m hpre c).2.2.2.2.2.2.2.2.2.2.2

end Cert.Proof.PreReal

end
-- ==== Proof.Bridge.lean ====
/-
  The algebraic conjunct. Both programs, run from memories that agree on the fourteen arguments, end; the idealized
  kernel's result is the network at the kernel's column variance (mean of squares minus squared mean), the reference's is
  the same network at the reference's variance (mean of squared deviations), over the same aggregation. The precondition
  makes every float argument real; realness passes through the aggregation, the products, the means, and - the variance
  being a nonnegative real, so that variance plus the small constant is positive - through each normalisation; on real
  arrays the two variances are equal. So the two results are equal.
-/
import proofs.«148047_j37898791420018_1_alg».proof.Defs
import proofs.«148047_j37898791420018_1_alg».proof.Proof.Gen.Pre_finite_inputs
import proofs.«148047_j37898791420018_1_alg».proof.Proof.KI.Run
import proofs.«148047_j37898791420018_1_alg».proof.Proof.KI.ValDefs
import proofs.«148047_j37898791420018_1_alg».proof.Proof.Ref.Run
import proofs.«148047_j37898791420018_1_alg».proof.Proof.Ref.Value
import proofs.«148047_j37898791420018_1_alg».proof.Proof.SpecLaws
import proofs.«148047_j37898791420018_1_alg».proof.Proof.AggBridge
import proofs.«148047_j37898791420018_1_alg».proof.Proof.PreReal

noncomputable section

namespace Cert.Proof.Bridge

open Idealize.ShloMosaic Idealize.SL.Sem Cert.Spec

/-- The two programs print the same aggregation on 128 columns (each with its own copy of the same dimension records). -/
theorem agg128_eq (x : Arr 50000 128) (src dst : IVec Cert.KernelIdeal.S800000 32) :
    Cert.KernelIdeal.HandV.aggKer128 x src dst = Cert.ReferenceIdeal.Hand.aggRef128 x src dst := rfl
/-- And on 256 columns. -/
theorem agg256_eq (x : Arr 50000 256) (src dst : IVec Cert.KernelIdeal.S800000 32) :
    Cert.KernelIdeal.HandV.aggKer256 x src dst = Cert.ReferenceIdeal.Hand.aggRef256 x src dst := rfl

/-- The kernel program's result as the network at the kernel's variance: what the value chain through the thirteen
    regions and the host glue between them shows. -/
def KerValue : Prop :=
  ∀ (m : (ℓ : Loc Cert.KernelIdeal.nD Cert.KernelIdeal.τ Cert.KernelIdeal.sig) → Buf (Elt Ideal) ℓ) (c : Dev Cert.KernelIdeal.nD),
    Cert.KernelIdeal.Hand.W26 m c (Proc.devRef .tc Cert.KernelIdeal.main_v215)
      = Cert.Spec.net Cert.Spec.varK
        (fun x => Cert.KernelIdeal.HandV.aggKer128 x (m ((c.tc : Thread Cert.KernelIdeal.nD Cert.KernelIdeal.τ).loc Cert.KernelIdeal.main_arg12)) (m ((c.tc : Thread Cert.KernelIdeal.nD Cert.KernelIdeal.τ).loc Cert.KernelIdeal.main_arg13)))
        (fun x => Cert.KernelIdeal.HandV.aggKer256 x (m ((c.tc : Thread Cert.KernelIdeal.nD Cert.KernelIdeal.τ).loc Cert.KernelIdeal.main_arg12)) (m ((c.tc : Thread Cert.KernelIdeal.nD Cert.KernelIdeal.τ).loc Cert.KernelIdeal.main_arg13)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))

/-- The algebraic conjunct, from the kernel program's value. -/
theorem algebraic_of (hker : KerValue) : Cert.algebraic_KernelIdeal_ReferenceIdeal := by
  intro m g m' g' hpre hagree
  refine ⟨fun c => Cert.KernelIdeal.Hand.W26 m c (Proc.devRef .tc Cert.KernelIdeal.main_v215), Cert.KernelIdeal.Hand.run_result m g, ?_⟩
  refine (θ_run Cert.ReferenceIdeal.defs _ _).mono (fun r h c => ⟨(h c Cert.ReferenceIdeal.main_v297).trans ?_,
      (h c Cert.ReferenceIdeal.main_arg0).trans (Cert.ReferenceIdeal.Hand.kept_main_arg0 m' c),
      (h c Cert.ReferenceIdeal.main_arg1).trans (Cert.ReferenceIdeal.Hand.kept_main_arg1 m' c),
      (h c Cert.ReferenceIdeal.main_arg2).trans (Cert.ReferenceIdeal.Hand.kept_main_arg2 m' c),
      (h c Cert.ReferenceIdeal.main_arg3).trans (Cert.ReferenceIdeal.Hand.kept_main_arg3 m' c),
      (h c Cert.ReferenceIdeal.main_arg4).trans (Cert.ReferenceIdeal.Hand.kept_main_arg4 m' c),
      (h c Cert.ReferenceIdeal.main_arg5).trans (Cert.ReferenceIdeal.Hand.kept_main_arg5 m' c),
      (h c Cert.ReferenceIdeal.main_arg6).trans (Cert.ReferenceIdeal.Hand.kept_main_arg6 m' c),
      (h c Cert.ReferenceIdeal.main_arg7).trans (Cert.ReferenceIdeal.Hand.kept_main_arg7 m' c),
      (h c Cert.ReferenceIdeal.main_arg8).trans (Cert.ReferenceIdeal.Hand.kept_main_arg8 m' c),
      (h c Cert.ReferenceIdeal.main_arg9).trans (Cert.ReferenceIdeal.Hand.kept_main_arg9 m' c),
      (h c Cert.ReferenceIdeal.main_arg10).trans (Cert.ReferenceIdeal.Hand.kept_main_arg10 m' c),
      (h c Cert.ReferenceIdeal.main_arg11).trans (Cert.ReferenceIdeal.Hand.kept_main_arg11 m' c),
      (h c Cert.ReferenceIdeal.main_arg12).trans (Cert.ReferenceIdeal.Hand.kept_main_arg12 m' c),
      (h c Cert.ReferenceIdeal.main_arg13).trans (Cert.ReferenceIdeal.Hand.kept_main_arg13 m' c)⟩)
    (Cert.ReferenceIdeal.Hand.run_after m' g')
  obtain ⟨h0, h1, h2, h3, h4, h5, h6, h7, h8, h9, h10, h11, h12, h13⟩ := hagree c
  rw [Cert.ReferenceIdeal.Hand.value m' c, h0, h1, h2, h3, h4, h5, h6, h7, h8, h9, h10, h11, h12, h13]
  exact ((hker m c).trans (Cert.Spec.net_varK_eq
    (fun x => Cert.ReferenceIdeal.Hand.aggRef128 x (m ((c.tc : Thread Cert.KernelIdeal.nD Cert.KernelIdeal.τ).loc Cert.KernelIdeal.main_arg12)) (m ((c.tc : Thread Cert.KernelIdeal.nD Cert.KernelIdeal.τ).loc Cert.KernelIdeal.main_arg13)))
    (fun x => Cert.ReferenceIdeal.Hand.aggRef256 x (m ((c.tc : Thread Cert.KernelIdeal.nD Cert.KernelIdeal.τ).loc Cert.KernelIdeal.main_arg12)) (m ((c.tc : Thread Cert.KernelIdeal.nD Cert.KernelIdeal.τ).loc Cert.KernelIdeal.main_arg13)))
    (fun x hx => Cert.Proof.AggBridge.allReal_aggRef128 x _ _ hx)
    (fun x hx => Cert.Proof.AggBridge.allReal_aggRef256 x _ _ hx)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (Cert.Proof.PreReal.real_arg0 m hpre c) (Cert.Proof.PreReal.real_arg1 m hpre c) (Cert.Proof.PreReal.real_arg2 m hpre c) (Cert.Proof.PreReal.real_arg3 m hpre c) (Cert.Proof.PreReal.real_arg4 m hpre c) (Cert.Proof.PreReal.real_arg5 m hpre c) (Cert.Proof.PreReal.real_arg6 m hpre c) (Cert.Proof.PreReal.real_arg7 m hpre c)
    (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))).symm

end Cert.Proof.Bridge

end
-- ==== Proof.KI.ValHost0.lean ====
/-
  The host glue of layer 0 read over any buffer contents: what each buffer a region of the layer takes holds after the
  stretch that writes it, as a term of the buffers the stretch reads.
-/
import proofs.«148047_j37898791420018_1_alg».proof.Proof.Gen.KernelIdeal.Launch
import proofs.«148047_j37898791420018_1_alg».proof.Proof.Gen.KernelIdeal.Regions
import proofs.«148047_j37898791420018_1_alg».proof.Proof.Spec
import proofs.«148047_j37898791420018_1_alg».proof.Proof.LibRealArith
import proofs.«148047_j37898791420018_1_alg».proof.Proof.KI.ValDefs
import Idealize.ShloMosaic.Lib.StableHlo.Run
import Idealize.ShloMosaic.Lib.ValueLayout
import Idealize.ShloMosaic.Lib.ValueIdx

set_option maxRecDepth 16384

noncomputable section

namespace Cert.KernelIdeal.HandV

open Cert.KernelIdeal Cert.KernelIdeal.Gen
open Idealize.ShloMosaic Idealize.ShloMosaic.TcCoe Idealize.ShloMosaic.ValueIdx
open Cert.Spec (Arr Vc Stack)

variable (Wv : Valuation τ sig (Elt Ideal))

/-! ## Host stretch 0: the aggregation of the input and the first layer's second weights -/

set_option maxHeartbeats 4000000 in
theorem h0_agg : StableHlo.after hostOps0 Wv (Proc.devRef .tc main_v10)
    = aggKer128 (Wv (Proc.devRef .tc main_arg0)) (Wv (Proc.devRef .tc main_arg12)) (Wv (Proc.devRef .tc main_arg13)) := by
  after_results; rfl

set_option maxHeartbeats 4000000 in
theorem h0_w2 : (StableHlo.after hostOps0 Wv (Proc.devRef .tc main_v12) : Arr 256 256)
    = Cert.Spec.slab (Wv (Proc.devRef .tc main_arg3) : Stack 4 256 256) 0 := by
  refine arr_ext fun i j => ?_
  show StableHlo.after hostOps0 Wv (Proc.devRef .tc main_v12) (ix2 i j) = (Wv (Proc.devRef .tc main_arg3) : Stack 4 256 256) (ix3 0 i j)
  after_results
  exact slabmat_apply 0 _ _ _ 0 rfl i j

/-! ## Host stretch 1: mean and variance of the first product from its stats, the first normalisation's parameters -/

set_option maxHeartbeats 4000000 in
theorem h1_mean (j : Fin 256) : (StableHlo.after hostOps1 Wv (Proc.devRef .tc main_v24) : Arr 1 256) (ix2 0 j)
    = Ideal.div ((Wv (Proc.devRef .tc main_v13_1) : Arr 2 256) (ix2 0 j)) Cert.Spec.cnt := by
  after_results
  exact meanrow_apply 0 _ _ _ _ _ 0 rfl j

set_option maxHeartbeats 4000000 in
theorem h1_var (j : Fin 256) : (StableHlo.after hostOps1 Wv (Proc.devRef .tc main_v25) : Arr 1 256) (ix2 0 j)
    = Ideal.div ((Wv (Proc.devRef .tc main_v13_1) : Arr 2 256) (ix2 1 j)) Cert.Spec.cnt
      - Ideal.div ((Wv (Proc.devRef .tc main_v13_1) : Arr 2 256) (ix2 0 j)) Cert.Spec.cnt
        * Ideal.div ((Wv (Proc.devRef .tc main_v13_1) : Arr 2 256) (ix2 0 j)) Cert.Spec.cnt := by
  after_results
  exact varrow_apply _ _ _ _ _ _ j

set_option maxHeartbeats 4000000 in
theorem h1_g : Cert.Spec.row (StableHlo.after hostOps1 Wv (Proc.devRef .tc main_v28) : Arr 1 256) 0
    = Cert.Spec.row (Wv (Proc.devRef .tc main_arg4) : Arr 4 256) 0 := by
  funext j
  show StableHlo.after hostOps1 Wv (Proc.devRef .tc main_v28) (ix2 0 j) = (Wv (Proc.devRef .tc main_arg4) : Arr 4 256) (ix2 0 j)
  after_results
  exact parrow_apply 0 _ _ _ _ 0 rfl j

set_option maxHeartbeats 4000000 in
theorem h1_b : Cert.Spec.row (StableHlo.after hostOps1 Wv (Proc.devRef .tc main_v31) : Arr 1 256) 0
    = Cert.Spec.row (Wv (Proc.devRef .tc main_arg5) : Arr 4 256) 0 := by
  funext j
  show StableHlo.after hostOps1 Wv (Proc.devRef .tc main_v31) (ix2 0 j) = (Wv (Proc.devRef .tc main_arg5) : Arr 4 256) (ix2 0 j)
  after_results
  exact parrow_apply 0 _ _ _ _ 0 rfl j

/-! ## Host stretch 2: the same for the second product -/

set_option maxHeartbeats 4000000 in
theorem h2_mean (j : Fin 256) : (StableHlo.after hostOps2 Wv (Proc.devRef .tc main_v43) : Arr 1 256) (ix2 0 j)
    = Ideal.div ((Wv (Proc.devRef .tc main_v32_1) : Arr 2 256) (ix2 0 j)) Cert.Spec.cnt := by
  after_results
  exact meanrow_apply 0 _ _ _ _ _ 0 rfl j

set_option maxHeartbeats 4000000 in
theorem h2_var (j : Fin 256) : (StableHlo.after hostOps2 Wv (Proc.devRef .tc main_v44) : Arr 1 256) (ix2 0 j)
    = Ideal.div ((Wv (Proc.devRef .tc main_v32_1) : Arr 2 256) (ix2 1 j)) Cert.Spec.cnt
      - Ideal.div ((Wv (Proc.devRef .tc main_v32_1) : Arr 2 256) (ix2 0 j)) Cert.Spec.cnt
        * Ideal.div ((Wv (Proc.devRef .tc main_v32_1) : Arr 2 256) (ix2 0 j)) Cert.Spec.cnt := by
  after_results
  exact varrow_apply _ _ _ _ _ _ j

set_option maxHeartbeats 4000000 in
theorem h2_g : Cert.Spec.row (StableHlo.after hostOps2 Wv (Proc.devRef .tc main_v47) : Arr 1 256) 0
    = Cert.Spec.row (Wv (Proc.devRef .tc main_arg6) : Arr 4 256) 0 := by
  funext j
  show StableHlo.after hostOps2 Wv (Proc.devRef .tc main_v47) (ix2 0 j) = (Wv (Proc.devRef .tc main_arg6) : Arr 4 256) (ix2 0 j)
  after_results
  exact parrow_apply 0 _ _ _ _ 0 rfl j

set_option maxHeartbeats 4000000 in
theorem h2_b : Cert.Spec.row (StableHlo.after hostOps2 Wv (Proc.devRef .tc main_v50) : Arr 1 256) 0
    = Cert.Spec.row (Wv (Proc.devRef .tc main_arg7) : Arr 4 256) 0 := by
  funext j
  show StableHlo.after hostOps2 Wv (Proc.devRef .tc main_v50) (ix2 0 j) = (Wv (Proc.devRef .tc main_arg7) : Arr 4 256) (ix2 0 j)
  after_results
  exact parrow_apply 0 _ _ _ _ 0 rfl j

end Cert.KernelIdeal.HandV
end
-- ==== Proof.KI.ValCarry.lean ====
import proofs.«148047_j37898791420018_1_alg».proof.Proof.KI.Chain

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

/-! # Buffers carried unchanged between two boundaries of the kernel program's run

Boundary 0 is the launch memory, boundary 2K+1 the contents after host stretch K, boundary 2K+2 those after region K.
A buffer that no stretch in between writes, and that no region in between has as an output array, reads the same at
the later boundary as at the earlier one. -/

theorem carry_main_arg1_0_1 (c : Dev nD) : W1 m c (Proc.devRef .tc main_arg1) = W0 m c (Proc.devRef .tc main_arg1) :=
  calc W1 m c (Proc.devRef .tc main_arg1)
    _ = W0 m c (Proc.devRef .tc main_arg1) := StableHlo.after_of_writes_sub hostOps0 _ hostOps0_writes (by decide)

theorem carry_main_arg4_0_2 (c : Dev nD) : W2 m c (Proc.devRef .tc main_arg4) = W0 m c (Proc.devRef .tc main_arg4) :=
  calc W2 m c (Proc.devRef .tc main_arg4)
    _ = W1 m c (Proc.devRef .tc main_arg4) := W2_of_ne m c main_arg4 (by decide)
    _ = W0 m c (Proc.devRef .tc main_arg4) := StableHlo.after_of_writes_sub hostOps0 _ hostOps0_writes (by decide)

theorem carry_main_arg5_0_2 (c : Dev nD) : W2 m c (Proc.devRef .tc main_arg5) = W0 m c (Proc.devRef .tc main_arg5) :=
  calc W2 m c (Proc.devRef .tc main_arg5)
    _ = W1 m c (Proc.devRef .tc main_arg5) := W2_of_ne m c main_arg5 (by decide)
    _ = W0 m c (Proc.devRef .tc main_arg5) := StableHlo.after_of_writes_sub hostOps0 _ hostOps0_writes (by decide)

theorem carry_main_v12_1_3 (c : Dev nD) : W3 m c (Proc.devRef .tc main_v12) = W1 m c (Proc.devRef .tc main_v12) :=
  calc W3 m c (Proc.devRef .tc main_v12)
    _ = W2 m c (Proc.devRef .tc main_v12) := StableHlo.after_of_writes_sub hostOps1 _ hostOps1_writes (by decide)
    _ = W1 m c (Proc.devRef .tc main_v12) := W2_of_ne m c main_v12 (by decide)

theorem carry_main_v13_0_2_3 (c : Dev nD) : W3 m c (Proc.devRef .tc main_v13_0) = W2 m c (Proc.devRef .tc main_v13_0) :=
  calc W3 m c (Proc.devRef .tc main_v13_0)
    _ = W2 m c (Proc.devRef .tc main_v13_0) := StableHlo.after_of_writes_sub hostOps1 _ hostOps1_writes (by decide)

theorem carry_main_arg6_0_4 (c : Dev nD) : W4 m c (Proc.devRef .tc main_arg6) = W0 m c (Proc.devRef .tc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)

theorem carry_main_arg7_0_4 (c : Dev nD) : W4 m c (Proc.devRef .tc main_arg7) = W0 m c (Proc.devRef .tc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)

theorem carry_main_v32_0_4_5 (c : Dev nD) : W5 m c (Proc.devRef .tc main_v32_0) = W4 m c (Proc.devRef .tc main_v32_0) :=
  calc W5 m c (Proc.devRef .tc main_v32_0)
    _ = W4 m c (Proc.devRef .tc main_v32_0) := StableHlo.after_of_writes_sub hostOps2 _ hostOps2_writes (by decide)

theorem carry_main_arg12_0_6 (c : Dev nD) : W6 m c (Proc.devRef .tc main_arg12) = W0 m c (Proc.devRef .tc main_arg12) :=
  calc W6 m c (Proc.devRef .tc main_arg12)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)

theorem carry_main_arg13_0_6 (c : Dev nD) : W6 m c (Proc.devRef .tc main_arg13) = W0 m c (Proc.devRef .tc main_arg13) :=
  calc W6 m c (Proc.devRef .tc main_arg13)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)

theorem carry_main_arg2_0_6 (c : Dev nD) : W6 m c (Proc.devRef .tc main_arg2) = W0 m c (Proc.devRef .tc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)

theorem carry_main_arg3_0_6 (c : Dev nD) : W6 m c (Proc.devRef .tc main_arg3) = W0 m c (Proc.devRef .tc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)

theorem carry_main_arg4_0_8 (c : Dev nD) : W8 m c (Proc.devRef .tc main_arg4) = W0 m c (Proc.devRef .tc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)

theorem carry_main_arg5_0_8 (c : Dev nD) : W8 m c (Proc.devRef .tc main_arg5) = W0 m c (Proc.devRef .tc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)

theorem carry_main_v66_7_9 (c : Dev nD) : W9 m c (Proc.devRef .tc main_v66) = W7 m c (Proc.devRef .tc main_v66) :=
  calc W9 m c (Proc.devRef .tc main_v66)
    _ = W8 m c (Proc.devRef .tc main_v66) := StableHlo.after_of_writes_sub hostOps4 _ hostOps4_writes (by decide)
    _ = W7 m c (Proc.devRef .tc main_v66) := W8_of_ne m c main_v66 (by decide)

theorem carry_main_v67_0_8_9 (c : Dev nD) : W9 m c (Proc.devRef .tc main_v67_0) = W8 m c (Proc.devRef .tc main_v67_0) :=
  calc W9 m c (Proc.devRef .tc main_v67_0)
    _ = W8 m c (Proc.devRef .tc main_v67_0) := StableHlo.after_of_writes_sub hostOps4 _ hostOps4_writes (by decide)

theorem carry_main_arg6_0_10 (c : Dev nD) : W10 m c (Proc.devRef .tc main_arg6) = W0 m c (Proc.devRef .tc main_arg6) :=
  calc W10 m c (Proc.devRef .tc main_arg6)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)

theorem carry_main_arg7_0_10 (c : Dev nD) : W10 m c (Proc.devRef .tc main_arg7) = W0 m c (Proc.devRef .tc main_arg7) :=
  calc W10 m c (Proc.devRef .tc main_arg7)
    _ = W9 m c (Proc.devRef .tc main_arg7) := W10_of_ne m c main_arg7 (by decide)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)

theorem carry_main_v86_0_10_11 (c : Dev nD) : W11 m c (Proc.devRef .tc main_v86_0) = W10 m c (Proc.devRef .tc main_v86_0) :=
  calc W11 m c (Proc.devRef .tc main_v86_0)
    _ = W10 m c (Proc.devRef .tc main_v86_0) := StableHlo.after_of_writes_sub hostOps5 _ hostOps5_writes (by decide)

theorem carry_main_arg12_0_12 (c : Dev nD) : W12 m c (Proc.devRef .tc main_arg12) = W0 m c (Proc.devRef .tc main_arg12) :=
  calc W12 m c (Proc.devRef .tc main_arg12)
    _ = W11 m c (Proc.devRef .tc main_arg12) := W12_of_ne m c main_arg12 (by decide)
    _ = W10 m c (Proc.devRef .tc main_arg12) := StableHlo.after_of_writes_sub hostOps5 _ hostOps5_writes (by decide)
    _ = W9 m c (Proc.devRef .tc main_arg12) := W10_of_ne m c main_arg12 (by decide)
    _ = W8 m c (Proc.devRef .tc main_arg12) := StableHlo.after_of_writes_sub hostOps4 _ hostOps4_writes (by decide)
    _ = W7 m c (Proc.devRef .tc main_arg12) := W8_of_ne m c main_arg12 (by decide)
    _ = W6 m c (Proc.devRef .tc main_arg12) := StableHlo.after_of_writes_sub hostOps3 _ hostOps3_writes (by decide)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)

theorem carry_main_arg13_0_12 (c : Dev nD) : W12 m c (Proc.devRef .tc main_arg13) = W0 m c (Proc.devRef .tc main_arg13) :=
  calc W12 m c (Proc.devRef .tc main_arg13)
    _ = W11 m c (Proc.devRef .tc main_arg13) := W12_of_ne m c main_arg13 (by decide)
    _ = W10 m c (Proc.devRef .tc main_arg13) := StableHlo.after_of_writes_sub hostOps5 _ hostOps5_writes (by decide)
    _ = W9 m c (Proc.devRef .tc main_arg13) := W10_of_ne m c main_arg13 (by decide)
    _ = W8 m c (Proc.devRef .tc main_arg13) := StableHlo.after_of_writes_sub hostOps4 _ hostOps4_writes (by decide)
    _ = W7 m c (Proc.devRef .tc main_arg13) := W8_of_ne m c main_arg13 (by decide)
    _ = W6 m c (Proc.devRef .tc main_arg13) := StableHlo.after_of_writes_sub hostOps3 _ hostOps3_writes (by decide)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)

theorem carry_main_arg2_0_12 (c : Dev nD) : W12 m c (Proc.devRef .tc main_arg2) = W0 m c (Proc.devRef .tc main_arg2) :=
  calc W12 m c (Proc.devRef .tc main_arg2)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := W10_of_ne m c main_arg2 (by decide)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)

theorem carry_main_arg3_0_12 (c : Dev nD) : W12 m c (Proc.devRef .tc main_arg3) = W0 m c (Proc.devRef .tc main_arg3) :=
  calc W12 m c (Proc.devRef .tc main_arg3)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)

theorem carry_main_arg4_0_14 (c : Dev nD) : W14 m c (Proc.devRef .tc main_arg4) = W0 m c (Proc.devRef .tc main_arg4) :=
  calc W14 m c (Proc.devRef .tc main_arg4)
    _ = W13 m c (Proc.devRef .tc main_arg4) := W14_of_ne m c main_arg4 (by decide)
    _ = W12 m c (Proc.devRef .tc main_arg4) := StableHlo.after_of_writes_sub hostOps6 _ hostOps6_writes (by decide)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)

theorem carry_main_arg5_0_14 (c : Dev nD) : W14 m c (Proc.devRef .tc main_arg5) = W0 m c (Proc.devRef .tc main_arg5) :=
  calc W14 m c (Proc.devRef .tc main_arg5)
    _ = W13 m c (Proc.devRef .tc main_arg5) := W14_of_ne m c main_arg5 (by decide)
    _ = W12 m c (Proc.devRef .tc main_arg5) := StableHlo.after_of_writes_sub hostOps6 _ hostOps6_writes (by decide)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)

theorem carry_main_v120_13_15 (c : Dev nD) : W15 m c (Proc.devRef .tc main_v120) = W13 m c (Proc.devRef .tc main_v120) :=
  calc W15 m c (Proc.devRef .tc main_v120)
    _ = W14 m c (Proc.devRef .tc main_v120) := StableHlo.after_of_writes_sub hostOps7 _ hostOps7_writes (by decide)
    _ = W13 m c (Proc.devRef .tc main_v120) := W14_of_ne m c main_v120 (by decide)

theorem carry_main_v121_0_14_15 (c : Dev nD) : W15 m c (Proc.devRef .tc main_v121_0) = W14 m c (Proc.devRef .tc main_v121_0) :=
  calc W15 m c (Proc.devRef .tc main_v121_0)
    _ = W14 m c (Proc.devRef .tc main_v121_0) := StableHlo.after_of_writes_sub hostOps7 _ hostOps7_writes (by decide)

theorem carry_main_arg6_0_16 (c : Dev nD) : W16 m c (Proc.devRef .tc main_arg6) = W0 m c (Proc.devRef .tc main_arg6) :=
  calc W16 m c (Proc.devRef .tc main_arg6)
    _ = W15 m c (Proc.devRef .tc main_arg6) := W16_of_ne m c main_arg6 (by decide)
    _ = W14 m c (Proc.devRef .tc main_arg6) := StableHlo.after_of_writes_sub hostOps7 _ hostOps7_writes (by decide)
    _ = W13 m c (Proc.devRef .tc main_arg6) := W14_of_ne m c main_arg6 (by decide)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)

theorem carry_main_arg7_0_16 (c : Dev nD) : W16 m c (Proc.devRef .tc main_arg7) = W0 m c (Proc.devRef .tc main_arg7) :=
  calc W16 m c (Proc.devRef .tc main_arg7)
    _ = W15 m c (Proc.devRef .tc main_arg7) := W16_of_ne m c main_arg7 (by decide)
    _ = W14 m c (Proc.devRef .tc main_arg7) := StableHlo.after_of_writes_sub hostOps7 _ hostOps7_writes (by decide)
    _ = W13 m c (Proc.devRef .tc main_arg7) := W14_of_ne m c main_arg7 (by decide)
    _ = W12 m c (Proc.devRef .tc main_arg7) := StableHlo.after_of_writes_sub hostOps6 _ hostOps6_writes (by decide)
    _ = W11 m c (Proc.devRef .tc main_arg7) := W12_of_ne m c main_arg7 (by decide)
    _ = W10 m c (Proc.devRef .tc main_arg7) := StableHlo.after_of_writes_sub hostOps5 _ hostOps5_writes (by decide)
    _ = W9 m c (Proc.devRef .tc main_arg7) := W10_of_ne m c main_arg7 (by decide)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)

theorem carry_main_v140_0_16_17 (c : Dev nD) : W17 m c (Proc.devRef .tc main_v140_0) = W16 m c (Proc.devRef .tc main_v140_0) :=
  calc W17 m c (Proc.devRef .tc main_v140_0)
    _ = W16 m c (Proc.devRef .tc main_v140_0) := StableHlo.after_of_writes_sub hostOps8 _ hostOps8_writes (by decide)

theorem carry_main_arg12_0_18 (c : Dev nD) : W18 m c (Proc.devRef .tc main_arg12) = W0 m c (Proc.devRef .tc main_arg12) :=
  calc W18 m c (Proc.devRef .tc main_arg12)
    _ = W17 m c (Proc.devRef .tc main_arg12) := W18_of_ne m c main_arg12 (by decide)
    _ = W16 m c (Proc.devRef .tc main_arg12) := StableHlo.after_of_writes_sub hostOps8 _ hostOps8_writes (by decide)
    _ = W15 m c (Proc.devRef .tc main_arg12) := W16_of_ne m c main_arg12 (by decide)
    _ = W14 m c (Proc.devRef .tc main_arg12) := StableHlo.after_of_writes_sub hostOps7 _ hostOps7_writes (by decide)
    _ = W13 m c (Proc.devRef .tc main_arg12) := W14_of_ne m c main_arg12 (by decide)
    _ = W12 m c (Proc.devRef .tc main_arg12) := StableHlo.after_of_writes_sub hostOps6 _ hostOps6_writes (by decide)
    _ = W11 m c (Proc.devRef .tc main_arg12) := W12_of_ne m c main_arg12 (by decide)
    _ = W10 m c (Proc.devRef .tc main_arg12) := StableHlo.after_of_writes_sub hostOps5 _ hostOps5_writes (by decide)
    _ = W9 m c (Proc.devRef .tc main_arg12) := W10_of_ne m c main_arg12 (by decide)
    _ = W8 m c (Proc.devRef .tc main_arg12) := StableHlo.after_of_writes_sub hostOps4 _ hostOps4_writes (by decide)
    _ = W7 m c (Proc.devRef .tc main_arg12) := W8_of_ne m c main_arg12 (by decide)
    _ = W6 m c (Proc.devRef .tc main_arg12) := StableHlo.after_of_writes_sub hostOps3 _ hostOps3_writes (by decide)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)

theorem carry_main_arg13_0_18 (c : Dev nD) : W18 m c (Proc.devRef .tc main_arg13) = W0 m c (Proc.devRef .tc main_arg13) :=
  calc W18 m c (Proc.devRef .tc main_arg13)
    _ = W17 m c (Proc.devRef .tc main_arg13) := W18_of_ne m c main_arg13 (by decide)
    _ = W16 m c (Proc.devRef .tc main_arg13) := StableHlo.after_of_writes_sub hostOps8 _ hostOps8_writes (by decide)
    _ = W15 m c (Proc.devRef .tc main_arg13) := W16_of_ne m c main_arg13 (by decide)
    _ = W14 m c (Proc.devRef .tc main_arg13) := StableHlo.after_of_writes_sub hostOps7 _ hostOps7_writes (by decide)
    _ = W13 m c (Proc.devRef .tc main_arg13) := W14_of_ne m c main_arg13 (by decide)
    _ = W12 m c (Proc.devRef .tc main_arg13) := StableHlo.after_of_writes_sub hostOps6 _ hostOps6_writes (by decide)
    _ = W11 m c (Proc.devRef .tc main_arg13) := W12_of_ne m c main_arg13 (by decide)
    _ = W10 m c (Proc.devRef .tc main_arg13) := StableHlo.after_of_writes_sub hostOps5 _ hostOps5_writes (by decide)
    _ = W9 m c (Proc.devRef .tc main_arg13) := W10_of_ne m c main_arg13 (by decide)
    _ = W8 m c (Proc.devRef .tc main_arg13) := StableHlo.after_of_writes_sub hostOps4 _ hostOps4_writes (by decide)
    _ = W7 m c (Proc.devRef .tc main_arg13) := W8_of_ne m c main_arg13 (by decide)
    _ = W6 m c (Proc.devRef .tc main_arg13) := StableHlo.after_of_writes_sub hostOps3 _ hostOps3_writes (by decide)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)

theorem carry_main_arg2_0_18 (c : Dev nD) : W18 m c (Proc.devRef .tc main_arg2) = W0 m c (Proc.devRef .tc main_arg2) :=
  calc W18 m c (Proc.devRef .tc main_arg2)
    _ = W17 m c (Proc.devRef .tc main_arg2) := W18_of_ne m c main_arg2 (by decide)
    _ = W16 m c (Proc.devRef .tc main_arg2) := StableHlo.after_of_writes_sub hostOps8 _ hostOps8_writes (by decide)
    _ = W15 m c (Proc.devRef .tc main_arg2) := W16_of_ne m c main_arg2 (by decide)
    _ = W14 m c (Proc.devRef .tc main_arg2) := StableHlo.after_of_writes_sub hostOps7 _ hostOps7_writes (by decide)
    _ = W13 m c (Proc.devRef .tc main_arg2) := W14_of_ne m c main_arg2 (by decide)
    _ = W12 m c (Proc.devRef .tc main_arg2) := StableHlo.after_of_writes_sub hostOps6 _ hostOps6_writes (by decide)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := W10_of_ne m c main_arg2 (by decide)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)

theorem carry_main_arg3_0_18 (c : Dev nD) : W18 m c (Proc.devRef .tc main_arg3) = W0 m c (Proc.devRef .tc main_arg3) :=
  calc W18 m c (Proc.devRef .tc main_arg3)
    _ = W17 m c (Proc.devRef .tc main_arg3) := W18_of_ne m c main_arg3 (by decide)
    _ = W16 m c (Proc.devRef .tc main_arg3) := StableHlo.after_of_writes_sub hostOps8 _ hostOps8_writes (by decide)
    _ = W15 m c (Proc.devRef .tc main_arg3) := W16_of_ne m c main_arg3 (by decide)
    _ = W14 m c (Proc.devRef .tc main_arg3) := StableHlo.after_of_writes_sub hostOps7 _ hostOps7_writes (by decide)
    _ = W13 m c (Proc.devRef .tc main_arg3) := W14_of_ne m c main_arg3 (by decide)
    _ = W12 m c (Proc.devRef .tc main_arg3) := StableHlo.after_of_writes_sub hostOps6 _ hostOps6_writes (by decide)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)

theorem carry_main_arg4_0_20 (c : Dev nD) : W20 m c (Proc.devRef .tc main_arg4) = W0 m c (Proc.devRef .tc main_arg4) :=
  calc W20 m c (Proc.devRef .tc main_arg4)
    _ = W19 m c (Proc.devRef .tc main_arg4) := W20_of_ne m c main_arg4 (by decide)
    _ = W18 m c (Proc.devRef .tc main_arg4) := StableHlo.after_of_writes_sub hostOps9 _ hostOps9_writes (by decide)
    _ = W17 m c (Proc.devRef .tc main_arg4) := W18_of_ne m c main_arg4 (by decide)
    _ = W16 m c (Proc.devRef .tc main_arg4) := StableHlo.after_of_writes_sub hostOps8 _ hostOps8_writes (by decide)
    _ = W15 m c (Proc.devRef .tc main_arg4) := W16_of_ne m c main_arg4 (by decide)
    _ = W14 m c (Proc.devRef .tc main_arg4) := StableHlo.after_of_writes_sub hostOps7 _ hostOps7_writes (by decide)
    _ = W13 m c (Proc.devRef .tc main_arg4) := W14_of_ne m c main_arg4 (by decide)
    _ = W12 m c (Proc.devRef .tc main_arg4) := StableHlo.after_of_writes_sub hostOps6 _ hostOps6_writes (by decide)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)

theorem carry_main_arg5_0_20 (c : Dev nD) : W20 m c (Proc.devRef .tc main_arg5) = W0 m c (Proc.devRef .tc main_arg5) :=
  calc W20 m c (Proc.devRef .tc main_arg5)
    _ = W19 m c (Proc.devRef .tc main_arg5) := W20_of_ne m c main_arg5 (by decide)
    _ = W18 m c (Proc.devRef .tc main_arg5) := StableHlo.after_of_writes_sub hostOps9 _ hostOps9_writes (by decide)
    _ = W17 m c (Proc.devRef .tc main_arg5) := W18_of_ne m c main_arg5 (by decide)
    _ = W16 m c (Proc.devRef .tc main_arg5) := StableHlo.after_of_writes_sub hostOps8 _ hostOps8_writes (by decide)
    _ = W15 m c (Proc.devRef .tc main_arg5) := W16_of_ne m c main_arg5 (by decide)
    _ = W14 m c (Proc.devRef .tc main_arg5) := StableHlo.after_of_writes_sub hostOps7 _ hostOps7_writes (by decide)
    _ = W13 m c (Proc.devRef .tc main_arg5) := W14_of_ne m c main_arg5 (by decide)
    _ = W12 m c (Proc.devRef .tc main_arg5) := StableHlo.after_of_writes_sub hostOps6 _ hostOps6_writes (by decide)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)

theorem carry_main_v174_19_21 (c : Dev nD) : W21 m c (Proc.devRef .tc main_v174) = W19 m c (Proc.devRef .tc main_v174) :=
  calc W21 m c (Proc.devRef .tc main_v174)
    _ = W20 m c (Proc.devRef .tc main_v174) := StableHlo.after_of_writes_sub hostOps10 _ hostOps10_writes (by decide)
    _ = W19 m c (Proc.devRef .tc main_v174) := W20_of_ne m c main_v174 (by decide)

theorem carry_main_v175_0_20_21 (c : Dev nD) : W21 m c (Proc.devRef .tc main_v175_0) = W20 m c (Proc.devRef .tc main_v175_0) :=
  calc W21 m c (Proc.devRef .tc main_v175_0)
    _ = W20 m c (Proc.devRef .tc main_v175_0) := StableHlo.after_of_writes_sub hostOps10 _ hostOps10_writes (by decide)

theorem carry_main_arg6_0_22 (c : Dev nD) : W22 m c (Proc.devRef .tc main_arg6) = W0 m c (Proc.devRef .tc main_arg6) :=
  calc W22 m c (Proc.devRef .tc main_arg6)
    _ = W21 m c (Proc.devRef .tc main_arg6) := W22_of_ne m c main_arg6 (by decide)
    _ = W20 m c (Proc.devRef .tc main_arg6) := StableHlo.after_of_writes_sub hostOps10 _ hostOps10_writes (by decide)
    _ = W19 m c (Proc.devRef .tc main_arg6) := W20_of_ne m c main_arg6 (by decide)
    _ = W18 m c (Proc.devRef .tc main_arg6) := StableHlo.after_of_writes_sub hostOps9 _ hostOps9_writes (by decide)
    _ = W17 m c (Proc.devRef .tc main_arg6) := W18_of_ne m c main_arg6 (by decide)
    _ = W16 m c (Proc.devRef .tc main_arg6) := StableHlo.after_of_writes_sub hostOps8 _ hostOps8_writes (by decide)
    _ = W15 m c (Proc.devRef .tc main_arg6) := W16_of_ne m c main_arg6 (by decide)
    _ = W14 m c (Proc.devRef .tc main_arg6) := StableHlo.after_of_writes_sub hostOps7 _ hostOps7_writes (by decide)
    _ = W13 m c (Proc.devRef .tc main_arg6) := W14_of_ne m c main_arg6 (by decide)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)

theorem carry_main_arg7_0_22 (c : Dev nD) : W22 m c (Proc.devRef .tc main_arg7) = W0 m c (Proc.devRef .tc main_arg7) :=
  calc W22 m c (Proc.devRef .tc main_arg7)
    _ = W21 m c (Proc.devRef .tc main_arg7) := W22_of_ne m c main_arg7 (by decide)
    _ = W20 m c (Proc.devRef .tc main_arg7) := StableHlo.after_of_writes_sub hostOps10 _ hostOps10_writes (by decide)
    _ = W19 m c (Proc.devRef .tc main_arg7) := W20_of_ne m c main_arg7 (by decide)
    _ = W18 m c (Proc.devRef .tc main_arg7) := StableHlo.after_of_writes_sub hostOps9 _ hostOps9_writes (by decide)
    _ = W17 m c (Proc.devRef .tc main_arg7) := W18_of_ne m c main_arg7 (by decide)
    _ = W16 m c (Proc.devRef .tc main_arg7) := StableHlo.after_of_writes_sub hostOps8 _ hostOps8_writes (by decide)
    _ = W15 m c (Proc.devRef .tc main_arg7) := W16_of_ne m c main_arg7 (by decide)
    _ = W14 m c (Proc.devRef .tc main_arg7) := StableHlo.after_of_writes_sub hostOps7 _ hostOps7_writes (by decide)
    _ = W13 m c (Proc.devRef .tc main_arg7) := W14_of_ne m c main_arg7 (by decide)
    _ = W12 m c (Proc.devRef .tc main_arg7) := StableHlo.after_of_writes_sub hostOps6 _ hostOps6_writes (by decide)
    _ = W11 m c (Proc.devRef .tc main_arg7) := W12_of_ne m c main_arg7 (by decide)
    _ = W10 m c (Proc.devRef .tc main_arg7) := StableHlo.after_of_writes_sub hostOps5 _ hostOps5_writes (by decide)
    _ = W9 m c (Proc.devRef .tc main_arg7) := W10_of_ne m c main_arg7 (by decide)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)

theorem carry_main_v194_0_22_23 (c : Dev nD) : W23 m c (Proc.devRef .tc main_v194_0) = W22 m c (Proc.devRef .tc main_v194_0) :=
  calc W23 m c (Proc.devRef .tc main_v194_0)
    _ = W22 m c (Proc.devRef .tc main_v194_0) := StableHlo.after_of_writes_sub hostOps11 _ hostOps11_writes (by decide)

theorem carry_main_arg9_0_24 (c : Dev nD) : W24 m c (Proc.devRef .tc main_arg9) = W0 m c (Proc.devRef .tc main_arg9) :=
  calc W24 m c (Proc.devRef .tc main_arg9)
    _ = W23 m c (Proc.devRef .tc main_arg9) := W24_of_ne m c main_arg9 (by decide)
    _ = W22 m c (Proc.devRef .tc main_arg9) := StableHlo.after_of_writes_sub hostOps11 _ hostOps11_writes (by decide)
    _ = W21 m c (Proc.devRef .tc main_arg9) := W22_of_ne m c main_arg9 (by decide)
    _ = W20 m c (Proc.devRef .tc main_arg9) := StableHlo.after_of_writes_sub hostOps10 _ hostOps10_writes (by decide)
    _ = W19 m c (Proc.devRef .tc main_arg9) := W20_of_ne m c main_arg9 (by decide)
    _ = W18 m c (Proc.devRef .tc main_arg9) := StableHlo.after_of_writes_sub hostOps9 _ hostOps9_writes (by decide)
    _ = W17 m c (Proc.devRef .tc main_arg9) := W18_of_ne m c main_arg9 (by decide)
    _ = W16 m c (Proc.devRef .tc main_arg9) := StableHlo.after_of_writes_sub hostOps8 _ hostOps8_writes (by decide)
    _ = W15 m c (Proc.devRef .tc main_arg9) := W16_of_ne m c main_arg9 (by decide)
    _ = W14 m c (Proc.devRef .tc main_arg9) := StableHlo.after_of_writes_sub hostOps7 _ hostOps7_writes (by decide)
    _ = W13 m c (Proc.devRef .tc main_arg9) := W14_of_ne m c main_arg9 (by decide)
    _ = W12 m c (Proc.devRef .tc main_arg9) := StableHlo.after_of_writes_sub hostOps6 _ hostOps6_writes (by decide)
    _ = W11 m c (Proc.devRef .tc main_arg9) := W12_of_ne m c main_arg9 (by decide)
    _ = W10 m c (Proc.devRef .tc main_arg9) := StableHlo.after_of_writes_sub hostOps5 _ hostOps5_writes (by decide)
    _ = W9 m c (Proc.devRef .tc main_arg9) := W10_of_ne m c main_arg9 (by decide)
    _ = W8 m c (Proc.devRef .tc main_arg9) := StableHlo.after_of_writes_sub hostOps4 _ hostOps4_writes (by decide)
    _ = W7 m c (Proc.devRef .tc main_arg9) := W8_of_ne m c main_arg9 (by decide)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)

theorem carry_main_arg0_0_25 (c : Dev nD) : W25 m c (Proc.devRef .tc main_arg0) = W0 m c (Proc.devRef .tc main_arg0) :=
  calc W25 m c (Proc.devRef .tc main_arg0)
    _ = W24 m c (Proc.devRef .tc main_arg0) := StableHlo.after_of_writes_sub hostOps12 _ hostOps12_writes (by decide)
    _ = W23 m c (Proc.devRef .tc main_arg0) := W24_of_ne m c main_arg0 (by decide)
    _ = W22 m c (Proc.devRef .tc main_arg0) := StableHlo.after_of_writes_sub hostOps11 _ hostOps11_writes (by decide)
    _ = W21 m c (Proc.devRef .tc main_arg0) := W22_of_ne m c main_arg0 (by decide)
    _ = W20 m c (Proc.devRef .tc main_arg0) := StableHlo.after_of_writes_sub hostOps10 _ hostOps10_writes (by decide)
    _ = W19 m c (Proc.devRef .tc main_arg0) := W20_of_ne m c main_arg0 (by decide)
    _ = W18 m c (Proc.devRef .tc main_arg0) := StableHlo.after_of_writes_sub hostOps9 _ hostOps9_writes (by decide)
    _ = W17 m c (Proc.devRef .tc main_arg0) := W18_of_ne m c main_arg0 (by decide)
    _ = W16 m c (Proc.devRef .tc main_arg0) := StableHlo.after_of_writes_sub hostOps8 _ hostOps8_writes (by decide)
    _ = W15 m c (Proc.devRef .tc main_arg0) := W16_of_ne m c main_arg0 (by decide)
    _ = W14 m c (Proc.devRef .tc main_arg0) := StableHlo.after_of_writes_sub hostOps7 _ hostOps7_writes (by decide)
    _ = W13 m c (Proc.devRef .tc main_arg0) := W14_of_ne m c main_arg0 (by decide)
    _ = W12 m c (Proc.devRef .tc main_arg0) := StableHlo.after_of_writes_sub hostOps6 _ hostOps6_writes (by decide)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)

theorem carry_main_arg8_0_25 (c : Dev nD) : W25 m c (Proc.devRef .tc main_arg8) = W0 m c (Proc.devRef .tc main_arg8) :=
  calc W25 m c (Proc.devRef .tc main_arg8)
    _ = W24 m c (Proc.devRef .tc main_arg8) := StableHlo.after_of_writes_sub hostOps12 _ hostOps12_writes (by decide)
    _ = W23 m c (Proc.devRef .tc main_arg8) := W24_of_ne m c main_arg8 (by decide)
    _ = W22 m c (Proc.devRef .tc main_arg8) := StableHlo.after_of_writes_sub hostOps11 _ hostOps11_writes (by decide)
    _ = W21 m c (Proc.devRef .tc main_arg8) := W22_of_ne m c main_arg8 (by decide)
    _ = W20 m c (Proc.devRef .tc main_arg8) := StableHlo.after_of_writes_sub hostOps10 _ hostOps10_writes (by decide)
    _ = W19 m c (Proc.devRef .tc main_arg8) := W20_of_ne m c main_arg8 (by decide)
    _ = W18 m c (Proc.devRef .tc main_arg8) := StableHlo.after_of_writes_sub hostOps9 _ hostOps9_writes (by decide)
    _ = W17 m c (Proc.devRef .tc main_arg8) := W18_of_ne m c main_arg8 (by decide)
    _ = W16 m c (Proc.devRef .tc main_arg8) := StableHlo.after_of_writes_sub hostOps8 _ hostOps8_writes (by decide)
    _ = W15 m c (Proc.devRef .tc main_arg8) := W16_of_ne m c main_arg8 (by decide)
    _ = W14 m c (Proc.devRef .tc main_arg8) := StableHlo.after_of_writes_sub hostOps7 _ hostOps7_writes (by decide)
    _ = W13 m c (Proc.devRef .tc main_arg8) := W14_of_ne m c main_arg8 (by decide)
    _ = W12 m c (Proc.devRef .tc main_arg8) := StableHlo.after_of_writes_sub hostOps6 _ hostOps6_writes (by decide)
    _ = W11 m c (Proc.devRef .tc main_arg8) := W12_of_ne m c main_arg8 (by decide)
    _ = W10 m c (Proc.devRef .tc main_arg8) := StableHlo.after_of_writes_sub hostOps5 _ hostOps5_writes (by decide)
    _ = W9 m c (Proc.devRef .tc main_arg8) := W10_of_ne m c main_arg8 (by decide)
    _ = W8 m c (Proc.devRef .tc main_arg8) := StableHlo.after_of_writes_sub hostOps4 _ hostOps4_writes (by decide)
    _ = W7 m c (Proc.devRef .tc main_arg8) := W8_of_ne m c main_arg8 (by decide)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)

theorem carry_main_arg10_0_25 (c : Dev nD) : W25 m c (Proc.devRef .tc main_arg10) = W0 m c (Proc.devRef .tc main_arg10) :=
  calc W25 m c (Proc.devRef .tc main_arg10)
    _ = W24 m c (Proc.devRef .tc main_arg10) := StableHlo.after_of_writes_sub hostOps12 _ hostOps12_writes (by decide)
    _ = W23 m c (Proc.devRef .tc main_arg10) := W24_of_ne m c main_arg10 (by decide)
    _ = W22 m c (Proc.devRef .tc main_arg10) := StableHlo.after_of_writes_sub hostOps11 _ hostOps11_writes (by decide)
    _ = W21 m c (Proc.devRef .tc main_arg10) := W22_of_ne m c main_arg10 (by decide)
    _ = W20 m c (Proc.devRef .tc main_arg10) := StableHlo.after_of_writes_sub hostOps10 _ hostOps10_writes (by decide)
    _ = W19 m c (Proc.devRef .tc main_arg10) := W20_of_ne m c main_arg10 (by decide)
    _ = W18 m c (Proc.devRef .tc main_arg10) := StableHlo.after_of_writes_sub hostOps9 _ hostOps9_writes (by decide)
    _ = W17 m c (Proc.devRef .tc main_arg10) := W18_of_ne m c main_arg10 (by decide)
    _ = W16 m c (Proc.devRef .tc main_arg10) := StableHlo.after_of_writes_sub hostOps8 _ hostOps8_writes (by decide)
    _ = W15 m c (Proc.devRef .tc main_arg10) := W16_of_ne m c main_arg10 (by decide)
    _ = W14 m c (Proc.devRef .tc main_arg10) := StableHlo.after_of_writes_sub hostOps7 _ hostOps7_writes (by decide)
    _ = W13 m c (Proc.devRef .tc main_arg10) := W14_of_ne m c main_arg10 (by decide)
    _ = W12 m c (Proc.devRef .tc main_arg10) := StableHlo.after_of_writes_sub hostOps6 _ hostOps6_writes (by decide)
    _ = W11 m c (Proc.devRef .tc main_arg10) := W12_of_ne m c main_arg10 (by decide)
    _ = W10 m c (Proc.devRef .tc main_arg10) := StableHlo.after_of_writes_sub hostOps5 _ hostOps5_writes (by decide)
    _ = W9 m c (Proc.devRef .tc main_arg10) := W10_of_ne m c main_arg10 (by decide)
    _ = W8 m c (Proc.devRef .tc main_arg10) := StableHlo.after_of_writes_sub hostOps4 _ hostOps4_writes (by decide)
    _ = W7 m c (Proc.devRef .tc main_arg10) := W8_of_ne m c main_arg10 (by decide)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)

theorem carry_main_arg11_0_25 (c : Dev nD) : W25 m c (Proc.devRef .tc main_arg11) = W0 m c (Proc.devRef .tc main_arg11) :=
  calc W25 m c (Proc.devRef .tc main_arg11)
    _ = W24 m c (Proc.devRef .tc main_arg11) := StableHlo.after_of_writes_sub hostOps12 _ hostOps12_writes (by decide)
    _ = W23 m c (Proc.devRef .tc main_arg11) := W24_of_ne m c main_arg11 (by decide)
    _ = W22 m c (Proc.devRef .tc main_arg11) := StableHlo.after_of_writes_sub hostOps11 _ hostOps11_writes (by decide)
    _ = W21 m c (Proc.devRef .tc main_arg11) := W22_of_ne m c main_arg11 (by decide)
    _ = W20 m c (Proc.devRef .tc main_arg11) := StableHlo.after_of_writes_sub hostOps10 _ hostOps10_writes (by decide)
    _ = W19 m c (Proc.devRef .tc main_arg11) := W20_of_ne m c main_arg11 (by decide)
    _ = W18 m c (Proc.devRef .tc main_arg11) := StableHlo.after_of_writes_sub hostOps9 _ hostOps9_writes (by decide)
    _ = W17 m c (Proc.devRef .tc main_arg11) := W18_of_ne m c main_arg11 (by decide)
    _ = W16 m c (Proc.devRef .tc main_arg11) := StableHlo.after_of_writes_sub hostOps8 _ hostOps8_writes (by decide)
    _ = W15 m c (Proc.devRef .tc main_arg11) := W16_of_ne m c main_arg11 (by decide)
    _ = W14 m c (Proc.devRef .tc main_arg11) := StableHlo.after_of_writes_sub hostOps7 _ hostOps7_writes (by decide)
    _ = W13 m c (Proc.devRef .tc main_arg11) := W14_of_ne m c main_arg11 (by decide)
    _ = W12 m c (Proc.devRef .tc main_arg11) := StableHlo.after_of_writes_sub hostOps6 _ hostOps6_writes (by decide)
    _ = W11 m c (Proc.devRef .tc main_arg11) := W12_of_ne m c main_arg11 (by decide)
    _ = W10 m c (Proc.devRef .tc main_arg11) := StableHlo.after_of_writes_sub hostOps5 _ hostOps5_writes (by decide)
    _ = W9 m c (Proc.devRef .tc main_arg11) := W10_of_ne m c main_arg11 (by decide)
    _ = W8 m c (Proc.devRef .tc main_arg11) := StableHlo.after_of_writes_sub hostOps4 _ hostOps4_writes (by decide)
    _ = W7 m c (Proc.devRef .tc main_arg11) := W8_of_ne m c main_arg11 (by decide)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)

theorem carry_main_v51_6_25 (c : Dev nD) : W25 m c (Proc.devRef .tc main_v51) = W6 m c (Proc.devRef .tc main_v51) :=
  calc W25 m c (Proc.devRef .tc main_v51)
    _ = W24 m c (Proc.devRef .tc main_v51) := StableHlo.after_of_writes_sub hostOps12 _ hostOps12_writes (by decide)
    _ = W23 m c (Proc.devRef .tc main_v51) := W24_of_ne m c main_v51 (by decide)
    _ = W22 m c (Proc.devRef .tc main_v51) := StableHlo.after_of_writes_sub hostOps11 _ hostOps11_writes (by decide)
    _ = W21 m c (Proc.devRef .tc main_v51) := W22_of_ne m c main_v51 (by decide)
    _ = W20 m c (Proc.devRef .tc main_v51) := StableHlo.after_of_writes_sub hostOps10 _ hostOps10_writes (by decide)
    _ = W19 m c (Proc.devRef .tc main_v51) := W20_of_ne m c main_v51 (by decide)
    _ = W18 m c (Proc.devRef .tc main_v51) := StableHlo.after_of_writes_sub hostOps9 _ hostOps9_writes (by decide)
    _ = W17 m c (Proc.devRef .tc main_v51) := W18_of_ne m c main_v51 (by decide)
    _ = W16 m c (Proc.devRef .tc main_v51) := StableHlo.after_of_writes_sub hostOps8 _ hostOps8_writes (by decide)
    _ = W15 m c (Proc.devRef .tc main_v51) := W16_of_ne m c main_v51 (by decide)
    _ = W14 m c (Proc.devRef .tc main_v51) := StableHlo.after_of_writes_sub hostOps7 _ hostOps7_writes (by decide)
    _ = W13 m c (Proc.devRef .tc main_v51) := W14_of_ne m c main_v51 (by decide)
    _ = W12 m c (Proc.devRef .tc main_v51) := StableHlo.after_of_writes_sub hostOps6 _ hostOps6_writes (by decide)
    _ = W11 m c (Proc.devRef .tc main_v51) := W12_of_ne m c main_v51 (by decide)
    _ = W10 m c (Proc.devRef .tc main_v51) := StableHlo.after_of_writes_sub hostOps5 _ hostOps5_writes (by decide)
    _ = W9 m c (Proc.devRef .tc main_v51) := W10_of_ne m c main_v51 (by decide)
    _ = W8 m c (Proc.devRef .tc main_v51) := StableHlo.after_of_writes_sub hostOps4 _ hostOps4_writes (by decide)
    _ = W7 m c (Proc.devRef .tc main_v51) := W8_of_ne m c main_v51 (by decide)
    _ = W6 m c (Proc.devRef .tc main_v51) := StableHlo.after_of_writes_sub hostOps3 _ hostOps3_writes (by decide)

theorem carry_main_v105_12_25 (c : Dev nD) : W25 m c (Proc.devRef .tc main_v105) = W12 m c (Proc.devRef .tc main_v105) :=
  calc W25 m c (Proc.devRef .tc main_v105)
    _ = W24 m c (Proc.devRef .tc main_v105) := StableHlo.after_of_writes_sub hostOps12 _ hostOps12_writes (by decide)
    _ = W23 m c (Proc.devRef .tc main_v105) := W24_of_ne m c main_v105 (by decide)
    _ = W22 m c (Proc.devRef .tc main_v105) := StableHlo.after_of_writes_sub hostOps11 _ hostOps11_writes (by decide)
    _ = W21 m c (Proc.devRef .tc main_v105) := W22_of_ne m c main_v105 (by decide)
    _ = W20 m c (Proc.devRef .tc main_v105) := StableHlo.after_of_writes_sub hostOps10 _ hostOps10_writes (by decide)
    _ = W19 m c (Proc.devRef .tc main_v105) := W20_of_ne m c main_v105 (by decide)
    _ = W18 m c (Proc.devRef .tc main_v105) := StableHlo.after_of_writes_sub hostOps9 _ hostOps9_writes (by decide)
    _ = W17 m c (Proc.devRef .tc main_v105) := W18_of_ne m c main_v105 (by decide)
    _ = W16 m c (Proc.devRef .tc main_v105) := StableHlo.after_of_writes_sub hostOps8 _ hostOps8_writes (by decide)
    _ = W15 m c (Proc.devRef .tc main_v105) := W16_of_ne m c main_v105 (by decide)
    _ = W14 m c (Proc.devRef .tc main_v105) := StableHlo.after_of_writes_sub hostOps7 _ hostOps7_writes (by decide)
    _ = W13 m c (Proc.devRef .tc main_v105) := W14_of_ne m c main_v105 (by decide)
    _ = W12 m c (Proc.devRef .tc main_v105) := StableHlo.after_of_writes_sub hostOps6 _ hostOps6_writes (by decide)

theorem carry_main_v159_18_25 (c : Dev nD) : W25 m c (Proc.devRef .tc main_v159) = W18 m c (Proc.devRef .tc main_v159) :=
  calc W25 m c (Proc.devRef .tc main_v159)
    _ = W24 m c (Proc.devRef .tc main_v159) := StableHlo.after_of_writes_sub hostOps12 _ hostOps12_writes (by decide)
    _ = W23 m c (Proc.devRef .tc main_v159) := W24_of_ne m c main_v159 (by decide)
    _ = W22 m c (Proc.devRef .tc main_v159) := StableHlo.after_of_writes_sub hostOps11 _ hostOps11_writes (by decide)
    _ = W21 m c (Proc.devRef .tc main_v159) := W22_of_ne m c main_v159 (by decide)
    _ = W20 m c (Proc.devRef .tc main_v159) := StableHlo.after_of_writes_sub hostOps10 _ hostOps10_writes (by decide)
    _ = W19 m c (Proc.devRef .tc main_v159) := W20_of_ne m c main_v159 (by decide)
    _ = W18 m c (Proc.devRef .tc main_v159) := StableHlo.after_of_writes_sub hostOps9 _ hostOps9_writes (by decide)

theorem carry_main_v213_24_25 (c : Dev nD) : W25 m c (Proc.devRef .tc main_v213) = W24 m c (Proc.devRef .tc main_v213) :=
  calc W25 m c (Proc.devRef .tc main_v213)
    _ = W24 m c (Proc.devRef .tc main_v213) := StableHlo.after_of_writes_sub hostOps12 _ hostOps12_writes (by decide)

end Cert.KernelIdeal.HandV

end
-- ==== Proof.KI.ValL0.lean ====
/-
  Layer 0 of the kernel program's value: from the launch contents, through host stretches 0 to 2 and regions 0 to 2,
  the layer's output buffer holds the layer of the specification at the kernel's variance, on the aggregation of the input.
-/
import proofs.«148047_j37898791420018_1_alg».proof.Proof.KI.Chain
import proofs.«148047_j37898791420018_1_alg».proof.Proof.Spec
import proofs.«148047_j37898791420018_1_alg».proof.Proof.KI.ValDefs
import proofs.«148047_j37898791420018_1_alg».proof.Proof.KI.ValHost0
import proofs.«148047_j37898791420018_1_alg».proof.Proof.KI.ValCarry
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec (Arr Vc Stack)

/-! ## What the layer's three regions leave, as hypotheses over any entry contents -/

/-- Region 0 leaves, in its third array, the product of its first two. -/
abbrev HV0 : Prop := ∀ (V : ((c : Dev nD) → (b : Ref sig .tc) → Buf (Elt Ideal) ((c : Thread nD τ).loc b))) (c : Dev nD), ((dat0 V c).arrAt 2 cfg0.N : Arr 50000 256)
    = Cert.Spec.mm (V c (Pipeline.arrRef spec0 0) : Arr 50000 128) (V c (Pipeline.arrRef spec0 1) : Arr 128 256)
/-- … and in its fourth the column sums of that product and of its squares. -/
abbrev HS0 : Prop := ∀ (V : ((c : Dev nD) → (b : Ref sig .tc) → Buf (Elt Ideal) ((c : Thread nD τ).loc b))) (c : Dev nD) (j : Fin 256),
    ((dat0 V c).arrAt 3 cfg0.N : Arr 2 256) (ix2 0 j)
        = Cert.Spec.colsum (Cert.Spec.mm (V c (Pipeline.arrRef spec0 0) : Arr 50000 128) (V c (Pipeline.arrRef spec0 1) : Arr 128 256)) j
      ∧ ((dat0 V c).arrAt 3 cfg0.N : Arr 2 256) (ix2 1 j)
        = Cert.Spec.colsumsq (Cert.Spec.mm (V c (Pipeline.arrRef spec0 0) : Arr 50000 128) (V c (Pipeline.arrRef spec0 1) : Arr 128 256)) j
/-- Region 1 leaves the product of the normalised, rectified first product with the second weights. -/
abbrev HV1 : Prop := ∀ (V : ((c : Dev nD) → (b : Ref sig .tc) → Buf (Elt Ideal) ((c : Thread nD τ).loc b))) (c : Dev nD), ((dat1 V c).arrAt 6 cfg1.N : Arr 50000 256)
    = Cert.Spec.mm (Cert.Spec.bnrelu (V c (Pipeline.arrRef spec1 0) : Arr 50000 256)
          (Cert.Spec.row (V c (Pipeline.arrRef spec1 1) : Arr 1 256) 0) (Cert.Spec.row (V c (Pipeline.arrRef spec1 2) : Arr 1 256) 0)
          (Cert.Spec.row (V c (Pipeline.arrRef spec1 3) : Arr 1 256) 0) (Cert.Spec.row (V c (Pipeline.arrRef spec1 4) : Arr 1 256) 0))
        (V c (Pipeline.arrRef spec1 5) : Arr 256 256)
/-- … and the column sums of that product and of its squares. -/
abbrev HS1 : Prop := ∀ (V : ((c : Dev nD) → (b : Ref sig .tc) → Buf (Elt Ideal) ((c : Thread nD τ).loc b))) (c : Dev nD) (j : Fin 256),
    ((dat1 V c).arrAt 7 cfg1.N : Arr 2 256) (ix2 0 j)
        = Cert.Spec.colsum (Cert.Spec.mm (Cert.Spec.bnrelu (V c (Pipeline.arrRef spec1 0) : Arr 50000 256)
          (Cert.Spec.row (V c (Pipeline.arrRef spec1 1) : Arr 1 256) 0) (Cert.Spec.row (V c (Pipeline.arrRef spec1 2) : Arr 1 256) 0)
          (Cert.Spec.row (V c (Pipeline.arrRef spec1 3) : Arr 1 256) 0) (Cert.Spec.row (V c (Pipeline.arrRef spec1 4) : Arr 1 256) 0))
        (V c (Pipeline.arrRef spec1 5) : Arr 256 256)) j
      ∧ ((dat1 V c).arrAt 7 cfg1.N : Arr 2 256) (ix2 1 j)
        = Cert.Spec.colsumsq (Cert.Spec.mm (Cert.Spec.bnrelu (V c (Pipeline.arrRef spec1 0) : Arr 50000 256)
          (Cert.Spec.row (V c (Pipeline.arrRef spec1 1) : Arr 1 256) 0) (Cert.Spec.row (V c (Pipeline.arrRef spec1 2) : Arr 1 256) 0)
          (Cert.Spec.row (V c (Pipeline.arrRef spec1 3) : Arr 1 256) 0) (Cert.Spec.row (V c (Pipeline.arrRef spec1 4) : Arr 1 256) 0))
        (V c (Pipeline.arrRef spec1 5) : Arr 256 256)) j
/-- Region 2 leaves the normalised, rectified second product. -/
abbrev HV2 : Prop := ∀ (V : ((c : Dev nD) → (b : Ref sig .tc) → Buf (Elt Ideal) ((c : Thread nD τ).loc b))) (c : Dev nD), ((dat2 V c).arrAt 5 cfg2.N : Arr 50000 256)
    = Cert.Spec.bnrelu (V c (Pipeline.arrRef spec2 0) : Arr 50000 256)
        (Cert.Spec.row (V c (Pipeline.arrRef spec2 1) : Arr 1 256) 0) (Cert.Spec.row (V c (Pipeline.arrRef spec2 2) : Arr 1 256) 0)
        (Cert.Spec.row (V c (Pipeline.arrRef spec2 3) : Arr 1 256) 0) (Cert.Spec.row (V c (Pipeline.arrRef spec2 4) : Arr 1 256) 0)

/-- The normalisation of equal arguments is equal. -/
private theorem bnrelu_congr {a b : Nat} {M M' : Arr a b} {mu mu' va va' g g' be be' : Vc b}
    (h0 : M = M') (h1 : mu = mu') (h2 : va = va') (h3 : g = g') (h4 : be = be') :
    Cert.Spec.bnrelu M mu va g be = Cert.Spec.bnrelu M' mu' va' g' be' := by
  subst h0 h1 h2 h3 h4; rfl

/-! ## Layer 0: from the launch contents to the layer's output buffer

The boundaries in turn: the aggregation and the second weights after host stretch 0; the first product and its
stats after region 0; its mean, variance and the first normalisation's parameters after host stretch 1; the second
product and its stats after region 1; its mean, variance and parameters after host stretch 2; the output after
region 2. Every other buffer a step reads is carried unchanged to it. -/

set_option maxHeartbeats 1600000 in
theorem layer0_value (hv0 : HV0) (hs0 : HS0) (hv1 : HV1) (hs1 : HS1) (hv2 : HV2)
    (m : (ℓ : Loc nD τ sig) → Buf (Elt Ideal) ℓ) (c : Dev nD) :
    (W6 m c (Proc.devRef .tc main_v51) : Arr 50000 256)
      = Cert.Spec.layer Cert.Spec.varK
          (aggKer128 (m ((c : Thread nD τ).loc main_arg0)) (m ((c : Thread nD τ).loc main_arg12)) (m ((c : Thread nD τ).loc main_arg13)))
          ((m ((c : Thread nD τ).loc main_arg1)) : Arr 128 256)
          (Cert.Spec.row ((m ((c : Thread nD τ).loc main_arg4)) : Arr 4 256) 0) (Cert.Spec.row ((m ((c : Thread nD τ).loc main_arg5)) : Arr 4 256) 0)
          (Cert.Spec.slab ((m ((c : Thread nD τ).loc main_arg3)) : Stack 4 256 256) 0)
          (Cert.Spec.row ((m ((c : Thread nD τ).loc main_arg6)) : Arr 4 256) 0) (Cert.Spec.row ((m ((c : Thread nD τ).loc main_arg7)) : Arr 4 256) 0) := by
  obtain ⟨ag, hag⟩ : ∃ ag : Arr 50000 128, ag = aggKer128 (m ((c : Thread nD τ).loc main_arg0)) (m ((c : Thread nD τ).loc main_arg12)) (m ((c : Thread nD τ).loc main_arg13)) := ⟨_, rfl⟩
  rw [← hag]
  -- after host stretch 0
  have a10 : (W1 m c (Proc.devRef .tc main_v10) : Arr 50000 128) = ag := (h0_agg (W0 m c)).trans hag.symm
  have a1 : (W1 m c (Proc.devRef .tc main_arg1) : Arr 128 256) = (m ((c : Thread nD τ).loc main_arg1)) := carry_main_arg1_0_1 m c
  have a12 : (W1 m c (Proc.devRef .tc main_v12) : Arr 256 256) = Cert.Spec.slab ((m ((c : Thread nD τ).loc main_arg3)) : Stack 4 256 256) 0 := h0_w2 (W0 m c)
  -- after region 0
  obtain ⟨M1, hM1⟩ : ∃ M1 : Arr 50000 256, M1 = Cert.Spec.mm ag ((m ((c : Thread nD τ).loc main_arg1)) : Arr 128 256) := ⟨_, rfl⟩
  have hmm0 : Cert.Spec.mm (Hand.V1 m c (Pipeline.arrRef spec0 0) : Arr 50000 128) (Hand.V1 m c (Pipeline.arrRef spec0 1) : Arr 128 256) = M1 :=
    (congrArg₂ Cert.Spec.mm a10 a1).trans hM1.symm
  have b0 : (W2 m c (Proc.devRef .tc main_v13_0) : Arr 50000 256) = M1 := (W2_arr m c 2).trans ((hv0 (Hand.V1 m) c).trans hmm0)
  have b1 : ∀ j : Fin 256, (W2 m c (Proc.devRef .tc main_v13_1) : Arr 2 256) (ix2 0 j) = Cert.Spec.colsum M1 j
      ∧ (W2 m c (Proc.devRef .tc main_v13_1) : Arr 2 256) (ix2 1 j) = Cert.Spec.colsumsq M1 j := fun j => by
    have h := hs0 (Hand.V1 m) c j
    rw [hmm0] at h
    rw [show (W2 m c (Proc.devRef .tc main_v13_1) : Arr 2 256) = (dat0 (Hand.V1 m) c).arrAt 3 cfg0.N from W2_arr m c 3]
    exact h
  -- after host stretch 1
  have c24 : Cert.Spec.row (W3 m c (Proc.devRef .tc main_v24) : Arr 1 256) 0 = Cert.Spec.meanOf M1 := row_mean b1 (h1_mean (W2 m c))
  have c25 : Cert.Spec.row (W3 m c (Proc.devRef .tc main_v25) : Arr 1 256) 0 = Cert.Spec.varK M1 := row_var b1 (h1_var (W2 m c))
  have c28 : Cert.Spec.row (W3 m c (Proc.devRef .tc main_v28) : Arr 1 256) 0 = Cert.Spec.row ((m ((c : Thread nD τ).loc main_arg4)) : Arr 4 256) 0 :=
    (h1_g (W2 m c)).trans (congrArg (fun X : Arr 4 256 => Cert.Spec.row X 0) (carry_main_arg4_0_2 m c))
  have c31 : Cert.Spec.row (W3 m c (Proc.devRef .tc main_v31) : Arr 1 256) 0 = Cert.Spec.row ((m ((c : Thread nD τ).loc main_arg5)) : Arr 4 256) 0 :=
    (h1_b (W2 m c)).trans (congrArg (fun X : Arr 4 256 => Cert.Spec.row X 0) (carry_main_arg5_0_2 m c))
  have c13 : (W3 m c (Proc.devRef .tc main_v13_0) : Arr 50000 256) = M1 := (carry_main_v13_0_2_3 m c).trans b0
  have c12 : (W3 m c (Proc.devRef .tc main_v12) : Arr 256 256) = Cert.Spec.slab ((m ((c : Thread nD τ).loc main_arg3)) : Stack 4 256 256) 0 :=
    (carry_main_v12_1_3 m c).trans a12
  -- after region 1
  obtain ⟨M2, hM2⟩ : ∃ M2 : Arr 50000 256, M2 = Cert.Spec.mm (Cert.Spec.bnrelu M1 (Cert.Spec.meanOf M1) (Cert.Spec.varK M1)
      (Cert.Spec.row ((m ((c : Thread nD τ).loc main_arg4)) : Arr 4 256) 0) (Cert.Spec.row ((m ((c : Thread nD τ).loc main_arg5)) : Arr 4 256) 0))
      (Cert.Spec.slab ((m ((c : Thread nD τ).loc main_arg3)) : Stack 4 256 256) 0) := ⟨_, rfl⟩
  have hmm1 : Cert.Spec.mm (Cert.Spec.bnrelu (Hand.V3 m c (Pipeline.arrRef spec1 0) : Arr 50000 256)
          (Cert.Spec.row (Hand.V3 m c (Pipeline.arrRef spec1 1) : Arr 1 256) 0) (Cert.Spec.row (Hand.V3 m c (Pipeline.arrRef spec1 2) : Arr 1 256) 0)
          (Cert.Spec.row (Hand.V3 m c (Pipeline.arrRef spec1 3) : Arr 1 256) 0) (Cert.Spec.row (Hand.V3 m c (Pipeline.arrRef spec1 4) : Arr 1 256) 0))
        (Hand.V3 m c (Pipeline.arrRef spec1 5) : Arr 256 256) = M2 :=
    (congrArg₂ Cert.Spec.mm (bnrelu_congr c13 c24 c25 c28 c31) c12).trans hM2.symm
  have d0 : (W4 m c (Proc.devRef .tc main_v32_0) : Arr 50000 256) = M2 := (W4_arr m c 6).trans ((hv1 (Hand.V3 m) c).trans hmm1)
  have d1 : ∀ j : Fin 256, (W4 m c (Proc.devRef .tc main_v32_1) : Arr 2 256) (ix2 0 j) = Cert.Spec.colsum M2 j
      ∧ (W4 m c (Proc.devRef .tc main_v32_1) : Arr 2 256) (ix2 1 j) = Cert.Spec.colsumsq M2 j := fun j => by
    have h := hs1 (Hand.V3 m) c j
    rw [hmm1] at h
    rw [show (W4 m c (Proc.devRef .tc main_v32_1) : Arr 2 256) = (dat1 (Hand.V3 m) c).arrAt 7 cfg1.N from W4_arr m c 7]
    exact h
  -- after host stretch 2
  have e43 : Cert.Spec.row (W5 m c (Proc.devRef .tc main_v43) : Arr 1 256) 0 = Cert.Spec.meanOf M2 := row_mean d1 (h2_mean (W4 m c))
  have e44 : Cert.Spec.row (W5 m c (Proc.devRef .tc main_v44) : Arr 1 256) 0 = Cert.Spec.varK M2 := row_var d1 (h2_var (W4 m c))
  have e47 : Cert.Spec.row (W5 m c (Proc.devRef .tc main_v47) : Arr 1 256) 0 = Cert.Spec.row ((m ((c : Thread nD τ).loc main_arg6)) : Arr 4 256) 0 :=
    (h2_g (W4 m c)).trans (congrArg (fun X : Arr 4 256 => Cert.Spec.row X 0) (carry_main_arg6_0_4 m c))
  have e50 : Cert.Spec.row (W5 m c (Proc.devRef .tc main_v50) : Arr 1 256) 0 = Cert.Spec.row ((m ((c : Thread nD τ).loc main_arg7)) : Arr 4 256) 0 :=
    (h2_b (W4 m c)).trans (congrArg (fun X : Arr 4 256 => Cert.Spec.row X 0) (carry_main_arg7_0_4 m c))
  have e32 : (W5 m c (Proc.devRef .tc main_v32_0) : Arr 50000 256) = M2 := (carry_main_v32_0_4_5 m c).trans d0
  -- after region 2
  have f : (W6 m c (Proc.devRef .tc main_v51) : Arr 50000 256)
      = Cert.Spec.bnrelu M2 (Cert.Spec.meanOf M2) (Cert.Spec.varK M2)
          (Cert.Spec.row ((m ((c : Thread nD τ).loc main_arg6)) : Arr 4 256) 0) (Cert.Spec.row ((m ((c : Thread nD τ).loc main_arg7)) : Arr 4 256) 0) :=
    (W6_arr m c 5).trans ((hv2 (Hand.V5 m) c).trans (bnrelu_congr e32 e43 e44 e47 e50))
  rw [f, hM2, hM1]; rfl

end Cert.KernelIdeal.HandV
end
-- ==== Proof.KI.ValHost1.lean ====
/-
  The host glue of layer 1 read over any buffer contents: what each buffer a region of the layer takes holds after the
  stretch that writes it, as a term of the buffers the stretch reads.
-/
import proofs.«148047_j37898791420018_1_alg».proof.Proof.Gen.KernelIdeal.Launch
import proofs.«148047_j37898791420018_1_alg».proof.Proof.Gen.KernelIdeal.Regions
import proofs.«148047_j37898791420018_1_alg».proof.Proof.Spec
import proofs.«148047_j37898791420018_1_alg».proof.Proof.LibRealArith
import proofs.«148047_j37898791420018_1_alg».proof.Proof.KI.ValDefs
import Idealize.ShloMosaic.Lib.StableHlo.Run
import Idealize.ShloMosaic.Lib.ValueLayout
import Idealize.ShloMosaic.Lib.ValueIdx

set_option maxRecDepth 16384

noncomputable section

namespace Cert.KernelIdeal.HandV

open Cert.KernelIdeal Cert.KernelIdeal.Gen
open Idealize.ShloMosaic Idealize.ShloMosaic.TcCoe Idealize.ShloMosaic.ValueIdx
open Cert.Spec (Arr Vc Stack)

variable (Wv : Valuation τ sig (Elt Ideal))

/-! ## Host stretch 3: the aggregation of the previous layer's output and the layer's two weight slabs -/

set_option maxHeartbeats 4000000 in
theorem h3_agg : StableHlo.after hostOps3 Wv (Proc.devRef .tc main_v62)
    = aggKer256 (Wv (Proc.devRef .tc main_v51)) (Wv (Proc.devRef .tc main_arg12)) (Wv (Proc.devRef .tc main_arg13)) := by
  after_results; rfl

set_option maxHeartbeats 4000000 in
theorem h3_w1 : (StableHlo.after hostOps3 Wv (Proc.devRef .tc main_v64) : Arr 256 256)
    = Cert.Spec.slab (Wv (Proc.devRef .tc main_arg2) : Stack 3 256 256) 0 := by
  refine arr_ext fun i j => ?_
  show StableHlo.after hostOps3 Wv (Proc.devRef .tc main_v64) (ix2 i j) = (Wv (Proc.devRef .tc main_arg2) : Stack 3 256 256) (ix3 0 i j)
  after_results
  exact slabmat_apply 0 _ _ _ 0 (by rfl) i j

set_option maxHeartbeats 4000000 in
theorem h3_w2 : (StableHlo.after hostOps3 Wv (Proc.devRef .tc main_v66) : Arr 256 256)
    = Cert.Spec.slab (Wv (Proc.devRef .tc main_arg3) : Stack 4 256 256) 1 := by
  refine arr_ext fun i j => ?_
  show StableHlo.after hostOps3 Wv (Proc.devRef .tc main_v66) (ix2 i j) = (Wv (Proc.devRef .tc main_arg3) : Stack 4 256 256) (ix3 1 i j)
  after_results
  exact slabmat_apply 1 _ _ _ 1 (by rfl) i j

/-! ## Host stretch 4: mean and variance of the first product from its stats, the first normalisation's parameters -/

set_option maxHeartbeats 4000000 in
theorem h4_mean (j : Fin 256) : (StableHlo.after hostOps4 Wv (Proc.devRef .tc main_v78) : Arr 1 256) (ix2 0 j)
    = Ideal.div ((Wv (Proc.devRef .tc main_v67_1) : Arr 2 256) (ix2 0 j)) Cert.Spec.cnt := by
  after_results
  exact meanrow_apply 0 _ _ _ _ _ 0 rfl j

set_option maxHeartbeats 4000000 in
theorem h4_var (j : Fin 256) : (StableHlo.after hostOps4 Wv (Proc.devRef .tc main_v79) : Arr 1 256) (ix2 0 j)
    = Ideal.div ((Wv (Proc.devRef .tc main_v67_1) : Arr 2 256) (ix2 1 j)) Cert.Spec.cnt
      - Ideal.div ((Wv (Proc.devRef .tc main_v67_1) : Arr 2 256) (ix2 0 j)) Cert.Spec.cnt
        * Ideal.div ((Wv (Proc.devRef .tc main_v67_1) : Arr 2 256) (ix2 0 j)) Cert.Spec.cnt := by
  after_results
  exact varrow_apply _ _ _ _ _ _ j

set_option maxHeartbeats 4000000 in
theorem h4_g : Cert.Spec.row (StableHlo.after hostOps4 Wv (Proc.devRef .tc main_v82) : Arr 1 256) 0
    = Cert.Spec.row (Wv (Proc.devRef .tc main_arg4) : Arr 4 256) 1 := by
  funext j
  show StableHlo.after hostOps4 Wv (Proc.devRef .tc main_v82) (ix2 0 j) = (Wv (Proc.devRef .tc main_arg4) : Arr 4 256) (ix2 1 j)
  after_results
  exact parrow_apply 1 _ _ _ _ 1 (by rfl) j

set_option maxHeartbeats 4000000 in
theorem h4_b : Cert.Spec.row (StableHlo.after hostOps4 Wv (Proc.devRef .tc main_v85) : Arr 1 256) 0
    = Cert.Spec.row (Wv (Proc.devRef .tc main_arg5) : Arr 4 256) 1 := by
  funext j
  show StableHlo.after hostOps4 Wv (Proc.devRef .tc main_v85) (ix2 0 j) = (Wv (Proc.devRef .tc main_arg5) : Arr 4 256) (ix2 1 j)
  after_results
  exact parrow_apply 1 _ _ _ _ 1 (by rfl) j

/-! ## Host stretch 5: the same for the second product -/

set_option maxHeartbeats 4000000 in
theorem h5_mean (j : Fin 256) : (StableHlo.after hostOps5 Wv (Proc.devRef .tc main_v97) : Arr 1 256) (ix2 0 j)
    = Ideal.div ((Wv (Proc.devRef .tc main_v86_1) : Arr 2 256) (ix2 0 j)) Cert.Spec.cnt := by
  after_results
  exact meanrow_apply 0 _ _ _ _ _ 0 rfl j

set_option maxHeartbeats 4000000 in
theorem h5_var (j : Fin 256) : (StableHlo.after hostOps5 Wv (Proc.devRef .tc main_v98) : Arr 1 256) (ix2 0 j)
    = Ideal.div ((Wv (Proc.devRef .tc main_v86_1) : Arr 2 256) (ix2 1 j)) Cert.Spec.cnt
      - Ideal.div ((Wv (Proc.devRef .tc main_v86_1) : Arr 2 256) (ix2 0 j)) Cert.Spec.cnt
        * Ideal.div ((Wv (Proc.devRef .tc main_v86_1) : Arr 2 256) (ix2 0 j)) Cert.Spec.cnt := by
  after_results
  exact varrow_apply _ _ _ _ _ _ j

set_option maxHeartbeats 4000000 in
theorem h5_g : Cert.Spec.row (StableHlo.after hostOps5 Wv (Proc.devRef .tc main_v101) : Arr 1 256) 0
    = Cert.Spec.row (Wv (Proc.devRef .tc main_arg6) : Arr 4 256) 1 := by
  funext j
  show StableHlo.after hostOps5 Wv (Proc.devRef .tc main_v101) (ix2 0 j) = (Wv (Proc.devRef .tc main_arg6) : Arr 4 256) (ix2 1 j)
  after_results
  exact parrow_apply 1 _ _ _ _ 1 (by rfl) j

set_option maxHeartbeats 4000000 in
theorem h5_b : Cert.Spec.row (StableHlo.after hostOps5 Wv (Proc.devRef .tc main_v104) : Arr 1 256) 0
    = Cert.Spec.row (Wv (Proc.devRef .tc main_arg7) : Arr 4 256) 1 := by
  funext j
  show StableHlo.after hostOps5 Wv (Proc.devRef .tc main_v104) (ix2 0 j) = (Wv (Proc.devRef .tc main_arg7) : Arr 4 256) (ix2 1 j)
  after_results
  exact parrow_apply 1 _ _ _ _ 1 (by rfl) j

end Cert.KernelIdeal.HandV
end
-- ==== Proof.KI.ValL1.lean ====
/-
  Layer 1 of the kernel program's value: from the previous layer's output buffer, through host stretches 3 to 5 and
  regions 3 to 5, this layer's output buffer holds the layer of the specification at the kernel's variance, on the
  aggregation of the previous output.
-/
import proofs.«148047_j37898791420018_1_alg».proof.Proof.KI.Chain
import proofs.«148047_j37898791420018_1_alg».proof.Proof.Spec
import proofs.«148047_j37898791420018_1_alg».proof.Proof.KI.ValDefs
import proofs.«148047_j37898791420018_1_alg».proof.Proof.KI.ValHost1
import proofs.«148047_j37898791420018_1_alg».proof.Proof.KI.ValCarry
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec (Arr Vc Stack)

/-! ## What the layer's three regions leave, as hypotheses over any entry contents -/

/-- Region 3 leaves, in its third array, the product of its first two. -/
abbrev HV3 : Prop := ∀ (V : ((c : Dev nD) → (b : Ref sig .tc) → Buf (Elt Ideal) ((c : Thread nD τ).loc b))) (c : Dev nD), ((dat3 V c).arrAt 2 cfg3.N : Arr 50000 256)
    = Cert.Spec.mm (V c (Pipeline.arrRef spec3 0) : Arr 50000 256) (V c (Pipeline.arrRef spec3 1) : Arr 256 256)
/-- … and in its fourth the column sums of that product and of its squares. -/
abbrev HS3 : Prop := ∀ (V : ((c : Dev nD) → (b : Ref sig .tc) → Buf (Elt Ideal) ((c : Thread nD τ).loc b))) (c : Dev nD) (j : Fin 256),
    ((dat3 V c).arrAt 3 cfg3.N : Arr 2 256) (ix2 0 j)
        = Cert.Spec.colsum (Cert.Spec.mm (V c (Pipeline.arrRef spec3 0) : Arr 50000 256) (V c (Pipeline.arrRef spec3 1) : Arr 256 256)) j
      ∧ ((dat3 V c).arrAt 3 cfg3.N : Arr 2 256) (ix2 1 j)
        = Cert.Spec.colsumsq (Cert.Spec.mm (V c (Pipeline.arrRef spec3 0) : Arr 50000 256) (V c (Pipeline.arrRef spec3 1) : Arr 256 256)) j
/-- Region 4 leaves the product of the normalised, rectified first product with the second weights. -/
abbrev HV4 : Prop := ∀ (V : ((c : Dev nD) → (b : Ref sig .tc) → Buf (Elt Ideal) ((c : Thread nD τ).loc b))) (c : Dev nD), ((dat4 V c).arrAt 6 cfg4.N : Arr 50000 256)
    = Cert.Spec.mm (Cert.Spec.bnrelu (V c (Pipeline.arrRef spec4 0) : Arr 50000 256)
          (Cert.Spec.row (V c (Pipeline.arrRef spec4 1) : Arr 1 256) 0) (Cert.Spec.row (V c (Pipeline.arrRef spec4 2) : Arr 1 256) 0)
          (Cert.Spec.row (V c (Pipeline.arrRef spec4 3) : Arr 1 256) 0) (Cert.Spec.row (V c (Pipeline.arrRef spec4 4) : Arr 1 256) 0))
        (V c (Pipeline.arrRef spec4 5) : Arr 256 256)
/-- … and the column sums of that product and of its squares. -/
abbrev HS4 : Prop := ∀ (V : ((c : Dev nD) → (b : Ref sig .tc) → Buf (Elt Ideal) ((c : Thread nD τ).loc b))) (c : Dev nD) (j : Fin 256),
    ((dat4 V c).arrAt 7 cfg4.N : Arr 2 256) (ix2 0 j)
        = Cert.Spec.colsum (Cert.Spec.mm (Cert.Spec.bnrelu (V c (Pipeline.arrRef spec4 0) : Arr 50000 256)
          (Cert.Spec.row (V c (Pipeline.arrRef spec4 1) : Arr 1 256) 0) (Cert.Spec.row (V c (Pipeline.arrRef spec4 2) : Arr 1 256) 0)
          (Cert.Spec.row (V c (Pipeline.arrRef spec4 3) : Arr 1 256) 0) (Cert.Spec.row (V c (Pipeline.arrRef spec4 4) : Arr 1 256) 0))
        (V c (Pipeline.arrRef spec4 5) : Arr 256 256)) j
      ∧ ((dat4 V c).arrAt 7 cfg4.N : Arr 2 256) (ix2 1 j)
        = Cert.Spec.colsumsq (Cert.Spec.mm (Cert.Spec.bnrelu (V c (Pipeline.arrRef spec4 0) : Arr 50000 256)
          (Cert.Spec.row (V c (Pipeline.arrRef spec4 1) : Arr 1 256) 0) (Cert.Spec.row (V c (Pipeline.arrRef spec4 2) : Arr 1 256) 0)
          (Cert.Spec.row (V c (Pipeline.arrRef spec4 3) : Arr 1 256) 0) (Cert.Spec.row (V c (Pipeline.arrRef spec4 4) : Arr 1 256) 0))
        (V c (Pipeline.arrRef spec4 5) : Arr 256 256)) j
/-- Region 5 leaves the normalised, rectified second product. -/
abbrev HV5 : Prop := ∀ (V : ((c : Dev nD) → (b : Ref sig .tc) → Buf (Elt Ideal) ((c : Thread nD τ).loc b))) (c : Dev nD), ((dat5 V c).arrAt 5 cfg5.N : Arr 50000 256)
    = Cert.Spec.bnrelu (V c (Pipeline.arrRef spec5 0) : Arr 50000 256)
        (Cert.Spec.row (V c (Pipeline.arrRef spec5 1) : Arr 1 256) 0) (Cert.Spec.row (V c (Pipeline.arrRef spec5 2) : Arr 1 256) 0)
        (Cert.Spec.row (V c (Pipeline.arrRef spec5 3) : Arr 1 256) 0) (Cert.Spec.row (V c (Pipeline.arrRef spec5 4) : Arr 1 256) 0)

/-- The normalisation of equal arguments is equal. -/
private theorem bnrelu_congr {a b : Nat} {M M' : Arr a b} {mu mu' va va' g g' be be' : Vc b}
    (h0 : M = M') (h1 : mu = mu') (h2 : va = va') (h3 : g = g') (h4 : be = be') :
    Cert.Spec.bnrelu M mu va g be = Cert.Spec.bnrelu M' mu' va' g' be' := by
  subst h0 h1 h2 h3 h4; rfl

/-- The aggregation of equal arguments is equal. -/
private theorem agg256_congr {x x' : Arr 50000 256} {s s' d d' : IVec S800000 32} (h0 : x = x') (h1 : s = s') (h2 : d = d') :
    aggKer256 x s d = aggKer256 x' s' d' := by
  subst h0 h1 h2; rfl

/-! ## Layer 1: from the previous layer's output buffer to this layer's

The boundaries in turn: the aggregation and the two weight slabs after host stretch 3; the first product and its
stats after region 3; its mean, variance and the first normalisation's parameters after host stretch 4; the second
product and its stats after region 4; its mean, variance and parameters after host stretch 5; the output after
region 5. Every other buffer a step reads is carried unchanged to it. -/

set_option maxHeartbeats 1600000 in
theorem layer1_value (hv3 : HV3) (hs3 : HS3) (hv4 : HV4) (hs4 : HS4) (hv5 : HV5)
    (m : (ℓ : Loc nD τ sig) → Buf (Elt Ideal) ℓ) (c : Dev nD) (X : Arr 50000 256)
    (hX : (W6 m c (Proc.devRef .tc main_v51) : Arr 50000 256) = X) :
    (W12 m c (Proc.devRef .tc main_v105) : Arr 50000 256)
      = Cert.Spec.layer Cert.Spec.varK
          (aggKer256 X (m ((c : Thread nD τ).loc main_arg12)) (m ((c : Thread nD τ).loc main_arg13)))
          (Cert.Spec.slab ((m ((c : Thread nD τ).loc main_arg2)) : Stack 3 256 256) 0)
          (Cert.Spec.row ((m ((c : Thread nD τ).loc main_arg4)) : Arr 4 256) 1) (Cert.Spec.row ((m ((c : Thread nD τ).loc main_arg5)) : Arr 4 256) 1)
          (Cert.Spec.slab ((m ((c : Thread nD τ).loc main_arg3)) : Stack 4 256 256) 1)
          (Cert.Spec.row ((m ((c : Thread nD τ).loc main_arg6)) : Arr 4 256) 1) (Cert.Spec.row ((m ((c : Thread nD τ).loc main_arg7)) : Arr 4 256) 1) := by
  obtain ⟨ag, hag⟩ : ∃ ag : Arr 50000 256, ag = aggKer256 X (m ((c : Thread nD τ).loc main_arg12)) (m ((c : Thread nD τ).loc main_arg13)) := ⟨_, rfl⟩
  rw [← hag]
  -- after host stretch 3
  have a62 : (W7 m c (Proc.devRef .tc main_v62) : Arr 50000 256) = ag :=
    (h3_agg (W6 m c)).trans ((agg256_congr hX (carry_main_arg12_0_6 m c) (carry_main_arg13_0_6 m c)).trans hag.symm)
  have a64 : (W7 m c (Proc.devRef .tc main_v64) : Arr 256 256) = Cert.Spec.slab ((m ((c : Thread nD τ).loc main_arg2)) : Stack 3 256 256) 0 :=
    (h3_w1 (W6 m c)).trans (congrArg (fun T : Stack 3 256 256 => Cert.Spec.slab T 0) (carry_main_arg2_0_6 m c))
  have a66 : (W7 m c (Proc.devRef .tc main_v66) : Arr 256 256) = Cert.Spec.slab ((m ((c : Thread nD τ).loc main_arg3)) : Stack 4 256 256) 1 :=
    (h3_w2 (W6 m c)).trans (congrArg (fun T : Stack 4 256 256 => Cert.Spec.slab T 1) (carry_main_arg3_0_6 m c))
  -- after region 3
  obtain ⟨M1, hM1⟩ : ∃ M1 : Arr 50000 256, M1 = Cert.Spec.mm ag (Cert.Spec.slab ((m ((c : Thread nD τ).loc main_arg2)) : Stack 3 256 256) 0) := ⟨_, rfl⟩
  have hmm3 : Cert.Spec.mm (Hand.V7 m c (Pipeline.arrRef spec3 0) : Arr 50000 256) (Hand.V7 m c (Pipeline.arrRef spec3 1) : Arr 256 256) = M1 :=
    (congrArg₂ Cert.Spec.mm a62 a64).trans hM1.symm
  have b0 : (W8 m c (Proc.devRef .tc main_v67_0) : Arr 50000 256) = M1 := (W8_arr m c 2).trans ((hv3 (Hand.V7 m) c).trans hmm3)
  have b1 : ∀ j : Fin 256, (W8 m c (Proc.devRef .tc main_v67_1) : Arr 2 256) (ix2 0 j) = Cert.Spec.colsum M1 j
      ∧ (W8 m c (Proc.devRef .tc main_v67_1) : Arr 2 256) (ix2 1 j) = Cert.Spec.colsumsq M1 j := fun j => by
    have h := hs3 (Hand.V7 m) c j
    rw [hmm3] at h
    rw [show (W8 m c (Proc.devRef .tc main_v67_1) : Arr 2 256) = (dat3 (Hand.V7 m) c).arrAt 3 cfg3.N from W8_arr m c 3]
    exact h
  -- after host stretch 4
  have c78 : Cert.Spec.row (W9 m c (Proc.devRef .tc main_v78) : Arr 1 256) 0 = Cert.Spec.meanOf M1 := row_mean b1 (h4_mean (W8 m c))
  have c79 : Cert.Spec.row (W9 m c (Proc.devRef .tc main_v79) : Arr 1 256) 0 = Cert.Spec.varK M1 := row_var b1 (h4_var (W8 m c))
  have c82 : Cert.Spec.row (W9 m c (Proc.devRef .tc main_v82) : Arr 1 256) 0 = Cert.Spec.row ((m ((c : Thread nD τ).loc main_arg4)) : Arr 4 256) 1 :=
    (h4_g (W8 m c)).trans (congrArg (fun X : Arr 4 256 => Cert.Spec.row X 1) (carry_main_arg4_0_8 m c))
  have c85 : Cert.Spec.row (W9 m c (Proc.devRef .tc main_v85) : Arr 1 256) 0 = Cert.Spec.row ((m ((c : Thread nD τ).loc main_arg5)) : Arr 4 256) 1 :=
    (h4_b (W8 m c)).trans (congrArg (fun X : Arr 4 256 => Cert.Spec.row X 1) (carry_main_arg5_0_8 m c))
  have c67 : (W9 m c (Proc.devRef .tc main_v67_0) : Arr 50000 256) = M1 := (carry_main_v67_0_8_9 m c).trans b0
  have c66 : (W9 m c (Proc.devRef .tc main_v66) : Arr 256 256) = Cert.Spec.slab ((m ((c : Thread nD τ).loc main_arg3)) : Stack 4 256 256) 1 :=
    (carry_main_v66_7_9 m c).trans a66
  -- after region 4
  obtain ⟨M2, hM2⟩ : ∃ M2 : Arr 50000 256, M2 = Cert.Spec.mm (Cert.Spec.bnrelu M1 (Cert.Spec.meanOf M1) (Cert.Spec.varK M1)
      (Cert.Spec.row ((m ((c : Thread nD τ).loc main_arg4)) : Arr 4 256) 1) (Cert.Spec.row ((m ((c : Thread nD τ).loc main_arg5)) : Arr 4 256) 1))
      (Cert.Spec.slab ((m ((c : Thread nD τ).loc main_arg3)) : Stack 4 256 256) 1) := ⟨_, rfl⟩
  have hmm4 : Cert.Spec.mm (Cert.Spec.bnrelu (Hand.V9 m c (Pipeline.arrRef spec4 0) : Arr 50000 256)
          (Cert.Spec.row (Hand.V9 m c (Pipeline.arrRef spec4 1) : Arr 1 256) 0) (Cert.Spec.row (Hand.V9 m c (Pipeline.arrRef spec4 2) : Arr 1 256) 0)
          (Cert.Spec.row (Hand.V9 m c (Pipeline.arrRef spec4 3) : Arr 1 256) 0) (Cert.Spec.row (Hand.V9 m c (Pipeline.arrRef spec4 4) : Arr 1 256) 0))
        (Hand.V9 m c (Pipeline.arrRef spec4 5) : Arr 256 256) = M2 :=
    (congrArg₂ Cert.Spec.mm (bnrelu_congr c67 c78 c79 c82 c85) c66).trans hM2.symm
  have d0 : (W10 m c (Proc.devRef .tc main_v86_0) : Arr 50000 256) = M2 := (W10_arr m c 6).trans ((hv4 (Hand.V9 m) c).trans hmm4)
  have d1 : ∀ j : Fin 256, (W10 m c (Proc.devRef .tc main_v86_1) : Arr 2 256) (ix2 0 j) = Cert.Spec.colsum M2 j
      ∧ (W10 m c (Proc.devRef .tc main_v86_1) : Arr 2 256) (ix2 1 j) = Cert.Spec.colsumsq M2 j := fun j => by
    have h := hs4 (Hand.V9 m) c j
    rw [hmm4] at h
    rw [show (W10 m c (Proc.devRef .tc main_v86_1) : Arr 2 256) = (dat4 (Hand.V9 m) c).arrAt 7 cfg4.N from W10_arr m c 7]
    exact h
  -- after host stretch 5
  have e97 : Cert.Spec.row (W11 m c (Proc.devRef .tc main_v97) : Arr 1 256) 0 = Cert.Spec.meanOf M2 := row_mean d1 (h5_mean (W10 m c))
  have e98 : Cert.Spec.row (W11 m c (Proc.devRef .tc main_v98) : Arr 1 256) 0 = Cert.Spec.varK M2 := row_var d1 (h5_var (W10 m c))
  have e101 : Cert.Spec.row (W11 m c (Proc.devRef .tc main_v101) : Arr 1 256) 0 = Cert.Spec.row ((m ((c : Thread nD τ).loc main_arg6)) : Arr 4 256) 1 :=
    (h5_g (W10 m c)).trans (congrArg (fun X : Arr 4 256 => Cert.Spec.row X 1) (carry_main_arg6_0_10 m c))
  have e104 : Cert.Spec.row (W11 m c (Proc.devRef .tc main_v104) : Arr 1 256) 0 = Cert.Spec.row ((m ((c : Thread nD τ).loc main_arg7)) : Arr 4 256) 1 :=
    (h5_b (W10 m c)).trans (congrArg (fun X : Arr 4 256 => Cert.Spec.row X 1) (carry_main_arg7_0_10 m c))
  have e86 : (W11 m c (Proc.devRef .tc main_v86_0) : Arr 50000 256) = M2 := (carry_main_v86_0_10_11 m c).trans d0
  -- after region 5
  have f : (W12 m c (Proc.devRef .tc main_v105) : Arr 50000 256)
      = Cert.Spec.bnrelu M2 (Cert.Spec.meanOf M2) (Cert.Spec.varK M2)
          (Cert.Spec.row ((m ((c : Thread nD τ).loc main_arg6)) : Arr 4 256) 1) (Cert.Spec.row ((m ((c : Thread nD τ).loc main_arg7)) : Arr 4 256) 1) :=
    (W12_arr m c 5).trans ((hv5 (Hand.V11 m) c).trans (bnrelu_congr e86 e97 e98 e101 e104))
  rw [f, hM2, hM1]; rfl

end Cert.KernelIdeal.HandV
end
-- ==== Proof.KI.ValHost2.lean ====
/-
  The host glue of layer 2 read over any buffer contents: what each buffer a region of the layer takes holds after the
  stretch that writes it, as a term of the buffers the stretch reads.
-/
import proofs.«148047_j37898791420018_1_alg».proof.Proof.Gen.KernelIdeal.Launch
import proofs.«148047_j37898791420018_1_alg».proof.Proof.Gen.KernelIdeal.Regions
import proofs.«148047_j37898791420018_1_alg».proof.Proof.Spec
import proofs.«148047_j37898791420018_1_alg».proof.Proof.LibRealArith
import proofs.«148047_j37898791420018_1_alg».proof.Proof.KI.ValDefs
import Idealize.ShloMosaic.Lib.StableHlo.Run
import Idealize.ShloMosaic.Lib.ValueLayout
import Idealize.ShloMosaic.Lib.ValueIdx

set_option maxRecDepth 16384

noncomputable section

namespace Cert.KernelIdeal.HandV

open Cert.KernelIdeal Cert.KernelIdeal.Gen
open Idealize.ShloMosaic Idealize.ShloMosaic.TcCoe Idealize.ShloMosaic.ValueIdx
open Cert.Spec (Arr Vc Stack)

variable (Wv : Valuation τ sig (Elt Ideal))

/-! ## Host stretch 6: the aggregation of the previous layer's output and the layer's two weight slabs -/

set_option maxHeartbeats 4000000 in
theorem h6_agg : StableHlo.after hostOps6 Wv (Proc.devRef .tc main_v116)
    = aggKer256 (Wv (Proc.devRef .tc main_v105)) (Wv (Proc.devRef .tc main_arg12)) (Wv (Proc.devRef .tc main_arg13)) := by
  after_results; rfl

set_option maxHeartbeats 4000000 in
theorem h6_w1 : (StableHlo.after hostOps6 Wv (Proc.devRef .tc main_v118) : Arr 256 256)
    = Cert.Spec.slab (Wv (Proc.devRef .tc main_arg2) : Stack 3 256 256) 1 := by
  refine arr_ext fun i j => ?_
  show StableHlo.after hostOps6 Wv (Proc.devRef .tc main_v118) (ix2 i j) = (Wv (Proc.devRef .tc main_arg2) : Stack 3 256 256) (ix3 1 i j)
  after_results
  exact slabmat_apply 1 _ _ _ 1 (by rfl) i j

set_option maxHeartbeats 4000000 in
theorem h6_w2 : (StableHlo.after hostOps6 Wv (Proc.devRef .tc main_v120) : Arr 256 256)
    = Cert.Spec.slab (Wv (Proc.devRef .tc main_arg3) : Stack 4 256 256) 2 := by
  refine arr_ext fun i j => ?_
  show StableHlo.after hostOps6 Wv (Proc.devRef .tc main_v120) (ix2 i j) = (Wv (Proc.devRef .tc main_arg3) : Stack 4 256 256) (ix3 2 i j)
  after_results
  exact slabmat_apply 2 _ _ _ 2 (by rfl) i j

/-! ## Host stretch 7: mean and variance of the first product from its stats, the first normalisation's parameters -/

set_option maxHeartbeats 4000000 in
theorem h7_mean (j : Fin 256) : (StableHlo.after hostOps7 Wv (Proc.devRef .tc main_v132) : Arr 1 256) (ix2 0 j)
    = Ideal.div ((Wv (Proc.devRef .tc main_v121_1) : Arr 2 256) (ix2 0 j)) Cert.Spec.cnt := by
  after_results
  exact meanrow_apply 0 _ _ _ _ _ 0 rfl j

set_option maxHeartbeats 4000000 in
theorem h7_var (j : Fin 256) : (StableHlo.after hostOps7 Wv (Proc.devRef .tc main_v133) : Arr 1 256) (ix2 0 j)
    = Ideal.div ((Wv (Proc.devRef .tc main_v121_1) : Arr 2 256) (ix2 1 j)) Cert.Spec.cnt
      - Ideal.div ((Wv (Proc.devRef .tc main_v121_1) : Arr 2 256) (ix2 0 j)) Cert.Spec.cnt
        * Ideal.div ((Wv (Proc.devRef .tc main_v121_1) : Arr 2 256) (ix2 0 j)) Cert.Spec.cnt := by
  after_results
  exact varrow_apply _ _ _ _ _ _ j

set_option maxHeartbeats 4000000 in
theorem h7_g : Cert.Spec.row (StableHlo.after hostOps7 Wv (Proc.devRef .tc main_v136) : Arr 1 256) 0
    = Cert.Spec.row (Wv (Proc.devRef .tc main_arg4) : Arr 4 256) 2 := by
  funext j
  show StableHlo.after hostOps7 Wv (Proc.devRef .tc main_v136) (ix2 0 j) = (Wv (Proc.devRef .tc main_arg4) : Arr 4 256) (ix2 2 j)
  after_results
  exact parrow_apply 2 _ _ _ _ 2 (by rfl) j

set_option maxHeartbeats 4000000 in
theorem h7_b : Cert.Spec.row (StableHlo.after hostOps7 Wv (Proc.devRef .tc main_v139) : Arr 1 256) 0
    = Cert.Spec.row (Wv (Proc.devRef .tc main_arg5) : Arr 4 256) 2 := by
  funext j
  show StableHlo.after hostOps7 Wv (Proc.devRef .tc main_v139) (ix2 0 j) = (Wv (Proc.devRef .tc main_arg5) : Arr 4 256) (ix2 2 j)
  after_results
  exact parrow_apply 2 _ _ _ _ 2 (by rfl) j

/-! ## Host stretch 8: the same for the second product -/

set_option maxHeartbeats 4000000 in
theorem h8_mean (j : Fin 256) : (StableHlo.after hostOps8 Wv (Proc.devRef .tc main_v151) : Arr 1 256) (ix2 0 j)
    = Ideal.div ((Wv (Proc.devRef .tc main_v140_1) : Arr 2 256) (ix2 0 j)) Cert.Spec.cnt := by
  after_results
  exact meanrow_apply 0 _ _ _ _ _ 0 rfl j

set_option maxHeartbeats 4000000 in
theorem h8_var (j : Fin 256) : (StableHlo.after hostOps8 Wv (Proc.devRef .tc main_v152) : Arr 1 256) (ix2 0 j)
    = Ideal.div ((Wv (Proc.devRef .tc main_v140_1) : Arr 2 256) (ix2 1 j)) Cert.Spec.cnt
      - Ideal.div ((Wv (Proc.devRef .tc main_v140_1) : Arr 2 256) (ix2 0 j)) Cert.Spec.cnt
        * Ideal.div ((Wv (Proc.devRef .tc main_v140_1) : Arr 2 256) (ix2 0 j)) Cert.Spec.cnt := by
  after_results
  exact varrow_apply _ _ _ _ _ _ j

set_option maxHeartbeats 4000000 in
theorem h8_g : Cert.Spec.row (StableHlo.after hostOps8 Wv (Proc.devRef .tc main_v155) : Arr 1 256) 0
    = Cert.Spec.row (Wv (Proc.devRef .tc main_arg6) : Arr 4 256) 2 := by
  funext j
  show StableHlo.after hostOps8 Wv (Proc.devRef .tc main_v155) (ix2 0 j) = (Wv (Proc.devRef .tc main_arg6) : Arr 4 256) (ix2 2 j)
  after_results
  exact parrow_apply 2 _ _ _ _ 2 (by rfl) j

set_option maxHeartbeats 4000000 in
theorem h8_b : Cert.Spec.row (StableHlo.after hostOps8 Wv (Proc.devRef .tc main_v158) : Arr 1 256) 0
    = Cert.Spec.row (Wv (Proc.devRef .tc main_arg7) : Arr 4 256) 2 := by
  funext j
  show StableHlo.after hostOps8 Wv (Proc.devRef .tc main_v158) (ix2 0 j) = (Wv (Proc.devRef .tc main_arg7) : Arr 4 256) (ix2 2 j)
  after_results
  exact parrow_apply 2 _ _ _ _ 2 (by rfl) j

end Cert.KernelIdeal.HandV
end
-- ==== Proof.KI.ValL2.lean ====
/-
  Layer 2 of the kernel program's value: from the previous layer's output buffer, through host stretches 6 to 8 and
  regions 6 to 8, this layer's output buffer holds the layer of the specification at the kernel's variance, on the
  aggregation of the previous output.
-/
import proofs.«148047_j37898791420018_1_alg».proof.Proof.KI.Chain
import proofs.«148047_j37898791420018_1_alg».proof.Proof.Spec
import proofs.«148047_j37898791420018_1_alg».proof.Proof.KI.ValDefs
import proofs.«148047_j37898791420018_1_alg».proof.Proof.KI.ValHost2
import proofs.«148047_j37898791420018_1_alg».proof.Proof.KI.ValCarry
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec (Arr Vc Stack)

/-! ## What the layer's three regions leave, as hypotheses over any entry contents -/

/-- Region 6 leaves, in its third array, the product of its first two. -/
abbrev HV6 : Prop := ∀ (V : ((c : Dev nD) → (b : Ref sig .tc) → Buf (Elt Ideal) ((c : Thread nD τ).loc b))) (c : Dev nD), ((dat6 V c).arrAt 2 cfg6.N : Arr 50000 256)
    = Cert.Spec.mm (V c (Pipeline.arrRef spec6 0) : Arr 50000 256) (V c (Pipeline.arrRef spec6 1) : Arr 256 256)
/-- … and in its fourth the column sums of that product and of its squares. -/
abbrev HS6 : Prop := ∀ (V : ((c : Dev nD) → (b : Ref sig .tc) → Buf (Elt Ideal) ((c : Thread nD τ).loc b))) (c : Dev nD) (j : Fin 256),
    ((dat6 V c).arrAt 3 cfg6.N : Arr 2 256) (ix2 0 j)
        = Cert.Spec.colsum (Cert.Spec.mm (V c (Pipeline.arrRef spec6 0) : Arr 50000 256) (V c (Pipeline.arrRef spec6 1) : Arr 256 256)) j
      ∧ ((dat6 V c).arrAt 3 cfg6.N : Arr 2 256) (ix2 1 j)
        = Cert.Spec.colsumsq (Cert.Spec.mm (V c (Pipeline.arrRef spec6 0) : Arr 50000 256) (V c (Pipeline.arrRef spec6 1) : Arr 256 256)) j
/-- Region 7 leaves the product of the normalised, rectified first product with the second weights. -/
abbrev HV7 : Prop := ∀ (V : ((c : Dev nD) → (b : Ref sig .tc) → Buf (Elt Ideal) ((c : Thread nD τ).loc b))) (c : Dev nD), ((dat7 V c).arrAt 6 cfg7.N : Arr 50000 256)
    = Cert.Spec.mm (Cert.Spec.bnrelu (V c (Pipeline.arrRef spec7 0) : Arr 50000 256)
          (Cert.Spec.row (V c (Pipeline.arrRef spec7 1) : Arr 1 256) 0) (Cert.Spec.row (V c (Pipeline.arrRef spec7 2) : Arr 1 256) 0)
          (Cert.Spec.row (V c (Pipeline.arrRef spec7 3) : Arr 1 256) 0) (Cert.Spec.row (V c (Pipeline.arrRef spec7 4) : Arr 1 256) 0))
        (V c (Pipeline.arrRef spec7 5) : Arr 256 256)
/-- … and the column sums of that product and of its squares. -/
abbrev HS7 : Prop := ∀ (V : ((c : Dev nD) → (b : Ref sig .tc) → Buf (Elt Ideal) ((c : Thread nD τ).loc b))) (c : Dev nD) (j : Fin 256),
    ((dat7 V c).arrAt 7 cfg7.N : Arr 2 256) (ix2 0 j)
        = Cert.Spec.colsum (Cert.Spec.mm (Cert.Spec.bnrelu (V c (Pipeline.arrRef spec7 0) : Arr 50000 256)
          (Cert.Spec.row (V c (Pipeline.arrRef spec7 1) : Arr 1 256) 0) (Cert.Spec.row (V c (Pipeline.arrRef spec7 2) : Arr 1 256) 0)
          (Cert.Spec.row (V c (Pipeline.arrRef spec7 3) : Arr 1 256) 0) (Cert.Spec.row (V c (Pipeline.arrRef spec7 4) : Arr 1 256) 0))
        (V c (Pipeline.arrRef spec7 5) : Arr 256 256)) j
      ∧ ((dat7 V c).arrAt 7 cfg7.N : Arr 2 256) (ix2 1 j)
        = Cert.Spec.colsumsq (Cert.Spec.mm (Cert.Spec.bnrelu (V c (Pipeline.arrRef spec7 0) : Arr 50000 256)
          (Cert.Spec.row (V c (Pipeline.arrRef spec7 1) : Arr 1 256) 0) (Cert.Spec.row (V c (Pipeline.arrRef spec7 2) : Arr 1 256) 0)
          (Cert.Spec.row (V c (Pipeline.arrRef spec7 3) : Arr 1 256) 0) (Cert.Spec.row (V c (Pipeline.arrRef spec7 4) : Arr 1 256) 0))
        (V c (Pipeline.arrRef spec7 5) : Arr 256 256)) j
/-- Region 8 leaves the normalised, rectified second product. -/
abbrev HV8 : Prop := ∀ (V : ((c : Dev nD) → (b : Ref sig .tc) → Buf (Elt Ideal) ((c : Thread nD τ).loc b))) (c : Dev nD), ((dat8 V c).arrAt 5 cfg8.N : Arr 50000 256)
    = Cert.Spec.bnrelu (V c (Pipeline.arrRef spec8 0) : Arr 50000 256)
        (Cert.Spec.row (V c (Pipeline.arrRef spec8 1) : Arr 1 256) 0) (Cert.Spec.row (V c (Pipeline.arrRef spec8 2) : Arr 1 256) 0)
        (Cert.Spec.row (V c (Pipeline.arrRef spec8 3) : Arr 1 256) 0) (Cert.Spec.row (V c (Pipeline.arrRef spec8 4) : Arr 1 256) 0)

/-- The normalisation of equal arguments is equal. -/
private theorem bnrelu_congr {a b : Nat} {M M' : Arr a b} {mu mu' va va' g g' be be' : Vc b}
    (h0 : M = M') (h1 : mu = mu') (h2 : va = va') (h3 : g = g') (h4 : be = be') :
    Cert.Spec.bnrelu M mu va g be = Cert.Spec.bnrelu M' mu' va' g' be' := by
  subst h0 h1 h2 h3 h4; rfl

/-- The aggregation of equal arguments is equal. -/
private theorem agg256_congr {x x' : Arr 50000 256} {s s' d d' : IVec S800000 32} (h0 : x = x') (h1 : s = s') (h2 : d = d') :
    aggKer256 x s d = aggKer256 x' s' d' := by
  subst h0 h1 h2; rfl

/-! ## Layer 2: from the previous layer's output buffer to this layer's

The boundaries in turn: the aggregation and the two weight slabs after host stretch 6; the first product and its
stats after region 6; its mean, variance and the first normalisation's parameters after host stretch 7; the second
product and its stats after region 7; its mean, variance and parameters after host stretch 8; the output after
region 8. Every other buffer a step reads is carried unchanged to it. -/

set_option maxHeartbeats 1600000 in
theorem layer2_value (hv6 : HV6) (hs6 : HS6) (hv7 : HV7) (hs7 : HS7) (hv8 : HV8)
    (m : (ℓ : Loc nD τ sig) → Buf (Elt Ideal) ℓ) (c : Dev nD) (X : Arr 50000 256)
    (hX : (W12 m c (Proc.devRef .tc main_v105) : Arr 50000 256) = X) :
    (W18 m c (Proc.devRef .tc main_v159) : Arr 50000 256)
      = Cert.Spec.layer Cert.Spec.varK
          (aggKer256 X (m ((c : Thread nD τ).loc main_arg12)) (m ((c : Thread nD τ).loc main_arg13)))
          (Cert.Spec.slab ((m ((c : Thread nD τ).loc main_arg2)) : Stack 3 256 256) 1)
          (Cert.Spec.row ((m ((c : Thread nD τ).loc main_arg4)) : Arr 4 256) 2) (Cert.Spec.row ((m ((c : Thread nD τ).loc main_arg5)) : Arr 4 256) 2)
          (Cert.Spec.slab ((m ((c : Thread nD τ).loc main_arg3)) : Stack 4 256 256) 2)
          (Cert.Spec.row ((m ((c : Thread nD τ).loc main_arg6)) : Arr 4 256) 2) (Cert.Spec.row ((m ((c : Thread nD τ).loc main_arg7)) : Arr 4 256) 2) := by
  obtain ⟨ag, hag⟩ : ∃ ag : Arr 50000 256, ag = aggKer256 X (m ((c : Thread nD τ).loc main_arg12)) (m ((c : Thread nD τ).loc main_arg13)) := ⟨_, rfl⟩
  rw [← hag]
  -- after host stretch 6
  have a62 : (W13 m c (Proc.devRef .tc main_v116) : Arr 50000 256) = ag :=
    (h6_agg (W12 m c)).trans ((agg256_congr hX (carry_main_arg12_0_12 m c) (carry_main_arg13_0_12 m c)).trans hag.symm)
  have a64 : (W13 m c (Proc.devRef .tc main_v118) : Arr 256 256) = Cert.Spec.slab ((m ((c : Thread nD τ).loc main_arg2)) : Stack 3 256 256) 1 :=
    (h6_w1 (W12 m c)).trans (congrArg (fun T : Stack 3 256 256 => Cert.Spec.slab T 1) (carry_main_arg2_0_12 m c))
  have a66 : (W13 m c (Proc.devRef .tc main_v120) : Arr 256 256) = Cert.Spec.slab ((m ((c : Thread nD τ).loc main_arg3)) : Stack 4 256 256) 2 :=
    (h6_w2 (W12 m c)).trans (congrArg (fun T : Stack 4 256 256 => Cert.Spec.slab T 2) (carry_main_arg3_0_12 m c))
  -- after region 6
  obtain ⟨M1, hM1⟩ : ∃ M1 : Arr 50000 256, M1 = Cert.Spec.mm ag (Cert.Spec.slab ((m ((c : Thread nD τ).loc main_arg2)) : Stack 3 256 256) 1) := ⟨_, rfl⟩
  have hmm6 : Cert.Spec.mm (Hand.V13 m c (Pipeline.arrRef spec6 0) : Arr 50000 256) (Hand.V13 m c (Pipeline.arrRef spec6 1) : Arr 256 256) = M1 :=
    (congrArg₂ Cert.Spec.mm a62 a64).trans hM1.symm
  have b0 : (W14 m c (Proc.devRef .tc main_v121_0) : Arr 50000 256) = M1 := (W14_arr m c 2).trans ((hv6 (Hand.V13 m) c).trans hmm6)
  have b1 : ∀ j : Fin 256, (W14 m c (Proc.devRef .tc main_v121_1) : Arr 2 256) (ix2 0 j) = Cert.Spec.colsum M1 j
      ∧ (W14 m c (Proc.devRef .tc main_v121_1) : Arr 2 256) (ix2 1 j) = Cert.Spec.colsumsq M1 j := fun j => by
    have h := hs6 (Hand.V13 m) c j
    rw [hmm6] at h
    rw [show (W14 m c (Proc.devRef .tc main_v121_1) : Arr 2 256) = (dat6 (Hand.V13 m) c).arrAt 3 cfg6.N from W14_arr m c 3]
    exact h
  -- after host stretch 7
  have c78 : Cert.Spec.row (W15 m c (Proc.devRef .tc main_v132) : Arr 1 256) 0 = Cert.Spec.meanOf M1 := row_mean b1 (h7_mean (W14 m c))
  have c79 : Cert.Spec.row (W15 m c (Proc.devRef .tc main_v133) : Arr 1 256) 0 = Cert.Spec.varK M1 := row_var b1 (h7_var (W14 m c))
  have c82 : Cert.Spec.row (W15 m c (Proc.devRef .tc main_v136) : Arr 1 256) 0 = Cert.Spec.row ((m ((c : Thread nD τ).loc main_arg4)) : Arr 4 256) 2 :=
    (h7_g (W14 m c)).trans (congrArg (fun X : Arr 4 256 => Cert.Spec.row X 2) (carry_main_arg4_0_14 m c))
  have c85 : Cert.Spec.row (W15 m c (Proc.devRef .tc main_v139) : Arr 1 256) 0 = Cert.Spec.row ((m ((c : Thread nD τ).loc main_arg5)) : Arr 4 256) 2 :=
    (h7_b (W14 m c)).trans (congrArg (fun X : Arr 4 256 => Cert.Spec.row X 2) (carry_main_arg5_0_14 m c))
  have c67 : (W15 m c (Proc.devRef .tc main_v121_0) : Arr 50000 256) = M1 := (carry_main_v121_0_14_15 m c).trans b0
  have c66 : (W15 m c (Proc.devRef .tc main_v120) : Arr 256 256) = Cert.Spec.slab ((m ((c : Thread nD τ).loc main_arg3)) : Stack 4 256 256) 2 :=
    (carry_main_v120_13_15 m c).trans a66
  -- after region 7
  obtain ⟨M2, hM2⟩ : ∃ M2 : Arr 50000 256, M2 = Cert.Spec.mm (Cert.Spec.bnrelu M1 (Cert.Spec.meanOf M1) (Cert.Spec.varK M1)
      (Cert.Spec.row ((m ((c : Thread nD τ).loc main_arg4)) : Arr 4 256) 2) (Cert.Spec.row ((m ((c : Thread nD τ).loc main_arg5)) : Arr 4 256) 2))
      (Cert.Spec.slab ((m ((c : Thread nD τ).loc main_arg3)) : Stack 4 256 256) 2) := ⟨_, rfl⟩
  have hmm7 : Cert.Spec.mm (Cert.Spec.bnrelu (Hand.V15 m c (Pipeline.arrRef spec7 0) : Arr 50000 256)
          (Cert.Spec.row (Hand.V15 m c (Pipeline.arrRef spec7 1) : Arr 1 256) 0) (Cert.Spec.row (Hand.V15 m c (Pipeline.arrRef spec7 2) : Arr 1 256) 0)
          (Cert.Spec.row (Hand.V15 m c (Pipeline.arrRef spec7 3) : Arr 1 256) 0) (Cert.Spec.row (Hand.V15 m c (Pipeline.arrRef spec7 4) : Arr 1 256) 0))
        (Hand.V15 m c (Pipeline.arrRef spec7 5) : Arr 256 256) = M2 :=
    (congrArg₂ Cert.Spec.mm (bnrelu_congr c67 c78 c79 c82 c85) c66).trans hM2.symm
  have d0 : (W16 m c (Proc.devRef .tc main_v140_0) : Arr 50000 256) = M2 := (W16_arr m c 6).trans ((hv7 (Hand.V15 m) c).trans hmm7)
  have d1 : ∀ j : Fin 256, (W16 m c (Proc.devRef .tc main_v140_1) : Arr 2 256) (ix2 0 j) = Cert.Spec.colsum M2 j
      ∧ (W16 m c (Proc.devRef .tc main_v140_1) : Arr 2 256) (ix2 1 j) = Cert.Spec.colsumsq M2 j := fun j => by
    have h := hs7 (Hand.V15 m) c j
    rw [hmm7] at h
    rw [show (W16 m c (Proc.devRef .tc main_v140_1) : Arr 2 256) = (dat7 (Hand.V15 m) c).arrAt 7 cfg7.N from W16_arr m c 7]
    exact h
  -- after host stretch 8
  have e97 : Cert.Spec.row (W17 m c (Proc.devRef .tc main_v151) : Arr 1 256) 0 = Cert.Spec.meanOf M2 := row_mean d1 (h8_mean (W16 m c))
  have e98 : Cert.Spec.row (W17 m c (Proc.devRef .tc main_v152) : Arr 1 256) 0 = Cert.Spec.varK M2 := row_var d1 (h8_var (W16 m c))
  have e101 : Cert.Spec.row (W17 m c (Proc.devRef .tc main_v155) : Arr 1 256) 0 = Cert.Spec.row ((m ((c : Thread nD τ).loc main_arg6)) : Arr 4 256) 2 :=
    (h8_g (W16 m c)).trans (congrArg (fun X : Arr 4 256 => Cert.Spec.row X 2) (carry_main_arg6_0_16 m c))
  have e104 : Cert.Spec.row (W17 m c (Proc.devRef .tc main_v158) : Arr 1 256) 0 = Cert.Spec.row ((m ((c : Thread nD τ).loc main_arg7)) : Arr 4 256) 2 :=
    (h8_b (W16 m c)).trans (congrArg (fun X : Arr 4 256 => Cert.Spec.row X 2) (carry_main_arg7_0_16 m c))
  have e86 : (W17 m c (Proc.devRef .tc main_v140_0) : Arr 50000 256) = M2 := (carry_main_v140_0_16_17 m c).trans d0
  -- after region 8
  have f : (W18 m c (Proc.devRef .tc main_v159) : Arr 50000 256)
      = Cert.Spec.bnrelu M2 (Cert.Spec.meanOf M2) (Cert.Spec.varK M2)
          (Cert.Spec.row ((m ((c : Thread nD τ).loc main_arg6)) : Arr 4 256) 2) (Cert.Spec.row ((m ((c : Thread nD τ).loc main_arg7)) : Arr 4 256) 2) :=
    (W18_arr m c 5).trans ((hv8 (Hand.V17 m) c).trans (bnrelu_congr e86 e97 e98 e101 e104))
  rw [f, hM2, hM1]; rfl

end Cert.KernelIdeal.HandV
end
-- ==== Proof.KI.ValHost3.lean ====
/-
  The host glue of layer 3 read over any buffer contents: what each buffer a region of the layer takes holds after the
  stretch that writes it, as a term of the buffers the stretch reads.
-/
import proofs.«148047_j37898791420018_1_alg».proof.Proof.Gen.KernelIdeal.Launch
import proofs.«148047_j37898791420018_1_alg».proof.Proof.Gen.KernelIdeal.Regions
import proofs.«148047_j37898791420018_1_alg».proof.Proof.Spec
import proofs.«148047_j37898791420018_1_alg».proof.Proof.LibRealArith
import proofs.«148047_j37898791420018_1_alg».proof.Proof.KI.ValDefs
import Idealize.ShloMosaic.Lib.StableHlo.Run
import Idealize.ShloMosaic.Lib.ValueLayout
import Idealize.ShloMosaic.Lib.ValueIdx

set_option maxRecDepth 16384

noncomputable section

namespace Cert.KernelIdeal.HandV

open Cert.KernelIdeal Cert.KernelIdeal.Gen
open Idealize.ShloMosaic Idealize.ShloMosaic.TcCoe Idealize.ShloMosaic.ValueIdx
open Cert.Spec (Arr Vc Stack)

variable (Wv : Valuation τ sig (Elt Ideal))

/-! ## Host stretch 9: the aggregation of the previous layer's output and the layer's two weight slabs -/

set_option maxHeartbeats 4000000 in
theorem h9_agg : StableHlo.after hostOps9 Wv (Proc.devRef .tc main_v170)
    = aggKer256 (Wv (Proc.devRef .tc main_v159)) (Wv (Proc.devRef .tc main_arg12)) (Wv (Proc.devRef .tc main_arg13)) := by
  after_results; rfl

set_option maxHeartbeats 4000000 in
theorem h9_w1 : (StableHlo.after hostOps9 Wv (Proc.devRef .tc main_v172) : Arr 256 256)
    = Cert.Spec.slab (Wv (Proc.devRef .tc main_arg2) : Stack 3 256 256) 2 := by
  refine arr_ext fun i j => ?_
  show StableHlo.after hostOps9 Wv (Proc.devRef .tc main_v172) (ix2 i j) = (Wv (Proc.devRef .tc main_arg2) : Stack 3 256 256) (ix3 2 i j)
  after_results
  exact slabmat_apply 2 _ _ _ 2 (by rfl) i j

set_option maxHeartbeats 4000000 in
theorem h9_w2 : (StableHlo.after hostOps9 Wv (Proc.devRef .tc main_v174) : Arr 256 256)
    = Cert.Spec.slab (Wv (Proc.devRef .tc main_arg3) : Stack 4 256 256) 3 := by
  refine arr_ext fun i j => ?_
  show StableHlo.after hostOps9 Wv (Proc.devRef .tc main_v174) (ix2 i j) = (Wv (Proc.devRef .tc main_arg3) : Stack 4 256 256) (ix3 3 i j)
  after_results
  exact slabmat_apply 3 _ _ _ 3 (by rfl) i j

/-! ## Host stretch 10: mean and variance of the first product from its stats, the first normalisation's parameters -/

set_option maxHeartbeats 4000000 in
theorem h10_mean (j : Fin 256) : (StableHlo.after hostOps10 Wv (Proc.devRef .tc main_v186) : Arr 1 256) (ix2 0 j)
    = Ideal.div ((Wv (Proc.devRef .tc main_v175_1) : Arr 2 256) (ix2 0 j)) Cert.Spec.cnt := by
  after_results
  exact meanrow_apply 0 _ _ _ _ _ 0 rfl j

set_option maxHeartbeats 4000000 in
theorem h10_var (j : Fin 256) : (StableHlo.after hostOps10 Wv (Proc.devRef .tc main_v187) : Arr 1 256) (ix2 0 j)
    = Ideal.div ((Wv (Proc.devRef .tc main_v175_1) : Arr 2 256) (ix2 1 j)) Cert.Spec.cnt
      - Ideal.div ((Wv (Proc.devRef .tc main_v175_1) : Arr 2 256) (ix2 0 j)) Cert.Spec.cnt
        * Ideal.div ((Wv (Proc.devRef .tc main_v175_1) : Arr 2 256) (ix2 0 j)) Cert.Spec.cnt := by
  after_results
  exact varrow_apply _ _ _ _ _ _ j

set_option maxHeartbeats 4000000 in
theorem h10_g : Cert.Spec.row (StableHlo.after hostOps10 Wv (Proc.devRef .tc main_v190) : Arr 1 256) 0
    = Cert.Spec.row (Wv (Proc.devRef .tc main_arg4) : Arr 4 256) 3 := by
  funext j
  show StableHlo.after hostOps10 Wv (Proc.devRef .tc main_v190) (ix2 0 j) = (Wv (Proc.devRef .tc main_arg4) : Arr 4 256) (ix2 3 j)
  after_results
  exact parrow_apply 3 _ _ _ _ 3 (by rfl) j

set_option maxHeartbeats 4000000 in
theorem h10_b : Cert.Spec.row (StableHlo.after hostOps10 Wv (Proc.devRef .tc main_v193) : Arr 1 256) 0
    = Cert.Spec.row (Wv (Proc.devRef .tc main_arg5) : Arr 4 256) 3 := by
  funext j
  show StableHlo.after hostOps10 Wv (Proc.devRef .tc main_v193) (ix2 0 j) = (Wv (Proc.devRef .tc main_arg5) : Arr 4 256) (ix2 3 j)
  after_results
  exact parrow_apply 3 _ _ _ _ 3 (by rfl) j

/-! ## Host stretch 11: the same for the second product -/

set_option maxHeartbeats 4000000 in
theorem h11_mean (j : Fin 256) : (StableHlo.after hostOps11 Wv (Proc.devRef .tc main_v205) : Arr 1 256) (ix2 0 j)
    = Ideal.div ((Wv (Proc.devRef .tc main_v194_1) : Arr 2 256) (ix2 0 j)) Cert.Spec.cnt := by
  after_results
  exact meanrow_apply 0 _ _ _ _ _ 0 rfl j

set_option maxHeartbeats 4000000 in
theorem h11_var (j : Fin 256) : (StableHlo.after hostOps11 Wv (Proc.devRef .tc main_v206) : Arr 1 256) (ix2 0 j)
    = Ideal.div ((Wv (Proc.devRef .tc main_v194_1) : Arr 2 256) (ix2 1 j)) Cert.Spec.cnt
      - Ideal.div ((Wv (Proc.devRef .tc main_v194_1) : Arr 2 256) (ix2 0 j)) Cert.Spec.cnt
        * Ideal.div ((Wv (Proc.devRef .tc main_v194_1) : Arr 2 256) (ix2 0 j)) Cert.Spec.cnt := by
  after_results
  exact varrow_apply _ _ _ _ _ _ j

set_option maxHeartbeats 4000000 in
theorem h11_g : Cert.Spec.row (StableHlo.after hostOps11 Wv (Proc.devRef .tc main_v209) : Arr 1 256) 0
    = Cert.Spec.row (Wv (Proc.devRef .tc main_arg6) : Arr 4 256) 3 := by
  funext j
  show StableHlo.after hostOps11 Wv (Proc.devRef .tc main_v209) (ix2 0 j) = (Wv (Proc.devRef .tc main_arg6) : Arr 4 256) (ix2 3 j)
  after_results
  exact parrow_apply 3 _ _ _ _ 3 (by rfl) j

set_option maxHeartbeats 4000000 in
theorem h11_b : Cert.Spec.row (StableHlo.after hostOps11 Wv (Proc.devRef .tc main_v212) : Arr 1 256) 0
    = Cert.Spec.row (Wv (Proc.devRef .tc main_arg7) : Arr 4 256) 3 := by
  funext j
  show StableHlo.after hostOps11 Wv (Proc.devRef .tc main_v212) (ix2 0 j) = (Wv (Proc.devRef .tc main_arg7) : Arr 4 256) (ix2 3 j)
  after_results
  exact parrow_apply 3 _ _ _ _ 3 (by rfl) j

end Cert.KernelIdeal.HandV
end
-- ==== Proof.KI.ValL3.lean ====
/-
  Layer 3 of the kernel program's value: from the previous layer's output buffer, through host stretches 9 to 11 and
  regions 9 to 11, this layer's output buffer holds the layer of the specification at the kernel's variance, on the
  aggregation of the previous output.
-/
import proofs.«148047_j37898791420018_1_alg».proof.Proof.KI.Chain
import proofs.«148047_j37898791420018_1_alg».proof.Proof.Spec
import proofs.«148047_j37898791420018_1_alg».proof.Proof.KI.ValDefs
import proofs.«148047_j37898791420018_1_alg».proof.Proof.KI.ValHost3
import proofs.«148047_j37898791420018_1_alg».proof.Proof.KI.ValCarry
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec (Arr Vc Stack)

/-! ## What the layer's three regions leave, as hypotheses over any entry contents -/

/-- Region 9 leaves, in its third array, the product of its first two. -/
abbrev HV9 : Prop := ∀ (V : ((c : Dev nD) → (b : Ref sig .tc) → Buf (Elt Ideal) ((c : Thread nD τ).loc b))) (c : Dev nD), ((dat9 V c).arrAt 2 cfg9.N : Arr 50000 256)
    = Cert.Spec.mm (V c (Pipeline.arrRef spec9 0) : Arr 50000 256) (V c (Pipeline.arrRef spec9 1) : Arr 256 256)
/-- … and in its fourth the column sums of that product and of its squares. -/
abbrev HS9 : Prop := ∀ (V : ((c : Dev nD) → (b : Ref sig .tc) → Buf (Elt Ideal) ((c : Thread nD τ).loc b))) (c : Dev nD) (j : Fin 256),
    ((dat9 V c).arrAt 3 cfg9.N : Arr 2 256) (ix2 0 j)
        = Cert.Spec.colsum (Cert.Spec.mm (V c (Pipeline.arrRef spec9 0) : Arr 50000 256) (V c (Pipeline.arrRef spec9 1) : Arr 256 256)) j
      ∧ ((dat9 V c).arrAt 3 cfg9.N : Arr 2 256) (ix2 1 j)
        = Cert.Spec.colsumsq (Cert.Spec.mm (V c (Pipeline.arrRef spec9 0) : Arr 50000 256) (V c (Pipeline.arrRef spec9 1) : Arr 256 256)) j
/-- Region 10 leaves the product of the normalised, rectified first product with the second weights. -/
abbrev HV10 : Prop := ∀ (V : ((c : Dev nD) → (b : Ref sig .tc) → Buf (Elt Ideal) ((c : Thread nD τ).loc b))) (c : Dev nD), ((dat10 V c).arrAt 6 cfg10.N : Arr 50000 256)
    = Cert.Spec.mm (Cert.Spec.bnrelu (V c (Pipeline.arrRef spec10 0) : Arr 50000 256)
          (Cert.Spec.row (V c (Pipeline.arrRef spec10 1) : Arr 1 256) 0) (Cert.Spec.row (V c (Pipeline.arrRef spec10 2) : Arr 1 256) 0)
          (Cert.Spec.row (V c (Pipeline.arrRef spec10 3) : Arr 1 256) 0) (Cert.Spec.row (V c (Pipeline.arrRef spec10 4) : Arr 1 256) 0))
        (V c (Pipeline.arrRef spec10 5) : Arr 256 256)
/-- … and the column sums of that product and of its squares. -/
abbrev HS10 : Prop := ∀ (V : ((c : Dev nD) → (b : Ref sig .tc) → Buf (Elt Ideal) ((c : Thread nD τ).loc b))) (c : Dev nD) (j : Fin 256),
    ((dat10 V c).arrAt 7 cfg10.N : Arr 2 256) (ix2 0 j)
        = Cert.Spec.colsum (Cert.Spec.mm (Cert.Spec.bnrelu (V c (Pipeline.arrRef spec10 0) : Arr 50000 256)
          (Cert.Spec.row (V c (Pipeline.arrRef spec10 1) : Arr 1 256) 0) (Cert.Spec.row (V c (Pipeline.arrRef spec10 2) : Arr 1 256) 0)
          (Cert.Spec.row (V c (Pipeline.arrRef spec10 3) : Arr 1 256) 0) (Cert.Spec.row (V c (Pipeline.arrRef spec10 4) : Arr 1 256) 0))
        (V c (Pipeline.arrRef spec10 5) : Arr 256 256)) j
      ∧ ((dat10 V c).arrAt 7 cfg10.N : Arr 2 256) (ix2 1 j)
        = Cert.Spec.colsumsq (Cert.Spec.mm (Cert.Spec.bnrelu (V c (Pipeline.arrRef spec10 0) : Arr 50000 256)
          (Cert.Spec.row (V c (Pipeline.arrRef spec10 1) : Arr 1 256) 0) (Cert.Spec.row (V c (Pipeline.arrRef spec10 2) : Arr 1 256) 0)
          (Cert.Spec.row (V c (Pipeline.arrRef spec10 3) : Arr 1 256) 0) (Cert.Spec.row (V c (Pipeline.arrRef spec10 4) : Arr 1 256) 0))
        (V c (Pipeline.arrRef spec10 5) : Arr 256 256)) j
/-- Region 11 leaves the normalised, rectified second product. -/
abbrev HV11 : Prop := ∀ (V : ((c : Dev nD) → (b : Ref sig .tc) → Buf (Elt Ideal) ((c : Thread nD τ).loc b))) (c : Dev nD), ((dat11 V c).arrAt 5 cfg11.N : Arr 50000 256)
    = Cert.Spec.bnrelu (V c (Pipeline.arrRef spec11 0) : Arr 50000 256)
        (Cert.Spec.row (V c (Pipeline.arrRef spec11 1) : Arr 1 256) 0) (Cert.Spec.row (V c (Pipeline.arrRef spec11 2) : Arr 1 256) 0)
        (Cert.Spec.row (V c (Pipeline.arrRef spec11 3) : Arr 1 256) 0) (Cert.Spec.row (V c (Pipeline.arrRef spec11 4) : Arr 1 256) 0)

/-- The normalisation of equal arguments is equal. -/
private theorem bnrelu_congr {a b : Nat} {M M' : Arr a b} {mu mu' va va' g g' be be' : Vc b}
    (h0 : M = M') (h1 : mu = mu') (h2 : va = va') (h3 : g = g') (h4 : be = be') :
    Cert.Spec.bnrelu M mu va g be = Cert.Spec.bnrelu M' mu' va' g' be' := by
  subst h0 h1 h2 h3 h4; rfl

/-- The aggregation of equal arguments is equal. -/
private theorem agg256_congr {x x' : Arr 50000 256} {s s' d d' : IVec S800000 32} (h0 : x = x') (h1 : s = s') (h2 : d = d') :
    aggKer256 x s d = aggKer256 x' s' d' := by
  subst h0 h1 h2; rfl

/-! ## Layer 3: from the previous layer's output buffer to this layer's

The boundaries in turn: the aggregation and the two weight slabs after host stretch 9; the first product and its
stats after region 9; its mean, variance and the first normalisation's parameters after host stretch 10; the second
product and its stats after region 10; its mean, variance and parameters after host stretch 11; the output after
region 11. Every other buffer a step reads is carried unchanged to it. -/

set_option maxHeartbeats 1600000 in
theorem layer3_value (hv9 : HV9) (hs9 : HS9) (hv10 : HV10) (hs10 : HS10) (hv11 : HV11)
    (m : (ℓ : Loc nD τ sig) → Buf (Elt Ideal) ℓ) (c : Dev nD) (X : Arr 50000 256)
    (hX : (W18 m c (Proc.devRef .tc main_v159) : Arr 50000 256) = X) :
    (W24 m c (Proc.devRef .tc main_v213) : Arr 50000 256)
      = Cert.Spec.layer Cert.Spec.varK
          (aggKer256 X (m ((c : Thread nD τ).loc main_arg12)) (m ((c : Thread nD τ).loc main_arg13)))
          (Cert.Spec.slab ((m ((c : Thread nD τ).loc main_arg2)) : Stack 3 256 256) 2)
          (Cert.Spec.row ((m ((c : Thread nD τ).loc main_arg4)) : Arr 4 256) 3) (Cert.Spec.row ((m ((c : Thread nD τ).loc main_arg5)) : Arr 4 256) 3)
          (Cert.Spec.slab ((m ((c : Thread nD τ).loc main_arg3)) : Stack 4 256 256) 3)
          (Cert.Spec.row ((m ((c : Thread nD τ).loc main_arg6)) : Arr 4 256) 3) (Cert.Spec.row ((m ((c : Thread nD τ).loc main_arg7)) : Arr 4 256) 3) := by
  obtain ⟨ag, hag⟩ : ∃ ag : Arr 50000 256, ag = aggKer256 X (m ((c : Thread nD τ).loc main_arg12)) (m ((c : Thread nD τ).loc main_arg13)) := ⟨_, rfl⟩
  rw [← hag]
  -- after host stretch 9
  have a62 : (W19 m c (Proc.devRef .tc main_v170) : Arr 50000 256) = ag :=
    (h9_agg (W18 m c)).trans ((agg256_congr hX (carry_main_arg12_0_18 m c) (carry_main_arg13_0_18 m c)).trans hag.symm)
  have a64 : (W19 m c (Proc.devRef .tc main_v172) : Arr 256 256) = Cert.Spec.slab ((m ((c : Thread nD τ).loc main_arg2)) : Stack 3 256 256) 2 :=
    (h9_w1 (W18 m c)).trans (congrArg (fun T : Stack 3 256 256 => Cert.Spec.slab T 2) (carry_main_arg2_0_18 m c))
  have a66 : (W19 m c (Proc.devRef .tc main_v174) : Arr 256 256) = Cert.Spec.slab ((m ((c : Thread nD τ).loc main_arg3)) : Stack 4 256 256) 3 :=
    (h9_w2 (W18 m c)).trans (congrArg (fun T : Stack 4 256 256 => Cert.Spec.slab T 3) (carry_main_arg3_0_18 m c))
  -- after region 9
  obtain ⟨M1, hM1⟩ : ∃ M1 : Arr 50000 256, M1 = Cert.Spec.mm ag (Cert.Spec.slab ((m ((c : Thread nD τ).loc main_arg2)) : Stack 3 256 256) 2) := ⟨_, rfl⟩
  have hmm9 : Cert.Spec.mm (Hand.V19 m c (Pipeline.arrRef spec9 0) : Arr 50000 256) (Hand.V19 m c (Pipeline.arrRef spec9 1) : Arr 256 256) = M1 :=
    (congrArg₂ Cert.Spec.mm a62 a64).trans hM1.symm
  have b0 : (W20 m c (Proc.devRef .tc main_v175_0) : Arr 50000 256) = M1 := (W20_arr m c 2).trans ((hv9 (Hand.V19 m) c).trans hmm9)
  have b1 : ∀ j : Fin 256, (W20 m c (Proc.devRef .tc main_v175_1) : Arr 2 256) (ix2 0 j) = Cert.Spec.colsum M1 j
      ∧ (W20 m c (Proc.devRef .tc main_v175_1) : Arr 2 256) (ix2 1 j) = Cert.Spec.colsumsq M1 j := fun j => by
    have h := hs9 (Hand.V19 m) c j
    rw [hmm9] at h
    rw [show (W20 m c (Proc.devRef .tc main_v175_1) : Arr 2 256) = (dat9 (Hand.V19 m) c).arrAt 3 cfg9.N from W20_arr m c 3]
    exact h
  -- after host stretch 10
  have c78 : Cert.Spec.row (W21 m c (Proc.devRef .tc main_v186) : Arr 1 256) 0 = Cert.Spec.meanOf M1 := row_mean b1 (h10_mean (W20 m c))
  have c79 : Cert.Spec.row (W21 m c (Proc.devRef .tc main_v187) : Arr 1 256) 0 = Cert.Spec.varK M1 := row_var b1 (h10_var (W20 m c))
  have c82 : Cert.Spec.row (W21 m c (Proc.devRef .tc main_v190) : Arr 1 256) 0 = Cert.Spec.row ((m ((c : Thread nD τ).loc main_arg4)) : Arr 4 256) 3 :=
    (h10_g (W20 m c)).trans (congrArg (fun X : Arr 4 256 => Cert.Spec.row X 3) (carry_main_arg4_0_20 m c))
  have c85 : Cert.Spec.row (W21 m c (Proc.devRef .tc main_v193) : Arr 1 256) 0 = Cert.Spec.row ((m ((c : Thread nD τ).loc main_arg5)) : Arr 4 256) 3 :=
    (h10_b (W20 m c)).trans (congrArg (fun X : Arr 4 256 => Cert.Spec.row X 3) (carry_main_arg5_0_20 m c))
  have c67 : (W21 m c (Proc.devRef .tc main_v175_0) : Arr 50000 256) = M1 := (carry_main_v175_0_20_21 m c).trans b0
  have c66 : (W21 m c (Proc.devRef .tc main_v174) : Arr 256 256) = Cert.Spec.slab ((m ((c : Thread nD τ).loc main_arg3)) : Stack 4 256 256) 3 :=
    (carry_main_v174_19_21 m c).trans a66
  -- after region 10
  obtain ⟨M2, hM2⟩ : ∃ M2 : Arr 50000 256, M2 = Cert.Spec.mm (Cert.Spec.bnrelu M1 (Cert.Spec.meanOf M1) (Cert.Spec.varK M1)
      (Cert.Spec.row ((m ((c : Thread nD τ).loc main_arg4)) : Arr 4 256) 3) (Cert.Spec.row ((m ((c : Thread nD τ).loc main_arg5)) : Arr 4 256) 3))
      (Cert.Spec.slab ((m ((c : Thread nD τ).loc main_arg3)) : Stack 4 256 256) 3) := ⟨_, rfl⟩
  have hmm10 : Cert.Spec.mm (Cert.Spec.bnrelu (Hand.V21 m c (Pipeline.arrRef spec10 0) : Arr 50000 256)
          (Cert.Spec.row (Hand.V21 m c (Pipeline.arrRef spec10 1) : Arr 1 256) 0) (Cert.Spec.row (Hand.V21 m c (Pipeline.arrRef spec10 2) : Arr 1 256) 0)
          (Cert.Spec.row (Hand.V21 m c (Pipeline.arrRef spec10 3) : Arr 1 256) 0) (Cert.Spec.row (Hand.V21 m c (Pipeline.arrRef spec10 4) : Arr 1 256) 0))
        (Hand.V21 m c (Pipeline.arrRef spec10 5) : Arr 256 256) = M2 :=
    (congrArg₂ Cert.Spec.mm (bnrelu_congr c67 c78 c79 c82 c85) c66).trans hM2.symm
  have d0 : (W22 m c (Proc.devRef .tc main_v194_0) : Arr 50000 256) = M2 := (W22_arr m c 6).trans ((hv10 (Hand.V21 m) c).trans hmm10)
  have d1 : ∀ j : Fin 256, (W22 m c (Proc.devRef .tc main_v194_1) : Arr 2 256) (ix2 0 j) = Cert.Spec.colsum M2 j
      ∧ (W22 m c (Proc.devRef .tc main_v194_1) : Arr 2 256) (ix2 1 j) = Cert.Spec.colsumsq M2 j := fun j => by
    have h := hs10 (Hand.V21 m) c j
    rw [hmm10] at h
    rw [show (W22 m c (Proc.devRef .tc main_v194_1) : Arr 2 256) = (dat10 (Hand.V21 m) c).arrAt 7 cfg10.N from W22_arr m c 7]
    exact h
  -- after host stretch 11
  have e97 : Cert.Spec.row (W23 m c (Proc.devRef .tc main_v205) : Arr 1 256) 0 = Cert.Spec.meanOf M2 := row_mean d1 (h11_mean (W22 m c))
  have e98 : Cert.Spec.row (W23 m c (Proc.devRef .tc main_v206) : Arr 1 256) 0 = Cert.Spec.varK M2 := row_var d1 (h11_var (W22 m c))
  have e101 : Cert.Spec.row (W23 m c (Proc.devRef .tc main_v209) : Arr 1 256) 0 = Cert.Spec.row ((m ((c : Thread nD τ).loc main_arg6)) : Arr 4 256) 3 :=
    (h11_g (W22 m c)).trans (congrArg (fun X : Arr 4 256 => Cert.Spec.row X 3) (carry_main_arg6_0_22 m c))
  have e104 : Cert.Spec.row (W23 m c (Proc.devRef .tc main_v212) : Arr 1 256) 0 = Cert.Spec.row ((m ((c : Thread nD τ).loc main_arg7)) : Arr 4 256) 3 :=
    (h11_b (W22 m c)).trans (congrArg (fun X : Arr 4 256 => Cert.Spec.row X 3) (carry_main_arg7_0_22 m c))
  have e86 : (W23 m c (Proc.devRef .tc main_v194_0) : Arr 50000 256) = M2 := (carry_main_v194_0_22_23 m c).trans d0
  -- after region 11
  have f : (W24 m c (Proc.devRef .tc main_v213) : Arr 50000 256)
      = Cert.Spec.bnrelu M2 (Cert.Spec.meanOf M2) (Cert.Spec.varK M2)
          (Cert.Spec.row ((m ((c : Thread nD τ).loc main_arg6)) : Arr 4 256) 3) (Cert.Spec.row ((m ((c : Thread nD τ).loc main_arg7)) : Arr 4 256) 3) :=
    (W24_arr m c 5).trans ((hv11 (Hand.V23 m) c).trans (bnrelu_congr e86 e97 e98 e101 e104))
  rw [f, hM2, hM1]; rfl

end Cert.KernelIdeal.HandV
end
-- ==== Proof.KI.ValHead.lean ====
import proofs.«148047_j37898791420018_1_alg».proof.Proof.KI.Chain
import proofs.«148047_j37898791420018_1_alg».proof.Proof.KI.ValCarry
import proofs.«148047_j37898791420018_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! # The kernel program's result: the linear heads over the input and the four layers' outputs

The last region sums the heads. Its input arrays, as it finds them, are the launch input, the four layers' outputs as
their regions left them, and the launch head parameters: nothing in between writes them. The one array made on the
way is the first head's offsets, the launch vector of 64 offsets reshaped to one row. -/

/-- The first head's offsets as the last region finds them — row 0 of the one-row array the last host stretch makes —
    are the launch vector of offsets. -/
theorem head_offsets0 (c : Dev nD) :
    Cert.Spec.row (V25 m c (Pipeline.arrRef spec12 6) : Cert.Spec.Arr 1 64) 0 = Cert.Spec.vec (m ((c : Thread nD τ).loc main_arg9)) := by
  funext j
  show StableHlo.after hostOps12 (W24 m c) (Proc.devRef .tc main_v214) (ix2 0 j) = m ((c : Thread nD τ).loc main_arg9) (ix1 j)
  after_results
  exact (ValueIdx.shapeCast_a_1a_apply (W24 m c (Proc.devRef .tc main_arg9)) shapeCasts_S64_S1x64 0 j).trans
    (congrFun (carry_main_arg9_0_24 m c) (ix1 j))

/-- The last region's input array 0, as the region finds it, is the launch input. -/
theorem head_in0 (c : Dev nD) : (V25 m c (Pipeline.arrRef spec12 0) : Cert.Spec.Arr 50000 128) = m ((c : Thread nD τ).loc main_arg0) := carry_main_arg0_0_25 m c

/-- The last region's input array 1, as the region finds it, is the first layer's output as region 2 left it. -/
theorem head_in1 (c : Dev nD) : (V25 m c (Pipeline.arrRef spec12 1) : Cert.Spec.Arr 50000 256) = W6 m c (Proc.devRef .tc main_v51) := carry_main_v51_6_25 m c

/-- The last region's input array 2, as the region finds it, is the second layer's output as region 5 left it. -/
theorem head_in2 (c : Dev nD) : (V25 m c (Pipeline.arrRef spec12 2) : Cert.Spec.Arr 50000 256) = W12 m c (Proc.devRef .tc main_v105) := carry_main_v105_12_25 m c

/-- The last region's input array 3, as the region finds it, is the third layer's output as region 8 left it. -/
theorem head_in3 (c : Dev nD) : (V25 m c (Pipeline.arrRef spec12 3) : Cert.Spec.Arr 50000 256) = W18 m c (Proc.devRef .tc main_v159) := carry_main_v159_18_25 m c

/-- The last region's input array 4, as the region finds it, is the fourth layer's output as region 11 left it. -/
theorem head_in4 (c : Dev nD) : (V25 m c (Pipeline.arrRef spec12 4) : Cert.Spec.Arr 50000 256) = W24 m c (Proc.devRef .tc main_v213) := carry_main_v213_24_25 m c

/-- The last region's input array 5, as the region finds it, is the launch weights of the first head. -/
theorem head_in5 (c : Dev nD) : (V25 m c (Pipeline.arrRef spec12 5) : Cert.Spec.Arr 128 64) = m ((c : Thread nD τ).loc main_arg8) := carry_main_arg8_0_25 m c

/-- The last region's input array 7, as the region finds it, is the launch weights of the four layer heads. -/
theorem head_in7 (c : Dev nD) : (V25 m c (Pipeline.arrRef spec12 7) : Cert.Spec.Stack 4 256 64) = m ((c : Thread nD τ).loc main_arg10) := carry_main_arg10_0_25 m c

/-- The last region's input array 8, as the region finds it, is the launch offsets of the four layer heads. -/
theorem head_in8 (c : Dev nD) : (V25 m c (Pipeline.arrRef spec12 8) : Cert.Spec.Arr 4 64) = m ((c : Thread nD τ).loc main_arg11) := carry_main_arg11_0_25 m c

set_option maxHeartbeats 2000000 in
/-- THE RESULT of the kernel program, given the last region's value: the heads of the launch input and of the four
    layers' outputs (each as its region left it), at the launch head parameters. -/
theorem head_value
    (hv12 : ∀ (V : (c : Dev nD) → (b : Ref sig .tc) → Buf (Elt Ideal) ((c : Thread nD τ).loc b)) (c : Dev nD),
    ((dat12 V c).arrAt 9 cfg12.N : Cert.Spec.Arr 50000 64)
      = Cert.Spec.head (V c (Pipeline.arrRef spec12 0) : Cert.Spec.Arr 50000 128) (V c (Pipeline.arrRef spec12 1)) (V c (Pipeline.arrRef spec12 2))
          (V c (Pipeline.arrRef spec12 3)) (V c (Pipeline.arrRef spec12 4)) (V c (Pipeline.arrRef spec12 5) : Cert.Spec.Arr 128 64)
          (Cert.Spec.row (V c (Pipeline.arrRef spec12 6) : Cert.Spec.Arr 1 64) 0)
          (Cert.Spec.slab (V c (Pipeline.arrRef spec12 7) : Cert.Spec.Stack 4 256 64) 0) (Cert.Spec.slab (V c (Pipeline.arrRef spec12 7) : Cert.Spec.Stack 4 256 64) 1)
          (Cert.Spec.slab (V c (Pipeline.arrRef spec12 7) : Cert.Spec.Stack 4 256 64) 2) (Cert.Spec.slab (V c (Pipeline.arrRef spec12 7) : Cert.Spec.Stack 4 256 64) 3)
          (Cert.Spec.row (V c (Pipeline.arrRef spec12 8) : Cert.Spec.Arr 4 64) 0) (Cert.Spec.row (V c (Pipeline.arrRef spec12 8) : Cert.Spec.Arr 4 64) 1)
          (Cert.Spec.row (V c (Pipeline.arrRef spec12 8) : Cert.Spec.Arr 4 64) 2) (Cert.Spec.row (V c (Pipeline.arrRef spec12 8) : Cert.Spec.Arr 4 64) 3))
    (m : (ℓ : Loc nD τ sig) → Buf (Elt Ideal) ℓ) (c : Dev nD) :
    (W26 m c (Proc.devRef .tc main_v215) : Cert.Spec.Arr 50000 64)
      = Cert.Spec.head (m ((c : Thread nD τ).loc main_arg0) : Cert.Spec.Arr 50000 128)
          (W6 m c (Proc.devRef .tc main_v51)) (W12 m c (Proc.devRef .tc main_v105)) (W18 m c (Proc.devRef .tc main_v159))
          (W24 m c (Proc.devRef .tc main_v213)) (m ((c : Thread nD τ).loc main_arg8) : Cert.Spec.Arr 128 64)
          (Cert.Spec.vec (m ((c : Thread nD τ).loc main_arg9)))
          (Cert.Spec.slab (m ((c : Thread nD τ).loc main_arg10) : Cert.Spec.Stack 4 256 64) 0) (Cert.Spec.slab (m ((c : Thread nD τ).loc main_arg10) : Cert.Spec.Stack 4 256 64) 1)
          (Cert.Spec.slab (m ((c : Thread nD τ).loc main_arg10) : Cert.Spec.Stack 4 256 64) 2) (Cert.Spec.slab (m ((c : Thread nD τ).loc main_arg10) : Cert.Spec.Stack 4 256 64) 3)
          (Cert.Spec.row (m ((c : Thread nD τ).loc main_arg11) : Cert.Spec.Arr 4 64) 0) (Cert.Spec.row (m ((c : Thread nD τ).loc main_arg11) : Cert.Spec.Arr 4 64) 1)
          (Cert.Spec.row (m ((c : Thread nD τ).loc main_arg11) : Cert.Spec.Arr 4 64) 2) (Cert.Spec.row (m ((c : Thread nD τ).loc main_arg11) : Cert.Spec.Arr 4 64) 3) := by
  have h := hv12 (V25 m) c
  rw [head_offsets0 m c, head_in0 m c, head_in1 m c, head_in2 m c, head_in3 m c, head_in4 m c, head_in5 m c, head_in7 m c, head_in8 m c] at h
  exact (W26_arr m c 9).trans h

end Cert.KernelIdeal.HandV

end
-- ==== Proof.KI.Val.lean ====
/-
  The kernel program's value: the result buffer after the last region holds the network of the specification at the
  kernel's column variance (mean of squares minus squared mean), over the aggregation as the host glue prints it.
  The four layers' output buffers hold the four layers in turn, each on the aggregation of the one before; the last
  region's heads run over the input and those four buffers.
-/
import proofs.«148047_j37898791420018_1_alg».proof.Proof.KI.ValL0
import proofs.«148047_j37898791420018_1_alg».proof.Proof.KI.ValL1
import proofs.«148047_j37898791420018_1_alg».proof.Proof.KI.ValL2
import proofs.«148047_j37898791420018_1_alg».proof.Proof.KI.ValL3
import proofs.«148047_j37898791420018_1_alg».proof.Proof.KI.ValHead

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec (Arr Vc Stack)

set_option maxHeartbeats 1600000 in
theorem ker_value (hv0 : HV0) (hs0 : HS0) (hv1 : HV1) (hs1 : HS1) (hv2 : HV2)
    (hv3 : HV3) (hs3 : HS3) (hv4 : HV4) (hs4 : HS4) (hv5 : HV5)
    (hv6 : HV6) (hs6 : HS6) (hv7 : HV7) (hs7 : HS7) (hv8 : HV8)
    (hv9 : HV9) (hs9 : HS9) (hv10 : HV10) (hs10 : HS10) (hv11 : HV11)
    (hv12 : ∀ (V : ((c : Dev nD) → (b : Ref sig .tc) → Buf (Elt Ideal) ((c : Thread nD τ).loc b))) (c : Dev nD),
      ((dat12 V c).arrAt 9 cfg12.N : Arr 50000 64)
        = Cert.Spec.head (V c (Pipeline.arrRef spec12 0) : Arr 50000 128) (V c (Pipeline.arrRef spec12 1)) (V c (Pipeline.arrRef spec12 2))
            (V c (Pipeline.arrRef spec12 3)) (V c (Pipeline.arrRef spec12 4)) (V c (Pipeline.arrRef spec12 5) : Arr 128 64)
            (Cert.Spec.row (V c (Pipeline.arrRef spec12 6) : Arr 1 64) 0)
            (Cert.Spec.slab (V c (Pipeline.arrRef spec12 7) : Stack 4 256 64) 0) (Cert.Spec.slab (V c (Pipeline.arrRef spec12 7) : Stack 4 256 64) 1)
            (Cert.Spec.slab (V c (Pipeline.arrRef spec12 7) : Stack 4 256 64) 2) (Cert.Spec.slab (V c (Pipeline.arrRef spec12 7) : Stack 4 256 64) 3)
            (Cert.Spec.row (V c (Pipeline.arrRef spec12 8) : Arr 4 64) 0) (Cert.Spec.row (V c (Pipeline.arrRef spec12 8) : Arr 4 64) 1)
            (Cert.Spec.row (V c (Pipeline.arrRef spec12 8) : Arr 4 64) 2) (Cert.Spec.row (V c (Pipeline.arrRef spec12 8) : Arr 4 64) 3))
    (m : (ℓ : Loc nD τ sig) → Buf (Elt Ideal) ℓ) (c : Dev nD) :
    W26 m c (Proc.devRef .tc main_v215)
      = Cert.Spec.net Cert.Spec.varK
          (fun x => aggKer128 x (m ((c : Thread nD τ).loc main_arg12)) (m ((c : Thread nD τ).loc main_arg13)))
          (fun x => aggKer256 x (m ((c : Thread nD τ).loc main_arg12)) (m ((c : Thread nD τ).loc main_arg13)))
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) := by
  -- the four layers' output buffers
  have x1 := layer0_value hv0 hs0 hv1 hs1 hv2 m c
  have x2 := layer1_value hv3 hs3 hv4 hs4 hv5 m c _ x1
  have x3 := layer2_value hv6 hs6 hv7 hs7 hv8 m c _ x2
  have x4 := layer3_value hv9 hs9 hv10 hs10 hv11 m c _ x3
  -- the heads over the input and those four
  have h := head_value hv12 m c
  rw [x1, x2, x3, x4] at h
  exact h

end Cert.KernelIdeal.HandV
end
-- ==== Proof.LibBlockSum.lean ====
/-
  Sums by blocks, in a commutative additive monoid (the extended reals are one).

  A sum over `a * b` consecutive indices is the sum over `a` blocks of the sums over each block's
  `b` indices, the index of block `t` at offset `y` being `b * t + y` (`sum_blocks`; the instance
  at 25 blocks of 2000, stated at the literal 50000, is `sum_blocks_50000`). An accumulator that
  starts as `0 + s 0` and adds `s (n + 1)` at each step holds, after step `n`, the sum of
  `s 0, …, s n` (`acc_eq_sum`; over a finite run of steps, `acc_eq_sum_fin`).
-/
import Mathlib.Algebra.BigOperators.Fin
import Mathlib.Algebra.BigOperators.Group.Finset.Basic
import Mathlib.Data.Fintype.BigOperators
import Mathlib.Logic.Equiv.Fin.Basic
import Mathlib.Tactic.Ring

open scoped BigOperators

namespace Cert.Lib.BlockSum

/-- The index of block `t` at offset `y`, among `a` blocks of `b`, is below `a * b`. -/
theorem block_lt {a b : ℕ} (t : Fin a) (y : Fin b) : b * t.val + y.val < a * b :=
  calc b * t.val + y.val < b * t.val + b := Nat.add_lt_add_left y.isLt _
    _ = b * (t.val + 1) := (Nat.mul_succ b t.val).symm
    _ ≤ b * a := Nat.mul_le_mul_left b t.isLt
    _ = a * b := Nat.mul_comm b a

/-- A sum over `a * b` indices is the sum over `a` blocks of the sums over each block's `b`
    indices; block `t` at offset `y` is the index `b * t + y`. -/
theorem sum_blocks {M : Type*} [AddCommMonoid M] (a b : ℕ) (f : Fin (a * b) → M) :
    ∑ t : Fin a, ∑ y : Fin b, f ⟨b * t.val + y.val, block_lt t y⟩ = ∑ r : Fin (a * b), f r := by
  have h := (finProdFinEquiv (m := a) (n := b)).sum_comp f
  rw [← h, Fintype.sum_prod_type]
  refine Finset.sum_congr rfl fun t _ => Finset.sum_congr rfl fun y _ => ?_
  congr 1
  apply Fin.ext
  simp only [finProdFinEquiv_apply_val]
  exact Nat.add_comm _ _

/-- A sum over 50000 indices is the sum over 25 blocks of 2000; block `t` at offset `y` is the
    index `2000 * t + y`. -/
theorem sum_blocks_50000 {M : Type*} [AddCommMonoid M] (f : Fin 50000 → M) :
    ∑ t : Fin 25, ∑ y : Fin 2000, f ⟨2000 * t.val + y.val, by omega⟩ = ∑ r : Fin 50000, f r :=
  sum_blocks 25 2000 f

/-- An accumulator that starts as `0 + s 0` and adds `s (n + 1)` at step `n + 1` holds after step
    `n` the sum of `s 0, …, s n`. -/
theorem acc_eq_sum {M : Type*} [AddCommMonoid M] (s : ℕ → M) (S : ℕ → M) (h0 : S 0 = 0 + s 0)
    (hs : ∀ n, S (n + 1) = S n + s (n + 1)) (n : ℕ) : S n = ∑ t ∈ Finset.range (n + 1), s t := by
  induction n with
  | zero => rw [h0, zero_add, Finset.sum_range_one]
  | succ n ih => rw [hs, ih, Finset.sum_range_succ _ (n + 1)]

/-- The same over a finite run of `N + 1` steps: the accumulator's last value is the sum of all
    the steps' terms. -/
theorem acc_eq_sum_fin {M : Type*} [AddCommMonoid M] (N : ℕ) (s : Fin (N + 1) → M)
    (S : Fin (N + 1) → M) (h0 : S 0 = 0 + s 0)
    (hs : ∀ (n : ℕ) (h : n + 1 < N + 1), S ⟨n + 1, h⟩ = S ⟨n, by omega⟩ + s ⟨n + 1, h⟩) :
    S (Fin.last N) = ∑ t : Fin (N + 1), s t := by
  have key : ∀ (n : ℕ) (h : n < N + 1),
      S ⟨n, h⟩ = ∑ t ∈ Finset.range (n + 1), (if h' : t < N + 1 then s ⟨t, h'⟩ else 0) := by
    intro n
    induction n with
    | zero =>
      intro h
      rw [Finset.sum_range_one, dif_pos h]
      rw [zero_add] at h0
      exact h0
    | succ n ih =>
      intro h
      rw [hs n h, ih (by omega), Finset.sum_range_succ _ (n + 1), dif_pos h]
  have hN := key N (Nat.lt_succ_self N)
  have hr := Fin.sum_univ_eq_sum_range (fun t => if h' : t < N + 1 then s ⟨t, h'⟩ else 0) (N + 1)
  rw [show Fin.last N = ⟨N, Nat.lt_succ_self N⟩ from rfl, hN, ← hr]
  refine Finset.sum_congr rfl fun t _ => ?_
  rw [dif_pos t.isLt]

end Cert.Lib.BlockSum
-- ==== Proof.KI.V0.lean ====
import proofs.«148047_j37898791420018_1_alg».proof.Proof.KI.R0
import proofs.«148047_j37898791420018_1_alg».proof.Proof.Spec
import proofs.«148047_j37898791420018_1_alg».proof.Proof.LibBlockSum
import proofs.«148047_j37898791420018_1_alg».proof.Proof.LibRealArith
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (Arr Vc)
open scoped BigOperators

/-! # Region 0's value: the product array is the matrix product of the input by the weights, and the
    statistics array holds its column sums and its column sums of squares -/

theorem hz0 : (![0, 0] : Fin 2 → Nat) = fun _ => 0 := funext fun a => by fin_cases a <;> rfl

/-! ## The block product read at an index -/

theorem lhs0_0 (j : S2000x256.Idx) (k : dot_S2000x128_S128x256_S2000x256_1_0_0_1_n_n.contr.Idx) :
    (dot_S2000x128_S128x256_S2000x256_1_0_0_1_n_n.lhsIdx j k 0).val = (j 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

theorem lhs0_1 (j : S2000x256.Idx) (k : dot_S2000x128_S128x256_S2000x256_1_0_0_1_n_n.contr.Idx) :
    (dot_S2000x128_S128x256_S2000x256_1_0_0_1_n_n.lhsIdx j k 1).val = (k ⟨0, by decide⟩).val :=
  dot_S2000x128_S128x256_S2000x256_1_0_0_1_n_n.lhsIdx_val_of_single rfl j k

theorem rhs0_0 (j : S2000x256.Idx) (k : dot_S2000x128_S128x256_S2000x256_1_0_0_1_n_n.contr.Idx) :
    (dot_S2000x128_S128x256_S2000x256_1_0_0_1_n_n.rhsIdx j k 0).val = (k ⟨0, by decide⟩).val :=
  dot_S2000x128_S128x256_S2000x256_1_0_0_1_n_n.rhsIdx_val_of_single rfl j k

theorem rhs0_1 (j : S2000x256.Idx) (k : dot_S2000x128_S128x256_S2000x256_1_0_0_1_n_n.contr.Idx) :
    (dot_S2000x128_S128x256_S2000x256_1_0_0_1_n_n.rhsIdx j k 1).val = (j 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The block product into a zero accumulator, at row `p` and column `q`: the sum over the contracted coordinate of
    the products of the entries. -/
theorem mm0_apply (A : FVec Ideal S2000x128 .bf16) (Bm : FVec Ideal S128x256 .bf16) (p : Fin 2000) (q : Fin 256) :
    matmul dot_S2000x128_S128x256_S2000x256_1_0_0_1_n_n none A Bm (constant S2000x256 .f32 0x00000000#32) (ix2 p q)
      = ∑ k : Fin 128, A (ix2 p k) * Bm (ix2 k q) := by
  show FloatOps.matmul dot_S2000x128_S128x256_S2000x256_1_0_0_1_n_n none A Bm (constant S2000x256 .f32 0x00000000#32) (ix2 p q) = _
  rw [Ideal.matmul_constant_zero_apply,
    ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have hl : dot_S2000x128_S128x256_S2000x256_1_0_0_1_n_n.lhsIdx (ix2 p q)
      ((contrEquiv1 dot_S2000x128_S128x256_S2000x256_1_0_0_1_n_n 128 rfl rfl).symm k) = ix2 p k := by
    funext a; apply Fin.ext
    match a with
    | ⟨0, _⟩ => exact lhs0_0 _ _
    | ⟨1, _⟩ => exact (lhs0_1 _ _).trans hk
  have hr : dot_S2000x128_S128x256_S2000x256_1_0_0_1_n_n.rhsIdx (ix2 p q)
      ((contrEquiv1 dot_S2000x128_S128x256_S2000x256_1_0_0_1_n_n 128 rfl rfl).symm k) = ix2 k q := by
    funext a; apply Fin.ext
    match a with
    | ⟨0, _⟩ => exact (rhs0_0 _ _).trans hk
    | ⟨1, _⟩ => exact rhs0_1 _ _
  rw [hl, hr]

/-- The product payload at an entry of the block: format changes are the identity on extended reals. -/
theorem pay2_at0 (x0 : Vec Ideal S2000x128 .f32) (x1 : Vec Ideal S128x256 .f32) (p : Fin 2000) (q : Fin 256) :
    k0_pay2 x0 x1 (ix2 p q) = ∑ k : Fin 128, x0 (ix2 p k) * x1 (ix2 k q) := by
  unfold k0_pay2
  simp only [shapeCast_self]
  exact mm0_apply _ _ p q

/-- The sum down the 2000 rows of a block, read at column `q`. -/
theorem colred0_apply (X : FVec Ideal S2000x256 .f32) (hφ : FKind.Formats .f32)
    (hacc : (0x00000000#32 : BitVec 32) = 0x00000000#32) (q : Fin 256) :
    multiReduction (F := Ideal) .add [0] S256 X 0x00000000#32 reduces_S2000x256_S256 hφ hacc (ix1 q)
      = ∑ r : Fin 2000, X (ix2 r q) := by
  refine (Ideal.multiReduction_add_single X 0x00000000#32 reduces_S2000x256_S256 hφ hacc (ix1 q)).trans ?_
  refine Finset.sum_congr rfl fun r _ => congrArg X ?_
  funext a
  match a with
  | ⟨0, _⟩ => rfl
  | ⟨1, _⟩ => rfl

/-- A 256-vector recast as a one-row table reads, at `(0, q)`, its entry `q`. -/
theorem rowcast0_apply {α : Type} (v : S256.Idx → α) (q : Fin 256) :
    shapeCast S1x256 v shapeCasts_S256_S1x256 (ix2 0 q) = v (ix1 q) := by
  refine (shapeCast_addUnit_apply ![256] v shapeCasts_S256_S1x256 (ix2 0 q)).trans (congrArg v ?_)
  funext a
  match a with
  | ⟨0, _⟩ => rfl

/-- The column-sum payload at column `q`: the row read before it plus the sum of the block product down column `q`. -/
theorem pay3_at0 (x0 : Vec Ideal S2000x128 .f32) (x1 : Vec Ideal S128x256 .f32) (v10 : Vec Ideal S1x256 .f32) (q : Fin 256) :
    k0_pay3 x0 x1 v10 (ix2 0 q) = v10 (ix2 0 q) + ∑ r : Fin 2000, k0_pay2 x0 x1 (ix2 r q) := by
  unfold k0_pay3
  simp only [shapeCast_self]
  rw [addf_apply, rowcast0_apply]
  exact congrArg (v10 (ix2 0 q) + ·) (colred0_apply _ _ _ q)

/-- The column-sum-of-squares payload at column `q`. -/
theorem pay4_at0 (x0 : Vec Ideal S2000x128 .f32) (x1 : Vec Ideal S128x256 .f32) (v17 : Vec Ideal S1x256 .f32) (q : Fin 256) :
    k0_pay4 x0 x1 v17 (ix2 0 q) = v17 (ix2 0 q) + ∑ r : Fin 2000, k0_pay2 x0 x1 (ix2 r q) * k0_pay2 x0 x1 (ix2 r q) := by
  unfold k0_pay4
  simp only [shapeCast_self]
  rw [addf_apply, rowcast0_apply]
  refine congrArg (v17 (ix2 0 q) + ·) ((colred0_apply _ _ _ q).trans ?_)
  rfl

/-- The zero payload at any entry. -/
theorem pay1_at0 (y : S2x256.Idx) : k0_pay1 (F := Ideal) y = 0 := by
  unfold k0_pay1
  simp only [shapeCast_self]
  exact Ideal.ofBits_zero_f32

/-! ## The two rows of the 2 × 256 scratch -/

/-- Row 0 and row 1 of the scratch as rectangles. -/
abbrev s0rowA : Rect S2x256 := Rect.unit (s := S2x256) ![0, 0] S1x256.size inb_S2x256_S1x256_0_0
abbrev s0rowB : Rect S2x256 := Rect.unit (s := S2x256) ![1, 0] S1x256.size inb_S2x256_S1x256_1_0
/-- The whole scratch as a rectangle. -/
abbrev s0whole : Rect S2x256 := Rect.unit (s := S2x256) ![0, 0] S2x256.size inb_S2x256_S2x256_0_0

theorem s0rowA_emb (q : Fin 256) : s0rowA.emb (ix2 (0 : Fin 1) q : S1x256.Idx) = ix2 0 q := by
  funext a; apply Fin.ext
  match a with
  | ⟨0, _⟩ => rfl
  | ⟨1, _⟩ => show 0 + 1 * q.val = q.val; omega

theorem s0rowB_emb (q : Fin 256) : s0rowB.emb (ix2 (0 : Fin 1) q : S1x256.Idx) = ix2 1 q := by
  funext a; apply Fin.ext
  match a with
  | ⟨0, _⟩ => rfl
  | ⟨1, _⟩ => show 0 + 1 * q.val = q.val; omega

theorem not_mem_s0rowB (q : Fin 256) : (ix2 (0 : Fin 2) q : S2x256.Idx) ∉ s0rowB.set := by
  rw [Rect.mem_set_unit]
  intro h
  have h1 : (1 : Nat) ≤ 0 := (h 0).1
  omega

theorem not_mem_s0rowA (q : Fin 256) : (ix2 (1 : Fin 2) q : S2x256.Idx) ∉ s0rowA.set := by
  rw [Rect.mem_set_unit]
  intro h
  have h1 : (1 : Nat) < 0 + 1 := (h 0).2
  omega

section Canon
variable {Val : EltTy → Type} [∀ e, Nonempty (Val e)]

/-- A last store to row 1 leaves its payload in row 1, -/
theorem canon_s0rowB (w : S1x256.Idx → Val .f32) (L : List (View.Piece Val S2x256 .f32)) (q : Fin 256) :
    View.canon ((⟨s0rowB, w⟩ : View.Piece Val S2x256 .f32) :: L) (ix2 1 q) = w (ix2 0 q) := by
  have e := View.canon_cons_emb (Val := Val) s0rowB w L (ix2 (0 : Fin 1) q : S1x256.Idx)
  rwa [s0rowB_emb] at e

/-- and row 0 as the earlier stores left it. -/
theorem canon_s0rowB_row0 (w : S1x256.Idx → Val .f32) (L : List (View.Piece Val S2x256 .f32)) (q : Fin 256) :
    View.canon ((⟨s0rowB, w⟩ : View.Piece Val S2x256 .f32) :: L) (ix2 0 q) = View.canon L (ix2 0 q) :=
  View.canon_cons_of_not_mem _ L (not_mem_s0rowB q)

/-- A last store to row 0 leaves its payload in row 0, -/
theorem canon_s0rowA (w : S1x256.Idx → Val .f32) (L : List (View.Piece Val S2x256 .f32)) (q : Fin 256) :
    View.canon ((⟨s0rowA, w⟩ : View.Piece Val S2x256 .f32) :: L) (ix2 0 q) = w (ix2 0 q) := by
  have e := View.canon_cons_emb (Val := Val) s0rowA w L (ix2 (0 : Fin 1) q : S1x256.Idx)
  rwa [s0rowA_emb] at e

/-- and row 1 as the earlier stores left it. -/
theorem canon_s0rowA_row1 (w : S1x256.Idx → Val .f32) (L : List (View.Piece Val S2x256 .f32)) (q : Fin 256) :
    View.canon ((⟨s0rowA, w⟩ : View.Piece Val S2x256 .f32) :: L) (ix2 1 q) = View.canon L (ix2 1 q) :=
  View.canon_cons_of_not_mem _ L (not_mem_s0rowA q)

/-- A last store of the whole scratch leaves its payload. -/
theorem canon_s0whole (w : S2x256.Idx → Val .f32) (L : List (View.Piece Val S2x256 .f32)) :
    View.canon ((⟨s0whole, w⟩ : View.Piece Val S2x256 .f32) :: L) = w :=
  View.canon_cons_unit_zero (S := S2x256) hz0 inb_S2x256_S2x256_0_0 w L

end Canon

/-- The column-sum payload at column `q`, the row read before it named. -/
theorem pay3_at0_of (x0 : Vec Ideal S2000x128 .f32) (x1 : Vec Ideal S128x256 .f32) (v10 : Vec Ideal S1x256 .f32) (q : Fin 256)
    (z : EReal) (hz : v10 (ix2 0 q) = z) :
    k0_pay3 x0 x1 v10 (ix2 0 q) = z + ∑ r : Fin 2000, k0_pay2 x0 x1 (ix2 r q) := by
  rw [pay3_at0, hz]

/-- The column-sum-of-squares payload at column `q`, the row read before it named. -/
theorem pay4_at0_of (x0 : Vec Ideal S2000x128 .f32) (x1 : Vec Ideal S128x256 .f32) (v17 : Vec Ideal S1x256 .f32) (q : Fin 256)
    (z : EReal) (hz : v17 (ix2 0 q) = z) :
    k0_pay4 x0 x1 v17 (ix2 0 q) = z + ∑ r : Fin 2000, k0_pay2 x0 x1 (ix2 r q) * k0_pay2 x0 x1 (ix2 r q) := by
  rw [pay4_at0, hz]

/-- After the zeroing store alone, row 0 reads zero; -/
theorem zero0_rowA (q : Fin 256) :
    View.canon [(⟨s0whole, k0_pay1 (F := Ideal)⟩ : View.Piece (Elt Ideal) S2x256 .f32)] (s0rowA.emb (ix2 (0 : Fin 1) q : S1x256.Idx)) = 0 := by
  rw [canon_s0whole]; exact pay1_at0 _

/-- after the zeroing store and a store to row 0, row 1 still reads zero. -/
theorem zero0_rowB (w0 : S1x256.Idx → Elt Ideal .f32) (q : Fin 256) :
    View.canon ((⟨s0rowA, w0⟩ : View.Piece (Elt Ideal) S2x256 .f32) :: [(⟨s0whole, k0_pay1 (F := Ideal)⟩ : View.Piece (Elt Ideal) S2x256 .f32)])
      (s0rowB.emb (ix2 (0 : Fin 1) q : S1x256.Idx)) = 0 := by
  rw [s0rowB_emb, canon_s0rowA_row1, canon_s0whole]; exact pay1_at0 _

/-! ## What each case of the body leaves, as values -/

section Pieces
variable {F : FTy → Type} [FloatOps F]

/-- At the first point the product window is left at the block product. -/
theorem out0_A_2_eq (c : Dev nD) (i : grid0.Coords) (a1 : Memref sig .tc .vmem S2000x128 .f32) (h1 : a1.IsWhole) (a2 : Memref sig .tc .vmem S128x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond0 i)
    (x0 : Vec F S2000x128 .f32) (x1 : Vec F S128x256 .f32) :
    out0_A_2 c i a1 h1 a2 h2 a3 h3 a4 h4 a5 h5 hc x0 x1 = k0_pay2 x0 x1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz0]
  simp only [View.readAt_eq_ld, h1.read_unread, h2.read_unread, View.ld_unit_zero (S := S2000x128) hz0, View.ld_unit_zero (S := S128x256) hz0]

/-- At a later point likewise. -/
theorem out0_B_2_eq (c : Dev nD) (i : grid0.Coords) (a1 : Memref sig .tc .vmem S2000x128 .f32) (h1 : a1.IsWhole) (a2 : Memref sig .tc .vmem S128x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond0 i)
    (x0 : Vec F S2000x128 .f32) (x1 : Vec F S128x256 .f32) (xs0 : Vec F S2x256 .f32) :
    out0_B_2 c i a1 h1 a2 h2 a3 h3 a4 h4 a5 h5 hc x0 x1 xs0 = k0_pay2 x0 x1 := by
  unfold out0_B_2
  rw [View.read_writes_eq_canon _ _ _ (cover0_B_2 c i a1 h1 a2 h2 a3 h3 a4 h4 a5 h5 hc x0 x1 xs0)]
  unfold kernelRun0_B
  dsimp only
  sl_unfold_words
  rw [View.canon_unit_zero hz0]
  simp only [View.readAt_eq_ld, h1.read_unread, h2.read_unread, View.ld_unit_zero (S := S2000x128) hz0, View.ld_unit_zero (S := S128x256) hz0]

/-- The statistics window is left at what the scratch holds (the body's last store copies the whole scratch). -/
theorem out0_A_3_eq (c : Dev nD) (i : grid0.Coords) (a1 : Memref sig .tc .vmem S2000x128 .f32) (h1 : a1.IsWhole) (a2 : Memref sig .tc .vmem S128x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond0 i)
    (x0 : Vec F S2000x128 .f32) (x1 : Vec F S128x256 .f32) :
    out0_A_3 c i a1 h1 a2 h2 a3 h3 a4 h4 a5 h5 hc x0 x1 = sout0_A c i a1 h1 a2 h2 a3 h3 a4 h4 a5 h5 hc x0 x1 := by
  unfold out0_A_3 sout0_A
  rw [View.read_writes_eq_canon _ _ _ (cover0_A_3 c i a1 h1 a2 h2 a3 h3 a4 h4 a5 h5 hc x0 x1),
    View.read_writes_eq_canon _ _ _ (scover0_A c i a1 h1 a2 h2 a3 h3 a4 h4 a5 h5 hc x0 x1)]
  unfold kernelRun0_A
  dsimp only
  sl_unfold_words
  rw [View.canon_unit_zero hz0, View.readCov_eq_canon']
  exact View.ld_unit_zero (S := S2x256) hz0 inb_S2x256_S2x256_0_0 _

theorem out0_B_3_eq (c : Dev nD) (i : grid0.Coords) (a1 : Memref sig .tc .vmem S2000x128 .f32) (h1 : a1.IsWhole) (a2 : Memref sig .tc .vmem S128x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond0 i)
    (x0 : Vec F S2000x128 .f32) (x1 : Vec F S128x256 .f32) (xs0 : Vec F S2x256 .f32) :
    out0_B_3 c i a1 h1 a2 h2 a3 h3 a4 h4 a5 h5 hc x0 x1 xs0 = sout0_B c i a1 h1 a2 h2 a3 h3 a4 h4 a5 h5 hc x0 x1 xs0 := by
  unfold out0_B_3 sout0_B
  rw [View.read_writes_eq_canon _ _ _ (cover0_B_3 c i a1 h1 a2 h2 a3 h3 a4 h4 a5 h5 hc x0 x1 xs0),
    View.read_writes_eq_canon _ _ _ (scover0_B c i a1 h1 a2 h2 a3 h3 a4 h4 a5 h5 hc x0 x1 xs0)]
  unfold kernelRun0_B
  dsimp only
  sl_unfold_words
  rw [View.canon_unit_zero hz0, View.readCov_eq_canon']
  exact View.ld_unit_zero (S := S2x256) hz0 inb_S2x256_S2x256_0_0 _

end Pieces

/-- At a later point the scratch's row 0 is left at what it held plus the column sums of the block product, -/
theorem sout0_B_row0 (c : Dev nD) (i : grid0.Coords) (a1 : Memref sig .tc .vmem S2000x128 .f32) (h1 : a1.IsWhole) (a2 : Memref sig .tc .vmem S128x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond0 i)
    (x0 : Vec Ideal S2000x128 .f32) (x1 : Vec Ideal S128x256 .f32) (xs0 : Vec Ideal S2x256 .f32) (q : Fin 256) :
    sout0_B c i a1 h1 a2 h2 a3 h3 a4 h4 a5 h5 hc x0 x1 xs0 (ix2 0 q)
      = xs0 (ix2 0 q) + ∑ r : Fin 2000, k0_pay2 x0 x1 (ix2 r q) := by
  unfold sout0_B
  rw [View.read_writes_eq_canon _ _ _ (scover0_B c i a1 h1 a2 h2 a3 h3 a4 h4 a5 h5 hc x0 x1 xs0)]
  unfold kernelRun0_B
  dsimp only
  sl_unfold_words
  simp only [View.readAt_eq_ld, h1.read_unread, h2.read_unread, h5.read_unread, View.ld_unit_zero (S := S2000x128) hz0, View.ld_unit_zero (S := S128x256) hz0]
  refine (canon_s0rowB_row0 _ _ q).trans ((canon_s0rowA _ _ q).trans ((pay3_at0 x0 x1 _ q).trans ?_))
  show xs0 (s0rowA.emb (ix2 (0 : Fin 1) q : S1x256.Idx)) + _ = _
  rw [s0rowA_emb]

/-- and its row 1 at what it held plus the column sums of the squares. -/
theorem sout0_B_row1 (c : Dev nD) (i : grid0.Coords) (a1 : Memref sig .tc .vmem S2000x128 .f32) (h1 : a1.IsWhole) (a2 : Memref sig .tc .vmem S128x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond0 i)
    (x0 : Vec Ideal S2000x128 .f32) (x1 : Vec Ideal S128x256 .f32) (xs0 : Vec Ideal S2x256 .f32) (q : Fin 256) :
    sout0_B c i a1 h1 a2 h2 a3 h3 a4 h4 a5 h5 hc x0 x1 xs0 (ix2 1 q)
      = xs0 (ix2 1 q) + ∑ r : Fin 2000, k0_pay2 x0 x1 (ix2 r q) * k0_pay2 x0 x1 (ix2 r q) := by
  unfold sout0_B
  rw [View.read_writes_eq_canon _ _ _ (scover0_B c i a1 h1 a2 h2 a3 h3 a4 h4 a5 h5 hc x0 x1 xs0)]
  unfold kernelRun0_B
  dsimp only
  sl_unfold_words
  simp only [View.readAt_eq_ld, h1.read_unread, h2.read_unread, h5.read_unread, View.ld_unit_zero (S := S2000x128) hz0, View.ld_unit_zero (S := S128x256) hz0]
  refine (canon_s0rowB _ _ q).trans ((pay4_at0 x0 x1 _ q).trans ?_)
  show xs0 (s0rowB.emb (ix2 (0 : Fin 1) q : S1x256.Idx)) + _ = _
  rw [s0rowB_emb]

/-- At the first point the scratch is zeroed first, so its row 0 is left at zero plus the column sums of the block product, -/
theorem sout0_A_row0 (c : Dev nD) (i : grid0.Coords) (a1 : Memref sig .tc .vmem S2000x128 .f32) (h1 : a1.IsWhole) (a2 : Memref sig .tc .vmem S128x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond0 i)
    (x0 : Vec Ideal S2000x128 .f32) (x1 : Vec Ideal S128x256 .f32) (q : Fin 256) :
    sout0_A c i a1 h1 a2 h2 a3 h3 a4 h4 a5 h5 hc x0 x1 (ix2 0 q)
      = 0 + ∑ r : Fin 2000, k0_pay2 x0 x1 (ix2 r q) := by
  unfold sout0_A
  rw [View.read_writes_eq_canon _ _ _ (scover0_A c i a1 h1 a2 h2 a3 h3 a4 h4 a5 h5 hc x0 x1)]
  unfold kernelRun0_A
  dsimp only
  sl_unfold_words
  simp only [View.readAt_eq_ld, h1.read_unread, h2.read_unread, View.ld_unit_zero (S := S2000x128) hz0, View.ld_unit_zero (S := S128x256) hz0, View.readCov_eq_canon']
  refine (canon_s0rowB_row0 _ _ q).trans ((canon_s0rowA _ _ q).trans (pay3_at0_of x0 x1 _ q 0 ?_))
  exact zero0_rowA q

/-- and its row 1 at zero plus the column sums of the squares. -/
theorem sout0_A_row1 (c : Dev nD) (i : grid0.Coords) (a1 : Memref sig .tc .vmem S2000x128 .f32) (h1 : a1.IsWhole) (a2 : Memref sig .tc .vmem S128x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond0 i)
    (x0 : Vec Ideal S2000x128 .f32) (x1 : Vec Ideal S128x256 .f32) (q : Fin 256) :
    sout0_A c i a1 h1 a2 h2 a3 h3 a4 h4 a5 h5 hc x0 x1 (ix2 1 q)
      = 0 + ∑ r : Fin 2000, k0_pay2 x0 x1 (ix2 r q) * k0_pay2 x0 x1 (ix2 r q) := by
  unfold sout0_A
  rw [View.read_writes_eq_canon _ _ _ (scover0_A c i a1 h1 a2 h2 a3 h3 a4 h4 a5 h5 hc x0 x1)]
  unfold kernelRun0_A
  dsimp only
  sl_unfold_words
  simp only [View.readAt_eq_ld, h1.read_unread, h2.read_unread, View.ld_unit_zero (S := S2000x128) hz0, View.ld_unit_zero (S := S128x256) hz0, View.readCov_eq_canon']
  refine (canon_s0rowB _ _ q).trans (pay4_at0_of x0 x1 _ q 0 ?_)
  exact zero0_rowB _ q

/-! ## The arrays and blocks of region 0 -/

variable (V : (c : Dev nD) → (b : Ref sig .tc) → Buf (Elt Ideal) ((c : Thread nD τ).loc b))

/-- The input and the weights as the region finds them, at their literal types. -/
abbrev xarr0 (c : Dev nD) : Arr 50000 128 := V c (Pipeline.arrRef spec0 0)
abbrev warr0 (c : Dev nD) : Arr 128 256 := V c (Pipeline.arrRef spec0 1)
/-- The block of 2000 rows of the input, and the (whole) block of the weights, that point `t` reads. -/
abbrev xblk0 (c : Dev nD) (t : Fin cfg0.N) : Vec Ideal S2000x128 .f32 := iblk0 V c 0 t
abbrev wblk0 (c : Dev nD) (t : Fin cfg0.N) : Vec Ideal S128x256 .f32 := iblk0 V c 1 t

theorem hN0 : cfg0.N = 25 := N_0

/-- The windows' block indices over the grid: the input's and the product's block at point `t` is block `t` of
    rows, all columns; the weights and the statistics are one block throughout. -/
theorem idx_facts0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Entry `(p, k)` of the input's block at point `t` is entry `(2000 t + p, k)` of the input. -/
theorem xblk0_at (c : Dev nD) (t : Fin cfg0.N) (p : Fin 2000) (k : Fin 128) (hR : 2000 * t.val + p.val < 50000) :
    xblk0 V c t (ix2 p k) = xarr0 V c (ix2 ⟨2000 * t.val + p.val, hR⟩ k) := by
  obtain ⟨e00, e01, e10, e11, e20, e21, e30, e31⟩ := idx_facts0 t
  show V c (Pipeline.arrRef spec0 0) (((cfg0.win 0).blk t).view.emb (ix2 p k)) = V c (Pipeline.arrRef spec0 0) (ix2 ⟨2000 * t.val + p.val, hR⟩ k)
  refine congrArg _ ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

/-- The weights' block is the whole weights, at every point. -/
theorem wblk0_at (c : Dev nD) (t : Fin cfg0.N) (k : Fin 128) (q : Fin 256) :
    wblk0 V c t (ix2 k q) = warr0 V c (ix2 k q) := by
  obtain ⟨e00, e01, e10, e11, e20, e21, e30, e31⟩ := idx_facts0 t
  show V c (Pipeline.arrRef spec0 1) (((cfg0.win 1).blk t).view.emb (ix2 k q)) = V c (Pipeline.arrRef spec0 1) (ix2 k q)
  refine congrArg _ ?_
  funext a; apply Fin.ext
  match a with
  | ⟨0, _⟩ => show win0_1.index t (0 : Fin 2) * 128 + 1 * k.val = k.val; omega
  | ⟨1, _⟩ => show win0_1.index t (1 : Fin 2) * 256 + 1 * q.val = q.val; omega

/-- The block product at point `t`, entry `(p, q)`, is entry `(2000 t + p, q)` of the product of the arrays. -/
theorem blkprod0 (c : Dev nD) (t : Fin cfg0.N) (p : Fin 2000) (q : Fin 256) (hR : 2000 * t.val + p.val < 50000) :
    k0_pay2 (xblk0 V c t) (wblk0 V c t) (ix2 p q)
      = Cert.Spec.mm (xarr0 V c) (warr0 V c) (ix2 ⟨2000 * t.val + p.val, hR⟩ q) := by
  refine (pay2_at0 (xblk0 V c t) (wblk0 V c t) p q).trans ?_
  unfold Cert.Spec.mm
  refine Finset.sum_congr rfl fun k _ => ?_
  rw [xblk0_at V c t p k hR, wblk0_at V c t k q]

/-- The same with the entries given by their coordinates' values. -/
theorem prod_blk0 (c : Dev nD) (t : Fin cfg0.N) (j : S2000x256.Idx) (i : S50000x256.Idx)
    (h0 : (i 0).val = 2000 * t.val + (j 0).val) (h1 : (i 1).val = (j 1).val) :
    k0_pay2 (xblk0 V c t) (wblk0 V c t) j = Cert.Spec.mm (xarr0 V c) (warr0 V c) i := by
  have hi0 : (i 0).val < 50000 := (i 0).isLt
  have hR : 2000 * t.val + (j 0).val < 50000 := by omega
  have hi : i = ix2 ⟨2000 * t.val + (j 0).val, hR⟩ (j 1) := funext fun a => Fin.ext (by
    match a with
    | ⟨0, _⟩ => exact h0
    | ⟨1, _⟩ => exact h1)
  calc k0_pay2 (xblk0 V c t) (wblk0 V c t) j
      = k0_pay2 (xblk0 V c t) (wblk0 V c t) (ix2 (j 0) (j 1)) := congrArg _ (eq_ix2 j)
    _ = Cert.Spec.mm (xarr0 V c) (warr0 V c) (ix2 ⟨2000 * t.val + (j 0).val, hR⟩ (j 1)) := blkprod0 V c t (j 0) (j 1) hR
    _ = Cert.Spec.mm (xarr0 V c) (warr0 V c) i := congrArg _ hi.symm

/-! ## What the outputs and the scratch hold after each point, as values -/

/-- After every point the product window's staging buffer holds the point's block product. -/
theorem outs_prod0 (c : Dev nD) (t : Fin cfg0.N) :
    (outsAt0 V c t.val t.isLt).1 = k0_pay2 (xblk0 V c t) (wblk0 V c t) := by
  by_cases h0 : t.val = 0
  · rw [outsAt0_A V c t h0]
    dsimp only
    exact out0_A_2_eq (F := Ideal) c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t)
  · rw [outsAt0_B V c t h0]
    dsimp only
    exact out0_B_2_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2

/-- After every point the statistics window's staging buffer holds what the scratch holds. -/
theorem outs_stats0 (c : Dev nD) (t : Fin cfg0.N) :
    (outsAt0 V c t.val t.isLt).2.1 = (outsAt0 V c t.val t.isLt).2.2 := by
  by_cases h0 : t.val = 0
  · rw [outsAt0_A V c t h0]
    dsimp only
    exact out0_A_3_eq (F := Ideal) c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t)
  · rw [outsAt0_B V c t h0]
    dsimp only
    exact out0_B_3_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2

/-- The column sums, and column sums of squares, of the block product at point `t`. -/
def bsum0 (c : Dev nD) (q : Fin 256) (t : Fin cfg0.N) : EReal :=
  ∑ r : Fin 2000, k0_pay2 (xblk0 V c t) (wblk0 V c t) (ix2 r q)
def bsumsq0 (c : Dev nD) (q : Fin 256) (t : Fin cfg0.N) : EReal :=
  ∑ r : Fin 2000, k0_pay2 (xblk0 V c t) (wblk0 V c t) (ix2 r q) * k0_pay2 (xblk0 V c t) (wblk0 V c t) (ix2 r q)

/-- After the first point the scratch holds zero plus the first block's sums. -/
theorem scr_first0 (c : Dev nD) (t : Fin cfg0.N) (h0 : t.val = 0) (q : Fin 256) :
    (outsAt0 V c t.val t.isLt).2.2 (ix2 0 q) = 0 + bsum0 V c q t
      ∧ (outsAt0 V c t.val t.isLt).2.2 (ix2 1 q) = 0 + bsumsq0 V c q t := by
  rw [outsAt0_A V c t h0]
  dsimp only
  exact ⟨sout0_A_row0 c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t) q,
    sout0_A_row1 c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t) q⟩

/-- After a later point it holds what it held after the point before plus the point's block's sums. -/
theorem scr_step0 (c : Dev nD) (t : Fin cfg0.N) (h0 : ¬t.val = 0) (q : Fin 256) :
    (outsAt0 V c t.val t.isLt).2.2 (ix2 0 q)
        = (outsAt0 V c (t.val - 1) (Nat.lt_of_le_of_lt (Nat.sub_le _ _) t.isLt)).2.2 (ix2 0 q) + bsum0 V c q t
      ∧ (outsAt0 V c t.val t.isLt).2.2 (ix2 1 q)
        = (outsAt0 V c (t.val - 1) (Nat.lt_of_le_of_lt (Nat.sub_le _ _) t.isLt)).2.2 (ix2 1 q) + bsumsq0 V c q t := by
  rw [outsAt0_B V c t h0]
  dsimp only
  exact ⟨sout0_B_row0 c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2 q,
    sout0_B_row1 c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (outsAt0 V c (t.val - 1) (Nat.lt_of_le_of_lt (Nat.sub_le _ _) t.isLt)).2.2 q⟩

/-! ## The accumulation over the 25 points -/

/-- Point `n` of the grid. -/
abbrev pt0 (n : Fin (24 + 1)) : Fin cfg0.N := ⟨n.val, by rw [hN0]; exact n.isLt⟩

/-- What the scratch holds after the last point. -/
def stats0 (c : Dev nD) : Arr 2 256 := (outsAt0 V c 24 (by rw [hN0]; decide)).2.2

/-- The scratch's row 0 after the last point is the sum over the points of the blocks' column sums, -/
theorem stats0_row0 (c : Dev nD) (q : Fin 256) : stats0 V c (ix2 0 q) = ∑ t : Fin (24 + 1), bsum0 V c q (pt0 t) :=
  Cert.Lib.BlockSum.acc_eq_sum_fin 24 (fun t => bsum0 V c q (pt0 t))
    (fun t => (outsAt0 V c t.val (pt0 t).isLt).2.2 (ix2 0 q))
    ((scr_first0 V c (pt0 0) rfl q).1)
    (fun n h => (scr_step0 V c (pt0 ⟨n + 1, h⟩) (Nat.succ_ne_zero n) q).1)

/-- and its row 1 the sum over the points of the blocks' column sums of squares. -/
theorem stats0_row1 (c : Dev nD) (q : Fin 256) : stats0 V c (ix2 1 q) = ∑ t : Fin (24 + 1), bsumsq0 V c q (pt0 t) :=
  Cert.Lib.BlockSum.acc_eq_sum_fin 24 (fun t => bsumsq0 V c q (pt0 t))
    (fun t => (outsAt0 V c t.val (pt0 t).isLt).2.2 (ix2 1 q))
    ((scr_first0 V c (pt0 0) rfl q).2)
    (fun n h => (scr_step0 V c (pt0 ⟨n + 1, h⟩) (Nat.succ_ne_zero n) q).2)

/-- The sums over the 25 blocks of 2000 rows are the sums over the 50000 rows: row 0 holds the column sums of the
    product of the arrays, -/
theorem stats0_colsum (c : Dev nD) (q : Fin 256) :
    stats0 V c (ix2 0 q) = Cert.Spec.colsum (Cert.Spec.mm (xarr0 V c) (warr0 V c)) q := by
  rw [stats0_row0]
  unfold Cert.Spec.colsum
  rw [← Cert.Lib.BlockSum.sum_blocks_50000 (fun r : Fin 50000 => Cert.Spec.mm (xarr0 V c) (warr0 V c) (ix2 r q))]
  refine Finset.sum_congr rfl fun t _ => ?_
  unfold bsum0
  refine Finset.sum_congr rfl fun y _ => ?_
  exact blkprod0 V c (pt0 t) y q _

/-- and row 1 the column sums of its squares. -/
theorem stats0_colsumsq (c : Dev nD) (q : Fin 256) :
    stats0 V c (ix2 1 q) = Cert.Spec.colsumsq (Cert.Spec.mm (xarr0 V c) (warr0 V c)) q := by
  rw [stats0_row1]
  unfold Cert.Spec.colsumsq
  rw [← Cert.Lib.BlockSum.sum_blocks_50000 (fun r : Fin 50000 =>
    Cert.Spec.mm (xarr0 V c) (warr0 V c) (ix2 r q) * Cert.Spec.mm (xarr0 V c) (warr0 V c) (ix2 r q))]
  refine Finset.sum_congr rfl fun t _ => ?_
  unfold bsumsq0
  refine Finset.sum_congr rfl fun y _ => ?_
  rw [blkprod0 V c (pt0 t) y q (by have := t.isLt; have := y.isLt; show 2000 * t.val + y.val < 50000; omega)]

/-! ## From blocks to the arrays -/

/-- What point `t` writes back of the product window is block `t` of the product of the arrays. -/
theorem flushed0_2_eq (c : Dev nD) (t : Fin cfg0.N) :
    (dat0 V c).flushed 2 t = ((cfg0.win 2).blk t).view.read (Elt Ideal) (Cert.Spec.mm (xarr0 V c) (warr0 V c)) := by
  show (cfg0.win 2).cut (grid0.coords t) ((dat0 V c).after 2 t) = _
  rw [after0_2, outs_prod0 V c t]
  obtain ⟨e00, e01, e10, e11, e20, e21, e30, e31⟩ := idx_facts0 t
  funext j
  exact prod_blk0 V c t j (((cfg0.win 2).blk t).view.emb j)
    (by show win0_2.index t (0 : Fin 2) * 2000 + 1 * (j 0).val = 2000 * t.val + (j 0).val; omega)
    (by show win0_2.index t (1 : Fin 2) * 256 + 1 * (j 1).val = (j 1).val; omega)

/-- An index of the product array is in point `t`'s block iff its row is among the 2000 rows from `2000 t`. -/
theorem mem_blk0_2 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v13_0).slice (win0_2.rect t)).set ↔ _
  rw [View.set_slice_whole, Rect.mem_set_unit]
  exact Iff.rfl

/-- Every entry of the product array is in some point's block: row `r` in that of point `r / 2000`. -/
theorem cover0_2 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : (i 0).val / 2000 < cfg0.N := by rw [hN0]; omega
  refine ⟨⟨(i 0).val / 2000, hN⟩, flush0_2 _, ?_⟩
  obtain ⟨e00, e01, e10, e11, e20, e21, e30, e31⟩ := idx_facts0 ⟨(i 0).val / 2000, hN⟩
  rw [mem_blk0_2]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e20]; show (i 0).val / 2000 * 2000 ≤ (i 0).val ∧ (i 0).val < (i 0).val / 2000 * 2000 + 2000
    omega
  | ⟨1, _⟩ =>
    show win0_2.index ⟨(i 0).val / 2000, hN⟩ (1 : Fin 2) * 256 ≤ (i 1).val ∧ (i 1).val < win0_2.index ⟨(i 0).val / 2000, hN⟩ (1 : Fin 2) * 256 + 256
    rw [e21]; omega

/-- THE PRODUCT ARRAY after the region: the matrix product of the input by the weights, as the region finds them. -/
theorem val0_prod (c : Dev nD) :
    ((dat0 V c).arrAt 2 cfg0.N : Arr 50000 256) = Cert.Spec.mm (xarr0 V c) (warr0 V c) :=
  (dat0 V c).arrAt_eq_of_cover 2 _ (fun t _ => flushed0_2_eq V c t) cover0_2

/-- The contents after a point depend on the point's number only. -/
theorem outsAt0_congr (c : Dev nD) {n m : ℕ} (e : n = m) (hn : n < cfg0.N) (hm : m < cfg0.N) :
    outsAt0 V c n hn = outsAt0 V c m hm := by
  subst e; rfl

/-- At the last point the scratch holds `stats0`. -/
theorem scr_last0 (c : Dev nD) (t : Fin cfg0.N) (h24 : t.val = 24) : (outsAt0 V c t.val t.isLt).2.2 = stats0 V c := by
  unfold stats0
  rw [outsAt0_congr V c h24 t.isLt (by rw [hN0]; decide)]

/-- The one write-back of the statistics window, at the last point, writes what the scratch holds then: its one block is
    the whole array. -/
theorem flushed0_3_eq (c : Dev nD) (t : Fin cfg0.N) (hf : (cfg0.win 3).flush t = true) :
    (dat0 V c).flushed 3 t = ((cfg0.win 3).blk t).view.read (Elt Ideal) (stats0 V c) := by
  have hN : cfg0.N = 25 := hN0
  have h24 : t.val = 24 := by have := (flush0_3 t).mp hf; have := t.isLt; omega
  obtain ⟨e00, e01, e10, e11, e20, e21, e30, e31⟩ := idx_facts0 t
  show (cfg0.win 3).cut (grid0.coords t) ((dat0 V c).after 3 t) = _
  rw [after0_3, outs_stats0 V c t, scr_last0 V c t h24]
  funext j
  show stats0 V c j = stats0 V c (((cfg0.win 3).blk t).view.emb j)
  refine congrArg _ ?_
  funext a; apply Fin.ext
  match a with
  | ⟨0, _⟩ => show (j 0).val = win0_3.index t (0 : Fin 2) * 2 + 1 * (j 0).val; omega
  | ⟨1, _⟩ => show (j 1).val = win0_3.index t (1 : Fin 2) * 256 + 1 * (j 1).val; omega

/-- Every entry of the statistics array is in the last point's block. -/
theorem cover0_3 (i : S2x256.Idx) :
    ∃ t : Fin cfg0.N, (cfg0.win 3).flush t = true ∧ i ∈ ((cfg0.win 3).blk t).view.set := by
  have hi0 : (i 0).val < 2 := (i 0).isLt
  have hi1 : (i 1).val < 256 := (i 1).isLt
  have hN : 24 < cfg0.N := by rw [hN0]; decide
  refine ⟨⟨24, hN⟩, (flush0_3 _).mpr rfl, ?_⟩
  obtain ⟨e00, e01, e10, e11, e20, e21, e30, e31⟩ := idx_facts0 ⟨24, hN⟩
  show i ∈ ((View.whole main_v13_1).slice (win0_3.rect ⟨24, hN⟩)).set
  rw [View.set_slice_whole, Rect.mem_set_unit]
  intro a
  match a with
  | ⟨0, _⟩ =>
    show win0_3.index ⟨24, hN⟩ (0 : Fin 2) * 2 ≤ (i 0).val ∧ (i 0).val < win0_3.index ⟨24, hN⟩ (0 : Fin 2) * 2 + 2
    rw [e30]; omega
  | ⟨1, _⟩ =>
    show win0_3.index ⟨24, hN⟩ (1 : Fin 2) * 256 ≤ (i 1).val ∧ (i 1).val < win0_3.index ⟨24, hN⟩ (1 : Fin 2) * 256 + 256
    rw [e31]; omega

/-- The statistics array after the region is what the scratch holds after the last point. -/
theorem final0_3 (c : Dev nD) : ((dat0 V c).arrAt 3 cfg0.N : Arr 2 256) = stats0 V c :=
  (dat0 V c).arrAt_eq_of_cover 3 (stats0 V c) (flushed0_3_eq V c) cover0_3

/-- THE STATISTICS ARRAY after the region: row 0 the column sums, row 1 the column sums of squares, of the matrix
    product of the input by the weights. -/
theorem val0_stats (c : Dev nD) (j : Fin 256) :
    ((dat0 V c).arrAt 3 cfg0.N : Arr 2 256) (ix2 0 j) = Cert.Spec.colsum (Cert.Spec.mm (xarr0 V c) (warr0 V c)) j
      ∧ ((dat0 V c).arrAt 3 cfg0.N : Arr 2 256) (ix2 1 j) = Cert.Spec.colsumsq (Cert.Spec.mm (xarr0 V c) (warr0 V c)) j := by
  rw [final0_3]
  exact ⟨stats0_colsum V c j, stats0_colsumsq V c j⟩

end Cert.KernelIdeal.HandV

end
-- ==== Proof.KI.P1.lean ====
import proofs.«148047_j37898791420018_1_alg».proof.Proof.Gen.KernelIdeal.Skeleton
import proofs.«148047_j37898791420018_1_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.HandV

open Cert.KernelIdeal Cert.KernelIdeal.Gen
open Idealize.ShloMosaic Idealize.ShloMosaic.ValueIdx

/-! ## Shared by regions 1, 4, 7, 10 (the same kernel function under four numbers): the block product's dimension
    numbers at an index (256 contracted columns), a row laid along the rows, a block's column sums -/

/-- The product's dimension numbers: rows by contraction times contraction by columns. -/
abbrev dot1 : DotDims S2000x256 S256x256 S2000x256 := dot_S2000x256_S256x256_S2000x256_1_0_0_1_n_n

theorem dot1_lhs_0 (j : S2000x256.Idx) (k : dot1.contr.Idx) : (dot1.lhsIdx j k 0).val = (j 0).val := by
  rfl
theorem dot1_lhs_1 (j : S2000x256.Idx) (k : dot1.contr.Idx) : (dot1.lhsIdx j k 1).val = (k ⟨0, by decide⟩).val :=
  dot1.lhsIdx_val_of_single rfl j k
theorem dot1_rhs_0 (j : S2000x256.Idx) (k : dot1.contr.Idx) : (dot1.rhsIdx j k 0).val = (k ⟨0, by decide⟩).val :=
  dot1.rhsIdx_val_of_single rfl j k
theorem dot1_rhs_1 (j : S2000x256.Idx) (k : dot1.contr.Idx) : (dot1.rhsIdx j k 1).val = (j 1).val := by
  rfl

/-- The left operand's index at output (y, q) and contraction position i is (y, i). -/
theorem dot1_lhsIdx (y : Fin 2000) (q : Fin 256) (i : Fin 256) :
    dot1.lhsIdx (ix2 y q) ((contrEquiv1 dot1 256 rfl rfl).symm i) = (ix2 y i : S2000x256.Idx) := by
  funext a; apply Fin.ext
  match a with
  | ⟨0, _⟩ => exact dot1_lhs_0 _ _
  | ⟨1, _⟩ => exact (dot1_lhs_1 _ _).trans (contrEquiv1_symm_val dot1 256 rfl rfl i)

/-- The right operand's index there is (i, q). -/
theorem dot1_rhsIdx (y : Fin 2000) (q : Fin 256) (i : Fin 256) :
    dot1.rhsIdx (ix2 y q) ((contrEquiv1 dot1 256 rfl rfl).symm i) = (ix2 i q : S256x256.Idx) := by
  funext a; apply Fin.ext
  match a with
  | ⟨0, _⟩ => exact (dot1_rhs_0 _ _).trans (contrEquiv1_symm_val dot1 256 rfl rfl i)
  | ⟨1, _⟩ => exact dot1_rhs_1 _ _

/-- A block product into the zero splat, at (y, q): the sum over the 256 contracted positions of the products. -/
theorem mm1_apply (l : FVec Ideal S2000x256 .bf16) (r : FVec Ideal S256x256 .bf16) (y : Fin 2000) (q : Fin 256) :
    matmul dot1 none l r (constant S2000x256 .f32 0x00000000#32) (ix2 y q) = ∑ i : Fin 256, l (ix2 y i) * r (ix2 i q) := by
  refine (Ideal.matmul_constant_zero_apply dot1 none l r (ix2 y q)).trans ?_
  rw [← Equiv.sum_comp (contrEquiv1 dot1 256 rfl rfl).symm]
  refine Finset.sum_congr rfl fun i _ => ?_
  rw [dot1_lhsIdx, dot1_rhsIdx]

/-- A one-row vector laid along 2000 rows, at (y, k): the row's entry at column k. -/
theorem bcast1_row_apply (v : FVec Ideal S1x256 .f32) (y : Fin 2000) (k : Fin 256) :
    broadcastTo S2000x256 v broadcasts_S1x256_S2000x256 (ix2 y k) = v (ix2 0 k) := by
  refine broadcastTo_apply v broadcasts_S1x256_S2000x256 (ix2 y k) (ix2 0 k) ?_
  intro a
  match a with
  | ⟨0, _⟩ => rfl
  | ⟨1, _⟩ => rfl

/-- The column sums of a 2000 × 256 block, cast to one row, at column j: the sum down the column. -/
theorem colsum1_row_apply (m : FVec Ideal S2000x256 .f32) (j : Fin 256) :
    shapeCast S1x256 (multiReduction .add [0] S256 m 0x00000000#32 reduces_S2000x256_S256 (.inl rfl) rfl) shapeCasts_S256_S1x256 (ix2 0 j)
      = ∑ r : Fin 2000, m (ix2 r j) := by
  refine (shapeCast_apply _ shapeCasts_S256_S1x256 (ix2 0 j) (ix1 j) ?_).trans ?_
  · rw [Shape.rowMajor_val_two, Shape.rowMajor_val_one]; show j.val = 0 * 256 + j.val; omega
  refine (Ideal.multiReduction_add_single m _ reduces_S2000x256_S256 _ _ (ix1 j)).trans ?_
  refine Finset.sum_congr rfl fun r _ => congrArg m ?_
  funext a; apply Fin.ext
  match a with
  | ⟨0, _⟩ => rfl
  | ⟨1, _⟩ => rfl

/-! ## Region 1's payloads at an index -/

/-- The normalised, rectified entry the product's left operand holds at (y, k). -/
def act1 (v3 : Vec Ideal S2000x256 .f32) (v5 v7 v9 v11 : Vec Ideal S1x256 .f32) (y : Fin 2000) (k : Fin 256) : EReal :=
  max ((v3 (ix2 y k) - v5 (ix2 0 k)) * Ideal.rsqrt (v7 (ix2 0 k) + Cert.Spec.eps) * v9 (ix2 0 k) + v11 (ix2 0 k)) 0

/-- The product block at (y, q): the sum over k of the activation at (y, k) times the weight at (k, q). -/
theorem k1_pay4_apply (v3 : Vec Ideal S2000x256 .f32) (v5 v7 v9 v11 : Vec Ideal S1x256 .f32) (v27 : Vec Ideal S256x256 .f32)
    (y : Fin 2000) (q : Fin 256) :
    k1_pay4 v3 v5 v7 v9 v11 v27 (ix2 y q) = ∑ k : Fin 256, act1 v3 v5 v7 v9 v11 y k * v27 (ix2 k q) := by
  unfold k1_pay4
  refine (mm1_apply _ _ y q).trans ?_
  refine Finset.sum_congr rfl fun k _ => ?_
  simp only [shapeCast_self]
  show max (((v3 (ix2 y k) - broadcastTo S2000x256 v5 broadcasts_S1x256_S2000x256 (ix2 y k))
      * broadcastTo S2000x256 (rsqrt (addf v7 (broadcast S1x256 (Scalar.ofBits .f32 0x3727C5AC#32 : Ideal .f32))) : FVec Ideal S1x256 .f32) broadcasts_S1x256_S2000x256 (ix2 y k))
      * broadcastTo S2000x256 v9 broadcasts_S1x256_S2000x256 (ix2 y k)
      + broadcastTo S2000x256 v11 broadcasts_S1x256_S2000x256 (ix2 y k)) (Ideal.ofBits .f32 0x00000000#32) * v27 (ix2 k q) = _
  rw [bcast1_row_apply, bcast1_row_apply, bcast1_row_apply, bcast1_row_apply, Ideal.ofBits_zero_f32]
  rfl

/-- The block's column sums, as the body hands them on, at column j. -/
theorem k1_pay5_apply (v3 : Vec Ideal S2000x256 .f32) (v5 v7 v9 v11 : Vec Ideal S1x256 .f32) (v27 : Vec Ideal S256x256 .f32) (j : Fin 256) :
    k1_pay5 v3 v5 v7 v9 v11 v27 (ix2 0 j) = ∑ r : Fin 2000, k1_pay4 v3 v5 v7 v9 v11 v27 (ix2 r j) := by
  unfold k1_pay5
  exact colsum1_row_apply _ j

/-- The first row's update at column j: what the row held plus the block's column sum. -/
theorem k1_pay1_apply (v32 : Vec Ideal S1x256 .f32) (v34 : FVec Ideal S1x256 .f32) (j : Fin 256) :
    k1_pay1 v32 v34 (ix2 0 j) = v32 (ix2 0 j) + v34 (ix2 0 j) := by
  unfold k1_pay1
  simp only [shapeCast_self]
  rfl

/-- The second row's update at column j: what the row held plus the column sum of the block's squares. -/
theorem k1_pay2_apply (v30 : FVec Ideal S2000x256 .f32) (v39 : Vec Ideal S1x256 .f32) (j : Fin 256) :
    k1_pay2 v30 v39 (ix2 0 j) = v39 (ix2 0 j) + ∑ r : Fin 2000, v30 (ix2 r j) * v30 (ix2 r j) := by
  unfold k1_pay2
  simp only [shapeCast_self]
  exact congrArg (v39 (ix2 0 j) + ·) (colsum1_row_apply (mulf v30 v30) j)

/-- The zero fill at any entry. -/
theorem k1_pay3_apply (i : S2x256.Idx) : k1_pay3 (F := Ideal) i = 0 := by
  unfold k1_pay3
  simp only [shapeCast_self]
  exact Ideal.ofBits_zero_f32

end Cert.KernelIdeal.HandV

end
-- ==== Proof.KI.P1found.lean ====
import proofs.«148047_j37898791420018_1_alg».proof.Proof.KI.R1
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

/-! ## The two rows of the 2 × 256 accumulator -/

section Rows
variable {Val : EltTy → Type} [∀ e, Nonempty (Val e)]

theorem hz2_1 : (![0, 0] : Fin 2 → Nat) = fun _ => 0 := funext fun a => by fin_cases a <;> rfl

/-- Row 0 and row 1 of the accumulator, as the rectangles the body loads and stores through. -/
abbrev Rw1_0 : Rect S2x256 := Rect.unit (s := S2x256) ![0, 0] ![1, 256] inb_S2x256_S1x256_0_0
abbrev Rw1_1 : Rect S2x256 := Rect.unit (s := S2x256) ![1, 0] ![1, 256] inb_S2x256_S1x256_1_0

/-- Entry j of row 0 is entry (0, j) of the accumulator; entry j of row 1 is entry (1, j). -/
theorem Rw1_0_idx (j : Fin 256) : Rw1_0.toLoadRect.idx (ix2 0 j : S1x256.Idx) = (ix2 0 j : S2x256.Idx) := by
  funext a; apply Fin.ext
  match a with
  | ⟨0, _⟩ => rfl
  | ⟨1, _⟩ => show 0 + 1 * j.val = j.val; omega
theorem Rw1_1_idx (j : Fin 256) : Rw1_1.toLoadRect.idx (ix2 0 j : S1x256.Idx) = (ix2 1 j : S2x256.Idx) := by
  funext a; apply Fin.ext
  match a with
  | ⟨0, _⟩ => rfl
  | ⟨1, _⟩ => show 0 + 1 * j.val = j.val; omega

/-- An entry is in row 1 exactly when its row coordinate is 1, in row 0 exactly when it is 0. -/
theorem Rw1_1_mem (y : S2x256.Idx) : y ∈ Rw1_1.set ↔ (y 0).val = 1 := by
  rw [Rect.mem_set_unit]
  constructor
  · intro h
    have h0 := h 0
    have h1 : 1 ≤ (y 0).val := h0.1
    have h2 : (y 0).val < 1 + 1 := h0.2
    omega
  · intro h a
    match a with
    | ⟨0, _⟩ => exact ⟨show 1 ≤ (y 0).val by omega, show (y 0).val < 1 + 1 by omega⟩
    | ⟨1, _⟩ => exact ⟨Nat.zero_le _, show (y 1).val < 0 + 256 by have h256 : (y 1).val < 256 := (y 1).isLt; omega⟩
theorem Rw1_0_mem (y : S2x256.Idx) : y ∈ Rw1_0.set ↔ (y 0).val = 0 := by
  rw [Rect.mem_set_unit]
  constructor
  · intro h
    have h0 := h 0
    have h2 : (y 0).val < 0 + 1 := h0.2
    omega
  · intro h a
    match a with
    | ⟨0, _⟩ => exact ⟨Nat.zero_le _, show (y 0).val < 0 + 1 by omega⟩
    | ⟨1, _⟩ => exact ⟨Nat.zero_le _, show (y 1).val < 0 + 256 by have h256 : (y 1).val < 256 := (y 1).isLt; omega⟩

/-- Every entry of row 1 (as an entry of the accumulator) lies outside row 0. -/
theorem Rw1_1_idx_not_mem (x : Rw1_1.shape.Idx) : Rw1_1.toLoadRect.idx x ∉ Rw1_0.set := by
  rw [Rw1_0_mem]
  show ¬(1 + 1 * (x 0).val = 0)
  omega

/-- After a last store through row 1, entry (1, j) is that store's payload at j, -/
theorem canonRw1_1 (p1 : Rw1_1.shape.Idx → Val .f32) (L : List (View.Piece Val S2x256 .f32)) (j : Fin 256) :
    View.canon (⟨Rw1_1, p1⟩ :: L) (ix2 1 j) = p1 (ix2 0 j) := by
  have h := View.canon_cons_emb Rw1_1 p1 L (ix2 0 j)
  rw [show Rw1_1.emb (ix2 0 j) = (ix2 1 j : S2x256.Idx) from Rw1_1_idx j] at h
  exact h
/-- and entry (0, j) is what the stores before it left. -/
theorem canonRw1_1_at0 (p1 : Rw1_1.shape.Idx → Val .f32) (L : List (View.Piece Val S2x256 .f32)) (j : Fin 256) :
    View.canon (⟨Rw1_1, p1⟩ :: L) (ix2 0 j) = View.canon L (ix2 0 j) :=
  View.canon_cons_of_not_mem _ L (fun h => by
    have h' : (0 : ℕ) = 1 := (Rw1_1_mem (ix2 0 j)).mp h
    omega)
/-- After a last store through row 0, entry (0, j) is that store's payload at j. -/
theorem canonRw1_0 (p0 : Rw1_0.shape.Idx → Val .f32) (L : List (View.Piece Val S2x256 .f32)) (j : Fin 256) :
    View.canon (⟨Rw1_0, p0⟩ :: L) (ix2 0 j) = p0 (ix2 0 j) := by
  have h := View.canon_cons_emb Rw1_0 p0 L (ix2 0 j)
  rw [show Rw1_0.emb (ix2 0 j) = (ix2 0 j : S2x256.Idx) from Rw1_0_idx j] at h
  exact h

/-- Two last stores through row 1 and row 0 leave nothing of what was stored before them: every entry is in one
    of the two rows. -/
theorem canonRw1_two (p1 : Rw1_1.shape.Idx → Val .f32) (p0 : Rw1_0.shape.Idx → Val .f32) (L : List (View.Piece Val S2x256 .f32)) :
    View.canon (⟨Rw1_1, p1⟩ :: ⟨Rw1_0, p0⟩ :: L) = View.canon [⟨Rw1_1, p1⟩, ⟨Rw1_0, p0⟩] := by
  funext y
  by_cases h1 : y ∈ Rw1_1.set
  · obtain ⟨x, rfl⟩ := Rw1_1.exists_idx_of_mem h1
    exact (View.canon_cons_emb Rw1_1 p1 (⟨Rw1_0, p0⟩ :: L) x).trans (View.canon_cons_emb Rw1_1 p1 [⟨Rw1_0, p0⟩] x).symm
  · refine (View.canon_cons_of_not_mem (⟨Rw1_1, p1⟩ : View.Piece Val S2x256 .f32) (⟨Rw1_0, p0⟩ :: L) h1).trans ?_
    refine Eq.trans ?_ (View.canon_cons_of_not_mem (⟨Rw1_1, p1⟩ : View.Piece Val S2x256 .f32) [⟨Rw1_0, p0⟩] h1).symm
    have h0 : y ∈ Rw1_0.set := by
      rw [Rw1_0_mem]
      have hn : ¬(y 0).val = 1 := fun h => h1 ((Rw1_1_mem y).mpr h)
      have h2 : (y 0).val < 2 := (y 0).isLt
      omega
    obtain ⟨x, rfl⟩ := Rw1_0.exists_idx_of_mem h0
    exact (View.canon_cons_emb Rw1_0 p0 L x).trans (View.canon_cons_emb Rw1_0 p0 [] x).symm

/-- A load of row 0 after ONE whole store reads the payload's row 0. -/
theorem readCovRw1_0_whole {sig : RefSig} {κ : Kind} {sp : Space} (v : View sig κ sp S2x256 .f32)
    (inb : ∀ a, (![0, 0] : Fin 2 → Nat) a + S2x256.size a ≤ S2x256.size a) (w : S2x256.Idx → Val .f32) :
    v.readCov [(⟨Rect.unit ![0, 0] S2x256.size inb, w⟩ : View.Piece Val S2x256 .f32)] Rw1_0.toLoadRect = View.ld w Rw1_0 := by
  rw [View.readCov_eq_canon', View.canon_unit_zero (S := S2x256) hz2_1]
/-- A load of row 1 after a whole store and then a store through row 0 reads the whole store's payload's row 1. -/
theorem readCovRw1_1_whole {sig : RefSig} {κ : Kind} {sp : Space} (v : View sig κ sp S2x256 .f32)
    (inb : ∀ a, (![0, 0] : Fin 2 → Nat) a + S2x256.size a ≤ S2x256.size a) (w : S2x256.Idx → Val .f32)
    (p0 : Rw1_0.shape.Idx → Val .f32) :
    v.readCov [⟨Rw1_0, p0⟩, (⟨Rect.unit ![0, 0] S2x256.size inb, w⟩ : View.Piece Val S2x256 .f32)] Rw1_1.toLoadRect = View.ld w Rw1_1 := by
  rw [View.readCov_eq_canon']
  funext x
  rw [View.canon_cons_of_not_mem _ _ (Rw1_1_idx_not_mem x), View.canon_unit_zero (S := S2x256) hz2_1]

end Rows

variable {F : FTy → Type} [FloatOps F]

/-! ## One row block's step of the accumulator -/

/-- Row 0 and row 1 of accumulator contents `S`, as the one-row vectors the body loads. -/
abbrev accRow1_0 (S : Vec F S2x256 .f32) : Vec F S1x256 .f32 := View.ld S Rw1_0
abbrev accRow1_1 (S : Vec F S2x256 .f32) : Vec F S1x256 .f32 := View.ld S Rw1_1

theorem accRow1_0_apply (S : Vec F S2x256 .f32) (j : Fin 256) : accRow1_0 S (ix2 0 j) = S (ix2 0 j) :=
  congrArg S (Rw1_0_idx j)
theorem accRow1_1_apply (S : Vec F S2x256 .f32) (j : Fin 256) : accRow1_1 S (ix2 0 j) = S (ix2 1 j) :=
  congrArg S (Rw1_1_idx j)

/-- The accumulator after one row block with input blocks `x0 … x5`, entered at contents `S`: row 0 is `S`'s row 0
    plus the column sums of the block's product, row 1 is `S`'s row 1 plus the column sums of the product's squares. -/
def accStep1 (x0 : Vec F S2000x256 .f32) (x1 x2 x3 x4 : Vec F S1x256 .f32) (x5 : Vec F S256x256 .f32)
    (S : Vec F S2x256 .f32) : Vec F S2x256 .f32 :=
  View.canon [⟨Rw1_1, k1_pay2 (k1_pay4 x0 x1 x2 x3 x4 x5) (accRow1_1 S)⟩, ⟨Rw1_0, k1_pay1 (accRow1_0 S) (k1_pay5 x0 x1 x2 x3 x4 x5)⟩]

theorem accStep1_row0 (x0 : Vec F S2000x256 .f32) (x1 x2 x3 x4 : Vec F S1x256 .f32) (x5 : Vec F S256x256 .f32)
    (S : Vec F S2x256 .f32) (j : Fin 256) :
    accStep1 x0 x1 x2 x3 x4 x5 S (ix2 0 j) = k1_pay1 (accRow1_0 S) (k1_pay5 x0 x1 x2 x3 x4 x5) (ix2 0 j) := by
  unfold accStep1
  rw [canonRw1_1_at0, canonRw1_0]
theorem accStep1_row1 (x0 : Vec F S2000x256 .f32) (x1 x2 x3 x4 : Vec F S1x256 .f32) (x5 : Vec F S256x256 .f32)
    (S : Vec F S2x256 .f32) (j : Fin 256) :
    accStep1 x0 x1 x2 x3 x4 x5 S (ix2 1 j) = k1_pay2 (k1_pay4 x0 x1 x2 x3 x4 x5) (accRow1_1 S) (ix2 0 j) := by
  unfold accStep1
  rw [canonRw1_1]

/-! ## The found pieces as payloads -/

/-- The product window after either case: the block's product. -/
theorem out1_A_6_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) :
    out1_A_6 c i arg1 harg1 arg2 harg2 arg3 harg3 arg4 harg4 arg5 harg5 arg6 harg6 arg7 harg7 arg8 harg8 arg9 harg9 hc0 x0 x1 x2 x3 x4 x5 = k1_pay4 x0 x1 x2 x3 x4 x5 := by
  unfold out1_A_6
  rw [View.read_writes_junk_eq_canon]
  unfold kernelRun1_A; dsimp only; sl_unfold_words
  rw [View.canon_unit_zero hz2_1]
  simp only [View.readAt_eq_ld, harg1.read_unread, harg2.read_unread, harg3.read_unread, harg4.read_unread, harg5.read_unread, harg6.read_unread, View.ld_unit_zero (S := S2000x256) hz2_1, View.ld_unit_zero (S := S1x256) hz2_1, View.ld_unit_zero (S := S256x256) hz2_1]
theorem out1_B_6_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) :
    out1_B_6 c i arg1 harg1 arg2 harg2 arg3 harg3 arg4 harg4 arg5 harg5 arg6 harg6 arg7 harg7 arg8 harg8 arg9 harg9 hc0 x0 x1 x2 x3 x4 x5 xs0 = k1_pay4 x0 x1 x2 x3 x4 x5 := by
  unfold out1_B_6
  rw [View.read_writes_junk_eq_canon]
  unfold kernelRun1_B; dsimp only; sl_unfold_words
  rw [View.canon_unit_zero hz2_1]
  simp only [View.readAt_eq_ld, harg1.read_unread, harg2.read_unread, harg3.read_unread, harg4.read_unread, harg5.read_unread, harg6.read_unread, View.ld_unit_zero (S := S2000x256) hz2_1, View.ld_unit_zero (S := S1x256) hz2_1, View.ld_unit_zero (S := S256x256) hz2_1]

/-- The accumulator after the first row block: one step from the zero fill. -/
theorem sout1_A_0_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) :
    sout1_A_0 c i arg1 harg1 arg2 harg2 arg3 harg3 arg4 harg4 arg5 harg5 arg6 harg6 arg7 harg7 arg8 harg8 arg9 harg9 hc0 x0 x1 x2 x3 x4 x5 = accStep1 x0 x1 x2 x3 x4 x5 k1_pay3 := by
  unfold sout1_A_0
  rw [View.read_writes_junk_eq_canon]
  unfold kernelRun1_A; dsimp only; sl_unfold_words; dsimp only
  simp only [View.readAt_eq_ld, harg1.read_unread, harg2.read_unread, harg3.read_unread, harg4.read_unread, harg5.read_unread, harg6.read_unread, View.ld_unit_zero (S := S2000x256) hz2_1, View.ld_unit_zero (S := S1x256) hz2_1, View.ld_unit_zero (S := S256x256) hz2_1]
  rw [readCovRw1_0_whole, readCovRw1_1_whole, canonRw1_two]
  rfl

/-- The accumulator after a later row block: one step from what it was entered at. -/
theorem sout1_B_0_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) :
    sout1_B_0 c i arg1 harg1 arg2 harg2 arg3 harg3 arg4 harg4 arg5 harg5 arg6 harg6 arg7 harg7 arg8 harg8 arg9 harg9 hc0 x0 x1 x2 x3 x4 x5 xs0 = accStep1 x0 x1 x2 x3 x4 x5 xs0 := by
  unfold sout1_B_0
  rw [View.read_writes_junk_eq_canon]
  unfold kernelRun1_B; dsimp only; sl_unfold_words; dsimp only
  simp only [View.readAt_eq_ld, harg1.read_unread, harg2.read_unread, harg3.read_unread, harg4.read_unread, harg5.read_unread, harg6.read_unread, harg9.read_unread, View.ld_unit_zero (S := S2000x256) hz2_1, View.ld_unit_zero (S := S1x256) hz2_1, View.ld_unit_zero (S := S256x256) hz2_1]
  rfl

/-- The statistics window receives a copy of the accumulator. -/
theorem out1_A_7_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond1_0 i)
    (x0 : Vec F S2000x256 .f32) (x1 x2 x3 x4 : Vec F S1x256 .f32) (x5 : Vec F S256x256 .f32) :
    out1_A_7 c i arg1 harg1 arg2 harg2 arg3 harg3 arg4 harg4 arg5 harg5 arg6 harg6 arg7 harg7 arg8 harg8 arg9 harg9 hc0 x0 x1 x2 x3 x4 x5 = sout1_A_0 c i arg1 harg1 arg2 harg2 arg3 harg3 arg4 harg4 arg5 harg5 arg6 harg6 arg7 harg7 arg8 harg8 arg9 harg9 hc0 x0 x1 x2 x3 x4 x5 := by
  unfold out1_A_7 sout1_A_0
  rw [View.read_writes_junk_eq_canon, View.read_writes_junk_eq_canon]
  unfold kernelRun1_A; dsimp only; sl_unfold_words
  rw [View.canon_unit_zero hz2_1, View.readCov_eq_canon']
  exact View.ld_unit_zero (S := S2x256) hz2_1 _ _
theorem out1_B_7_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond1_0 i)
    (x0 : Vec F S2000x256 .f32) (x1 x2 x3 x4 : Vec F S1x256 .f32) (x5 : Vec F S256x256 .f32) (xs0 : Vec F S2x256 .f32) :
    out1_B_7 c i arg1 harg1 arg2 harg2 arg3 harg3 arg4 harg4 arg5 harg5 arg6 harg6 arg7 harg7 arg8 harg8 arg9 harg9 hc0 x0 x1 x2 x3 x4 x5 xs0 = sout1_B_0 c i arg1 harg1 arg2 harg2 arg3 harg3 arg4 harg4 arg5 harg5 arg6 harg6 arg7 harg7 arg8 harg8 arg9 harg9 hc0 x0 x1 x2 x3 x4 x5 xs0 := by
  unfold out1_B_7 sout1_B_0
  rw [View.read_writes_junk_eq_canon, View.read_writes_junk_eq_canon]
  unfold kernelRun1_B; dsimp only; sl_unfold_words
  rw [View.canon_unit_zero hz2_1, View.readCov_eq_canon']
  exact View.ld_unit_zero (S := S2x256) hz2_1 _ _

end Cert.KernelIdeal.HandV

end
-- ==== Proof.KI.V1.lean ====
import proofs.«148047_j37898791420018_1_alg».proof.Proof.KI.R1
import proofs.«148047_j37898791420018_1_alg».proof.Proof.KI.P1
import proofs.«148047_j37898791420018_1_alg».proof.Proof.KI.P1found
import proofs.«148047_j37898791420018_1_alg».proof.Proof.LibBlockSum
import proofs.«148047_j37898791420018_1_alg».proof.Proof.Spec
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

/-! # Region 1's value: the product array is the normalised, rectified activations times the weights, and the
    statistics array holds that product's column sums and column sums of squares -/

variable (V : (c : Dev nD) → (b : Ref sig .tc) → Buf (Elt Ideal) ((c : Thread nD τ).loc b))

/-! ## Region 1's arrays and blocks, at their literal types -/

/-- The six input arrays as the region finds them. -/
abbrev A1_0 (c : Dev nD) : Cert.Spec.Arr 50000 256 := V c (Pipeline.arrRef spec1 0)
abbrev A1_1 (c : Dev nD) : Cert.Spec.Arr 1 256 := V c (Pipeline.arrRef spec1 1)
abbrev A1_2 (c : Dev nD) : Cert.Spec.Arr 1 256 := V c (Pipeline.arrRef spec1 2)
abbrev A1_3 (c : Dev nD) : Cert.Spec.Arr 1 256 := V c (Pipeline.arrRef spec1 3)
abbrev A1_4 (c : Dev nD) : Cert.Spec.Arr 1 256 := V c (Pipeline.arrRef spec1 4)
abbrev A1_5 (c : Dev nD) : Cert.Spec.Arr 256 256 := V c (Pipeline.arrRef spec1 5)

/-- The blocks the body loads at point `t`. -/
abbrev xb1 (c : Dev nD) (t : Fin cfg1.N) : Vec Ideal S2000x256 .f32 := iblk1 V c 0 t
abbrev rb1_1 (c : Dev nD) (t : Fin cfg1.N) : Vec Ideal S1x256 .f32 := iblk1 V c 1 t
abbrev rb1_2 (c : Dev nD) (t : Fin cfg1.N) : Vec Ideal S1x256 .f32 := iblk1 V c 2 t
abbrev rb1_3 (c : Dev nD) (t : Fin cfg1.N) : Vec Ideal S1x256 .f32 := iblk1 V c 3 t
abbrev rb1_4 (c : Dev nD) (t : Fin cfg1.N) : Vec Ideal S1x256 .f32 := iblk1 V c 4 t
abbrev wb1 (c : Dev nD) (t : Fin cfg1.N) : Vec Ideal S256x256 .f32 := iblk1 V c 5 t

/-- The printed index maps, decided over the grid: the activations' and the product's blocks move down the rows with
    the point, every other window stays on its one block. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0 :=
  (by decide +kernel : ∀ t : Fin grid1.N, _)

theorem lt1 (t : Fin cfg1.N) : t.val < 25 := lt_of_lt_of_eq t.isLt (show cfg1.N = 25 from N_1)

/-- Row `2000 · t + y` of the 50000, from the point and the row inside the block. -/
def rowAt1 (t : Fin cfg1.N) (y : Fin 2000) : Fin 50000 := ⟨2000 * t.val + y.val, by have := lt1 t; omega⟩

/-- The activations' block at point `t`, entry (y, k): the array's entry (2000 · t + y, k). -/
theorem xb1_apply (c : Dev nD) (t : Fin cfg1.N) (y : Fin 2000) (k : Fin 256) :
    xb1 V c t (ix2 y k) = A1_0 V c (ix2 (rowAt1 t y) k) := by
  obtain ⟨e0, e1, -⟩ := idx1_facts t
  show V c (Pipeline.arrRef spec1 0) (((cfg1.win 0).blk t).view.emb (ix2 y k)) = V c (Pipeline.arrRef spec1 0) (ix2 (rowAt1 t y) k)
  refine congrArg _ (funext fun a => Fin.ext ?_)
  match a with
  | ⟨0, _⟩ => show win1_0.index t (0 : Fin 2) * 2000 + 1 * y.val = 2000 * t.val + y.val; omega
  | ⟨1, _⟩ => show win1_0.index t (1 : Fin 2) * 256 + 1 * k.val = k.val; omega

/-- The five one-block windows' blocks are their whole arrays. -/
theorem rb1_1_eq (c : Dev nD) (t : Fin cfg1.N) : rb1_1 V c t = A1_1 V c := by
  obtain ⟨-, -, e1a, e1b, e2a, e2b, e3a, e3b, e4a, e4b, e5a, e5b, -⟩ := idx1_facts t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 256 + 1 * (y 1).val = (y 1).val; omega
theorem rb1_2_eq (c : Dev nD) (t : Fin cfg1.N) : rb1_2 V c t = A1_2 V c := by
  obtain ⟨-, -, e1a, e1b, e2a, e2b, e3a, e3b, e4a, e4b, e5a, e5b, -⟩ := idx1_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega
theorem rb1_3_eq (c : Dev nD) (t : Fin cfg1.N) : rb1_3 V c t = A1_3 V c := by
  obtain ⟨-, -, e1a, e1b, e2a, e2b, e3a, e3b, e4a, e4b, e5a, e5b, -⟩ := idx1_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega
theorem rb1_4_eq (c : Dev nD) (t : Fin cfg1.N) : rb1_4 V c t = A1_4 V c := by
  obtain ⟨-, -, e1a, e1b, e2a, e2b, e3a, e3b, e4a, e4b, e5a, e5b, -⟩ := idx1_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega
theorem wb1_eq (c : Dev nD) (t : Fin cfg1.N) : wb1 V c t = A1_5 V c := by
  obtain ⟨-, -, e1a, e1b, e2a, e2b, e3a, e3b, e4a, e4b, e5a, e5b, -⟩ := idx1_facts t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

/-- The normalised, rectified activations as one array. -/
def Y1 (c : Dev nD) : Cert.Spec.Arr 50000 256 :=
  Cert.Spec.bnrelu (A1_0 V c) (Cert.Spec.row (A1_1 V c) 0) (Cert.Spec.row (A1_2 V c) 0) (Cert.Spec.row (A1_3 V c) 0) (Cert.Spec.row (A1_4 V c) 0)

/-- The product block the body stores at point `t`. -/
abbrev m1 (c : Dev nD) (t : Fin cfg1.N) : Vec Ideal S2000x256 .f32 :=
  k1_pay4 (xb1 V c t) (rb1_1 V c t) (rb1_2 V c t) (rb1_3 V c t) (rb1_4 V c t) (wb1 V c t)

/-- It is block `t` of the product of the activations with the weights. -/
theorem m1_apply (c : Dev nD) (t : Fin cfg1.N) (y : Fin 2000) (q : Fin 256) :
    m1 V c t (ix2 y q) = Cert.Spec.mm (Y1 V c) (A1_5 V c) (ix2 (rowAt1 t y) q) := by
  refine (k1_pay4_apply _ _ _ _ _ _ y q).trans ?_
  rw [rb1_1_eq, rb1_2_eq, rb1_3_eq, rb1_4_eq, wb1_eq]
  unfold Cert.Spec.mm
  refine Finset.sum_congr rfl fun k _ => ?_
  unfold act1
  rw [xb1_apply]
  rfl

/-! ## The accumulator's step at the ideal values -/

/-- One step leaves in row 0, column j, what the row held plus the column sum of the block product, -/
theorem accStep1_val0 (x0 : Vec Ideal S2000x256 .f32) (x1 x2 x3 x4 : Vec Ideal S1x256 .f32) (x5 : Vec Ideal S256x256 .f32) (S : Vec Ideal S2x256 .f32) (j : Fin 256) :
    accStep1 x0 x1 x2 x3 x4 x5 S (ix2 0 j) = S (ix2 0 j) + ∑ r : Fin 2000, k1_pay4 x0 x1 x2 x3 x4 x5 (ix2 r j) := by
  refine (accStep1_row0 x0 x1 x2 x3 x4 x5 S j).trans ((k1_pay1_apply _ _ j).trans ?_)
  rw [accRow1_0_apply, k1_pay5_apply]
/-- and in row 1 what the row held plus the column sum of its squares. -/
theorem accStep1_val1 (x0 : Vec Ideal S2000x256 .f32) (x1 x2 x3 x4 : Vec Ideal S1x256 .f32) (x5 : Vec Ideal S256x256 .f32) (S : Vec Ideal S2x256 .f32) (j : Fin 256) :
    accStep1 x0 x1 x2 x3 x4 x5 S (ix2 1 j)
      = S (ix2 1 j) + ∑ r : Fin 2000, k1_pay4 x0 x1 x2 x3 x4 x5 (ix2 r j) * k1_pay4 x0 x1 x2 x3 x4 x5 (ix2 r j) := by
  refine (accStep1_row1 x0 x1 x2 x3 x4 x5 S j).trans ((k1_pay2_apply _ _ j).trans ?_)
  rw [accRow1_1_apply]

/-! ## What the outputs and the accumulator hold after each point, as values -/

/-- After every point the product window's staging buffer holds the point's block product. -/
theorem outs1_prod (c : Dev nD) (t : Fin cfg1.N) : (outsAt1 V c t.val t.isLt).1 = m1 V c t := by
  by_cases h0 : t.val % 25 = 0
  · rw [outsAt1_A V c t h0]
    dsimp only
    exact out1_A_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t)
  · rw [outsAt1_B V c t h0]
    dsimp only
    exact out1_B_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2

/-- After the first point the accumulator and the statistics window hold one step from the zero fill, -/
theorem outs1_first (c : Dev nD) (t : Fin cfg1.N) (h0 : t.val % 25 = 0) :
    (outsAt1 V c t.val t.isLt).2.1 = accStep1 (xb1 V c t) (rb1_1 V c t) (rb1_2 V c t) (rb1_3 V c t) (rb1_4 V c t) (wb1 V c t) (k1_pay3 (F := Ideal))
      ∧ (outsAt1 V c t.val t.isLt).2.2 = accStep1 (xb1 V c t) (rb1_1 V c t) (rb1_2 V c t) (rb1_3 V c t) (rb1_4 V c t) (wb1 V c t) (k1_pay3 (F := Ideal)) := by
  rw [outsAt1_A V c t h0]
  dsimp only
  exact ⟨(out1_A_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t)).trans
      (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t)),
    sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t)⟩

/-- after a later point one step from what the point before left. -/
theorem outs1_later (c : Dev nD) (t : Fin cfg1.N) (h0 : ¬t.val % 25 = 0) :
    (outsAt1 V c t.val t.isLt).2.1 = accStep1 (xb1 V c t) (rb1_1 V c t) (rb1_2 V c t) (rb1_3 V c t) (rb1_4 V c t) (wb1 V c t) (outsAt1 V c (t.val - 1) (Nat.lt_of_le_of_lt (Nat.sub_le _ _) t.isLt)).2.2
      ∧ (outsAt1 V c t.val t.isLt).2.2 = accStep1 (xb1 V c t) (rb1_1 V c t) (rb1_2 V c t) (rb1_3 V c t) (rb1_4 V c t) (wb1 V c t) (outsAt1 V c (t.val - 1) (Nat.lt_of_le_of_lt (Nat.sub_le _ _) t.isLt)).2.2 := by
  rw [outsAt1_B V c t h0]
  dsimp only
  exact ⟨(out1_B_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2).trans
      (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2),
    sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2⟩

/-- After every point the statistics window's staging buffer holds what the accumulator holds. -/
theorem outs1_stats (c : Dev nD) (t : Fin cfg1.N) : (outsAt1 V c t.val t.isLt).2.1 = (outsAt1 V c t.val t.isLt).2.2 := by
  by_cases h0 : t.val % 25 = 0
  · exact (outs1_first V c t h0).1.trans (outs1_first V c t h0).2.symm
  · exact (outs1_later V c t h0).1.trans (outs1_later V c t h0).2.symm

/-- The column sums, and the column sums of squares, of the block product at point `t`. -/
def bsum1 (c : Dev nD) (j : Fin 256) (t : Fin cfg1.N) : EReal := ∑ r : Fin 2000, m1 V c t (ix2 r j)
def bsumsq1 (c : Dev nD) (j : Fin 256) (t : Fin cfg1.N) : EReal := ∑ r : Fin 2000, m1 V c t (ix2 r j) * m1 V c t (ix2 r j)

theorem acc1_first (c : Dev nD) (t : Fin cfg1.N) (h0 : t.val % 25 = 0) (j : Fin 256) :
    (outsAt1 V c t.val t.isLt).2.2 (ix2 0 j) = 0 + bsum1 V c j t
      ∧ (outsAt1 V c t.val t.isLt).2.2 (ix2 1 j) = 0 + bsumsq1 V c j t := by
  rw [(outs1_first V c t h0).2]
  constructor
  · refine (accStep1_val0 _ _ _ _ _ _ _ j).trans ?_
    rw [k1_pay3_apply]; rfl
  · refine (accStep1_val1 _ _ _ _ _ _ _ j).trans ?_
    rw [k1_pay3_apply]; rfl

theorem acc1_later (c : Dev nD) (t : Fin cfg1.N) (h0 : ¬t.val % 25 = 0) (j : Fin 256) :
    (outsAt1 V c t.val t.isLt).2.2 (ix2 0 j) = (outsAt1 V c (t.val - 1) (Nat.lt_of_le_of_lt (Nat.sub_le _ _) t.isLt)).2.2 (ix2 0 j) + bsum1 V c j t
      ∧ (outsAt1 V c t.val t.isLt).2.2 (ix2 1 j) = (outsAt1 V c (t.val - 1) (Nat.lt_of_le_of_lt (Nat.sub_le _ _) t.isLt)).2.2 (ix2 1 j) + bsumsq1 V c j t := by
  rw [(outs1_later V c t h0).2]
  exact ⟨accStep1_val0 _ _ _ _ _ _ _ j, accStep1_val1 _ _ _ _ _ _ _ j⟩

/-! ## The accumulation over the 25 points -/

theorem hN1 : cfg1.N = 25 := N_1

/-- Point `n` of the grid. -/
abbrev pt1 (n : Fin (24 + 1)) : Fin cfg1.N := ⟨n.val, by rw [hN1]; exact n.isLt⟩

/-- What the accumulator holds after the last point. -/
def stats1 (c : Dev nD) : Cert.Spec.Arr 2 256 := (outsAt1 V c 24 (by rw [hN1]; decide)).2.2

theorem stats1_row0 (c : Dev nD) (j : Fin 256) : stats1 V c (ix2 0 j) = ∑ t : Fin (24 + 1), bsum1 V c j (pt1 t) :=
  Cert.Lib.BlockSum.acc_eq_sum_fin 24 (fun t => bsum1 V c j (pt1 t))
    (fun t => (outsAt1 V c t.val (pt1 t).isLt).2.2 (ix2 0 j))
    ((acc1_first V c (pt1 0) rfl j).1)
    (fun n h => (acc1_later V c (pt1 ⟨n + 1, h⟩) (by show ¬(n + 1) % 25 = 0; omega) j).1)

theorem stats1_row1 (c : Dev nD) (j : Fin 256) : stats1 V c (ix2 1 j) = ∑ t : Fin (24 + 1), bsumsq1 V c j (pt1 t) :=
  Cert.Lib.BlockSum.acc_eq_sum_fin 24 (fun t => bsumsq1 V c j (pt1 t))
    (fun t => (outsAt1 V c t.val (pt1 t).isLt).2.2 (ix2 1 j))
    ((acc1_first V c (pt1 0) rfl j).2)
    (fun n h => (acc1_later V c (pt1 ⟨n + 1, h⟩) (by show ¬(n + 1) % 25 = 0; omega) j).2)

/-- The sums over the 25 blocks of 2000 rows are the sums over the 50000 rows. -/
theorem stats1_colsum (c : Dev nD) (j : Fin 256) :
    stats1 V c (ix2 0 j) = Cert.Spec.colsum (Cert.Spec.mm (Y1 V c) (A1_5 V c)) j := by
  rw [stats1_row0]
  unfold Cert.Spec.colsum
  rw [← Cert.Lib.BlockSum.sum_blocks_50000 (fun r : Fin 50000 => Cert.Spec.mm (Y1 V c) (A1_5 V c) (ix2 r j))]
  refine Finset.sum_congr rfl fun t _ => ?_
  unfold bsum1
  refine Finset.sum_congr rfl fun y _ => ?_
  exact m1_apply V c (pt1 t) y j

theorem stats1_colsumsq (c : Dev nD) (j : Fin 256) :
    stats1 V c (ix2 1 j) = Cert.Spec.colsumsq (Cert.Spec.mm (Y1 V c) (A1_5 V c)) j := by
  rw [stats1_row1]
  unfold Cert.Spec.colsumsq
  rw [← Cert.Lib.BlockSum.sum_blocks_50000 (fun r : Fin 50000 =>
    Cert.Spec.mm (Y1 V c) (A1_5 V c) (ix2 r j) * Cert.Spec.mm (Y1 V c) (A1_5 V c) (ix2 r j))]
  refine Finset.sum_congr rfl fun t _ => ?_
  unfold bsumsq1
  refine Finset.sum_congr rfl fun y _ => ?_
  rw [m1_apply V c (pt1 t) y j]
  rfl

/-! ## From blocks to the arrays -/

/-- The block product at point `t`, at an entry given by its coordinates' values. -/
theorem m1_at (c : Dev nD) (t : Fin cfg1.N) (j : S2000x256.Idx) (i : S50000x256.Idx)
    (h0 : (i 0).val = 2000 * t.val + (j 0).val) (h1 : (i 1).val = (j 1).val) :
    m1 V c t j = Cert.Spec.mm (Y1 V c) (A1_5 V c) i := by
  have hi : i = ix2 (rowAt1 t (j 0)) (j 1) := funext fun a => Fin.ext (by
    match a with
    | ⟨0, _⟩ => exact h0
    | ⟨1, _⟩ => exact h1)
  calc m1 V c t j = m1 V c t (ix2 (j 0) (j 1)) := congrArg _ (eq_ix2 j)
    _ = Cert.Spec.mm (Y1 V c) (A1_5 V c) (ix2 (rowAt1 t (j 0)) (j 1)) := m1_apply V c t (j 0) (j 1)
    _ = Cert.Spec.mm (Y1 V c) (A1_5 V c) i := congrArg _ hi.symm

/-- What point `t` writes back of the product window is block `t` of the product of the activations by the weights. -/
theorem flushed1_6_eq (c : Dev nD) (t : Fin cfg1.N) :
    (dat1 V c).flushed 6 t = ((cfg1.win 6).blk t).view.read (Elt Ideal) (Cert.Spec.mm (Y1 V c) (A1_5 V c)) := by
  show (cfg1.win 6).cut (grid1.coords t) ((dat1 V c).after 6 t) = _
  rw [after1_6, outs1_prod V c t]
  obtain ⟨-, -, -, -, -, -, -, -, -, -, -, -, e60, e61, -⟩ := idx1_facts t
  funext j
  exact m1_at V c t j (((cfg1.win 6).blk t).view.emb j)
    (by show win1_6.index t (0 : Fin 2) * 2000 + 1 * (j 0).val = 2000 * t.val + (j 0).val; omega)
    (by show win1_6.index t (1 : Fin 2) * 256 + 1 * (j 1).val = (j 1).val; omega)

/-- An index of the product array is in point `t`'s block iff its row is among the 2000 rows from `2000 t`. -/
theorem mem_blk1_6 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v32_0).slice (win1_6.rect t)).set ↔ _
  rw [View.set_slice_whole, Rect.mem_set_unit]
  exact Iff.rfl

/-- Every entry of the product array is in some point's block: row `r` in that of point `r / 2000`. -/
theorem cover1_6 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hN : (i 0).val / 2000 < cfg1.N := by rw [hN1]; omega
  refine ⟨⟨(i 0).val / 2000, hN⟩, flush1_6 _, ?_⟩
  obtain ⟨-, -, -, -, -, -, -, -, -, -, -, -, e60, e61, -⟩ := idx1_facts ⟨(i 0).val / 2000, hN⟩
  rw [mem_blk1_6]
  intro a
  match a with
  | ⟨0, _⟩ =>
    show win1_6.index ⟨(i 0).val / 2000, hN⟩ (0 : Fin 2) * 2000 ≤ (i 0).val ∧ (i 0).val < win1_6.index ⟨(i 0).val / 2000, hN⟩ (0 : Fin 2) * 2000 + 2000
    rw [e60]; show (i 0).val / 2000 * 2000 ≤ (i 0).val ∧ (i 0).val < (i 0).val / 2000 * 2000 + 2000
    omega
  | ⟨1, _⟩ =>
    show win1_6.index ⟨(i 0).val / 2000, hN⟩ (1 : Fin 2) * 256 ≤ (i 1).val ∧ (i 1).val < win1_6.index ⟨(i 0).val / 2000, hN⟩ (1 : Fin 2) * 256 + 256
    rw [e61]; omega

/-- THE PRODUCT ARRAY after the region: the normalised, rectified activations times the weights. -/
theorem val1_prod (c : Dev nD) :
    ((dat1 V c).arrAt 6 cfg1.N : Cert.Spec.Arr 50000 256) = Cert.Spec.mm (Y1 V c) (A1_5 V c) :=
  (dat1 V c).arrAt_eq_of_cover 6 _ (fun t _ => flushed1_6_eq V c t) cover1_6

/-- The contents after a point depend on the point's number only. -/
theorem outsAt1_congr (c : Dev nD) {n m : ℕ} (e : n = m) (hn : n < cfg1.N) (hm : m < cfg1.N) :
    outsAt1 V c n hn = outsAt1 V c m hm := by
  subst e; rfl

/-- At the last point the accumulator holds `stats1`. -/
theorem acc1_last (c : Dev nD) (t : Fin cfg1.N) (h24 : t.val = 24) : (outsAt1 V c t.val t.isLt).2.2 = stats1 V c := by
  unfold stats1
  rw [outsAt1_congr V c h24 t.isLt (by rw [hN1]; decide)]

/-- The one write-back of the statistics window, at the last point, writes what the accumulator holds then: its one
    block is the whole array. -/
theorem flushed1_7_eq (c : Dev nD) (t : Fin cfg1.N) (hf : (cfg1.win 7).flush t = true) :
    (dat1 V c).flushed 7 t = ((cfg1.win 7).blk t).view.read (Elt Ideal) (stats1 V c) := by
  have hN : cfg1.N = 25 := hN1
  have h24 : t.val = 24 := by have := (flush1_7 t).mp hf; have := t.isLt; omega
  obtain ⟨-, -, -, -, -, -, -, -, -, -, -, -, -, -, e70, e71⟩ := idx1_facts t
  show (cfg1.win 7).cut (grid1.coords t) ((dat1 V c).after 7 t) = _
  rw [after1_7, outs1_stats V c t, acc1_last V c t h24]
  funext j
  show stats1 V c j = stats1 V c (((cfg1.win 7).blk t).view.emb j)
  refine congrArg _ ?_
  funext a; apply Fin.ext
  match a with
  | ⟨0, _⟩ => show (j 0).val = win1_7.index t (0 : Fin 2) * 2 + 1 * (j 0).val; omega
  | ⟨1, _⟩ => show (j 1).val = win1_7.index t (1 : Fin 2) * 256 + 1 * (j 1).val; omega

/-- Every entry of the statistics array is in the last point's block. -/
theorem cover1_7 (i : S2x256.Idx) :
    ∃ t : Fin cfg1.N, (cfg1.win 7).flush t = true ∧ i ∈ ((cfg1.win 7).blk t).view.set := by
  have hi0 : (i 0).val < 2 := (i 0).isLt
  have hi1 : (i 1).val < 256 := (i 1).isLt
  have hN : 24 < cfg1.N := by rw [hN1]; decide
  refine ⟨⟨24, hN⟩, (flush1_7 _).mpr rfl, ?_⟩
  obtain ⟨-, -, -, -, -, -, -, -, -, -, -, -, -, -, e70, e71⟩ := idx1_facts ⟨24, hN⟩
  show i ∈ ((View.whole main_v32_1).slice (win1_7.rect ⟨24, hN⟩)).set
  rw [View.set_slice_whole, Rect.mem_set_unit]
  intro a
  match a with
  | ⟨0, _⟩ =>
    show win1_7.index ⟨24, hN⟩ (0 : Fin 2) * 2 ≤ (i 0).val ∧ (i 0).val < win1_7.index ⟨24, hN⟩ (0 : Fin 2) * 2 + 2
    rw [e70]; omega
  | ⟨1, _⟩ =>
    show win1_7.index ⟨24, hN⟩ (1 : Fin 2) * 256 ≤ (i 1).val ∧ (i 1).val < win1_7.index ⟨24, hN⟩ (1 : Fin 2) * 256 + 256
    rw [e71]; omega

/-- The statistics array after the region is what the accumulator holds after the last point. -/
theorem final1_7 (c : Dev nD) : ((dat1 V c).arrAt 7 cfg1.N : Cert.Spec.Arr 2 256) = stats1 V c :=
  (dat1 V c).arrAt_eq_of_cover 7 (stats1 V c) (flushed1_7_eq V c) cover1_7

/-- THE STATISTICS ARRAY after the region: row 0 the column sums, row 1 the column sums of squares, of the product of
    the normalised, rectified activations by the weights. -/
theorem val1_stats (c : Dev nD) (j : Fin 256) :
    ((dat1 V c).arrAt 7 cfg1.N : Cert.Spec.Arr 2 256) (ix2 0 j) = Cert.Spec.colsum (Cert.Spec.mm (Y1 V c) (A1_5 V c)) j
      ∧ ((dat1 V c).arrAt 7 cfg1.N : Cert.Spec.Arr 2 256) (ix2 1 j) = Cert.Spec.colsumsq (Cert.Spec.mm (Y1 V c) (A1_5 V c)) j := by
  rw [final1_7]
  exact ⟨stats1_colsum V c j, stats1_colsumsq V c j⟩

end Cert.KernelIdeal.HandV

end
-- ==== Proof.KI.V2.lean ====
import proofs.«148047_j37898791420018_1_alg».proof.Proof.KI.R2
import proofs.«148047_j37898791420018_1_alg».proof.Proof.Spec
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (Arr Vc)

variable (V : (c : Dev nD) → (b : Ref sig .tc) → Buf (Elt Ideal) ((c : Thread nD τ).loc b))

/-! # Region 2's value: the result array is the normalise-scale-shift-rectify of the activations `z` by the four
    parameter rows, entry by entry -/

/-- The five input arrays as the region finds them, at their literal types: the activations `z` and the rows of
    column means, column variances, gains and offsets. -/
abbrev zarr2 (c : Dev nD) : Arr 50000 256 := V c (Pipeline.arrRef spec2 0)
abbrev marr2 (c : Dev nD) : Arr 1 256 := V c (Pipeline.arrRef spec2 1)
abbrev varr2 (c : Dev nD) : Arr 1 256 := V c (Pipeline.arrRef spec2 2)
abbrev garr2 (c : Dev nD) : Arr 1 256 := V c (Pipeline.arrRef spec2 3)
abbrev barr2 (c : Dev nD) : Arr 1 256 := V c (Pipeline.arrRef spec2 4)

theorem hz2 : (![0, 0] : Fin 2 → Nat) = fun _ => 0 := funext fun a => by fin_cases a <;> rfl

/-- A (1,256) row broadcast down the 2000 rows of a block reads, at `(p, q)`, the row's entry `q`. -/
theorem bcast_row2 {α : Type} (x : S1x256.Idx → α) (h : S1x256.Broadcasts S2000x256) (p : Fin 2000) (q : Fin 256) :
    broadcastTo S2000x256 x h (ix2 p q) = x (ix2 0 q) :=
  broadcastTo_apply x h (ix2 p q) (ix2 0 q) (fun a => by match a with | ⟨0, _⟩ => rfl | ⟨1, _⟩ => rfl)

/-- The body's payload at an entry `(p, q)` of the block: the block's entry, less the mean of column `q`, times the
    reciprocal square root of that column's variance plus the constant, times its gain, plus its offset, clamped below
    at zero. -/
theorem pay_at2 (x0 : Vec Ideal S2000x256 .f32) (x1 x2 x3 x4 : Vec Ideal S1x256 .f32) (p : Fin 2000) (q : Fin 256) :
    k2_pay1 x0 x1 x2 x3 x4 (ix2 p q)
      = max ((x0 (ix2 p q) - x1 (ix2 0 q)) * Ideal.rsqrt (x2 (ix2 0 q) + Cert.Spec.eps) * x3 (ix2 0 q) + x4 (ix2 0 q)) 0 := by
  unfold k2_pay1
  simp only [shapeCast_self]
  simp only [maximumf_apply, addf_apply, mulf_apply, subf_apply, bcast_row2, broadcast_apply]
  rw [show (FloatOps.ofBits (F := Ideal) FTy.f32 0#32) = (0 : EReal) from Ideal.ofBits_zero_f32]
  rfl

/-- The payload of blocks that are parts of whole arrays — the block's entry `j` is the array's entry `i` in the same
    column, and each parameter block is its whole row — is the specification's entry `i`. -/
theorem pay_blk2 (x0 : Vec Ideal S2000x256 .f32) (x1 x2 x3 x4 : Vec Ideal S1x256 .f32)
    (Z : Arr 50000 256) (M Va G B : Arr 1 256) (j : S2000x256.Idx) (i : S50000x256.Idx)
    (h0 : x0 j = Z i) (hq : (j 1).val = (i 1).val)
    (h1 : ∀ q, x1 (ix2 0 q) = M (ix2 0 q)) (h2 : ∀ q, x2 (ix2 0 q) = Va (ix2 0 q))
    (h3 : ∀ q, x3 (ix2 0 q) = G (ix2 0 q)) (h4 : ∀ q, x4 (ix2 0 q) = B (ix2 0 q)) :
    k2_pay1 x0 x1 x2 x3 x4 j
      = Cert.Spec.bnrelu Z (Cert.Spec.row M 0) (Cert.Spec.row Va 0) (Cert.Spec.row G 0) (Cert.Spec.row B 0) i := by
  obtain ⟨p, q, rfl⟩ : ∃ (p : Fin 2000) (q : Fin 256), j = ix2 p q := ⟨j 0, j 1, eq_ix2 j⟩
  have hi : i 1 = q := Fin.ext hq.symm
  rw [pay_at2, h0, h1, h2, h3, h4]
  unfold Cert.Spec.bnrelu Cert.Spec.row
  rw [hi]

/-- The windows' block indices over the grid: the activations' and the result's block at point `t` is block `t` of
    rows, all columns; each parameter row is its one block throughout. -/
theorem idx_facts2 : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The activations' block at point `t` is the part of the array the result's block at `t` covers: entry `j` of the
    one is the array's entry at `j`'s place in the other. -/
theorem blk_z2 (c : Dev nD) (t : Fin cfg2.N) (j : S2000x256.Idx) :
    iblk2 V c 0 t j = zarr2 V c (((cfg2.win 5).blk t).view.emb j) := by
  obtain ⟨e00, e01, e10, e11, e20, e21, e30, e31, e40, e41, e50, e51⟩ := idx_facts2 t
  show V c (Pipeline.arrRef spec2 0) (((cfg2.win 0).blk t).view.emb j) = V c (Pipeline.arrRef spec2 0) (((cfg2.win 5).blk t).view.emb j)
  refine congrArg _ ?_
  funext a; apply Fin.ext
  match a with
  | ⟨0, _⟩ => show win2_0.index t (0 : Fin 2) * 2000 + 1 * (j 0).val = win2_5.index t (0 : Fin 2) * 2000 + 1 * (j 0).val; omega
  | ⟨1, _⟩ => show win2_0.index t (1 : Fin 2) * 256 + 1 * (j 1).val = win2_5.index t (1 : Fin 2) * 256 + 1 * (j 1).val; omega

/-- The result's block keeps the columns: entry `j` of the block is in column `j 1` of the array. -/
theorem blk_col2 (t : Fin cfg2.N) (j : S2000x256.Idx) : (j 1).val = ((((cfg2.win 5).blk t).view.emb j) 1).val := by
  obtain ⟨e00, e01, e10, e11, e20, e21, e30, e31, e40, e41, e50, e51⟩ := idx_facts2 t
  show (j 1).val = win2_5.index t (1 : Fin 2) * 256 + 1 * (j 1).val
  omega

/-- The block of the row of column means is the whole row, at every point. -/
theorem blk_row2_1 (c : Dev nD) (t : Fin cfg2.N) (q : Fin 256) : iblk2 V c 1 t (ix2 0 q) = marr2 V c (ix2 0 q) := by
  obtain ⟨e00, e01, e10, e11, e20, e21, e30, e31, e40, e41, e50, e51⟩ := idx_facts2 t
  show V c (Pipeline.arrRef spec2 1) (((cfg2.win 1).blk t).view.emb (ix2 0 q)) = V c (Pipeline.arrRef spec2 1) (ix2 0 q)
  refine congrArg _ ?_
  funext a; apply Fin.ext
  match a with
  | ⟨0, _⟩ => show win2_1.index t (0 : Fin 2) * 1 + 1 * 0 = 0; omega
  | ⟨1, _⟩ => show win2_1.index t (1 : Fin 2) * 256 + 1 * q.val = q.val; omega

/-- The block of the row of column variances is the whole row, at every point. -/
theorem blk_row2_2 (c : Dev nD) (t : Fin cfg2.N) (q : Fin 256) : iblk2 V c 2 t (ix2 0 q) = varr2 V c (ix2 0 q) := by
  obtain ⟨e00, e01, e10, e11, e20, e21, e30, e31, e40, e41, e50, e51⟩ := idx_facts2 t
  show V c (Pipeline.arrRef spec2 2) (((cfg2.win 2).blk t).view.emb (ix2 0 q)) = V c (Pipeline.arrRef spec2 2) (ix2 0 q)
  refine congrArg _ ?_
  funext a; apply Fin.ext
  match a with
  | ⟨0, _⟩ => show win2_2.index t (0 : Fin 2) * 1 + 1 * 0 = 0; omega
  | ⟨1, _⟩ => show win2_2.index t (1 : Fin 2) * 256 + 1 * q.val = q.val; omega

/-- The block of the row of column gains is the whole row, at every point. -/
theorem blk_row2_3 (c : Dev nD) (t : Fin cfg2.N) (q : Fin 256) : iblk2 V c 3 t (ix2 0 q) = garr2 V c (ix2 0 q) := by
  obtain ⟨e00, e01, e10, e11, e20, e21, e30, e31, e40, e41, e50, e51⟩ := idx_facts2 t
  show V c (Pipeline.arrRef spec2 3) (((cfg2.win 3).blk t).view.emb (ix2 0 q)) = V c (Pipeline.arrRef spec2 3) (ix2 0 q)
  refine congrArg _ ?_
  funext a; apply Fin.ext
  match a with
  | ⟨0, _⟩ => show win2_3.index t (0 : Fin 2) * 1 + 1 * 0 = 0; omega
  | ⟨1, _⟩ => show win2_3.index t (1 : Fin 2) * 256 + 1 * q.val = q.val; omega

/-- The block of the row of column offsets is the whole row, at every point. -/
theorem blk_row2_4 (c : Dev nD) (t : Fin cfg2.N) (q : Fin 256) : iblk2 V c 4 t (ix2 0 q) = barr2 V c (ix2 0 q) := by
  obtain ⟨e00, e01, e10, e11, e20, e21, e30, e31, e40, e41, e50, e51⟩ := idx_facts2 t
  show V c (Pipeline.arrRef spec2 4) (((cfg2.win 4).blk t).view.emb (ix2 0 q)) = V c (Pipeline.arrRef spec2 4) (ix2 0 q)
  refine congrArg _ ?_
  funext a; apply Fin.ext
  match a with
  | ⟨0, _⟩ => show win2_4.index t (0 : Fin 2) * 1 + 1 * 0 = 0; omega
  | ⟨1, _⟩ => show win2_4.index t (1 : Fin 2) * 256 + 1 * q.val = q.val; omega

/-- What point `t` writes back is block `t` of the specification's array. -/
theorem flushed_eq2 (c : Dev nD) (t : Fin cfg2.N) :
    (dat2 V c).flushed 5 t = ((cfg2.win 5).blk t).view.read (Elt Ideal)
      (Cert.Spec.bnrelu (zarr2 V c) (Cert.Spec.row (marr2 V c) 0) (Cert.Spec.row (varr2 V c) 0)
        (Cert.Spec.row (garr2 V c) 0) (Cert.Spec.row (barr2 V c) 0)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S1x256) hz2]
  funext j
  show k2_pay1 (iblk2 V c 0 t) (iblk2 V c 1 t) (iblk2 V c 2 t) (iblk2 V c 3 t) (iblk2 V c 4 t) j
    = Cert.Spec.bnrelu (zarr2 V c) (Cert.Spec.row (marr2 V c) 0) (Cert.Spec.row (varr2 V c) 0)
        (Cert.Spec.row (garr2 V c) 0) (Cert.Spec.row (barr2 V c) 0) (((cfg2.win 5).blk t).view.emb j)
  exact pay_blk2 (iblk2 V c 0 t) (iblk2 V c 1 t) (iblk2 V c 2 t) (iblk2 V c 3 t) (iblk2 V c 4 t)
    (zarr2 V c) (marr2 V c) (varr2 V c) (garr2 V c) (barr2 V c) j (((cfg2.win 5).blk t).view.emb j)
    (blk_z2 V c t j) (blk_col2 t j) (blk_row2_1 V c t) (blk_row2_2 V c t) (blk_row2_3 V c t) (blk_row2_4 V c t)

/-- An index of the result array is in point `t`'s block iff its row is among the 2000 rows from `2000 t`. -/
theorem mem_blk2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole (Pipeline.arrRef spec2 5)).slice (win2_5.rect t)).set ↔ _
  rw [View.set_slice_whole, Rect.mem_set_unit]
  exact Iff.rfl

/-- Every entry of the result array is in some point's block: row `r` in that of point `r / 2000`. -/
theorem cover_arr2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : (i 0).val / 2000 < cfg2.N := by
    show (i 0).val / 2000 < grid2.N
    rw [N_2]; omega
  refine ⟨⟨(i 0).val / 2000, hN⟩, flush2_5 _, ?_⟩
  obtain ⟨e00, e01, e10, e11, e20, e21, e30, e31, e40, e41, e50, e51⟩ := idx_facts2 ⟨(i 0).val / 2000, hN⟩
  rw [mem_blk2]
  intro a
  match a with
  | ⟨0, _⟩ =>
    show win2_5.index ⟨(i 0).val / 2000, hN⟩ (0 : Fin 2) * 2000 ≤ (i 0).val ∧ (i 0).val < win2_5.index ⟨(i 0).val / 2000, hN⟩ (0 : Fin 2) * 2000 + 2000
    rw [e50]; show (i 0).val / 2000 * 2000 ≤ (i 0).val ∧ (i 0).val < (i 0).val / 2000 * 2000 + 2000
    omega
  | ⟨1, _⟩ =>
    show win2_5.index ⟨(i 0).val / 2000, hN⟩ (1 : Fin 2) * 256 ≤ (i 1).val ∧ (i 1).val < win2_5.index ⟨(i 0).val / 2000, hN⟩ (1 : Fin 2) * 256 + 256
    rw [e51]; omega

/-- THE VALUE of region 2: after the region the result array is the specification's normalise-scale-shift-rectify of
    the activations by row 0 of each of the four parameter arrays, as the region finds them. -/
theorem val2_out (c : Dev nD) :
    ((dat2 V c).arrAt 5 cfg2.N : Arr 50000 256)
      = Cert.Spec.bnrelu (zarr2 V c) (Cert.Spec.row (marr2 V c) 0) (Cert.Spec.row (varr2 V c) 0)
          (Cert.Spec.row (garr2 V c) 0) (Cert.Spec.row (barr2 V c) 0) :=
  (dat2 V c).arrAt_eq_of_cover 5 _ (fun t _ => flushed_eq2 V c t) cover_arr2

end Cert.KernelIdeal.HandV

end
-- ==== Proof.KI.V3.lean ====
import proofs.«148047_j37898791420018_1_alg».proof.Proof.KI.R3
import proofs.«148047_j37898791420018_1_alg».proof.Proof.Spec
import proofs.«148047_j37898791420018_1_alg».proof.Proof.LibBlockSum
import proofs.«148047_j37898791420018_1_alg».proof.Proof.LibRealArith
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (Arr Vc)
open scoped BigOperators

/-! # Region 3's value: the product array is the matrix product of the input by the weights, and the
    statistics array holds its column sums and its column sums of squares -/

theorem hz3 : (![0, 0] : Fin 2 → Nat) = fun _ => 0 := funext fun a => by fin_cases a <;> rfl

/-! ## The block product read at an index -/

theorem lhs3_0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhs3_1 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single rfl j k

theorem rhs3_0 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single rfl j k

theorem rhs3_1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block product into a zero accumulator, at row `p` and column `q`: the sum over the contracted coordinate of
    the products of the entries. -/
theorem mm3_apply (A : FVec Ideal S2000x256 .bf16) (Bm : FVec Ideal S256x256 .bf16) (p : Fin 2000) (q : Fin 256) :
    matmul dot_S2000x256_S256x256_S2000x256_1_0_0_1_n_n none A Bm (constant S2000x256 .f32 0x00000000#32) (ix2 p q)
      = ∑ k : Fin 256, A (ix2 p k) * Bm (ix2 k q) := by
  show FloatOps.matmul dot_S2000x256_S256x256_S2000x256_1_0_0_1_n_n none A Bm (constant S2000x256 .f32 0x00000000#32) (ix2 p q) = _
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have hl : dot_S2000x256_S256x256_S2000x256_1_0_0_1_n_n.lhsIdx (ix2 p q)
      ((contrEquiv1 dot_S2000x256_S256x256_S2000x256_1_0_0_1_n_n 256 rfl rfl).symm k) = ix2 p k := by
    funext a; apply Fin.ext
    match a with
    | ⟨0, _⟩ => exact lhs3_0 _ _
    | ⟨1, _⟩ => exact (lhs3_1 _ _).trans hk
  have hr : dot_S2000x256_S256x256_S2000x256_1_0_0_1_n_n.rhsIdx (ix2 p q)
      ((contrEquiv1 dot_S2000x256_S256x256_S2000x256_1_0_0_1_n_n 256 rfl rfl).symm k) = ix2 k q := by
    funext a; apply Fin.ext
    match a with
    | ⟨0, _⟩ => exact (rhs3_0 _ _).trans hk
    | ⟨1, _⟩ => exact rhs3_1 _ _
  rw [hl, hr]

/-- The product payload at an entry of the block: format changes are the identity on extended reals. -/
theorem pay2_at3 (x0 : Vec Ideal S2000x256 .f32) (x1 : Vec Ideal S256x256 .f32) (p : Fin 2000) (q : Fin 256) :
    k3_pay2 x0 x1 (ix2 p q) = ∑ k : Fin 256, x0 (ix2 p k) * x1 (ix2 k q) := by
  unfold k3_pay2
  simp only [shapeCast_self]
  exact mm3_apply _ _ p q

/-- The sum down the 2000 rows of a block, read at column `q`. -/
theorem colred3_apply (X : FVec Ideal S2000x256 .f32) (hφ : FKind.Formats .f32)
    (hacc : (0x00000000#32 : BitVec 32) = 0x00000000#32) (q : Fin 256) :
    multiReduction (F := Ideal) .add [0] S256 X 0x00000000#32 reduces_S2000x256_S256 hφ hacc (ix1 q)
      = ∑ r : Fin 2000, X (ix2 r q) := by
  refine (Ideal.multiReduction_add_single X 0x00000000#32 reduces_S2000x256_S256 hφ hacc (ix1 q)).trans ?_
  refine Finset.sum_congr rfl fun r _ => congrArg X ?_
  funext a
  match a with
  | ⟨0, _⟩ => rfl
  | ⟨1, _⟩ => rfl

/-- A 256-vector recast as a one-row table reads, at `(0, q)`, its entry `q`. -/
theorem rowcast3_apply {α : Type} (v : S256.Idx → α) (q : Fin 256) :
    shapeCast S1x256 v shapeCasts_S256_S1x256 (ix2 0 q) = v (ix1 q) := by
  refine (shapeCast_addUnit_apply ![256] v shapeCasts_S256_S1x256 (ix2 0 q)).trans (congrArg v ?_)
  funext a
  match a with
  | ⟨0, _⟩ => rfl

/-- The column-sum payload at column `q`: the row read before it plus the sum of the block product down column `q`. -/
theorem pay3_at3 (x0 : Vec Ideal S2000x256 .f32) (x1 : Vec Ideal S256x256 .f32) (v10 : Vec Ideal S1x256 .f32) (q : Fin 256) :
    k3_pay3 x0 x1 v10 (ix2 0 q) = v10 (ix2 0 q) + ∑ r : Fin 2000, k3_pay2 x0 x1 (ix2 r q) := by
  unfold k3_pay3
  simp only [shapeCast_self]
  rw [addf_apply, rowcast3_apply]
  exact congrArg (v10 (ix2 0 q) + ·) (colred3_apply _ _ _ q)

/-- The column-sum-of-squares payload at column `q`. -/
theorem pay4_at3 (x0 : Vec Ideal S2000x256 .f32) (x1 : Vec Ideal S256x256 .f32) (v17 : Vec Ideal S1x256 .f32) (q : Fin 256) :
    k3_pay4 x0 x1 v17 (ix2 0 q) = v17 (ix2 0 q) + ∑ r : Fin 2000, k3_pay2 x0 x1 (ix2 r q) * k3_pay2 x0 x1 (ix2 r q) := by
  unfold k3_pay4
  simp only [shapeCast_self]
  rw [addf_apply, rowcast3_apply]
  refine congrArg (v17 (ix2 0 q) + ·) ((colred3_apply _ _ _ q).trans ?_)
  rfl

/-- The zero payload at any entry. -/
theorem pay1_at3 (y : S2x256.Idx) : k3_pay1 (F := Ideal) y = 0 := by
  unfold k3_pay1
  simp only [shapeCast_self]
  exact Ideal.ofBits_zero_f32

/-! ## The two rows of the 2 × 256 scratch -/

/-- Row 0 and row 1 of the scratch as rectangles. -/
abbrev s3rowA : Rect S2x256 := Rect.unit (s := S2x256) ![0, 0] S1x256.size inb_S2x256_S1x256_0_0
abbrev s3rowB : Rect S2x256 := Rect.unit (s := S2x256) ![1, 0] S1x256.size inb_S2x256_S1x256_1_0
/-- The whole scratch as a rectangle. -/
abbrev s3whole : Rect S2x256 := Rect.unit (s := S2x256) ![0, 0] S2x256.size inb_S2x256_S2x256_0_0

theorem s3rowA_emb (q : Fin 256) : s3rowA.emb (ix2 (0 : Fin 1) q : S1x256.Idx) = ix2 0 q := by
  funext a; apply Fin.ext
  match a with
  | ⟨0, _⟩ => rfl
  | ⟨1, _⟩ => show 0 + 1 * q.val = q.val; omega

theorem s3rowB_emb (q : Fin 256) : s3rowB.emb (ix2 (0 : Fin 1) q : S1x256.Idx) = ix2 1 q := by
  funext a; apply Fin.ext
  match a with
  | ⟨0, _⟩ => rfl
  | ⟨1, _⟩ => show 0 + 1 * q.val = q.val; omega

theorem not_mem_s3rowB (q : Fin 256) : (ix2 (0 : Fin 2) q : S2x256.Idx) ∉ s3rowB.set := by
  rw [Rect.mem_set_unit]
  intro h
  have h1 : (1 : Nat) ≤ 0 := (h 0).1
  omega

theorem not_mem_s3rowA (q : Fin 256) : (ix2 (1 : Fin 2) q : S2x256.Idx) ∉ s3rowA.set := by
  rw [Rect.mem_set_unit]
  intro h
  have h1 : (1 : Nat) < 0 + 1 := (h 0).2
  omega

section Canon
variable {Val : EltTy → Type} [∀ e, Nonempty (Val e)]

/-- A last store to row 1 leaves its payload in row 1, -/
theorem canon_s3rowB (w : S1x256.Idx → Val .f32) (L : List (View.Piece Val S2x256 .f32)) (q : Fin 256) :
    View.canon ((⟨s3rowB, w⟩ : View.Piece Val S2x256 .f32) :: L) (ix2 1 q) = w (ix2 0 q) := by
  have e := View.canon_cons_emb (Val := Val) s3rowB w L (ix2 (0 : Fin 1) q : S1x256.Idx)
  rwa [s3rowB_emb] at e

/-- and row 0 as the earlier stores left it. -/
theorem canon_s3rowB_row0 (w : S1x256.Idx → Val .f32) (L : List (View.Piece Val S2x256 .f32)) (q : Fin 256) :
    View.canon ((⟨s3rowB, w⟩ : View.Piece Val S2x256 .f32) :: L) (ix2 0 q) = View.canon L (ix2 0 q) :=
  View.canon_cons_of_not_mem _ L (not_mem_s3rowB q)

/-- A last store to row 0 leaves its payload in row 0, -/
theorem canon_s3rowA (w : S1x256.Idx → Val .f32) (L : List (View.Piece Val S2x256 .f32)) (q : Fin 256) :
    View.canon ((⟨s3rowA, w⟩ : View.Piece Val S2x256 .f32) :: L) (ix2 0 q) = w (ix2 0 q) := by
  have e := View.canon_cons_emb (Val := Val) s3rowA w L (ix2 (0 : Fin 1) q : S1x256.Idx)
  rwa [s3rowA_emb] at e

/-- and row 1 as the earlier stores left it. -/
theorem canon_s3rowA_row1 (w : S1x256.Idx → Val .f32) (L : List (View.Piece Val S2x256 .f32)) (q : Fin 256) :
    View.canon ((⟨s3rowA, w⟩ : View.Piece Val S2x256 .f32) :: L) (ix2 1 q) = View.canon L (ix2 1 q) :=
  View.canon_cons_of_not_mem _ L (not_mem_s3rowA q)

/-- A last store of the whole scratch leaves its payload. -/
theorem canon_s3whole (w : S2x256.Idx → Val .f32) (L : List (View.Piece Val S2x256 .f32)) :
    View.canon ((⟨s3whole, w⟩ : View.Piece Val S2x256 .f32) :: L) = w :=
  View.canon_cons_unit_zero (S := S2x256) hz3 inb_S2x256_S2x256_0_0 w L

end Canon

/-- The column-sum payload at column `q`, the row read before it named. -/
theorem pay3_at3_of (x0 : Vec Ideal S2000x256 .f32) (x1 : Vec Ideal S256x256 .f32) (v10 : Vec Ideal S1x256 .f32) (q : Fin 256)
    (z : EReal) (hz : v10 (ix2 0 q) = z) :
    k3_pay3 x0 x1 v10 (ix2 0 q) = z + ∑ r : Fin 2000, k3_pay2 x0 x1 (ix2 r q) := by
  rw [pay3_at3, hz]

/-- The column-sum-of-squares payload at column `q`, the row read before it named. -/
theorem pay4_at3_of (x0 : Vec Ideal S2000x256 .f32) (x1 : Vec Ideal S256x256 .f32) (v17 : Vec Ideal S1x256 .f32) (q : Fin 256)
    (z : EReal) (hz : v17 (ix2 0 q) = z) :
    k3_pay4 x0 x1 v17 (ix2 0 q) = z + ∑ r : Fin 2000, k3_pay2 x0 x1 (ix2 r q) * k3_pay2 x0 x1 (ix2 r q) := by
  rw [pay4_at3, hz]

/-- After the zeroing store alone, row 0 reads zero; -/
theorem zero3_rowA (q : Fin 256) :
    View.canon [(⟨s3whole, k3_pay1 (F := Ideal)⟩ : View.Piece (Elt Ideal) S2x256 .f32)] (s3rowA.emb (ix2 (0 : Fin 1) q : S1x256.Idx)) = 0 := by
  rw [canon_s3whole]; exact pay1_at3 _

/-- after the zeroing store and a store to row 0, row 1 still reads zero. -/
theorem zero3_rowB (w0 : S1x256.Idx → Elt Ideal .f32) (q : Fin 256) :
    View.canon ((⟨s3rowA, w0⟩ : View.Piece (Elt Ideal) S2x256 .f32) :: [(⟨s3whole, k3_pay1 (F := Ideal)⟩ : View.Piece (Elt Ideal) S2x256 .f32)])
      (s3rowB.emb (ix2 (0 : Fin 1) q : S1x256.Idx)) = 0 := by
  rw [s3rowB_emb, canon_s3rowA_row1, canon_s3whole]; exact pay1_at3 _

/-! ## What each case of the body leaves, as values -/

section Pieces
variable {F : FTy → Type} [FloatOps F]

/-- At the first point the product window is left at the block product. -/
theorem out3_A_2_eq (c : Dev nD) (i : grid3.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond3 i)
    (x0 : Vec F S2000x256 .f32) (x1 : Vec F S256x256 .f32) :
    out3_A_2 c i a1 h1 a2 h2 a3 h3 a4 h4 a5 h5 hc x0 x1 = k3_pay2 x0 x1 := by
  unfold out3_A_2
  rw [View.read_writes_eq_canon _ _ _ (cover3_A_2 c i a1 h1 a2 h2 a3 h3 a4 h4 a5 h5 hc x0 x1)]
  unfold kernelRun3_A
  dsimp only
  sl_unfold_words
  rw [View.canon_unit_zero hz3]
  simp only [View.readAt_eq_ld, h1.read_unread, h2.read_unread, View.ld_unit_zero (S := S2000x256) hz3, View.ld_unit_zero (S := S256x256) hz3]

/-- At a later point likewise. -/
theorem out3_B_2_eq (c : Dev nD) (i : grid3.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond3 i)
    (x0 : Vec F S2000x256 .f32) (x1 : Vec F S256x256 .f32) (xs0 : Vec F S2x256 .f32) :
    out3_B_2 c i a1 h1 a2 h2 a3 h3 a4 h4 a5 h5 hc x0 x1 xs0 = k3_pay2 x0 x1 := by
  unfold out3_B_2
  rw [View.read_writes_eq_canon _ _ _ (cover3_B_2 c i a1 h1 a2 h2 a3 h3 a4 h4 a5 h5 hc x0 x1 xs0)]
  unfold kernelRun3_B
  dsimp only
  sl_unfold_words
  rw [View.canon_unit_zero hz3]
  simp only [View.readAt_eq_ld, h1.read_unread, h2.read_unread, View.ld_unit_zero (S := S2000x256) hz3, View.ld_unit_zero (S := S256x256) hz3]

/-- The statistics window is left at what the scratch holds (the body's last store copies the whole scratch). -/
theorem out3_A_3_eq (c : Dev nD) (i : grid3.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond3 i)
    (x0 : Vec F S2000x256 .f32) (x1 : Vec F S256x256 .f32) :
    out3_A_3 c i a1 h1 a2 h2 a3 h3 a4 h4 a5 h5 hc x0 x1 = sout3_A c i a1 h1 a2 h2 a3 h3 a4 h4 a5 h5 hc x0 x1 := by
  unfold out3_A_3 sout3_A
  rw [View.read_writes_eq_canon _ _ _ (cover3_A_3 c i a1 h1 a2 h2 a3 h3 a4 h4 a5 h5 hc x0 x1),
    View.read_writes_eq_canon _ _ _ (scover3_A c i a1 h1 a2 h2 a3 h3 a4 h4 a5 h5 hc x0 x1)]
  unfold kernelRun3_A
  dsimp only
  sl_unfold_words
  rw [View.canon_unit_zero hz3, View.readCov_eq_canon']
  exact View.ld_unit_zero (S := S2x256) hz3 inb_S2x256_S2x256_0_0 _

theorem out3_B_3_eq (c : Dev nD) (i : grid3.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond3 i)
    (x0 : Vec F S2000x256 .f32) (x1 : Vec F S256x256 .f32) (xs0 : Vec F S2x256 .f32) :
    out3_B_3 c i a1 h1 a2 h2 a3 h3 a4 h4 a5 h5 hc x0 x1 xs0 = sout3_B c i a1 h1 a2 h2 a3 h3 a4 h4 a5 h5 hc x0 x1 xs0 := by
  unfold out3_B_3 sout3_B
  rw [View.read_writes_eq_canon _ _ _ (cover3_B_3 c i a1 h1 a2 h2 a3 h3 a4 h4 a5 h5 hc x0 x1 xs0),
    View.read_writes_eq_canon _ _ _ (scover3_B c i a1 h1 a2 h2 a3 h3 a4 h4 a5 h5 hc x0 x1 xs0)]
  unfold kernelRun3_B
  dsimp only
  sl_unfold_words
  rw [View.canon_unit_zero hz3, View.readCov_eq_canon']
  exact View.ld_unit_zero (S := S2x256) hz3 inb_S2x256_S2x256_0_0 _

end Pieces

/-- At a later point the scratch's row 0 is left at what it held plus the column sums of the block product, -/
theorem sout3_B_row0 (c : Dev nD) (i : grid3.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond3 i)
    (x0 : Vec Ideal S2000x256 .f32) (x1 : Vec Ideal S256x256 .f32) (xs0 : Vec Ideal S2x256 .f32) (q : Fin 256) :
    sout3_B c i a1 h1 a2 h2 a3 h3 a4 h4 a5 h5 hc x0 x1 xs0 (ix2 0 q)
      = xs0 (ix2 0 q) + ∑ r : Fin 2000, k3_pay2 x0 x1 (ix2 r q) := by
  unfold sout3_B
  rw [View.read_writes_eq_canon _ _ _ (scover3_B c i a1 h1 a2 h2 a3 h3 a4 h4 a5 h5 hc x0 x1 xs0)]
  unfold kernelRun3_B
  dsimp only
  sl_unfold_words
  simp only [View.readAt_eq_ld, h1.read_unread, h2.read_unread, h5.read_unread, View.ld_unit_zero (S := S2000x256) hz3, View.ld_unit_zero (S := S256x256) hz3]
  refine (canon_s3rowB_row0 _ _ q).trans ((canon_s3rowA _ _ q).trans ((pay3_at3 x0 x1 _ q).trans ?_))
  show xs0 (s3rowA.emb (ix2 (0 : Fin 1) q : S1x256.Idx)) + _ = _
  rw [s3rowA_emb]

/-- and its row 1 at what it held plus the column sums of the squares. -/
theorem sout3_B_row1 (c : Dev nD) (i : grid3.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond3 i)
    (x0 : Vec Ideal S2000x256 .f32) (x1 : Vec Ideal S256x256 .f32) (xs0 : Vec Ideal S2x256 .f32) (q : Fin 256) :
    sout3_B c i a1 h1 a2 h2 a3 h3 a4 h4 a5 h5 hc x0 x1 xs0 (ix2 1 q)
      = xs0 (ix2 1 q) + ∑ r : Fin 2000, k3_pay2 x0 x1 (ix2 r q) * k3_pay2 x0 x1 (ix2 r q) := by
  unfold sout3_B
  rw [View.read_writes_eq_canon _ _ _ (scover3_B c i a1 h1 a2 h2 a3 h3 a4 h4 a5 h5 hc x0 x1 xs0)]
  unfold kernelRun3_B
  dsimp only
  sl_unfold_words
  simp only [View.readAt_eq_ld, h1.read_unread, h2.read_unread, h5.read_unread, View.ld_unit_zero (S := S2000x256) hz3, View.ld_unit_zero (S := S256x256) hz3]
  refine (canon_s3rowB _ _ q).trans ((pay4_at3 x0 x1 _ q).trans ?_)
  show xs0 (s3rowB.emb (ix2 (0 : Fin 1) q : S1x256.Idx)) + _ = _
  rw [s3rowB_emb]

/-- At the first point the scratch is zeroed first, so its row 0 is left at zero plus the column sums of the block product, -/
theorem sout3_A_row0 (c : Dev nD) (i : grid3.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond3 i)
    (x0 : Vec Ideal S2000x256 .f32) (x1 : Vec Ideal S256x256 .f32) (q : Fin 256) :
    sout3_A c i a1 h1 a2 h2 a3 h3 a4 h4 a5 h5 hc x0 x1 (ix2 0 q)
      = 0 + ∑ r : Fin 2000, k3_pay2 x0 x1 (ix2 r q) := by
  unfold sout3_A
  rw [View.read_writes_eq_canon _ _ _ (scover3_A c i a1 h1 a2 h2 a3 h3 a4 h4 a5 h5 hc x0 x1)]
  unfold kernelRun3_A
  dsimp only
  sl_unfold_words
  simp only [View.readAt_eq_ld, h1.read_unread, h2.read_unread, View.ld_unit_zero (S := S2000x256) hz3, View.ld_unit_zero (S := S256x256) hz3, View.readCov_eq_canon']
  refine (canon_s3rowB_row0 _ _ q).trans ((canon_s3rowA _ _ q).trans (pay3_at3_of x0 x1 _ q 0 ?_))
  exact zero3_rowA q

/-- and its row 1 at zero plus the column sums of the squares. -/
theorem sout3_A_row1 (c : Dev nD) (i : grid3.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond3 i)
    (x0 : Vec Ideal S2000x256 .f32) (x1 : Vec Ideal S256x256 .f32) (q : Fin 256) :
    sout3_A c i a1 h1 a2 h2 a3 h3 a4 h4 a5 h5 hc x0 x1 (ix2 1 q)
      = 0 + ∑ r : Fin 2000, k3_pay2 x0 x1 (ix2 r q) * k3_pay2 x0 x1 (ix2 r q) := by
  unfold sout3_A
  rw [View.read_writes_eq_canon _ _ _ (scover3_A c i a1 h1 a2 h2 a3 h3 a4 h4 a5 h5 hc x0 x1)]
  unfold kernelRun3_A
  dsimp only
  sl_unfold_words
  simp only [View.readAt_eq_ld, h1.read_unread, h2.read_unread, View.ld_unit_zero (S := S2000x256) hz3, View.ld_unit_zero (S := S256x256) hz3, View.readCov_eq_canon']
  refine (canon_s3rowB _ _ q).trans (pay4_at3_of x0 x1 _ q 0 ?_)
  exact zero3_rowB _ q

/-! ## The arrays and blocks of region 3 -/

variable (V : (c : Dev nD) → (b : Ref sig .tc) → Buf (Elt Ideal) ((c : Thread nD τ).loc b))

/-- The input and the weights as the region finds them, at their literal types. -/
abbrev xarr3 (c : Dev nD) : Arr 50000 256 := V c (Pipeline.arrRef spec3 0)
abbrev warr3 (c : Dev nD) : Arr 256 256 := V c (Pipeline.arrRef spec3 1)
/-- The block of 2000 rows of the input, and the (whole) block of the weights, that point `t` reads. -/
abbrev xblk3 (c : Dev nD) (t : Fin cfg3.N) : Vec Ideal S2000x256 .f32 := iblk3 V c 0 t
abbrev wblk3 (c : Dev nD) (t : Fin cfg3.N) : Vec Ideal S256x256 .f32 := iblk3 V c 1 t

theorem hN3 : cfg3.N = 25 := N_3

/-- The windows' block indices over the grid: the input's and the product's block at point `t` is block `t` of
    rows, all columns; the weights and the statistics are one block throughout. -/
theorem idx_facts3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

/-- Entry `(p, k)` of the input's block at point `t` is entry `(2000 t + p, k)` of the input. -/
theorem xblk3_at (c : Dev nD) (t : Fin cfg3.N) (p : Fin 2000) (k : Fin 256) (hR : 2000 * t.val + p.val < 50000) :
    xblk3 V c t (ix2 p k) = xarr3 V c (ix2 ⟨2000 * t.val + p.val, hR⟩ k) := by
  obtain ⟨e00, e01, e10, e11, e20, e21, e30, e31⟩ := idx_facts3 t
  show V c (Pipeline.arrRef spec3 0) (((cfg3.win 0).blk t).view.emb (ix2 p k)) = V c (Pipeline.arrRef spec3 0) (ix2 ⟨2000 * t.val + p.val, hR⟩ k)
  refine congrArg _ ?_
  funext a; apply Fin.ext
  match a with
  | ⟨0, _⟩ => show win3_0.index t (0 : Fin 2) * 2000 + 1 * p.val = 2000 * t.val + p.val; omega
  | ⟨1, _⟩ => show win3_0.index t (1 : Fin 2) * 256 + 1 * k.val = k.val; omega

/-- The weights' block is the whole weights, at every point. -/
theorem wblk3_at (c : Dev nD) (t : Fin cfg3.N) (k : Fin 256) (q : Fin 256) :
    wblk3 V c t (ix2 k q) = warr3 V c (ix2 k q) := by
  obtain ⟨e00, e01, e10, e11, e20, e21, e30, e31⟩ := idx_facts3 t
  show V c (Pipeline.arrRef spec3 1) (((cfg3.win 1).blk t).view.emb (ix2 k q)) = V c (Pipeline.arrRef spec3 1) (ix2 k q)
  refine congrArg _ ?_
  funext a; apply Fin.ext
  match a with
  | ⟨0, _⟩ => show win3_1.index t (0 : Fin 2) * 256 + 1 * k.val = k.val; omega
  | ⟨1, _⟩ => show win3_1.index t (1 : Fin 2) * 256 + 1 * q.val = q.val; omega

/-- The block product at point `t`, entry `(p, q)`, is entry `(2000 t + p, q)` of the product of the arrays. -/
theorem blkprod3 (c : Dev nD) (t : Fin cfg3.N) (p : Fin 2000) (q : Fin 256) (hR : 2000 * t.val + p.val < 50000) :
    k3_pay2 (xblk3 V c t) (wblk3 V c t) (ix2 p q)
      = Cert.Spec.mm (xarr3 V c) (warr3 V c) (ix2 ⟨2000 * t.val + p.val, hR⟩ q) := by
  refine (pay2_at3 (xblk3 V c t) (wblk3 V c t) p q).trans ?_
  unfold Cert.Spec.mm
  refine Finset.sum_congr rfl fun k _ => ?_
  rw [xblk3_at V c t p k hR, wblk3_at V c t k q]

/-- The same with the entries given by their coordinates' values. -/
theorem prod_blk3 (c : Dev nD) (t : Fin cfg3.N) (j : S2000x256.Idx) (i : S50000x256.Idx)
    (h0 : (i 0).val = 2000 * t.val + (j 0).val) (h1 : (i 1).val = (j 1).val) :
    k3_pay2 (xblk3 V c t) (wblk3 V c t) j = Cert.Spec.mm (xarr3 V c) (warr3 V c) i := by
  have hi0 : (i 0).val < 50000 := (i 0).isLt
  have hR : 2000 * t.val + (j 0).val < 50000 := by omega
  have hi : i = ix2 ⟨2000 * t.val + (j 0).val, hR⟩ (j 1) := funext fun a => Fin.ext (by
    match a with
    | ⟨0, _⟩ => exact h0
    | ⟨1, _⟩ => exact h1)
  calc k3_pay2 (xblk3 V c t) (wblk3 V c t) j
      = k3_pay2 (xblk3 V c t) (wblk3 V c t) (ix2 (j 0) (j 1)) := congrArg _ (eq_ix2 j)
    _ = Cert.Spec.mm (xarr3 V c) (warr3 V c) (ix2 ⟨2000 * t.val + (j 0).val, hR⟩ (j 1)) := blkprod3 V c t (j 0) (j 1) hR
    _ = Cert.Spec.mm (xarr3 V c) (warr3 V c) i := congrArg _ hi.symm

/-! ## What the outputs and the scratch hold after each point, as values -/

/-- After every point the product window's staging buffer holds the point's block product. -/
theorem outs_prod3 (c : Dev nD) (t : Fin cfg3.N) :
    (outsAt3 V c t.val t.isLt).1 = k3_pay2 (xblk3 V c t) (wblk3 V c t) := by
  by_cases h0 : t.val = 0
  · rw [outsAt3_A V c t h0]
    dsimp only
    exact out3_A_2_eq (F := Ideal) c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t)
  · rw [outsAt3_B V c t h0]
    dsimp only
    exact out3_B_2_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2

/-- After every point the statistics window's staging buffer holds what the scratch holds. -/
theorem outs_stats3 (c : Dev nD) (t : Fin cfg3.N) :
    (outsAt3 V c t.val t.isLt).2.1 = (outsAt3 V c t.val t.isLt).2.2 := by
  by_cases h0 : t.val = 0
  · rw [outsAt3_A V c t h0]
    dsimp only
    exact out3_A_3_eq (F := Ideal) c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t)
  · rw [outsAt3_B V c t h0]
    dsimp only
    exact out3_B_3_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2

/-- The column sums, and column sums of squares, of the block product at point `t`. -/
def bsum3 (c : Dev nD) (q : Fin 256) (t : Fin cfg3.N) : EReal :=
  ∑ r : Fin 2000, k3_pay2 (xblk3 V c t) (wblk3 V c t) (ix2 r q)
def bsumsq3 (c : Dev nD) (q : Fin 256) (t : Fin cfg3.N) : EReal :=
  ∑ r : Fin 2000, k3_pay2 (xblk3 V c t) (wblk3 V c t) (ix2 r q) * k3_pay2 (xblk3 V c t) (wblk3 V c t) (ix2 r q)

/-- After the first point the scratch holds zero plus the first block's sums. -/
theorem scr_first3 (c : Dev nD) (t : Fin cfg3.N) (h0 : t.val = 0) (q : Fin 256) :
    (outsAt3 V c t.val t.isLt).2.2 (ix2 0 q) = 0 + bsum3 V c q t
      ∧ (outsAt3 V c t.val t.isLt).2.2 (ix2 1 q) = 0 + bsumsq3 V c q t := by
  rw [outsAt3_A V c t h0]
  dsimp only
  exact ⟨sout3_A_row0 c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t) q,
    sout3_A_row1 c (grid3.coords t) (ms3_0 t) (hs3_0 t) (ms3_1 t) (hs3_1 t) (ms3_2 t) (hs3_2 t) (ms3_3 t) (hs3_3 t) scM3 (Memref.isWhole_whole _) ((hcond3 t).mpr h0) (iblk3 V c 0 t) (iblk3 V c 1 t) q⟩

/-- After a later point it holds what it held after the point before plus the point's block's sums. -/
theorem scr_step3 (c : Dev nD) (t : Fin cfg3.N) (h0 : ¬t.val = 0) (q : Fin 256) :
    (outsAt3 V c t.val t.isLt).2.2 (ix2 0 q)
        = (outsAt3 V c (t.val - 1) (Nat.lt_of_le_of_lt (Nat.sub_le _ _) t.isLt)).2.2 (ix2 0 q) + bsum3 V c q t
      ∧ (outsAt3 V c t.val t.isLt).2.2 (ix2 1 q)
        = (outsAt3 V c (t.val - 1) (Nat.lt_of_le_of_lt (Nat.sub_le _ _) t.isLt)).2.2 (ix2 1 q) + bsumsq3 V c q t := by
  rw [outsAt3_B V c t h0]
  dsimp only
  exact ⟨sout3_B_row0 c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2 q,
    sout3_B_row1 c (grid3.coords t) (ms3_0 t) (hs3_0 t) (ms3_1 t) (hs3_1 t) (ms3_2 t) (hs3_2 t) (ms3_3 t) (hs3_3 t) scM3 (Memref.isWhole_whole _) (fun h => h0 ((hcond3 t).mp h)) (iblk3 V c 0 t) (iblk3 V c 1 t) (outsAt3 V c (t.val - 1) (Nat.lt_of_le_of_lt (Nat.sub_le _ _) t.isLt)).2.2 q⟩

/-! ## The accumulation over the 25 points -/

/-- Point `n` of the grid. -/
abbrev pt3 (n : Fin (24 + 1)) : Fin cfg3.N := ⟨n.val, by rw [hN3]; exact n.isLt⟩

/-- What the scratch holds after the last point. -/
def stats3 (c : Dev nD) : Arr 2 256 := (outsAt3 V c 24 (by rw [hN3]; decide)).2.2

/-- The scratch's row 0 after the last point is the sum over the points of the blocks' column sums, -/
theorem stats3_row0 (c : Dev nD) (q : Fin 256) : stats3 V c (ix2 0 q) = ∑ t : Fin (24 + 1), bsum3 V c q (pt3 t) :=
  Cert.Lib.BlockSum.acc_eq_sum_fin 24 (fun t => bsum3 V c q (pt3 t))
    (fun t => (outsAt3 V c t.val (pt3 t).isLt).2.2 (ix2 0 q))
    ((scr_first3 V c (pt3 0) rfl q).1)
    (fun n h => (scr_step3 V c (pt3 ⟨n + 1, h⟩) (Nat.succ_ne_zero n) q).1)

/-- and its row 1 the sum over the points of the blocks' column sums of squares. -/
theorem stats3_row1 (c : Dev nD) (q : Fin 256) : stats3 V c (ix2 1 q) = ∑ t : Fin (24 + 1), bsumsq3 V c q (pt3 t) :=
  Cert.Lib.BlockSum.acc_eq_sum_fin 24 (fun t => bsumsq3 V c q (pt3 t))
    (fun t => (outsAt3 V c t.val (pt3 t).isLt).2.2 (ix2 1 q))
    ((scr_first3 V c (pt3 0) rfl q).2)
    (fun n h => (scr_step3 V c (pt3 ⟨n + 1, h⟩) (Nat.succ_ne_zero n) q).2)

/-- The sums over the 25 blocks of 2000 rows are the sums over the 50000 rows: row 0 holds the column sums of the
    product of the arrays, -/
theorem stats3_colsum (c : Dev nD) (q : Fin 256) :
    stats3 V c (ix2 0 q) = Cert.Spec.colsum (Cert.Spec.mm (xarr3 V c) (warr3 V c)) q := by
  rw [stats3_row0]
  unfold Cert.Spec.colsum
  rw [← Cert.Lib.BlockSum.sum_blocks_50000 (fun r : Fin 50000 => Cert.Spec.mm (xarr3 V c) (warr3 V c) (ix2 r q))]
  refine Finset.sum_congr rfl fun t _ => ?_
  unfold bsum3
  refine Finset.sum_congr rfl fun y _ => ?_
  exact blkprod3 V c (pt3 t) y q _

/-- and row 1 the column sums of its squares. -/
theorem stats3_colsumsq (c : Dev nD) (q : Fin 256) :
    stats3 V c (ix2 1 q) = Cert.Spec.colsumsq (Cert.Spec.mm (xarr3 V c) (warr3 V c)) q := by
  rw [stats3_row1]
  unfold Cert.Spec.colsumsq
  rw [← Cert.Lib.BlockSum.sum_blocks_50000 (fun r : Fin 50000 =>
    Cert.Spec.mm (xarr3 V c) (warr3 V c) (ix2 r q) * Cert.Spec.mm (xarr3 V c) (warr3 V c) (ix2 r q))]
  refine Finset.sum_congr rfl fun t _ => ?_
  unfold bsumsq3
  refine Finset.sum_congr rfl fun y _ => ?_
  rw [blkprod3 V c (pt3 t) y q (by have := t.isLt; have := y.isLt; show 2000 * t.val + y.val < 50000; omega)]

/-! ## From blocks to the arrays -/

/-- What point `t` writes back of the product window is block `t` of the product of the arrays. -/
theorem flushed3_2_eq (c : Dev nD) (t : Fin cfg3.N) :
    (dat3 V c).flushed 2 t = ((cfg3.win 2).blk t).view.read (Elt Ideal) (Cert.Spec.mm (xarr3 V c) (warr3 V c)) := by
  show (cfg3.win 2).cut (grid3.coords t) ((dat3 V c).after 2 t) = _
  rw [after3_2, outs_prod3 V c t]
  obtain ⟨e00, e01, e10, e11, e20, e21, e30, e31⟩ := idx_facts3 t
  funext j
  exact prod_blk3 V c t j (((cfg3.win 2).blk t).view.emb j)
    (by show win3_2.index t (0 : Fin 2) * 2000 + 1 * (j 0).val = 2000 * t.val + (j 0).val; omega)
    (by show win3_2.index t (1 : Fin 2) * 256 + 1 * (j 1).val = (j 1).val; omega)

/-- An index of the product array is in point `t`'s block iff its row is among the 2000 rows from `2000 t`. -/
theorem mem_blk3_2 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v67_0).slice (win3_2.rect t)).set ↔ _
  rw [View.set_slice_whole, Rect.mem_set_unit]
  exact Iff.rfl

/-- Every entry of the product array is in some point's block: row `r` in that of point `r / 2000`. -/
theorem cover3_2 (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : (i 0).val / 2000 < cfg3.N := by rw [hN3]; omega
  refine ⟨⟨(i 0).val / 2000, hN⟩, flush3_2 _, ?_⟩
  obtain ⟨e00, e01, e10, e11, e20, e21, e30, e31⟩ := idx_facts3 ⟨(i 0).val / 2000, hN⟩
  rw [mem_blk3_2]
  intro a
  match a with
  | ⟨0, _⟩ =>
    show win3_2.index ⟨(i 0).val / 2000, hN⟩ (0 : Fin 2) * 2000 ≤ (i 0).val ∧ (i 0).val < win3_2.index ⟨(i 0).val / 2000, hN⟩ (0 : Fin 2) * 2000 + 2000
    rw [e20]; show (i 0).val / 2000 * 2000 ≤ (i 0).val ∧ (i 0).val < (i 0).val / 2000 * 2000 + 2000
    omega
  | ⟨1, _⟩ =>
    show win3_2.index ⟨(i 0).val / 2000, hN⟩ (1 : Fin 2) * 256 ≤ (i 1).val ∧ (i 1).val < win3_2.index ⟨(i 0).val / 2000, hN⟩ (1 : Fin 2) * 256 + 256
    rw [e21]; omega

/-- THE PRODUCT ARRAY after the region: the matrix product of the input by the weights, as the region finds them. -/
theorem val3_prod (c : Dev nD) :
    ((dat3 V c).arrAt 2 cfg3.N : Arr 50000 256) = Cert.Spec.mm (xarr3 V c) (warr3 V c) :=
  (dat3 V c).arrAt_eq_of_cover 2 _ (fun t _ => flushed3_2_eq V c t) cover3_2

/-- The contents after a point depend on the point's number only. -/
theorem outsAt3_congr (c : Dev nD) {n m : ℕ} (e : n = m) (hn : n < cfg3.N) (hm : m < cfg3.N) :
    outsAt3 V c n hn = outsAt3 V c m hm := by
  subst e; rfl

/-- At the last point the scratch holds `stats3`. -/
theorem scr_last3 (c : Dev nD) (t : Fin cfg3.N) (h24 : t.val = 24) : (outsAt3 V c t.val t.isLt).2.2 = stats3 V c := by
  unfold stats3
  rw [outsAt3_congr V c h24 t.isLt (by rw [hN3]; decide)]

/-- The one write-back of the statistics window, at the last point, writes what the scratch holds then: its one block is
    the whole array. -/
theorem flushed3_3_eq (c : Dev nD) (t : Fin cfg3.N) (hf : (cfg3.win 3).flush t = true) :
    (dat3 V c).flushed 3 t = ((cfg3.win 3).blk t).view.read (Elt Ideal) (stats3 V c) := by
  have hN : cfg3.N = 25 := hN3
  have h24 : t.val = 24 := by have := (flush3_3 t).mp hf; have := t.isLt; omega
  obtain ⟨e00, e01, e10, e11, e20, e21, e30, e31⟩ := idx_facts3 t
  show (cfg3.win 3).cut (grid3.coords t) ((dat3 V c).after 3 t) = _
  rw [after3_3, outs_stats3 V c t, scr_last3 V c t h24]
  funext j
  show stats3 V c j = stats3 V c (((cfg3.win 3).blk t).view.emb j)
  refine congrArg _ ?_
  funext a; apply Fin.ext
  match a with
  | ⟨0, _⟩ => show (j 0).val = win3_3.index t (0 : Fin 2) * 2 + 1 * (j 0).val; omega
  | ⟨1, _⟩ => show (j 1).val = win3_3.index t (1 : Fin 2) * 256 + 1 * (j 1).val; omega

/-- Every entry of the statistics array is in the last point's block. -/
theorem cover3_3 (i : S2x256.Idx) :
    ∃ t : Fin cfg3.N, (cfg3.win 3).flush t = true ∧ i ∈ ((cfg3.win 3).blk t).view.set := by
  have hi0 : (i 0).val < 2 := (i 0).isLt
  have hi1 : (i 1).val < 256 := (i 1).isLt
  have hN : 24 < cfg3.N := by rw [hN3]; decide
  refine ⟨⟨24, hN⟩, (flush3_3 _).mpr rfl, ?_⟩
  obtain ⟨e00, e01, e10, e11, e20, e21, e30, e31⟩ := idx_facts3 ⟨24, hN⟩
  show i ∈ ((View.whole main_v67_1).slice (win3_3.rect ⟨24, hN⟩)).set
  rw [View.set_slice_whole, Rect.mem_set_unit]
  intro a
  match a with
  | ⟨0, _⟩ =>
    show win3_3.index ⟨24, hN⟩ (0 : Fin 2) * 2 ≤ (i 0).val ∧ (i 0).val < win3_3.index ⟨24, hN⟩ (0 : Fin 2) * 2 + 2
    rw [e30]; omega
  | ⟨1, _⟩ =>
    show win3_3.index ⟨24, hN⟩ (1 : Fin 2) * 256 ≤ (i 1).val ∧ (i 1).val < win3_3.index ⟨24, hN⟩ (1 : Fin 2) * 256 + 256
    rw [e31]; omega

/-- The statistics array after the region is what the scratch holds after the last point. -/
theorem final3_3 (c : Dev nD) : ((dat3 V c).arrAt 3 cfg3.N : Arr 2 256) = stats3 V c :=
  (dat3 V c).arrAt_eq_of_cover 3 (stats3 V c) (flushed3_3_eq V c) cover3_3

/-- THE STATISTICS ARRAY after the region: row 0 the column sums, row 1 the column sums of squares, of the matrix
    product of the input by the weights. -/
theorem val3_stats (c : Dev nD) (j : Fin 256) :
    ((dat3 V c).arrAt 3 cfg3.N : Arr 2 256) (ix2 0 j) = Cert.Spec.colsum (Cert.Spec.mm (xarr3 V c) (warr3 V c)) j
      ∧ ((dat3 V c).arrAt 3 cfg3.N : Arr 2 256) (ix2 1 j) = Cert.Spec.colsumsq (Cert.Spec.mm (xarr3 V c) (warr3 V c)) j := by
  rw [final3_3]
  exact ⟨stats3_colsum V c j, stats3_colsumsq V c j⟩

end Cert.KernelIdeal.HandV

end
-- ==== Proof.KI.P4.lean ====
import proofs.«148047_j37898791420018_1_alg».proof.Proof.Gen.KernelIdeal.Skeleton
import proofs.«148047_j37898791420018_1_alg».proof.Proof.Spec
import proofs.«148047_j37898791420018_1_alg».proof.Proof.KI.P1
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.HandV

open Cert.KernelIdeal Cert.KernelIdeal.Gen
open Idealize.ShloMosaic Idealize.ShloMosaic.ValueIdx

/-! ## Region 4's payloads at an index -/

/-- The normalised, rectified entry the product's left operand holds at (y, k). -/
def act4 (v3 : Vec Ideal S2000x256 .f32) (v5 v7 v9 v11 : Vec Ideal S1x256 .f32) (y : Fin 2000) (k : Fin 256) : EReal :=
  max ((v3 (ix2 y k) - v5 (ix2 0 k)) * Ideal.rsqrt (v7 (ix2 0 k) + Cert.Spec.eps) * v9 (ix2 0 k) + v11 (ix2 0 k)) 0

/-- The product block at (y, q): the sum over k of the activation at (y, k) times the weight at (k, q). -/
theorem k4_pay4_apply (v3 : Vec Ideal S2000x256 .f32) (v5 v7 v9 v11 : Vec Ideal S1x256 .f32) (v27 : Vec Ideal S256x256 .f32)
    (y : Fin 2000) (q : Fin 256) :
    k4_pay4 v3 v5 v7 v9 v11 v27 (ix2 y q) = ∑ k : Fin 256, act4 v3 v5 v7 v9 v11 y k * v27 (ix2 k q) := by
  unfold k4_pay4
  refine (mm1_apply _ _ y q).trans ?_
  refine Finset.sum_congr rfl fun k _ => ?_
  simp only [shapeCast_self]
  show max (((v3 (ix2 y k) - broadcastTo S2000x256 v5 broadcasts_S1x256_S2000x256 (ix2 y k))
      * broadcastTo S2000x256 (rsqrt (addf v7 (broadcast S1x256 (Scalar.ofBits .f32 0x3727C5AC#32 : Ideal .f32))) : FVec Ideal S1x256 .f32) broadcasts_S1x256_S2000x256 (ix2 y k))
      * broadcastTo S2000x256 v9 broadcasts_S1x256_S2000x256 (ix2 y k)
      + broadcastTo S2000x256 v11 broadcasts_S1x256_S2000x256 (ix2 y k)) (Ideal.ofBits .f32 0x00000000#32) * v27 (ix2 k q) = _
  rw [bcast1_row_apply, bcast1_row_apply, bcast1_row_apply, bcast1_row_apply, Ideal.ofBits_zero_f32]
  rfl

/-- The block's column sums, as the body hands them on, at column j. -/
theorem k4_pay5_apply (v3 : Vec Ideal S2000x256 .f32) (v5 v7 v9 v11 : Vec Ideal S1x256 .f32) (v27 : Vec Ideal S256x256 .f32) (j : Fin 256) :
    k4_pay5 v3 v5 v7 v9 v11 v27 (ix2 0 j) = ∑ r : Fin 2000, k4_pay4 v3 v5 v7 v9 v11 v27 (ix2 r j) := by
  unfold k4_pay5
  exact colsum1_row_apply _ j

/-- The first row's update at column j: what the row held plus the block's column sum. -/
theorem k4_pay1_apply (v32 : Vec Ideal S1x256 .f32) (v34 : FVec Ideal S1x256 .f32) (j : Fin 256) :
    k4_pay1 v32 v34 (ix2 0 j) = v32 (ix2 0 j) + v34 (ix2 0 j) := by
  unfold k4_pay1
  simp only [shapeCast_self]
  rfl

/-- The second row's update at column j: what the row held plus the column sum of the block's squares. -/
theorem k4_pay2_apply (v30 : FVec Ideal S2000x256 .f32) (v39 : Vec Ideal S1x256 .f32) (j : Fin 256) :
    k4_pay2 v30 v39 (ix2 0 j) = v39 (ix2 0 j) + ∑ r : Fin 2000, v30 (ix2 r j) * v30 (ix2 r j) := by
  unfold k4_pay2
  simp only [shapeCast_self]
  exact congrArg (v39 (ix2 0 j) + ·) (colsum1_row_apply (mulf v30 v30) j)

/-- The zero fill at any entry. -/
theorem k4_pay3_apply (i : S2x256.Idx) : k4_pay3 (F := Ideal) i = 0 := by
  unfold k4_pay3
  simp only [shapeCast_self]
  exact Ideal.ofBits_zero_f32

end Cert.KernelIdeal.HandV

end
-- ==== Proof.KI.P4found.lean ====
import proofs.«148047_j37898791420018_1_alg».proof.Proof.KI.R4
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

/-! ## The two rows of the 2 × 256 accumulator -/

section Rows
variable {Val : EltTy → Type} [∀ e, Nonempty (Val e)]

theorem hz2_4 : (![0, 0] : Fin 2 → Nat) = fun _ => 0 := funext fun a => by fin_cases a <;> rfl

/-- Row 0 and row 1 of the accumulator, as the rectangles the body loads and stores through. -/
abbrev Rw4_0 : Rect S2x256 := Rect.unit (s := S2x256) ![0, 0] ![1, 256] inb_S2x256_S1x256_0_0
abbrev Rw4_1 : Rect S2x256 := Rect.unit (s := S2x256) ![1, 0] ![1, 256] inb_S2x256_S1x256_1_0

/-- Entry j of row 0 is entry (0, j) of the accumulator; entry j of row 1 is entry (1, j). -/
theorem Rw4_0_idx (j : Fin 256) : Rw4_0.toLoadRect.idx (ix2 0 j : S1x256.Idx) = (ix2 0 j : S2x256.Idx) := by
  funext a; apply Fin.ext
  match a with
  | ⟨0, _⟩ => rfl
  | ⟨1, _⟩ => show 0 + 1 * j.val = j.val; omega
theorem Rw4_1_idx (j : Fin 256) : Rw4_1.toLoadRect.idx (ix2 0 j : S1x256.Idx) = (ix2 1 j : S2x256.Idx) := by
  funext a; apply Fin.ext
  match a with
  | ⟨0, _⟩ => rfl
  | ⟨1, _⟩ => show 0 + 1 * j.val = j.val; omega

/-- An entry is in row 1 exactly when its row coordinate is 1, in row 0 exactly when it is 0. -/
theorem Rw4_1_mem (y : S2x256.Idx) : y ∈ Rw4_1.set ↔ (y 0).val = 1 := by
  rw [Rect.mem_set_unit]
  constructor
  · intro h
    have h0 := h 0
    have h1 : 1 ≤ (y 0).val := h0.1
    have h2 : (y 0).val < 1 + 1 := h0.2
    omega
  · intro h a
    match a with
    | ⟨0, _⟩ => exact ⟨show 1 ≤ (y 0).val by omega, show (y 0).val < 1 + 1 by omega⟩
    | ⟨1, _⟩ => exact ⟨Nat.zero_le _, show (y 1).val < 0 + 256 by have h256 : (y 1).val < 256 := (y 1).isLt; omega⟩
theorem Rw4_0_mem (y : S2x256.Idx) : y ∈ Rw4_0.set ↔ (y 0).val = 0 := by
  rw [Rect.mem_set_unit]
  constructor
  · intro h
    have h0 := h 0
    have h2 : (y 0).val < 0 + 1 := h0.2
    omega
  · intro h a
    match a with
    | ⟨0, _⟩ => exact ⟨Nat.zero_le _, show (y 0).val < 0 + 1 by omega⟩
    | ⟨1, _⟩ => exact ⟨Nat.zero_le _, show (y 1).val < 0 + 256 by have h256 : (y 1).val < 256 := (y 1).isLt; omega⟩

/-- Every entry of row 1 (as an entry of the accumulator) lies outside row 0. -/
theorem Rw4_1_idx_not_mem (x : Rw4_1.shape.Idx) : Rw4_1.toLoadRect.idx x ∉ Rw4_0.set := by
  rw [Rw4_0_mem]
  show ¬(1 + 1 * (x 0).val = 0)
  omega

/-- After a last store through row 1, entry (1, j) is that store's payload at j, -/
theorem canonRw4_1 (p1 : Rw4_1.shape.Idx → Val .f32) (L : List (View.Piece Val S2x256 .f32)) (j : Fin 256) :
    View.canon (⟨Rw4_1, p1⟩ :: L) (ix2 1 j) = p1 (ix2 0 j) := by
  have h := View.canon_cons_emb Rw4_1 p1 L (ix2 0 j)
  rw [show Rw4_1.emb (ix2 0 j) = (ix2 1 j : S2x256.Idx) from Rw4_1_idx j] at h
  exact h
/-- and entry (0, j) is what the stores before it left. -/
theorem canonRw4_1_at0 (p1 : Rw4_1.shape.Idx → Val .f32) (L : List (View.Piece Val S2x256 .f32)) (j : Fin 256) :
    View.canon (⟨Rw4_1, p1⟩ :: L) (ix2 0 j) = View.canon L (ix2 0 j) :=
  View.canon_cons_of_not_mem _ L (fun h => by
    have h' : (0 : ℕ) = 1 := (Rw4_1_mem (ix2 0 j)).mp h
    omega)
/-- After a last store through row 0, entry (0, j) is that store's payload at j. -/
theorem canonRw4_0 (p0 : Rw4_0.shape.Idx → Val .f32) (L : List (View.Piece Val S2x256 .f32)) (j : Fin 256) :
    View.canon (⟨Rw4_0, p0⟩ :: L) (ix2 0 j) = p0 (ix2 0 j) := by
  have h := View.canon_cons_emb Rw4_0 p0 L (ix2 0 j)
  rw [show Rw4_0.emb (ix2 0 j) = (ix2 0 j : S2x256.Idx) from Rw4_0_idx j] at h
  exact h

/-- Two last stores through row 1 and row 0 leave nothing of what was stored before them: every entry is in one
    of the two rows. -/
theorem canonRw4_two (p1 : Rw4_1.shape.Idx → Val .f32) (p0 : Rw4_0.shape.Idx → Val .f32) (L : List (View.Piece Val S2x256 .f32)) :
    View.canon (⟨Rw4_1, p1⟩ :: ⟨Rw4_0, p0⟩ :: L) = View.canon [⟨Rw4_1, p1⟩, ⟨Rw4_0, p0⟩] := by
  funext y
  by_cases h1 : y ∈ Rw4_1.set
  · obtain ⟨x, rfl⟩ := Rw4_1.exists_idx_of_mem h1
    exact (View.canon_cons_emb Rw4_1 p1 (⟨Rw4_0, p0⟩ :: L) x).trans (View.canon_cons_emb Rw4_1 p1 [⟨Rw4_0, p0⟩] x).symm
  · refine (View.canon_cons_of_not_mem (⟨Rw4_1, p1⟩ : View.Piece Val S2x256 .f32) (⟨Rw4_0, p0⟩ :: L) h1).trans ?_
    refine Eq.trans ?_ (View.canon_cons_of_not_mem (⟨Rw4_1, p1⟩ : View.Piece Val S2x256 .f32) [⟨Rw4_0, p0⟩] h1).symm
    have h0 : y ∈ Rw4_0.set := by
      rw [Rw4_0_mem]
      have hn : ¬(y 0).val = 1 := fun h => h1 ((Rw4_1_mem y).mpr h)
      have h2 : (y 0).val < 2 := (y 0).isLt
      omega
    obtain ⟨x, rfl⟩ := Rw4_0.exists_idx_of_mem h0
    exact (View.canon_cons_emb Rw4_0 p0 L x).trans (View.canon_cons_emb Rw4_0 p0 [] x).symm

/-- A load of row 0 after ONE whole store reads the payload's row 0. -/
theorem readCovRw4_0_whole {sig : RefSig} {κ : Kind} {sp : Space} (v : View sig κ sp S2x256 .f32)
    (inb : ∀ a, (![0, 0] : Fin 2 → Nat) a + S2x256.size a ≤ S2x256.size a) (w : S2x256.Idx → Val .f32) :
    v.readCov [(⟨Rect.unit ![0, 0] S2x256.size inb, w⟩ : View.Piece Val S2x256 .f32)] Rw4_0.toLoadRect = View.ld w Rw4_0 := by
  rw [View.readCov_eq_canon', View.canon_unit_zero (S := S2x256) hz2_4]
/-- A load of row 1 after a whole store and then a store through row 0 reads the whole store's payload's row 1. -/
theorem readCovRw4_1_whole {sig : RefSig} {κ : Kind} {sp : Space} (v : View sig κ sp S2x256 .f32)
    (inb : ∀ a, (![0, 0] : Fin 2 → Nat) a + S2x256.size a ≤ S2x256.size a) (w : S2x256.Idx → Val .f32)
    (p0 : Rw4_0.shape.Idx → Val .f32) :
    v.readCov [⟨Rw4_0, p0⟩, (⟨Rect.unit ![0, 0] S2x256.size inb, w⟩ : View.Piece Val S2x256 .f32)] Rw4_1.toLoadRect = View.ld w Rw4_1 := by
  rw [View.readCov_eq_canon']
  funext x
  rw [View.canon_cons_of_not_mem _ _ (Rw4_1_idx_not_mem x), View.canon_unit_zero (S := S2x256) hz2_4]

end Rows

variable {F : FTy → Type} [FloatOps F]

/-! ## One row block's step of the accumulator -/

/-- Row 0 and row 1 of accumulator contents `S`, as the one-row vectors the body loads. -/
abbrev accRow4_0 (S : Vec F S2x256 .f32) : Vec F S1x256 .f32 := View.ld S Rw4_0
abbrev accRow4_1 (S : Vec F S2x256 .f32) : Vec F S1x256 .f32 := View.ld S Rw4_1

theorem accRow4_0_apply (S : Vec F S2x256 .f32) (j : Fin 256) : accRow4_0 S (ix2 0 j) = S (ix2 0 j) :=
  congrArg S (Rw4_0_idx j)
theorem accRow4_1_apply (S : Vec F S2x256 .f32) (j : Fin 256) : accRow4_1 S (ix2 0 j) = S (ix2 1 j) :=
  congrArg S (Rw4_1_idx j)

/-- The accumulator after one row block with input blocks `x0 … x5`, entered at contents `S`: row 0 is `S`'s row 0
    plus the column sums of the block's product, row 1 is `S`'s row 1 plus the column sums of the product's squares. -/
def accStep4 (x0 : Vec F S2000x256 .f32) (x1 x2 x3 x4 : Vec F S1x256 .f32) (x5 : Vec F S256x256 .f32)
    (S : Vec F S2x256 .f32) : Vec F S2x256 .f32 :=
  View.canon [⟨Rw4_1, k4_pay2 (k4_pay4 x0 x1 x2 x3 x4 x5) (accRow4_1 S)⟩, ⟨Rw4_0, k4_pay1 (accRow4_0 S) (k4_pay5 x0 x1 x2 x3 x4 x5)⟩]

theorem accStep4_row0 (x0 : Vec F S2000x256 .f32) (x1 x2 x3 x4 : Vec F S1x256 .f32) (x5 : Vec F S256x256 .f32)
    (S : Vec F S2x256 .f32) (j : Fin 256) :
    accStep4 x0 x1 x2 x3 x4 x5 S (ix2 0 j) = k4_pay1 (accRow4_0 S) (k4_pay5 x0 x1 x2 x3 x4 x5) (ix2 0 j) := by
  unfold accStep4
  rw [canonRw4_1_at0, canonRw4_0]
theorem accStep4_row1 (x0 : Vec F S2000x256 .f32) (x1 x2 x3 x4 : Vec F S1x256 .f32) (x5 : Vec F S256x256 .f32)
    (S : Vec F S2x256 .f32) (j : Fin 256) :
    accStep4 x0 x1 x2 x3 x4 x5 S (ix2 1 j) = k4_pay2 (k4_pay4 x0 x1 x2 x3 x4 x5) (accRow4_1 S) (ix2 0 j) := by
  unfold accStep4
  rw [canonRw4_1]

/-! ## The found pieces as payloads -/

/-- The product window after either case: the block's product. -/
theorem out4_A_6_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) :
    out4_A_6 c i arg1 harg1 arg2 harg2 arg3 harg3 arg4 harg4 arg5 harg5 arg6 harg6 arg7 harg7 arg8 harg8 arg9 harg9 hc0 x0 x1 x2 x3 x4 x5 = k4_pay4 x0 x1 x2 x3 x4 x5 := by
  unfold out4_A_6
  rw [View.read_writes_junk_eq_canon]
  unfold kernelRun4_A; dsimp only; sl_unfold_words
  rw [View.canon_unit_zero hz2_4]
  simp only [View.readAt_eq_ld, harg1.read_unread, harg2.read_unread, harg3.read_unread, harg4.read_unread, harg5.read_unread, harg6.read_unread, View.ld_unit_zero (S := S2000x256) hz2_4, View.ld_unit_zero (S := S1x256) hz2_4, View.ld_unit_zero (S := S256x256) hz2_4]
theorem out4_B_6_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) :
    out4_B_6 c i arg1 harg1 arg2 harg2 arg3 harg3 arg4 harg4 arg5 harg5 arg6 harg6 arg7 harg7 arg8 harg8 arg9 harg9 hc0 x0 x1 x2 x3 x4 x5 xs0 = k4_pay4 x0 x1 x2 x3 x4 x5 := by
  unfold out4_B_6
  rw [View.read_writes_junk_eq_canon]
  unfold kernelRun4_B; dsimp only; sl_unfold_words
  rw [View.canon_unit_zero hz2_4]
  simp only [View.readAt_eq_ld, harg1.read_unread, harg2.read_unread, harg3.read_unread, harg4.read_unread, harg5.read_unread, harg6.read_unread, View.ld_unit_zero (S := S2000x256) hz2_4, View.ld_unit_zero (S := S1x256) hz2_4, View.ld_unit_zero (S := S256x256) hz2_4]

/-- The accumulator after the first row block: one step from the zero fill. -/
theorem sout4_A_0_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) :
    sout4_A_0 c i arg1 harg1 arg2 harg2 arg3 harg3 arg4 harg4 arg5 harg5 arg6 harg6 arg7 harg7 arg8 harg8 arg9 harg9 hc0 x0 x1 x2 x3 x4 x5 = accStep4 x0 x1 x2 x3 x4 x5 k4_pay3 := by
  unfold sout4_A_0
  rw [View.read_writes_junk_eq_canon]
  unfold kernelRun4_A; dsimp only; sl_unfold_words; dsimp only
  simp only [View.readAt_eq_ld, harg1.read_unread, harg2.read_unread, harg3.read_unread, harg4.read_unread, harg5.read_unread, harg6.read_unread, View.ld_unit_zero (S := S2000x256) hz2_4, View.ld_unit_zero (S := S1x256) hz2_4, View.ld_unit_zero (S := S256x256) hz2_4]
  rw [readCovRw4_0_whole, readCovRw4_1_whole, canonRw4_two]
  rfl

/-- The accumulator after a later row block: one step from what it was entered at. -/
theorem sout4_B_0_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) :
    sout4_B_0 c i arg1 harg1 arg2 harg2 arg3 harg3 arg4 harg4 arg5 harg5 arg6 harg6 arg7 harg7 arg8 harg8 arg9 harg9 hc0 x0 x1 x2 x3 x4 x5 xs0 = accStep4 x0 x1 x2 x3 x4 x5 xs0 := by
  unfold sout4_B_0
  rw [View.read_writes_junk_eq_canon]
  unfold kernelRun4_B; dsimp only; sl_unfold_words; dsimp only
  simp only [View.readAt_eq_ld, harg1.read_unread, harg2.read_unread, harg3.read_unread, harg4.read_unread, harg5.read_unread, harg6.read_unread, harg9.read_unread, View.ld_unit_zero (S := S2000x256) hz2_4, View.ld_unit_zero (S := S1x256) hz2_4, View.ld_unit_zero (S := S256x256) hz2_4]
  rfl

/-- The statistics window receives a copy of the accumulator. -/
theorem out4_A_7_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond4_0 i)
    (x0 : Vec F S2000x256 .f32) (x1 x2 x3 x4 : Vec F S1x256 .f32) (x5 : Vec F S256x256 .f32) :
    out4_A_7 c i arg1 harg1 arg2 harg2 arg3 harg3 arg4 harg4 arg5 harg5 arg6 harg6 arg7 harg7 arg8 harg8 arg9 harg9 hc0 x0 x1 x2 x3 x4 x5 = sout4_A_0 c i arg1 harg1 arg2 harg2 arg3 harg3 arg4 harg4 arg5 harg5 arg6 harg6 arg7 harg7 arg8 harg8 arg9 harg9 hc0 x0 x1 x2 x3 x4 x5 := by
  unfold out4_A_7 sout4_A_0
  rw [View.read_writes_junk_eq_canon, View.read_writes_junk_eq_canon]
  unfold kernelRun4_A; dsimp only; sl_unfold_words
  rw [View.canon_unit_zero hz2_4, View.readCov_eq_canon']
  exact View.ld_unit_zero (S := S2x256) hz2_4 _ _
theorem out4_B_7_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond4_0 i)
    (x0 : Vec F S2000x256 .f32) (x1 x2 x3 x4 : Vec F S1x256 .f32) (x5 : Vec F S256x256 .f32) (xs0 : Vec F S2x256 .f32) :
    out4_B_7 c i arg1 harg1 arg2 harg2 arg3 harg3 arg4 harg4 arg5 harg5 arg6 harg6 arg7 harg7 arg8 harg8 arg9 harg9 hc0 x0 x1 x2 x3 x4 x5 xs0 = sout4_B_0 c i arg1 harg1 arg2 harg2 arg3 harg3 arg4 harg4 arg5 harg5 arg6 harg6 arg7 harg7 arg8 harg8 arg9 harg9 hc0 x0 x1 x2 x3 x4 x5 xs0 := by
  unfold out4_B_7 sout4_B_0
  rw [View.read_writes_junk_eq_canon, View.read_writes_junk_eq_canon]
  unfold kernelRun4_B; dsimp only; sl_unfold_words
  rw [View.canon_unit_zero hz2_4, View.readCov_eq_canon']
  exact View.ld_unit_zero (S := S2x256) hz2_4 _ _

end Cert.KernelIdeal.HandV

end
-- ==== Proof.KI.V4.lean ====
import proofs.«148047_j37898791420018_1_alg».proof.Proof.KI.R4
import proofs.«148047_j37898791420018_1_alg».proof.Proof.KI.P4
import proofs.«148047_j37898791420018_1_alg».proof.Proof.KI.P4found
import proofs.«148047_j37898791420018_1_alg».proof.Proof.LibBlockSum
import proofs.«148047_j37898791420018_1_alg».proof.Proof.Spec
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

/-! # Region 4's value: the product array is the normalised, rectified activations times the weights, and the
    statistics array holds that product's column sums and column sums of squares -/

variable (V : (c : Dev nD) → (b : Ref sig .tc) → Buf (Elt Ideal) ((c : Thread nD τ).loc b))

/-! ## Region 4's arrays and blocks, at their literal types -/

/-- The six input arrays as the region finds them. -/
abbrev A4_0 (c : Dev nD) : Cert.Spec.Arr 50000 256 := V c (Pipeline.arrRef spec4 0)
abbrev A4_1 (c : Dev nD) : Cert.Spec.Arr 1 256 := V c (Pipeline.arrRef spec4 1)
abbrev A4_2 (c : Dev nD) : Cert.Spec.Arr 1 256 := V c (Pipeline.arrRef spec4 2)
abbrev A4_3 (c : Dev nD) : Cert.Spec.Arr 1 256 := V c (Pipeline.arrRef spec4 3)
abbrev A4_4 (c : Dev nD) : Cert.Spec.Arr 1 256 := V c (Pipeline.arrRef spec4 4)
abbrev A4_5 (c : Dev nD) : Cert.Spec.Arr 256 256 := V c (Pipeline.arrRef spec4 5)

/-- The blocks the body loads at point `t`. -/
abbrev xb4 (c : Dev nD) (t : Fin cfg4.N) : Vec Ideal S2000x256 .f32 := iblk4 V c 0 t
abbrev rb4_1 (c : Dev nD) (t : Fin cfg4.N) : Vec Ideal S1x256 .f32 := iblk4 V c 1 t
abbrev rb4_2 (c : Dev nD) (t : Fin cfg4.N) : Vec Ideal S1x256 .f32 := iblk4 V c 2 t
abbrev rb4_3 (c : Dev nD) (t : Fin cfg4.N) : Vec Ideal S1x256 .f32 := iblk4 V c 3 t
abbrev rb4_4 (c : Dev nD) (t : Fin cfg4.N) : Vec Ideal S1x256 .f32 := iblk4 V c 4 t
abbrev wb4 (c : Dev nD) (t : Fin cfg4.N) : Vec Ideal S256x256 .f32 := iblk4 V c 5 t

/-- The printed index maps, decided over the grid: the activations' and the product's blocks move down the rows with
    the point, every other window stays on its one block. -/
theorem idx4_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0 :=
  (by decide +kernel : ∀ t : Fin grid4.N, _)

theorem lt4 (t : Fin cfg4.N) : t.val < 25 := lt_of_lt_of_eq t.isLt (show cfg4.N = 25 from N_4)

/-- Row `2000 · t + y` of the 50000, from the point and the row inside the block. -/
def rowAt4 (t : Fin cfg4.N) (y : Fin 2000) : Fin 50000 := ⟨2000 * t.val + y.val, by have := lt4 t; omega⟩

/-- The activations' block at point `t`, entry (y, k): the array's entry (2000 · t + y, k). -/
theorem xb4_apply (c : Dev nD) (t : Fin cfg4.N) (y : Fin 2000) (k : Fin 256) :
    xb4 V c t (ix2 y k) = A4_0 V c (ix2 (rowAt4 t y) k) := by
  obtain ⟨e0, e1, -⟩ := idx4_facts t
  show V c (Pipeline.arrRef spec4 0) (((cfg4.win 0).blk t).view.emb (ix2 y k)) = V c (Pipeline.arrRef spec4 0) (ix2 (rowAt4 t y) k)
  refine congrArg _ (funext fun a => Fin.ext ?_)
  match a with
  | ⟨0, _⟩ => show win4_0.index t (0 : Fin 2) * 2000 + 1 * y.val = 2000 * t.val + y.val; omega
  | ⟨1, _⟩ => show win4_0.index t (1 : Fin 2) * 256 + 1 * k.val = k.val; omega

/-- The five one-block windows' blocks are their whole arrays. -/
theorem rb4_1_eq (c : Dev nD) (t : Fin cfg4.N) : rb4_1 V c t = A4_1 V c := by
  obtain ⟨-, -, e1a, e1b, e2a, e2b, e3a, e3b, e4a, e4b, e5a, e5b, -⟩ := idx4_facts t
  funext y
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 256 + 1 * (y 1).val = (y 1).val; omega
theorem rb4_2_eq (c : Dev nD) (t : Fin cfg4.N) : rb4_2 V c t = A4_2 V c := by
  obtain ⟨-, -, e1a, e1b, e2a, e2b, e3a, e3b, e4a, e4b, e5a, e5b, -⟩ := idx4_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 256 + 1 * (y 1).val = (y 1).val; omega
theorem rb4_3_eq (c : Dev nD) (t : Fin cfg4.N) : rb4_3 V c t = A4_3 V c := by
  obtain ⟨-, -, e1a, e1b, e2a, e2b, e3a, e3b, e4a, e4b, e5a, e5b, -⟩ := idx4_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 256 + 1 * (y 1).val = (y 1).val; omega
theorem rb4_4_eq (c : Dev nD) (t : Fin cfg4.N) : rb4_4 V c t = A4_4 V c := by
  obtain ⟨-, -, e1a, e1b, e2a, e2b, e3a, e3b, e4a, e4b, e5a, e5b, -⟩ := idx4_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 256 + 1 * (y 1).val = (y 1).val; omega
theorem wb4_eq (c : Dev nD) (t : Fin cfg4.N) : wb4 V c t = A4_5 V c := by
  obtain ⟨-, -, e1a, e1b, e2a, e2b, e3a, e3b, e4a, e4b, e5a, e5b, -⟩ := idx4_facts t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 256 + 1 * (y 0).val = (y 0).val; omega
  | ⟨1, _⟩ => show win4_5.index t (1 : Fin 2) * 256 + 1 * (y 1).val = (y 1).val; omega

/-- The normalised, rectified activations as one array. -/
def Y4 (c : Dev nD) : Cert.Spec.Arr 50000 256 :=
  Cert.Spec.bnrelu (A4_0 V c) (Cert.Spec.row (A4_1 V c) 0) (Cert.Spec.row (A4_2 V c) 0) (Cert.Spec.row (A4_3 V c) 0) (Cert.Spec.row (A4_4 V c) 0)

/-- The product block the body stores at point `t`. -/
abbrev m4 (c : Dev nD) (t : Fin cfg4.N) : Vec Ideal S2000x256 .f32 :=
  k4_pay4 (xb4 V c t) (rb4_1 V c t) (rb4_2 V c t) (rb4_3 V c t) (rb4_4 V c t) (wb4 V c t)

/-- It is block `t` of the product of the activations with the weights. -/
theorem m4_apply (c : Dev nD) (t : Fin cfg4.N) (y : Fin 2000) (q : Fin 256) :
    m4 V c t (ix2 y q) = Cert.Spec.mm (Y4 V c) (A4_5 V c) (ix2 (rowAt4 t y) q) := by
  refine (k4_pay4_apply _ _ _ _ _ _ y q).trans ?_
  rw [rb4_1_eq, rb4_2_eq, rb4_3_eq, rb4_4_eq, wb4_eq]
  unfold Cert.Spec.mm
  refine Finset.sum_congr rfl fun k _ => ?_
  unfold act4
  rw [xb4_apply]
  rfl

/-! ## The accumulator's step at the ideal values -/

/-- One step leaves in row 0, column j, what the row held plus the column sum of the block product, -/
theorem accStep4_val0 (x0 : Vec Ideal S2000x256 .f32) (x1 x2 x3 x4 : Vec Ideal S1x256 .f32) (x5 : Vec Ideal S256x256 .f32) (S : Vec Ideal S2x256 .f32) (j : Fin 256) :
    accStep4 x0 x1 x2 x3 x4 x5 S (ix2 0 j) = S (ix2 0 j) + ∑ r : Fin 2000, k4_pay4 x0 x1 x2 x3 x4 x5 (ix2 r j) := by
  refine (accStep4_row0 x0 x1 x2 x3 x4 x5 S j).trans ((k4_pay1_apply _ _ j).trans ?_)
  rw [accRow4_0_apply, k4_pay5_apply]
/-- and in row 1 what the row held plus the column sum of its squares. -/
theorem accStep4_val1 (x0 : Vec Ideal S2000x256 .f32) (x1 x2 x3 x4 : Vec Ideal S1x256 .f32) (x5 : Vec Ideal S256x256 .f32) (S : Vec Ideal S2x256 .f32) (j : Fin 256) :
    accStep4 x0 x1 x2 x3 x4 x5 S (ix2 1 j)
      = S (ix2 1 j) + ∑ r : Fin 2000, k4_pay4 x0 x1 x2 x3 x4 x5 (ix2 r j) * k4_pay4 x0 x1 x2 x3 x4 x5 (ix2 r j) := by
  refine (accStep4_row1 x0 x1 x2 x3 x4 x5 S j).trans ((k4_pay2_apply _ _ j).trans ?_)
  rw [accRow4_1_apply]

/-! ## What the outputs and the accumulator hold after each point, as values -/

/-- After every point the product window's staging buffer holds the point's block product. -/
theorem outs4_prod (c : Dev nD) (t : Fin cfg4.N) : (outsAt4 V c t.val t.isLt).1 = m4 V c t := by
  by_cases h0 : t.val % 25 = 0
  · rw [outsAt4_A V c t h0]
    dsimp only
    exact out4_A_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t)
  · rw [outsAt4_B V c t h0]
    dsimp only
    exact out4_B_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2

/-- After the first point the accumulator and the statistics window hold one step from the zero fill, -/
theorem outs4_first (c : Dev nD) (t : Fin cfg4.N) (h0 : t.val % 25 = 0) :
    (outsAt4 V c t.val t.isLt).2.1 = accStep4 (xb4 V c t) (rb4_1 V c t) (rb4_2 V c t) (rb4_3 V c t) (rb4_4 V c t) (wb4 V c t) (k4_pay3 (F := Ideal))
      ∧ (outsAt4 V c t.val t.isLt).2.2 = accStep4 (xb4 V c t) (rb4_1 V c t) (rb4_2 V c t) (rb4_3 V c t) (rb4_4 V c t) (wb4 V c t) (k4_pay3 (F := Ideal)) := by
  rw [outsAt4_A V c t h0]
  dsimp only
  exact ⟨(out4_A_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t)).trans
      (sout4_A_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t)),
    sout4_A_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (iblk4 V c 0 t) (iblk4 V c 1 t) (iblk4 V c 2 t) (iblk4 V c 3 t) (iblk4 V c 4 t) (iblk4 V c 5 t)⟩

/-- after a later point one step from what the point before left. -/
theorem outs4_later (c : Dev nD) (t : Fin cfg4.N) (h0 : ¬t.val % 25 = 0) :
    (outsAt4 V c t.val t.isLt).2.1 = accStep4 (xb4 V c t) (rb4_1 V c t) (rb4_2 V c t) (rb4_3 V c t) (rb4_4 V c t) (wb4 V c t) (outsAt4 V c (t.val - 1) (Nat.lt_of_le_of_lt (Nat.sub_le _ _) t.isLt)).2.2
      ∧ (outsAt4 V c t.val t.isLt).2.2 = accStep4 (xb4 V c t) (rb4_1 V c t) (rb4_2 V c t) (rb4_3 V c t) (rb4_4 V c t) (wb4 V c t) (outsAt4 V c (t.val - 1) (Nat.lt_of_le_of_lt (Nat.sub_le _ _) t.isLt)).2.2 := by
  rw [outsAt4_B V c t h0]
  dsimp only
  exact ⟨(out4_B_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2).trans
      (sout4_B_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2),
    sout4_B_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2⟩

/-- After every point the statistics window's staging buffer holds what the accumulator holds. -/
theorem outs4_stats (c : Dev nD) (t : Fin cfg4.N) : (outsAt4 V c t.val t.isLt).2.1 = (outsAt4 V c t.val t.isLt).2.2 := by
  by_cases h0 : t.val % 25 = 0
  · exact (outs4_first V c t h0).1.trans (outs4_first V c t h0).2.symm
  · exact (outs4_later V c t h0).1.trans (outs4_later V c t h0).2.symm

/-- The column sums, and the column sums of squares, of the block product at point `t`. -/
def bsum4 (c : Dev nD) (j : Fin 256) (t : Fin cfg4.N) : EReal := ∑ r : Fin 2000, m4 V c t (ix2 r j)
def bsumsq4 (c : Dev nD) (j : Fin 256) (t : Fin cfg4.N) : EReal := ∑ r : Fin 2000, m4 V c t (ix2 r j) * m4 V c t (ix2 r j)

theorem acc4_first (c : Dev nD) (t : Fin cfg4.N) (h0 : t.val % 25 = 0) (j : Fin 256) :
    (outsAt4 V c t.val t.isLt).2.2 (ix2 0 j) = 0 + bsum4 V c j t
      ∧ (outsAt4 V c t.val t.isLt).2.2 (ix2 1 j) = 0 + bsumsq4 V c j t := by
  rw [(outs4_first V c t h0).2]
  constructor
  · refine (accStep4_val0 _ _ _ _ _ _ _ j).trans ?_
    rw [k4_pay3_apply]; rfl
  · refine (accStep4_val1 _ _ _ _ _ _ _ j).trans ?_
    rw [k4_pay3_apply]; rfl

theorem acc4_later (c : Dev nD) (t : Fin cfg4.N) (h0 : ¬t.val % 25 = 0) (j : Fin 256) :
    (outsAt4 V c t.val t.isLt).2.2 (ix2 0 j) = (outsAt4 V c (t.val - 1) (Nat.lt_of_le_of_lt (Nat.sub_le _ _) t.isLt)).2.2 (ix2 0 j) + bsum4 V c j t
      ∧ (outsAt4 V c t.val t.isLt).2.2 (ix2 1 j) = (outsAt4 V c (t.val - 1) (Nat.lt_of_le_of_lt (Nat.sub_le _ _) t.isLt)).2.2 (ix2 1 j) + bsumsq4 V c j t := by
  rw [(outs4_later V c t h0).2]
  exact ⟨accStep4_val0 _ _ _ _ _ _ _ j, accStep4_val1 _ _ _ _ _ _ _ j⟩

/-! ## The accumulation over the 25 points -/

theorem hN4 : cfg4.N = 25 := N_4

/-- Point `n` of the grid. -/
abbrev pt4 (n : Fin (24 + 1)) : Fin cfg4.N := ⟨n.val, by rw [hN4]; exact n.isLt⟩

/-- What the accumulator holds after the last point. -/
def stats4 (c : Dev nD) : Cert.Spec.Arr 2 256 := (outsAt4 V c 24 (by rw [hN4]; decide)).2.2

theorem stats4_row0 (c : Dev nD) (j : Fin 256) : stats4 V c (ix2 0 j) = ∑ t : Fin (24 + 1), bsum4 V c j (pt4 t) :=
  Cert.Lib.BlockSum.acc_eq_sum_fin 24 (fun t => bsum4 V c j (pt4 t))
    (fun t => (outsAt4 V c t.val (pt4 t).isLt).2.2 (ix2 0 j))
    ((acc4_first V c (pt4 0) rfl j).1)
    (fun n h => (acc4_later V c (pt4 ⟨n + 1, h⟩) (by show ¬(n + 1) % 25 = 0; omega) j).1)

theorem stats4_row1 (c : Dev nD) (j : Fin 256) : stats4 V c (ix2 1 j) = ∑ t : Fin (24 + 1), bsumsq4 V c j (pt4 t) :=
  Cert.Lib.BlockSum.acc_eq_sum_fin 24 (fun t => bsumsq4 V c j (pt4 t))
    (fun t => (outsAt4 V c t.val (pt4 t).isLt).2.2 (ix2 1 j))
    ((acc4_first V c (pt4 0) rfl j).2)
    (fun n h => (acc4_later V c (pt4 ⟨n + 1, h⟩) (by show ¬(n + 1) % 25 = 0; omega) j).2)

/-- The sums over the 25 blocks of 2000 rows are the sums over the 50000 rows. -/
theorem stats4_colsum (c : Dev nD) (j : Fin 256) :
    stats4 V c (ix2 0 j) = Cert.Spec.colsum (Cert.Spec.mm (Y4 V c) (A4_5 V c)) j := by
  rw [stats4_row0]
  unfold Cert.Spec.colsum
  rw [← Cert.Lib.BlockSum.sum_blocks_50000 (fun r : Fin 50000 => Cert.Spec.mm (Y4 V c) (A4_5 V c) (ix2 r j))]
  refine Finset.sum_congr rfl fun t _ => ?_
  unfold bsum4
  refine Finset.sum_congr rfl fun y _ => ?_
  exact m4_apply V c (pt4 t) y j

theorem stats4_colsumsq (c : Dev nD) (j : Fin 256) :
    stats4 V c (ix2 1 j) = Cert.Spec.colsumsq (Cert.Spec.mm (Y4 V c) (A4_5 V c)) j := by
  rw [stats4_row1]
  unfold Cert.Spec.colsumsq
  rw [← Cert.Lib.BlockSum.sum_blocks_50000 (fun r : Fin 50000 =>
    Cert.Spec.mm (Y4 V c) (A4_5 V c) (ix2 r j) * Cert.Spec.mm (Y4 V c) (A4_5 V c) (ix2 r j))]
  refine Finset.sum_congr rfl fun t _ => ?_
  unfold bsumsq4
  refine Finset.sum_congr rfl fun y _ => ?_
  rw [m4_apply V c (pt4 t) y j]
  rfl

/-! ## From blocks to the arrays -/

/-- The block product at point `t`, at an entry given by its coordinates' values. -/
theorem m4_at (c : Dev nD) (t : Fin cfg4.N) (j : S2000x256.Idx) (i : S50000x256.Idx)
    (h0 : (i 0).val = 2000 * t.val + (j 0).val) (h1 : (i 1).val = (j 1).val) :
    m4 V c t j = Cert.Spec.mm (Y4 V c) (A4_5 V c) i := by
  have hi : i = ix2 (rowAt4 t (j 0)) (j 1) := funext fun a => Fin.ext (by
    match a with
    | ⟨0, _⟩ => exact h0
    | ⟨1, _⟩ => exact h1)
  calc m4 V c t j = m4 V c t (ix2 (j 0) (j 1)) := congrArg _ (eq_ix2 j)
    _ = Cert.Spec.mm (Y4 V c) (A4_5 V c) (ix2 (rowAt4 t (j 0)) (j 1)) := m4_apply V c t (j 0) (j 1)
    _ = Cert.Spec.mm (Y4 V c) (A4_5 V c) i := congrArg _ hi.symm

/-- What point `t` writes back of the product window is block `t` of the product of the activations by the weights. -/
theorem flushed4_6_eq (c : Dev nD) (t : Fin cfg4.N) :
    (dat4 V c).flushed 6 t = ((cfg4.win 6).blk t).view.read (Elt Ideal) (Cert.Spec.mm (Y4 V c) (A4_5 V c)) := by
  show (cfg4.win 6).cut (grid4.coords t) ((dat4 V c).after 6 t) = _
  rw [after4_6, outs4_prod V c t]
  obtain ⟨-, -, -, -, -, -, -, -, -, -, -, -, e60, e61, -⟩ := idx4_facts t
  funext j
  exact m4_at V c t j (((cfg4.win 6).blk t).view.emb j)
    (by show win4_6.index t (0 : Fin 2) * 2000 + 1 * (j 0).val = 2000 * t.val + (j 0).val; omega)
    (by show win4_6.index t (1 : Fin 2) * 256 + 1 * (j 1).val = (j 1).val; omega)

/-- An index of the product array is in point `t`'s block iff its row is among the 2000 rows from `2000 t`. -/
theorem mem_blk4_6 (t : Fin cfg4.N) (i : S50000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v86_0).slice (win4_6.rect t)).set ↔ _
  rw [View.set_slice_whole, Rect.mem_set_unit]
  exact Iff.rfl

/-- Every entry of the product array is in some point's block: row `r` in that of point `r / 2000`. -/
theorem cover4_6 (i : S50000x256.Idx) :
    ∃ t : Fin cfg4.N, (cfg4.win 6).flush t = true ∧ i ∈ ((cfg4.win 6).blk t).view.set := by
  have hi0 : (i 0).val < 50000 := (i 0).isLt
  have hi1 : (i 1).val < 256 := (i 1).isLt
  have hN : (i 0).val / 2000 < cfg4.N := by rw [hN4]; omega
  refine ⟨⟨(i 0).val / 2000, hN⟩, flush4_6 _, ?_⟩
  obtain ⟨-, -, -, -, -, -, -, -, -, -, -, -, e60, e61, -⟩ := idx4_facts ⟨(i 0).val / 2000, hN⟩
  rw [mem_blk4_6]
  intro a
  match a with
  | ⟨0, _⟩ =>
    show win4_6.index ⟨(i 0).val / 2000, hN⟩ (0 : Fin 2) * 2000 ≤ (i 0).val ∧ (i 0).val < win4_6.index ⟨(i 0).val / 2000, hN⟩ (0 : Fin 2) * 2000 + 2000
    rw [e60]; show (i 0).val / 2000 * 2000 ≤ (i 0).val ∧ (i 0).val < (i 0).val / 2000 * 2000 + 2000
    omega
  | ⟨1, _⟩ =>
    show win4_6.index ⟨(i 0).val / 2000, hN⟩ (1 : Fin 2) * 256 ≤ (i 1).val ∧ (i 1).val < win4_6.index ⟨(i 0).val / 2000, hN⟩ (1 : Fin 2) * 256 + 256
    rw [e61]; omega

/-- THE PRODUCT ARRAY after the region: the normalised, rectified activations times the weights. -/
theorem val4_prod (c : Dev nD) :
    ((dat4 V c).arrAt 6 cfg4.N : Cert.Spec.Arr 50000 256) = Cert.Spec.mm (Y4 V c) (A4_5 V c) :=
  (dat4 V c).arrAt_eq_of_cover 6 _ (fun t _ => flushed4_6_eq V c t) cover4_6

/-- The contents after a point depend on the point's number only. -/
theorem outsAt4_congr (c : Dev nD) {n m : ℕ} (e : n = m) (hn : n < cfg4.N) (hm : m < cfg4.N) :
    outsAt4 V c n hn = outsAt4 V c m hm := by
  subst e; rfl

/-- At the last point the accumulator holds `stats4`. -/
theorem acc4_last (c : Dev nD) (t : Fin cfg4.N) (h24 : t.val = 24) : (outsAt4 V c t.val t.isLt).2.2 = stats4 V c := by
  unfold stats4
  rw [outsAt4_congr V c h24 t.isLt (by rw [hN4]; decide)]

/-- The one write-back of the statistics window, at the last point, writes what the accumulator holds then: its one
    block is the whole array. -/
theorem flushed4_7_eq (c : Dev nD) (t : Fin cfg4.N) (hf : (cfg4.win 7).flush t = true) :
    (dat4 V c).flushed 7 t = ((cfg4.win 7).blk t).view.read (Elt Ideal) (stats4 V c) := by
  have hN : cfg4.N = 25 := hN4
  have h24 : t.val = 24 := by have := (flush4_7 t).mp hf; have := t.isLt; omega
  obtain ⟨-, -, -, -, -, -, -, -, -, -, -, -, -, -, e70, e71⟩ := idx4_facts t
  show (cfg4.win 7).cut (grid4.coords t) ((dat4 V c).after 7 t) = _
  rw [after4_7, outs4_stats V c t, acc4_last V c t h24]
  funext j
  show stats4 V c j = stats4 V c (((cfg4.win 7).blk t).view.emb j)
  refine congrArg _ ?_
  funext a; apply Fin.ext
  match a with
  | ⟨0, _⟩ => show (j 0).val = win4_7.index t (0 : Fin 2) * 2 + 1 * (j 0).val; omega
  | ⟨1, _⟩ => show (j 1).val = win4_7.index t (1 : Fin 2) * 256 + 1 * (j 1).val; omega

/-- Every entry of the statistics array is in the last point's block. -/
theorem cover4_7 (i : S2x256.Idx) :
    ∃ t : Fin cfg4.N, (cfg4.win 7).flush t = true ∧ i ∈ ((cfg4.win 7).blk t).view.set := by
  have hi0 : (i 0).val < 2 := (i 0).isLt
  have hi1 : (i 1).val < 256 := (i 1).isLt
  have hN : 24 < cfg4.N := by rw [hN4]; decide
  refine ⟨⟨24, hN⟩, (flush4_7 _).mpr rfl, ?_⟩
  obtain ⟨-, -, -, -, -, -, -, -, -, -, -, -, -, -, e70, e71⟩ := idx4_facts ⟨24, hN⟩
  show i ∈ ((View.whole main_v86_1).slice (win4_7.rect ⟨24, hN⟩)).set
  rw [View.set_slice_whole, Rect.mem_set_unit]
  intro a
  match a with
  | ⟨0, _⟩ =>
    show win4_7.index ⟨24, hN⟩ (0 : Fin 2) * 2 ≤ (i 0).val ∧ (i 0).val < win4_7.index ⟨24, hN⟩ (0 : Fin 2) * 2 + 2
    rw [e70]; omega
  | ⟨1, _⟩ =>
    show win4_7.index ⟨24, hN⟩ (1 : Fin 2) * 256 ≤ (i 1).val ∧ (i 1).val < win4_7.index ⟨24, hN⟩ (1 : Fin 2) * 256 + 256
    rw [e71]; omega

/-- The statistics array after the region is what the accumulator holds after the last point. -/
theorem final4_7 (c : Dev nD) : ((dat4 V c).arrAt 7 cfg4.N : Cert.Spec.Arr 2 256) = stats4 V c :=
  (dat4 V c).arrAt_eq_of_cover 7 (stats4 V c) (flushed4_7_eq V c) cover4_7

/-- THE STATISTICS ARRAY after the region: row 0 the column sums, row 1 the column sums of squares, of the product of
    the normalised, rectified activations by the weights. -/
theorem val4_stats (c : Dev nD) (j : Fin 256) :
    ((dat4 V c).arrAt 7 cfg4.N : Cert.Spec.Arr 2 256) (ix2 0 j) = Cert.Spec.colsum (Cert.Spec.mm (Y4 V c) (A4_5 V c)) j
      ∧ ((dat4 V c).arrAt 7 cfg4.N : Cert.Spec.Arr 2 256) (ix2 1 j) = Cert.Spec.colsumsq (Cert.Spec.mm (Y4 V c) (A4_5 V c)) j := by
  rw [final4_7]
  exact ⟨stats4_colsum V c j, stats4_colsumsq V c j⟩

end Cert.KernelIdeal.HandV

end
-- ==== Proof.KI.V5.lean ====
import proofs.«148047_j37898791420018_1_alg».proof.Proof.KI.R5
import proofs.«148047_j37898791420018_1_alg».proof.Proof.Spec
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (Arr Vc)

variable (V : (c : Dev nD) → (b : Ref sig .tc) → Buf (Elt Ideal) ((c : Thread nD τ).loc b))

/-! # Region 5's value: the result array is the normalise-scale-shift-rectify of the activations `z` by the four
    parameter rows, entry by entry -/

/-- The five input arrays as the region finds them, at their literal types: the activations `z` and the rows of
    column means, column variances, gains and offsets. -/
abbrev zarr5 (c : Dev nD) : Arr 50000 256 := V c (Pipeline.arrRef spec5 0)
abbrev marr5 (c : Dev nD) : Arr 1 256 := V c (Pipeline.arrRef spec5 1)
abbrev varr5 (c : Dev nD) : Arr 1 256 := V c (Pipeline.arrRef spec5 2)
abbrev garr5 (c : Dev nD) : Arr 1 256 := V c (Pipeline.arrRef spec5 3)
abbrev barr5 (c : Dev nD) : Arr 1 256 := V c (Pipeline.arrRef spec5 4)

theorem hz5 : (![0, 0] : Fin 2 → Nat) = fun _ => 0 := funext fun a => by fin_cases a <;> rfl

/-- A (1,256) row broadcast down the 2000 rows of a block reads, at `(p, q)`, the row's entry `q`. -/
theorem bcast_row5 {α : Type} (x : S1x256.Idx → α) (h : S1x256.Broadcasts S2000x256) (p : Fin 2000) (q : Fin 256) :
    broadcastTo S2000x256 x h (ix2 p q) = x (ix2 0 q) :=
  broadcastTo_apply x h (ix2 p q) (ix2 0 q) (fun a => by match a with | ⟨0, _⟩ => rfl | ⟨1, _⟩ => rfl)

/-- The body's payload at an entry `(p, q)` of the block: the block's entry, less the mean of column `q`, times the
    reciprocal square root of that column's variance plus the constant, times its gain, plus its offset, clamped below
    at zero. -/
theorem pay_at5 (x0 : Vec Ideal S2000x256 .f32) (x1 x2 x3 x4 : Vec Ideal S1x256 .f32) (p : Fin 2000) (q : Fin 256) :
    k5_pay1 x0 x1 x2 x3 x4 (ix2 p q)
      = max ((x0 (ix2 p q) - x1 (ix2 0 q)) * Ideal.rsqrt (x2 (ix2 0 q) + Cert.Spec.eps) * x3 (ix2 0 q) + x4 (ix2 0 q)) 0 := by
  unfold k5_pay1
  simp only [shapeCast_self]
  simp only [maximumf_apply, addf_apply, mulf_apply, subf_apply, bcast_row5, broadcast_apply]
  rw [show (FloatOps.ofBits (F := Ideal) FTy.f32 0#32) = (0 : EReal) from Ideal.ofBits_zero_f32]
  rfl

/-- The payload of blocks that are parts of whole arrays — the block's entry `j` is the array's entry `i` in the same
    column, and each parameter block is its whole row — is the specification's entry `i`. -/
theorem pay_blk5 (x0 : Vec Ideal S2000x256 .f32) (x1 x2 x3 x4 : Vec Ideal S1x256 .f32)
    (Z : Arr 50000 256) (M Va G B : Arr 1 256) (j : S2000x256.Idx) (i : S50000x256.Idx)
    (h0 : x0 j = Z i) (hq : (j 1).val = (i 1).val)
    (h1 : ∀ q, x1 (ix2 0 q) = M (ix2 0 q)) (h2 : ∀ q, x2 (ix2 0 q) = Va (ix2 0 q))
    (h3 : ∀ q, x3 (ix2 0 q) = G (ix2 0 q)) (h4 : ∀ q, x4 (ix2 0 q) = B (ix2 0 q)) :
    k5_pay1 x0 x1 x2 x3 x4 j
      = Cert.Spec.bnrelu Z (Cert.Spec.row M 0) (Cert.Spec.row Va 0) (Cert.Spec.row G 0) (Cert.Spec.row B 0) i := by
  obtain ⟨p, q, rfl⟩ : ∃ (p : Fin 2000) (q : Fin 256), j = ix2 p q := ⟨j 0, j 1, eq_ix2 j⟩
  have hi : i 1 = q := Fin.ext hq.symm
  rw [pay_at5, h0, h1, h2, h3, h4]
  unfold Cert.Spec.bnrelu Cert.Spec.row
  rw [hi]

/-- The windows' block indices over the grid: the activations' and the result's block at point `t` is block `t` of
    rows, all columns; each parameter row is its one block throughout. -/
theorem idx_facts5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The activations' block at point `t` is the part of the array the result's block at `t` covers: entry `j` of the
    one is the array's entry at `j`'s place in the other. -/
theorem blk_z5 (c : Dev nD) (t : Fin cfg5.N) (j : S2000x256.Idx) :
    iblk5 V c 0 t j = zarr5 V c (((cfg5.win 5).blk t).view.emb j) := by
  obtain ⟨e00, e01, e10, e11, e20, e21, e30, e31, e40, e41, e50, e51⟩ := idx_facts5 t
  show V c (Pipeline.arrRef spec5 0) (((cfg5.win 0).blk t).view.emb j) = V c (Pipeline.arrRef spec5 0) (((cfg5.win 5).blk t).view.emb j)
  refine congrArg _ ?_
  funext a; apply Fin.ext
  match a with
  | ⟨0, _⟩ => show win5_0.index t (0 : Fin 2) * 2000 + 1 * (j 0).val = win5_5.index t (0 : Fin 2) * 2000 + 1 * (j 0).val; omega
  | ⟨1, _⟩ => show win5_0.index t (1 : Fin 2) * 256 + 1 * (j 1).val = win5_5.index t (1 : Fin 2) * 256 + 1 * (j 1).val; omega

/-- The result's block keeps the columns: entry `j` of the block is in column `j 1` of the array. -/
theorem blk_col5 (t : Fin cfg5.N) (j : S2000x256.Idx) : (j 1).val = ((((cfg5.win 5).blk t).view.emb j) 1).val := by
  obtain ⟨e00, e01, e10, e11, e20, e21, e30, e31, e40, e41, e50, e51⟩ := idx_facts5 t
  show (j 1).val = win5_5.index t (1 : Fin 2) * 256 + 1 * (j 1).val
  omega

/-- The block of the row of column means is the whole row, at every point. -/
theorem blk_row5_1 (c : Dev nD) (t : Fin cfg5.N) (q : Fin 256) : iblk5 V c 1 t (ix2 0 q) = marr5 V c (ix2 0 q) := by
  obtain ⟨e00, e01, e10, e11, e20, e21, e30, e31, e40, e41, e50, e51⟩ := idx_facts5 t
  show V c (Pipeline.arrRef spec5 1) (((cfg5.win 1).blk t).view.emb (ix2 0 q)) = V c (Pipeline.arrRef spec5 1) (ix2 0 q)
  refine congrArg _ ?_
  funext a; apply Fin.ext
  match a with
  | ⟨0, _⟩ => show win5_1.index t (0 : Fin 2) * 1 + 1 * 0 = 0; omega
  | ⟨1, _⟩ => show win5_1.index t (1 : Fin 2) * 256 + 1 * q.val = q.val; omega

/-- The block of the row of column variances is the whole row, at every point. -/
theorem blk_row5_2 (c : Dev nD) (t : Fin cfg5.N) (q : Fin 256) : iblk5 V c 2 t (ix2 0 q) = varr5 V c (ix2 0 q) := by
  obtain ⟨e00, e01, e10, e11, e20, e21, e30, e31, e40, e41, e50, e51⟩ := idx_facts5 t
  show V c (Pipeline.arrRef spec5 2) (((cfg5.win 2).blk t).view.emb (ix2 0 q)) = V c (Pipeline.arrRef spec5 2) (ix2 0 q)
  refine congrArg _ ?_
  funext a; apply Fin.ext
  match a with
  | ⟨0, _⟩ => show win5_2.index t (0 : Fin 2) * 1 + 1 * 0 = 0; omega
  | ⟨1, _⟩ => show win5_2.index t (1 : Fin 2) * 256 + 1 * q.val = q.val; omega

/-- The block of the row of column gains is the whole row, at every point. -/
theorem blk_row5_3 (c : Dev nD) (t : Fin cfg5.N) (q : Fin 256) : iblk5 V c 3 t (ix2 0 q) = garr5 V c (ix2 0 q) := by
  obtain ⟨e00, e01, e10, e11, e20, e21, e30, e31, e40, e41, e50, e51⟩ := idx_facts5 t
  show V c (Pipeline.arrRef spec5 3) (((cfg5.win 3).blk t).view.emb (ix2 0 q)) = V c (Pipeline.arrRef spec5 3) (ix2 0 q)
  refine congrArg _ ?_
  funext a; apply Fin.ext
  match a with
  | ⟨0, _⟩ => show win5_3.index t (0 : Fin 2) * 1 + 1 * 0 = 0; omega
  | ⟨1, _⟩ => show win5_3.index t (1 : Fin 2) * 256 + 1 * q.val = q.val; omega

/-- The block of the row of column offsets is the whole row, at every point. -/
theorem blk_row5_4 (c : Dev nD) (t : Fin cfg5.N) (q : Fin 256) : iblk5 V c 4 t (ix2 0 q) = barr5 V c (ix2 0 q) := by
  obtain ⟨e00, e01, e10, e11, e20, e21, e30, e31, e40, e41, e50, e51⟩ := idx_facts5 t
  show V c (Pipeline.arrRef spec5 4) (((cfg5.win 4).blk t).view.emb (ix2 0 q)) = V c (Pipeline.arrRef spec5 4) (ix2 0 q)
  refine congrArg _ ?_
  funext a; apply Fin.ext
  match a with
  | ⟨0, _⟩ => show win5_4.index t (0 : Fin 2) * 1 + 1 * 0 = 0; omega
  | ⟨1, _⟩ => show win5_4.index t (1 : Fin 2) * 256 + 1 * q.val = q.val; omega

/-- What point `t` writes back is block `t` of the specification's array. -/
theorem flushed_eq5 (c : Dev nD) (t : Fin cfg5.N) :
    (dat5 V c).flushed 5 t = ((cfg5.win 5).blk t).view.read (Elt Ideal)
      (Cert.Spec.bnrelu (zarr5 V c) (Cert.Spec.row (marr5 V c) 0) (Cert.Spec.row (varr5 V c) 0)
        (Cert.Spec.row (garr5 V c) 0) (Cert.Spec.row (barr5 V c) 0)) := by
  show (cfg5.win 5).cut (grid5.coords t) ((dat5 V c).after 5 t) = _
  rw [after5_5]
  unfold out5_5
  rw [View.canon_unit_zero hz5]
  simp only [View.ld_unit_zero (S := S2000x256) hz5, View.ld_unit_zero (S := S1x256) hz5]
  funext j
  show k5_pay1 (iblk5 V c 0 t) (iblk5 V c 1 t) (iblk5 V c 2 t) (iblk5 V c 3 t) (iblk5 V c 4 t) j
    = Cert.Spec.bnrelu (zarr5 V c) (Cert.Spec.row (marr5 V c) 0) (Cert.Spec.row (varr5 V c) 0)
        (Cert.Spec.row (garr5 V c) 0) (Cert.Spec.row (barr5 V c) 0) (((cfg5.win 5).blk t).view.emb j)
  exact pay_blk5 (iblk5 V c 0 t) (iblk5 V c 1 t) (iblk5 V c 2 t) (iblk5 V c 3 t) (iblk5 V c 4 t)
    (zarr5 V c) (marr5 V c) (varr5 V c) (garr5 V c) (barr5 V c) j (((cfg5.win 5).blk t).view.emb j)
    (blk_z5 V c t j) (blk_col5 t j) (blk_row5_1 V c t) (blk_row5_2 V c t) (blk_row5_3 V c t) (blk_row5_4 V c t)

/-- An index of the result array is in point `t`'s block iff its row is among the 2000 rows from `2000 t`. -/
theorem mem_blk5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole (Pipeline.arrRef spec5 5)).slice (win5_5.rect t)).set ↔ _
  rw [View.set_slice_whole, Rect.mem_set_unit]
  exact Iff.rfl

/-- Every entry of the result array is in some point's block: row `r` in that of point `r / 2000`. -/
theorem cover_arr5 (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  have hN : (i 0).val / 2000 < cfg5.N := by
    show (i 0).val / 2000 < grid5.N
    rw [N_5]; omega
  refine ⟨⟨(i 0).val / 2000, hN⟩, flush5_5 _, ?_⟩
  obtain ⟨e00, e01, e10, e11, e20, e21, e30, e31, e40, e41, e50, e51⟩ := idx_facts5 ⟨(i 0).val / 2000, hN⟩
  rw [mem_blk5]
  intro a
  match a with
  | ⟨0, _⟩ =>
    show win5_5.index ⟨(i 0).val / 2000, hN⟩ (0 : Fin 2) * 2000 ≤ (i 0).val ∧ (i 0).val < win5_5.index ⟨(i 0).val / 2000, hN⟩ (0 : Fin 2) * 2000 + 2000
    rw [e50]; show (i 0).val / 2000 * 2000 ≤ (i 0).val ∧ (i 0).val < (i 0).val / 2000 * 2000 + 2000
    omega
  | ⟨1, _⟩ =>
    show win5_5.index ⟨(i 0).val / 2000, hN⟩ (1 : Fin 2) * 256 ≤ (i 1).val ∧ (i 1).val < win5_5.index ⟨(i 0).val / 2000, hN⟩ (1 : Fin 2) * 256 + 256
    rw [e51]; omega

/-- THE VALUE of region 5: after the region the result array is the specification's normalise-scale-shift-rectify of
    the activations by row 0 of each of the four parameter arrays, as the region finds them. -/
theorem val5_out (c : Dev nD) :
    ((dat5 V c).arrAt 5 cfg5.N : Arr 50000 256)
      = Cert.Spec.bnrelu (zarr5 V c) (Cert.Spec.row (marr5 V c) 0) (Cert.Spec.row (varr5 V c) 0)
          (Cert.Spec.row (garr5 V c) 0) (Cert.Spec.row (barr5 V c) 0) :=
  (dat5 V c).arrAt_eq_of_cover 5 _ (fun t _ => flushed_eq5 V c t) cover_arr5

end Cert.KernelIdeal.HandV

end
-- ==== Proof.KI.V6.lean ====
import proofs.«148047_j37898791420018_1_alg».proof.Proof.KI.R6
import proofs.«148047_j37898791420018_1_alg».proof.Proof.Spec
import proofs.«148047_j37898791420018_1_alg».proof.Proof.LibBlockSum
import proofs.«148047_j37898791420018_1_alg».proof.Proof.LibRealArith
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (Arr Vc)
open scoped BigOperators

/-! # Region 6's value: the product array is the matrix product of the input by the weights, and the
    statistics array holds its column sums and its column sums of squares -/

theorem hz6 : (![0, 0] : Fin 2 → Nat) = fun _ => 0 := funext fun a => by fin_cases a <;> rfl

/-! ## The block product read at an index -/

theorem lhs6_0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhs6_1 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single rfl j k

theorem rhs6_0 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single rfl j k

theorem rhs6_1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block product into a zero accumulator, at row `p` and column `q`: the sum over the contracted coordinate of
    the products of the entries. -/
theorem mm6_apply (A : FVec Ideal S2000x256 .bf16) (Bm : FVec Ideal S256x256 .bf16) (p : Fin 2000) (q : Fin 256) :
    matmul dot_S2000x256_S256x256_S2000x256_1_0_0_1_n_n none A Bm (constant S2000x256 .f32 0x00000000#32) (ix2 p q)
      = ∑ k : Fin 256, A (ix2 p k) * Bm (ix2 k q) := by
  show FloatOps.matmul dot_S2000x256_S256x256_S2000x256_1_0_0_1_n_n none A Bm (constant S2000x256 .f32 0x00000000#32) (ix2 p q) = _
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have hl : dot_S2000x256_S256x256_S2000x256_1_0_0_1_n_n.lhsIdx (ix2 p q)
      ((contrEquiv1 dot_S2000x256_S256x256_S2000x256_1_0_0_1_n_n 256 rfl rfl).symm k) = ix2 p k := by
    funext a; apply Fin.ext
    match a with
    | ⟨0, _⟩ => exact lhs6_0 _ _
    | ⟨1, _⟩ => exact (lhs6_1 _ _).trans hk
  have hr : dot_S2000x256_S256x256_S2000x256_1_0_0_1_n_n.rhsIdx (ix2 p q)
      ((contrEquiv1 dot_S2000x256_S256x256_S2000x256_1_0_0_1_n_n 256 rfl rfl).symm k) = ix2 k q := by
    funext a; apply Fin.ext
    match a with
    | ⟨0, _⟩ => exact (rhs6_0 _ _).trans hk
    | ⟨1, _⟩ => exact rhs6_1 _ _
  rw [hl, hr]

/-- The product payload at an entry of the block: format changes are the identity on extended reals. -/
theorem pay2_at6 (x0 : Vec Ideal S2000x256 .f32) (x1 : Vec Ideal S256x256 .f32) (p : Fin 2000) (q : Fin 256) :
    k6_pay2 x0 x1 (ix2 p q) = ∑ k : Fin 256, x0 (ix2 p k) * x1 (ix2 k q) := by
  unfold k6_pay2
  simp only [shapeCast_self]
  exact mm6_apply _ _ p q

/-- The sum down the 2000 rows of a block, read at column `q`. -/
theorem colred6_apply (X : FVec Ideal S2000x256 .f32) (hφ : FKind.Formats .f32)
    (hacc : (0x00000000#32 : BitVec 32) = 0x00000000#32) (q : Fin 256) :
    multiReduction (F := Ideal) .add [0] S256 X 0x00000000#32 reduces_S2000x256_S256 hφ hacc (ix1 q)
      = ∑ r : Fin 2000, X (ix2 r q) := by
  refine (Ideal.multiReduction_add_single X 0x00000000#32 reduces_S2000x256_S256 hφ hacc (ix1 q)).trans ?_
  refine Finset.sum_congr rfl fun r _ => congrArg X ?_
  funext a
  match a with
  | ⟨0, _⟩ => rfl
  | ⟨1, _⟩ => rfl

/-- A 256-vector recast as a one-row table reads, at `(0, q)`, its entry `q`. -/
theorem rowcast6_apply {α : Type} (v : S256.Idx → α) (q : Fin 256) :
    shapeCast S1x256 v shapeCasts_S256_S1x256 (ix2 0 q) = v (ix1 q) := by
  refine (shapeCast_addUnit_apply ![256] v shapeCasts_S256_S1x256 (ix2 0 q)).trans (congrArg v ?_)
  funext a
  match a with
  | ⟨0, _⟩ => rfl

/-- The column-sum payload at column `q`: the row read before it plus the sum of the block product down column `q`. -/
theorem pay3_at6 (x0 : Vec Ideal S2000x256 .f32) (x1 : Vec Ideal S256x256 .f32) (v10 : Vec Ideal S1x256 .f32) (q : Fin 256) :
    k6_pay3 x0 x1 v10 (ix2 0 q) = v10 (ix2 0 q) + ∑ r : Fin 2000, k6_pay2 x0 x1 (ix2 r q) := by
  unfold k6_pay3
  simp only [shapeCast_self]
  rw [addf_apply, rowcast6_apply]
  exact congrArg (v10 (ix2 0 q) + ·) (colred6_apply _ _ _ q)

/-- The column-sum-of-squares payload at column `q`. -/
theorem pay4_at6 (x0 : Vec Ideal S2000x256 .f32) (x1 : Vec Ideal S256x256 .f32) (v17 : Vec Ideal S1x256 .f32) (q : Fin 256) :
    k6_pay4 x0 x1 v17 (ix2 0 q) = v17 (ix2 0 q) + ∑ r : Fin 2000, k6_pay2 x0 x1 (ix2 r q) * k6_pay2 x0 x1 (ix2 r q) := by
  unfold k6_pay4
  simp only [shapeCast_self]
  rw [addf_apply, rowcast6_apply]
  refine congrArg (v17 (ix2 0 q) + ·) ((colred6_apply _ _ _ q).trans ?_)
  rfl

/-- The zero payload at any entry. -/
theorem pay1_at6 (y : S2x256.Idx) : k6_pay1 (F := Ideal) y = 0 := by
  unfold k6_pay1
  simp only [shapeCast_self]
  exact Ideal.ofBits_zero_f32

/-! ## The two rows of the 2 × 256 scratch -/

/-- Row 0 and row 1 of the scratch as rectangles. -/
abbrev s6rowA : Rect S2x256 := Rect.unit (s := S2x256) ![0, 0] S1x256.size inb_S2x256_S1x256_0_0
abbrev s6rowB : Rect S2x256 := Rect.unit (s := S2x256) ![1, 0] S1x256.size inb_S2x256_S1x256_1_0
/-- The whole scratch as a rectangle. -/
abbrev s6whole : Rect S2x256 := Rect.unit (s := S2x256) ![0, 0] S2x256.size inb_S2x256_S2x256_0_0

theorem s6rowA_emb (q : Fin 256) : s6rowA.emb (ix2 (0 : Fin 1) q : S1x256.Idx) = ix2 0 q := by
  funext a; apply Fin.ext
  match a with
  | ⟨0, _⟩ => rfl
  | ⟨1, _⟩ => show 0 + 1 * q.val = q.val; omega

theorem s6rowB_emb (q : Fin 256) : s6rowB.emb (ix2 (0 : Fin 1) q : S1x256.Idx) = ix2 1 q := by
  funext a; apply Fin.ext
  match a with
  | ⟨0, _⟩ => rfl
  | ⟨1, _⟩ => show 0 + 1 * q.val = q.val; omega

theorem not_mem_s6rowB (q : Fin 256) : (ix2 (0 : Fin 2) q : S2x256.Idx) ∉ s6rowB.set := by
  rw [Rect.mem_set_unit]
  intro h
  have h1 : (1 : Nat) ≤ 0 := (h 0).1
  omega

theorem not_mem_s6rowA (q : Fin 256) : (ix2 (1 : Fin 2) q : S2x256.Idx) ∉ s6rowA.set := by
  rw [Rect.mem_set_unit]
  intro h
  have h1 : (1 : Nat) < 0 + 1 := (h 0).2
  omega

section Canon
variable {Val : EltTy → Type} [∀ e, Nonempty (Val e)]

/-- A last store to row 1 leaves its payload in row 1, -/
theorem canon_s6rowB (w : S1x256.Idx → Val .f32) (L : List (View.Piece Val S2x256 .f32)) (q : Fin 256) :
    View.canon ((⟨s6rowB, w⟩ : View.Piece Val S2x256 .f32) :: L) (ix2 1 q) = w (ix2 0 q) := by
  have e := View.canon_cons_emb (Val := Val) s6rowB w L (ix2 (0 : Fin 1) q : S1x256.Idx)
  rwa [s6rowB_emb] at e

/-- and row 0 as the earlier stores left it. -/
theorem canon_s6rowB_row0 (w : S1x256.Idx → Val .f32) (L : List (View.Piece Val S2x256 .f32)) (q : Fin 256) :
    View.canon ((⟨s6rowB, w⟩ : View.Piece Val S2x256 .f32) :: L) (ix2 0 q) = View.canon L (ix2 0 q) :=
  View.canon_cons_of_not_mem _ L (not_mem_s6rowB q)

/-- A last store to row 0 leaves its payload in row 0, -/
theorem canon_s6rowA (w : S1x256.Idx → Val .f32) (L : List (View.Piece Val S2x256 .f32)) (q : Fin 256) :
    View.canon ((⟨s6rowA, w⟩ : View.Piece Val S2x256 .f32) :: L) (ix2 0 q) = w (ix2 0 q) := by
  have e := View.canon_cons_emb (Val := Val) s6rowA w L (ix2 (0 : Fin 1) q : S1x256.Idx)
  rwa [s6rowA_emb] at e

/-- and row 1 as the earlier stores left it. -/
theorem canon_s6rowA_row1 (w : S1x256.Idx → Val .f32) (L : List (View.Piece Val S2x256 .f32)) (q : Fin 256) :
    View.canon ((⟨s6rowA, w⟩ : View.Piece Val S2x256 .f32) :: L) (ix2 1 q) = View.canon L (ix2 1 q) :=
  View.canon_cons_of_not_mem _ L (not_mem_s6rowA q)

/-- A last store of the whole scratch leaves its payload. -/
theorem canon_s6whole (w : S2x256.Idx → Val .f32) (L : List (View.Piece Val S2x256 .f32)) :
    View.canon ((⟨s6whole, w⟩ : View.Piece Val S2x256 .f32) :: L) = w :=
  View.canon_cons_unit_zero (S := S2x256) hz6 inb_S2x256_S2x256_0_0 w L

end Canon

/-- The column-sum payload at column `q`, the row read before it named. -/
theorem pay3_at6_of (x0 : Vec Ideal S2000x256 .f32) (x1 : Vec Ideal S256x256 .f32) (v10 : Vec Ideal S1x256 .f32) (q : Fin 256)
    (z : EReal) (hz : v10 (ix2 0 q) = z) :
    k6_pay3 x0 x1 v10 (ix2 0 q) = z + ∑ r : Fin 2000, k6_pay2 x0 x1 (ix2 r q) := by
  rw [pay3_at6, hz]

/-- The column-sum-of-squares payload at column `q`, the row read before it named. -/
theorem pay4_at6_of (x0 : Vec Ideal S2000x256 .f32) (x1 : Vec Ideal S256x256 .f32) (v17 : Vec Ideal S1x256 .f32) (q : Fin 256)
    (z : EReal) (hz : v17 (ix2 0 q) = z) :
    k6_pay4 x0 x1 v17 (ix2 0 q) = z + ∑ r : Fin 2000, k6_pay2 x0 x1 (ix2 r q) * k6_pay2 x0 x1 (ix2 r q) := by
  rw [pay4_at6, hz]

/-- After the zeroing store alone, row 0 reads zero; -/
theorem zero6_rowA (q : Fin 256) :
    View.canon [(⟨s6whole, k6_pay1 (F := Ideal)⟩ : View.Piece (Elt Ideal) S2x256 .f32)] (s6rowA.emb (ix2 (0 : Fin 1) q : S1x256.Idx)) = 0 := by
  rw [canon_s6whole]; exact pay1_at6 _

/-- after the zeroing store and a store to row 0, row 1 still reads zero. -/
theorem zero6_rowB (w0 : S1x256.Idx → Elt Ideal .f32) (q : Fin 256) :
    View.canon ((⟨s6rowA, w0⟩ : View.Piece (Elt Ideal) S2x256 .f32) :: [(⟨s6whole, k6_pay1 (F := Ideal)⟩ : View.Piece (Elt Ideal) S2x256 .f32)])
      (s6rowB.emb (ix2 (0 : Fin 1) q : S1x256.Idx)) = 0 := by
  rw [s6rowB_emb, canon_s6rowA_row1, canon_s6whole]; exact pay1_at6 _

/-! ## What each case of the body leaves, as values -/

section Pieces
variable {F : FTy → Type} [FloatOps F]

/-- At the first point the product window is left at the block product. -/
theorem out6_A_2_eq (c : Dev nD) (i : grid6.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond6 i)
    (x0 : Vec F S2000x256 .f32) (x1 : Vec F S256x256 .f32) :
    out6_A_2 c i a1 h1 a2 h2 a3 h3 a4 h4 a5 h5 hc x0 x1 = k6_pay2 x0 x1 := by
  unfold out6_A_2
  rw [View.read_writes_eq_canon _ _ _ (cover6_A_2 c i a1 h1 a2 h2 a3 h3 a4 h4 a5 h5 hc x0 x1)]
  unfold kernelRun6_A
  dsimp only
  sl_unfold_words
  rw [View.canon_unit_zero hz6]
  simp only [View.readAt_eq_ld, h1.read_unread, h2.read_unread, View.ld_unit_zero (S := S2000x256) hz6, View.ld_unit_zero (S := S256x256) hz6]

/-- At a later point likewise. -/
theorem out6_B_2_eq (c : Dev nD) (i : grid6.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond6 i)
    (x0 : Vec F S2000x256 .f32) (x1 : Vec F S256x256 .f32) (xs0 : Vec F S2x256 .f32) :
    out6_B_2 c i a1 h1 a2 h2 a3 h3 a4 h4 a5 h5 hc x0 x1 xs0 = k6_pay2 x0 x1 := by
  unfold out6_B_2
  rw [View.read_writes_eq_canon _ _ _ (cover6_B_2 c i a1 h1 a2 h2 a3 h3 a4 h4 a5 h5 hc x0 x1 xs0)]
  unfold kernelRun6_B
  dsimp only
  sl_unfold_words
  rw [View.canon_unit_zero hz6]
  simp only [View.readAt_eq_ld, h1.read_unread, h2.read_unread, View.ld_unit_zero (S := S2000x256) hz6, View.ld_unit_zero (S := S256x256) hz6]

/-- The statistics window is left at what the scratch holds (the body's last store copies the whole scratch). -/
theorem out6_A_3_eq (c : Dev nD) (i : grid6.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond6 i)
    (x0 : Vec F S2000x256 .f32) (x1 : Vec F S256x256 .f32) :
    out6_A_3 c i a1 h1 a2 h2 a3 h3 a4 h4 a5 h5 hc x0 x1 = sout6_A c i a1 h1 a2 h2 a3 h3 a4 h4 a5 h5 hc x0 x1 := by
  unfold out6_A_3 sout6_A
  rw [View.read_writes_eq_canon _ _ _ (cover6_A_3 c i a1 h1 a2 h2 a3 h3 a4 h4 a5 h5 hc x0 x1),
    View.read_writes_eq_canon _ _ _ (scover6_A c i a1 h1 a2 h2 a3 h3 a4 h4 a5 h5 hc x0 x1)]
  unfold kernelRun6_A
  dsimp only
  sl_unfold_words
  rw [View.canon_unit_zero hz6, View.readCov_eq_canon']
  exact View.ld_unit_zero (S := S2x256) hz6 inb_S2x256_S2x256_0_0 _

theorem out6_B_3_eq (c : Dev nD) (i : grid6.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond6 i)
    (x0 : Vec F S2000x256 .f32) (x1 : Vec F S256x256 .f32) (xs0 : Vec F S2x256 .f32) :
    out6_B_3 c i a1 h1 a2 h2 a3 h3 a4 h4 a5 h5 hc x0 x1 xs0 = sout6_B c i a1 h1 a2 h2 a3 h3 a4 h4 a5 h5 hc x0 x1 xs0 := by
  unfold out6_B_3 sout6_B
  rw [View.read_writes_eq_canon _ _ _ (cover6_B_3 c i a1 h1 a2 h2 a3 h3 a4 h4 a5 h5 hc x0 x1 xs0),
    View.read_writes_eq_canon _ _ _ (scover6_B c i a1 h1 a2 h2 a3 h3 a4 h4 a5 h5 hc x0 x1 xs0)]
  unfold kernelRun6_B
  dsimp only
  sl_unfold_words
  rw [View.canon_unit_zero hz6, View.readCov_eq_canon']
  exact View.ld_unit_zero (S := S2x256) hz6 inb_S2x256_S2x256_0_0 _

end Pieces

/-- At a later point the scratch's row 0 is left at what it held plus the column sums of the block product, -/
theorem sout6_B_row0 (c : Dev nD) (i : grid6.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond6 i)
    (x0 : Vec Ideal S2000x256 .f32) (x1 : Vec Ideal S256x256 .f32) (xs0 : Vec Ideal S2x256 .f32) (q : Fin 256) :
    sout6_B c i a1 h1 a2 h2 a3 h3 a4 h4 a5 h5 hc x0 x1 xs0 (ix2 0 q)
      = xs0 (ix2 0 q) + ∑ r : Fin 2000, k6_pay2 x0 x1 (ix2 r q) := by
  unfold sout6_B
  rw [View.read_writes_eq_canon _ _ _ (scover6_B c i a1 h1 a2 h2 a3 h3 a4 h4 a5 h5 hc x0 x1 xs0)]
  unfold kernelRun6_B
  dsimp only
  sl_unfold_words
  simp only [View.readAt_eq_ld, h1.read_unread, h2.read_unread, h5.read_unread, View.ld_unit_zero (S := S2000x256) hz6, View.ld_unit_zero (S := S256x256) hz6]
  refine (canon_s6rowB_row0 _ _ q).trans ((canon_s6rowA _ _ q).trans ((pay3_at6 x0 x1 _ q).trans ?_))
  show xs0 (s6rowA.emb (ix2 (0 : Fin 1) q : S1x256.Idx)) + _ = _
  rw [s6rowA_emb]

/-- and its row 1 at what it held plus the column sums of the squares. -/
theorem sout6_B_row1 (c : Dev nD) (i : grid6.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond6 i)
    (x0 : Vec Ideal S2000x256 .f32) (x1 : Vec Ideal S256x256 .f32) (xs0 : Vec Ideal S2x256 .f32) (q : Fin 256) :
    sout6_B c i a1 h1 a2 h2 a3 h3 a4 h4 a5 h5 hc x0 x1 xs0 (ix2 1 q)
      = xs0 (ix2 1 q) + ∑ r : Fin 2000, k6_pay2 x0 x1 (ix2 r q) * k6_pay2 x0 x1 (ix2 r q) := by
  unfold sout6_B
  rw [View.read_writes_eq_canon _ _ _ (scover6_B c i a1 h1 a2 h2 a3 h3 a4 h4 a5 h5 hc x0 x1 xs0)]
  unfold kernelRun6_B
  dsimp only
  sl_unfold_words
  simp only [View.readAt_eq_ld, h1.read_unread, h2.read_unread, h5.read_unread, View.ld_unit_zero (S := S2000x256) hz6, View.ld_unit_zero (S := S256x256) hz6]
  refine (canon_s6rowB _ _ q).trans ((pay4_at6 x0 x1 _ q).trans ?_)
  show xs0 (s6rowB.emb (ix2 (0 : Fin 1) q : S1x256.Idx)) + _ = _
  rw [s6rowB_emb]

/-- At the first point the scratch is zeroed first, so its row 0 is left at zero plus the column sums of the block product, -/
theorem sout6_A_row0 (c : Dev nD) (i : grid6.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond6 i)
    (x0 : Vec Ideal S2000x256 .f32) (x1 : Vec Ideal S256x256 .f32) (q : Fin 256) :
    sout6_A c i a1 h1 a2 h2 a3 h3 a4 h4 a5 h5 hc x0 x1 (ix2 0 q)
      = 0 + ∑ r : Fin 2000, k6_pay2 x0 x1 (ix2 r q) := by
  unfold sout6_A
  rw [View.read_writes_eq_canon _ _ _ (scover6_A c i a1 h1 a2 h2 a3 h3 a4 h4 a5 h5 hc x0 x1)]
  unfold kernelRun6_A
  dsimp only
  sl_unfold_words
  simp only [View.readAt_eq_ld, h1.read_unread, h2.read_unread, View.ld_unit_zero (S := S2000x256) hz6, View.ld_unit_zero (S := S256x256) hz6, View.readCov_eq_canon']
  refine (canon_s6rowB_row0 _ _ q).trans ((canon_s6rowA _ _ q).trans (pay3_at6_of x0 x1 _ q 0 ?_))
  exact zero6_rowA q

/-- and its row 1 at zero plus the column sums of the squares. -/
theorem sout6_A_row1 (c : Dev nD) (i : grid6.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond6 i)
    (x0 : Vec Ideal S2000x256 .f32) (x1 : Vec Ideal S256x256 .f32) (q : Fin 256) :
    sout6_A c i a1 h1 a2 h2 a3 h3 a4 h4 a5 h5 hc x0 x1 (ix2 1 q)
      = 0 + ∑ r : Fin 2000, k6_pay2 x0 x1 (ix2 r q) * k6_pay2 x0 x1 (ix2 r q) := by
  unfold sout6_A
  rw [View.read_writes_eq_canon _ _ _ (scover6_A c i a1 h1 a2 h2 a3 h3 a4 h4 a5 h5 hc x0 x1)]
  unfold kernelRun6_A
  dsimp only
  sl_unfold_words
  simp only [View.readAt_eq_ld, h1.read_unread, h2.read_unread, View.ld_unit_zero (S := S2000x256) hz6, View.ld_unit_zero (S := S256x256) hz6, View.readCov_eq_canon']
  refine (canon_s6rowB _ _ q).trans (pay4_at6_of x0 x1 _ q 0 ?_)
  exact zero6_rowB _ q

/-! ## The arrays and blocks of region 6 -/

variable (V : (c : Dev nD) → (b : Ref sig .tc) → Buf (Elt Ideal) ((c : Thread nD τ).loc b))

/-- The input and the weights as the region finds them, at their literal types. -/
abbrev xarr6 (c : Dev nD) : Arr 50000 256 := V c (Pipeline.arrRef spec6 0)
abbrev warr6 (c : Dev nD) : Arr 256 256 := V c (Pipeline.arrRef spec6 1)
/-- The block of 2000 rows of the input, and the (whole) block of the weights, that point `t` reads. -/
abbrev xblk6 (c : Dev nD) (t : Fin cfg6.N) : Vec Ideal S2000x256 .f32 := iblk6 V c 0 t
abbrev wblk6 (c : Dev nD) (t : Fin cfg6.N) : Vec Ideal S256x256 .f32 := iblk6 V c 1 t

theorem hN6 : cfg6.N = 25 := N_6

/-- The windows' block indices over the grid: the input's and the product's block at point `t` is block `t` of
    rows, all columns; the weights and the statistics are one block throughout. -/
theorem idx_facts6 : ∀ t : Fin cfg6.N,
      win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0 :=
  (by decide +kernel : ∀ t : Fin grid6.N, _)

/-- Entry `(p, k)` of the input's block at point `t` is entry `(2000 t + p, k)` of the input. -/
theorem xblk6_at (c : Dev nD) (t : Fin cfg6.N) (p : Fin 2000) (k : Fin 256) (hR : 2000 * t.val + p.val < 50000) :
    xblk6 V c t (ix2 p k) = xarr6 V c (ix2 ⟨2000 * t.val + p.val, hR⟩ k) := by
  obtain ⟨e00, e01, e10, e11, e20, e21, e30, e31⟩ := idx_facts6 t
  show V c (Pipeline.arrRef spec6 0) (((cfg6.win 0).blk t).view.emb (ix2 p k)) = V c (Pipeline.arrRef spec6 0) (ix2 ⟨2000 * t.val + p.val, hR⟩ k)
  refine congrArg _ ?_
  funext a; apply Fin.ext
  match a with
  | ⟨0, _⟩ => show win6_0.index t (0 : Fin 2) * 2000 + 1 * p.val = 2000 * t.val + p.val; omega
  | ⟨1, _⟩ => show win6_0.index t (1 : Fin 2) * 256 + 1 * k.val = k.val; omega

/-- The weights' block is the whole weights, at every point. -/
theorem wblk6_at (c : Dev nD) (t : Fin cfg6.N) (k : Fin 256) (q : Fin 256) :
    wblk6 V c t (ix2 k q) = warr6 V c (ix2 k q) := by
  obtain ⟨e00, e01, e10, e11, e20, e21, e30, e31⟩ := idx_facts6 t
  show V c (Pipeline.arrRef spec6 1) (((cfg6.win 1).blk t).view.emb (ix2 k q)) = V c (Pipeline.arrRef spec6 1) (ix2 k q)
  refine congrArg _ ?_
  funext a; apply Fin.ext
  match a with
  | ⟨0, _⟩ => show win6_1.index t (0 : Fin 2) * 256 + 1 * k.val = k.val; omega
  | ⟨1, _⟩ => show win6_1.index t (1 : Fin 2) * 256 + 1 * q.val = q.val; omega

/-- The block product at point `t`, entry `(p, q)`, is entry `(2000 t + p, q)` of the product of the arrays. -/
theorem blkprod6 (c : Dev nD) (t : Fin cfg6.N) (p : Fin 2000) (q : Fin 256) (hR : 2000 * t.val + p.val < 50000) :
    k6_pay2 (xblk6 V c t) (wblk6 V c t) (ix2 p q)
      = Cert.Spec.mm (xarr6 V c) (warr6 V c) (ix2 ⟨2000 * t.val + p.val, hR⟩ q) := by
  refine (pay2_at6 (xblk6 V c t) (wblk6 V c t) p q).trans ?_
  unfold Cert.Spec.mm
  refine Finset.sum_congr rfl fun k _ => ?_
  rw [xblk6_at V c t p k hR, wblk6_at V c t k q]

/-- The same with the entries given by their coordinates' values. -/
theorem prod_blk6 (c : Dev nD) (t : Fin cfg6.N) (j : S2000x256.Idx) (i : S50000x256.Idx)
    (h0 : (i 0).val = 2000 * t.val + (j 0).val) (h1 : (i 1).val = (j 1).val) :
    k6_pay2 (xblk6 V c t) (wblk6 V c t) j = Cert.Spec.mm (xarr6 V c) (warr6 V c) i := by
  have hi0 : (i 0).val < 50000 := (i 0).isLt
  have hR : 2000 * t.val + (j 0).val < 50000 := by omega
  have hi : i = ix2 ⟨2000 * t.val + (j 0).val, hR⟩ (j 1) := funext fun a => Fin.ext (by
    match a with
    | ⟨0, _⟩ => exact h0
    | ⟨1, _⟩ => exact h1)
  calc k6_pay2 (xblk6 V c t) (wblk6 V c t) j
      = k6_pay2 (xblk6 V c t) (wblk6 V c t) (ix2 (j 0) (j 1)) := congrArg _ (eq_ix2 j)
    _ = Cert.Spec.mm (xarr6 V c) (warr6 V c) (ix2 ⟨2000 * t.val + (j 0).val, hR⟩ (j 1)) := blkprod6 V c t (j 0) (j 1) hR
    _ = Cert.Spec.mm (xarr6 V c) (warr6 V c) i := congrArg _ hi.symm

/-! ## What the outputs and the scratch hold after each point, as values -/

/-- After every point the product window's staging buffer holds the point's block product. -/
theorem outs_prod6 (c : Dev nD) (t : Fin cfg6.N) :
    (outsAt6 V c t.val t.isLt).1 = k6_pay2 (xblk6 V c t) (wblk6 V c t) := by
  by_cases h0 : t.val = 0
  · rw [outsAt6_A V c t h0]
    dsimp only
    exact out6_A_2_eq (F := Ideal) c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t)
  · rw [outsAt6_B V c t h0]
    dsimp only
    exact out6_B_2_eq (F := Ideal) c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2

/-- After every point the statistics window's staging buffer holds what the scratch holds. -/
theorem outs_stats6 (c : Dev nD) (t : Fin cfg6.N) :
    (outsAt6 V c t.val t.isLt).2.1 = (outsAt6 V c t.val t.isLt).2.2 := by
  by_cases h0 : t.val = 0
  · rw [outsAt6_A V c t h0]
    dsimp only
    exact out6_A_3_eq (F := Ideal) c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t)
  · rw [outsAt6_B V c t h0]
    dsimp only
    exact out6_B_3_eq (F := Ideal) c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2

/-- The column sums, and column sums of squares, of the block product at point `t`. -/
def bsum6 (c : Dev nD) (q : Fin 256) (t : Fin cfg6.N) : EReal :=
  ∑ r : Fin 2000, k6_pay2 (xblk6 V c t) (wblk6 V c t) (ix2 r q)
def bsumsq6 (c : Dev nD) (q : Fin 256) (t : Fin cfg6.N) : EReal :=
  ∑ r : Fin 2000, k6_pay2 (xblk6 V c t) (wblk6 V c t) (ix2 r q) * k6_pay2 (xblk6 V c t) (wblk6 V c t) (ix2 r q)

/-- After the first point the scratch holds zero plus the first block's sums. -/
theorem scr_first6 (c : Dev nD) (t : Fin cfg6.N) (h0 : t.val = 0) (q : Fin 256) :
    (outsAt6 V c t.val t.isLt).2.2 (ix2 0 q) = 0 + bsum6 V c q t
      ∧ (outsAt6 V c t.val t.isLt).2.2 (ix2 1 q) = 0 + bsumsq6 V c q t := by
  rw [outsAt6_A V c t h0]
  dsimp only
  exact ⟨sout6_A_row0 c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t) q,
    sout6_A_row1 c (grid6.coords t) (ms6_0 t) (hs6_0 t) (ms6_1 t) (hs6_1 t) (ms6_2 t) (hs6_2 t) (ms6_3 t) (hs6_3 t) scM6 (Memref.isWhole_whole _) ((hcond6 t).mpr h0) (iblk6 V c 0 t) (iblk6 V c 1 t) q⟩

/-- After a later point it holds what it held after the point before plus the point's block's sums. -/
theorem scr_step6 (c : Dev nD) (t : Fin cfg6.N) (h0 : ¬t.val = 0) (q : Fin 256) :
    (outsAt6 V c t.val t.isLt).2.2 (ix2 0 q)
        = (outsAt6 V c (t.val - 1) (Nat.lt_of_le_of_lt (Nat.sub_le _ _) t.isLt)).2.2 (ix2 0 q) + bsum6 V c q t
      ∧ (outsAt6 V c t.val t.isLt).2.2 (ix2 1 q)
        = (outsAt6 V c (t.val - 1) (Nat.lt_of_le_of_lt (Nat.sub_le _ _) t.isLt)).2.2 (ix2 1 q) + bsumsq6 V c q t := by
  rw [outsAt6_B V c t h0]
  dsimp only
  exact ⟨sout6_B_row0 c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2 q,
    sout6_B_row1 c (grid6.coords t) (ms6_0 t) (hs6_0 t) (ms6_1 t) (hs6_1 t) (ms6_2 t) (hs6_2 t) (ms6_3 t) (hs6_3 t) scM6 (Memref.isWhole_whole _) (fun h => h0 ((hcond6 t).mp h)) (iblk6 V c 0 t) (iblk6 V c 1 t) (outsAt6 V c (t.val - 1) (Nat.lt_of_le_of_lt (Nat.sub_le _ _) t.isLt)).2.2 q⟩

/-! ## The accumulation over the 25 points -/

/-- Point `n` of the grid. -/
abbrev pt6 (n : Fin (24 + 1)) : Fin cfg6.N := ⟨n.val, by rw [hN6]; exact n.isLt⟩

/-- What the scratch holds after the last point. -/
def stats6 (c : Dev nD) : Arr 2 256 := (outsAt6 V c 24 (by rw [hN6]; decide)).2.2

/-- The scratch's row 0 after the last point is the sum over the points of the blocks' column sums, -/
theorem stats6_row0 (c : Dev nD) (q : Fin 256) : stats6 V c (ix2 0 q) = ∑ t : Fin (24 + 1), bsum6 V c q (pt6 t) :=
  Cert.Lib.BlockSum.acc_eq_sum_fin 24 (fun t => bsum6 V c q (pt6 t))
    (fun t => (outsAt6 V c t.val (pt6 t).isLt).2.2 (ix2 0 q))
    ((scr_first6 V c (pt6 0) rfl q).1)
    (fun n h => (scr_step6 V c (pt6 ⟨n + 1, h⟩) (Nat.succ_ne_zero n) q).1)

/-- and its row 1 the sum over the points of the blocks' column sums of squares. -/
theorem stats6_row1 (c : Dev nD) (q : Fin 256) : stats6 V c (ix2 1 q) = ∑ t : Fin (24 + 1), bsumsq6 V c q (pt6 t) :=
  Cert.Lib.BlockSum.acc_eq_sum_fin 24 (fun t => bsumsq6 V c q (pt6 t))
    (fun t => (outsAt6 V c t.val (pt6 t).isLt).2.2 (ix2 1 q))
    ((scr_first6 V c (pt6 0) rfl q).2)
    (fun n h => (scr_step6 V c (pt6 ⟨n + 1, h⟩) (Nat.succ_ne_zero n) q).2)

/-- The sums over the 25 blocks of 2000 rows are the sums over the 50000 rows: row 0 holds the column sums of the
    product of the arrays, -/
theorem stats6_colsum (c : Dev nD) (q : Fin 256) :
    stats6 V c (ix2 0 q) = Cert.Spec.colsum (Cert.Spec.mm (xarr6 V c) (warr6 V c)) q := by
  rw [stats6_row0]
  unfold Cert.Spec.colsum
  rw [← Cert.Lib.BlockSum.sum_blocks_50000 (fun r : Fin 50000 => Cert.Spec.mm (xarr6 V c) (warr6 V c) (ix2 r q))]
  refine Finset.sum_congr rfl fun t _ => ?_
  unfold bsum6
  refine Finset.sum_congr rfl fun y _ => ?_
  exact blkprod6 V c (pt6 t) y q _

/-- and row 1 the column sums of its squares. -/
theorem stats6_colsumsq (c : Dev nD) (q : Fin 256) :
    stats6 V c (ix2 1 q) = Cert.Spec.colsumsq (Cert.Spec.mm (xarr6 V c) (warr6 V c)) q := by
  rw [stats6_row1]
  unfold Cert.Spec.colsumsq
  rw [← Cert.Lib.BlockSum.sum_blocks_50000 (fun r : Fin 50000 =>
    Cert.Spec.mm (xarr6 V c) (warr6 V c) (ix2 r q) * Cert.Spec.mm (xarr6 V c) (warr6 V c) (ix2 r q))]
  refine Finset.sum_congr rfl fun t _ => ?_
  unfold bsumsq6
  refine Finset.sum_congr rfl fun y _ => ?_
  rw [blkprod6 V c (pt6 t) y q (by have := t.isLt; have := y.isLt; show 2000 * t.val + y.val < 50000; omega)]

/-! ## From blocks to the arrays -/

/-- What point `t` writes back of the product window is block `t` of the product of the arrays. -/
theorem flushed6_2_eq (c : Dev nD) (t : Fin cfg6.N) :
    (dat6 V c).flushed 2 t = ((cfg6.win 2).blk t).view.read (Elt Ideal) (Cert.Spec.mm (xarr6 V c) (warr6 V c)) := by
  show (cfg6.win 2).cut (grid6.coords t) ((dat6 V c).after 2 t) = _
  rw [after6_2, outs_prod6 V c t]
  obtain ⟨e00, e01, e10, e11, e20, e21, e30, e31⟩ := idx_facts6 t
  funext j
  exact prod_blk6 V c t j (((cfg6.win 2).blk t).view.emb j)
    (by show win6_2.index t (0 : Fin 2) * 2000 + 1 * (j 0).val = 2000 * t.val + (j 0).val; omega)
    (by show win6_2.index t (1 : Fin 2) * 256 + 1 * (j 1).val = (j 1).val; omega)

/-- An index of the product array is in point `t`'s block iff its row is among the 2000 rows from `2000 t`. -/
theorem mem_blk6_2 (t : Fin cfg6.N) (i : S50000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v121_0).slice (win6_2.rect t)).set ↔ _
  rw [View.set_slice_whole, Rect.mem_set_unit]
  exact Iff.rfl

/-- Every entry of the product array is in some point's block: row `r` in that of point `r / 2000`. -/
theorem cover6_2 (i : S50000x256.Idx) :
    ∃ t : Fin cfg6.N, (cfg6.win 2).flush t = true ∧ i ∈ ((cfg6.win 2).blk t).view.set := by
  have hi0 : (i 0).val < 50000 := (i 0).isLt
  have hi1 : (i 1).val < 256 := (i 1).isLt
  have hN : (i 0).val / 2000 < cfg6.N := by rw [hN6]; omega
  refine ⟨⟨(i 0).val / 2000, hN⟩, flush6_2 _, ?_⟩
  obtain ⟨e00, e01, e10, e11, e20, e21, e30, e31⟩ := idx_facts6 ⟨(i 0).val / 2000, hN⟩
  rw [mem_blk6_2]
  intro a
  match a with
  | ⟨0, _⟩ =>
    show win6_2.index ⟨(i 0).val / 2000, hN⟩ (0 : Fin 2) * 2000 ≤ (i 0).val ∧ (i 0).val < win6_2.index ⟨(i 0).val / 2000, hN⟩ (0 : Fin 2) * 2000 + 2000
    rw [e20]; show (i 0).val / 2000 * 2000 ≤ (i 0).val ∧ (i 0).val < (i 0).val / 2000 * 2000 + 2000
    omega
  | ⟨1, _⟩ =>
    show win6_2.index ⟨(i 0).val / 2000, hN⟩ (1 : Fin 2) * 256 ≤ (i 1).val ∧ (i 1).val < win6_2.index ⟨(i 0).val / 2000, hN⟩ (1 : Fin 2) * 256 + 256
    rw [e21]; omega

/-- THE PRODUCT ARRAY after the region: the matrix product of the input by the weights, as the region finds them. -/
theorem val6_prod (c : Dev nD) :
    ((dat6 V c).arrAt 2 cfg6.N : Arr 50000 256) = Cert.Spec.mm (xarr6 V c) (warr6 V c) :=
  (dat6 V c).arrAt_eq_of_cover 2 _ (fun t _ => flushed6_2_eq V c t) cover6_2

/-- The contents after a point depend on the point's number only. -/
theorem outsAt6_congr (c : Dev nD) {n m : ℕ} (e : n = m) (hn : n < cfg6.N) (hm : m < cfg6.N) :
    outsAt6 V c n hn = outsAt6 V c m hm := by
  subst e; rfl

/-- At the last point the scratch holds `stats6`. -/
theorem scr_last6 (c : Dev nD) (t : Fin cfg6.N) (h24 : t.val = 24) : (outsAt6 V c t.val t.isLt).2.2 = stats6 V c := by
  unfold stats6
  rw [outsAt6_congr V c h24 t.isLt (by rw [hN6]; decide)]

/-- The one write-back of the statistics window, at the last point, writes what the scratch holds then: its one block is
    the whole array. -/
theorem flushed6_3_eq (c : Dev nD) (t : Fin cfg6.N) (hf : (cfg6.win 3).flush t = true) :
    (dat6 V c).flushed 3 t = ((cfg6.win 3).blk t).view.read (Elt Ideal) (stats6 V c) := by
  have hN : cfg6.N = 25 := hN6
  have h24 : t.val = 24 := by have := (flush6_3 t).mp hf; have := t.isLt; omega
  obtain ⟨e00, e01, e10, e11, e20, e21, e30, e31⟩ := idx_facts6 t
  show (cfg6.win 3).cut (grid6.coords t) ((dat6 V c).after 3 t) = _
  rw [after6_3, outs_stats6 V c t, scr_last6 V c t h24]
  funext j
  show stats6 V c j = stats6 V c (((cfg6.win 3).blk t).view.emb j)
  refine congrArg _ ?_
  funext a; apply Fin.ext
  match a with
  | ⟨0, _⟩ => show (j 0).val = win6_3.index t (0 : Fin 2) * 2 + 1 * (j 0).val; omega
  | ⟨1, _⟩ => show (j 1).val = win6_3.index t (1 : Fin 2) * 256 + 1 * (j 1).val; omega

/-- Every entry of the statistics array is in the last point's block. -/
theorem cover6_3 (i : S2x256.Idx) :
    ∃ t : Fin cfg6.N, (cfg6.win 3).flush t = true ∧ i ∈ ((cfg6.win 3).blk t).view.set := by
  have hi0 : (i 0).val < 2 := (i 0).isLt
  have hi1 : (i 1).val < 256 := (i 1).isLt
  have hN : 24 < cfg6.N := by rw [hN6]; decide
  refine ⟨⟨24, hN⟩, (flush6_3 _).mpr rfl, ?_⟩
  obtain ⟨e00, e01, e10, e11, e20, e21, e30, e31⟩ := idx_facts6 ⟨24, hN⟩
  show i ∈ ((View.whole main_v121_1).slice (win6_3.rect ⟨24, hN⟩)).set
  rw [View.set_slice_whole, Rect.mem_set_unit]
  intro a
  match a with
  | ⟨0, _⟩ =>
    show win6_3.index ⟨24, hN⟩ (0 : Fin 2) * 2 ≤ (i 0).val ∧ (i 0).val < win6_3.index ⟨24, hN⟩ (0 : Fin 2) * 2 + 2
    rw [e30]; omega
  | ⟨1, _⟩ =>
    show win6_3.index ⟨24, hN⟩ (1 : Fin 2) * 256 ≤ (i 1).val ∧ (i 1).val < win6_3.index ⟨24, hN⟩ (1 : Fin 2) * 256 + 256
    rw [e31]; omega

/-- The statistics array after the region is what the scratch holds after the last point. -/
theorem final6_3 (c : Dev nD) : ((dat6 V c).arrAt 3 cfg6.N : Arr 2 256) = stats6 V c :=
  (dat6 V c).arrAt_eq_of_cover 3 (stats6 V c) (flushed6_3_eq V c) cover6_3

/-- THE STATISTICS ARRAY after the region: row 0 the column sums, row 1 the column sums of squares, of the matrix
    product of the input by the weights. -/
theorem val6_stats (c : Dev nD) (j : Fin 256) :
    ((dat6 V c).arrAt 3 cfg6.N : Arr 2 256) (ix2 0 j) = Cert.Spec.colsum (Cert.Spec.mm (xarr6 V c) (warr6 V c)) j
      ∧ ((dat6 V c).arrAt 3 cfg6.N : Arr 2 256) (ix2 1 j) = Cert.Spec.colsumsq (Cert.Spec.mm (xarr6 V c) (warr6 V c)) j := by
  rw [final6_3]
  exact ⟨stats6_colsum V c j, stats6_colsumsq V c j⟩

end Cert.KernelIdeal.HandV

end
-- ==== Proof.KI.P7.lean ====
import proofs.«148047_j37898791420018_1_alg».proof.Proof.Gen.KernelIdeal.Skeleton
import proofs.«148047_j37898791420018_1_alg».proof.Proof.Spec
import proofs.«148047_j37898791420018_1_alg».proof.Proof.KI.P1
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.HandV

open Cert.KernelIdeal Cert.KernelIdeal.Gen
open Idealize.ShloMosaic Idealize.ShloMosaic.ValueIdx

/-! ## Region 7's payloads at an index -/

/-- The normalised, rectified entry the product's left operand holds at (y, k). -/
def act7 (v3 : Vec Ideal S2000x256 .f32) (v5 v7 v9 v11 : Vec Ideal S1x256 .f32) (y : Fin 2000) (k : Fin 256) : EReal :=
  max ((v3 (ix2 y k) - v5 (ix2 0 k)) * Ideal.rsqrt (v7 (ix2 0 k) + Cert.Spec.eps) * v9 (ix2 0 k) + v11 (ix2 0 k)) 0

/-- The product block at (y, q): the sum over k of the activation at (y, k) times the weight at (k, q). -/
theorem k7_pay4_apply (v3 : Vec Ideal S2000x256 .f32) (v5 v7 v9 v11 : Vec Ideal S1x256 .f32) (v27 : Vec Ideal S256x256 .f32)
    (y : Fin 2000) (q : Fin 256) :
    k7_pay4 v3 v5 v7 v9 v11 v27 (ix2 y q) = ∑ k : Fin 256, act7 v3 v5 v7 v9 v11 y k * v27 (ix2 k q) := by
  unfold k7_pay4
  refine (mm1_apply _ _ y q).trans ?_
  refine Finset.sum_congr rfl fun k _ => ?_
  simp only [shapeCast_self]
  show max (((v3 (ix2 y k) - broadcastTo S2000x256 v5 broadcasts_S1x256_S2000x256 (ix2 y k))
      * broadcastTo S2000x256 (rsqrt (addf v7 (broadcast S1x256 (Scalar.ofBits .f32 0x3727C5AC#32 : Ideal .f32))) : FVec Ideal S1x256 .f32) broadcasts_S1x256_S2000x256 (ix2 y k))
      * broadcastTo S2000x256 v9 broadcasts_S1x256_S2000x256 (ix2 y k)
      + broadcastTo S2000x256 v11 broadcasts_S1x256_S2000x256 (ix2 y k)) (Ideal.ofBits .f32 0x00000000#32) * v27 (ix2 k q) = _
  rw [bcast1_row_apply, bcast1_row_apply, bcast1_row_apply, bcast1_row_apply, Ideal.ofBits_zero_f32]
  rfl

/-- The block's column sums, as the body hands them on, at column j. -/
theorem k7_pay5_apply (v3 : Vec Ideal S2000x256 .f32) (v5 v7 v9 v11 : Vec Ideal S1x256 .f32) (v27 : Vec Ideal S256x256 .f32) (j : Fin 256) :
    k7_pay5 v3 v5 v7 v9 v11 v27 (ix2 0 j) = ∑ r : Fin 2000, k7_pay4 v3 v5 v7 v9 v11 v27 (ix2 r j) := by
  unfold k7_pay5
  exact colsum1_row_apply _ j

/-- The first row's update at column j: what the row held plus the block's column sum. -/
theorem k7_pay1_apply (v32 : Vec Ideal S1x256 .f32) (v34 : FVec Ideal S1x256 .f32) (j : Fin 256) :
    k7_pay1 v32 v34 (ix2 0 j) = v32 (ix2 0 j) + v34 (ix2 0 j) := by
  unfold k7_pay1
  simp only [shapeCast_self]
  rfl

/-- The second row's update at column j: what the row held plus the column sum of the block's squares. -/
theorem k7_pay2_apply (v30 : FVec Ideal S2000x256 .f32) (v39 : Vec Ideal S1x256 .f32) (j : Fin 256) :
    k7_pay2 v30 v39 (ix2 0 j) = v39 (ix2 0 j) + ∑ r : Fin 2000, v30 (ix2 r j) * v30 (ix2 r j) := by
  unfold k7_pay2
  simp only [shapeCast_self]
  exact congrArg (v39 (ix2 0 j) + ·) (colsum1_row_apply (mulf v30 v30) j)

/-- The zero fill at any entry. -/
theorem k7_pay3_apply (i : S2x256.Idx) : k7_pay3 (F := Ideal) i = 0 := by
  unfold k7_pay3
  simp only [shapeCast_self]
  exact Ideal.ofBits_zero_f32

end Cert.KernelIdeal.HandV

end
-- ==== Proof.KI.P7found.lean ====
import proofs.«148047_j37898791420018_1_alg».proof.Proof.KI.R7
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

/-! ## The two rows of the 2 × 256 accumulator -/

section Rows
variable {Val : EltTy → Type} [∀ e, Nonempty (Val e)]

theorem hz2_7 : (![0, 0] : Fin 2 → Nat) = fun _ => 0 := funext fun a => by fin_cases a <;> rfl

/-- Row 0 and row 1 of the accumulator, as the rectangles the body loads and stores through. -/
abbrev Rw7_0 : Rect S2x256 := Rect.unit (s := S2x256) ![0, 0] ![1, 256] inb_S2x256_S1x256_0_0
abbrev Rw7_1 : Rect S2x256 := Rect.unit (s := S2x256) ![1, 0] ![1, 256] inb_S2x256_S1x256_1_0

/-- Entry j of row 0 is entry (0, j) of the accumulator; entry j of row 1 is entry (1, j). -/
theorem Rw7_0_idx (j : Fin 256) : Rw7_0.toLoadRect.idx (ix2 0 j : S1x256.Idx) = (ix2 0 j : S2x256.Idx) := by
  funext a; apply Fin.ext
  match a with
  | ⟨0, _⟩ => rfl
  | ⟨1, _⟩ => show 0 + 1 * j.val = j.val; omega
theorem Rw7_1_idx (j : Fin 256) : Rw7_1.toLoadRect.idx (ix2 0 j : S1x256.Idx) = (ix2 1 j : S2x256.Idx) := by
  funext a; apply Fin.ext
  match a with
  | ⟨0, _⟩ => rfl
  | ⟨1, _⟩ => show 0 + 1 * j.val = j.val; omega

/-- An entry is in row 1 exactly when its row coordinate is 1, in row 0 exactly when it is 0. -/
theorem Rw7_1_mem (y : S2x256.Idx) : y ∈ Rw7_1.set ↔ (y 0).val = 1 := by
  rw [Rect.mem_set_unit]
  constructor
  · intro h
    have h0 := h 0
    have h1 : 1 ≤ (y 0).val := h0.1
    have h2 : (y 0).val < 1 + 1 := h0.2
    omega
  · intro h a
    match a with
    | ⟨0, _⟩ => exact ⟨show 1 ≤ (y 0).val by omega, show (y 0).val < 1 + 1 by omega⟩
    | ⟨1, _⟩ => exact ⟨Nat.zero_le _, show (y 1).val < 0 + 256 by have h256 : (y 1).val < 256 := (y 1).isLt; omega⟩
theorem Rw7_0_mem (y : S2x256.Idx) : y ∈ Rw7_0.set ↔ (y 0).val = 0 := by
  rw [Rect.mem_set_unit]
  constructor
  · intro h
    have h0 := h 0
    have h2 : (y 0).val < 0 + 1 := h0.2
    omega
  · intro h a
    match a with
    | ⟨0, _⟩ => exact ⟨Nat.zero_le _, show (y 0).val < 0 + 1 by omega⟩
    | ⟨1, _⟩ => exact ⟨Nat.zero_le _, show (y 1).val < 0 + 256 by have h256 : (y 1).val < 256 := (y 1).isLt; omega⟩

/-- Every entry of row 1 (as an entry of the accumulator) lies outside row 0. -/
theorem Rw7_1_idx_not_mem (x : Rw7_1.shape.Idx) : Rw7_1.toLoadRect.idx x ∉ Rw7_0.set := by
  rw [Rw7_0_mem]
  show ¬(1 + 1 * (x 0).val = 0)
  omega

/-- After a last store through row 1, entry (1, j) is that store's payload at j, -/
theorem canonRw7_1 (p1 : Rw7_1.shape.Idx → Val .f32) (L : List (View.Piece Val S2x256 .f32)) (j : Fin 256) :
    View.canon (⟨Rw7_1, p1⟩ :: L) (ix2 1 j) = p1 (ix2 0 j) := by
  have h := View.canon_cons_emb Rw7_1 p1 L (ix2 0 j)
  rw [show Rw7_1.emb (ix2 0 j) = (ix2 1 j : S2x256.Idx) from Rw7_1_idx j] at h
  exact h
/-- and entry (0, j) is what the stores before it left. -/
theorem canonRw7_1_at0 (p1 : Rw7_1.shape.Idx → Val .f32) (L : List (View.Piece Val S2x256 .f32)) (j : Fin 256) :
    View.canon (⟨Rw7_1, p1⟩ :: L) (ix2 0 j) = View.canon L (ix2 0 j) :=
  View.canon_cons_of_not_mem _ L (fun h => by
    have h' : (0 : ℕ) = 1 := (Rw7_1_mem (ix2 0 j)).mp h
    omega)
/-- After a last store through row 0, entry (0, j) is that store's payload at j. -/
theorem canonRw7_0 (p0 : Rw7_0.shape.Idx → Val .f32) (L : List (View.Piece Val S2x256 .f32)) (j : Fin 256) :
    View.canon (⟨Rw7_0, p0⟩ :: L) (ix2 0 j) = p0 (ix2 0 j) := by
  have h := View.canon_cons_emb Rw7_0 p0 L (ix2 0 j)
  rw [show Rw7_0.emb (ix2 0 j) = (ix2 0 j : S2x256.Idx) from Rw7_0_idx j] at h
  exact h

/-- Two last stores through row 1 and row 0 leave nothing of what was stored before them: every entry is in one
    of the two rows. -/
theorem canonRw7_two (p1 : Rw7_1.shape.Idx → Val .f32) (p0 : Rw7_0.shape.Idx → Val .f32) (L : List (View.Piece Val S2x256 .f32)) :
    View.canon (⟨Rw7_1, p1⟩ :: ⟨Rw7_0, p0⟩ :: L) = View.canon [⟨Rw7_1, p1⟩, ⟨Rw7_0, p0⟩] := by
  funext y
  by_cases h1 : y ∈ Rw7_1.set
  · obtain ⟨x, rfl⟩ := Rw7_1.exists_idx_of_mem h1
    exact (View.canon_cons_emb Rw7_1 p1 (⟨Rw7_0, p0⟩ :: L) x).trans (View.canon_cons_emb Rw7_1 p1 [⟨Rw7_0, p0⟩] x).symm
  · refine (View.canon_cons_of_not_mem (⟨Rw7_1, p1⟩ : View.Piece Val S2x256 .f32) (⟨Rw7_0, p0⟩ :: L) h1).trans ?_
    refine Eq.trans ?_ (View.canon_cons_of_not_mem (⟨Rw7_1, p1⟩ : View.Piece Val S2x256 .f32) [⟨Rw7_0, p0⟩] h1).symm
    have h0 : y ∈ Rw7_0.set := by
      rw [Rw7_0_mem]
      have hn : ¬(y 0).val = 1 := fun h => h1 ((Rw7_1_mem y).mpr h)
      have h2 : (y 0).val < 2 := (y 0).isLt
      omega
    obtain ⟨x, rfl⟩ := Rw7_0.exists_idx_of_mem h0
    exact (View.canon_cons_emb Rw7_0 p0 L x).trans (View.canon_cons_emb Rw7_0 p0 [] x).symm

/-- A load of row 0 after ONE whole store reads the payload's row 0. -/
theorem readCovRw7_0_whole {sig : RefSig} {κ : Kind} {sp : Space} (v : View sig κ sp S2x256 .f32)
    (inb : ∀ a, (![0, 0] : Fin 2 → Nat) a + S2x256.size a ≤ S2x256.size a) (w : S2x256.Idx → Val .f32) :
    v.readCov [(⟨Rect.unit ![0, 0] S2x256.size inb, w⟩ : View.Piece Val S2x256 .f32)] Rw7_0.toLoadRect = View.ld w Rw7_0 := by
  rw [View.readCov_eq_canon', View.canon_unit_zero (S := S2x256) hz2_7]
/-- A load of row 1 after a whole store and then a store through row 0 reads the whole store's payload's row 1. -/
theorem readCovRw7_1_whole {sig : RefSig} {κ : Kind} {sp : Space} (v : View sig κ sp S2x256 .f32)
    (inb : ∀ a, (![0, 0] : Fin 2 → Nat) a + S2x256.size a ≤ S2x256.size a) (w : S2x256.Idx → Val .f32)
    (p0 : Rw7_0.shape.Idx → Val .f32) :
    v.readCov [⟨Rw7_0, p0⟩, (⟨Rect.unit ![0, 0] S2x256.size inb, w⟩ : View.Piece Val S2x256 .f32)] Rw7_1.toLoadRect = View.ld w Rw7_1 := by
  rw [View.readCov_eq_canon']
  funext x
  rw [View.canon_cons_of_not_mem _ _ (Rw7_1_idx_not_mem x), View.canon_unit_zero (S := S2x256) hz2_7]

end Rows

variable {F : FTy → Type} [FloatOps F]

/-! ## One row block's step of the accumulator -/

/-- Row 0 and row 1 of accumulator contents `S`, as the one-row vectors the body loads. -/
abbrev accRow7_0 (S : Vec F S2x256 .f32) : Vec F S1x256 .f32 := View.ld S Rw7_0
abbrev accRow7_1 (S : Vec F S2x256 .f32) : Vec F S1x256 .f32 := View.ld S Rw7_1

theorem accRow7_0_apply (S : Vec F S2x256 .f32) (j : Fin 256) : accRow7_0 S (ix2 0 j) = S (ix2 0 j) :=
  congrArg S (Rw7_0_idx j)
theorem accRow7_1_apply (S : Vec F S2x256 .f32) (j : Fin 256) : accRow7_1 S (ix2 0 j) = S (ix2 1 j) :=
  congrArg S (Rw7_1_idx j)

/-- The accumulator after one row block with input blocks `x0 … x5`, entered at contents `S`: row 0 is `S`'s row 0
    plus the column sums of the block's product, row 1 is `S`'s row 1 plus the column sums of the product's squares. -/
def accStep7 (x0 : Vec F S2000x256 .f32) (x1 x2 x3 x4 : Vec F S1x256 .f32) (x5 : Vec F S256x256 .f32)
    (S : Vec F S2x256 .f32) : Vec F S2x256 .f32 :=
  View.canon [⟨Rw7_1, k7_pay2 (k7_pay4 x0 x1 x2 x3 x4 x5) (accRow7_1 S)⟩, ⟨Rw7_0, k7_pay1 (accRow7_0 S) (k7_pay5 x0 x1 x2 x3 x4 x5)⟩]

theorem accStep7_row0 (x0 : Vec F S2000x256 .f32) (x1 x2 x3 x4 : Vec F S1x256 .f32) (x5 : Vec F S256x256 .f32)
    (S : Vec F S2x256 .f32) (j : Fin 256) :
    accStep7 x0 x1 x2 x3 x4 x5 S (ix2 0 j) = k7_pay1 (accRow7_0 S) (k7_pay5 x0 x1 x2 x3 x4 x5) (ix2 0 j) := by
  unfold accStep7
  rw [canonRw7_1_at0, canonRw7_0]
theorem accStep7_row1 (x0 : Vec F S2000x256 .f32) (x1 x2 x3 x4 : Vec F S1x256 .f32) (x5 : Vec F S256x256 .f32)
    (S : Vec F S2x256 .f32) (j : Fin 256) :
    accStep7 x0 x1 x2 x3 x4 x5 S (ix2 1 j) = k7_pay2 (k7_pay4 x0 x1 x2 x3 x4 x5) (accRow7_1 S) (ix2 0 j) := by
  unfold accStep7
  rw [canonRw7_1]

/-! ## The found pieces as payloads -/

/-- The product window after either case: the block's product. -/
theorem out7_A_6_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) :
    out7_A_6 c i arg1 harg1 arg2 harg2 arg3 harg3 arg4 harg4 arg5 harg5 arg6 harg6 arg7 harg7 arg8 harg8 arg9 harg9 hc0 x0 x1 x2 x3 x4 x5 = k7_pay4 x0 x1 x2 x3 x4 x5 := by
  unfold out7_A_6
  rw [View.read_writes_junk_eq_canon]
  unfold kernelRun7_A; dsimp only; sl_unfold_words
  rw [View.canon_unit_zero hz2_7]
  simp only [View.readAt_eq_ld, harg1.read_unread, harg2.read_unread, harg3.read_unread, harg4.read_unread, harg5.read_unread, harg6.read_unread, View.ld_unit_zero (S := S2000x256) hz2_7, View.ld_unit_zero (S := S1x256) hz2_7, View.ld_unit_zero (S := S256x256) hz2_7]
theorem out7_B_6_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) :
    out7_B_6 c i arg1 harg1 arg2 harg2 arg3 harg3 arg4 harg4 arg5 harg5 arg6 harg6 arg7 harg7 arg8 harg8 arg9 harg9 hc0 x0 x1 x2 x3 x4 x5 xs0 = k7_pay4 x0 x1 x2 x3 x4 x5 := by
  unfold out7_B_6
  rw [View.read_writes_junk_eq_canon]
  unfold kernelRun7_B; dsimp only; sl_unfold_words
  rw [View.canon_unit_zero hz2_7]
  simp only [View.readAt_eq_ld, harg1.read_unread, harg2.read_unread, harg3.read_unread, harg4.read_unread, harg5.read_unread, harg6.read_unread, View.ld_unit_zero (S := S2000x256) hz2_7, View.ld_unit_zero (S := S1x256) hz2_7, View.ld_unit_zero (S := S256x256) hz2_7]

/-- The accumulator after the first row block: one step from the zero fill. -/
theorem sout7_A_0_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) :
    sout7_A_0 c i arg1 harg1 arg2 harg2 arg3 harg3 arg4 harg4 arg5 harg5 arg6 harg6 arg7 harg7 arg8 harg8 arg9 harg9 hc0 x0 x1 x2 x3 x4 x5 = accStep7 x0 x1 x2 x3 x4 x5 k7_pay3 := by
  unfold sout7_A_0
  rw [View.read_writes_junk_eq_canon]
  unfold kernelRun7_A; dsimp only; sl_unfold_words; dsimp only
  simp only [View.readAt_eq_ld, harg1.read_unread, harg2.read_unread, harg3.read_unread, harg4.read_unread, harg5.read_unread, harg6.read_unread, View.ld_unit_zero (S := S2000x256) hz2_7, View.ld_unit_zero (S := S1x256) hz2_7, View.ld_unit_zero (S := S256x256) hz2_7]
  rw [readCovRw7_0_whole, readCovRw7_1_whole, canonRw7_two]
  rfl

/-- The accumulator after a later row block: one step from what it was entered at. -/
theorem sout7_B_0_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) :
    sout7_B_0 c i arg1 harg1 arg2 harg2 arg3 harg3 arg4 harg4 arg5 harg5 arg6 harg6 arg7 harg7 arg8 harg8 arg9 harg9 hc0 x0 x1 x2 x3 x4 x5 xs0 = accStep7 x0 x1 x2 x3 x4 x5 xs0 := by
  unfold sout7_B_0
  rw [View.read_writes_junk_eq_canon]
  unfold kernelRun7_B; dsimp only; sl_unfold_words; dsimp only
  simp only [View.readAt_eq_ld, harg1.read_unread, harg2.read_unread, harg3.read_unread, harg4.read_unread, harg5.read_unread, harg6.read_unread, harg9.read_unread, View.ld_unit_zero (S := S2000x256) hz2_7, View.ld_unit_zero (S := S1x256) hz2_7, View.ld_unit_zero (S := S256x256) hz2_7]
  rfl

/-- The statistics window receives a copy of the accumulator. -/
theorem out7_A_7_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond7_0 i)
    (x0 : Vec F S2000x256 .f32) (x1 x2 x3 x4 : Vec F S1x256 .f32) (x5 : Vec F S256x256 .f32) :
    out7_A_7 c i arg1 harg1 arg2 harg2 arg3 harg3 arg4 harg4 arg5 harg5 arg6 harg6 arg7 harg7 arg8 harg8 arg9 harg9 hc0 x0 x1 x2 x3 x4 x5 = sout7_A_0 c i arg1 harg1 arg2 harg2 arg3 harg3 arg4 harg4 arg5 harg5 arg6 harg6 arg7 harg7 arg8 harg8 arg9 harg9 hc0 x0 x1 x2 x3 x4 x5 := by
  unfold out7_A_7 sout7_A_0
  rw [View.read_writes_junk_eq_canon, View.read_writes_junk_eq_canon]
  unfold kernelRun7_A; dsimp only; sl_unfold_words
  rw [View.canon_unit_zero hz2_7, View.readCov_eq_canon']
  exact View.ld_unit_zero (S := S2x256) hz2_7 _ _
theorem out7_B_7_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond7_0 i)
    (x0 : Vec F S2000x256 .f32) (x1 x2 x3 x4 : Vec F S1x256 .f32) (x5 : Vec F S256x256 .f32) (xs0 : Vec F S2x256 .f32) :
    out7_B_7 c i arg1 harg1 arg2 harg2 arg3 harg3 arg4 harg4 arg5 harg5 arg6 harg6 arg7 harg7 arg8 harg8 arg9 harg9 hc0 x0 x1 x2 x3 x4 x5 xs0 = sout7_B_0 c i arg1 harg1 arg2 harg2 arg3 harg3 arg4 harg4 arg5 harg5 arg6 harg6 arg7 harg7 arg8 harg8 arg9 harg9 hc0 x0 x1 x2 x3 x4 x5 xs0 := by
  unfold out7_B_7 sout7_B_0
  rw [View.read_writes_junk_eq_canon, View.read_writes_junk_eq_canon]
  unfold kernelRun7_B; dsimp only; sl_unfold_words
  rw [View.canon_unit_zero hz2_7, View.readCov_eq_canon']
  exact View.ld_unit_zero (S := S2x256) hz2_7 _ _

end Cert.KernelIdeal.HandV

end
-- ==== Proof.KI.V7.lean ====
import proofs.«148047_j37898791420018_1_alg».proof.Proof.KI.R7
import proofs.«148047_j37898791420018_1_alg».proof.Proof.KI.P7
import proofs.«148047_j37898791420018_1_alg».proof.Proof.KI.P7found
import proofs.«148047_j37898791420018_1_alg».proof.Proof.LibBlockSum
import proofs.«148047_j37898791420018_1_alg».proof.Proof.Spec
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

/-! # Region 7's value: the product array is the normalised, rectified activations times the weights, and the
    statistics array holds that product's column sums and column sums of squares -/

variable (V : (c : Dev nD) → (b : Ref sig .tc) → Buf (Elt Ideal) ((c : Thread nD τ).loc b))

/-! ## Region 7's arrays and blocks, at their literal types -/

/-- The six input arrays as the region finds them. -/
abbrev A7_0 (c : Dev nD) : Cert.Spec.Arr 50000 256 := V c (Pipeline.arrRef spec7 0)
abbrev A7_1 (c : Dev nD) : Cert.Spec.Arr 1 256 := V c (Pipeline.arrRef spec7 1)
abbrev A7_2 (c : Dev nD) : Cert.Spec.Arr 1 256 := V c (Pipeline.arrRef spec7 2)
abbrev A7_3 (c : Dev nD) : Cert.Spec.Arr 1 256 := V c (Pipeline.arrRef spec7 3)
abbrev A7_4 (c : Dev nD) : Cert.Spec.Arr 1 256 := V c (Pipeline.arrRef spec7 4)
abbrev A7_5 (c : Dev nD) : Cert.Spec.Arr 256 256 := V c (Pipeline.arrRef spec7 5)

/-- The blocks the body loads at point `t`. -/
abbrev xb7 (c : Dev nD) (t : Fin cfg7.N) : Vec Ideal S2000x256 .f32 := iblk7 V c 0 t
abbrev rb7_1 (c : Dev nD) (t : Fin cfg7.N) : Vec Ideal S1x256 .f32 := iblk7 V c 1 t
abbrev rb7_2 (c : Dev nD) (t : Fin cfg7.N) : Vec Ideal S1x256 .f32 := iblk7 V c 2 t
abbrev rb7_3 (c : Dev nD) (t : Fin cfg7.N) : Vec Ideal S1x256 .f32 := iblk7 V c 3 t
abbrev rb7_4 (c : Dev nD) (t : Fin cfg7.N) : Vec Ideal S1x256 .f32 := iblk7 V c 4 t
abbrev wb7 (c : Dev nD) (t : Fin cfg7.N) : Vec Ideal S256x256 .f32 := iblk7 V c 5 t

/-- The printed index maps, decided over the grid: the activations' and the product's blocks move down the rows with
    the point, every other window stays on its one block. -/
theorem idx7_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0
    ∧ win7_7.index t (0 : Fin 2) = 0 ∧ win7_7.index t (1 : Fin 2) = 0 :=
  (by decide +kernel : ∀ t : Fin grid7.N, _)

theorem lt7 (t : Fin cfg7.N) : t.val < 25 := lt_of_lt_of_eq t.isLt (show cfg7.N = 25 from N_7)

/-- Row `2000 · t + y` of the 50000, from the point and the row inside the block. -/
def rowAt7 (t : Fin cfg7.N) (y : Fin 2000) : Fin 50000 := ⟨2000 * t.val + y.val, by have := lt7 t; omega⟩

/-- The activations' block at point `t`, entry (y, k): the array's entry (2000 · t + y, k). -/
theorem xb7_apply (c : Dev nD) (t : Fin cfg7.N) (y : Fin 2000) (k : Fin 256) :
    xb7 V c t (ix2 y k) = A7_0 V c (ix2 (rowAt7 t y) k) := by
  obtain ⟨e0, e1, -⟩ := idx7_facts t
  show V c (Pipeline.arrRef spec7 0) (((cfg7.win 0).blk t).view.emb (ix2 y k)) = V c (Pipeline.arrRef spec7 0) (ix2 (rowAt7 t y) k)
  refine congrArg _ (funext fun a => Fin.ext ?_)
  match a with
  | ⟨0, _⟩ => show win7_0.index t (0 : Fin 2) * 2000 + 1 * y.val = 2000 * t.val + y.val; omega
  | ⟨1, _⟩ => show win7_0.index t (1 : Fin 2) * 256 + 1 * k.val = k.val; omega

/-- The five one-block windows' blocks are their whole arrays. -/
theorem rb7_1_eq (c : Dev nD) (t : Fin cfg7.N) : rb7_1 V c t = A7_1 V c := by
  obtain ⟨-, -, e1a, e1b, e2a, e2b, e3a, e3b, e4a, e4b, e5a, e5b, -⟩ := idx7_facts t
  funext y
  show V c (Pipeline.arrRef spec7 1) (((cfg7.win 1).blk t).view.emb y) = V c (Pipeline.arrRef spec7 1) y
  refine congrArg _ (funext fun a => Fin.ext ?_)
  match a with
  | ⟨0, _⟩ => show win7_1.index t (0 : Fin 2) * 1 + 1 * (y 0).val = (y 0).val; omega
  | ⟨1, _⟩ => show win7_1.index t (1 : Fin 2) * 256 + 1 * (y 1).val = (y 1).val; omega
theorem rb7_2_eq (c : Dev nD) (t : Fin cfg7.N) : rb7_2 V c t = A7_2 V c := by
  obtain ⟨-, -, e1a, e1b, e2a, e2b, e3a, e3b, e4a, e4b, e5a, e5b, -⟩ := idx7_facts t
  funext y
  show V c (Pipeline.arrRef spec7 2) (((cfg7.win 2).blk t).view.emb y) = V c (Pipeline.arrRef spec7 2) y
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 256 + 1 * (y 1).val = (y 1).val; omega
theorem rb7_3_eq (c : Dev nD) (t : Fin cfg7.N) : rb7_3 V c t = A7_3 V c := by
  obtain ⟨-, -, e1a, e1b, e2a, e2b, e3a, e3b, e4a, e4b, e5a, e5b, -⟩ := idx7_facts t
  funext y
  show V c (Pipeline.arrRef spec7 3) (((cfg7.win 3).blk t).view.emb y) = V c (Pipeline.arrRef spec7 3) y
  refine congrArg _ (funext fun a => Fin.ext ?_)
  match a with
  | ⟨0, _⟩ => show win7_3.index t (0 : Fin 2) * 1 + 1 * (y 0).val = (y 0).val; omega
  | ⟨1, _⟩ => show win7_3.index t (1 : Fin 2) * 256 + 1 * (y 1).val = (y 1).val; omega
theorem rb7_4_eq (c : Dev nD) (t : Fin cfg7.N) : rb7_4 V c t = A7_4 V c := by
  obtain ⟨-, -, e1a, e1b, e2a, e2b, e3a, e3b, e4a, e4b, e5a, e5b, -⟩ := idx7_facts t
  funext y
  show V c (Pipeline.arrRef spec7 4) (((cfg7.win 4).blk t).view.emb y) = V c (Pipeline.arrRef spec7 4) y
  refine congrArg _ (funext fun a => Fin.ext ?_)
  match a with
  | ⟨0, _⟩ => show win7_4.index t (0 : Fin 2) * 1 + 1 * (y 0).val = (y 0).val; omega
  | ⟨1, _⟩ => show win7_4.index t (1 : Fin 2) * 256 + 1 * (y 1).val = (y 1).val; omega
theorem wb7_eq (c : Dev nD) (t : Fin cfg7.N) : wb7 V c t = A7_5 V c := by
  obtain ⟨-, -, e1a, e1b, e2a, e2b, e3a, e3b, e4a, e4b, e5a, e5b, -⟩ := idx7_facts t
  funext y
  show V c (Pipeline.arrRef spec7 5) (((cfg7.win 5).blk t).view.emb y) = V c (Pipeline.arrRef spec7 5) y
  refine congrArg _ (funext fun a => Fin.ext ?_)
  match a with
  | ⟨0, _⟩ => show win7_5.index t (0 : Fin 2) * 256 + 1 * (y 0).val = (y 0).val; omega
  | ⟨1, _⟩ => show win7_5.index t (1 : Fin 2) * 256 + 1 * (y 1).val = (y 1).val; omega

/-- The normalised, rectified activations as one array. -/
def Y7 (c : Dev nD) : Cert.Spec.Arr 50000 256 :=
  Cert.Spec.bnrelu (A7_0 V c) (Cert.Spec.row (A7_1 V c) 0) (Cert.Spec.row (A7_2 V c) 0) (Cert.Spec.row (A7_3 V c) 0) (Cert.Spec.row (A7_4 V c) 0)

/-- The product block the body stores at point `t`. -/
abbrev m7 (c : Dev nD) (t : Fin cfg7.N) : Vec Ideal S2000x256 .f32 :=
  k7_pay4 (xb7 V c t) (rb7_1 V c t) (rb7_2 V c t) (rb7_3 V c t) (rb7_4 V c t) (wb7 V c t)

/-- It is block `t` of the product of the activations with the weights. -/
theorem m7_apply (c : Dev nD) (t : Fin cfg7.N) (y : Fin 2000) (q : Fin 256) :
    m7 V c t (ix2 y q) = Cert.Spec.mm (Y7 V c) (A7_5 V c) (ix2 (rowAt7 t y) q) := by
  refine (k7_pay4_apply _ _ _ _ _ _ y q).trans ?_
  rw [rb7_1_eq, rb7_2_eq, rb7_3_eq, rb7_4_eq, wb7_eq]
  unfold Cert.Spec.mm
  refine Finset.sum_congr rfl fun k _ => ?_
  unfold act7
  rw [xb7_apply]
  rfl

/-! ## The accumulator's step at the ideal values -/

/-- One step leaves in row 0, column j, what the row held plus the column sum of the block product, -/
theorem accStep7_val0 (x0 : Vec Ideal S2000x256 .f32) (x1 x2 x3 x4 : Vec Ideal S1x256 .f32) (x5 : Vec Ideal S256x256 .f32) (S : Vec Ideal S2x256 .f32) (j : Fin 256) :
    accStep7 x0 x1 x2 x3 x4 x5 S (ix2 0 j) = S (ix2 0 j) + ∑ r : Fin 2000, k7_pay4 x0 x1 x2 x3 x4 x5 (ix2 r j) := by
  refine (accStep7_row0 x0 x1 x2 x3 x4 x5 S j).trans ((k7_pay1_apply _ _ j).trans ?_)
  rw [accRow7_0_apply, k7_pay5_apply]
/-- and in row 1 what the row held plus the column sum of its squares. -/
theorem accStep7_val1 (x0 : Vec Ideal S2000x256 .f32) (x1 x2 x3 x4 : Vec Ideal S1x256 .f32) (x5 : Vec Ideal S256x256 .f32) (S : Vec Ideal S2x256 .f32) (j : Fin 256) :
    accStep7 x0 x1 x2 x3 x4 x5 S (ix2 1 j)
      = S (ix2 1 j) + ∑ r : Fin 2000, k7_pay4 x0 x1 x2 x3 x4 x5 (ix2 r j) * k7_pay4 x0 x1 x2 x3 x4 x5 (ix2 r j) := by
  refine (accStep7_row1 x0 x1 x2 x3 x4 x5 S j).trans ((k7_pay2_apply _ _ j).trans ?_)
  rw [accRow7_1_apply]

/-! ## What the outputs and the accumulator hold after each point, as values -/

/-- After every point the product window's staging buffer holds the point's block product. -/
theorem outs7_prod (c : Dev nD) (t : Fin cfg7.N) : (outsAt7 V c t.val t.isLt).1 = m7 V c t := by
  by_cases h0 : t.val % 25 = 0
  · rw [outsAt7_A V c t h0]
    dsimp only
    exact out7_A_6_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t)
  · rw [outsAt7_B V c t h0]
    dsimp only
    exact out7_B_6_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2

/-- After the first point the accumulator and the statistics window hold one step from the zero fill, -/
theorem outs7_first (c : Dev nD) (t : Fin cfg7.N) (h0 : t.val % 25 = 0) :
    (outsAt7 V c t.val t.isLt).2.1 = accStep7 (xb7 V c t) (rb7_1 V c t) (rb7_2 V c t) (rb7_3 V c t) (rb7_4 V c t) (wb7 V c t) (k7_pay3 (F := Ideal))
      ∧ (outsAt7 V c t.val t.isLt).2.2 = accStep7 (xb7 V c t) (rb7_1 V c t) (rb7_2 V c t) (rb7_3 V c t) (rb7_4 V c t) (wb7 V c t) (k7_pay3 (F := Ideal)) := by
  rw [outsAt7_A V c t h0]
  dsimp only
  exact ⟨(out7_A_7_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t)).trans
      (sout7_A_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t)),
    sout7_A_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (iblk7 V c 0 t) (iblk7 V c 1 t) (iblk7 V c 2 t) (iblk7 V c 3 t) (iblk7 V c 4 t) (iblk7 V c 5 t)⟩

/-- after a later point one step from what the point before left. -/
theorem outs7_later (c : Dev nD) (t : Fin cfg7.N) (h0 : ¬t.val % 25 = 0) :
    (outsAt7 V c t.val t.isLt).2.1 = accStep7 (xb7 V c t) (rb7_1 V c t) (rb7_2 V c t) (rb7_3 V c t) (rb7_4 V c t) (wb7 V c t) (outsAt7 V c (t.val - 1) (Nat.lt_of_le_of_lt (Nat.sub_le _ _) t.isLt)).2.2
      ∧ (outsAt7 V c t.val t.isLt).2.2 = accStep7 (xb7 V c t) (rb7_1 V c t) (rb7_2 V c t) (rb7_3 V c t) (rb7_4 V c t) (wb7 V c t) (outsAt7 V c (t.val - 1) (Nat.lt_of_le_of_lt (Nat.sub_le _ _) t.isLt)).2.2 := by
  rw [outsAt7_B V c t h0]
  dsimp only
  exact ⟨(out7_B_7_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2).trans
      (sout7_B_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2),
    sout7_B_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.2⟩

/-- After every point the statistics window's staging buffer holds what the accumulator holds. -/
theorem outs7_stats (c : Dev nD) (t : Fin cfg7.N) : (outsAt7 V c t.val t.isLt).2.1 = (outsAt7 V c t.val t.isLt).2.2 := by
  by_cases h0 : t.val % 25 = 0
  · exact (outs7_first V c t h0).1.trans (outs7_first V c t h0).2.symm
  · exact (outs7_later V c t h0).1.trans (outs7_later V c t h0).2.symm

/-- The column sums, and the column sums of squares, of the block product at point `t`. -/
def bsum7 (c : Dev nD) (j : Fin 256) (t : Fin cfg7.N) : EReal := ∑ r : Fin 2000, m7 V c t (ix2 r j)
def bsumsq7 (c : Dev nD) (j : Fin 256) (t : Fin cfg7.N) : EReal := ∑ r : Fin 2000, m7 V c t (ix2 r j) * m7 V c t (ix2 r j)

theorem acc7_first (c : Dev nD) (t : Fin cfg7.N) (h0 : t.val % 25 = 0) (j : Fin 256) :
    (outsAt7 V c t.val t.isLt).2.2 (ix2 0 j) = 0 + bsum7 V c j t
      ∧ (outsAt7 V c t.val t.isLt).2.2 (ix2 1 j) = 0 + bsumsq7 V c j t := by
  rw [(outs7_first V c t h0).2]
  constructor
  · refine (accStep7_val0 _ _ _ _ _ _ _ j).trans ?_
    rw [k7_pay3_apply]; rfl
  · refine (accStep7_val1 _ _ _ _ _ _ _ j).trans ?_
    rw [k7_pay3_apply]; rfl

theorem acc7_later (c : Dev nD) (t : Fin cfg7.N) (h0 : ¬t.val % 25 = 0) (j : Fin 256) :
    (outsAt7 V c t.val t.isLt).2.2 (ix2 0 j) = (outsAt7 V c (t.val - 1) (Nat.lt_of_le_of_lt (Nat.sub_le _ _) t.isLt)).2.2 (ix2 0 j) + bsum7 V c j t
      ∧ (outsAt7 V c t.val t.isLt).2.2 (ix2 1 j) = (outsAt7 V c (t.val - 1) (Nat.lt_of_le_of_lt (Nat.sub_le _ _) t.isLt)).2.2 (ix2 1 j) + bsumsq7 V c j t := by
  rw [(outs7_later V c t h0).2]
  exact ⟨accStep7_val0 _ _ _ _ _ _ _ j, accStep7_val1 _ _ _ _ _ _ _ j⟩

/-! ## The accumulation over the 25 points -/

theorem hN7 : cfg7.N = 25 := N_7

/-- Point `n` of the grid. -/
abbrev pt7 (n : Fin (24 + 1)) : Fin cfg7.N := ⟨n.val, by rw [hN7]; exact n.isLt⟩

/-- What the accumulator holds after the last point. -/
def stats7 (c : Dev nD) : Cert.Spec.Arr 2 256 := (outsAt7 V c 24 (by rw [hN7]; decide)).2.2

theorem stats7_row0 (c : Dev nD) (j : Fin 256) : stats7 V c (ix2 0 j) = ∑ t : Fin (24 + 1), bsum7 V c j (pt7 t) :=
  Cert.Lib.BlockSum.acc_eq_sum_fin 24 (fun t => bsum7 V c j (pt7 t))
    (fun t => (outsAt7 V c t.val (pt7 t).isLt).2.2 (ix2 0 j))
    ((acc7_first V c (pt7 0) rfl j).1)
    (fun n h => (acc7_later V c (pt7 ⟨n + 1, h⟩) (by show ¬(n + 1) % 25 = 0; omega) j).1)

theorem stats7_row1 (c : Dev nD) (j : Fin 256) : stats7 V c (ix2 1 j) = ∑ t : Fin (24 + 1), bsumsq7 V c j (pt7 t) :=
  Cert.Lib.BlockSum.acc_eq_sum_fin 24 (fun t => bsumsq7 V c j (pt7 t))
    (fun t => (outsAt7 V c t.val (pt7 t).isLt).2.2 (ix2 1 j))
    ((acc7_first V c (pt7 0) rfl j).2)
    (fun n h => (acc7_later V c (pt7 ⟨n + 1, h⟩) (by show ¬(n + 1) % 25 = 0; omega) j).2)

/-- The sums over the 25 blocks of 2000 rows are the sums over the 50000 rows. -/
theorem stats7_colsum (c : Dev nD) (j : Fin 256) :
    stats7 V c (ix2 0 j) = Cert.Spec.colsum (Cert.Spec.mm (Y7 V c) (A7_5 V c)) j := by
  rw [stats7_row0]
  unfold Cert.Spec.colsum
  rw [← Cert.Lib.BlockSum.sum_blocks_50000 (fun r : Fin 50000 => Cert.Spec.mm (Y7 V c) (A7_5 V c) (ix2 r j))]
  refine Finset.sum_congr rfl fun t _ => ?_
  unfold bsum7
  refine Finset.sum_congr rfl fun y _ => ?_
  exact m7_apply V c (pt7 t) y j

theorem stats7_colsumsq (c : Dev nD) (j : Fin 256) :
    stats7 V c (ix2 1 j) = Cert.Spec.colsumsq (Cert.Spec.mm (Y7 V c) (A7_5 V c)) j := by
  rw [stats7_row1]
  unfold Cert.Spec.colsumsq
  rw [← Cert.Lib.BlockSum.sum_blocks_50000 (fun r : Fin 50000 =>
    Cert.Spec.mm (Y7 V c) (A7_5 V c) (ix2 r j) * Cert.Spec.mm (Y7 V c) (A7_5 V c) (ix2 r j))]
  refine Finset.sum_congr rfl fun t _ => ?_
  unfold bsumsq7
  refine Finset.sum_congr rfl fun y _ => ?_
  rw [m7_apply V c (pt7 t) y j]
  rfl

/-! ## From blocks to the arrays -/

/-- The block product at point `t`, at an entry given by its coordinates' values. -/
theorem m7_at (c : Dev nD) (t : Fin cfg7.N) (j : S2000x256.Idx) (i : S50000x256.Idx)
    (h0 : (i 0).val = 2000 * t.val + (j 0).val) (h1 : (i 1).val = (j 1).val) :
    m7 V c t j = Cert.Spec.mm (Y7 V c) (A7_5 V c) i := by
  have hi : i = ix2 (rowAt7 t (j 0)) (j 1) := funext fun a => Fin.ext (by
    match a with
    | ⟨0, _⟩ => exact h0
    | ⟨1, _⟩ => exact h1)
  calc m7 V c t j = m7 V c t (ix2 (j 0) (j 1)) := congrArg _ (eq_ix2 j)
    _ = Cert.Spec.mm (Y7 V c) (A7_5 V c) (ix2 (rowAt7 t (j 0)) (j 1)) := m7_apply V c t (j 0) (j 1)
    _ = Cert.Spec.mm (Y7 V c) (A7_5 V c) i := congrArg _ hi.symm

/-- What point `t` writes back of the product window is block `t` of the product of the activations by the weights. -/
theorem flushed7_6_eq (c : Dev nD) (t : Fin cfg7.N) :
    (dat7 V c).flushed 6 t = ((cfg7.win 6).blk t).view.read (Elt Ideal) (Cert.Spec.mm (Y7 V c) (A7_5 V c)) := by
  show (cfg7.win 6).cut (grid7.coords t) ((dat7 V c).after 6 t) = _
  rw [after7_6, outs7_prod V c t]
  obtain ⟨-, -, -, -, -, -, -, -, -, -, -, -, e60, e61, -⟩ := idx7_facts t
  funext j
  exact m7_at V c t j (((cfg7.win 6).blk t).view.emb j)
    (by show win7_6.index t (0 : Fin 2) * 2000 + 1 * (j 0).val = 2000 * t.val + (j 0).val; omega)
    (by show win7_6.index t (1 : Fin 2) * 256 + 1 * (j 1).val = (j 1).val; omega)

/-- An index of the product array is in point `t`'s block iff its row is among the 2000 rows from `2000 t`. -/
theorem mem_blk7_6 (t : Fin cfg7.N) (i : S50000x256.Idx) :
    i ∈ ((cfg7.win 6).blk t).view.set ↔ ∀ a : Fin 2, win7_6.index t a * S2000x256.size a ≤ (i a).val ∧ (i a).val < win7_6.index t a * S2000x256.size a + S2000x256.size a := by
  show i ∈ ((View.whole main_v140_0).slice (win7_6.rect t)).set ↔ _
  rw [View.set_slice_whole, Rect.mem_set_unit]
  exact Iff.rfl

/-- Every entry of the product array is in some point's block: row `r` in that of point `r / 2000`. -/
theorem cover7_6 (i : S50000x256.Idx) :
    ∃ t : Fin cfg7.N, (cfg7.win 6).flush t = true ∧ i ∈ ((cfg7.win 6).blk t).view.set := by
  have hi0 : (i 0).val < 50000 := (i 0).isLt
  have hi1 : (i 1).val < 256 := (i 1).isLt
  have hN : (i 0).val / 2000 < cfg7.N := by rw [hN7]; omega
  refine ⟨⟨(i 0).val / 2000, hN⟩, flush7_6 _, ?_⟩
  obtain ⟨-, -, -, -, -, -, -, -, -, -, -, -, e60, e61, -⟩ := idx7_facts ⟨(i 0).val / 2000, hN⟩
  rw [mem_blk7_6]
  intro a
  match a with
  | ⟨0, _⟩ =>
    show win7_6.index ⟨(i 0).val / 2000, hN⟩ (0 : Fin 2) * 2000 ≤ (i 0).val ∧ (i 0).val < win7_6.index ⟨(i 0).val / 2000, hN⟩ (0 : Fin 2) * 2000 + 2000
    rw [e60]; show (i 0).val / 2000 * 2000 ≤ (i 0).val ∧ (i 0).val < (i 0).val / 2000 * 2000 + 2000
    omega
  | ⟨1, _⟩ =>
    show win7_6.index ⟨(i 0).val / 2000, hN⟩ (1 : Fin 2) * 256 ≤ (i 1).val ∧ (i 1).val < win7_6.index ⟨(i 0).val / 2000, hN⟩ (1 : Fin 2) * 256 + 256
    rw [e61]; omega

/-- THE PRODUCT ARRAY after the region: the normalised, rectified activations times the weights. -/
theorem val7_prod (c : Dev nD) :
    ((dat7 V c).arrAt 6 cfg7.N : Cert.Spec.Arr 50000 256) = Cert.Spec.mm (Y7 V c) (A7_5 V c) :=
  (dat7 V c).arrAt_eq_of_cover 6 _ (fun t _ => flushed7_6_eq V c t) cover7_6

/-- The contents after a point depend on the point's number only. -/
theorem outsAt7_congr (c : Dev nD) {n m : ℕ} (e : n = m) (hn : n < cfg7.N) (hm : m < cfg7.N) :
    outsAt7 V c n hn = outsAt7 V c m hm := by
  subst e; rfl

/-- At the last point the accumulator holds `stats7`. -/
theorem acc7_last (c : Dev nD) (t : Fin cfg7.N) (h24 : t.val = 24) : (outsAt7 V c t.val t.isLt).2.2 = stats7 V c := by
  unfold stats7
  rw [outsAt7_congr V c h24 t.isLt (by rw [hN7]; decide)]

/-- The one write-back of the statistics window, at the last point, writes what the accumulator holds then: its one
    block is the whole array. -/
theorem flushed7_7_eq (c : Dev nD) (t : Fin cfg7.N) (hf : (cfg7.win 7).flush t = true) :
    (dat7 V c).flushed 7 t = ((cfg7.win 7).blk t).view.read (Elt Ideal) (stats7 V c) := by
  have hN : cfg7.N = 25 := hN7
  have h24 : t.val = 24 := by have := (flush7_7 t).mp hf; have := t.isLt; omega
  obtain ⟨-, -, -, -, -, -, -, -, -, -, -, -, -, -, e70, e71⟩ := idx7_facts t
  show (cfg7.win 7).cut (grid7.coords t) ((dat7 V c).after 7 t) = _
  rw [after7_7, outs7_stats V c t, acc7_last V c t h24]
  funext j
  show stats7 V c j = stats7 V c (((cfg7.win 7).blk t).view.emb j)
  refine congrArg _ ?_
  funext a; apply Fin.ext
  match a with
  | ⟨0, _⟩ => show (j 0).val = win7_7.index t (0 : Fin 2) * 2 + 1 * (j 0).val; omega
  | ⟨1, _⟩ => show (j 1).val = win7_7.index t (1 : Fin 2) * 256 + 1 * (j 1).val; omega

/-- Every entry of the statistics array is in the last point's block. -/
theorem cover7_7 (i : S2x256.Idx) :
    ∃ t : Fin cfg7.N, (cfg7.win 7).flush t = true ∧ i ∈ ((cfg7.win 7).blk t).view.set := by
  have hi0 : (i 0).val < 2 := (i 0).isLt
  have hi1 : (i 1).val < 256 := (i 1).isLt
  have hN : 24 < cfg7.N := by rw [hN7]; decide
  refine ⟨⟨24, hN⟩, (flush7_7 _).mpr rfl, ?_⟩
  obtain ⟨-, -, -, -, -, -, -, -, -, -, -, -, -, -, e70, e71⟩ := idx7_facts ⟨24, hN⟩
  show i ∈ ((View.whole main_v140_1).slice (win7_7.rect ⟨24, hN⟩)).set
  rw [View.set_slice_whole, Rect.mem_set_unit]
  intro a
  match a with
  | ⟨0, _⟩ =>
    show win7_7.index ⟨24, hN⟩ (0 : Fin 2) * 2 ≤ (i 0).val ∧ (i 0).val < win7_7.index ⟨24, hN⟩ (0 : Fin 2) * 2 + 2
    rw [e70]; omega
  | ⟨1, _⟩ =>
    show win7_7.index ⟨24, hN⟩ (1 : Fin 2) * 256 ≤ (i 1).val ∧ (i 1).val < win7_7.index ⟨24, hN⟩ (1 : Fin 2) * 256 + 256
    rw [e71]; omega

/-- The statistics array after the region is what the accumulator holds after the last point. -/
theorem final7_7 (c : Dev nD) : ((dat7 V c).arrAt 7 cfg7.N : Cert.Spec.Arr 2 256) = stats7 V c :=
  (dat7 V c).arrAt_eq_of_cover 7 (stats7 V c) (flushed7_7_eq V c) cover7_7

/-- THE STATISTICS ARRAY after the region: row 0 the column sums, row 1 the column sums of squares, of the product of
    the normalised, rectified activations by the weights. -/
theorem val7_stats (c : Dev nD) (j : Fin 256) :
    ((dat7 V c).arrAt 7 cfg7.N : Cert.Spec.Arr 2 256) (ix2 0 j) = Cert.Spec.colsum (Cert.Spec.mm (Y7 V c) (A7_5 V c)) j
      ∧ ((dat7 V c).arrAt 7 cfg7.N : Cert.Spec.Arr 2 256) (ix2 1 j) = Cert.Spec.colsumsq (Cert.Spec.mm (Y7 V c) (A7_5 V c)) j := by
  rw [final7_7]
  exact ⟨stats7_colsum V c j, stats7_colsumsq V c j⟩

end Cert.KernelIdeal.HandV

end
-- ==== Proof.KI.V8.lean ====
import proofs.«148047_j37898791420018_1_alg».proof.Proof.KI.R8
import proofs.«148047_j37898791420018_1_alg».proof.Proof.Spec
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (Arr Vc)

variable (V : (c : Dev nD) → (b : Ref sig .tc) → Buf (Elt Ideal) ((c : Thread nD τ).loc b))

/-! # Region 8's value: the result array is the normalise-scale-shift-rectify of the activations `z` by the four
    parameter rows, entry by entry -/

/-- The five input arrays as the region finds them, at their literal types: the activations `z` and the rows of
    column means, column variances, gains and offsets. -/
abbrev zarr8 (c : Dev nD) : Arr 50000 256 := V c (Pipeline.arrRef spec8 0)
abbrev marr8 (c : Dev nD) : Arr 1 256 := V c (Pipeline.arrRef spec8 1)
abbrev varr8 (c : Dev nD) : Arr 1 256 := V c (Pipeline.arrRef spec8 2)
abbrev garr8 (c : Dev nD) : Arr 1 256 := V c (Pipeline.arrRef spec8 3)
abbrev barr8 (c : Dev nD) : Arr 1 256 := V c (Pipeline.arrRef spec8 4)

theorem hz8 : (![0, 0] : Fin 2 → Nat) = fun _ => 0 := funext fun a => by fin_cases a <;> rfl

/-- A (1,256) row broadcast down the 2000 rows of a block reads, at `(p, q)`, the row's entry `q`. -/
theorem bcast_row8 {α : Type} (x : S1x256.Idx → α) (h : S1x256.Broadcasts S2000x256) (p : Fin 2000) (q : Fin 256) :
    broadcastTo S2000x256 x h (ix2 p q) = x (ix2 0 q) :=
  broadcastTo_apply x h (ix2 p q) (ix2 0 q) (fun a => by match a with | ⟨0, _⟩ => rfl | ⟨1, _⟩ => rfl)

/-- The body's payload at an entry `(p, q)` of the block: the block's entry, less the mean of column `q`, times the
    reciprocal square root of that column's variance plus the constant, times its gain, plus its offset, clamped below
    at zero. -/
theorem pay_at8 (x0 : Vec Ideal S2000x256 .f32) (x1 x2 x3 x4 : Vec Ideal S1x256 .f32) (p : Fin 2000) (q : Fin 256) :
    k8_pay1 x0 x1 x2 x3 x4 (ix2 p q)
      = max ((x0 (ix2 p q) - x1 (ix2 0 q)) * Ideal.rsqrt (x2 (ix2 0 q) + Cert.Spec.eps) * x3 (ix2 0 q) + x4 (ix2 0 q)) 0 := by
  unfold k8_pay1
  simp only [shapeCast_self]
  simp only [maximumf_apply, addf_apply, mulf_apply, subf_apply, bcast_row8, broadcast_apply]
  rw [show (FloatOps.ofBits (F := Ideal) FTy.f32 0#32) = (0 : EReal) from Ideal.ofBits_zero_f32]
  rfl

/-- The payload of blocks that are parts of whole arrays — the block's entry `j` is the array's entry `i` in the same
    column, and each parameter block is its whole row — is the specification's entry `i`. -/
theorem pay_blk8 (x0 : Vec Ideal S2000x256 .f32) (x1 x2 x3 x4 : Vec Ideal S1x256 .f32)
    (Z : Arr 50000 256) (M Va G B : Arr 1 256) (j : S2000x256.Idx) (i : S50000x256.Idx)
    (h0 : x0 j = Z i) (hq : (j 1).val = (i 1).val)
    (h1 : ∀ q, x1 (ix2 0 q) = M (ix2 0 q)) (h2 : ∀ q, x2 (ix2 0 q) = Va (ix2 0 q))
    (h3 : ∀ q, x3 (ix2 0 q) = G (ix2 0 q)) (h4 : ∀ q, x4 (ix2 0 q) = B (ix2 0 q)) :
    k8_pay1 x0 x1 x2 x3 x4 j
      = Cert.Spec.bnrelu Z (Cert.Spec.row M 0) (Cert.Spec.row Va 0) (Cert.Spec.row G 0) (Cert.Spec.row B 0) i := by
  obtain ⟨p, q, rfl⟩ : ∃ (p : Fin 2000) (q : Fin 256), j = ix2 p q := ⟨j 0, j 1, eq_ix2 j⟩
  have hi : i 1 = q := Fin.ext hq.symm
  rw [pay_at8, h0, h1, h2, h3, h4]
  unfold Cert.Spec.bnrelu Cert.Spec.row
  rw [hi]

/-- The windows' block indices over the grid: the activations' and the result's block at point `t` is block `t` of
    rows, all columns; each parameter row is its one block throughout. -/
theorem idx_facts8 : ∀ t : Fin cfg8.N,
      win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The activations' block at point `t` is the part of the array the result's block at `t` covers: entry `j` of the
    one is the array's entry at `j`'s place in the other. -/
theorem blk_z8 (c : Dev nD) (t : Fin cfg8.N) (j : S2000x256.Idx) :
    iblk8 V c 0 t j = zarr8 V c (((cfg8.win 5).blk t).view.emb j) := by
  obtain ⟨e00, e01, e10, e11, e20, e21, e30, e31, e40, e41, e50, e51⟩ := idx_facts8 t
  show V c (Pipeline.arrRef spec8 0) (((cfg8.win 0).blk t).view.emb j) = V c (Pipeline.arrRef spec8 0) (((cfg8.win 5).blk t).view.emb j)
  refine congrArg _ ?_
  funext a; apply Fin.ext
  match a with
  | ⟨0, _⟩ => show win8_0.index t (0 : Fin 2) * 2000 + 1 * (j 0).val = win8_5.index t (0 : Fin 2) * 2000 + 1 * (j 0).val; omega
  | ⟨1, _⟩ => show win8_0.index t (1 : Fin 2) * 256 + 1 * (j 1).val = win8_5.index t (1 : Fin 2) * 256 + 1 * (j 1).val; omega

/-- The result's block keeps the columns: entry `j` of the block is in column `j 1` of the array. -/
theorem blk_col8 (t : Fin cfg8.N) (j : S2000x256.Idx) : (j 1).val = ((((cfg8.win 5).blk t).view.emb j) 1).val := by
  obtain ⟨e00, e01, e10, e11, e20, e21, e30, e31, e40, e41, e50, e51⟩ := idx_facts8 t
  show (j 1).val = win8_5.index t (1 : Fin 2) * 256 + 1 * (j 1).val
  omega

/-- The block of the row of column means is the whole row, at every point. -/
theorem blk_row8_1 (c : Dev nD) (t : Fin cfg8.N) (q : Fin 256) : iblk8 V c 1 t (ix2 0 q) = marr8 V c (ix2 0 q) := by
  obtain ⟨e00, e01, e10, e11, e20, e21, e30, e31, e40, e41, e50, e51⟩ := idx_facts8 t
  show V c (Pipeline.arrRef spec8 1) (((cfg8.win 1).blk t).view.emb (ix2 0 q)) = V c (Pipeline.arrRef spec8 1) (ix2 0 q)
  refine congrArg _ ?_
  funext a; apply Fin.ext
  match a with
  | ⟨0, _⟩ => show win8_1.index t (0 : Fin 2) * 1 + 1 * 0 = 0; omega
  | ⟨1, _⟩ => show win8_1.index t (1 : Fin 2) * 256 + 1 * q.val = q.val; omega

/-- The block of the row of column variances is the whole row, at every point. -/
theorem blk_row8_2 (c : Dev nD) (t : Fin cfg8.N) (q : Fin 256) : iblk8 V c 2 t (ix2 0 q) = varr8 V c (ix2 0 q) := by
  obtain ⟨e00, e01, e10, e11, e20, e21, e30, e31, e40, e41, e50, e51⟩ := idx_facts8 t
  show V c (Pipeline.arrRef spec8 2) (((cfg8.win 2).blk t).view.emb (ix2 0 q)) = V c (Pipeline.arrRef spec8 2) (ix2 0 q)
  refine congrArg _ ?_
  funext a; apply Fin.ext
  match a with
  | ⟨0, _⟩ => show win8_2.index t (0 : Fin 2) * 1 + 1 * 0 = 0; omega
  | ⟨1, _⟩ => show win8_2.index t (1 : Fin 2) * 256 + 1 * q.val = q.val; omega

/-- The block of the row of column gains is the whole row, at every point. -/
theorem blk_row8_3 (c : Dev nD) (t : Fin cfg8.N) (q : Fin 256) : iblk8 V c 3 t (ix2 0 q) = garr8 V c (ix2 0 q) := by
  obtain ⟨e00, e01, e10, e11, e20, e21, e30, e31, e40, e41, e50, e51⟩ := idx_facts8 t
  show V c (Pipeline.arrRef spec8 3) (((cfg8.win 3).blk t).view.emb (ix2 0 q)) = V c (Pipeline.arrRef spec8 3) (ix2 0 q)
  refine congrArg _ ?_
  funext a; apply Fin.ext
  match a with
  | ⟨0, _⟩ => show win8_3.index t (0 : Fin 2) * 1 + 1 * 0 = 0; omega
  | ⟨1, _⟩ => show win8_3.index t (1 : Fin 2) * 256 + 1 * q.val = q.val; omega

/-- The block of the row of column offsets is the whole row, at every point. -/
theorem blk_row8_4 (c : Dev nD) (t : Fin cfg8.N) (q : Fin 256) : iblk8 V c 4 t (ix2 0 q) = barr8 V c (ix2 0 q) := by
  obtain ⟨e00, e01, e10, e11, e20, e21, e30, e31, e40, e41, e50, e51⟩ := idx_facts8 t
  show V c (Pipeline.arrRef spec8 4) (((cfg8.win 4).blk t).view.emb (ix2 0 q)) = V c (Pipeline.arrRef spec8 4) (ix2 0 q)
  refine congrArg _ ?_
  funext a; apply Fin.ext
  match a with
  | ⟨0, _⟩ => show win8_4.index t (0 : Fin 2) * 1 + 1 * 0 = 0; omega
  | ⟨1, _⟩ => show win8_4.index t (1 : Fin 2) * 256 + 1 * q.val = q.val; omega

/-- What point `t` writes back is block `t` of the specification's array. -/
theorem flushed_eq8 (c : Dev nD) (t : Fin cfg8.N) :
    (dat8 V c).flushed 5 t = ((cfg8.win 5).blk t).view.read (Elt Ideal)
      (Cert.Spec.bnrelu (zarr8 V c) (Cert.Spec.row (marr8 V c) 0) (Cert.Spec.row (varr8 V c) 0)
        (Cert.Spec.row (garr8 V c) 0) (Cert.Spec.row (barr8 V c) 0)) := by
  show (cfg8.win 5).cut (grid8.coords t) ((dat8 V c).after 5 t) = _
  rw [after8_5]
  unfold out8_5
  rw [View.canon_unit_zero hz8]
  simp only [View.ld_unit_zero (S := S2000x256) hz8, View.ld_unit_zero (S := S1x256) hz8]
  funext j
  show k8_pay1 (iblk8 V c 0 t) (iblk8 V c 1 t) (iblk8 V c 2 t) (iblk8 V c 3 t) (iblk8 V c 4 t) j
    = Cert.Spec.bnrelu (zarr8 V c) (Cert.Spec.row (marr8 V c) 0) (Cert.Spec.row (varr8 V c) 0)
        (Cert.Spec.row (garr8 V c) 0) (Cert.Spec.row (barr8 V c) 0) (((cfg8.win 5).blk t).view.emb j)
  exact pay_blk8 (iblk8 V c 0 t) (iblk8 V c 1 t) (iblk8 V c 2 t) (iblk8 V c 3 t) (iblk8 V c 4 t)
    (zarr8 V c) (marr8 V c) (varr8 V c) (garr8 V c) (barr8 V c) j (((cfg8.win 5).blk t).view.emb j)
    (blk_z8 V c t j) (blk_col8 t j) (blk_row8_1 V c t) (blk_row8_2 V c t) (blk_row8_3 V c t) (blk_row8_4 V c t)

/-- An index of the result array is in point `t`'s block iff its row is among the 2000 rows from `2000 t`. -/
theorem mem_blk8 (t : Fin cfg8.N) (i : S50000x256.Idx) :
    i ∈ ((cfg8.win 5).blk t).view.set ↔ ∀ a : Fin 2, win8_5.index t a * S2000x256.size a ≤ (i a).val ∧ (i a).val < win8_5.index t a * S2000x256.size a + S2000x256.size a := by
  show i ∈ ((View.whole (Pipeline.arrRef spec8 5)).slice (win8_5.rect t)).set ↔ _
  rw [View.set_slice_whole, Rect.mem_set_unit]
  exact Iff.rfl

/-- Every entry of the result array is in some point's block: row `r` in that of point `r / 2000`. -/
theorem cover_arr8 (i : S50000x256.Idx) :
    ∃ t : Fin cfg8.N, (cfg8.win 5).flush t = true ∧ i ∈ ((cfg8.win 5).blk t).view.set := by
  have hi0 : (i 0).val < 50000 := (i 0).isLt
  have hi1 : (i 1).val < 256 := (i 1).isLt
  have hN : (i 0).val / 2000 < cfg8.N := by
    show (i 0).val / 2000 < grid8.N
    rw [N_8]; omega
  refine ⟨⟨(i 0).val / 2000, hN⟩, flush8_5 _, ?_⟩
  obtain ⟨e00, e01, e10, e11, e20, e21, e30, e31, e40, e41, e50, e51⟩ := idx_facts8 ⟨(i 0).val / 2000, hN⟩
  rw [mem_blk8]
  intro a
  match a with
  | ⟨0, _⟩ =>
    show win8_5.index ⟨(i 0).val / 2000, hN⟩ (0 : Fin 2) * 2000 ≤ (i 0).val ∧ (i 0).val < win8_5.index ⟨(i 0).val / 2000, hN⟩ (0 : Fin 2) * 2000 + 2000
    rw [e50]; show (i 0).val / 2000 * 2000 ≤ (i 0).val ∧ (i 0).val < (i 0).val / 2000 * 2000 + 2000
    omega
  | ⟨1, _⟩ =>
    show win8_5.index ⟨(i 0).val / 2000, hN⟩ (1 : Fin 2) * 256 ≤ (i 1).val ∧ (i 1).val < win8_5.index ⟨(i 0).val / 2000, hN⟩ (1 : Fin 2) * 256 + 256
    rw [e51]; omega

/-- THE VALUE of region 8: after the region the result array is the specification's normalise-scale-shift-rectify of
    the activations by row 0 of each of the four parameter arrays, as the region finds them. -/
theorem val8_out (c : Dev nD) :
    ((dat8 V c).arrAt 5 cfg8.N : Arr 50000 256)
      = Cert.Spec.bnrelu (zarr8 V c) (Cert.Spec.row (marr8 V c) 0) (Cert.Spec.row (varr8 V c) 0)
          (Cert.Spec.row (garr8 V c) 0) (Cert.Spec.row (barr8 V c) 0) :=
  (dat8 V c).arrAt_eq_of_cover 5 _ (fun t _ => flushed_eq8 V c t) cover_arr8

end Cert.KernelIdeal.HandV

end
-- ==== Proof.KI.V9.lean ====
import proofs.«148047_j37898791420018_1_alg».proof.Proof.KI.R9
import proofs.«148047_j37898791420018_1_alg».proof.Proof.Spec
import proofs.«148047_j37898791420018_1_alg».proof.Proof.LibBlockSum
import proofs.«148047_j37898791420018_1_alg».proof.Proof.LibRealArith
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (Arr Vc)
open scoped BigOperators

/-! # Region 9's value: the product array is the matrix product of the input by the weights, and the
    statistics array holds its column sums and its column sums of squares -/

theorem hz9 : (![0, 0] : Fin 2 → Nat) = fun _ => 0 := funext fun a => by fin_cases a <;> rfl

/-! ## The block product read at an index -/

theorem lhs9_0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhs9_1 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single rfl j k

theorem rhs9_0 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single rfl j k

theorem rhs9_1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block product into a zero accumulator, at row `p` and column `q`: the sum over the contracted coordinate of
    the products of the entries. -/
theorem mm9_apply (A : FVec Ideal S2000x256 .bf16) (Bm : FVec Ideal S256x256 .bf16) (p : Fin 2000) (q : Fin 256) :
    matmul dot_S2000x256_S256x256_S2000x256_1_0_0_1_n_n none A Bm (constant S2000x256 .f32 0x00000000#32) (ix2 p q)
      = ∑ k : Fin 256, A (ix2 p k) * Bm (ix2 k q) := by
  show FloatOps.matmul dot_S2000x256_S256x256_S2000x256_1_0_0_1_n_n none A Bm (constant S2000x256 .f32 0x00000000#32) (ix2 p q) = _
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have hl : dot_S2000x256_S256x256_S2000x256_1_0_0_1_n_n.lhsIdx (ix2 p q)
      ((contrEquiv1 dot_S2000x256_S256x256_S2000x256_1_0_0_1_n_n 256 rfl rfl).symm k) = ix2 p k := by
    funext a; apply Fin.ext
    match a with
    | ⟨0, _⟩ => exact lhs9_0 _ _
    | ⟨1, _⟩ => exact (lhs9_1 _ _).trans hk
  have hr : dot_S2000x256_S256x256_S2000x256_1_0_0_1_n_n.rhsIdx (ix2 p q)
      ((contrEquiv1 dot_S2000x256_S256x256_S2000x256_1_0_0_1_n_n 256 rfl rfl).symm k) = ix2 k q := by
    funext a; apply Fin.ext
    match a with
    | ⟨0, _⟩ => exact (rhs9_0 _ _).trans hk
    | ⟨1, _⟩ => exact rhs9_1 _ _
  rw [hl, hr]

/-- The product payload at an entry of the block: format changes are the identity on extended reals. -/
theorem pay2_at9 (x0 : Vec Ideal S2000x256 .f32) (x1 : Vec Ideal S256x256 .f32) (p : Fin 2000) (q : Fin 256) :
    k9_pay2 x0 x1 (ix2 p q) = ∑ k : Fin 256, x0 (ix2 p k) * x1 (ix2 k q) := by
  unfold k9_pay2
  simp only [shapeCast_self]
  exact mm9_apply _ _ p q

/-- The sum down the 2000 rows of a block, read at column `q`. -/
theorem colred9_apply (X : FVec Ideal S2000x256 .f32) (hφ : FKind.Formats .f32)
    (hacc : (0x00000000#32 : BitVec 32) = 0x00000000#32) (q : Fin 256) :
    multiReduction (F := Ideal) .add [0] S256 X 0x00000000#32 reduces_S2000x256_S256 hφ hacc (ix1 q)
      = ∑ r : Fin 2000, X (ix2 r q) := by
  refine (Ideal.multiReduction_add_single X 0x00000000#32 reduces_S2000x256_S256 hφ hacc (ix1 q)).trans ?_
  refine Finset.sum_congr rfl fun r _ => congrArg X ?_
  funext a
  match a with
  | ⟨0, _⟩ => rfl
  | ⟨1, _⟩ => rfl

/-- A 256-vector recast as a one-row table reads, at `(0, q)`, its entry `q`. -/
theorem rowcast9_apply {α : Type} (v : S256.Idx → α) (q : Fin 256) :
    shapeCast S1x256 v shapeCasts_S256_S1x256 (ix2 0 q) = v (ix1 q) := by
  refine (shapeCast_addUnit_apply ![256] v shapeCasts_S256_S1x256 (ix2 0 q)).trans (congrArg v ?_)
  funext a
  match a with
  | ⟨0, _⟩ => rfl

/-- The column-sum payload at column `q`: the row read before it plus the sum of the block product down column `q`. -/
theorem pay3_at9 (x0 : Vec Ideal S2000x256 .f32) (x1 : Vec Ideal S256x256 .f32) (v10 : Vec Ideal S1x256 .f32) (q : Fin 256) :
    k9_pay3 x0 x1 v10 (ix2 0 q) = v10 (ix2 0 q) + ∑ r : Fin 2000, k9_pay2 x0 x1 (ix2 r q) := by
  unfold k9_pay3
  simp only [shapeCast_self]
  rw [addf_apply, rowcast9_apply]
  exact congrArg (v10 (ix2 0 q) + ·) (colred9_apply _ _ _ q)

/-- The column-sum-of-squares payload at column `q`. -/
theorem pay4_at9 (x0 : Vec Ideal S2000x256 .f32) (x1 : Vec Ideal S256x256 .f32) (v17 : Vec Ideal S1x256 .f32) (q : Fin 256) :
    k9_pay4 x0 x1 v17 (ix2 0 q) = v17 (ix2 0 q) + ∑ r : Fin 2000, k9_pay2 x0 x1 (ix2 r q) * k9_pay2 x0 x1 (ix2 r q) := by
  unfold k9_pay4
  simp only [shapeCast_self]
  rw [addf_apply, rowcast9_apply]
  refine congrArg (v17 (ix2 0 q) + ·) ((colred9_apply _ _ _ q).trans ?_)
  rfl

/-- The zero payload at any entry. -/
theorem pay1_at9 (y : S2x256.Idx) : k9_pay1 (F := Ideal) y = 0 := by
  unfold k9_pay1
  simp only [shapeCast_self]
  exact Ideal.ofBits_zero_f32

/-! ## The two rows of the 2 × 256 scratch -/

/-- Row 0 and row 1 of the scratch as rectangles. -/
abbrev s9rowA : Rect S2x256 := Rect.unit (s := S2x256) ![0, 0] S1x256.size inb_S2x256_S1x256_0_0
abbrev s9rowB : Rect S2x256 := Rect.unit (s := S2x256) ![1, 0] S1x256.size inb_S2x256_S1x256_1_0
/-- The whole scratch as a rectangle. -/
abbrev s9whole : Rect S2x256 := Rect.unit (s := S2x256) ![0, 0] S2x256.size inb_S2x256_S2x256_0_0

theorem s9rowA_emb (q : Fin 256) : s9rowA.emb (ix2 (0 : Fin 1) q : S1x256.Idx) = ix2 0 q := by
  funext a; apply Fin.ext
  match a with
  | ⟨0, _⟩ => rfl
  | ⟨1, _⟩ => show 0 + 1 * q.val = q.val; omega

theorem s9rowB_emb (q : Fin 256) : s9rowB.emb (ix2 (0 : Fin 1) q : S1x256.Idx) = ix2 1 q := by
  funext a; apply Fin.ext
  match a with
  | ⟨0, _⟩ => rfl
  | ⟨1, _⟩ => show 0 + 1 * q.val = q.val; omega

theorem not_mem_s9rowB (q : Fin 256) : (ix2 (0 : Fin 2) q : S2x256.Idx) ∉ s9rowB.set := by
  rw [Rect.mem_set_unit]
  intro h
  have h1 : (1 : Nat) ≤ 0 := (h 0).1
  omega

theorem not_mem_s9rowA (q : Fin 256) : (ix2 (1 : Fin 2) q : S2x256.Idx) ∉ s9rowA.set := by
  rw [Rect.mem_set_unit]
  intro h
  have h1 : (1 : Nat) < 0 + 1 := (h 0).2
  omega

section Canon
variable {Val : EltTy → Type} [∀ e, Nonempty (Val e)]

/-- A last store to row 1 leaves its payload in row 1, -/
theorem canon_s9rowB (w : S1x256.Idx → Val .f32) (L : List (View.Piece Val S2x256 .f32)) (q : Fin 256) :
    View.canon ((⟨s9rowB, w⟩ : View.Piece Val S2x256 .f32) :: L) (ix2 1 q) = w (ix2 0 q) := by
  have e := View.canon_cons_emb (Val := Val) s9rowB w L (ix2 (0 : Fin 1) q : S1x256.Idx)
  rwa [s9rowB_emb] at e

/-- and row 0 as the earlier stores left it. -/
theorem canon_s9rowB_row0 (w : S1x256.Idx → Val .f32) (L : List (View.Piece Val S2x256 .f32)) (q : Fin 256) :
    View.canon ((⟨s9rowB, w⟩ : View.Piece Val S2x256 .f32) :: L) (ix2 0 q) = View.canon L (ix2 0 q) :=
  View.canon_cons_of_not_mem _ L (not_mem_s9rowB q)

/-- A last store to row 0 leaves its payload in row 0, -/
theorem canon_s9rowA (w : S1x256.Idx → Val .f32) (L : List (View.Piece Val S2x256 .f32)) (q : Fin 256) :
    View.canon ((⟨s9rowA, w⟩ : View.Piece Val S2x256 .f32) :: L) (ix2 0 q) = w (ix2 0 q) := by
  have e := View.canon_cons_emb (Val := Val) s9rowA w L (ix2 (0 : Fin 1) q : S1x256.Idx)
  rwa [s9rowA_emb] at e

/-- and row 1 as the earlier stores left it. -/
theorem canon_s9rowA_row1 (w : S1x256.Idx → Val .f32) (L : List (View.Piece Val S2x256 .f32)) (q : Fin 256) :
    View.canon ((⟨s9rowA, w⟩ : View.Piece Val S2x256 .f32) :: L) (ix2 1 q) = View.canon L (ix2 1 q) :=
  View.canon_cons_of_not_mem _ L (not_mem_s9rowA q)

/-- A last store of the whole scratch leaves its payload. -/
theorem canon_s9whole (w : S2x256.Idx → Val .f32) (L : List (View.Piece Val S2x256 .f32)) :
    View.canon ((⟨s9whole, w⟩ : View.Piece Val S2x256 .f32) :: L) = w :=
  View.canon_cons_unit_zero (S := S2x256) hz9 inb_S2x256_S2x256_0_0 w L

end Canon

/-- The column-sum payload at column `q`, the row read before it named. -/
theorem pay3_at9_of (x0 : Vec Ideal S2000x256 .f32) (x1 : Vec Ideal S256x256 .f32) (v10 : Vec Ideal S1x256 .f32) (q : Fin 256)
    (z : EReal) (hz : v10 (ix2 0 q) = z) :
    k9_pay3 x0 x1 v10 (ix2 0 q) = z + ∑ r : Fin 2000, k9_pay2 x0 x1 (ix2 r q) := by
  rw [pay3_at9, hz]

/-- The column-sum-of-squares payload at column `q`, the row read before it named. -/
theorem pay4_at9_of (x0 : Vec Ideal S2000x256 .f32) (x1 : Vec Ideal S256x256 .f32) (v17 : Vec Ideal S1x256 .f32) (q : Fin 256)
    (z : EReal) (hz : v17 (ix2 0 q) = z) :
    k9_pay4 x0 x1 v17 (ix2 0 q) = z + ∑ r : Fin 2000, k9_pay2 x0 x1 (ix2 r q) * k9_pay2 x0 x1 (ix2 r q) := by
  rw [pay4_at9, hz]

/-- After the zeroing store alone, row 0 reads zero; -/
theorem zero9_rowA (q : Fin 256) :
    View.canon [(⟨s9whole, k9_pay1 (F := Ideal)⟩ : View.Piece (Elt Ideal) S2x256 .f32)] (s9rowA.emb (ix2 (0 : Fin 1) q : S1x256.Idx)) = 0 := by
  rw [canon_s9whole]; exact pay1_at9 _

/-- after the zeroing store and a store to row 0, row 1 still reads zero. -/
theorem zero9_rowB (w0 : S1x256.Idx → Elt Ideal .f32) (q : Fin 256) :
    View.canon ((⟨s9rowA, w0⟩ : View.Piece (Elt Ideal) S2x256 .f32) :: [(⟨s9whole, k9_pay1 (F := Ideal)⟩ : View.Piece (Elt Ideal) S2x256 .f32)])
      (s9rowB.emb (ix2 (0 : Fin 1) q : S1x256.Idx)) = 0 := by
  rw [s9rowB_emb, canon_s9rowA_row1, canon_s9whole]; exact pay1_at9 _

/-! ## What each case of the body leaves, as values -/

section Pieces
variable {F : FTy → Type} [FloatOps F]

/-- At the first point the product window is left at the block product. -/
theorem out9_A_2_eq (c : Dev nD) (i : grid9.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond9 i)
    (x0 : Vec F S2000x256 .f32) (x1 : Vec F S256x256 .f32) :
    out9_A_2 c i a1 h1 a2 h2 a3 h3 a4 h4 a5 h5 hc x0 x1 = k9_pay2 x0 x1 := by
  unfold out9_A_2
  rw [View.read_writes_eq_canon _ _ _ (cover9_A_2 c i a1 h1 a2 h2 a3 h3 a4 h4 a5 h5 hc x0 x1)]
  unfold kernelRun9_A
  dsimp only
  sl_unfold_words
  rw [View.canon_unit_zero hz9]
  simp only [View.readAt_eq_ld, h1.read_unread, h2.read_unread, View.ld_unit_zero (S := S2000x256) hz9, View.ld_unit_zero (S := S256x256) hz9]

/-- At a later point likewise. -/
theorem out9_B_2_eq (c : Dev nD) (i : grid9.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond9 i)
    (x0 : Vec F S2000x256 .f32) (x1 : Vec F S256x256 .f32) (xs0 : Vec F S2x256 .f32) :
    out9_B_2 c i a1 h1 a2 h2 a3 h3 a4 h4 a5 h5 hc x0 x1 xs0 = k9_pay2 x0 x1 := by
  unfold out9_B_2
  rw [View.read_writes_eq_canon _ _ _ (cover9_B_2 c i a1 h1 a2 h2 a3 h3 a4 h4 a5 h5 hc x0 x1 xs0)]
  unfold kernelRun9_B
  dsimp only
  sl_unfold_words
  rw [View.canon_unit_zero hz9]
  simp only [View.readAt_eq_ld, h1.read_unread, h2.read_unread, View.ld_unit_zero (S := S2000x256) hz9, View.ld_unit_zero (S := S256x256) hz9]

/-- The statistics window is left at what the scratch holds (the body's last store copies the whole scratch). -/
theorem out9_A_3_eq (c : Dev nD) (i : grid9.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond9 i)
    (x0 : Vec F S2000x256 .f32) (x1 : Vec F S256x256 .f32) :
    out9_A_3 c i a1 h1 a2 h2 a3 h3 a4 h4 a5 h5 hc x0 x1 = sout9_A c i a1 h1 a2 h2 a3 h3 a4 h4 a5 h5 hc x0 x1 := by
  unfold out9_A_3 sout9_A
  rw [View.read_writes_eq_canon _ _ _ (cover9_A_3 c i a1 h1 a2 h2 a3 h3 a4 h4 a5 h5 hc x0 x1),
    View.read_writes_eq_canon _ _ _ (scover9_A c i a1 h1 a2 h2 a3 h3 a4 h4 a5 h5 hc x0 x1)]
  unfold kernelRun9_A
  dsimp only
  sl_unfold_words
  rw [View.canon_unit_zero hz9, View.readCov_eq_canon']
  exact View.ld_unit_zero (S := S2x256) hz9 inb_S2x256_S2x256_0_0 _

theorem out9_B_3_eq (c : Dev nD) (i : grid9.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond9 i)
    (x0 : Vec F S2000x256 .f32) (x1 : Vec F S256x256 .f32) (xs0 : Vec F S2x256 .f32) :
    out9_B_3 c i a1 h1 a2 h2 a3 h3 a4 h4 a5 h5 hc x0 x1 xs0 = sout9_B c i a1 h1 a2 h2 a3 h3 a4 h4 a5 h5 hc x0 x1 xs0 := by
  unfold out9_B_3 sout9_B
  rw [View.read_writes_eq_canon _ _ _ (cover9_B_3 c i a1 h1 a2 h2 a3 h3 a4 h4 a5 h5 hc x0 x1 xs0),
    View.read_writes_eq_canon _ _ _ (scover9_B c i a1 h1 a2 h2 a3 h3 a4 h4 a5 h5 hc x0 x1 xs0)]
  unfold kernelRun9_B
  dsimp only
  sl_unfold_words
  rw [View.canon_unit_zero hz9, View.readCov_eq_canon']
  exact View.ld_unit_zero (S := S2x256) hz9 inb_S2x256_S2x256_0_0 _

end Pieces

/-- At a later point the scratch's row 0 is left at what it held plus the column sums of the block product, -/
theorem sout9_B_row0 (c : Dev nD) (i : grid9.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond9 i)
    (x0 : Vec Ideal S2000x256 .f32) (x1 : Vec Ideal S256x256 .f32) (xs0 : Vec Ideal S2x256 .f32) (q : Fin 256) :
    sout9_B c i a1 h1 a2 h2 a3 h3 a4 h4 a5 h5 hc x0 x1 xs0 (ix2 0 q)
      = xs0 (ix2 0 q) + ∑ r : Fin 2000, k9_pay2 x0 x1 (ix2 r q) := by
  unfold sout9_B
  rw [View.read_writes_eq_canon _ _ _ (scover9_B c i a1 h1 a2 h2 a3 h3 a4 h4 a5 h5 hc x0 x1 xs0)]
  unfold kernelRun9_B
  dsimp only
  sl_unfold_words
  simp only [View.readAt_eq_ld, h1.read_unread, h2.read_unread, h5.read_unread, View.ld_unit_zero (S := S2000x256) hz9, View.ld_unit_zero (S := S256x256) hz9]
  refine (canon_s9rowB_row0 _ _ q).trans ((canon_s9rowA _ _ q).trans ((pay3_at9 x0 x1 _ q).trans ?_))
  show xs0 (s9rowA.emb (ix2 (0 : Fin 1) q : S1x256.Idx)) + _ = _
  rw [s9rowA_emb]

/-- and its row 1 at what it held plus the column sums of the squares. -/
theorem sout9_B_row1 (c : Dev nD) (i : grid9.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : ¬cond9 i)
    (x0 : Vec Ideal S2000x256 .f32) (x1 : Vec Ideal S256x256 .f32) (xs0 : Vec Ideal S2x256 .f32) (q : Fin 256) :
    sout9_B c i a1 h1 a2 h2 a3 h3 a4 h4 a5 h5 hc x0 x1 xs0 (ix2 1 q)
      = xs0 (ix2 1 q) + ∑ r : Fin 2000, k9_pay2 x0 x1 (ix2 r q) * k9_pay2 x0 x1 (ix2 r q) := by
  unfold sout9_B
  rw [View.read_writes_eq_canon _ _ _ (scover9_B c i a1 h1 a2 h2 a3 h3 a4 h4 a5 h5 hc x0 x1 xs0)]
  unfold kernelRun9_B
  dsimp only
  sl_unfold_words
  simp only [View.readAt_eq_ld, h1.read_unread, h2.read_unread, h5.read_unread, View.ld_unit_zero (S := S2000x256) hz9, View.ld_unit_zero (S := S256x256) hz9]
  refine (canon_s9rowB _ _ q).trans ((pay4_at9 x0 x1 _ q).trans ?_)
  show xs0 (s9rowB.emb (ix2 (0 : Fin 1) q : S1x256.Idx)) + _ = _
  rw [s9rowB_emb]

/-- At the first point the scratch is zeroed first, so its row 0 is left at zero plus the column sums of the block product, -/
theorem sout9_A_row0 (c : Dev nD) (i : grid9.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond9 i)
    (x0 : Vec Ideal S2000x256 .f32) (x1 : Vec Ideal S256x256 .f32) (q : Fin 256) :
    sout9_A c i a1 h1 a2 h2 a3 h3 a4 h4 a5 h5 hc x0 x1 (ix2 0 q)
      = 0 + ∑ r : Fin 2000, k9_pay2 x0 x1 (ix2 r q) := by
  unfold sout9_A
  rw [View.read_writes_eq_canon _ _ _ (scover9_A c i a1 h1 a2 h2 a3 h3 a4 h4 a5 h5 hc x0 x1)]
  unfold kernelRun9_A
  dsimp only
  sl_unfold_words
  simp only [View.readAt_eq_ld, h1.read_unread, h2.read_unread, View.ld_unit_zero (S := S2000x256) hz9, View.ld_unit_zero (S := S256x256) hz9, View.readCov_eq_canon']
  refine (canon_s9rowB_row0 _ _ q).trans ((canon_s9rowA _ _ q).trans (pay3_at9_of x0 x1 _ q 0 ?_))
  exact zero9_rowA q

/-- and its row 1 at zero plus the column sums of the squares. -/
theorem sout9_A_row1 (c : Dev nD) (i : grid9.Coords) (a1 : Memref sig .tc .vmem S2000x256 .f32) (h1 : a1.IsWhole) (a2 : Memref sig .tc .vmem S256x256 .f32) (h2 : a2.IsWhole)
    (a3 : Memref sig .tc .vmem S2000x256 .f32) (h3 : a3.IsWhole) (a4 : Memref sig .tc .vmem S2x256 .f32) (h4 : a4.IsWhole)
    (a5 : Memref sig .tc .vmem S2x256 .f32) (h5 : a5.IsWhole) (hc : cond9 i)
    (x0 : Vec Ideal S2000x256 .f32) (x1 : Vec Ideal S256x256 .f32) (q : Fin 256) :
    sout9_A c i a1 h1 a2 h2 a3 h3 a4 h4 a5 h5 hc x0 x1 (ix2 1 q)
      = 0 + ∑ r : Fin 2000, k9_pay2 x0 x1 (ix2 r q) * k9_pay2 x0 x1 (ix2 r q) := by
  unfold sout9_A
  rw [View.read_writes_eq_canon _ _ _ (scover9_A c i a1 h1 a2 h2 a3 h3 a4 h4 a5 h5 hc x0 x1)]
  unfold kernelRun9_A
  dsimp only
  sl_unfold_words
  simp only [View.readAt_eq_ld, h1.read_unread, h2.read_unread, View.ld_unit_zero (S := S2000x256) hz9, View.ld_unit_zero (S := S256x256) hz9, View.readCov_eq_canon']
  refine (canon_s9rowB _ _ q).trans (pay4_at9_of x0 x1 _ q 0 ?_)
  exact zero9_rowB _ q

/-! ## The arrays and blocks of region 9 -/

variable (V : (c : Dev nD) → (b : Ref sig .tc) → Buf (Elt Ideal) ((c : Thread nD τ).loc b))

/-- The input and the weights as the region finds them, at their literal types. -/
abbrev xarr9 (c : Dev nD) : Arr 50000 256 := V c (Pipeline.arrRef spec9 0)
abbrev warr9 (c : Dev nD) : Arr 256 256 := V c (Pipeline.arrRef spec9 1)
/-- The block of 2000 rows of the input, and the (whole) block of the weights, that point `t` reads. -/
abbrev xblk9 (c : Dev nD) (t : Fin cfg9.N) : Vec Ideal S2000x256 .f32 := iblk9 V c 0 t
abbrev wblk9 (c : Dev nD) (t : Fin cfg9.N) : Vec Ideal S256x256 .f32 := iblk9 V c 1 t

theorem hN9 : cfg9.N = 25 := N_9

/-- The windows' block indices over the grid: the input's and the product's block at point `t` is block `t` of
    rows, all columns; the weights and the statistics are one block throughout. -/
theorem idx_facts9 : ∀ t : Fin cfg9.N,
      win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0 :=
  (by decide +kernel : ∀ t : Fin grid9.N, _)

/-- Entry `(p, k)` of the input's block at point `t` is entry `(2000 t + p, k)` of the input. -/
theorem xblk9_at (c : Dev nD) (t : Fin cfg9.N) (p : Fin 2000) (k : Fin 256) (hR : 2000 * t.val + p.val < 50000) :
    xblk9 V c t (ix2 p k) = xarr9 V c (ix2 ⟨2000 * t.val + p.val, hR⟩ k) := by
  obtain ⟨e00, e01, e10, e11, e20, e21, e30, e31⟩ := idx_facts9 t
  show V c (Pipeline.arrRef spec9 0) (((cfg9.win 0).blk t).view.emb (ix2 p k)) = V c (Pipeline.arrRef spec9 0) (ix2 ⟨2000 * t.val + p.val, hR⟩ k)
  refine congrArg _ ?_
  funext a; apply Fin.ext
  match a with
  | ⟨0, _⟩ => show win9_0.index t (0 : Fin 2) * 2000 + 1 * p.val = 2000 * t.val + p.val; omega
  | ⟨1, _⟩ => show win9_0.index t (1 : Fin 2) * 256 + 1 * k.val = k.val; omega

/-- The weights' block is the whole weights, at every point. -/
theorem wblk9_at (c : Dev nD) (t : Fin cfg9.N) (k : Fin 256) (q : Fin 256) :
    wblk9 V c t (ix2 k q) = warr9 V c (ix2 k q) := by
  obtain ⟨e00, e01, e10, e11, e20, e21, e30, e31⟩ := idx_facts9 t
  show V c (Pipeline.arrRef spec9 1) (((cfg9.win 1).blk t).view.emb (ix2 k q)) = V c (Pipeline.arrRef spec9 1) (ix2 k q)
  refine congrArg _ ?_
  funext a; apply Fin.ext
  match a with
  | ⟨0, _⟩ => show win9_1.index t (0 : Fin 2) * 256 + 1 * k.val = k.val; omega
  | ⟨1, _⟩ => show win9_1.index t (1 : Fin 2) * 256 + 1 * q.val = q.val; omega

/-- The block product at point `t`, entry `(p, q)`, is entry `(2000 t + p, q)` of the product of the arrays. -/
theorem blkprod9 (c : Dev nD) (t : Fin cfg9.N) (p : Fin 2000) (q : Fin 256) (hR : 2000 * t.val + p.val < 50000) :
    k9_pay2 (xblk9 V c t) (wblk9 V c t) (ix2 p q)
      = Cert.Spec.mm (xarr9 V c) (warr9 V c) (ix2 ⟨2000 * t.val + p.val, hR⟩ q) := by
  refine (pay2_at9 (xblk9 V c t) (wblk9 V c t) p q).trans ?_
  unfold Cert.Spec.mm
  refine Finset.sum_congr rfl fun k _ => ?_
  rw [xblk9_at V c t p k hR, wblk9_at V c t k q]

/-- The same with the entries given by their coordinates' values. -/
theorem prod_blk9 (c : Dev nD) (t : Fin cfg9.N) (j : S2000x256.Idx) (i : S50000x256.Idx)
    (h0 : (i 0).val = 2000 * t.val + (j 0).val) (h1 : (i 1).val = (j 1).val) :
    k9_pay2 (xblk9 V c t) (wblk9 V c t) j = Cert.Spec.mm (xarr9 V c) (warr9 V c) i := by
  have hi0 : (i 0).val < 50000 := (i 0).isLt
  have hR : 2000 * t.val + (j 0).val < 50000 := by omega
  have hi : i = ix2 ⟨2000 * t.val + (j 0).val, hR⟩ (j 1) := funext fun a => Fin.ext (by
    match a with
    | ⟨0, _⟩ => exact h0
    | ⟨1, _⟩ => exact h1)
  calc k9_pay2 (xblk9 V c t) (wblk9 V c t) j
      = k9_pay2 (xblk9 V c t) (wblk9 V c t) (ix2 (j 0) (j 1)) := congrArg _ (eq_ix2 j)
    _ = Cert.Spec.mm (xarr9 V c) (warr9 V c) (ix2 ⟨2000 * t.val + (j 0).val, hR⟩ (j 1)) := blkprod9 V c t (j 0) (j 1) hR
    _ = Cert.Spec.mm (xarr9 V c) (warr9 V c) i := congrArg _ hi.symm

/-! ## What the outputs and the scratch hold after each point, as values -/

/-- After every point the product window's staging buffer holds the point's block product. -/
theorem outs_prod9 (c : Dev nD) (t : Fin cfg9.N) :
    (outsAt9 V c t.val t.isLt).1 = k9_pay2 (xblk9 V c t) (wblk9 V c t) := by
  by_cases h0 : t.val = 0
  · rw [outsAt9_A V c t h0]
    dsimp only
    exact out9_A_2_eq (F := Ideal) c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t)
  · rw [outsAt9_B V c t h0]
    dsimp only
    exact out9_B_2_eq (F := Ideal) c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2

/-- After every point the statistics window's staging buffer holds what the scratch holds. -/
theorem outs_stats9 (c : Dev nD) (t : Fin cfg9.N) :
    (outsAt9 V c t.val t.isLt).2.1 = (outsAt9 V c t.val t.isLt).2.2 := by
  by_cases h0 : t.val = 0
  · rw [outsAt9_A V c t h0]
    dsimp only
    exact out9_A_3_eq (F := Ideal) c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t)
  · rw [outsAt9_B V c t h0]
    dsimp only
    exact out9_B_3_eq (F := Ideal) c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2

/-- The column sums, and column sums of squares, of the block product at point `t`. -/
def bsum9 (c : Dev nD) (q : Fin 256) (t : Fin cfg9.N) : EReal :=
  ∑ r : Fin 2000, k9_pay2 (xblk9 V c t) (wblk9 V c t) (ix2 r q)
def bsumsq9 (c : Dev nD) (q : Fin 256) (t : Fin cfg9.N) : EReal :=
  ∑ r : Fin 2000, k9_pay2 (xblk9 V c t) (wblk9 V c t) (ix2 r q) * k9_pay2 (xblk9 V c t) (wblk9 V c t) (ix2 r q)

/-- After the first point the scratch holds zero plus the first block's sums. -/
theorem scr_first9 (c : Dev nD) (t : Fin cfg9.N) (h0 : t.val = 0) (q : Fin 256) :
    (outsAt9 V c t.val t.isLt).2.2 (ix2 0 q) = 0 + bsum9 V c q t
      ∧ (outsAt9 V c t.val t.isLt).2.2 (ix2 1 q) = 0 + bsumsq9 V c q t := by
  rw [outsAt9_A V c t h0]
  dsimp only
  exact ⟨sout9_A_row0 c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t) q,
    sout9_A_row1 c (grid9.coords t) (ms9_0 t) (hs9_0 t) (ms9_1 t) (hs9_1 t) (ms9_2 t) (hs9_2 t) (ms9_3 t) (hs9_3 t) scM9 (Memref.isWhole_whole _) ((hcond9 t).mpr h0) (iblk9 V c 0 t) (iblk9 V c 1 t) q⟩

/-- After a later point it holds what it held after the point before plus the point's block's sums. -/
theorem scr_step9 (c : Dev nD) (t : Fin cfg9.N) (h0 : ¬t.val = 0) (q : Fin 256) :
    (outsAt9 V c t.val t.isLt).2.2 (ix2 0 q)
        = (outsAt9 V c (t.val - 1) (Nat.lt_of_le_of_lt (Nat.sub_le _ _) t.isLt)).2.2 (ix2 0 q) + bsum9 V c q t
      ∧ (outsAt9 V c t.val t.isLt).2.2 (ix2 1 q)
        = (outsAt9 V c (t.val - 1) (Nat.lt_of_le_of_lt (Nat.sub_le _ _) t.isLt)).2.2 (ix2 1 q) + bsumsq9 V c q t := by
  rw [outsAt9_B V c t h0]
  dsimp only
  exact ⟨sout9_B_row0 c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2 q,
    sout9_B_row1 c (grid9.coords t) (ms9_0 t) (hs9_0 t) (ms9_1 t) (hs9_1 t) (ms9_2 t) (hs9_2 t) (ms9_3 t) (hs9_3 t) scM9 (Memref.isWhole_whole _) (fun h => h0 ((hcond9 t).mp h)) (iblk9 V c 0 t) (iblk9 V c 1 t) (outsAt9 V c (t.val - 1) (Nat.lt_of_le_of_lt (Nat.sub_le _ _) t.isLt)).2.2 q⟩

/-! ## The accumulation over the 25 points -/

/-- Point `n` of the grid. -/
abbrev pt9 (n : Fin (24 + 1)) : Fin cfg9.N := ⟨n.val, by rw [hN9]; exact n.isLt⟩

/-- What the scratch holds after the last point. -/
def stats9 (c : Dev nD) : Arr 2 256 := (outsAt9 V c 24 (by rw [hN9]; decide)).2.2

/-- The scratch's row 0 after the last point is the sum over the points of the blocks' column sums, -/
theorem stats9_row0 (c : Dev nD) (q : Fin 256) : stats9 V c (ix2 0 q) = ∑ t : Fin (24 + 1), bsum9 V c q (pt9 t) :=
  Cert.Lib.BlockSum.acc_eq_sum_fin 24 (fun t => bsum9 V c q (pt9 t))
    (fun t => (outsAt9 V c t.val (pt9 t).isLt).2.2 (ix2 0 q))
    ((scr_first9 V c (pt9 0) rfl q).1)
    (fun n h => (scr_step9 V c (pt9 ⟨n + 1, h⟩) (Nat.succ_ne_zero n) q).1)

/-- and its row 1 the sum over the points of the blocks' column sums of squares. -/
theorem stats9_row1 (c : Dev nD) (q : Fin 256) : stats9 V c (ix2 1 q) = ∑ t : Fin (24 + 1), bsumsq9 V c q (pt9 t) :=
  Cert.Lib.BlockSum.acc_eq_sum_fin 24 (fun t => bsumsq9 V c q (pt9 t))
    (fun t => (outsAt9 V c t.val (pt9 t).isLt).2.2 (ix2 1 q))
    ((scr_first9 V c (pt9 0) rfl q).2)
    (fun n h => (scr_step9 V c (pt9 ⟨n + 1, h⟩) (Nat.succ_ne_zero n) q).2)

/-- The sums over the 25 blocks of 2000 rows are the sums over the 50000 rows: row 0 holds the column sums of the
    product of the arrays, -/
theorem stats9_colsum (c : Dev nD) (q : Fin 256) :
    stats9 V c (ix2 0 q) = Cert.Spec.colsum (Cert.Spec.mm (xarr9 V c) (warr9 V c)) q := by
  rw [stats9_row0]
  unfold Cert.Spec.colsum
  rw [← Cert.Lib.BlockSum.sum_blocks_50000 (fun r : Fin 50000 => Cert.Spec.mm (xarr9 V c) (warr9 V c) (ix2 r q))]
  refine Finset.sum_congr rfl fun t _ => ?_
  unfold bsum9
  refine Finset.sum_congr rfl fun y _ => ?_
  exact blkprod9 V c (pt9 t) y q _

/-- and row 1 the column sums of its squares. -/
theorem stats9_colsumsq (c : Dev nD) (q : Fin 256) :
    stats9 V c (ix2 1 q) = Cert.Spec.colsumsq (Cert.Spec.mm (xarr9 V c) (warr9 V c)) q := by
  rw [stats9_row1]
  unfold Cert.Spec.colsumsq
  rw [← Cert.Lib.BlockSum.sum_blocks_50000 (fun r : Fin 50000 =>
    Cert.Spec.mm (xarr9 V c) (warr9 V c) (ix2 r q) * Cert.Spec.mm (xarr9 V c) (warr9 V c) (ix2 r q))]
  refine Finset.sum_congr rfl fun t _ => ?_
  unfold bsumsq9
  refine Finset.sum_congr rfl fun y _ => ?_
  rw [blkprod9 V c (pt9 t) y q (by have := t.isLt; have := y.isLt; show 2000 * t.val + y.val < 50000; omega)]

/-! ## From blocks to the arrays -/

/-- What point `t` writes back of the product window is block `t` of the product of the arrays. -/
theorem flushed9_2_eq (c : Dev nD) (t : Fin cfg9.N) :
    (dat9 V c).flushed 2 t = ((cfg9.win 2).blk t).view.read (Elt Ideal) (Cert.Spec.mm (xarr9 V c) (warr9 V c)) := by
  show (cfg9.win 2).cut (grid9.coords t) ((dat9 V c).after 2 t) = _
  rw [after9_2, outs_prod9 V c t]
  obtain ⟨e00, e01, e10, e11, e20, e21, e30, e31⟩ := idx_facts9 t
  funext j
  exact prod_blk9 V c t j (((cfg9.win 2).blk t).view.emb j)
    (by show win9_2.index t (0 : Fin 2) * 2000 + 1 * (j 0).val = 2000 * t.val + (j 0).val; omega)
    (by show win9_2.index t (1 : Fin 2) * 256 + 1 * (j 1).val = (j 1).val; omega)

/-- An index of the product array is in point `t`'s block iff its row is among the 2000 rows from `2000 t`. -/
theorem mem_blk9_2 (t : Fin cfg9.N) (i : S50000x256.Idx) :
    i ∈ ((cfg9.win 2).blk t).view.set ↔ ∀ a : Fin 2, win9_2.index t a * S2000x256.size a ≤ (i a).val ∧ (i a).val < win9_2.index t a * S2000x256.size a + S2000x256.size a := by
  show i ∈ ((View.whole main_v175_0).slice (win9_2.rect t)).set ↔ _
  rw [View.set_slice_whole, Rect.mem_set_unit]
  exact Iff.rfl

/-- Every entry of the product array is in some point's block: row `r` in that of point `r / 2000`. -/
theorem cover9_2 (i : S50000x256.Idx) :
    ∃ t : Fin cfg9.N, (cfg9.win 2).flush t = true ∧ i ∈ ((cfg9.win 2).blk t).view.set := by
  have hi0 : (i 0).val < 50000 := (i 0).isLt
  have hi1 : (i 1).val < 256 := (i 1).isLt
  have hN : (i 0).val / 2000 < cfg9.N := by rw [hN9]; omega
  refine ⟨⟨(i 0).val / 2000, hN⟩, flush9_2 _, ?_⟩
  obtain ⟨e00, e01, e10, e11, e20, e21, e30, e31⟩ := idx_facts9 ⟨(i 0).val / 2000, hN⟩
  rw [mem_blk9_2]
  intro a
  match a with
  | ⟨0, _⟩ =>
    show win9_2.index ⟨(i 0).val / 2000, hN⟩ (0 : Fin 2) * 2000 ≤ (i 0).val ∧ (i 0).val < win9_2.index ⟨(i 0).val / 2000, hN⟩ (0 : Fin 2) * 2000 + 2000
    rw [e20]; show (i 0).val / 2000 * 2000 ≤ (i 0).val ∧ (i 0).val < (i 0).val / 2000 * 2000 + 2000
    omega
  | ⟨1, _⟩ =>
    show win9_2.index ⟨(i 0).val / 2000, hN⟩ (1 : Fin 2) * 256 ≤ (i 1).val ∧ (i 1).val < win9_2.index ⟨(i 0).val / 2000, hN⟩ (1 : Fin 2) * 256 + 256
    rw [e21]; omega

/-- THE PRODUCT ARRAY after the region: the matrix product of the input by the weights, as the region finds them. -/
theorem val9_prod (c : Dev nD) :
    ((dat9 V c).arrAt 2 cfg9.N : Arr 50000 256) = Cert.Spec.mm (xarr9 V c) (warr9 V c) :=
  (dat9 V c).arrAt_eq_of_cover 2 _ (fun t _ => flushed9_2_eq V c t) cover9_2

/-- The contents after a point depend on the point's number only. -/
theorem outsAt9_congr (c : Dev nD) {n m : ℕ} (e : n = m) (hn : n < cfg9.N) (hm : m < cfg9.N) :
    outsAt9 V c n hn = outsAt9 V c m hm := by
  subst e; rfl

/-- At the last point the scratch holds `stats9`. -/
theorem scr_last9 (c : Dev nD) (t : Fin cfg9.N) (h24 : t.val = 24) : (outsAt9 V c t.val t.isLt).2.2 = stats9 V c := by
  unfold stats9
  rw [outsAt9_congr V c h24 t.isLt (by rw [hN9]; decide)]

/-- The one write-back of the statistics window, at the last point, writes what the scratch holds then: its one block is
    the whole array. -/
theorem flushed9_3_eq (c : Dev nD) (t : Fin cfg9.N) (hf : (cfg9.win 3).flush t = true) :
    (dat9 V c).flushed 3 t = ((cfg9.win 3).blk t).view.read (Elt Ideal) (stats9 V c) := by
  have hN : cfg9.N = 25 := hN9
  have h24 : t.val = 24 := by have := (flush9_3 t).mp hf; have := t.isLt; omega
  obtain ⟨e00, e01, e10, e11, e20, e21, e30, e31⟩ := idx_facts9 t
  show (cfg9.win 3).cut (grid9.coords t) ((dat9 V c).after 3 t) = _
  rw [after9_3, outs_stats9 V c t, scr_last9 V c t h24]
  funext j
  show stats9 V c j = stats9 V c (((cfg9.win 3).blk t).view.emb j)
  refine congrArg _ ?_
  funext a; apply Fin.ext
  match a with
  | ⟨0, _⟩ => show (j 0).val = win9_3.index t (0 : Fin 2) * 2 + 1 * (j 0).val; omega
  | ⟨1, _⟩ => show (j 1).val = win9_3.index t (1 : Fin 2) * 256 + 1 * (j 1).val; omega

/-- Every entry of the statistics array is in the last point's block. -/
theorem cover9_3 (i : S2x256.Idx) :
    ∃ t : Fin cfg9.N, (cfg9.win 3).flush t = true ∧ i ∈ ((cfg9.win 3).blk t).view.set := by
  have hi0 : (i 0).val < 2 := (i 0).isLt
  have hi1 : (i 1).val < 256 := (i 1).isLt
  have hN : 24 < cfg9.N := by rw [hN9]; decide
  refine ⟨⟨24, hN⟩, (flush9_3 _).mpr rfl, ?_⟩
  obtain ⟨e00, e01, e10, e11, e20, e21, e30, e31⟩ := idx_facts9 ⟨24, hN⟩
  show i ∈ ((View.whole main_v175_1).slice (win9_3.rect ⟨24, hN⟩)).set
  rw [View.set_slice_whole, Rect.mem_set_unit]
  intro a
  match a with
  | ⟨0, _⟩ =>
    show win9_3.index ⟨24, hN⟩ (0 : Fin 2) * 2 ≤ (i 0).val ∧ (i 0).val < win9_3.index ⟨24, hN⟩ (0 : Fin 2) * 2 + 2
    rw [e30]; omega
  | ⟨1, _⟩ =>
    show win9_3.index ⟨24, hN⟩ (1 : Fin 2) * 256 ≤ (i 1).val ∧ (i 1).val < win9_3.index ⟨24, hN⟩ (1 : Fin 2) * 256 + 256
    rw [e31]; omega

/-- The statistics array after the region is what the scratch holds after the last point. -/
theorem final9_3 (c : Dev nD) : ((dat9 V c).arrAt 3 cfg9.N : Arr 2 256) = stats9 V c :=
  (dat9 V c).arrAt_eq_of_cover 3 (stats9 V c) (flushed9_3_eq V c) cover9_3

/-- THE STATISTICS ARRAY after the region: row 0 the column sums, row 1 the column sums of squares, of the matrix
    product of the input by the weights. -/
theorem val9_stats (c : Dev nD) (j : Fin 256) :
    ((dat9 V c).arrAt 3 cfg9.N : Arr 2 256) (ix2 0 j) = Cert.Spec.colsum (Cert.Spec.mm (xarr9 V c) (warr9 V c)) j
      ∧ ((dat9 V c).arrAt 3 cfg9.N : Arr 2 256) (ix2 1 j) = Cert.Spec.colsumsq (Cert.Spec.mm (xarr9 V c) (warr9 V c)) j := by
  rw [final9_3]
  exact ⟨stats9_colsum V c j, stats9_colsumsq V c j⟩

end Cert.KernelIdeal.HandV

end
-- ==== Proof.KI.P10.lean ====
import proofs.«148047_j37898791420018_1_alg».proof.Proof.Gen.KernelIdeal.Skeleton
import proofs.«148047_j37898791420018_1_alg».proof.Proof.Spec
import proofs.«148047_j37898791420018_1_alg».proof.Proof.KI.P1
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.HandV

open Cert.KernelIdeal Cert.KernelIdeal.Gen
open Idealize.ShloMosaic Idealize.ShloMosaic.ValueIdx

/-! ## Region 10's payloads at an index -/

/-- The normalised, rectified entry the product's left operand holds at (y, k). -/
def act10 (v3 : Vec Ideal S2000x256 .f32) (v5 v7 v9 v11 : Vec Ideal S1x256 .f32) (y : Fin 2000) (k : Fin 256) : EReal :=
  max ((v3 (ix2 y k) - v5 (ix2 0 k)) * Ideal.rsqrt (v7 (ix2 0 k) + Cert.Spec.eps) * v9 (ix2 0 k) + v11 (ix2 0 k)) 0

/-- The product block at (y, q): the sum over k of the activation at (y, k) times the weight at (k, q). -/
theorem k10_pay4_apply (v3 : Vec Ideal S2000x256 .f32) (v5 v7 v9 v11 : Vec Ideal S1x256 .f32) (v27 : Vec Ideal S256x256 .f32)
    (y : Fin 2000) (q : Fin 256) :
    k10_pay4 v3 v5 v7 v9 v11 v27 (ix2 y q) = ∑ k : Fin 256, act10 v3 v5 v7 v9 v11 y k * v27 (ix2 k q) := by
  unfold k10_pay4
  refine (mm1_apply _ _ y q).trans ?_
  refine Finset.sum_congr rfl fun k _ => ?_
  simp only [shapeCast_self]
  show max (((v3 (ix2 y k) - broadcastTo S2000x256 v5 broadcasts_S1x256_S2000x256 (ix2 y k))
      * broadcastTo S2000x256 (rsqrt (addf v7 (broadcast S1x256 (Scalar.ofBits .f32 0x3727C5AC#32 : Ideal .f32))) : FVec Ideal S1x256 .f32) broadcasts_S1x256_S2000x256 (ix2 y k))
      * broadcastTo S2000x256 v9 broadcasts_S1x256_S2000x256 (ix2 y k)
      + broadcastTo S2000x256 v11 broadcasts_S1x256_S2000x256 (ix2 y k)) (Ideal.ofBits .f32 0x00000000#32) * v27 (ix2 k q) = _
  rw [bcast1_row_apply, bcast1_row_apply, bcast1_row_apply, bcast1_row_apply, Ideal.ofBits_zero_f32]
  rfl

/-- The block's column sums, as the body hands them on, at column j. -/
theorem k10_pay5_apply (v3 : Vec Ideal S2000x256 .f32) (v5 v7 v9 v11 : Vec Ideal S1x256 .f32) (v27 : Vec Ideal S256x256 .f32) (j : Fin 256) :
    k10_pay5 v3 v5 v7 v9 v11 v27 (ix2 0 j) = ∑ r : Fin 2000, k10_pay4 v3 v5 v7 v9 v11 v27 (ix2 r j) := by
  unfold k10_pay5
  exact colsum1_row_apply _ j

/-- The first row's update at column j: what the row held plus the block's column sum. -/
theorem k10_pay1_apply (v32 : Vec Ideal S1x256 .f32) (v34 : FVec Ideal S1x256 .f32) (j : Fin 256) :
    k10_pay1 v32 v34 (ix2 0 j) = v32 (ix2 0 j) + v34 (ix2 0 j) := by
  unfold k10_pay1
  simp only [shapeCast_self]
  rfl

/-- The second row's update at column j: what the row held plus the column sum of the block's squares. -/
theorem k10_pay2_apply (v30 : FVec Ideal S2000x256 .f32) (v39 : Vec Ideal S1x256 .f32) (j : Fin 256) :
    k10_pay2 v30 v39 (ix2 0 j) = v39 (ix2 0 j) + ∑ r : Fin 2000, v30 (ix2 r j) * v30 (ix2 r j) := by
  unfold k10_pay2
  simp only [shapeCast_self]
  exact congrArg (v39 (ix2 0 j) + ·) (colsum1_row_apply (mulf v30 v30) j)

/-- The zero fill at any entry. -/
theorem k10_pay3_apply (i : S2x256.Idx) : k10_pay3 (F := Ideal) i = 0 := by
  unfold k10_pay3
  simp only [shapeCast_self]
  exact Ideal.ofBits_zero_f32

end Cert.KernelIdeal.HandV

end
-- ==== Proof.KI.P10found.lean ====
import proofs.«148047_j37898791420018_1_alg».proof.Proof.KI.R10
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

/-! ## The two rows of the 2 × 256 accumulator -/

section Rows
variable {Val : EltTy → Type} [∀ e, Nonempty (Val e)]

theorem hz2_10 : (![0, 0] : Fin 2 → Nat) = fun _ => 0 := funext fun a => by fin_cases a <;> rfl

/-- Row 0 and row 1 of the accumulator, as the rectangles the body loads and stores through. -/
abbrev Rw10_0 : Rect S2x256 := Rect.unit (s := S2x256) ![0, 0] ![1, 256] inb_S2x256_S1x256_0_0
abbrev Rw10_1 : Rect S2x256 := Rect.unit (s := S2x256) ![1, 0] ![1, 256] inb_S2x256_S1x256_1_0

/-- Entry j of row 0 is entry (0, j) of the accumulator; entry j of row 1 is entry (1, j). -/
theorem Rw10_0_idx (j : Fin 256) : Rw10_0.toLoadRect.idx (ix2 0 j : S1x256.Idx) = (ix2 0 j : S2x256.Idx) := by
  funext a; apply Fin.ext
  match a with
  | ⟨0, _⟩ => rfl
  | ⟨1, _⟩ => show 0 + 1 * j.val = j.val; omega
theorem Rw10_1_idx (j : Fin 256) : Rw10_1.toLoadRect.idx (ix2 0 j : S1x256.Idx) = (ix2 1 j : S2x256.Idx) := by
  funext a; apply Fin.ext
  match a with
  | ⟨0, _⟩ => rfl
  | ⟨1, _⟩ => show 0 + 1 * j.val = j.val; omega

/-- An entry is in row 1 exactly when its row coordinate is 1, in row 0 exactly when it is 0. -/
theorem Rw10_1_mem (y : S2x256.Idx) : y ∈ Rw10_1.set ↔ (y 0).val = 1 := by
  rw [Rect.mem_set_unit]
  constructor
  · intro h
    have h0 := h 0
    have h1 : 1 ≤ (y 0).val := h0.1
    have h2 : (y 0).val < 1 + 1 := h0.2
    omega
  · intro h a
    match a with
    | ⟨0, _⟩ => exact ⟨show 1 ≤ (y 0).val by omega, show (y 0).val < 1 + 1 by omega⟩
    | ⟨1, _⟩ => exact ⟨Nat.zero_le _, show (y 1).val < 0 + 256 by have h256 : (y 1).val < 256 := (y 1).isLt; omega⟩
theorem Rw10_0_mem (y : S2x256.Idx) : y ∈ Rw10_0.set ↔ (y 0).val = 0 := by
  rw [Rect.mem_set_unit]
  constructor
  · intro h
    have h0 := h 0
    have h2 : (y 0).val < 0 + 1 := h0.2
    omega
  · intro h a
    match a with
    | ⟨0, _⟩ => exact ⟨Nat.zero_le _, show (y 0).val < 0 + 1 by omega⟩
    | ⟨1, _⟩ => exact ⟨Nat.zero_le _, show (y 1).val < 0 + 256 by have h256 : (y 1).val < 256 := (y 1).isLt; omega⟩

/-- Every entry of row 1 (as an entry of the accumulator) lies outside row 0. -/
theorem Rw10_1_idx_not_mem (x : Rw10_1.shape.Idx) : Rw10_1.toLoadRect.idx x ∉ Rw10_0.set := by
  rw [Rw10_0_mem]
  show ¬(1 + 1 * (x 0).val = 0)
  omega

/-- After a last store through row 1, entry (1, j) is that store's payload at j, -/
theorem canonRw10_1 (p1 : Rw10_1.shape.Idx → Val .f32) (L : List (View.Piece Val S2x256 .f32)) (j : Fin 256) :
    View.canon (⟨Rw10_1, p1⟩ :: L) (ix2 1 j) = p1 (ix2 0 j) := by
  have h := View.canon_cons_emb Rw10_1 p1 L (ix2 0 j)
  rw [show Rw10_1.emb (ix2 0 j) = (ix2 1 j : S2x256.Idx) from Rw10_1_idx j] at h
  exact h
/-- and entry (0, j) is what the stores before it left. -/
theorem canonRw10_1_at0 (p1 : Rw10_1.shape.Idx → Val .f32) (L : List (View.Piece Val S2x256 .f32)) (j : Fin 256) :
    View.canon (⟨Rw10_1, p1⟩ :: L) (ix2 0 j) = View.canon L (ix2 0 j) :=
  View.canon_cons_of_not_mem _ L (fun h => by
    have h' : (0 : ℕ) = 1 := (Rw10_1_mem (ix2 0 j)).mp h
    omega)
/-- After a last store through row 0, entry (0, j) is that store's payload at j. -/
theorem canonRw10_0 (p0 : Rw10_0.shape.Idx → Val .f32) (L : List (View.Piece Val S2x256 .f32)) (j : Fin 256) :
    View.canon (⟨Rw10_0, p0⟩ :: L) (ix2 0 j) = p0 (ix2 0 j) := by
  have h := View.canon_cons_emb Rw10_0 p0 L (ix2 0 j)
  rw [show Rw10_0.emb (ix2 0 j) = (ix2 0 j : S2x256.Idx) from Rw10_0_idx j] at h
  exact h

/-- Two last stores through row 1 and row 0 leave nothing of what was stored before them: every entry is in one
    of the two rows. -/
theorem canonRw10_two (p1 : Rw10_1.shape.Idx → Val .f32) (p0 : Rw10_0.shape.Idx → Val .f32) (L : List (View.Piece Val S2x256 .f32)) :
    View.canon (⟨Rw10_1, p1⟩ :: ⟨Rw10_0, p0⟩ :: L) = View.canon [⟨Rw10_1, p1⟩, ⟨Rw10_0, p0⟩] := by
  funext y
  by_cases h1 : y ∈ Rw10_1.set
  · obtain ⟨x, rfl⟩ := Rw10_1.exists_idx_of_mem h1
    exact (View.canon_cons_emb Rw10_1 p1 (⟨Rw10_0, p0⟩ :: L) x).trans (View.canon_cons_emb Rw10_1 p1 [⟨Rw10_0, p0⟩] x).symm
  · refine (View.canon_cons_of_not_mem (⟨Rw10_1, p1⟩ : View.Piece Val S2x256 .f32) (⟨Rw10_0, p0⟩ :: L) h1).trans ?_
    refine Eq.trans ?_ (View.canon_cons_of_not_mem (⟨Rw10_1, p1⟩ : View.Piece Val S2x256 .f32) [⟨Rw10_0, p0⟩] h1).symm
    have h0 : y ∈ Rw10_0.set := by
      rw [Rw10_0_mem]
      have hn : ¬(y 0).val = 1 := fun h => h1 ((Rw10_1_mem y).mpr h)
      have h2 : (y 0).val < 2 := (y 0).isLt
      omega
    obtain ⟨x, rfl⟩ := Rw10_0.exists_idx_of_mem h0
    exact (View.canon_cons_emb Rw10_0 p0 L x).trans (View.canon_cons_emb Rw10_0 p0 [] x).symm

/-- A load of row 0 after ONE whole store reads the payload's row 0. -/
theorem readCovRw10_0_whole {sig : RefSig} {κ : Kind} {sp : Space} (v : View sig κ sp S2x256 .f32)
    (inb : ∀ a, (![0, 0] : Fin 2 → Nat) a + S2x256.size a ≤ S2x256.size a) (w : S2x256.Idx → Val .f32) :
    v.readCov [(⟨Rect.unit ![0, 0] S2x256.size inb, w⟩ : View.Piece Val S2x256 .f32)] Rw10_0.toLoadRect = View.ld w Rw10_0 := by
  rw [View.readCov_eq_canon', View.canon_unit_zero (S := S2x256) hz2_10]
/-- A load of row 1 after a whole store and then a store through row 0 reads the whole store's payload's row 1. -/
theorem readCovRw10_1_whole {sig : RefSig} {κ : Kind} {sp : Space} (v : View sig κ sp S2x256 .f32)
    (inb : ∀ a, (![0, 0] : Fin 2 → Nat) a + S2x256.size a ≤ S2x256.size a) (w : S2x256.Idx → Val .f32)
    (p0 : Rw10_0.shape.Idx → Val .f32) :
    v.readCov [⟨Rw10_0, p0⟩, (⟨Rect.unit ![0, 0] S2x256.size inb, w⟩ : View.Piece Val S2x256 .f32)] Rw10_1.toLoadRect = View.ld w Rw10_1 := by
  rw [View.readCov_eq_canon']
  funext x
  rw [View.canon_cons_of_not_mem _ _ (Rw10_1_idx_not_mem x), View.canon_unit_zero (S := S2x256) hz2_10]

end Rows

variable {F : FTy → Type} [FloatOps F]

/-! ## One row block's step of the accumulator -/

/-- Row 0 and row 1 of accumulator contents `S`, as the one-row vectors the body loads. -/
abbrev accRow10_0 (S : Vec F S2x256 .f32) : Vec F S1x256 .f32 := View.ld S Rw10_0
abbrev accRow10_1 (S : Vec F S2x256 .f32) : Vec F S1x256 .f32 := View.ld S Rw10_1

theorem accRow10_0_apply (S : Vec F S2x256 .f32) (j : Fin 256) : accRow10_0 S (ix2 0 j) = S (ix2 0 j) :=
  congrArg S (Rw10_0_idx j)
theorem accRow10_1_apply (S : Vec F S2x256 .f32) (j : Fin 256) : accRow10_1 S (ix2 0 j) = S (ix2 1 j) :=
  congrArg S (Rw10_1_idx j)

/-- The accumulator after one row block with input blocks `x0 … x5`, entered at contents `S`: row 0 is `S`'s row 0
    plus the column sums of the block's product, row 1 is `S`'s row 1 plus the column sums of the product's squares. -/
def accStep10 (x0 : Vec F S2000x256 .f32) (x1 x2 x3 x4 : Vec F S1x256 .f32) (x5 : Vec F S256x256 .f32)
    (S : Vec F S2x256 .f32) : Vec F S2x256 .f32 :=
  View.canon [⟨Rw10_1, k10_pay2 (k10_pay4 x0 x1 x2 x3 x4 x5) (accRow10_1 S)⟩, ⟨Rw10_0, k10_pay1 (accRow10_0 S) (k10_pay5 x0 x1 x2 x3 x4 x5)⟩]

theorem accStep10_row0 (x0 : Vec F S2000x256 .f32) (x1 x2 x3 x4 : Vec F S1x256 .f32) (x5 : Vec F S256x256 .f32)
    (S : Vec F S2x256 .f32) (j : Fin 256) :
    accStep10 x0 x1 x2 x3 x4 x5 S (ix2 0 j) = k10_pay1 (accRow10_0 S) (k10_pay5 x0 x1 x2 x3 x4 x5) (ix2 0 j) := by
  unfold accStep10
  rw [canonRw10_1_at0, canonRw10_0]
theorem accStep10_row1 (x0 : Vec F S2000x256 .f32) (x1 x2 x3 x4 : Vec F S1x256 .f32) (x5 : Vec F S256x256 .f32)
    (S : Vec F S2x256 .f32) (j : Fin 256) :
    accStep10 x0 x1 x2 x3 x4 x5 S (ix2 1 j) = k10_pay2 (k10_pay4 x0 x1 x2 x3 x4 x5) (accRow10_1 S) (ix2 0 j) := by
  unfold accStep10
  rw [canonRw10_1]

/-! ## The found pieces as payloads -/

/-- The product window after either case: the block's product. -/
theorem out10_A_6_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) :
    out10_A_6 c i arg1 harg1 arg2 harg2 arg3 harg3 arg4 harg4 arg5 harg5 arg6 harg6 arg7 harg7 arg8 harg8 arg9 harg9 hc0 x0 x1 x2 x3 x4 x5 = k10_pay4 x0 x1 x2 x3 x4 x5 := by
  unfold out10_A_6
  rw [View.read_writes_junk_eq_canon]
  unfold kernelRun10_A; dsimp only; sl_unfold_words
  rw [View.canon_unit_zero hz2_10]
  simp only [View.readAt_eq_ld, harg1.read_unread, harg2.read_unread, harg3.read_unread, harg4.read_unread, harg5.read_unread, harg6.read_unread, View.ld_unit_zero (S := S2000x256) hz2_10, View.ld_unit_zero (S := S1x256) hz2_10, View.ld_unit_zero (S := S256x256) hz2_10]
theorem out10_B_6_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) :
    out10_B_6 c i arg1 harg1 arg2 harg2 arg3 harg3 arg4 harg4 arg5 harg5 arg6 harg6 arg7 harg7 arg8 harg8 arg9 harg9 hc0 x0 x1 x2 x3 x4 x5 xs0 = k10_pay4 x0 x1 x2 x3 x4 x5 := by
  unfold out10_B_6
  rw [View.read_writes_junk_eq_canon]
  unfold kernelRun10_B; dsimp only; sl_unfold_words
  rw [View.canon_unit_zero hz2_10]
  simp only [View.readAt_eq_ld, harg1.read_unread, harg2.read_unread, harg3.read_unread, harg4.read_unread, harg5.read_unread, harg6.read_unread, View.ld_unit_zero (S := S2000x256) hz2_10, View.ld_unit_zero (S := S1x256) hz2_10, View.ld_unit_zero (S := S256x256) hz2_10]

/-- The accumulator after the first row block: one step from the zero fill. -/
theorem sout10_A_0_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) :
    sout10_A_0 c i arg1 harg1 arg2 harg2 arg3 harg3 arg4 harg4 arg5 harg5 arg6 harg6 arg7 harg7 arg8 harg8 arg9 harg9 hc0 x0 x1 x2 x3 x4 x5 = accStep10 x0 x1 x2 x3 x4 x5 k10_pay3 := by
  unfold sout10_A_0
  rw [View.read_writes_junk_eq_canon]
  unfold kernelRun10_A; dsimp only; sl_unfold_words; dsimp only
  simp only [View.readAt_eq_ld, harg1.read_unread, harg2.read_unread, harg3.read_unread, harg4.read_unread, harg5.read_unread, harg6.read_unread, View.ld_unit_zero (S := S2000x256) hz2_10, View.ld_unit_zero (S := S1x256) hz2_10, View.ld_unit_zero (S := S256x256) hz2_10]
  rw [readCovRw10_0_whole, readCovRw10_1_whole, canonRw10_two]
  rfl

/-- The accumulator after a later row block: one step from what it was entered at. -/
theorem sout10_B_0_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) :
    sout10_B_0 c i arg1 harg1 arg2 harg2 arg3 harg3 arg4 harg4 arg5 harg5 arg6 harg6 arg7 harg7 arg8 harg8 arg9 harg9 hc0 x0 x1 x2 x3 x4 x5 xs0 = accStep10 x0 x1 x2 x3 x4 x5 xs0 := by
  unfold sout10_B_0
  rw [View.read_writes_junk_eq_canon]
  unfold kernelRun10_B; dsimp only; sl_unfold_words; dsimp only
  simp only [View.readAt_eq_ld, harg1.read_unread, harg2.read_unread, harg3.read_unread, harg4.read_unread, harg5.read_unread, harg6.read_unread, harg9.read_unread, View.ld_unit_zero (S := S2000x256) hz2_10, View.ld_unit_zero (S := S1x256) hz2_10, View.ld_unit_zero (S := S256x256) hz2_10]
  rfl

/-- The statistics window receives a copy of the accumulator. -/
theorem out10_A_7_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : cond10_0 i)
    (x0 : Vec F S2000x256 .f32) (x1 x2 x3 x4 : Vec F S1x256 .f32) (x5 : Vec F S256x256 .f32) :
    out10_A_7 c i arg1 harg1 arg2 harg2 arg3 harg3 arg4 harg4 arg5 harg5 arg6 harg6 arg7 harg7 arg8 harg8 arg9 harg9 hc0 x0 x1 x2 x3 x4 x5 = sout10_A_0 c i arg1 harg1 arg2 harg2 arg3 harg3 arg4 harg4 arg5 harg5 arg6 harg6 arg7 harg7 arg8 harg8 arg9 harg9 hc0 x0 x1 x2 x3 x4 x5 := by
  unfold out10_A_7 sout10_A_0
  rw [View.read_writes_junk_eq_canon, View.read_writes_junk_eq_canon]
  unfold kernelRun10_A; dsimp only; sl_unfold_words
  rw [View.canon_unit_zero hz2_10, View.readCov_eq_canon']
  exact View.ld_unit_zero (S := S2x256) hz2_10 _ _
theorem out10_B_7_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S2000x256 .f32) (harg7 : arg7.IsWhole) (arg8 : Memref sig .tc .vmem S2x256 .f32) (harg8 : arg8.IsWhole) (arg9 : Memref sig .tc .vmem S2x256 .f32) (harg9 : arg9.IsWhole) (hc0 : ¬cond10_0 i)
    (x0 : Vec F S2000x256 .f32) (x1 x2 x3 x4 : Vec F S1x256 .f32) (x5 : Vec F S256x256 .f32) (xs0 : Vec F S2x256 .f32) :
    out10_B_7 c i arg1 harg1 arg2 harg2 arg3 harg3 arg4 harg4 arg5 harg5 arg6 harg6 arg7 harg7 arg8 harg8 arg9 harg9 hc0 x0 x1 x2 x3 x4 x5 xs0 = sout10_B_0 c i arg1 harg1 arg2 harg2 arg3 harg3 arg4 harg4 arg5 harg5 arg6 harg6 arg7 harg7 arg8 harg8 arg9 harg9 hc0 x0 x1 x2 x3 x4 x5 xs0 := by
  unfold out10_B_7 sout10_B_0
  rw [View.read_writes_junk_eq_canon, View.read_writes_junk_eq_canon]
  unfold kernelRun10_B; dsimp only; sl_unfold_words
  rw [View.canon_unit_zero hz2_10, View.readCov_eq_canon']
  exact View.ld_unit_zero (S := S2x256) hz2_10 _ _

end Cert.KernelIdeal.HandV

end
-- ==== Proof.KI.V10.lean ====
import proofs.«148047_j37898791420018_1_alg».proof.Proof.KI.R10
import proofs.«148047_j37898791420018_1_alg».proof.Proof.KI.P10
import proofs.«148047_j37898791420018_1_alg».proof.Proof.KI.P10found
import proofs.«148047_j37898791420018_1_alg».proof.Proof.LibBlockSum
import proofs.«148047_j37898791420018_1_alg».proof.Proof.Spec
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

/-! # Region 10's value: the product array is the normalised, rectified activations times the weights, and the
    statistics array holds that product's column sums and column sums of squares -/

variable (V : (c : Dev nD) → (b : Ref sig .tc) → Buf (Elt Ideal) ((c : Thread nD τ).loc b))

/-! ## Region 10's arrays and blocks, at their literal types -/

/-- The six input arrays as the region finds them. -/
abbrev A10_0 (c : Dev nD) : Cert.Spec.Arr 50000 256 := V c (Pipeline.arrRef spec10 0)
abbrev A10_1 (c : Dev nD) : Cert.Spec.Arr 1 256 := V c (Pipeline.arrRef spec10 1)
abbrev A10_2 (c : Dev nD) : Cert.Spec.Arr 1 256 := V c (Pipeline.arrRef spec10 2)
abbrev A10_3 (c : Dev nD) : Cert.Spec.Arr 1 256 := V c (Pipeline.arrRef spec10 3)
abbrev A10_4 (c : Dev nD) : Cert.Spec.Arr 1 256 := V c (Pipeline.arrRef spec10 4)
abbrev A10_5 (c : Dev nD) : Cert.Spec.Arr 256 256 := V c (Pipeline.arrRef spec10 5)

/-- The blocks the body loads at point `t`. -/
abbrev xb10 (c : Dev nD) (t : Fin cfg10.N) : Vec Ideal S2000x256 .f32 := iblk10 V c 0 t
abbrev rb10_1 (c : Dev nD) (t : Fin cfg10.N) : Vec Ideal S1x256 .f32 := iblk10 V c 1 t
abbrev rb10_2 (c : Dev nD) (t : Fin cfg10.N) : Vec Ideal S1x256 .f32 := iblk10 V c 2 t
abbrev rb10_3 (c : Dev nD) (t : Fin cfg10.N) : Vec Ideal S1x256 .f32 := iblk10 V c 3 t
abbrev rb10_4 (c : Dev nD) (t : Fin cfg10.N) : Vec Ideal S1x256 .f32 := iblk10 V c 4 t
abbrev wb10 (c : Dev nD) (t : Fin cfg10.N) : Vec Ideal S256x256 .f32 := iblk10 V c 5 t

/-- The printed index maps, decided over the grid: the activations' and the product's blocks move down the rows with
    the point, every other window stays on its one block. -/
theorem idx10_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0
    ∧ win10_7.index t (0 : Fin 2) = 0 ∧ win10_7.index t (1 : Fin 2) = 0 :=
  (by decide +kernel : ∀ t : Fin grid10.N, _)

theorem lt10 (t : Fin cfg10.N) : t.val < 25 := lt_of_lt_of_eq t.isLt (show cfg10.N = 25 from N_10)

/-- Row `2000 · t + y` of the 50000, from the point and the row inside the block. -/
def rowAt10 (t : Fin cfg10.N) (y : Fin 2000) : Fin 50000 := ⟨2000 * t.val + y.val, by have := lt10 t; omega⟩

/-- The activations' block at point `t`, entry (y, k): the array's entry (2000 · t + y, k). -/
theorem xb10_apply (c : Dev nD) (t : Fin cfg10.N) (y : Fin 2000) (k : Fin 256) :
    xb10 V c t (ix2 y k) = A10_0 V c (ix2 (rowAt10 t y) k) := by
  obtain ⟨e0, e1, -⟩ := idx10_facts t
  show V c (Pipeline.arrRef spec10 0) (((cfg10.win 0).blk t).view.emb (ix2 y k)) = V c (Pipeline.arrRef spec10 0) (ix2 (rowAt10 t y) k)
  refine congrArg _ (funext fun a => Fin.ext ?_)
  match a with
  | ⟨0, _⟩ => show win10_0.index t (0 : Fin 2) * 2000 + 1 * y.val = 2000 * t.val + y.val; omega
  | ⟨1, _⟩ => show win10_0.index t (1 : Fin 2) * 256 + 1 * k.val = k.val; omega

/-- The five one-block windows' blocks are their whole arrays. -/
theorem rb10_1_eq (c : Dev nD) (t : Fin cfg10.N) : rb10_1 V c t = A10_1 V c := by
  obtain ⟨-, -, e1a, e1b, e2a, e2b, e3a, e3b, e4a, e4b, e5a, e5b, -⟩ := idx10_facts t
  funext y
  show V c (Pipeline.arrRef spec10 1) (((cfg10.win 1).blk t).view.emb y) = V c (Pipeline.arrRef spec10 1) y
  refine congrArg _ (funext fun a => Fin.ext ?_)
  match a with
  | ⟨0, _⟩ => show win10_1.index t (0 : Fin 2) * 1 + 1 * (y 0).val = (y 0).val; omega
  | ⟨1, _⟩ => show win10_1.index t (1 : Fin 2) * 256 + 1 * (y 1).val = (y 1).val; omega
theorem rb10_2_eq (c : Dev nD) (t : Fin cfg10.N) : rb10_2 V c t = A10_2 V c := by
  obtain ⟨-, -, e1a, e1b, e2a, e2b, e3a, e3b, e4a, e4b, e5a, e5b, -⟩ := idx10_facts t
  funext y
  show V c (Pipeline.arrRef spec10 2) (((cfg10.win 2).blk t).view.emb y) = V c (Pipeline.arrRef spec10 2) y
  refine congrArg _ (funext fun a => Fin.ext ?_)
  match a with
  | ⟨0, _⟩ => show win10_2.index t (0 : Fin 2) * 1 + 1 * (y 0).val = (y 0).val; omega
  | ⟨1, _⟩ => show win10_2.index t (1 : Fin 2) * 256 + 1 * (y 1).val = (y 1).val; omega
theorem rb10_3_eq (c : Dev nD) (t : Fin cfg10.N) : rb10_3 V c t = A10_3 V c := by
  obtain ⟨-, -, e1a, e1b, e2a, e2b, e3a, e3b, e4a, e4b, e5a, e5b, -⟩ := idx10_facts t
  funext y
  show V c (Pipeline.arrRef spec10 3) (((cfg10.win 3).blk t).view.emb y) = V c (Pipeline.arrRef spec10 3) y
  refine congrArg _ (funext fun a => Fin.ext ?_)
  match a with
  | ⟨0, _⟩ => show win10_3.index t (0 : Fin 2) * 1 + 1 * (y 0).val = (y 0).val; omega
  | ⟨1, _⟩ => show win10_3.index t (1 : Fin 2) * 256 + 1 * (y 1).val = (y 1).val; omega
theorem rb10_4_eq (c : Dev nD) (t : Fin cfg10.N) : rb10_4 V c t = A10_4 V c := by
  obtain ⟨-, -, e1a, e1b, e2a, e2b, e3a, e3b, e4a, e4b, e5a, e5b, -⟩ := idx10_facts t
  funext y
  show V c (Pipeline.arrRef spec10 4) (((cfg10.win 4).blk t).view.emb y) = V c (Pipeline.arrRef spec10 4) y
  refine congrArg _ (funext fun a => Fin.ext ?_)
  match a with
  | ⟨0, _⟩ => show win10_4.index t (0 : Fin 2) * 1 + 1 * (y 0).val = (y 0).val; omega
  | ⟨1, _⟩ => show win10_4.index t (1 : Fin 2) * 256 + 1 * (y 1).val = (y 1).val; omega
theorem wb10_eq (c : Dev nD) (t : Fin cfg10.N) : wb10 V c t = A10_5 V c := by
  obtain ⟨-, -, e1a, e1b, e2a, e2b, e3a, e3b, e4a, e4b, e5a, e5b, -⟩ := idx10_facts t
  funext y
  show V c (Pipeline.arrRef spec10 5) (((cfg10.win 5).blk t).view.emb y) = V c (Pipeline.arrRef spec10 5) y
  refine congrArg _ (funext fun a => Fin.ext ?_)
  match a with
  | ⟨0, _⟩ => show win10_5.index t (0 : Fin 2) * 256 + 1 * (y 0).val = (y 0).val; omega
  | ⟨1, _⟩ => show win10_5.index t (1 : Fin 2) * 256 + 1 * (y 1).val = (y 1).val; omega

/-- The normalised, rectified activations as one array. -/
def Y10 (c : Dev nD) : Cert.Spec.Arr 50000 256 :=
  Cert.Spec.bnrelu (A10_0 V c) (Cert.Spec.row (A10_1 V c) 0) (Cert.Spec.row (A10_2 V c) 0) (Cert.Spec.row (A10_3 V c) 0) (Cert.Spec.row (A10_4 V c) 0)

/-- The product block the body stores at point `t`. -/
abbrev m10 (c : Dev nD) (t : Fin cfg10.N) : Vec Ideal S2000x256 .f32 :=
  k10_pay4 (xb10 V c t) (rb10_1 V c t) (rb10_2 V c t) (rb10_3 V c t) (rb10_4 V c t) (wb10 V c t)

/-- It is block `t` of the product of the activations with the weights. -/
theorem m10_apply (c : Dev nD) (t : Fin cfg10.N) (y : Fin 2000) (q : Fin 256) :
    m10 V c t (ix2 y q) = Cert.Spec.mm (Y10 V c) (A10_5 V c) (ix2 (rowAt10 t y) q) := by
  refine (k10_pay4_apply _ _ _ _ _ _ y q).trans ?_
  rw [rb10_1_eq, rb10_2_eq, rb10_3_eq, rb10_4_eq, wb10_eq]
  unfold Cert.Spec.mm
  refine Finset.sum_congr rfl fun k _ => ?_
  unfold act10
  rw [xb10_apply]
  rfl

/-! ## The accumulator's step at the ideal values -/

/-- One step leaves in row 0, column j, what the row held plus the column sum of the block product, -/
theorem accStep10_val0 (x0 : Vec Ideal S2000x256 .f32) (x1 x2 x3 x4 : Vec Ideal S1x256 .f32) (x5 : Vec Ideal S256x256 .f32) (S : Vec Ideal S2x256 .f32) (j : Fin 256) :
    accStep10 x0 x1 x2 x3 x4 x5 S (ix2 0 j) = S (ix2 0 j) + ∑ r : Fin 2000, k10_pay4 x0 x1 x2 x3 x4 x5 (ix2 r j) := by
  refine (accStep10_row0 x0 x1 x2 x3 x4 x5 S j).trans ((k10_pay1_apply _ _ j).trans ?_)
  rw [accRow10_0_apply, k10_pay5_apply]
/-- and in row 1 what the row held plus the column sum of its squares. -/
theorem accStep10_val1 (x0 : Vec Ideal S2000x256 .f32) (x1 x2 x3 x4 : Vec Ideal S1x256 .f32) (x5 : Vec Ideal S256x256 .f32) (S : Vec Ideal S2x256 .f32) (j : Fin 256) :
    accStep10 x0 x1 x2 x3 x4 x5 S (ix2 1 j)
      = S (ix2 1 j) + ∑ r : Fin 2000, k10_pay4 x0 x1 x2 x3 x4 x5 (ix2 r j) * k10_pay4 x0 x1 x2 x3 x4 x5 (ix2 r j) := by
  refine (accStep10_row1 x0 x1 x2 x3 x4 x5 S j).trans ((k10_pay2_apply _ _ j).trans ?_)
  rw [accRow10_1_apply]

/-! ## What the outputs and the accumulator hold after each point, as values -/

/-- After every point the product window's staging buffer holds the point's block product. -/
theorem outs10_prod (c : Dev nD) (t : Fin cfg10.N) : (outsAt10 V c t.val t.isLt).1 = m10 V c t := by
  by_cases h0 : t.val % 25 = 0
  · rw [outsAt10_A V c t h0]
    dsimp only
    exact out10_A_6_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t)
  · rw [outsAt10_B V c t h0]
    dsimp only
    exact out10_B_6_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2

/-- After the first point the accumulator and the statistics window hold one step from the zero fill, -/
theorem outs10_first (c : Dev nD) (t : Fin cfg10.N) (h0 : t.val % 25 = 0) :
    (outsAt10 V c t.val t.isLt).2.1 = accStep10 (xb10 V c t) (rb10_1 V c t) (rb10_2 V c t) (rb10_3 V c t) (rb10_4 V c t) (wb10 V c t) (k10_pay3 (F := Ideal))
      ∧ (outsAt10 V c t.val t.isLt).2.2 = accStep10 (xb10 V c t) (rb10_1 V c t) (rb10_2 V c t) (rb10_3 V c t) (rb10_4 V c t) (wb10 V c t) (k10_pay3 (F := Ideal)) := by
  rw [outsAt10_A V c t h0]
  dsimp only
  exact ⟨(out10_A_7_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t)).trans
      (sout10_A_0_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t)),
    sout10_A_0_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (iblk10 V c 0 t) (iblk10 V c 1 t) (iblk10 V c 2 t) (iblk10 V c 3 t) (iblk10 V c 4 t) (iblk10 V c 5 t)⟩

/-- after a later point one step from what the point before left. -/
theorem outs10_later (c : Dev nD) (t : Fin cfg10.N) (h0 : ¬t.val % 25 = 0) :
    (outsAt10 V c t.val t.isLt).2.1 = accStep10 (xb10 V c t) (rb10_1 V c t) (rb10_2 V c t) (rb10_3 V c t) (rb10_4 V c t) (wb10 V c t) (outsAt10 V c (t.val - 1) (Nat.lt_of_le_of_lt (Nat.sub_le _ _) t.isLt)).2.2
      ∧ (outsAt10 V c t.val t.isLt).2.2 = accStep10 (xb10 V c t) (rb10_1 V c t) (rb10_2 V c t) (rb10_3 V c t) (rb10_4 V c t) (wb10 V c t) (outsAt10 V c (t.val - 1) (Nat.lt_of_le_of_lt (Nat.sub_le _ _) t.isLt)).2.2 := by
  rw [outsAt10_B V c t h0]
  dsimp only
  exact ⟨(out10_B_7_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2).trans
      (sout10_B_0_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2),
    sout10_B_0_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (iblk10 V c 0 t) (iblk10 V c 1 t) (iblk10 V c 2 t) (iblk10 V c 3 t) (iblk10 V c 4 t) (iblk10 V c 5 t) (outsAt10 V c (t.val - 1) (Nat.lt_of_le_of_lt (Nat.sub_le _ _) t.isLt)).2.2⟩

/-- After every point the statistics window's staging buffer holds what the accumulator holds. -/
theorem outs10_stats (c : Dev nD) (t : Fin cfg10.N) : (outsAt10 V c t.val t.isLt).2.1 = (outsAt10 V c t.val t.isLt).2.2 := by
  by_cases h0 : t.val % 25 = 0
  · exact (outs10_first V c t h0).1.trans (outs10_first V c t h0).2.symm
  · exact (outs10_later V c t h0).1.trans (outs10_later V c t h0).2.symm

/-- The column sums, and the column sums of squares, of the block product at point `t`. -/
def bsum10 (c : Dev nD) (j : Fin 256) (t : Fin cfg10.N) : EReal := ∑ r : Fin 2000, m10 V c t (ix2 r j)
def bsumsq10 (c : Dev nD) (j : Fin 256) (t : Fin cfg10.N) : EReal := ∑ r : Fin 2000, m10 V c t (ix2 r j) * m10 V c t (ix2 r j)

theorem acc10_first (c : Dev nD) (t : Fin cfg10.N) (h0 : t.val % 25 = 0) (j : Fin 256) :
    (outsAt10 V c t.val t.isLt).2.2 (ix2 0 j) = 0 + bsum10 V c j t
      ∧ (outsAt10 V c t.val t.isLt).2.2 (ix2 1 j) = 0 + bsumsq10 V c j t := by
  rw [(outs10_first V c t h0).2]
  constructor
  · refine (accStep10_val0 _ _ _ _ _ _ _ j).trans ?_
    rw [k10_pay3_apply]; rfl
  · refine (accStep10_val1 _ _ _ _ _ _ _ j).trans ?_
    rw [k10_pay3_apply]; rfl

theorem acc10_later (c : Dev nD) (t : Fin cfg10.N) (h0 : ¬t.val % 25 = 0) (j : Fin 256) :
    (outsAt10 V c t.val t.isLt).2.2 (ix2 0 j) = (outsAt10 V c (t.val - 1) (Nat.lt_of_le_of_lt (Nat.sub_le _ _) t.isLt)).2.2 (ix2 0 j) + bsum10 V c j t
      ∧ (outsAt10 V c t.val t.isLt).2.2 (ix2 1 j) = (outsAt10 V c (t.val - 1) (Nat.lt_of_le_of_lt (Nat.sub_le _ _) t.isLt)).2.2 (ix2 1 j) + bsumsq10 V c j t := by
  rw [(outs10_later V c t h0).2]
  exact ⟨accStep10_val0 _ _ _ _ _ _ _ j, accStep10_val1 _ _ _ _ _ _ _ j⟩

/-! ## The accumulation over the 25 points -/

theorem hN10 : cfg10.N = 25 := N_10

/-- Point `n` of the grid. -/
abbrev pt10 (n : Fin (24 + 1)) : Fin cfg10.N := ⟨n.val, by rw [hN10]; exact n.isLt⟩

/-- What the accumulator holds after the last point. -/
def stats10 (c : Dev nD) : Cert.Spec.Arr 2 256 := (outsAt10 V c 24 (by rw [hN10]; decide)).2.2

theorem stats10_row0 (c : Dev nD) (j : Fin 256) : stats10 V c (ix2 0 j) = ∑ t : Fin (24 + 1), bsum10 V c j (pt10 t) :=
  Cert.Lib.BlockSum.acc_eq_sum_fin 24 (fun t => bsum10 V c j (pt10 t))
    (fun t => (outsAt10 V c t.val (pt10 t).isLt).2.2 (ix2 0 j))
    ((acc10_first V c (pt10 0) rfl j).1)
    (fun n h => (acc10_later V c (pt10 ⟨n + 1, h⟩) (by show ¬(n + 1) % 25 = 0; omega) j).1)

theorem stats10_row1 (c : Dev nD) (j : Fin 256) : stats10 V c (ix2 1 j) = ∑ t : Fin (24 + 1), bsumsq10 V c j (pt10 t) :=
  Cert.Lib.BlockSum.acc_eq_sum_fin 24 (fun t => bsumsq10 V c j (pt10 t))
    (fun t => (outsAt10 V c t.val (pt10 t).isLt).2.2 (ix2 1 j))
    ((acc10_first V c (pt10 0) rfl j).2)
    (fun n h => (acc10_later V c (pt10 ⟨n + 1, h⟩) (by show ¬(n + 1) % 25 = 0; omega) j).2)

/-- The sums over the 25 blocks of 2000 rows are the sums over the 50000 rows. -/
theorem stats10_colsum (c : Dev nD) (j : Fin 256) :
    stats10 V c (ix2 0 j) = Cert.Spec.colsum (Cert.Spec.mm (Y10 V c) (A10_5 V c)) j := by
  rw [stats10_row0]
  unfold Cert.Spec.colsum
  rw [← Cert.Lib.BlockSum.sum_blocks_50000 (fun r : Fin 50000 => Cert.Spec.mm (Y10 V c) (A10_5 V c) (ix2 r j))]
  refine Finset.sum_congr rfl fun t _ => ?_
  unfold bsum10
  refine Finset.sum_congr rfl fun y _ => ?_
  exact m10_apply V c (pt10 t) y j

theorem stats10_colsumsq (c : Dev nD) (j : Fin 256) :
    stats10 V c (ix2 1 j) = Cert.Spec.colsumsq (Cert.Spec.mm (Y10 V c) (A10_5 V c)) j := by
  rw [stats10_row1]
  unfold Cert.Spec.colsumsq
  rw [← Cert.Lib.BlockSum.sum_blocks_50000 (fun r : Fin 50000 =>
    Cert.Spec.mm (Y10 V c) (A10_5 V c) (ix2 r j) * Cert.Spec.mm (Y10 V c) (A10_5 V c) (ix2 r j))]
  refine Finset.sum_congr rfl fun t _ => ?_
  unfold bsumsq10
  refine Finset.sum_congr rfl fun y _ => ?_
  rw [m10_apply V c (pt10 t) y j]
  rfl

/-! ## From blocks to the arrays -/

/-- The block product at point `t`, at an entry given by its coordinates' values. -/
theorem m10_at (c : Dev nD) (t : Fin cfg10.N) (j : S2000x256.Idx) (i : S50000x256.Idx)
    (h0 : (i 0).val = 2000 * t.val + (j 0).val) (h1 : (i 1).val = (j 1).val) :
    m10 V c t j = Cert.Spec.mm (Y10 V c) (A10_5 V c) i := by
  have hi : i = ix2 (rowAt10 t (j 0)) (j 1) := funext fun a => Fin.ext (by
    match a with
    | ⟨0, _⟩ => exact h0
    | ⟨1, _⟩ => exact h1)
  calc m10 V c t j = m10 V c t (ix2 (j 0) (j 1)) := congrArg _ (eq_ix2 j)
    _ = Cert.Spec.mm (Y10 V c) (A10_5 V c) (ix2 (rowAt10 t (j 0)) (j 1)) := m10_apply V c t (j 0) (j 1)
    _ = Cert.Spec.mm (Y10 V c) (A10_5 V c) i := congrArg _ hi.symm

/-- What point `t` writes back of the product window is block `t` of the product of the activations by the weights. -/
theorem flushed10_6_eq (c : Dev nD) (t : Fin cfg10.N) :
    (dat10 V c).flushed 6 t = ((cfg10.win 6).blk t).view.read (Elt Ideal) (Cert.Spec.mm (Y10 V c) (A10_5 V c)) := by
  show (cfg10.win 6).cut (grid10.coords t) ((dat10 V c).after 6 t) = _
  rw [after10_6, outs10_prod V c t]
  obtain ⟨-, -, -, -, -, -, -, -, -, -, -, -, e60, e61, -⟩ := idx10_facts t
  funext j
  exact m10_at V c t j (((cfg10.win 6).blk t).view.emb j)
    (by show win10_6.index t (0 : Fin 2) * 2000 + 1 * (j 0).val = 2000 * t.val + (j 0).val; omega)
    (by show win10_6.index t (1 : Fin 2) * 256 + 1 * (j 1).val = (j 1).val; omega)

/-- An index of the product array is in point `t`'s block iff its row is among the 2000 rows from `2000 t`. -/
theorem mem_blk10_6 (t : Fin cfg10.N) (i : S50000x256.Idx) :
    i ∈ ((cfg10.win 6).blk t).view.set ↔ ∀ a : Fin 2, win10_6.index t a * S2000x256.size a ≤ (i a).val ∧ (i a).val < win10_6.index t a * S2000x256.size a + S2000x256.size a := by
  show i ∈ ((View.whole main_v194_0).slice (win10_6.rect t)).set ↔ _
  rw [View.set_slice_whole, Rect.mem_set_unit]
  exact Iff.rfl

/-- Every entry of the product array is in some point's block: row `r` in that of point `r / 2000`. -/
theorem cover10_6 (i : S50000x256.Idx) :
    ∃ t : Fin cfg10.N, (cfg10.win 6).flush t = true ∧ i ∈ ((cfg10.win 6).blk t).view.set := by
  have hi0 : (i 0).val < 50000 := (i 0).isLt
  have hi1 : (i 1).val < 256 := (i 1).isLt
  have hN : (i 0).val / 2000 < cfg10.N := by rw [hN10]; omega
  refine ⟨⟨(i 0).val / 2000, hN⟩, flush10_6 _, ?_⟩
  obtain ⟨-, -, -, -, -, -, -, -, -, -, -, -, e60, e61, -⟩ := idx10_facts ⟨(i 0).val / 2000, hN⟩
  rw [mem_blk10_6]
  intro a
  match a with
  | ⟨0, _⟩ =>
    show win10_6.index ⟨(i 0).val / 2000, hN⟩ (0 : Fin 2) * 2000 ≤ (i 0).val ∧ (i 0).val < win10_6.index ⟨(i 0).val / 2000, hN⟩ (0 : Fin 2) * 2000 + 2000
    rw [e60]; show (i 0).val / 2000 * 2000 ≤ (i 0).val ∧ (i 0).val < (i 0).val / 2000 * 2000 + 2000
    omega
  | ⟨1, _⟩ =>
    show win10_6.index ⟨(i 0).val / 2000, hN⟩ (1 : Fin 2) * 256 ≤ (i 1).val ∧ (i 1).val < win10_6.index ⟨(i 0).val / 2000, hN⟩ (1 : Fin 2) * 256 + 256
    rw [e61]; omega

/-- THE PRODUCT ARRAY after the region: the normalised, rectified activations times the weights. -/
theorem val10_prod (c : Dev nD) :
    ((dat10 V c).arrAt 6 cfg10.N : Cert.Spec.Arr 50000 256) = Cert.Spec.mm (Y10 V c) (A10_5 V c) :=
  (dat10 V c).arrAt_eq_of_cover 6 _ (fun t _ => flushed10_6_eq V c t) cover10_6

/-- The contents after a point depend on the point's number only. -/
theorem outsAt10_congr (c : Dev nD) {n m : ℕ} (e : n = m) (hn : n < cfg10.N) (hm : m < cfg10.N) :
    outsAt10 V c n hn = outsAt10 V c m hm := by
  subst e; rfl

/-- At the last point the accumulator holds `stats10`. -/
theorem acc10_last (c : Dev nD) (t : Fin cfg10.N) (h24 : t.val = 24) : (outsAt10 V c t.val t.isLt).2.2 = stats10 V c := by
  unfold stats10
  rw [outsAt10_congr V c h24 t.isLt (by rw [hN10]; decide)]

/-- The one write-back of the statistics window, at the last point, writes what the accumulator holds then: its one
    block is the whole array. -/
theorem flushed10_7_eq (c : Dev nD) (t : Fin cfg10.N) (hf : (cfg10.win 7).flush t = true) :
    (dat10 V c).flushed 7 t = ((cfg10.win 7).blk t).view.read (Elt Ideal) (stats10 V c) := by
  have hN : cfg10.N = 25 := hN10
  have h24 : t.val = 24 := by have := (flush10_7 t).mp hf; have := t.isLt; omega
  obtain ⟨-, -, -, -, -, -, -, -, -, -, -, -, -, -, e70, e71⟩ := idx10_facts t
  show (cfg10.win 7).cut (grid10.coords t) ((dat10 V c).after 7 t) = _
  rw [after10_7, outs10_stats V c t, acc10_last V c t h24]
  funext j
  show stats10 V c j = stats10 V c (((cfg10.win 7).blk t).view.emb j)
  refine congrArg _ ?_
  funext a; apply Fin.ext
  match a with
  | ⟨0, _⟩ => show (j 0).val = win10_7.index t (0 : Fin 2) * 2 + 1 * (j 0).val; omega
  | ⟨1, _⟩ => show (j 1).val = win10_7.index t (1 : Fin 2) * 256 + 1 * (j 1).val; omega

/-- Every entry of the statistics array is in the last point's block. -/
theorem cover10_7 (i : S2x256.Idx) :
    ∃ t : Fin cfg10.N, (cfg10.win 7).flush t = true ∧ i ∈ ((cfg10.win 7).blk t).view.set := by
  have hi0 : (i 0).val < 2 := (i 0).isLt
  have hi1 : (i 1).val < 256 := (i 1).isLt
  have hN : 24 < cfg10.N := by rw [hN10]; decide
  refine ⟨⟨24, hN⟩, (flush10_7 _).mpr rfl, ?_⟩
  obtain ⟨-, -, -, -, -, -, -, -, -, -, -, -, -, -, e70, e71⟩ := idx10_facts ⟨24, hN⟩
  show i ∈ ((View.whole main_v194_1).slice (win10_7.rect ⟨24, hN⟩)).set
  rw [View.set_slice_whole, Rect.mem_set_unit]
  intro a
  match a with
  | ⟨0, _⟩ =>
    show win10_7.index ⟨24, hN⟩ (0 : Fin 2) * 2 ≤ (i 0).val ∧ (i 0).val < win10_7.index ⟨24, hN⟩ (0 : Fin 2) * 2 + 2
    rw [e70]; omega
  | ⟨1, _⟩ =>
    show win10_7.index ⟨24, hN⟩ (1 : Fin 2) * 256 ≤ (i 1).val ∧ (i 1).val < win10_7.index ⟨24, hN⟩ (1 : Fin 2) * 256 + 256
    rw [e71]; omega

/-- The statistics array after the region is what the accumulator holds after the last point. -/
theorem final10_7 (c : Dev nD) : ((dat10 V c).arrAt 7 cfg10.N : Cert.Spec.Arr 2 256) = stats10 V c :=
  (dat10 V c).arrAt_eq_of_cover 7 (stats10 V c) (flushed10_7_eq V c) cover10_7

/-- THE STATISTICS ARRAY after the region: row 0 the column sums, row 1 the column sums of squares, of the product of
    the normalised, rectified activations by the weights. -/
theorem val10_stats (c : Dev nD) (j : Fin 256) :
    ((dat10 V c).arrAt 7 cfg10.N : Cert.Spec.Arr 2 256) (ix2 0 j) = Cert.Spec.colsum (Cert.Spec.mm (Y10 V c) (A10_5 V c)) j
      ∧ ((dat10 V c).arrAt 7 cfg10.N : Cert.Spec.Arr 2 256) (ix2 1 j) = Cert.Spec.colsumsq (Cert.Spec.mm (Y10 V c) (A10_5 V c)) j := by
  rw [final10_7]
  exact ⟨stats10_colsum V c j, stats10_colsumsq V c j⟩

end Cert.KernelIdeal.HandV

end
-- ==== Proof.KI.V11.lean ====
import proofs.«148047_j37898791420018_1_alg».proof.Proof.KI.R11
import proofs.«148047_j37898791420018_1_alg».proof.Proof.Spec
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (Arr Vc)

variable (V : (c : Dev nD) → (b : Ref sig .tc) → Buf (Elt Ideal) ((c : Thread nD τ).loc b))

/-! # Region 11's value: the result array is the normalise-scale-shift-rectify of the activations `z` by the four
    parameter rows, entry by entry -/

/-- The five input arrays as the region finds them, at their literal types: the activations `z` and the rows of
    column means, column variances, gains and offsets. -/
abbrev zarr11 (c : Dev nD) : Arr 50000 256 := V c (Pipeline.arrRef spec11 0)
abbrev marr11 (c : Dev nD) : Arr 1 256 := V c (Pipeline.arrRef spec11 1)
abbrev varr11 (c : Dev nD) : Arr 1 256 := V c (Pipeline.arrRef spec11 2)
abbrev garr11 (c : Dev nD) : Arr 1 256 := V c (Pipeline.arrRef spec11 3)
abbrev barr11 (c : Dev nD) : Arr 1 256 := V c (Pipeline.arrRef spec11 4)

theorem hz11 : (![0, 0] : Fin 2 → Nat) = fun _ => 0 := funext fun a => by fin_cases a <;> rfl

/-- A (1,256) row broadcast down the 2000 rows of a block reads, at `(p, q)`, the row's entry `q`. -/
theorem bcast_row11 {α : Type} (x : S1x256.Idx → α) (h : S1x256.Broadcasts S2000x256) (p : Fin 2000) (q : Fin 256) :
    broadcastTo S2000x256 x h (ix2 p q) = x (ix2 0 q) :=
  broadcastTo_apply x h (ix2 p q) (ix2 0 q) (fun a => by match a with | ⟨0, _⟩ => rfl | ⟨1, _⟩ => rfl)

/-- The body's payload at an entry `(p, q)` of the block: the block's entry, less the mean of column `q`, times the
    reciprocal square root of that column's variance plus the constant, times its gain, plus its offset, clamped below
    at zero. -/
theorem pay_at11 (x0 : Vec Ideal S2000x256 .f32) (x1 x2 x3 x4 : Vec Ideal S1x256 .f32) (p : Fin 2000) (q : Fin 256) :
    k11_pay1 x0 x1 x2 x3 x4 (ix2 p q)
      = max ((x0 (ix2 p q) - x1 (ix2 0 q)) * Ideal.rsqrt (x2 (ix2 0 q) + Cert.Spec.eps) * x3 (ix2 0 q) + x4 (ix2 0 q)) 0 := by
  unfold k11_pay1
  simp only [shapeCast_self]
  simp only [maximumf_apply, addf_apply, mulf_apply, subf_apply, bcast_row11, broadcast_apply]
  rw [show (FloatOps.ofBits (F := Ideal) FTy.f32 0#32) = (0 : EReal) from Ideal.ofBits_zero_f32]
  rfl

/-- The payload of blocks that are parts of whole arrays — the block's entry `j` is the array's entry `i` in the same
    column, and each parameter block is its whole row — is the specification's entry `i`. -/
theorem pay_blk11 (x0 : Vec Ideal S2000x256 .f32) (x1 x2 x3 x4 : Vec Ideal S1x256 .f32)
    (Z : Arr 50000 256) (M Va G B : Arr 1 256) (j : S2000x256.Idx) (i : S50000x256.Idx)
    (h0 : x0 j = Z i) (hq : (j 1).val = (i 1).val)
    (h1 : ∀ q, x1 (ix2 0 q) = M (ix2 0 q)) (h2 : ∀ q, x2 (ix2 0 q) = Va (ix2 0 q))
    (h3 : ∀ q, x3 (ix2 0 q) = G (ix2 0 q)) (h4 : ∀ q, x4 (ix2 0 q) = B (ix2 0 q)) :
    k11_pay1 x0 x1 x2 x3 x4 j
      = Cert.Spec.bnrelu Z (Cert.Spec.row M 0) (Cert.Spec.row Va 0) (Cert.Spec.row G 0) (Cert.Spec.row B 0) i := by
  obtain ⟨p, q, rfl⟩ : ∃ (p : Fin 2000) (q : Fin 256), j = ix2 p q := ⟨j 0, j 1, eq_ix2 j⟩
  have hi : i 1 = q := Fin.ext hq.symm
  rw [pay_at11, h0, h1, h2, h3, h4]
  unfold Cert.Spec.bnrelu Cert.Spec.row
  rw [hi]

/-- The windows' block indices over the grid: the activations' and the result's block at point `t` is block `t` of
    rows, all columns; each parameter row is its one block throughout. -/
theorem idx_facts11 : ∀ t : Fin cfg11.N,
      win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- The activations' block at point `t` is the part of the array the result's block at `t` covers: entry `j` of the
    one is the array's entry at `j`'s place in the other. -/
theorem blk_z11 (c : Dev nD) (t : Fin cfg11.N) (j : S2000x256.Idx) :
    iblk11 V c 0 t j = zarr11 V c (((cfg11.win 5).blk t).view.emb j) := by
  obtain ⟨e00, e01, e10, e11, e20, e21, e30, e31, e40, e41, e50, e51⟩ := idx_facts11 t
  show V c (Pipeline.arrRef spec11 0) (((cfg11.win 0).blk t).view.emb j) = V c (Pipeline.arrRef spec11 0) (((cfg11.win 5).blk t).view.emb j)
  refine congrArg _ ?_
  funext a; apply Fin.ext
  match a with
  | ⟨0, _⟩ => show win11_0.index t (0 : Fin 2) * 2000 + 1 * (j 0).val = win11_5.index t (0 : Fin 2) * 2000 + 1 * (j 0).val; omega
  | ⟨1, _⟩ => show win11_0.index t (1 : Fin 2) * 256 + 1 * (j 1).val = win11_5.index t (1 : Fin 2) * 256 + 1 * (j 1).val; omega

/-- The result's block keeps the columns: entry `j` of the block is in column `j 1` of the array. -/
theorem blk_col11 (t : Fin cfg11.N) (j : S2000x256.Idx) : (j 1).val = ((((cfg11.win 5).blk t).view.emb j) 1).val := by
  obtain ⟨e00, e01, e10, e11, e20, e21, e30, e31, e40, e41, e50, e51⟩ := idx_facts11 t
  show (j 1).val = win11_5.index t (1 : Fin 2) * 256 + 1 * (j 1).val
  omega

/-- The block of the row of column means is the whole row, at every point. -/
theorem blk_row11_1 (c : Dev nD) (t : Fin cfg11.N) (q : Fin 256) : iblk11 V c 1 t (ix2 0 q) = marr11 V c (ix2 0 q) := by
  obtain ⟨e00, e01, e10, e11, e20, e21, e30, e31, e40, e41, e50, e51⟩ := idx_facts11 t
  show V c (Pipeline.arrRef spec11 1) (((cfg11.win 1).blk t).view.emb (ix2 0 q)) = V c (Pipeline.arrRef spec11 1) (ix2 0 q)
  refine congrArg _ ?_
  funext a; apply Fin.ext
  match a with
  | ⟨0, _⟩ => show win11_1.index t (0 : Fin 2) * 1 + 1 * 0 = 0; omega
  | ⟨1, _⟩ => show win11_1.index t (1 : Fin 2) * 256 + 1 * q.val = q.val; omega

/-- The block of the row of column variances is the whole row, at every point. -/
theorem blk_row11_2 (c : Dev nD) (t : Fin cfg11.N) (q : Fin 256) : iblk11 V c 2 t (ix2 0 q) = varr11 V c (ix2 0 q) := by
  obtain ⟨e00, e01, e10, e11, e20, e21, e30, e31, e40, e41, e50, e51⟩ := idx_facts11 t
  show V c (Pipeline.arrRef spec11 2) (((cfg11.win 2).blk t).view.emb (ix2 0 q)) = V c (Pipeline.arrRef spec11 2) (ix2 0 q)
  refine congrArg _ ?_
  funext a; apply Fin.ext
  match a with
  | ⟨0, _⟩ => show win11_2.index t (0 : Fin 2) * 1 + 1 * 0 = 0; omega
  | ⟨1, _⟩ => show win11_2.index t (1 : Fin 2) * 256 + 1 * q.val = q.val; omega

/-- The block of the row of column gains is the whole row, at every point. -/
theorem blk_row11_3 (c : Dev nD) (t : Fin cfg11.N) (q : Fin 256) : iblk11 V c 3 t (ix2 0 q) = garr11 V c (ix2 0 q) := by
  obtain ⟨e00, e01, e10, e11, e20, e21, e30, e31, e40, e41, e50, e51⟩ := idx_facts11 t
  show V c (Pipeline.arrRef spec11 3) (((cfg11.win 3).blk t).view.emb (ix2 0 q)) = V c (Pipeline.arrRef spec11 3) (ix2 0 q)
  refine congrArg _ ?_
  funext a; apply Fin.ext
  match a with
  | ⟨0, _⟩ => show win11_3.index t (0 : Fin 2) * 1 + 1 * 0 = 0; omega
  | ⟨1, _⟩ => show win11_3.index t (1 : Fin 2) * 256 + 1 * q.val = q.val; omega

/-- The block of the row of column offsets is the whole row, at every point. -/
theorem blk_row11_4 (c : Dev nD) (t : Fin cfg11.N) (q : Fin 256) : iblk11 V c 4 t (ix2 0 q) = barr11 V c (ix2 0 q) := by
  obtain ⟨e00, e01, e10, e11, e20, e21, e30, e31, e40, e41, e50, e51⟩ := idx_facts11 t
  show V c (Pipeline.arrRef spec11 4) (((cfg11.win 4).blk t).view.emb (ix2 0 q)) = V c (Pipeline.arrRef spec11 4) (ix2 0 q)
  refine congrArg _ ?_
  funext a; apply Fin.ext
  match a with
  | ⟨0, _⟩ => show win11_4.index t (0 : Fin 2) * 1 + 1 * 0 = 0; omega
  | ⟨1, _⟩ => show win11_4.index t (1 : Fin 2) * 256 + 1 * q.val = q.val; omega

/-- What point `t` writes back is block `t` of the specification's array. -/
theorem flushed_eq11 (c : Dev nD) (t : Fin cfg11.N) :
    (dat11 V c).flushed 5 t = ((cfg11.win 5).blk t).view.read (Elt Ideal)
      (Cert.Spec.bnrelu (zarr11 V c) (Cert.Spec.row (marr11 V c) 0) (Cert.Spec.row (varr11 V c) 0)
        (Cert.Spec.row (garr11 V c) 0) (Cert.Spec.row (barr11 V c) 0)) := by
  show (cfg11.win 5).cut (grid11.coords t) ((dat11 V c).after 5 t) = _
  rw [after11_5]
  unfold out11_5
  rw [View.canon_unit_zero hz11]
  simp only [View.ld_unit_zero (S := S2000x256) hz11, View.ld_unit_zero (S := S1x256) hz11]
  funext j
  show k11_pay1 (iblk11 V c 0 t) (iblk11 V c 1 t) (iblk11 V c 2 t) (iblk11 V c 3 t) (iblk11 V c 4 t) j
    = Cert.Spec.bnrelu (zarr11 V c) (Cert.Spec.row (marr11 V c) 0) (Cert.Spec.row (varr11 V c) 0)
        (Cert.Spec.row (garr11 V c) 0) (Cert.Spec.row (barr11 V c) 0) (((cfg11.win 5).blk t).view.emb j)
  exact pay_blk11 (iblk11 V c 0 t) (iblk11 V c 1 t) (iblk11 V c 2 t) (iblk11 V c 3 t) (iblk11 V c 4 t)
    (zarr11 V c) (marr11 V c) (varr11 V c) (garr11 V c) (barr11 V c) j (((cfg11.win 5).blk t).view.emb j)
    (blk_z11 V c t j) (blk_col11 t j) (blk_row11_1 V c t) (blk_row11_2 V c t) (blk_row11_3 V c t) (blk_row11_4 V c t)

/-- An index of the result array is in point `t`'s block iff its row is among the 2000 rows from `2000 t`. -/
theorem mem_blk11 (t : Fin cfg11.N) (i : S50000x256.Idx) :
    i ∈ ((cfg11.win 5).blk t).view.set ↔ ∀ a : Fin 2, win11_5.index t a * S2000x256.size a ≤ (i a).val ∧ (i a).val < win11_5.index t a * S2000x256.size a + S2000x256.size a := by
  show i ∈ ((View.whole (Pipeline.arrRef spec11 5)).slice (win11_5.rect t)).set ↔ _
  rw [View.set_slice_whole, Rect.mem_set_unit]
  exact Iff.rfl

/-- Every entry of the result array is in some point's block: row `r` in that of point `r / 2000`. -/
theorem cover_arr11 (i : S50000x256.Idx) :
    ∃ t : Fin cfg11.N, (cfg11.win 5).flush t = true ∧ i ∈ ((cfg11.win 5).blk t).view.set := by
  have hi0 : (i 0).val < 50000 := (i 0).isLt
  have hi1 : (i 1).val < 256 := (i 1).isLt
  have hN : (i 0).val / 2000 < cfg11.N := by
    show (i 0).val / 2000 < grid11.N
    rw [N_11]; omega
  refine ⟨⟨(i 0).val / 2000, hN⟩, flush11_5 _, ?_⟩
  obtain ⟨e00, e01, e10, e11, e20, e21, e30, e31, e40, e41, e50, e51⟩ := idx_facts11 ⟨(i 0).val / 2000, hN⟩
  rw [mem_blk11]
  intro a
  match a with
  | ⟨0, _⟩ =>
    show win11_5.index ⟨(i 0).val / 2000, hN⟩ (0 : Fin 2) * 2000 ≤ (i 0).val ∧ (i 0).val < win11_5.index ⟨(i 0).val / 2000, hN⟩ (0 : Fin 2) * 2000 + 2000
    rw [e50]; show (i 0).val / 2000 * 2000 ≤ (i 0).val ∧ (i 0).val < (i 0).val / 2000 * 2000 + 2000
    omega
  | ⟨1, _⟩ =>
    show win11_5.index ⟨(i 0).val / 2000, hN⟩ (1 : Fin 2) * 256 ≤ (i 1).val ∧ (i 1).val < win11_5.index ⟨(i 0).val / 2000, hN⟩ (1 : Fin 2) * 256 + 256
    rw [e51]; omega

/-- THE VALUE of region 11: after the region the result array is the specification's normalise-scale-shift-rectify of
    the activations by row 0 of each of the four parameter arrays, as the region finds them. -/
theorem val11_out (c : Dev nD) :
    ((dat11 V c).arrAt 5 cfg11.N : Arr 50000 256)
      = Cert.Spec.bnrelu (zarr11 V c) (Cert.Spec.row (marr11 V c) 0) (Cert.Spec.row (varr11 V c) 0)
          (Cert.Spec.row (garr11 V c) 0) (Cert.Spec.row (barr11 V c) 0) :=
  (dat11 V c).arrAt_eq_of_cover 5 _ (fun t _ => flushed_eq11 V c t) cover_arr11

end Cert.KernelIdeal.HandV

end
-- ==== Proof.KI.V12.lean ====
import proofs.«148047_j37898791420018_1_alg».proof.Proof.KI.R12
import proofs.«148047_j37898791420018_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The two products read at an index -/

theorem lhs12a_0 (j : S2000x64.Idx) (k : dot_S2000x128_S128x64_S2000x64_1_0_0_1_n_n.contr.Idx) :
    (dot_S2000x128_S128x64_S2000x64_1_0_0_1_n_n.lhsIdx j k 0).val = (j 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

theorem lhs12a_1 (j : S2000x64.Idx) (k : dot_S2000x128_S128x64_S2000x64_1_0_0_1_n_n.contr.Idx) :
    (dot_S2000x128_S128x64_S2000x64_1_0_0_1_n_n.lhsIdx j k 1).val = (k ⟨0, by decide⟩).val :=
  dot_S2000x128_S128x64_S2000x64_1_0_0_1_n_n.lhsIdx_val_of_single rfl j k

theorem rhs12a_0 (j : S2000x64.Idx) (k : dot_S2000x128_S128x64_S2000x64_1_0_0_1_n_n.contr.Idx) :
    (dot_S2000x128_S128x64_S2000x64_1_0_0_1_n_n.rhsIdx j k 0).val = (k ⟨0, by decide⟩).val :=
  dot_S2000x128_S128x64_S2000x64_1_0_0_1_n_n.rhsIdx_val_of_single rfl j k

theorem rhs12a_1 (j : S2000x64.Idx) (k : dot_S2000x128_S128x64_S2000x64_1_0_0_1_n_n.contr.Idx) :
    (dot_S2000x128_S128x64_S2000x64_1_0_0_1_n_n.rhsIdx j k 1).val = (j 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The 128-deep product into a zero accumulator (the input block times the first head's weights), at row `p` and column `q`: the sum over the
    contracted coordinate of the products of the entries. -/
theorem mm12a_apply (A : FVec Ideal S2000x128 .bf16) (Bm : FVec Ideal S128x64 .bf16) (p : Fin 2000) (q : Fin 64) :
    matmul dot_S2000x128_S128x64_S2000x64_1_0_0_1_n_n none A Bm (constant S2000x64 .f32 0x00000000#32) (ix2 p q)
      = ∑ k : Fin 128, A (ix2 p k) * Bm (ix2 k q) := by
  show FloatOps.matmul dot_S2000x128_S128x64_S2000x64_1_0_0_1_n_n none A Bm (constant S2000x64 .f32 0x00000000#32) (ix2 p q) = _
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have hl : dot_S2000x128_S128x64_S2000x64_1_0_0_1_n_n.lhsIdx (ix2 p q)
      ((contrEquiv1 dot_S2000x128_S128x64_S2000x64_1_0_0_1_n_n 128 rfl rfl).symm k) = ix2 p k := by
    funext a; apply Fin.ext
    match a with
    | ⟨0, _⟩ => exact lhs12a_0 _ _
    | ⟨1, _⟩ => exact (lhs12a_1 _ _).trans hk
  have hr : dot_S2000x128_S128x64_S2000x64_1_0_0_1_n_n.rhsIdx (ix2 p q)
      ((contrEquiv1 dot_S2000x128_S128x64_S2000x64_1_0_0_1_n_n 128 rfl rfl).symm k) = ix2 k q := by
    funext a; apply Fin.ext
    match a with
    | ⟨0, _⟩ => exact (rhs12a_0 _ _).trans hk
    | ⟨1, _⟩ => exact rhs12a_1 _ _
  rw [hl, hr]

theorem lhs12b_0 (j : S2000x64.Idx) (k : dot_S2000x256_S256x64_S2000x64_1_0_0_1_n_n.contr.Idx) :
    (dot_S2000x256_S256x64_S2000x64_1_0_0_1_n_n.lhsIdx j k 0).val = (j 0).val := by
  unfold DotDims.lhsIdx
  rw [dif_neg (show ¬(0 : Fin S2000x256.rank) ∈ dot_S2000x256_S256x64_S2000x64_1_0_0_1_n_n.lhsBatch by decide),
    dif_pos (show (0 : Fin S2000x256.rank) ∈ dot_S2000x256_S256x64_S2000x64_1_0_0_1_n_n.lhsNonContracting by decide)]
  rfl

theorem lhs12b_1 (j : S2000x64.Idx) (k : dot_S2000x256_S256x64_S2000x64_1_0_0_1_n_n.contr.Idx) :
    (dot_S2000x256_S256x64_S2000x64_1_0_0_1_n_n.lhsIdx j k 1).val = (k ⟨0, by decide⟩).val :=
  dot_S2000x256_S256x64_S2000x64_1_0_0_1_n_n.lhsIdx_val_of_single rfl j k

theorem rhs12b_0 (j : S2000x64.Idx) (k : dot_S2000x256_S256x64_S2000x64_1_0_0_1_n_n.contr.Idx) :
    (dot_S2000x256_S256x64_S2000x64_1_0_0_1_n_n.rhsIdx j k 0).val = (k ⟨0, by decide⟩).val :=
  dot_S2000x256_S256x64_S2000x64_1_0_0_1_n_n.rhsIdx_val_of_single rfl j k

theorem rhs12b_1 (j : S2000x64.Idx) (k : dot_S2000x256_S256x64_S2000x64_1_0_0_1_n_n.contr.Idx) :
    (dot_S2000x256_S256x64_S2000x64_1_0_0_1_n_n.rhsIdx j k 1).val = (j 1).val := by
  unfold DotDims.rhsIdx
  rw [dif_neg (show ¬(1 : Fin S256x64.rank) ∈ dot_S2000x256_S256x64_S2000x64_1_0_0_1_n_n.rhsBatch by decide),
    dif_pos (show (1 : Fin S256x64.rank) ∈ dot_S2000x256_S256x64_S2000x64_1_0_0_1_n_n.rhsNonContracting by decide)]
  rfl

/-- The 256-deep product into a zero accumulator (a layer's block times that head's weights), at row `p` and column `q`: the sum over the
    contracted coordinate of the products of the entries. -/
theorem mm12b_apply (A : FVec Ideal S2000x256 .bf16) (Bm : FVec Ideal S256x64 .bf16) (p : Fin 2000) (q : Fin 64) :
    matmul dot_S2000x256_S256x64_S2000x64_1_0_0_1_n_n none A Bm (constant S2000x64 .f32 0x00000000#32) (ix2 p q)
      = ∑ k : Fin 256, A (ix2 p k) * Bm (ix2 k q) := by
  show FloatOps.matmul dot_S2000x256_S256x64_S2000x64_1_0_0_1_n_n none A Bm (constant S2000x64 .f32 0x00000000#32) (ix2 p q) = _
  rw [Ideal.matmul_constant_zero_apply,
    ← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have hl : dot_S2000x256_S256x64_S2000x64_1_0_0_1_n_n.lhsIdx (ix2 p q)
      ((contrEquiv1 dot_S2000x256_S256x64_S2000x64_1_0_0_1_n_n 256 rfl rfl).symm k) = ix2 p k := by
    funext a; apply Fin.ext
    match a with
    | ⟨0, _⟩ => exact lhs12b_0 _ _
    | ⟨1, _⟩ => exact (lhs12b_1 _ _).trans hk
  have hr : dot_S2000x256_S256x64_S2000x64_1_0_0_1_n_n.rhsIdx (ix2 p q)
      ((contrEquiv1 dot_S2000x256_S256x64_S2000x64_1_0_0_1_n_n 256 rfl rfl).symm k) = ix2 k q := by
    funext a; apply Fin.ext
    match a with
    | ⟨0, _⟩ => exact (rhs12b_0 _ _).trans hk
    | ⟨1, _⟩ => exact rhs12b_1 _ _
  rw [hl, hr]

/-! ## The layout operations read at an index -/

/-- A bias row broadcast down the 2000 rows reads the row's entry at the column. -/
theorem bias12_apply {α : Type} (b : S1x64.Idx → α) (p : Fin 2000) (q : Fin 64) :
    broadcastTo S2000x64 b broadcasts_S1x64_S2000x64 (ix2 p q) = b (ix2 0 q) :=
  broadcastTo_apply b broadcasts_S1x64_S2000x64 (ix2 p q) (ix2 0 q) (fun a => by
    match a with
    | ⟨0, _⟩ => rfl
    | ⟨1, _⟩ => rfl)

/-- One slab of the stacked weights, its unit axis dropped, reads the slab's entry. -/
theorem wcast12_apply {α : Type} (Wk : S1x256x64.Idx → α) (k : Fin 256) (q : Fin 64) :
    shapeCast S256x64 Wk shapeCasts_S1x256x64_S256x64 (ix2 k q) = Wk (ix3 0 k q) :=
  shapeCast_apply Wk shapeCasts_S1x256x64_S256x64 (ix2 k q) (ix3 (0 : Fin 1) k q) (by
    rw [Shape.rowMajor_val_three, Shape.rowMajor_val_two]
    show (0 * 256 + k.val) * 64 + q.val = k.val * 64 + q.val
    omega)

/-! ## The payload as a first term and four steps -/

variable {F : FTy → Type} [FloatOps F]

/-- A layer's block in the product's format. -/
def tr12 (x : Vec F S2000x256 .f32) : FVec F S2000x256 .bf16 :=
  truncf .bf16 (shapeCast S2000x256 x shapeCasts_S2000x256_S2000x256) bitsLt_bf16_f32

/-- The first head: the input block times its weights, plus its bias row. -/
def first12 (h : Vec F S2000x128 .f32) (w0 : Vec F S128x64 .f32) (b0 : Vec F S1x64 .f32) : FVec F S2000x64 .f32 :=
  addf (matmul dot_S2000x128_S128x64_S2000x64_1_0_0_1_n_n none (truncf .bf16 h bitsLt_bf16_f32) (truncf .bf16 w0 bitsLt_bf16_f32) (constant S2000x64 .f32 0x00000000#32))
    (broadcastTo S2000x64 (shapeCast S1x64 b0 shapeCasts_S1x64_S1x64) broadcasts_S1x64_S2000x64)

/-- One more head added to a running sum: the layer's block times the head's slab, then the head's bias row. -/
def step12 (acc : FVec F S2000x64 .f32) (xb : FVec F S2000x256 .bf16) (Wk : Vec F S1x256x64 .f32) (Bk : Vec F S1x64 .f32) : FVec F S2000x64 .f32 :=
  addf (addf acc (matmul dot_S2000x256_S256x64_S2000x64_1_0_0_1_n_n none xb (truncf .bf16 (shapeCast S256x64 Wk shapeCasts_S1x256x64_S256x64) bitsLt_bf16_f32) (constant S2000x64 .f32 0x00000000#32)))
    (broadcastTo S2000x64 Bk broadcasts_S1x64_S2000x64)

/-- The stored payload is the first head and four steps, in the body's order. -/
theorem pay12_eq (h : Vec F S2000x128 .f32) (x1 x2 x3 x4 : Vec F S2000x256 .f32) (w0 : Vec F S128x64 .f32)
    (b0 : Vec F S1x64 .f32) (W0 W1 W2 W3 : Vec F S1x256x64 .f32) (B0 B1 B2 B3 : Vec F S1x64 .f32) :
    k12_pay1 (k12_pay2 h w0 b0 x1 W0 B0 x2 W1 B1) (k12_pay3 x3) W2 B2 x4 W3 B3
      = step12 (step12 (step12 (step12 (first12 h w0 b0) (tr12 x1) W0 B0) (tr12 x2) W1 B1) (tr12 x3) W2 B2) (tr12 x4) W3 B3 := rfl

theorem tr12_apply (x : Vec Ideal S2000x256 .f32) (i : S2000x256.Idx) : tr12 x i = x i := by
  unfold tr12
  rw [truncf_apply, shapeCast_self]

theorem first12_apply (h : Vec Ideal S2000x128 .f32) (w0 : Vec Ideal S128x64 .f32) (b0 : Vec Ideal S1x64 .f32) (p : Fin 2000) (q : Fin 64) :
    first12 h w0 b0 (ix2 p q) = (∑ k : Fin 128, h (ix2 p k) * w0 (ix2 k q)) + b0 (ix2 0 q) := by
  unfold first12
  rw [addf_apply, mm12a_apply, bias12_apply, shapeCast_self]
  rfl

theorem step12_apply (acc : FVec Ideal S2000x64 .f32) (xb : FVec Ideal S2000x256 .bf16) (Wk : Vec Ideal S1x256x64 .f32) (Bk : Vec Ideal S1x64 .f32)
    (p : Fin 2000) (q : Fin 64) :
    step12 acc xb Wk Bk (ix2 p q) = (acc (ix2 p q) + ∑ k : Fin 256, xb (ix2 p k) * Wk (ix3 0 k q)) + Bk (ix2 0 q) := by
  unfold step12
  rw [addf_apply, addf_apply, mm12b_apply, bias12_apply]
  refine congrArg (· + Bk (ix2 0 q)) (congrArg (acc (ix2 p q) + ·) (Finset.sum_congr rfl fun k _ => ?_))
  rw [truncf_apply, wcast12_apply]

/-- The payload at row `p` and column `q`: the five products and five bias entries, summed in the body's order. -/
theorem pay12_apply (h : Vec Ideal S2000x128 .f32) (x1 x2 x3 x4 : Vec Ideal S2000x256 .f32) (w0 : Vec Ideal S128x64 .f32)
    (b0 : Vec Ideal S1x64 .f32) (W0 W1 W2 W3 : Vec Ideal S1x256x64 .f32) (B0 B1 B2 B3 : Vec Ideal S1x64 .f32) (p : Fin 2000) (q : Fin 64) :
    k12_pay1 (k12_pay2 h w0 b0 x1 W0 B0 x2 W1 B1) (k12_pay3 x3) W2 B2 x4 W3 B3 (ix2 p q)
      = (((((((((∑ k : Fin 128, h (ix2 p k) * w0 (ix2 k q)) + b0 (ix2 0 q)) + ∑ k : Fin 256, x1 (ix2 p k) * W0 (ix3 0 k q)) + B0 (ix2 0 q))
          + ∑ k : Fin 256, x2 (ix2 p k) * W1 (ix3 0 k q)) + B1 (ix2 0 q)) + ∑ k : Fin 256, x3 (ix2 p k) * W2 (ix3 0 k q)) + B2 (ix2 0 q))
          + ∑ k : Fin 256, x4 (ix2 p k) * W3 (ix3 0 k q)) + B3 (ix2 0 q) := by
  rw [pay12_eq, step12_apply, step12_apply, step12_apply, step12_apply, first12_apply]
  simp only [tr12_apply]

/-! ## The stacked parameters read through their slabs and rows -/

theorem ldpw12_0 (W : Vec Ideal S4x256x64 .f32) (k : Fin 256) (q : Fin 64) :
    View.ld W r12_pw0 (ix3 (0 : Fin 1) k q) = W (ix3 0 k q) := by
  refine congrArg W (funext fun a => Fin.ext ?_)
  match a with
  | ⟨0, _⟩ => rfl
  | ⟨1, _⟩ => show 0 + 1 * k.val = k.val; omega
  | ⟨2, _⟩ => show 0 + 1 * q.val = q.val; omega

theorem ldpw12_1 (W : Vec Ideal S4x256x64 .f32) (k : Fin 256) (q : Fin 64) :
    View.ld W r12_pw1 (ix3 (0 : Fin 1) k q) = W (ix3 1 k q) := by
  refine congrArg W (funext fun a => Fin.ext ?_)
  match a with
  | ⟨0, _⟩ => rfl
  | ⟨1, _⟩ => show 0 + 1 * k.val = k.val; omega
  | ⟨2, _⟩ => show 0 + 1 * q.val = q.val; omega

theorem ldpw12_2 (W : Vec Ideal S4x256x64 .f32) (k : Fin 256) (q : Fin 64) :
    View.ld W r12_pw2 (ix3 (0 : Fin 1) k q) = W (ix3 2 k q) := by
  refine congrArg W (funext fun a => Fin.ext ?_)
  match a with
  | ⟨0, _⟩ => rfl
  | ⟨1, _⟩ => show 0 + 1 * k.val = k.val; omega
  | ⟨2, _⟩ => show 0 + 1 * q.val = q.val; omega

theorem ldpw12_3 (W : Vec Ideal S4x256x64 .f32) (k : Fin 256) (q : Fin 64) :
    View.ld W r12_pw3 (ix3 (0 : Fin 1) k q) = W (ix3 3 k q) := by
  refine congrArg W (funext fun a => Fin.ext ?_)
  match a with
  | ⟨0, _⟩ => rfl
  | ⟨1, _⟩ => show 0 + 1 * k.val = k.val; omega
  | ⟨2, _⟩ => show 0 + 1 * q.val = q.val; omega

theorem ldpb12_0 (B : Vec Ideal S4x64 .f32) (q : Fin 64) :
    View.ld B r12_pb0 (ix2 (0 : Fin 1) q) = B (ix2 0 q) := by
  refine congrArg B (funext fun a => Fin.ext ?_)
  match a with
  | ⟨0, _⟩ => rfl
  | ⟨1, _⟩ => show 0 + 1 * q.val = q.val; omega

theorem ldpb12_1 (B : Vec Ideal S4x64 .f32) (q : Fin 64) :
    View.ld B r12_pb1 (ix2 (0 : Fin 1) q) = B (ix2 1 q) := by
  refine congrArg B (funext fun a => Fin.ext ?_)
  match a with
  | ⟨0, _⟩ => rfl
  | ⟨1, _⟩ => show 0 + 1 * q.val = q.val; omega

theorem ldpb12_2 (B : Vec Ideal S4x64 .f32) (q : Fin 64) :
    View.ld B r12_pb2 (ix2 (0 : Fin 1) q) = B (ix2 2 q) := by
  refine congrArg B (funext fun a => Fin.ext ?_)
  match a with
  | ⟨0, _⟩ => rfl
  | ⟨1, _⟩ => show 0 + 1 * q.val = q.val; omega

theorem ldpb12_3 (B : Vec Ideal S4x64 .f32) (q : Fin 64) :
    View.ld B r12_pb3 (ix2 (0 : Fin 1) q) = B (ix2 3 q) := by
  refine congrArg B (funext fun a => Fin.ext ?_)
  match a with
  | ⟨0, _⟩ => rfl
  | ⟨1, _⟩ => show 0 + 1 * q.val = q.val; omega

/-! ## One entry of the stored block against the whole-array head -/

open Cert.Spec in
/-- At row `p` of a block whose rows are rows `i 0` of the arrays, and column `i 1`, the stored payload is the head of
    the arrays at `i`: the five products and the five bias entries in the same order on both sides. The loaded slabs
    `Wk` and rows `Bk` are slab `k` and row `k` of the stacked parameters. -/
theorem head12_point (H : Arr 50000 128) (X1 X2 X3 X4 : Arr 50000 256) (P0 : Arr 128 64) (C0 : Arr 1 64) (PW : Stack 4 256 64) (PB : Arr 4 64)
    (h : Vec Ideal S2000x128 .f32) (x1 x2 x3 x4 : Vec Ideal S2000x256 .f32) (w0 : Vec Ideal S128x64 .f32) (b0 : Vec Ideal S1x64 .f32)
    (W0 W1 W2 W3 : Vec Ideal S1x256x64 .f32) (B0 B1 B2 B3 : Vec Ideal S1x64 .f32)
    (i : S50000x64.Idx) (p : Fin 2000) (q : Fin 64) (hq : i 1 = q)
    (hh : ∀ k, h (ix2 p k) = H (ix2 (i 0) k)) (h1 : ∀ k, x1 (ix2 p k) = X1 (ix2 (i 0) k)) (h2 : ∀ k, x2 (ix2 p k) = X2 (ix2 (i 0) k))
    (h3 : ∀ k, x3 (ix2 p k) = X3 (ix2 (i 0) k)) (h4 : ∀ k, x4 (ix2 p k) = X4 (ix2 (i 0) k))
    (hw0 : w0 = P0) (hb0 : b0 = C0)
    (hW0 : ∀ k q, W0 (ix3 0 k q) = PW (ix3 0 k q)) (hW1 : ∀ k q, W1 (ix3 0 k q) = PW (ix3 1 k q))
    (hW2 : ∀ k q, W2 (ix3 0 k q) = PW (ix3 2 k q)) (hW3 : ∀ k q, W3 (ix3 0 k q) = PW (ix3 3 k q))
    (hB0 : ∀ q, B0 (ix2 0 q) = PB (ix2 0 q)) (hB1 : ∀ q, B1 (ix2 0 q) = PB (ix2 1 q))
    (hB2 : ∀ q, B2 (ix2 0 q) = PB (ix2 2 q)) (hB3 : ∀ q, B3 (ix2 0 q) = PB (ix2 3 q)) :
    k12_pay1 (k12_pay2 h w0 b0 x1 W0 B0 x2 W1 B1) (k12_pay3 x3) W2 B2 x4 W3 B3 (ix2 p q)
      = head H X1 X2 X3 X4 P0 (row C0 0) (slab PW 0) (slab PW 1) (slab PW 2) (slab PW 3) (row PB 0) (row PB 1) (row PB 2) (row PB 3) i := by
  subst hw0 hb0
  refine (pay12_apply h x1 x2 x3 x4 w0 b0 W0 W1 W2 W3 B0 B1 B2 B3 p q).trans ?_
  unfold head mm row slab
  simp only [hq, hh, h1, h2, h3, h4, hW0, hW1, hW2, hW3, hB0, hB1, hB2, hB3]

/-! ## From the blocks to the array -/

variable (V : (c : Dev nD) → (b : Ref sig .tc) → Buf (Elt Ideal) ((c : Thread nD τ).loc b))

/-- The region's input arrays as it finds them, at their literal types. -/
abbrev arr12_0 (c : Dev nD) : Cert.Spec.Arr 50000 128 := V c (Pipeline.arrRef spec12 0)
abbrev arr12_1 (c : Dev nD) : Cert.Spec.Arr 50000 256 := V c (Pipeline.arrRef spec12 1)
abbrev arr12_2 (c : Dev nD) : Cert.Spec.Arr 50000 256 := V c (Pipeline.arrRef spec12 2)
abbrev arr12_3 (c : Dev nD) : Cert.Spec.Arr 50000 256 := V c (Pipeline.arrRef spec12 3)
abbrev arr12_4 (c : Dev nD) : Cert.Spec.Arr 50000 256 := V c (Pipeline.arrRef spec12 4)
abbrev arr12_5 (c : Dev nD) : Cert.Spec.Arr 128 64 := V c (Pipeline.arrRef spec12 5)
abbrev arr12_6 (c : Dev nD) : Cert.Spec.Arr 1 64 := V c (Pipeline.arrRef spec12 6)
abbrev arr12_7 (c : Dev nD) : Cert.Spec.Stack 4 256 64 := V c (Pipeline.arrRef spec12 7)
abbrev arr12_8 (c : Dev nD) : Cert.Spec.Arr 4 64 := V c (Pipeline.arrRef spec12 8)

/-- The head of those arrays: what the result array ends holding. -/
abbrev res12 (c : Dev nD) : Cert.Spec.Arr 50000 64 :=
  Cert.Spec.head (arr12_0 V c) (arr12_1 V c) (arr12_2 V c) (arr12_3 V c) (arr12_4 V c) (arr12_5 V c) (Cert.Spec.row (arr12_6 V c) 0)
    (Cert.Spec.slab (arr12_7 V c) 0) (Cert.Spec.slab (arr12_7 V c) 1) (Cert.Spec.slab (arr12_7 V c) 2) (Cert.Spec.slab (arr12_7 V c) 3)
    (Cert.Spec.row (arr12_8 V c) 0) (Cert.Spec.row (arr12_8 V c) 1) (Cert.Spec.row (arr12_8 V c) 2) (Cert.Spec.row (arr12_8 V c) 3)

theorem hz12 : (![0, 0] : Fin 2 → Nat) = fun _ => 0 := funext fun a => by fin_cases a <;> rfl

/-- The block indices over the grid, decided: the row windows (0–4 and the result's) are at block `t` of their rows at
    point `t`, the parameter windows (5–8) always at their one block. -/
theorem idx_facts12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 3) = 0 ∧ win12_7.index t (1 : Fin 3) = 0 ∧ win12_7.index t (2 : Fin 3) = 0
    ∧ win12_8.index t (0 : Fin 2) = 0 ∧ win12_8.index t (1 : Fin 2) = 0
    ∧ win12_9.index t (0 : Fin 2) = t.val ∧ win12_9.index t (1 : Fin 2) = 0 :=
  (by decide +kernel : ∀ t : Fin grid12.N, _)

/-- A row of window 0's block at point `t` is the array's row the point's block index places it at. -/
theorem blk12_0 (c : Dev nD) (t : Fin cfg12.N) (i : S50000x64.Idx) (p : Fin 2000) (hi : (i 0).val = t.val * 2000 + p.val) (k : Fin 128) :
    (iblk12 V c 0 t : Vec Ideal S2000x128 .f32) (ix2 p k) = arr12_0 V c (ix2 (i 0) k) := by
  have e := idx_facts12 t
  show arr12_0 V c (((cfg12.win 0).blk t).view.emb (ix2 p k)) = _
  refine congrArg (arr12_0 V c) (funext fun a => Fin.ext ?_)
  match a with
  | ⟨0, _⟩ => show win12_0.index t (0 : Fin 2) * 2000 + 1 * p.val = (i 0).val; omega
  | ⟨1, _⟩ => show win12_0.index t (1 : Fin 2) * 128 + 1 * k.val = k.val; omega

/-- A row of window 1's block at point `t` is the array's row the point's block index places it at. -/
theorem blk12_1 (c : Dev nD) (t : Fin cfg12.N) (i : S50000x64.Idx) (p : Fin 2000) (hi : (i 0).val = t.val * 2000 + p.val) (k : Fin 256) :
    (iblk12 V c 1 t : Vec Ideal S2000x256 .f32) (ix2 p k) = arr12_1 V c (ix2 (i 0) k) := by
  have e := idx_facts12 t
  show arr12_1 V c (((cfg12.win 1).blk t).view.emb (ix2 p k)) = _
  refine congrArg (arr12_1 V c) (funext fun a => Fin.ext ?_)
  match a with
  | ⟨0, _⟩ => show win12_1.index t (0 : Fin 2) * 2000 + 1 * p.val = (i 0).val; omega
  | ⟨1, _⟩ => show win12_1.index t (1 : Fin 2) * 256 + 1 * k.val = k.val; omega

/-- A row of window 2's block at point `t` is the array's row the point's block index places it at. -/
theorem blk12_2 (c : Dev nD) (t : Fin cfg12.N) (i : S50000x64.Idx) (p : Fin 2000) (hi : (i 0).val = t.val * 2000 + p.val) (k : Fin 256) :
    (iblk12 V c 2 t : Vec Ideal S2000x256 .f32) (ix2 p k) = arr12_2 V c (ix2 (i 0) k) := by
  have e := idx_facts12 t
  show arr12_2 V c (((cfg12.win 2).blk t).view.emb (ix2 p k)) = _
  refine congrArg (arr12_2 V c) (funext fun a => Fin.ext ?_)
  match a with
  | ⟨0, _⟩ => show win12_2.index t (0 : Fin 2) * 2000 + 1 * p.val = (i 0).val; omega
  | ⟨1, _⟩ => show win12_2.index t (1 : Fin 2) * 256 + 1 * k.val = k.val; omega

/-- A row of window 3's block at point `t` is the array's row the point's block index places it at. -/
theorem blk12_3 (c : Dev nD) (t : Fin cfg12.N) (i : S50000x64.Idx) (p : Fin 2000) (hi : (i 0).val = t.val * 2000 + p.val) (k : Fin 256) :
    (iblk12 V c 3 t : Vec Ideal S2000x256 .f32) (ix2 p k) = arr12_3 V c (ix2 (i 0) k) := by
  have e := idx_facts12 t
  show arr12_3 V c (((cfg12.win 3).blk t).view.emb (ix2 p k)) = _
  refine congrArg (arr12_3 V c) (funext fun a => Fin.ext ?_)
  match a with
  | ⟨0, _⟩ => show win12_3.index t (0 : Fin 2) * 2000 + 1 * p.val = (i 0).val; omega
  | ⟨1, _⟩ => show win12_3.index t (1 : Fin 2) * 256 + 1 * k.val = k.val; omega

/-- A row of window 4's block at point `t` is the array's row the point's block index places it at. -/
theorem blk12_4 (c : Dev nD) (t : Fin cfg12.N) (i : S50000x64.Idx) (p : Fin 2000) (hi : (i 0).val = t.val * 2000 + p.val) (k : Fin 256) :
    (iblk12 V c 4 t : Vec Ideal S2000x256 .f32) (ix2 p k) = arr12_4 V c (ix2 (i 0) k) := by
  have e := idx_facts12 t
  show arr12_4 V c (((cfg12.win 4).blk t).view.emb (ix2 p k)) = _
  refine congrArg (arr12_4 V c) (funext fun a => Fin.ext ?_)
  match a with
  | ⟨0, _⟩ => show win12_4.index t (0 : Fin 2) * 2000 + 1 * p.val = (i 0).val; omega
  | ⟨1, _⟩ => show win12_4.index t (1 : Fin 2) * 256 + 1 * k.val = k.val; omega

/-- Window 5's block is its whole array at every point. -/
theorem blk12_5 (c : Dev nD) (t : Fin cfg12.N) : (iblk12 V c 5 t : Vec Ideal S128x64 .f32) = arr12_5 V c := by
  have e := idx_facts12 t
  funext y
  show arr12_5 V c (((cfg12.win 5).blk t).view.emb y) = _
  refine congrArg (arr12_5 V c) (funext fun a => Fin.ext ?_)
  match a with
  | ⟨0, _⟩ => show win12_5.index t (0 : Fin 2) * 128 + 1 * (y 0).val = (y 0).val; omega
  | ⟨1, _⟩ => show win12_5.index t (1 : Fin 2) * 64 + 1 * (y 1).val = (y 1).val; omega

/-- Window 6's block is its whole array at every point. -/
theorem blk12_6 (c : Dev nD) (t : Fin cfg12.N) : (iblk12 V c 6 t : Vec Ideal S1x64 .f32) = arr12_6 V c := by
  have e := idx_facts12 t
  funext y
  show arr12_6 V c (((cfg12.win 6).blk t).view.emb y) = _
  refine congrArg (arr12_6 V c) (funext fun a => Fin.ext ?_)
  match a with
  | ⟨0, _⟩ => show win12_6.index t (0 : Fin 2) * 1 + 1 * (y 0).val = (y 0).val; omega
  | ⟨1, _⟩ => show win12_6.index t (1 : Fin 2) * 64 + 1 * (y 1).val = (y 1).val; omega

/-- Window 7's block is its whole array at every point. -/
theorem blk12_7 (c : Dev nD) (t : Fin cfg12.N) : (iblk12 V c 7 t : Vec Ideal S4x256x64 .f32) = arr12_7 V c := by
  have e := idx_facts12 t
  funext y
  show arr12_7 V c (((cfg12.win 7).blk t).view.emb y) = _
  refine congrArg (arr12_7 V c) (funext fun a => Fin.ext ?_)
  match a with
  | ⟨0, _⟩ => show win12_7.index t (0 : Fin 3) * 4 + 1 * (y 0).val = (y 0).val; omega
  | ⟨1, _⟩ => show win12_7.index t (1 : Fin 3) * 256 + 1 * (y 1).val = (y 1).val; omega
  | ⟨2, _⟩ => show win12_7.index t (2 : Fin 3) * 64 + 1 * (y 2).val = (y 2).val; omega
/-- Window 8's block is its whole array at every point. -/
theorem blk12_8 (c : Dev nD) (t : Fin cfg12.N) : (iblk12 V c 8 t : Vec Ideal S4x64 .f32) = arr12_8 V c := by
  have e := idx_facts12 t
  funext y
  show arr12_8 V c (((cfg12.win 8).blk t).view.emb y) = _
  refine congrArg (arr12_8 V c) (funext fun a => Fin.ext ?_)
  match a with
  | ⟨0, _⟩ => show win12_8.index t (0 : Fin 2) * 4 + 1 * (y 0).val = (y 0).val; omega
  | ⟨1, _⟩ => show win12_8.index t (1 : Fin 2) * 64 + 1 * (y 1).val = (y 1).val; omega

/-- What point `t` writes back is block `t` of the head of the arrays. -/
theorem flushed12_eq (c : Dev nD) (t : Fin cfg12.N) :
    (dat12 V c).flushed 9 t = ((cfg12.win 9).blk t).view.read (Elt Ideal) (res12 V c) := by
  show (cfg12.win 9).cut (grid12.coords t) ((dat12 V c).after 9 t) = _
  rw [after12_9]
  unfold out12_9
  rw [View.canon_unit_zero hz12]
  simp only [View.ld_unit_zero (S := S2000x128) hz12, View.ld_unit_zero (S := S2000x256) hz12,
    View.ld_unit_zero (S := S128x64) hz12, View.ld_unit_zero (S := S1x64) hz12]
  have e := idx_facts12 t
  funext j
  obtain ⟨p, q, rfl⟩ : ∃ (p : Fin 2000) (q : Fin 64), j = ix2 p q := ⟨j 0, j 1, eq_ix2 j⟩
  have hi0 : ((((cfg12.win 9).blk t).view.emb (ix2 p q) : S50000x64.Idx) 0).val = t.val * 2000 + p.val := by
    show win12_9.index t (0 : Fin 2) * 2000 + 1 * p.val = _; omega
  have hi1 : (((cfg12.win 9).blk t).view.emb (ix2 p q) : S50000x64.Idx) 1 = q := by
    apply Fin.ext; show win12_9.index t (1 : Fin 2) * 64 + 1 * q.val = _; omega
  exact head12_point (arr12_0 V c) (arr12_1 V c) (arr12_2 V c) (arr12_3 V c) (arr12_4 V c) (arr12_5 V c) (arr12_6 V c) (arr12_7 V c) (arr12_8 V c)
    (iblk12 V c 0 t) (iblk12 V c 1 t) (iblk12 V c 2 t) (iblk12 V c 3 t) (iblk12 V c 4 t) (iblk12 V c 5 t) (iblk12 V c 6 t)
    (View.ld (iblk12 V c 7 t) r12_pw0) (View.ld (iblk12 V c 7 t) r12_pw1) (View.ld (iblk12 V c 7 t) r12_pw2) (View.ld (iblk12 V c 7 t) r12_pw3)
    (View.ld (iblk12 V c 8 t) r12_pb0) (View.ld (iblk12 V c 8 t) r12_pb1) (View.ld (iblk12 V c 8 t) r12_pb2) (View.ld (iblk12 V c 8 t) r12_pb3)
    (((cfg12.win 9).blk t).view.emb (ix2 p q)) p q hi1
    (blk12_0 V c t _ p hi0) (blk12_1 V c t _ p hi0) (blk12_2 V c t _ p hi0) (blk12_3 V c t _ p hi0) (blk12_4 V c t _ p hi0)
    (blk12_5 V c t) (blk12_6 V c t)
    (fun k q => (ldpw12_0 (iblk12 V c 7 t) k q).trans (congrFun (blk12_7 V c t) _))
    (fun k q => (ldpw12_1 (iblk12 V c 7 t) k q).trans (congrFun (blk12_7 V c t) _))
    (fun k q => (ldpw12_2 (iblk12 V c 7 t) k q).trans (congrFun (blk12_7 V c t) _))
    (fun k q => (ldpw12_3 (iblk12 V c 7 t) k q).trans (congrFun (blk12_7 V c t) _))
    (fun q => (ldpb12_0 (iblk12 V c 8 t) q).trans (congrFun (blk12_8 V c t) _))
    (fun q => (ldpb12_1 (iblk12 V c 8 t) q).trans (congrFun (blk12_8 V c t) _))
    (fun q => (ldpb12_2 (iblk12 V c 8 t) q).trans (congrFun (blk12_8 V c t) _))
    (fun q => (ldpb12_3 (iblk12 V c 8 t) q).trans (congrFun (blk12_8 V c t) _))

/-- An index of the result array is in point `t`'s block iff each coordinate is in the block's range on its axis. -/
theorem mem_blk12 (t : Fin cfg12.N) (i : S50000x64.Idx) :
    i ∈ ((cfg12.win 9).blk t).view.set ↔ ∀ a : Fin 2, win12_9.index t a * S2000x64.size a ≤ (i a).val ∧ (i a).val < win12_9.index t a * S2000x64.size a + S2000x64.size a := by
  show i ∈ ((View.whole main_v215).slice (win12_9.rect t)).set ↔ _
  rw [View.set_slice_whole, Rect.mem_set_unit]
  exact Iff.rfl

/-- Row `r` of the result is written back by point `r / 2000`: the 25 blocks of 2000 rows fill the 50000 rows. -/
theorem cover12 (i : S50000x64.Idx) : ∃ t : Fin cfg12.N, (cfg12.win 9).flush t = true ∧ i ∈ ((cfg12.win 9).blk t).view.set := by
  have hi0 : (i 0).val < 50000 := (i 0).isLt
  have hi1 : (i 1).val < 64 := (i 1).isLt
  have hN : (i 0).val / 2000 < cfg12.N := by show (i 0).val / 2000 < 25; omega
  refine ⟨⟨(i 0).val / 2000, hN⟩, flush12_9 _, ?_⟩
  have e := idx_facts12 ⟨(i 0).val / 2000, hN⟩
  rw [mem_blk12]
  intro a
  match a with
  | ⟨0, _⟩ =>
    show win12_9.index ⟨(i 0).val / 2000, hN⟩ (0 : Fin 2) * 2000 ≤ (i 0).val ∧ (i 0).val < win12_9.index ⟨(i 0).val / 2000, hN⟩ (0 : Fin 2) * 2000 + 2000
    have : win12_9.index ⟨(i 0).val / 2000, hN⟩ (0 : Fin 2) = (i 0).val / 2000 := e.2.2.2.2.2.2.2.2.2.2.2.2.2.2.2.2.2.2.2.1
    omega
  | ⟨1, _⟩ =>
    show win12_9.index ⟨(i 0).val / 2000, hN⟩ (1 : Fin 2) * 64 ≤ (i 1).val ∧ (i 1).val < win12_9.index ⟨(i 0).val / 2000, hN⟩ (1 : Fin 2) * 64 + 64
    have : win12_9.index ⟨(i 0).val / 2000, hN⟩ (1 : Fin 2) = 0 := e.2.2.2.2.2.2.2.2.2.2.2.2.2.2.2.2.2.2.2.2
    omega

/-- THE RESULT ARRAY after the region: the head of the input arrays as the region finds them, entry by entry. -/
theorem val12_out (c : Dev nD) :
    ((dat12 V c).arrAt 9 cfg12.N : Cert.Spec.Arr 50000 64)
      = Cert.Spec.head (V c (Pipeline.arrRef spec12 0) : Cert.Spec.Arr 50000 128) (V c (Pipeline.arrRef spec12 1)) (V c (Pipeline.arrRef spec12 2))
          (V c (Pipeline.arrRef spec12 3)) (V c (Pipeline.arrRef spec12 4)) (V c (Pipeline.arrRef spec12 5) : Cert.Spec.Arr 128 64)
          (Cert.Spec.row (V c (Pipeline.arrRef spec12 6) : Cert.Spec.Arr 1 64) 0)
          (Cert.Spec.slab (V c (Pipeline.arrRef spec12 7) : Cert.Spec.Stack 4 256 64) 0) (Cert.Spec.slab (V c (Pipeline.arrRef spec12 7) : Cert.Spec.Stack 4 256 64) 1)
          (Cert.Spec.slab (V c (Pipeline.arrRef spec12 7) : Cert.Spec.Stack 4 256 64) 2) (Cert.Spec.slab (V c (Pipeline.arrRef spec12 7) : Cert.Spec.Stack 4 256 64) 3)
          (Cert.Spec.row (V c (Pipeline.arrRef spec12 8) : Cert.Spec.Arr 4 64) 0) (Cert.Spec.row (V c (Pipeline.arrRef spec12 8) : Cert.Spec.Arr 4 64) 1)
          (Cert.Spec.row (V c (Pipeline.arrRef spec12 8) : Cert.Spec.Arr 4 64) 2) (Cert.Spec.row (V c (Pipeline.arrRef spec12 8) : Cert.Spec.Arr 4 64) 3) :=
  (dat12 V c).arrAt_eq_of_cover 9 (res12 V c) (fun t _ => flushed12_eq V c t) cover12

end Cert.KernelIdeal.HandV

end
-- ==== Proof.KerValue.lean ====
/-
  The kernel program's value with every region's value lemma supplied: the result buffer holds the network of the
  specification at the kernel's column variance. Each region's lemma is first restated at the form the value chain
  takes it in (the region's input arrays written as the entry contents at the arrays' buffers, the normalised product
  written out), one lemma per region fact; the chain is then applied to those.
-/
import proofs.«148047_j37898791420018_1_alg».proof.Proof.KI.Val
import proofs.«148047_j37898791420018_1_alg».proof.Proof.KI.V0
import proofs.«148047_j37898791420018_1_alg».proof.Proof.KI.V1
import proofs.«148047_j37898791420018_1_alg».proof.Proof.KI.V2
import proofs.«148047_j37898791420018_1_alg».proof.Proof.KI.V3
import proofs.«148047_j37898791420018_1_alg».proof.Proof.KI.V4
import proofs.«148047_j37898791420018_1_alg».proof.Proof.KI.V5
import proofs.«148047_j37898791420018_1_alg».proof.Proof.KI.V6
import proofs.«148047_j37898791420018_1_alg».proof.Proof.KI.V7
import proofs.«148047_j37898791420018_1_alg».proof.Proof.KI.V8
import proofs.«148047_j37898791420018_1_alg».proof.Proof.KI.V9
import proofs.«148047_j37898791420018_1_alg».proof.Proof.KI.V10
import proofs.«148047_j37898791420018_1_alg».proof.Proof.KI.V11
import proofs.«148047_j37898791420018_1_alg».proof.Proof.KI.V12
import proofs.«148047_j37898791420018_1_alg».proof.Proof.Bridge

noncomputable section

namespace Cert.Proof

open Cert.KernelIdeal Cert.KernelIdeal.Gen Cert.KernelIdeal.Hand Cert.KernelIdeal.HandV
open Idealize.ShloMosaic Idealize.ShloMosaic.TcCoe

/-! ## Layer 0: regions 0, 1, 2 -/

set_option maxHeartbeats 1000000 in
theorem in_hv0 : HV0 := fun V c => val0_prod V c
set_option maxHeartbeats 1000000 in
theorem in_hs0 : HS0 := fun V c j => val0_stats V c j
set_option maxHeartbeats 1000000 in
theorem in_hv1 : HV1 := fun V c => by
  have h := val1_prod V c
  unfold Y1 at h
  exact h
set_option maxHeartbeats 1000000 in
theorem in_hs1 : HS1 := fun V c j => by
  have h := val1_stats V c j
  unfold Y1 at h
  exact h
set_option maxHeartbeats 1000000 in
theorem in_hv2 : HV2 := fun V c => val2_out V c

/-! ## Layer 1: regions 3, 4, 5 -/

set_option maxHeartbeats 1000000 in
theorem in_hv3 : HV3 := fun V c => val3_prod V c
set_option maxHeartbeats 1000000 in
theorem in_hs3 : HS3 := fun V c j => val3_stats V c j
set_option maxHeartbeats 1000000 in
theorem in_hv4 : HV4 := fun V c => by
  have h := val4_prod V c
  unfold Y4 at h
  exact h
set_option maxHeartbeats 1000000 in
theorem in_hs4 : HS4 := fun V c j => by
  have h := val4_stats V c j
  unfold Y4 at h
  exact h
set_option maxHeartbeats 1000000 in
theorem in_hv5 : HV5 := fun V c => val5_out V c

/-! ## Layer 2: regions 6, 7, 8 -/

set_option maxHeartbeats 1000000 in
theorem in_hv6 : HV6 := fun V c => val6_prod V c
set_option maxHeartbeats 1000000 in
theorem in_hs6 : HS6 := fun V c j => val6_stats V c j
set_option maxHeartbeats 1000000 in
theorem in_hv7 : HV7 := fun V c => by
  have h := val7_prod V c
  unfold Y7 at h
  exact h
set_option maxHeartbeats 1000000 in
theorem in_hs7 : HS7 := fun V c j => by
  have h := val7_stats V c j
  unfold Y7 at h
  exact h
set_option maxHeartbeats 1000000 in
theorem in_hv8 : HV8 := fun V c => val8_out V c

/-! ## Layer 3: regions 9, 10, 11 -/

set_option maxHeartbeats 1000000 in
theorem in_hv9 : HV9 := fun V c => val9_prod V c
set_option maxHeartbeats 1000000 in
theorem in_hs9 : HS9 := fun V c j => val9_stats V c j
set_option maxHeartbeats 1000000 in
theorem in_hv10 : HV10 := fun V c => by
  have h := val10_prod V c
  unfold Y10 at h
  exact h
set_option maxHeartbeats 1000000 in
theorem in_hs10 : HS10 := fun V c j => by
  have h := val10_stats V c j
  unfold Y10 at h
  exact h
set_option maxHeartbeats 1000000 in
theorem in_hv11 : HV11 := fun V c => val11_out V c

/-! ## The whole chain -/

set_option maxHeartbeats 4000000 in
/-- Each region leaves what its value lemma says, whatever it is entered at; the chain through the host glue does the rest. -/
theorem ker_value_all : Cert.Proof.Bridge.KerValue := by
  intro m c
  exact ker_value in_hv0 in_hs0 in_hv1 in_hs1 in_hv2 in_hv3 in_hs3 in_hv4 in_hs4 in_hv5
    in_hv6 in_hs6 in_hv7 in_hs7 in_hv8 in_hv9 in_hs9 in_hv10 in_hs10 in_hv11
    (fun V c => val12_out V c) m c

end Cert.Proof

end
-- ==== Proof.lean ====
/-
  A four-layer graph network on 50000 nodes and 800000 edges. Each layer adds to every node's row the sum of its
  in-neighbours' rows (a gather at the edge sources, an accumulating scatter at the edge destinations), applies a matrix
  product, a batch normalisation over the 50000 rows with a rectifier, a second matrix product and a second
  normalisation with a rectifier; linear heads over the input and the four layers' outputs are summed at the end.

  The kernel runs the products, normalisations and heads in thirteen tiled regions of 25 blocks of 2000 rows, the
  aggregation and the small per-column arithmetic on the host between them; the two product kernels also accumulate,
  in a scratch carried from block to block, the column sums of the product and of its square, from which the host takes
  the column mean and the column variance as (mean of squares) − (mean)². The reference takes the variance as the mean
  of the squared deviations from the mean. These are equal on real numbers, and every number met is real: the
  precondition says so of the inputs, sums and products of reals are real, a variance of reals is a nonnegative real,
  so the variance plus the small positive constant has a real reciprocal square root. Everything else the two programs
  compute is the same arithmetic in the same order (a change of float format is the identity on exact values, a tiled
  product is the whole product, a sum over blocks is the sum over all rows).

  The three frames: each kernel region's proof data and body are in Proof/K and Proof/KI (one text, read at the word
  level and at the exact values), assembled over the host glue into one run of @main; the reference is a straight line
  of host operations, none writing an argument. The ideal pass rewrote nothing, so its conjunct is trivial.
-/
import proofs.«148047_j37898791420018_1_alg».proof.Defs
import proofs.«148047_j37898791420018_1_alg».proof.Proof.Gen.Kernel
import proofs.«148047_j37898791420018_1_alg».proof.Proof.Gen.KernelIdeal
import proofs.«148047_j37898791420018_1_alg».proof.Proof.Gen.ReferenceIdeal
import proofs.«148047_j37898791420018_1_alg».proof.Proof.Gen.Pre_finite_inputs
import proofs.«148047_j37898791420018_1_alg».proof.Proof.K.Run
import proofs.«148047_j37898791420018_1_alg».proof.Proof.KI.Run
import proofs.«148047_j37898791420018_1_alg».proof.Proof.Ref.Frame
import proofs.«148047_j37898791420018_1_alg».proof.Proof.Bridge
import proofs.«148047_j37898791420018_1_alg».proof.Proof.KerValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  Cert.Proof.Bridge.algebraic_of Cert.Proof.ker_value_all⟩

end Cert.Proof

end
